-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v189)) (v1 : (c : Dev Cert.KernelIdeal.nD) → Buf (Elt Ideal) ((c.tc : Thread Cert.KernelIdeal.nD Cert.KernelIdeal.τ).loc Cert.KernelIdeal.main_v190)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189) = v0 c
          ∧ r.2.mem ((c.tc : Thread Cert.KernelIdeal.nD Cert.KernelIdeal.τ).loc Cert.KernelIdeal.main_v190) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg20 : FVec F S64 .f32) (main_arg21 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg16 : FVec F S64x64 .f32) (main_arg17 : FVec F S64 .f32) (main_arg18 : FVec F S64x64 .f32) (main_arg19 : FVec F S64 .f32) (main_arg20 : FVec F S64 .f32) (main_arg21 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : IVec S50000 32) (main_arg3 : FVec F S800000 .f32) (main_arg4 : FVec F S128x64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_arg20 : FVec F S64 .f32) (main_arg21 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S50000x1 : Shape := ⟨2, ![50000, 1]⟩
abbrev S_ : Shape := ⟨0, ![]⟩
abbrev S800000x1 : Shape := ⟨2, ![800000, 1]⟩
abbrev S128 : Shape := ⟨1, ![128]⟩
abbrev S800000x128 : Shape := ⟨2, ![800000, 128]⟩
abbrev S1x64 : Shape := ⟨2, ![1, 64]⟩
abbrev S1x128 : Shape := ⟨2, ![1, 128]⟩
abbrev S50000x64 : Shape := ⟨2, ![50000, 64]⟩
abbrev S2x1x64 : Shape := ⟨3, ![2, 1, 64]⟩
abbrev S2x256x64 : Shape := ⟨3, ![2, 256, 64]⟩
abbrev S2x1x256 : Shape := ⟨3, ![2, 1, 256]⟩
abbrev S5000x128 : Shape := ⟨2, ![5000, 128]⟩
abbrev S5000x1 : Shape := ⟨2, ![5000, 1]⟩
abbrev S5000x64 : Shape := ⟨2, ![5000, 64]⟩
abbrev S1x1x64 : Shape := ⟨3, ![1, 1, 64]⟩
abbrev S1x256x64 : Shape := ⟨3, ![1, 256, 64]⟩
abbrev S1x1x256 : Shape := ⟨3, ![1, 1, 256]⟩
abbrev S256x64 : Shape := ⟨2, ![256, 64]⟩
abbrev S1x256 : Shape := ⟨2, ![1, 256]⟩
abbrev S5000x256 : Shape := ⟨2, ![5000, 256]⟩
abbrev S256 : Shape := ⟨1, ![256]⟩
abbrev S256x1 : Shape := ⟨2, ![256, 1]⟩
abbrev S800000x64 : Shape := ⟨2, ![800000, 64]⟩
abbrev S25000x128 : Shape := ⟨2, ![25000, 128]⟩
abbrev S256x192 : Shape := ⟨2, ![256, 192]⟩

abbrev nBuf : Space → Nat
  | .hbm => 261
  | .vmem => 80
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S800000, .f32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64x64, .f32⟩
  | 17 => ⟨S64, .f32⟩
  | 18 => ⟨S64x64, .f32⟩
  | 19 => ⟨S64, .f32⟩
  | 20 => ⟨S64, .f32⟩
  | 21 => ⟨S64, .f32⟩
  | 22 => ⟨S1x800000, .i32⟩
  | 23 => ⟨S800000, .i32⟩
  | 24 => ⟨S1x800000, .i32⟩
  | 25 => ⟨S800000, .i32⟩
  | 26 => ⟨S50000x1, .i32⟩
  | 27 => ⟨S_, .f32⟩
  | 28 => ⟨S50000, .f32⟩
  | 29 => ⟨S800000x1, .i32⟩
  | 30 => ⟨S50000, .f32⟩
  | 31 => ⟨S50000x1, .f32⟩
  | 32 => ⟨S_, .f32⟩
  | 33 => ⟨S128, .f32⟩
  | 34 => ⟨S_, .f32⟩
  | 35 => ⟨S128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x1, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S1x64, .f32⟩
  | 53 => ⟨S1x64, .f32⟩
  | 54 => ⟨S1x128, .f32⟩
  | 55 => ⟨S1x128, .f32⟩
  | 56 => ⟨S50000x64, .f32⟩
  | 57 => ⟨S2x1x64, .f32⟩
  | 58 => ⟨S2x1x64, .f32⟩
  | 59 => ⟨S2x256x64, .f32⟩
  | 60 => ⟨S2x1x256, .f32⟩
  | 61 => ⟨S_, .f32⟩
  | 62 => ⟨S1x64, .f32⟩
  | 63 => ⟨S64, .f32⟩
  | 64 => ⟨S_, .f32⟩
  | 65 => ⟨S1x64, .f32⟩
  | 66 => ⟨S64, .f32⟩
  | 67 => ⟨S_, .f32⟩
  | 68 => ⟨S256x64, .f32⟩
  | 69 => ⟨S_, .f32⟩
  | 70 => ⟨S1x256, .f32⟩
  | 71 => ⟨S256, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S64, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S256x1, .f32⟩
  | 88 => ⟨S1x64, .f32⟩
  | 89 => ⟨S256x64, .f32⟩
  | 90 => ⟨S256x64, .f32⟩
  | 91 => ⟨S256x64, .f32⟩
  | 92 => ⟨S256x64, .f32⟩
  | 93 => ⟨S1x64, .f32⟩
  | 94 => ⟨S256x64, .f32⟩
  | 95 => ⟨S256x64, .f32⟩
  | 96 => ⟨S1x64, .f32⟩
  | 97 => ⟨S256x64, .f32⟩
  | 98 => ⟨S256x64, .f32⟩
  | 99 => ⟨S256x1, .f32⟩
  | 100 => ⟨S1x64, .f32⟩
  | 101 => ⟨S256x64, .f32⟩
  | 102 => ⟨S256x64, .f32⟩
  | 103 => ⟨S256x64, .f32⟩
  | 104 => ⟨S256x64, .f32⟩
  | 105 => ⟨S64, .f32⟩
  | 106 => ⟨S64, .f32⟩
  | 107 => ⟨S64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S800000x1, .f32⟩
  | 118 => ⟨S800000x64, .f32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S1x64, .f32⟩
  | 125 => ⟨S1x64, .f32⟩
  | 126 => ⟨S1x64, .f32⟩
  | 127 => ⟨S1x64, .f32⟩
  | _ => ⟨S50000x128, .f32⟩

abbrev hbmTy0_1 (i : Nat) : BufTy := match i % 128 with
  | 0 => ⟨S50000x64, .f32⟩
  | 1 => ⟨S2x1x64, .f32⟩
  | 2 => ⟨S2x1x64, .f32⟩
  | 3 => ⟨S2x256x64, .f32⟩
  | 4 => ⟨S2x1x256, .f32⟩
  | 5 => ⟨S_, .f32⟩
  | 6 => ⟨S1x64, .f32⟩
  | 7 => ⟨S64, .f32⟩
  | 8 => ⟨S_, .f32⟩
  | 9 => ⟨S1x64, .f32⟩
  | 10 => ⟨S64, .f32⟩
  | 11 => ⟨S_, .f32⟩
  | 12 => ⟨S256x64, .f32⟩
  | 13 => ⟨S_, .f32⟩
  | 14 => ⟨S1x256, .f32⟩
  | 15 => ⟨S256, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S256x1, .f32⟩
  | 32 => ⟨S1x64, .f32⟩
  | 33 => ⟨S256x64, .f32⟩
  | 34 => ⟨S256x64, .f32⟩
  | 35 => ⟨S256x64, .f32⟩
  | 36 => ⟨S256x64, .f32⟩
  | 37 => ⟨S1x64, .f32⟩
  | 38 => ⟨S256x64, .f32⟩
  | 39 => ⟨S256x64, .f32⟩
  | 40 => ⟨S1x64, .f32⟩
  | 41 => ⟨S256x64, .f32⟩
  | 42 => ⟨S256x64, .f32⟩
  | 43 => ⟨S256x1, .f32⟩
  | 44 => ⟨S1x64, .f32⟩
  | 45 => ⟨S256x64, .f32⟩
  | 46 => ⟨S256x64, .f32⟩
  | 47 => ⟨S256x64, .f32⟩
  | 48 => ⟨S256x64, .f32⟩
  | 49 => ⟨S64, .f32⟩
  | 50 => ⟨S64, .f32⟩
  | 51 => ⟨S64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x1, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S1x64, .f32⟩
  | 69 => ⟨S1x64, .f32⟩
  | 70 => ⟨S1x64, .f32⟩
  | 71 => ⟨S1x64, .f32⟩
  | 72 => ⟨S50000x64, .f32⟩
  | 73 => ⟨S2x1x64, .f32⟩
  | 74 => ⟨S2x1x64, .f32⟩
  | 75 => ⟨S2x256x64, .f32⟩
  | 76 => ⟨S2x1x256, .f32⟩
  | 77 => ⟨S_, .f32⟩
  | 78 => ⟨S1x64, .f32⟩
  | 79 => ⟨S64, .f32⟩
  | 80 => ⟨S_, .f32⟩
  | 81 => ⟨S1x64, .f32⟩
  | 82 => ⟨S64, .f32⟩
  | 83 => ⟨S_, .f32⟩
  | 84 => ⟨S256x64, .f32⟩
  | 85 => ⟨S_, .f32⟩
  | 86 => ⟨S1x256, .f32⟩
  | 87 => ⟨S256, .f32⟩
  | 88 => ⟨S_, .f32⟩
  | 89 => ⟨S64, .f32⟩
  | 90 => ⟨S64, .f32⟩
  | 91 => ⟨S_, .f32⟩
  | 92 => ⟨S64, .f32⟩
  | 93 => ⟨S64, .f32⟩
  | 94 => ⟨S64, .f32⟩
  | 95 => ⟨S64, .f32⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S256x1, .f32⟩
  | 104 => ⟨S1x64, .f32⟩
  | 105 => ⟨S256x64, .f32⟩
  | 106 => ⟨S256x64, .f32⟩
  | 107 => ⟨S256x64, .f32⟩
  | 108 => ⟨S256x64, .f32⟩
  | 109 => ⟨S1x64, .f32⟩
  | 110 => ⟨S256x64, .f32⟩
  | 111 => ⟨S256x64, .f32⟩
  | 112 => ⟨S1x64, .f32⟩
  | 113 => ⟨S256x64, .f32⟩
  | 114 => ⟨S256x64, .f32⟩
  | 115 => ⟨S256x1, .f32⟩
  | 116 => ⟨S1x64, .f32⟩
  | 117 => ⟨S256x64, .f32⟩
  | 118 => ⟨S256x64, .f32⟩
  | 119 => ⟨S256x64, .f32⟩
  | 120 => ⟨S256x64, .f32⟩
  | 121 => ⟨S25000x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S50000x128, .f32⟩

abbrev hbmTy0_2 (i : Nat) : BufTy := match i % 128 with
  | 0 => ⟨S128, .f32⟩
  | 1 => ⟨S1x128, .f32⟩
  | 2 => ⟨S25000x128, .f32⟩
  | 3 => ⟨S50000x64, .f32⟩
  | 4 => ⟨S256x192, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S1x128, .f32⟩
  | .local _ .vmem, ⟨7, _⟩ => ⟨S1x128, .f32⟩
  | .local _ .vmem, ⟨8, _⟩ => ⟨S5000x1, .i32⟩
  | .local _ .vmem, ⟨9, _⟩ => ⟨S5000x1, .i32⟩
  | .local _ .vmem, ⟨10, _⟩ => ⟨S128x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x1x64, .f32⟩
  | .local _ .vmem, ⟨17, _⟩ => ⟨S1x1x64, .f32⟩
  | .local _ .vmem, ⟨18, _⟩ => ⟨S1x1x64, .f32⟩
  | .local _ .vmem, ⟨19, _⟩ => ⟨S1x1x64, .f32⟩
  | .local _ .vmem, ⟨20, _⟩ => ⟨S1x256x64, .f32⟩
  | .local _ .vmem, ⟨21, _⟩ => ⟨S1x256x64, .f32⟩
  | .local _ .vmem, ⟨22, _⟩ => ⟨S1x1x256, .f32⟩
  | .local _ .vmem, ⟨23, _⟩ => ⟨S1x1x256, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S1x64, .f32⟩
  | .local _ .vmem, ⟨31, _⟩ => ⟨S1x64, .f32⟩
  | .local _ .vmem, ⟨32, _⟩ => ⟨S5000x1, .i32⟩
  | .local _ .vmem, ⟨33, _⟩ => ⟨S5000x1, .i32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S1x1x64, .f32⟩
  | .local _ .vmem, ⟨41, _⟩ => ⟨S1x1x64, .f32⟩
  | .local _ .vmem, ⟨42, _⟩ => ⟨S1x1x64, .f32⟩
  | .local _ .vmem, ⟨43, _⟩ => ⟨S1x1x64, .f32⟩
  | .local _ .vmem, ⟨44, _⟩ => ⟨S1x256x64, .f32⟩
  | .local _ .vmem, ⟨45, _⟩ => ⟨S1x256x64, .f32⟩
  | .local _ .vmem, ⟨46, _⟩ => ⟨S1x1x256, .f32⟩
  | .local _ .vmem, ⟨47, _⟩ => ⟨S1x1x256, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x1, .f32⟩
  | .local _ .vmem, ⟨53, _⟩ => ⟨S5000x1, .f32⟩
  | .local _ .vmem, ⟨54, _⟩ => ⟨S1x64, .f32⟩
  | .local _ .vmem, ⟨55, _⟩ => ⟨S1x64, .f32⟩
  | .local _ .vmem, ⟨56, _⟩ => ⟨S5000x1, .i32⟩
  | .local _ .vmem, ⟨57, _⟩ => ⟨S5000x1, .i32⟩
  | .local _ .vmem, ⟨58, _⟩ => ⟨S64x64, .f32⟩
  | .local _ .vmem, ⟨59, _⟩ => ⟨S1x64, .f32⟩
  | .local _ .vmem, ⟨60, _⟩ => ⟨S64x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | .local _ .vmem, ⟨64, _⟩ => ⟨S1x1x64, .f32⟩
  | .local _ .vmem, ⟨65, _⟩ => ⟨S1x1x64, .f32⟩
  | .local _ .vmem, ⟨66, _⟩ => ⟨S1x1x64, .f32⟩
  | .local _ .vmem, ⟨67, _⟩ => ⟨S1x1x64, .f32⟩
  | .local _ .vmem, ⟨68, _⟩ => ⟨S1x256x64, .f32⟩
  | .local _ .vmem, ⟨69, _⟩ => ⟨S1x256x64, .f32⟩
  | .local _ .vmem, ⟨70, _⟩ => ⟨S1x1x256, .f32⟩
  | .local _ .vmem, ⟨71, _⟩ => ⟨S1x1x256, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28_0 : Ref sig .tc := ⟨.hbm, 56, rfl⟩
abbrev main_v28_1 : Ref sig .tc := ⟨.hbm, 57, rfl⟩
abbrev main_v28_2 : Ref sig .tc := ⟨.hbm, 58, rfl⟩
abbrev main_v28_3 : Ref sig .tc := ⟨.hbm, 59, rfl⟩
abbrev main_v28_4 : Ref sig .tc := ⟨.hbm, 60, rfl⟩
abbrev main_cst_4 : Ref sig .tc := ⟨.hbm, 61, rfl⟩
abbrev main_v29 : Ref sig .tc := ⟨.hbm, 62, rfl⟩
abbrev main_v30 : Ref sig .tc := ⟨.hbm, 63, rfl⟩
abbrev main_cst_5 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_10 : Ref sig .tc := ⟨.hbm, 80, rfl⟩
abbrev main_v42 : Ref sig .tc := ⟨.hbm, 81, rfl⟩
abbrev main_v43 : Ref sig .tc := ⟨.hbm, 82, rfl⟩
abbrev main_cst_11 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_12 : Ref sig .tc := ⟨.hbm, 108, rfl⟩
abbrev main_v68 : Ref sig .tc := ⟨.hbm, 109, rfl⟩
abbrev main_v69 : Ref sig .tc := ⟨.hbm, 110, rfl⟩
abbrev main_c_13 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_14 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85_0 : Ref sig .tc := ⟨.hbm, 128, rfl⟩
abbrev main_v85_1 : Ref sig .tc := ⟨.hbm, 129, rfl⟩
abbrev main_v85_2 : Ref sig .tc := ⟨.hbm, 130, rfl⟩
abbrev main_v85_3 : Ref sig .tc := ⟨.hbm, 131, rfl⟩
abbrev main_v85_4 : Ref sig .tc := ⟨.hbm, 132, rfl⟩
abbrev main_cst_15 : Ref sig .tc := ⟨.hbm, 133, rfl⟩
abbrev main_v86 : Ref sig .tc := ⟨.hbm, 134, rfl⟩
abbrev main_v87 : Ref sig .tc := ⟨.hbm, 135, rfl⟩
abbrev main_cst_16 : Ref sig .tc := ⟨.hbm, 136, rfl⟩
abbrev main_v88 : Ref sig .tc := ⟨.hbm, 137, rfl⟩
abbrev main_v89 : Ref sig .tc := ⟨.hbm, 138, rfl⟩
abbrev main_cst_17 : Ref sig .tc := ⟨.hbm, 139, rfl⟩
abbrev main_v90 : Ref sig .tc := ⟨.hbm, 140, rfl⟩
abbrev main_cst_18 : Ref sig .tc := ⟨.hbm, 141, rfl⟩
abbrev main_v91 : Ref sig .tc := ⟨.hbm, 142, rfl⟩
abbrev main_v92 : Ref sig .tc := ⟨.hbm, 143, rfl⟩
abbrev main_cst_19 : Ref sig .tc := ⟨.hbm, 144, rfl⟩
abbrev main_v93 : Ref sig .tc := ⟨.hbm, 145, rfl⟩
abbrev main_v94 : Ref sig .tc := ⟨.hbm, 146, rfl⟩
abbrev main_cst_20 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_21 : Ref sig .tc := ⟨.hbm, 152, rfl⟩
abbrev main_v99 : Ref sig .tc := ⟨.hbm, 153, rfl⟩
abbrev main_v100 : Ref sig .tc := ⟨.hbm, 154, rfl⟩
abbrev main_cst_22 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_c_23 : Ref sig .tc := ⟨.hbm, 180, rfl⟩
abbrev main_v125 : Ref sig .tc := ⟨.hbm, 181, rfl⟩
abbrev main_v126 : Ref sig .tc := ⟨.hbm, 182, rfl⟩
abbrev main_c_24 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_25 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142_0 : Ref sig .tc := ⟨.hbm, 200, rfl⟩
abbrev main_v142_1 : Ref sig .tc := ⟨.hbm, 201, rfl⟩
abbrev main_v142_2 : Ref sig .tc := ⟨.hbm, 202, rfl⟩
abbrev main_v142_3 : Ref sig .tc := ⟨.hbm, 203, rfl⟩
abbrev main_v142_4 : Ref sig .tc := ⟨.hbm, 204, rfl⟩
abbrev main_cst_26 : Ref sig .tc := ⟨.hbm, 205, rfl⟩
abbrev main_v143 : Ref sig .tc := ⟨.hbm, 206, rfl⟩
abbrev main_v144 : Ref sig .tc := ⟨.hbm, 207, rfl⟩
abbrev main_cst_27 : Ref sig .tc := ⟨.hbm, 208, rfl⟩
abbrev main_v145 : Ref sig .tc := ⟨.hbm, 209, rfl⟩
abbrev main_v146 : Ref sig .tc := ⟨.hbm, 210, rfl⟩
abbrev main_cst_28 : Ref sig .tc := ⟨.hbm, 211, rfl⟩
abbrev main_v147 : Ref sig .tc := ⟨.hbm, 212, rfl⟩
abbrev main_cst_29 : Ref sig .tc := ⟨.hbm, 213, rfl⟩
abbrev main_v148 : Ref sig .tc := ⟨.hbm, 214, rfl⟩
abbrev main_v149 : Ref sig .tc := ⟨.hbm, 215, rfl⟩
abbrev main_cst_30 : Ref sig .tc := ⟨.hbm, 216, rfl⟩
abbrev main_v150 : Ref sig .tc := ⟨.hbm, 217, rfl⟩
abbrev main_v151 : Ref sig .tc := ⟨.hbm, 218, rfl⟩
abbrev main_cst_31 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_cst_32 : Ref sig .tc := ⟨.hbm, 224, rfl⟩
abbrev main_v156 : Ref sig .tc := ⟨.hbm, 225, rfl⟩
abbrev main_v157 : Ref sig .tc := ⟨.hbm, 226, rfl⟩
abbrev main_cst_33 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_stg14_0 : Ref sig .tc := ⟨.vmem, 46, rfl⟩
abbrev cc1_stg14_1 : Ref sig .tc := ⟨.vmem, 47, rfl⟩
abbrev cc2_stg0_0 : Ref sig .tc := ⟨.vmem, 48, rfl⟩
abbrev cc2_stg0_1 : Ref sig .tc := ⟨.vmem, 49, rfl⟩
abbrev cc2_stg1_0 : Ref sig .tc := ⟨.vmem, 50, rfl⟩
abbrev cc2_stg1_1 : Ref sig .tc := ⟨.vmem, 51, rfl⟩
abbrev cc2_stg2_0 : Ref sig .tc := ⟨.vmem, 52, rfl⟩
abbrev cc2_stg2_1 : Ref sig .tc := ⟨.vmem, 53, rfl⟩
abbrev cc2_stg3_0 : Ref sig .tc := ⟨.vmem, 54, rfl⟩
abbrev cc2_stg4_0 : Ref sig .tc := ⟨.vmem, 55, rfl⟩
abbrev cc2_stg5_0 : Ref sig .tc := ⟨.vmem, 56, rfl⟩
abbrev cc2_stg5_1 : Ref sig .tc := ⟨.vmem, 57, rfl⟩
abbrev cc2_stg6_0 : Ref sig .tc := ⟨.vmem, 58, rfl⟩
abbrev cc2_stg7_0 : Ref sig .tc := ⟨.vmem, 59, rfl⟩
abbrev cc2_stg8_0 : Ref sig .tc := ⟨.vmem, 60, rfl⟩
abbrev cc2_stg9_0 : Ref sig .tc := ⟨.vmem, 61, rfl⟩
abbrev cc2_stg10_0 : Ref sig .tc := ⟨.vmem, 62, rfl⟩
abbrev cc2_stg10_1 : Ref sig .tc := ⟨.vmem, 63, rfl⟩
abbrev cc2_stg11_0 : Ref sig .tc := ⟨.vmem, 64, rfl⟩
abbrev cc2_stg11_1 : Ref sig .tc := ⟨.vmem, 65, rfl⟩
abbrev cc2_stg12_0 : Ref sig .tc := ⟨.vmem, 66, rfl⟩
abbrev cc2_stg12_1 : Ref sig .tc := ⟨.vmem, 67, rfl⟩
abbrev cc2_stg13_0 : Ref sig .tc := ⟨.vmem, 68, rfl⟩
abbrev cc2_stg13_1 : Ref sig .tc := ⟨.vmem, 69, rfl⟩
abbrev cc2_stg14_0 : Ref sig .tc := ⟨.vmem, 70, rfl⟩
abbrev cc2_stg14_1 : Ref sig .tc := ⟨.vmem, 71, rfl⟩
abbrev cc3_stg0_0 : Ref sig .tc := ⟨.vmem, 72, rfl⟩
abbrev cc3_stg0_1 : Ref sig .tc := ⟨.vmem, 73, rfl⟩
abbrev cc3_stg1_0 : Ref sig .tc := ⟨.vmem, 74, rfl⟩
abbrev cc3_stg2_0 : Ref sig .tc := ⟨.vmem, 75, rfl⟩
abbrev cc3_stg3_0 : Ref sig .tc := ⟨.vmem, 76, rfl⟩
abbrev cc3_stg4_0 : Ref sig .tc := ⟨.vmem, 77, rfl⟩
abbrev cc3_stg5_0 : Ref sig .tc := ⟨.vmem, 78, rfl⟩
abbrev cc3_stg5_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem4_0 : DmaSem sig := 31
abbrev cc1_sem5_0 : DmaSem sig := 32
abbrev cc1_sem5_1 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc2_sem0_0 : DmaSem sig := 48
abbrev cc2_sem0_1 : DmaSem sig := 49
abbrev cc2_sem1_0 : DmaSem sig := 50
abbrev cc2_sem1_1 : DmaSem sig := 51
abbrev cc2_sem2_0 : DmaSem sig := 52
abbrev cc2_sem2_1 : DmaSem sig := 53
abbrev cc2_sem3_0 : DmaSem sig := 54
abbrev cc2_sem4_0 : DmaSem sig := 55
abbrev cc2_sem5_0 : DmaSem sig := 56
abbrev cc2_sem5_1 : DmaSem sig := 57
abbrev cc2_sem6_0 : DmaSem sig := 58
abbrev cc2_sem7_0 : DmaSem sig := 59
abbrev cc2_sem8_0 : DmaSem sig := 60
abbrev cc2_sem9_0 : DmaSem sig := 61
abbrev cc2_sem10_0 : DmaSem sig := 62
abbrev cc2_sem10_1 : DmaSem sig := 63
abbrev cc2_sem11_0 : DmaSem sig := 64
abbrev cc2_sem11_1 : DmaSem sig := 65
abbrev cc2_sem12_0 : DmaSem sig := 66
abbrev cc2_sem12_1 : DmaSem sig := 67
abbrev cc2_sem13_0 : DmaSem sig := 68
abbrev cc2_sem13_1 : DmaSem sig := 69
abbrev cc2_sem14_0 : DmaSem sig := 70
abbrev cc2_sem14_1 : DmaSem sig := 71
abbrev cc3_sem0_0 : DmaSem sig := 72
abbrev cc3_sem0_1 : DmaSem sig := 73
abbrev cc3_sem1_0 : DmaSem sig := 74
abbrev cc3_sem2_0 : DmaSem sig := 75
abbrev cc3_sem3_0 : DmaSem sig := 76
abbrev cc3_sem4_0 : DmaSem sig := 77
abbrev cc3_sem5_0 : DmaSem sig := 78
abbrev cc3_sem5_1 : DmaSem sig := 79

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5000x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S5000x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x1x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S1x256x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S1x1x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S5000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S1x1x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]

abbrev stage2_12 : Fin 2 → Memref sig .tc .vmem S1x1x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]

abbrev stage2_13 : Fin 2 → Memref sig .tc .vmem S1x256x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, false]

abbrev stage2_14 : Fin 2 → Memref sig .tc .vmem S1x1x256 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S50000 : S_.BroadcastsInDim S50000 (![] : Fin 0 → Fin S50000.rank)
  bcast_S800000_S800000x1_0 : S800000.BroadcastsInDim S800000x1 (![0] : Fin 1 → Fin S800000x1.rank)
  bcast_S_S128 : S_.BroadcastsInDim S128 (![] : Fin 0 → Fin S128.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S64_S1x64 : S64.ShapeCasts S1x64
  shapeCasts_S128_S1x128 : S128.ShapeCasts S1x128
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  iota_S5000x256_d1_w32 : S5000x256.Iotas .tc 32 [1]
  broadcasts_S5000x1_S5000x256 : S5000x1.Broadcasts S5000x256
  natLt_1_32 : 1 < 32
  reduces_S5000x256_S256 : S5000x256.Reduces [0] S256
  shapeCasts_S256_S1x256 : S256.ShapeCasts S1x256
  reducesTo_S2x1x64_S1x64_d0 : S2x1x64.ReducesTo [0] S1x64
  h_S_ : 0 < S_.numel
  shapeCasts_S1x64_S64 : S1x64.ShapeCasts S64
  reducesTo_S2x256x64_S256x64_d0 : S2x256x64.ReducesTo [0] S256x64
  reducesTo_S2x1x256_S1x256_d0 : S2x1x256.ReducesTo [0] S1x256
  shapeCasts_S1x256_S256 : S1x256.ShapeCasts S256
  bcast_S_S64 : S_.BroadcastsInDim S64 (![] : Fin 0 → Fin S64.rank)
  bcast_S256_S256x1_0 : S256.BroadcastsInDim S256x1 (![0] : Fin 1 → Fin S256x1.rank)
  bcast_S64_S1x64_1 : S64.BroadcastsInDim S1x64 (![1] : Fin 1 → Fin S1x64.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  shapeCasts_S50000x64_S25000x128 : S50000x64.ShapeCasts S25000x128
  concatenates_S64_S64_S128_d0 : Shape.Concatenates [S64, S64] S128 0
  shapeCasts_S25000x128_S50000x64 : S25000x128.ShapeCasts S50000x64
  concatenates_S256x64_S256x64_S256x64_S256x192_d1 : Shape.Concatenates [S256x64, S256x64, S256x64] S256x192 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S50000x1.size a
  hwx0_5 : ∀ i : grid0.Coords, EltTy.bits .i32 = 32 ∨ (Rect.block (s := S50000x1) S5000x1.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S50000x64.size a
  hwx0_10 : ∀ i : grid0.Coords, EltTy.bits .f32 = 32 ∨ (Rect.block (s := S50000x64) S5000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x64.size a ≤ S2x1x64.size a
  hwx0_11 : ∀ i : grid0.Coords, EltTy.bits .f32 = 32 ∨ (Rect.block (s := S2x1x64) S1x1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x64.size a ≤ S2x1x64.size a
  hwx0_12 : ∀ i : grid0.Coords, EltTy.bits .f32 = 32 ∨ (Rect.block (s := S2x1x64) S1x1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256x64.size a ≤ S2x256x64.size a
  hwx0_13 : ∀ i : grid0.Coords, EltTy.bits .f32 = 32 ∨ (Rect.block (s := S2x256x64) S1x256x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x256.size a ≤ S2x1x256.size a
  hwx0_14 : ∀ i : grid0.Coords, EltTy.bits .f32 = 32 ∨ (Rect.block (s := S2x1x256) S1x1x256.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .i32 = 32 ∨ (Rect.block (s := S50000x1) S5000x1.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S50000x64.size a
  hwx1_10 : ∀ i : grid1.Coords, EltTy.bits .f32 = 32 ∨ (Rect.block (s := S50000x64) S5000x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x64.size a ≤ S2x1x64.size a
  hwx1_11 : ∀ i : grid1.Coords, EltTy.bits .f32 = 32 ∨ (Rect.block (s := S2x1x64) S1x1x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x1x64.size a ≤ S2x1x64.size a
  hwx1_12 : ∀ i : grid1.Coords, EltTy.bits .f32 = 32 ∨ (Rect.block (s := S2x1x64) S1x1x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x256x64.size a ≤ S2x256x64.size a
  hwx1_13 : ∀ i : grid1.Coords, EltTy.bits .f32 = 32 ∨ (Rect.block (s := S2x256x64) S1x256x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x1x256.size a ≤ S2x1x256.size a
  hwx1_14 : ∀ i : grid1.Coords, EltTy.bits .f32 = 32 ∨ (Rect.block (s := S2x1x256) S1x1x256.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .i32 = 32 ∨ (Rect.block (s := S50000x1) S5000x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S50000x64.size a
  hwx2_10 : ∀ i : grid2.Coords, EltTy.bits .f32 = 32 ∨ (Rect.block (s := S50000x64) S5000x64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1x1x64.size a ≤ S2x1x64.size a
  hwx2_11 : ∀ i : grid2.Coords, EltTy.bits .f32 = 32 ∨ (Rect.block (s := S2x1x64) S1x1x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1x1x64.size a ≤ S2x1x64.size a
  hwx2_12 : ∀ i : grid2.Coords, EltTy.bits .f32 = 32 ∨ (Rect.block (s := S2x1x64) S1x1x64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1x256x64.size a ≤ S2x256x64.size a
  hwx2_13 : ∀ i : grid2.Coords, EltTy.bits .f32 = 32 ∨ (Rect.block (s := S2x256x64) S1x256x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S1x1x256.size a ≤ S2x1x256.size a
  hwx2_14 : ∀ i : grid2.Coords, EltTy.bits .f32 = 32 ∨ (Rect.block (s := S2x1x256) S1x1x256.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S25000x128.size a
  hwx3_5 : ∀ i : grid3.Coords, EltTy.bits .f32 = 32 ∨ (Rect.block (s := S25000x128) S5000x128.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28_0) S5000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v28_1) S1x1x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v28_2) S1x1x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v28_3) S1x256x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v28_4) S1x1x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v28_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v83) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v81) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v82) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v85_0) S5000x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v85_1) S1x1x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v85_2) S1x1x64.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v85_3) S1x256x64.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v85_4) S1x1x256.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v85_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v137) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v140) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v141) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v138) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v139) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v142_0) S5000x64.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v142_1) S1x1x64.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v142_2) S1x1x64.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v142_3) S1x256x64.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v142_4) S1x1x256.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v179) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v181) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v183) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v185) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v187) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v188) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S256x64 : Shape := ⟨2, ![256, 64]⟩
abbrev S50000x1 : Shape := ⟨2, ![50000, 1]⟩
abbrev S256x192 : Shape := ⟨2, ![256, 192]⟩

abbrev nBuf : Space → Nat
  | .hbm => 264
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S800000, .f32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64x64, .f32⟩
  | 17 => ⟨S64, .f32⟩
  | 18 => ⟨S64x64, .f32⟩
  | 19 => ⟨S64, .f32⟩
  | 20 => ⟨S64, .f32⟩
  | 21 => ⟨S64, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S800000x1, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S50000x64, .f32⟩
  | 44 => ⟨S1x64, .f32⟩
  | 45 => ⟨S50000x64, .f32⟩
  | 46 => ⟨S50000x64, .f32⟩
  | 47 => ⟨S_, .f32⟩
  | 48 => ⟨S50000x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S_, .f32⟩
  | 58 => ⟨S64, .f32⟩
  | 59 => ⟨S_, .f32⟩
  | 60 => ⟨S64, .f32⟩
  | 61 => ⟨S64, .f32⟩
  | 62 => ⟨S_, .i32⟩
  | 63 => ⟨S_, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S50000x64, .f32⟩
  | 70 => ⟨S50000x64, .f32⟩
  | 71 => ⟨S50000x64, .f32⟩
  | 72 => ⟨S_, .f32⟩
  | 73 => ⟨S_, .f32⟩
  | 74 => ⟨S_, .f32⟩
  | 75 => ⟨S_, .f32⟩
  | 76 => ⟨S64, .f32⟩
  | 77 => ⟨S64, .f32⟩
  | 78 => ⟨S64, .f32⟩
  | 79 => ⟨S_, .f32⟩
  | 80 => ⟨S_, .i1⟩
  | 81 => ⟨S_, .f32⟩
  | 82 => ⟨S_, .f32⟩
  | 83 => ⟨S64, .f32⟩
  | 84 => ⟨S64, .f32⟩
  | 85 => ⟨S1x64, .f32⟩
  | 86 => ⟨S50000x64, .f32⟩
  | 87 => ⟨S50000x64, .f32⟩
  | 88 => ⟨S_, .f32⟩
  | 89 => ⟨S64, .f32⟩
  | 90 => ⟨S64, .f32⟩
  | 91 => ⟨S64, .f32⟩
  | 92 => ⟨S1x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S1x64, .f32⟩
  | 99 => ⟨S50000x64, .f32⟩
  | 100 => ⟨S50000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S800000x1, .f32⟩
  | 111 => ⟨S800000x64, .f32⟩
  | 112 => ⟨S800000x64, .f32⟩
  | 113 => ⟨S_, .f32⟩
  | 114 => ⟨S50000x64, .f32⟩
  | 115 => ⟨S800000x1, .i32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | 1 => ⟨S_, .f32⟩
  | 2 => ⟨S50000x64, .f32⟩
  | 3 => ⟨S50000x64, .f32⟩
  | 4 => ⟨S_, .f32⟩
  | 5 => ⟨S64, .f32⟩
  | 6 => ⟨S_, .f32⟩
  | 7 => ⟨S64, .f32⟩
  | 8 => ⟨S64, .f32⟩
  | 9 => ⟨S_, .i32⟩
  | 10 => ⟨S_, .f32⟩
  | 11 => ⟨S64, .f32⟩
  | 12 => ⟨S1x64, .f32⟩
  | 13 => ⟨S_, .f32⟩
  | 14 => ⟨S1x64, .f32⟩
  | 15 => ⟨S1x64, .f32⟩
  | 16 => ⟨S50000x64, .f32⟩
  | 17 => ⟨S50000x64, .f32⟩
  | 18 => ⟨S50000x64, .f32⟩
  | 19 => ⟨S_, .f32⟩
  | 20 => ⟨S_, .f32⟩
  | 21 => ⟨S_, .f32⟩
  | 22 => ⟨S_, .f32⟩
  | 23 => ⟨S64, .f32⟩
  | 24 => ⟨S64, .f32⟩
  | 25 => ⟨S64, .f32⟩
  | 26 => ⟨S_, .f32⟩
  | 27 => ⟨S_, .i1⟩
  | 28 => ⟨S_, .f32⟩
  | 29 => ⟨S_, .f32⟩
  | 30 => ⟨S64, .f32⟩
  | 31 => ⟨S64, .f32⟩
  | 32 => ⟨S1x64, .f32⟩
  | 33 => ⟨S50000x64, .f32⟩
  | 34 => ⟨S50000x64, .f32⟩
  | 35 => ⟨S_, .f32⟩
  | 36 => ⟨S64, .f32⟩
  | 37 => ⟨S64, .f32⟩
  | 38 => ⟨S64, .f32⟩
  | 39 => ⟨S1x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x1, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S_, .f32⟩
  | 80 => ⟨S64, .f32⟩
  | 81 => ⟨S_, .f32⟩
  | 82 => ⟨S64, .f32⟩
  | 83 => ⟨S64, .f32⟩
  | 84 => ⟨S_, .i32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S50000x64, .f32⟩
  | 92 => ⟨S50000x64, .f32⟩
  | 93 => ⟨S50000x64, .f32⟩
  | 94 => ⟨S_, .f32⟩
  | 95 => ⟨S_, .f32⟩
  | 96 => ⟨S_, .f32⟩
  | 97 => ⟨S_, .f32⟩
  | 98 => ⟨S64, .f32⟩
  | 99 => ⟨S64, .f32⟩
  | 100 => ⟨S64, .f32⟩
  | 101 => ⟨S_, .f32⟩
  | 102 => ⟨S_, .i1⟩
  | 103 => ⟨S_, .f32⟩
  | 104 => ⟨S_, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S_, .f32⟩
  | 111 => ⟨S64, .f32⟩
  | 112 => ⟨S64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S_, .f32⟩
  | 124 => ⟨S256x64, .f32⟩
  | 125 => ⟨S50000x1, .i32⟩
  | 126 => ⟨S256x64, .f32⟩
  | 127 => ⟨S_, .f32⟩
  | _ => ⟨S50000x128, .f32⟩

abbrev hbmTy0_2 (i : Nat) : BufTy := match i % 128 with
  | 0 => ⟨S256x64, .f32⟩
  | 1 => ⟨S50000x1, .i32⟩
  | 2 => ⟨S256x64, .f32⟩
  | 3 => ⟨S_, .f32⟩
  | 4 => ⟨S256x64, .f32⟩
  | 5 => ⟨S50000x1, .i32⟩
  | 6 => ⟨S256x64, .f32⟩
  | 7 => ⟨S256x192, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_call0_cst : Ref sig .tc := ⟨.hbm, 47, rfl⟩
abbrev main_call0_v0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call1_cst : Ref sig .tc := ⟨.hbm, 54, rfl⟩
abbrev main_call1_v0 : Ref sig .tc := ⟨.hbm, 55, rfl⟩
abbrev main_v27 : Ref sig .tc := ⟨.hbm, 56, rfl⟩
abbrev main_cst_1 : Ref sig .tc := ⟨.hbm, 57, rfl⟩
abbrev main_v28 : Ref sig .tc := ⟨.hbm, 58, rfl⟩
abbrev main_cst_2 : Ref sig .tc := ⟨.hbm, 59, rfl⟩
abbrev main_v29 : Ref sig .tc := ⟨.hbm, 60, rfl⟩
abbrev main_v30 : Ref sig .tc := ⟨.hbm, 61, rfl⟩
abbrev main_c_3 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_cst_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_cst_1 : Ref sig .tc := ⟨.hbm, 73, rfl⟩
abbrev main_call2_v8 : Ref sig .tc := ⟨.hbm, 74, rfl⟩
abbrev main_call2_cst_2 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_cst_3 : Ref sig .tc := ⟨.hbm, 79, rfl⟩
abbrev main_call2_v12 : Ref sig .tc := ⟨.hbm, 80, rfl⟩
abbrev main_call2_cst_4 : Ref sig .tc := ⟨.hbm, 81, rfl⟩
abbrev main_call2_call0_v0 : Ref sig .tc := ⟨.hbm, 82, rfl⟩
abbrev main_call2_call0_v1 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_4 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_c_5 : Ref sig .tc := ⟨.hbm, 101, rfl⟩
abbrev main_v47 : Ref sig .tc := ⟨.hbm, 102, rfl⟩
abbrev main_v48 : Ref sig .tc := ⟨.hbm, 103, rfl⟩
abbrev main_c_6 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_7 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_call3_cst : Ref sig .tc := ⟨.hbm, 122, rfl⟩
abbrev main_call3_v0 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_call4_cst : Ref sig .tc := ⟨.hbm, 129, rfl⟩
abbrev main_call4_v0 : Ref sig .tc := ⟨.hbm, 130, rfl⟩
abbrev main_v70 : Ref sig .tc := ⟨.hbm, 131, rfl⟩
abbrev main_cst_8 : Ref sig .tc := ⟨.hbm, 132, rfl⟩
abbrev main_v71 : Ref sig .tc := ⟨.hbm, 133, rfl⟩
abbrev main_cst_9 : Ref sig .tc := ⟨.hbm, 134, rfl⟩
abbrev main_v72 : Ref sig .tc := ⟨.hbm, 135, rfl⟩
abbrev main_v73 : Ref sig .tc := ⟨.hbm, 136, rfl⟩
abbrev main_c_10 : Ref sig .tc := ⟨.hbm, 137, rfl⟩
abbrev main_call5_cst : Ref sig .tc := ⟨.hbm, 138, rfl⟩
abbrev main_call5_v0 : Ref sig .tc := ⟨.hbm, 139, rfl⟩
abbrev main_call5_v1 : Ref sig .tc := ⟨.hbm, 140, rfl⟩
abbrev main_call5_cst_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_v6 : Ref sig .tc := ⟨.hbm, 146, rfl⟩
abbrev main_call5_v7 : Ref sig .tc := ⟨.hbm, 147, rfl⟩
abbrev main_call5_cst_1 : Ref sig .tc := ⟨.hbm, 148, rfl⟩
abbrev main_call5_v8 : Ref sig .tc := ⟨.hbm, 149, rfl⟩
abbrev main_call5_cst_2 : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_cst_3 : Ref sig .tc := ⟨.hbm, 154, rfl⟩
abbrev main_call5_v12 : Ref sig .tc := ⟨.hbm, 155, rfl⟩
abbrev main_call5_cst_4 : Ref sig .tc := ⟨.hbm, 156, rfl⟩
abbrev main_call5_call0_v0 : Ref sig .tc := ⟨.hbm, 157, rfl⟩
abbrev main_call5_call0_v1 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_cst_11 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_c_12 : Ref sig .tc := ⟨.hbm, 176, rfl⟩
abbrev main_v90 : Ref sig .tc := ⟨.hbm, 177, rfl⟩
abbrev main_v91 : Ref sig .tc := ⟨.hbm, 178, rfl⟩
abbrev main_c_13 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_cst_14 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_call6_cst : Ref sig .tc := ⟨.hbm, 197, rfl⟩
abbrev main_call6_v0 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_call7_cst : Ref sig .tc := ⟨.hbm, 204, rfl⟩
abbrev main_call7_v0 : Ref sig .tc := ⟨.hbm, 205, rfl⟩
abbrev main_v113 : Ref sig .tc := ⟨.hbm, 206, rfl⟩
abbrev main_cst_15 : Ref sig .tc := ⟨.hbm, 207, rfl⟩
abbrev main_v114 : Ref sig .tc := ⟨.hbm, 208, rfl⟩
abbrev main_cst_16 : Ref sig .tc := ⟨.hbm, 209, rfl⟩
abbrev main_v115 : Ref sig .tc := ⟨.hbm, 210, rfl⟩
abbrev main_v116 : Ref sig .tc := ⟨.hbm, 211, rfl⟩
abbrev main_c_17 : Ref sig .tc := ⟨.hbm, 212, rfl⟩
abbrev main_call8_cst : Ref sig .tc := ⟨.hbm, 213, rfl⟩
abbrev main_call8_v0 : Ref sig .tc := ⟨.hbm, 214, rfl⟩
abbrev main_call8_v1 : Ref sig .tc := ⟨.hbm, 215, rfl⟩
abbrev main_call8_cst_0 : Ref sig .tc := ⟨.hbm, 216, rfl⟩
abbrev main_call8_v2 : Ref sig .tc := ⟨.hbm, 217, rfl⟩
abbrev main_call8_v3 : Ref sig .tc := ⟨.hbm, 218, rfl⟩
abbrev main_call8_v4 : Ref sig .tc := ⟨.hbm, 219, rfl⟩
abbrev main_call8_v5 : Ref sig .tc := ⟨.hbm, 220, rfl⟩
abbrev main_call8_v6 : Ref sig .tc := ⟨.hbm, 221, rfl⟩
abbrev main_call8_v7 : Ref sig .tc := ⟨.hbm, 222, rfl⟩
abbrev main_call8_cst_1 : Ref sig .tc := ⟨.hbm, 223, rfl⟩
abbrev main_call8_v8 : Ref sig .tc := ⟨.hbm, 224, rfl⟩
abbrev main_call8_cst_2 : Ref sig .tc := ⟨.hbm, 225, rfl⟩
abbrev main_call8_v9 : Ref sig .tc := ⟨.hbm, 226, rfl⟩
abbrev main_call8_v10 : Ref sig .tc := ⟨.hbm, 227, rfl⟩
abbrev main_call8_v11 : Ref sig .tc := ⟨.hbm, 228, rfl⟩
abbrev main_call8_cst_3 : Ref sig .tc := ⟨.hbm, 229, rfl⟩
abbrev main_call8_v12 : Ref sig .tc := ⟨.hbm, 230, rfl⟩
abbrev main_call8_cst_4 : Ref sig .tc := ⟨.hbm, 231, rfl⟩
abbrev main_call8_call0_v0 : Ref sig .tc := ⟨.hbm, 232, rfl⟩
abbrev main_call8_call0_v1 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_cst_18 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_cst_19 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_cst_20 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_cst_21 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S800000x1_S800000x64_0_1 : S800000x1.BroadcastsInDim S800000x64 (![0, 1] : Fin 2 → Fin S800000x64.rank)
  bcast_S_S256x64 : S_.BroadcastsInDim S256x64 (![] : Fin 0 → Fin S256x64.rank)
  bcast_S50000_S50000x1_0 : S50000.BroadcastsInDim S50000x1 (![0] : Fin 1 → Fin S50000x1.rank)
  concatenates_S256x64_S256x64_S256x64_S256x192_d1 : Shape.Concatenates [S256x64, S256x64, S256x64] S256x192 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S256x64_S50000x1_S50000x64_1_0_0_1_wf : ScatterDims.WF S256x64 S50000x1 S50000x64 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf

class Facts : Prop extends Facts₀ where

variable [Facts]
-- ==== Proof.B0Runs.lean ====
/- Pallas call 0 (`cc0__mlp_kernel`, grid 2 × 5, fifteen windows: 0–9 read, 10–14 written): what the two runs of its
   body share. Each window's block at a point, read off the window's array at the contents `V` the region is entered
   with; that a read window's staging buffer holds that block at every point; the body's one branch condition (the
   second grid coordinate is 0: the first of a core's five points, where the four accumulators are zero-filled) in
   closed form over the grid; a view of each written window through which its contents are stated; and the staging
   memrefs the pipeline passes the body at a point. -/
import proofs.«429418_j73830487818378_3_alg».proof.Proof.Gen.Kernel.Launch
import proofs.«429418_j73830487818378_3_alg».proof.Proof.Gen.Kernel.Skeleton
import proofs.«429418_j73830487818378_3_alg».proof.Proof.Gen.Kernel.Points
import Idealize.ShloMosaic.Lib.Pipeline.FrameBody
import Idealize.ShloMosaic.Lib.Ring
import Idealize.ShloMosaic.Lib.Tactic

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Read window 0's current staging buffer holds its block at every point, fetched there or not (unfetched, the block
    index has not moved), for any proof data whose array is `V`'s (`hA`) and whose body leaves the block in place
    (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Read window 1's current staging buffer holds its block at every point, fetched there or not (unfetched, the block
    index has not moved), for any proof data whose array is `V`'s (`hA`) and whose body leaves the block in place
    (`hafter`); the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Read window 2's current staging buffer holds its block at every point, fetched there or not (unfetched, the block
    index has not moved), for any proof data whose array is `V`'s (`hA`) and whose body leaves the block in place
    (`hafter`); the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Read window 3's current staging buffer holds its block at every point, fetched there or not (unfetched, the block
    index has not moved), for any proof data whose array is `V`'s (`hA`) and whose body leaves the block in place
    (`hafter`); the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Read window 4's current staging buffer holds its block at every point, fetched there or not (unfetched, the block
    index has not moved), for any proof data whose array is `V`'s (`hA`) and whose body leaves the block in place
    (`hafter`); the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Read window 5's current staging buffer holds its block at every point, fetched there or not (unfetched, the block
    index has not moved), for any proof data whose array is `V`'s (`hA`) and whose body leaves the block in place
    (`hafter`); the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Read window 6's current staging buffer holds its block at every point, fetched there or not (unfetched, the block
    index has not moved), for any proof data whose array is `V`'s (`hA`) and whose body leaves the block in place
    (`hafter`); the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Read window 7's current staging buffer holds its block at every point, fetched there or not (unfetched, the block
    index has not moved), for any proof data whose array is `V`'s (`hA`) and whose body leaves the block in place
    (`hafter`); the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Read window 8's current staging buffer holds its block at every point, fetched there or not (unfetched, the block
    index has not moved), for any proof data whose array is `V`'s (`hA`) and whose body leaves the block in place
    (`hafter`); the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Read window 9's current staging buffer holds its block at every point, fetched there or not (unfetched, the block
    index has not moved), for any proof data whose array is `V`'s (`hA`) and whose body leaves the block in place
    (`hafter`); the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's one `scf.if`, from the grid coordinates (the scalar chain substituted): the second
    coordinate is 0. -/
abbrev cond0_0 (i : grid0.Coords) : Prop := (Scalar.cmpi .ne (Scalar.extui (Scalar.cmpi .eq (BitVec.ofNat 32 (i 1).val) 0#32)) 0#32) = 1#1
/-- It holds at the first of each core's five points — decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-! ## The staging memrefs -/

/-- One staging buffer of written window 10, through which its contents are stated (the choice does not matter: the
    pieces cover the buffer). -/
abbrev VO0_10 : View sig .tc .vmem S5000x64 .f32 := (Memref.whole cc0_stg10_0 : Memref sig .tc .vmem S5000x64 .f32).view
/-- One staging buffer of written window 11, through which its contents are stated (the choice does not matter: the
    pieces cover the buffer). -/
abbrev VO0_11 : View sig .tc .vmem S1x1x64 .f32 := (Memref.whole cc0_stg11_0 : Memref sig .tc .vmem S1x1x64 .f32).view
/-- One staging buffer of written window 12, through which its contents are stated (the choice does not matter: the
    pieces cover the buffer). -/
abbrev VO0_12 : View sig .tc .vmem S1x1x64 .f32 := (Memref.whole cc0_stg12_0 : Memref sig .tc .vmem S1x1x64 .f32).view
/-- One staging buffer of written window 13, through which its contents are stated (the choice does not matter: the
    pieces cover the buffer). -/
abbrev VO0_13 : View sig .tc .vmem S1x256x64 .f32 := (Memref.whole cc0_stg13_0 : Memref sig .tc .vmem S1x256x64 .f32).view
/-- One staging buffer of written window 14, through which its contents are stated (the choice does not matter: the
    pieces cover the buffer). -/
abbrev VO0_14 : View sig .tc .vmem S1x1x256 .f32 := (Memref.whole cc0_stg14_0 : Memref sig .tc .vmem S1x1x256 .f32).view
/-- Each window's current staging memref at point `t`, spelled as the pipeline passes it to the body, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5000x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256 .f32 := win0_14.stage (cfg0.slots t 14)
abbrev hs0_14 (t : Fin cfg0.N) : (ms0_14 t).IsWhole := hstage0_14 ((cfg0.slots t 14).cast nbuf0_14)

end Cert.Kernel.Fr

end
-- ==== Proof.B0RunA.lean ====
/- Pallas call 0, the run of its whole body at a point where the branch is TAKEN (the second grid coordinate is 0: the
   first of a core's five points). There the four accumulators are zero-filled before anything reads them, so every
   written window's staging buffer may hold anything when the body starts. The run finds, per written window, the
   pieces its stores leave (last first): window 10 one store, windows 11–14 two each (the zero fill, then the sum). -/
import proofs.«429418_j73830487818378_3_alg».proof.Proof.B0Runs

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is taken (`hc0`), WITH the proof that on whole staging memrefs — the read windows' at their contents `x·`,
    the written windows' at anything — the body runs to the continuation holding the read windows' as they were and
    each written window's buffer with its pieces written. The printed functions are their skeletons, which the
    executor runs, the branch decided by `hc0`; the pieces are the witness that run finds (assigned when the buffer is
    handed to the continuation). -/
noncomputable def kernelRun0_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__mlp_kernel_eq_skeleton]; unfold cc0__mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.Kernel.Fr

end
-- ==== Proof.B0RunB.lean ====
/- Pallas call 0, the run of its whole body at a point where the branch is NOT taken (the second grid coordinate is not
   0: the later four of a core's five points). There windows 11–14 are accumulators: the body reads what the point
   before left in them (`xo·`) and stores the sum back; window 10 is stored whole without being read. The run finds,
   per written window, the one piece its store leaves. -/
import proofs.«429418_j73830487818378_3_alg».proof.Proof.B0RunA

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is not taken (`hc0`), WITH the proof that on whole staging memrefs — the read windows' at their contents `x·`,
    windows 11–14 at their running contents `xo·`, window 10 at anything — the body runs to the continuation holding the read windows' as they were and
    each written window's buffer with its pieces written. The printed functions are their skeletons, which the
    executor runs, the branch decided by `hc0`; the pieces are the witness that run finds (assigned when the buffer is
    handed to the continuation). -/
noncomputable def kernelRun0_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__mlp_kernel_eq_skeleton]; unfold cc0__mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.Kernel.Fr

end
-- ==== Proof.B0Frame.lean ====
/- Pallas call 0 (`cc0__mlp_kernel`), the body's half of its frame at the contents `V` the region is entered with:
   what each written window holds per case (the pieces the run found cover the window's block, so what it holds is
   the pieces read back) and point by point (`outsAt0`: by recursion on the point, a window the later points of a
   core accumulate into taken at what the point before left), the pipeline's proof data `dat0` over those contents,
   what the body finds in each staging buffer, and the body obligation at every point. -/
import proofs.«429418_j73830487818378_3_alg».proof.Proof.B0RunB

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each written window's buffer, per case -/

/-- The pieces the run with the branch taken found for window 10 tile its block (1 store of the whole `S5000x64`, checked by
    evaluation), so they cover it. -/
theorem cover0_A_10 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S5000x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S5000x64.size (by sl_kernel_rfl) y

/-- What that run leaves in window 10's staging buffer: its pieces read back over junk. -/
def out0_A_10 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S5000x64 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1)

/-- The pieces the run with the branch taken found for window 11 tile its block (2 stores of the whole `S1x1x64`, checked by
    evaluation), so they cover it. -/
theorem cover0_A_11 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S1x1x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 S1x1x64.size (by sl_kernel_rfl) y

/-- What that run leaves in window 11's staging buffer: its pieces read back over junk. -/
def out0_A_11 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S1x1x64 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1)

/-- The pieces the run with the branch taken found for window 12 tile its block (2 stores of the whole `S1x1x64`, checked by
    evaluation), so they cover it. -/
theorem cover0_A_12 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S1x1x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1 S1x1x64.size (by sl_kernel_rfl) y

/-- What that run leaves in window 12's staging buffer: its pieces read back over junk. -/
def out0_A_12 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S1x1x64 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1)

/-- The pieces the run with the branch taken found for window 13 tile its block (2 stores of the whole `S1x256x64`, checked by
    evaluation), so they cover it. -/
theorem cover0_A_13 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S1x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1 S1x256x64.size (by sl_kernel_rfl) y

/-- What that run leaves in window 13's staging buffer: its pieces read back over junk. -/
def out0_A_13 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S1x256x64 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1)

/-- The pieces the run with the branch taken found for window 14 tile its block (2 stores of the whole `S1x1x256`, checked by
    evaluation), so they cover it. -/
theorem cover0_A_14 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1 S1x1x256.size (by sl_kernel_rfl) y

/-- What that run leaves in window 14's staging buffer: its pieces read back over junk. -/
def out0_A_14 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S1x1x256 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1)

/-- The pieces the run with the branch not taken found for window 10 tile its block (1 store of the whole `S5000x64`, checked by
    evaluation), so they cover it. -/
theorem cover0_B_10 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S5000x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1 S5000x64.size (by sl_kernel_rfl) y

/-- What that run leaves in window 10's staging buffer: its pieces read back over junk. -/
def out0_B_10 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S5000x64 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1)

/-- The pieces the run with the branch not taken found for window 11 tile its block (1 store of the whole `S1x1x64`, checked by
    evaluation), so they cover it. -/
theorem cover0_B_11 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1 S1x1x64.size (by sl_kernel_rfl) y

/-- What that run leaves in window 11's staging buffer: its pieces read back over junk. -/
def out0_B_11 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1)

/-- The pieces the run with the branch not taken found for window 12 tile its block (1 store of the whole `S1x1x64`, checked by
    evaluation), so they cover it. -/
theorem cover0_B_12 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1 S1x1x64.size (by sl_kernel_rfl) y

/-- What that run leaves in window 12's staging buffer: its pieces read back over junk. -/
def out0_B_12 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1)

/-- The pieces the run with the branch not taken found for window 13 tile its block (1 store of the whole `S1x256x64`, checked by
    evaluation), so they cover it. -/
theorem cover0_B_13 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x256x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1 S1x256x64.size (by sl_kernel_rfl) y

/-- What that run leaves in window 13's staging buffer: its pieces read back over junk. -/
def out0_B_13 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x256x64 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1)

/-- The pieces the run with the branch not taken found for window 14 tile its block (1 store of the whole `S1x1x256`, checked by
    evaluation), so they cover it. -/
theorem cover0_B_14 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1 S1x1x256.size (by sl_kernel_rfl) y

/-- What that run leaves in window 14's staging buffer: its pieces read back over junk. -/
def out0_B_14 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x256 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1)

section Region0
-- the TensorCore's buffer contents when the region is entered
variable (V : (c : Dev nD) → (b : Ref sig .tc) → Buf (Elt F) ((c : Thread nD τ).loc b))

/-! ## What the written windows hold after each point -/

/-- THE ACCUMULATION. What the written windows' staging buffers hold after the body at position `n` (a tuple, in window
    order): the case the closed form selects at `n`, run at the point's memrefs and read blocks, a window the case
    reads before covering (11–14 when the branch is not taken) at what this leaves at `n - 1` (its buffer is not
    written back between: `before0_W_B`). -/
def outsAt0 (c : Dev nD) : (n : ℕ) → n < cfg0.N → Vec F S5000x64 .f32 × Vec F S1x1x64 .f32 × Vec F S1x1x64 .f32 × Vec F S1x256x64 .f32 × Vec F S1x1x256 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 5 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point where the branch is taken: that case's contents. -/
theorem outsAt0_A (c : Dev nD) (t : Fin cfg0.N) (h0 : t.val % 5 = 0) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans rfl

/-- `outsAt0` at a point where the branch is not taken: that case's contents, over what the point before left. -/
theorem outsAt0_B (c : Dev nD) (t : Fin cfg0.N) (h0 : ¬t.val % 5 = 0) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    each read window's buffer at its block and the written windows' at `outsAt0`'s components; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2.1
    | ⟨12, _⟩ => (outsAt0 V c t.val t.isLt).2.2.1
    | ⟨13, _⟩ => (outsAt0 V c t.val t.isLt).2.2.2.1
    | ⟨14, _⟩ => (outsAt0 V c t.val t.isLt).2.2.2.2
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2.1 := by dsimp only [dat0]
theorem after0_12 (c : Dev nD) (t : Fin cfg0.N) : (dat0 V c).after 12 t = (outsAt0 V c t.val t.isLt).2.2.1 := by dsimp only [dat0]
theorem after0_13 (c : Dev nD) (t : Fin cfg0.N) : (dat0 V c).after 13 t = (outsAt0 V c t.val t.isLt).2.2.2.1 := by dsimp only [dat0]
theorem after0_14 (c : Dev nD) (t : Fin cfg0.N) : (dat0 V c).after 14 t = (outsAt0 V c t.val t.isLt).2.2.2.2 := by dsimp only [dat0]

/-- Each read window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
/-- At a point where the branch is not taken, written window 11's current staging buffer holds what the body left at the
    point before: the point is not the first of its core's five, the buffer was not written back between (it is
    written back after the fifth only), the window is never idle and uncut. -/
theorem before0_11_B (c : Dev nD) (t : Fin cfg0.N) (h0 : ¬t.val % 5 = 0) (d) :
    (dat0 V c).before 11 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 11 rfl t (by omega) (Bool.eq_false_iff.mpr fun h => by have := (flush0_11 _).mp h; dsimp only at this; omega)
    (fun _ => rfl) (fun _ _ => rfl)]
  dsimp only [dat0]
/-- At a point where the branch is not taken, written window 12's current staging buffer holds what the body left at the
    point before: the point is not the first of its core's five, the buffer was not written back between (it is
    written back after the fifth only), the window is never idle and uncut. -/
theorem before0_12_B (c : Dev nD) (t : Fin cfg0.N) (h0 : ¬t.val % 5 = 0) (d) :
    (dat0 V c).before 12 t d = (outsAt0 V c (t.val - 1) (Nat.lt_of_le_of_lt (Nat.sub_le _ _) t.isLt)).2.2.1 := by
  have hN : t.val < 10 := lt_of_lt_of_eq t.isLt (show cfg0.N = 10 from N_0)
  rw [Dat.before_out_kept _ 12 rfl t (by omega) (Bool.eq_false_iff.mpr fun h => by have := (flush0_12 _).mp h; dsimp only at this; omega)
    (fun _ => rfl) (fun _ _ => rfl)]
  dsimp only [dat0]
/-- At a point where the branch is not taken, written window 13's current staging buffer holds what the body left at the
    point before: the point is not the first of its core's five, the buffer was not written back between (it is
    written back after the fifth only), the window is never idle and uncut. -/
theorem before0_13_B (c : Dev nD) (t : Fin cfg0.N) (h0 : ¬t.val % 5 = 0) (d) :
    (dat0 V c).before 13 t d = (outsAt0 V c (t.val - 1) (Nat.lt_of_le_of_lt (Nat.sub_le _ _) t.isLt)).2.2.2.1 := by
  have hN : t.val < 10 := lt_of_lt_of_eq t.isLt (show cfg0.N = 10 from N_0)
  rw [Dat.before_out_kept _ 13 rfl t (by omega) (Bool.eq_false_iff.mpr fun h => by have := (flush0_13 _).mp h; dsimp only at this; omega)
    (fun _ => rfl) (fun _ _ => rfl)]
  dsimp only [dat0]
/-- At a point where the branch is not taken, written window 14's current staging buffer holds what the body left at the
    point before: the point is not the first of its core's five, the buffer was not written back between (it is
    written back after the fifth only), the window is never idle and uncut. -/
theorem before0_14_B (c : Dev nD) (t : Fin cfg0.N) (h0 : ¬t.val % 5 = 0) (d) :
    (dat0 V c).before 14 t d = (outsAt0 V c (t.val - 1) (Nat.lt_of_le_of_lt (Nat.sub_le _ _) t.isLt)).2.2.2.2 := by
  have hN : t.val < 10 := lt_of_lt_of_eq t.isLt (show cfg0.N = 10 from N_0)
  rw [Dat.before_out_kept _ 14 rfl t (by omega) (Bool.eq_false_iff.mpr fun h => by have := (flush0_14 _).mp h; dsimp only at this; omega)
    (fun _ => rfl) (fun _ _ => rfl)]
  dsimp only [dat0]

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t))

set_option maxHeartbeats 2400000 in
/-- The body at any point: the read windows' memrefs hold their blocks (`before0_W`); the closed form says which case
    the point is in; where the branch is not taken, windows 11–14 hold what the point before left (`before0_W_B`); so
    the case's run applies, and each written window comes back at its pieces read back, which cover it; the invariant
    passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  have hN : t.val < 10 := lt_of_lt_of_eq t.isLt (show cfg0.N = 10 from N_0)
  by_cases h0 : t.val % 5 = 0
  · rw [outsAt0_A V c t h0]
    unfold out0_A_10 out0_A_11 out0_A_12 out0_A_13 out0_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _)
  · rw [outsAt0_B V c t h0]
    simp only [before0_11_B V c t h0, before0_12_B V c t h0, before0_13_B V c t h0, before0_14_B V c t h0]
    unfold out0_B_10 out0_B_11 out0_B_12 out0_B_13 out0_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.B1Runs.lean ====
/- Pallas call 1 (`cc1__mlp_kernel`, grid 2 × 5, fifteen windows: 0–9 read, 10–14 written): what the two runs of its
   body share. Each window's block at a point, read off the window's array at the contents `V` the region is entered
   with; that a read window's staging buffer holds that block at every point; the body's one branch condition (the
   second grid coordinate is 0: the first of a core's five points, where the four accumulators are zero-filled) in
   closed form over the grid; a view of each written window through which its contents are stated; and the staging
   memrefs the pipeline passes the body at a point. -/
import proofs.«429418_j73830487818378_3_alg».proof.Proof.Gen.Kernel.Launch
import proofs.«429418_j73830487818378_3_alg».proof.Proof.Gen.Kernel.Skeleton
import proofs.«429418_j73830487818378_3_alg».proof.Proof.Gen.Kernel.Points
import Idealize.ShloMosaic.Lib.Pipeline.FrameBody
import Idealize.ShloMosaic.Lib.Ring
import Idealize.ShloMosaic.Lib.Tactic

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Read window 0's current staging buffer holds its block at every point, fetched there or not (unfetched, the block
    index has not moved), for any proof data whose array is `V`'s (`hA`) and whose body leaves the block in place
    (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Read window 1's current staging buffer holds its block at every point, fetched there or not (unfetched, the block
    index has not moved), for any proof data whose array is `V`'s (`hA`) and whose body leaves the block in place
    (`hafter`); the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Read window 2's current staging buffer holds its block at every point, fetched there or not (unfetched, the block
    index has not moved), for any proof data whose array is `V`'s (`hA`) and whose body leaves the block in place
    (`hafter`); the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Read window 3's current staging buffer holds its block at every point, fetched there or not (unfetched, the block
    index has not moved), for any proof data whose array is `V`'s (`hA`) and whose body leaves the block in place
    (`hafter`); the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Read window 4's current staging buffer holds its block at every point, fetched there or not (unfetched, the block
    index has not moved), for any proof data whose array is `V`'s (`hA`) and whose body leaves the block in place
    (`hafter`); the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Read window 5's current staging buffer holds its block at every point, fetched there or not (unfetched, the block
    index has not moved), for any proof data whose array is `V`'s (`hA`) and whose body leaves the block in place
    (`hafter`); the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Read window 6's current staging buffer holds its block at every point, fetched there or not (unfetched, the block
    index has not moved), for any proof data whose array is `V`'s (`hA`) and whose body leaves the block in place
    (`hafter`); the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Read window 7's current staging buffer holds its block at every point, fetched there or not (unfetched, the block
    index has not moved), for any proof data whose array is `V`'s (`hA`) and whose body leaves the block in place
    (`hafter`); the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Read window 8's current staging buffer holds its block at every point, fetched there or not (unfetched, the block
    index has not moved), for any proof data whose array is `V`'s (`hA`) and whose body leaves the block in place
    (`hafter`); the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Read window 9's current staging buffer holds its block at every point, fetched there or not (unfetched, the block
    index has not moved), for any proof data whose array is `V`'s (`hA`) and whose body leaves the block in place
    (`hafter`); the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch condition -/

/-- The condition of the body's one `scf.if`, from the grid coordinates (the scalar chain substituted): the second
    coordinate is 0. -/
abbrev cond1_0 (i : grid1.Coords) : Prop := (Scalar.cmpi .ne (Scalar.extui (Scalar.cmpi .eq (BitVec.ofNat 32 (i 1).val) 0#32)) 0#32) = 1#1
/-- It holds at the first of each core's five points — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)

/-! ## The staging memrefs -/

/-- One staging buffer of written window 10, through which its contents are stated (the choice does not matter: the
    pieces cover the buffer). -/
abbrev VO1_10 : View sig .tc .vmem S5000x64 .f32 := (Memref.whole cc1_stg10_0 : Memref sig .tc .vmem S5000x64 .f32).view
/-- One staging buffer of written window 11, through which its contents are stated (the choice does not matter: the
    pieces cover the buffer). -/
abbrev VO1_11 : View sig .tc .vmem S1x1x64 .f32 := (Memref.whole cc1_stg11_0 : Memref sig .tc .vmem S1x1x64 .f32).view
/-- One staging buffer of written window 12, through which its contents are stated (the choice does not matter: the
    pieces cover the buffer). -/
abbrev VO1_12 : View sig .tc .vmem S1x1x64 .f32 := (Memref.whole cc1_stg12_0 : Memref sig .tc .vmem S1x1x64 .f32).view
/-- One staging buffer of written window 13, through which its contents are stated (the choice does not matter: the
    pieces cover the buffer). -/
abbrev VO1_13 : View sig .tc .vmem S1x256x64 .f32 := (Memref.whole cc1_stg13_0 : Memref sig .tc .vmem S1x256x64 .f32).view
/-- One staging buffer of written window 14, through which its contents are stated (the choice does not matter: the
    pieces cover the buffer). -/
abbrev VO1_14 : View sig .tc .vmem S1x1x256 .f32 := (Memref.whole cc1_stg14_0 : Memref sig .tc .vmem S1x1x256 .f32).view
/-- Each window's current staging memref at point `t`, spelled as the pipeline passes it to the body, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S5000x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1x64 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x256x64 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x1x256 .f32 := win1_14.stage (cfg1.slots t 14)
abbrev hs1_14 (t : Fin cfg1.N) : (ms1_14 t).IsWhole := hstage1_14 ((cfg1.slots t 14).cast nbuf1_14)

end Cert.Kernel.Fr

end
-- ==== Proof.B1RunA.lean ====
/- Pallas call 1, the run of its whole body at a point where the branch is TAKEN (the second grid coordinate is 0: the
   first of a core's five points). There the four accumulators are zero-filled before anything reads them, so every
   written window's staging buffer may hold anything when the body starts. The run finds, per written window, the
   pieces its stores leave (last first): window 10 one store, windows 11–14 two each (the zero fill, then the sum). -/
import proofs.«429418_j73830487818378_3_alg».proof.Proof.B1Runs

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is taken (`hc0`), WITH the proof that on whole staging memrefs — the read windows' at their contents `x·`,
    the written windows' at anything — the body runs to the continuation holding the read windows' as they were and
    each written window's buffer with its pieces written. The printed functions are their skeletons, which the
    executor runs, the branch decided by `hc0`; the pieces are the witness that run finds (assigned when the buffer is
    handed to the continuation). -/
noncomputable def kernelRun1_A (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc1__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc1__mlp_kernel_eq_skeleton]; unfold cc1__mlp_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.Kernel.Fr

end
-- ==== Proof.B1RunB.lean ====
/- Pallas call 1, the run of its whole body at a point where the branch is NOT taken (the second grid coordinate is not
   0: the later four of a core's five points). There windows 11–14 are accumulators: the body reads what the point
   before left in them (`xo·`) and stores the sum back; window 10 is stored whole without being read. The run finds,
   per written window, the one piece its store leaves. -/
import proofs.«429418_j73830487818378_3_alg».proof.Proof.B1RunA

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is not taken (`hc0`), WITH the proof that on whole staging memrefs — the read windows' at their contents `x·`,
    windows 11–14 at their running contents `xo·`, window 10 at anything — the body runs to the continuation holding the read windows' as they were and
    each written window's buffer with its pieces written. The printed functions are their skeletons, which the
    executor runs, the branch decided by `hc0`; the pieces are the witness that run finds (assigned when the buffer is
    handed to the continuation). -/
noncomputable def kernelRun1_B (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc1__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc1__mlp_kernel_eq_skeleton]; unfold cc1__mlp_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.Kernel.Fr

end
-- ==== Proof.B1Frame.lean ====
/- Pallas call 1 (`cc1__mlp_kernel`), the body's half of its frame at the contents `V` the region is entered with:
   what each written window holds per case (the pieces the run found cover the window's block, so what it holds is
   the pieces read back) and point by point (`outsAt1`: by recursion on the point, a window the later points of a
   core accumulate into taken at what the point before left), the pipeline's proof data `dat1` over those contents,
   what the body finds in each staging buffer, and the body obligation at every point. -/
import proofs.«429418_j73830487818378_3_alg».proof.Proof.B1RunB

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each written window's buffer, per case -/

/-- The pieces the run with the branch taken found for window 10 tile its block (1 store of the whole `S5000x64`, checked by
    evaluation), so they cover it. -/
theorem cover1_A_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S5000x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S5000x64.size (by sl_kernel_rfl) y

/-- What that run leaves in window 10's staging buffer: its pieces read back over junk. -/
def out1_A_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S5000x64 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1)

/-- The pieces the run with the branch taken found for window 11 tile its block (2 stores of the whole `S1x1x64`, checked by
    evaluation), so they cover it. -/
theorem cover1_A_11 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 S1x1x64.size (by sl_kernel_rfl) y

/-- What that run leaves in window 11's staging buffer: its pieces read back over junk. -/
def out1_A_11 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x64 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1)

/-- The pieces the run with the branch taken found for window 12 tile its block (2 stores of the whole `S1x1x64`, checked by
    evaluation), so they cover it. -/
theorem cover1_A_12 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1 S1x1x64.size (by sl_kernel_rfl) y

/-- What that run leaves in window 12's staging buffer: its pieces read back over junk. -/
def out1_A_12 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x64 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1)

/-- The pieces the run with the branch taken found for window 13 tile its block (2 stores of the whole `S1x256x64`, checked by
    evaluation), so they cover it. -/
theorem cover1_A_13 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x256x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1 S1x256x64.size (by sl_kernel_rfl) y

/-- What that run leaves in window 13's staging buffer: its pieces read back over junk. -/
def out1_A_13 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x256x64 .f32 :=
  VO1_13.read (Elt F) (VO1_13.writes (Elt F) VO1_13.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1)

/-- The pieces the run with the branch taken found for window 14 tile its block (2 stores of the whole `S1x1x256`, checked by
    evaluation), so they cover it. -/
theorem cover1_A_14 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1 S1x1x256.size (by sl_kernel_rfl) y

/-- What that run leaves in window 14's staging buffer: its pieces read back over junk. -/
def out1_A_14 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x256 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1)

/-- The pieces the run with the branch not taken found for window 10 tile its block (1 store of the whole `S5000x64`, checked by
    evaluation), so they cover it. -/
theorem cover1_B_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S5000x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1 S5000x64.size (by sl_kernel_rfl) y

/-- What that run leaves in window 10's staging buffer: its pieces read back over junk. -/
def out1_B_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S5000x64 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1)

/-- The pieces the run with the branch not taken found for window 11 tile its block (1 store of the whole `S1x1x64`, checked by
    evaluation), so they cover it. -/
theorem cover1_B_11 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1 S1x1x64.size (by sl_kernel_rfl) y

/-- What that run leaves in window 11's staging buffer: its pieces read back over junk. -/
def out1_B_11 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1)

/-- The pieces the run with the branch not taken found for window 12 tile its block (1 store of the whole `S1x1x64`, checked by
    evaluation), so they cover it. -/
theorem cover1_B_12 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1 S1x1x64.size (by sl_kernel_rfl) y

/-- What that run leaves in window 12's staging buffer: its pieces read back over junk. -/
def out1_B_12 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1)

/-- The pieces the run with the branch not taken found for window 13 tile its block (1 store of the whole `S1x256x64`, checked by
    evaluation), so they cover it. -/
theorem cover1_B_13 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x256x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1 S1x256x64.size (by sl_kernel_rfl) y

/-- What that run leaves in window 13's staging buffer: its pieces read back over junk. -/
def out1_B_13 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x256x64 .f32 :=
  VO1_13.read (Elt F) (VO1_13.writes (Elt F) VO1_13.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1)

/-- The pieces the run with the branch not taken found for window 14 tile its block (1 store of the whole `S1x1x256`, checked by
    evaluation), so they cover it. -/
theorem cover1_B_14 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1 S1x1x256.size (by sl_kernel_rfl) y

/-- What that run leaves in window 14's staging buffer: its pieces read back over junk. -/
def out1_B_14 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x256 .f32 :=
  VO1_14.read (Elt F) (VO1_14.writes (Elt F) VO1_14.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1)

section Region1
-- the TensorCore's buffer contents when the region is entered
variable (V : (c : Dev nD) → (b : Ref sig .tc) → Buf (Elt F) ((c : Thread nD τ).loc b))

/-! ## What the written windows hold after each point -/

/-- THE ACCUMULATION. What the written windows' staging buffers hold after the body at position `n` (a tuple, in window
    order): the case the closed form selects at `n`, run at the point's memrefs and read blocks, a window the case
    reads before covering (11–14 when the branch is not taken) at what this leaves at `n - 1` (its buffer is not
    written back between: `before1_W_B`). -/
def outsAt1 (c : Dev nD) : (n : ℕ) → n < cfg1.N → Vec F S5000x64 .f32 × Vec F S1x1x64 .f32 × Vec F S1x1x64 .f32 × Vec F S1x256x64 .f32 × Vec F S1x1x256 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      out1_A_14 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 5 = 0 then
      (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
       out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
       out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
       out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
       out1_A_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       out1_B_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

/-- `outsAt1` at a point where the branch is taken: that case's contents. -/
theorem outsAt1_A (c : Dev nD) (t : Fin cfg1.N) (h0 : t.val % 5 = 0) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans rfl

/-- `outsAt1` at a point where the branch is not taken: that case's contents, over what the point before left. -/
theorem outsAt1_B (c : Dev nD) (t : Fin cfg1.N) (h0 : ¬t.val % 5 = 0) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point `t`
    each read window's buffer at its block and the written windows' at `outsAt1`'s components; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
    | ⟨12, _⟩ => (outsAt1 V c t.val t.isLt).2.2.1
    | ⟨13, _⟩ => (outsAt1 V c t.val t.isLt).2.2.2.1
    | ⟨14, _⟩ => (outsAt1 V c t.val t.isLt).2.2.2.2
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]
theorem after1_12 (c : Dev nD) (t : Fin cfg1.N) : (dat1 V c).after 12 t = (outsAt1 V c t.val t.isLt).2.2.1 := by dsimp only [dat1]
theorem after1_13 (c : Dev nD) (t : Fin cfg1.N) : (dat1 V c).after 13 t = (outsAt1 V c t.val t.isLt).2.2.2.1 := by dsimp only [dat1]
theorem after1_14 (c : Dev nD) (t : Fin cfg1.N) : (dat1 V c).after 14 t = (outsAt1 V c t.val t.isLt).2.2.2.2 := by dsimp only [dat1]

/-- Each read window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
/-- At a point where the branch is not taken, written window 11's current staging buffer holds what the body left at the
    point before: the point is not the first of its core's five, the buffer was not written back between (it is
    written back after the fifth only), the window is never idle and uncut. -/
theorem before1_11_B (c : Dev nD) (t : Fin cfg1.N) (h0 : ¬t.val % 5 = 0) (d) :
    (dat1 V c).before 11 t d = (outsAt1 V c (t.val - 1) (Nat.lt_of_le_of_lt (Nat.sub_le _ _) t.isLt)).2.1 := by
  have hN : t.val < 10 := lt_of_lt_of_eq t.isLt (show cfg1.N = 10 from N_1)
  rw [Dat.before_out_kept _ 11 rfl t (by omega) (Bool.eq_false_iff.mpr fun h => by have := (flush1_11 _).mp h; dsimp only at this; omega)
    (fun _ => rfl) (fun _ _ => rfl)]
  dsimp only [dat1]
/-- At a point where the branch is not taken, written window 12's current staging buffer holds what the body left at the
    point before: the point is not the first of its core's five, the buffer was not written back between (it is
    written back after the fifth only), the window is never idle and uncut. -/
theorem before1_12_B (c : Dev nD) (t : Fin cfg1.N) (h0 : ¬t.val % 5 = 0) (d) :
    (dat1 V c).before 12 t d = (outsAt1 V c (t.val - 1) (Nat.lt_of_le_of_lt (Nat.sub_le _ _) t.isLt)).2.2.1 := by
  have hN : t.val < 10 := lt_of_lt_of_eq t.isLt (show cfg1.N = 10 from N_1)
  rw [Dat.before_out_kept _ 12 rfl t (by omega) (Bool.eq_false_iff.mpr fun h => by have := (flush1_12 _).mp h; dsimp only at this; omega)
    (fun _ => rfl) (fun _ _ => rfl)]
  dsimp only [dat1]
/-- At a point where the branch is not taken, written window 13's current staging buffer holds what the body left at the
    point before: the point is not the first of its core's five, the buffer was not written back between (it is
    written back after the fifth only), the window is never idle and uncut. -/
theorem before1_13_B (c : Dev nD) (t : Fin cfg1.N) (h0 : ¬t.val % 5 = 0) (d) :
    (dat1 V c).before 13 t d = (outsAt1 V c (t.val - 1) (Nat.lt_of_le_of_lt (Nat.sub_le _ _) t.isLt)).2.2.2.1 := by
  have hN : t.val < 10 := lt_of_lt_of_eq t.isLt (show cfg1.N = 10 from N_1)
  rw [Dat.before_out_kept _ 13 rfl t (by omega) (Bool.eq_false_iff.mpr fun h => by have := (flush1_13 _).mp h; dsimp only at this; omega)
    (fun _ => rfl) (fun _ _ => rfl)]
  dsimp only [dat1]
/-- At a point where the branch is not taken, written window 14's current staging buffer holds what the body left at the
    point before: the point is not the first of its core's five, the buffer was not written back between (it is
    written back after the fifth only), the window is never idle and uncut. -/
theorem before1_14_B (c : Dev nD) (t : Fin cfg1.N) (h0 : ¬t.val % 5 = 0) (d) :
    (dat1 V c).before 14 t d = (outsAt1 V c (t.val - 1) (Nat.lt_of_le_of_lt (Nat.sub_le _ _) t.isLt)).2.2.2.2 := by
  have hN : t.val < 10 := lt_of_lt_of_eq t.isLt (show cfg1.N = 10 from N_1)
  rw [Dat.before_out_kept _ 14 rfl t (by omega) (Bool.eq_false_iff.mpr fun h => by have := (flush1_14 _).mp h; dsimp only at this; omega)
    (fun _ => rfl) (fun _ _ => rfl)]
  dsimp only [dat1]

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t))

set_option maxHeartbeats 2400000 in
/-- The body at any point: the read windows' memrefs hold their blocks (`before1_W`); the closed form says which case
    the point is in; where the branch is not taken, windows 11–14 hold what the point before left (`before1_W_B`); so
    the case's run applies, and each written window comes back at its pieces read back, which cover it; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  have hN : t.val < 10 := lt_of_lt_of_eq t.isLt (show cfg1.N = 10 from N_1)
  by_cases h0 : t.val % 5 = 0
  · rw [outsAt1_A V c t h0]
    unfold out1_A_10 out1_A_11 out1_A_12 out1_A_13 out1_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun1_A c (grid1.coords t) _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover1_A_11 c _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover1_A_14 c _ _ _ _ _ _ _ _ _ _ _ _ _ _ _ _ _ _ _ _ _ _ _ _ _ _ _ _ _ _ _ _ _ _ _ _ _ _ _ _ _ _)
  · rw [outsAt1_B V c t h0]
    simp only [before1_11_B V c t h0, before1_12_B V c t h0, before1_13_B V c t h0, before1_14_B V c t h0]
    unfold out1_B_10 out1_B_11 out1_B_12 out1_B_13 out1_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun1_B c (grid1.coords t) _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover1_B_10 c _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover1_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover1_B_14 c _ _ _ _ _ _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.B2Runs.lean ====
/- Pallas call 2 (`cc2__mlp_kernel`, grid 2 × 5, fifteen windows: 0–9 read, 10–14 written): what the two runs of its
   body share. Each window's block at a point, read off the window's array at the contents `V` the region is entered
   with; that a read window's staging buffer holds that block at every point; the body's one branch condition (the
   second grid coordinate is 0: the first of a core's five points, where the four accumulators are zero-filled) in
   closed form over the grid; a view of each written window through which its contents are stated; and the staging
   memrefs the pipeline passes the body at a point. -/
import proofs.«429418_j73830487818378_3_alg».proof.Proof.Gen.Kernel.Launch
import proofs.«429418_j73830487818378_3_alg».proof.Proof.Gen.Kernel.Skeleton
import proofs.«429418_j73830487818378_3_alg».proof.Proof.Gen.Kernel.Points
import Idealize.ShloMosaic.Lib.Pipeline.FrameBody
import Idealize.ShloMosaic.Lib.Ring
import Idealize.ShloMosaic.Lib.Tactic

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Read window 0's current staging buffer holds its block at every point, fetched there or not (unfetched, the block
    index has not moved), for any proof data whose array is `V`'s (`hA`) and whose body leaves the block in place
    (`hafter`); the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Read window 1's current staging buffer holds its block at every point, fetched there or not (unfetched, the block
    index has not moved), for any proof data whose array is `V`'s (`hA`) and whose body leaves the block in place
    (`hafter`); the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Read window 2's current staging buffer holds its block at every point, fetched there or not (unfetched, the block
    index has not moved), for any proof data whose array is `V`'s (`hA`) and whose body leaves the block in place
    (`hafter`); the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Read window 3's current staging buffer holds its block at every point, fetched there or not (unfetched, the block
    index has not moved), for any proof data whose array is `V`'s (`hA`) and whose body leaves the block in place
    (`hafter`); the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Read window 4's current staging buffer holds its block at every point, fetched there or not (unfetched, the block
    index has not moved), for any proof data whose array is `V`'s (`hA`) and whose body leaves the block in place
    (`hafter`); the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Read window 5's current staging buffer holds its block at every point, fetched there or not (unfetched, the block
    index has not moved), for any proof data whose array is `V`'s (`hA`) and whose body leaves the block in place
    (`hafter`); the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Read window 6's current staging buffer holds its block at every point, fetched there or not (unfetched, the block
    index has not moved), for any proof data whose array is `V`'s (`hA`) and whose body leaves the block in place
    (`hafter`); the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Read window 7's current staging buffer holds its block at every point, fetched there or not (unfetched, the block
    index has not moved), for any proof data whose array is `V`'s (`hA`) and whose body leaves the block in place
    (`hafter`); the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Read window 8's current staging buffer holds its block at every point, fetched there or not (unfetched, the block
    index has not moved), for any proof data whose array is `V`'s (`hA`) and whose body leaves the block in place
    (`hafter`); the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Read window 9's current staging buffer holds its block at every point, fetched there or not (unfetched, the block
    index has not moved), for any proof data whose array is `V`'s (`hA`) and whose body leaves the block in place
    (`hafter`); the window is uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch condition -/

/-- The condition of the body's one `scf.if`, from the grid coordinates (the scalar chain substituted): the second
    coordinate is 0. -/
abbrev cond2_0 (i : grid2.Coords) : Prop := (Scalar.cmpi .ne (Scalar.extui (Scalar.cmpi .eq (BitVec.ofNat 32 (i 1).val) 0#32)) 0#32) = 1#1
/-- It holds at the first of each core's five points — decided over the grid. -/
theorem hcond2_0 : ∀ t : Fin cfg2.N, cond2_0 (grid2.coords t) ↔ t.val % 5 = 0 :=
  (by decide +kernel : ∀ t : Fin grid2.N, cond2_0 (grid2.coords t) ↔ t.val % 5 = 0)

/-! ## The staging memrefs -/

/-- One staging buffer of written window 10, through which its contents are stated (the choice does not matter: the
    pieces cover the buffer). -/
abbrev VO2_10 : View sig .tc .vmem S5000x64 .f32 := (Memref.whole cc2_stg10_0 : Memref sig .tc .vmem S5000x64 .f32).view
/-- One staging buffer of written window 11, through which its contents are stated (the choice does not matter: the
    pieces cover the buffer). -/
abbrev VO2_11 : View sig .tc .vmem S1x1x64 .f32 := (Memref.whole cc2_stg11_0 : Memref sig .tc .vmem S1x1x64 .f32).view
/-- One staging buffer of written window 12, through which its contents are stated (the choice does not matter: the
    pieces cover the buffer). -/
abbrev VO2_12 : View sig .tc .vmem S1x1x64 .f32 := (Memref.whole cc2_stg12_0 : Memref sig .tc .vmem S1x1x64 .f32).view
/-- One staging buffer of written window 13, through which its contents are stated (the choice does not matter: the
    pieces cover the buffer). -/
abbrev VO2_13 : View sig .tc .vmem S1x256x64 .f32 := (Memref.whole cc2_stg13_0 : Memref sig .tc .vmem S1x256x64 .f32).view
/-- One staging buffer of written window 14, through which its contents are stated (the choice does not matter: the
    pieces cover the buffer). -/
abbrev VO2_14 : View sig .tc .vmem S1x1x256 .f32 := (Memref.whole cc2_stg14_0 : Memref sig .tc .vmem S1x1x256 .f32).view
/-- Each window's current staging memref at point `t`, spelled as the pipeline passes it to the body, and its wholeness. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x1 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S5000x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x1x64 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x1x64 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x256x64 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x1x256 .f32 := win2_14.stage (cfg2.slots t 14)
abbrev hs2_14 (t : Fin cfg2.N) : (ms2_14 t).IsWhole := hstage2_14 ((cfg2.slots t 14).cast nbuf2_14)

end Cert.Kernel.Fr

end
-- ==== Proof.B2RunA.lean ====
/- Pallas call 2, the run of its whole body at a point where the branch is TAKEN (the second grid coordinate is 0: the
   first of a core's five points). There the four accumulators are zero-filled before anything reads them, so every
   written window's staging buffer may hold anything when the body starts. The run finds, per written window, the
   pieces its stores leave (last first): window 10 one store, windows 11–14 two each (the zero fill, then the sum). -/
import proofs.«429418_j73830487818378_3_alg».proof.Proof.B2Runs

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is taken (`hc0`), WITH the proof that on whole staging memrefs — the read windows' at their contents `x·`,
    the written windows' at anything — the body runs to the continuation holding the read windows' as they were and
    each written window's buffer with its pieces written. The printed functions are their skeletons, which the
    executor runs, the branch decided by `hc0`; the pieces are the witness that run finds (assigned when the buffer is
    handed to the continuation). -/
noncomputable def kernelRun2_A (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc2__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc2__mlp_kernel_eq_skeleton]; unfold cc2__mlp_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.Kernel.Fr

end
-- ==== Proof.B2RunB.lean ====
/- Pallas call 2, the run of its whole body at a point where the branch is NOT taken (the second grid coordinate is not
   0: the later four of a core's five points). There windows 11–14 are accumulators: the body reads what the point
   before left in them (`xo·`) and stores the sum back; window 10 is stored whole without being read. The run finds,
   per written window, the one piece its store leaves. -/
import proofs.«429418_j73830487818378_3_alg».proof.Proof.B2RunA

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is not taken (`hc0`), WITH the proof that on whole staging memrefs — the read windows' at their contents `x·`,
    windows 11–14 at their running contents `xo·`, window 10 at anything — the body runs to the continuation holding the read windows' as they were and
    each written window's buffer with its pieces written. The printed functions are their skeletons, which the
    executor runs, the branch decided by `hc0`; the pieces are the witness that run finds (assigned when the buffer is
    handed to the continuation). -/
noncomputable def kernelRun2_B (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc2__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc2__mlp_kernel_eq_skeleton]; unfold cc2__mlp_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.Kernel.Fr

end
-- ==== Proof.B2Frame.lean ====
/- Pallas call 2 (`cc2__mlp_kernel`), the body's half of its frame at the contents `V` the region is entered with:
   what each written window holds per case (the pieces the run found cover the window's block, so what it holds is
   the pieces read back) and point by point (`outsAt2`: by recursion on the point, a window the later points of a
   core accumulate into taken at what the point before left), the pipeline's proof data `dat2` over those contents,
   what the body finds in each staging buffer, and the body obligation at every point. -/
import proofs.«429418_j73830487818378_3_alg».proof.Proof.B2RunB

-- membership in a rectangle of the blocks' extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each written window's buffer, per case -/

/-- The pieces the run with the branch taken found for window 10 tile its block (1 store of the whole `S5000x64`, checked by
    evaluation), so they cover it. -/
theorem cover2_A_10 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S5000x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S5000x64.size (by sl_kernel_rfl) y

/-- What that run leaves in window 10's staging buffer: its pieces read back over junk. -/
def out2_A_10 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S5000x64 .f32 :=
  VO2_10.read (Elt F) (VO2_10.writes (Elt F) VO2_10.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1)

/-- The pieces the run with the branch taken found for window 11 tile its block (2 stores of the whole `S1x1x64`, checked by
    evaluation), so they cover it. -/
theorem cover2_A_11 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 S1x1x64.size (by sl_kernel_rfl) y

/-- What that run leaves in window 11's staging buffer: its pieces read back over junk. -/
def out2_A_11 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x64 .f32 :=
  VO2_11.read (Elt F) (VO2_11.writes (Elt F) VO2_11.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1)

/-- The pieces the run with the branch taken found for window 12 tile its block (2 stores of the whole `S1x1x64`, checked by
    evaluation), so they cover it. -/
theorem cover2_A_12 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1 S1x1x64.size (by sl_kernel_rfl) y

/-- What that run leaves in window 12's staging buffer: its pieces read back over junk. -/
def out2_A_12 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x64 .f32 :=
  VO2_12.read (Elt F) (VO2_12.writes (Elt F) VO2_12.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1)

/-- The pieces the run with the branch taken found for window 13 tile its block (2 stores of the whole `S1x256x64`, checked by
    evaluation), so they cover it. -/
theorem cover2_A_13 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x256x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1 S1x256x64.size (by sl_kernel_rfl) y

/-- What that run leaves in window 13's staging buffer: its pieces read back over junk. -/
def out2_A_13 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x256x64 .f32 :=
  VO2_13.read (Elt F) (VO2_13.writes (Elt F) VO2_13.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1)

/-- The pieces the run with the branch taken found for window 14 tile its block (2 stores of the whole `S1x1x256`, checked by
    evaluation), so they cover it. -/
theorem cover2_A_14 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x256.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1 S1x1x256.size (by sl_kernel_rfl) y

/-- What that run leaves in window 14's staging buffer: its pieces read back over junk. -/
def out2_A_14 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x256 .f32 :=
  VO2_14.read (Elt F) (VO2_14.writes (Elt F) VO2_14.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1)

/-- The pieces the run with the branch not taken found for window 10 tile its block (1 store of the whole `S5000x64`, checked by
    evaluation), so they cover it. -/
theorem cover2_B_10 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S5000x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1 S5000x64.size (by sl_kernel_rfl) y

/-- What that run leaves in window 10's staging buffer: its pieces read back over junk. -/
def out2_B_10 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S5000x64 .f32 :=
  VO2_10.read (Elt F) (VO2_10.writes (Elt F) VO2_10.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1)

/-- The pieces the run with the branch not taken found for window 11 tile its block (1 store of the whole `S1x1x64`, checked by
    evaluation), so they cover it. -/
theorem cover2_B_11 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1 S1x1x64.size (by sl_kernel_rfl) y

/-- What that run leaves in window 11's staging buffer: its pieces read back over junk. -/
def out2_B_11 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO2_11.read (Elt F) (VO2_11.writes (Elt F) VO2_11.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1)

/-- The pieces the run with the branch not taken found for window 12 tile its block (1 store of the whole `S1x1x64`, checked by
    evaluation), so they cover it. -/
theorem cover2_B_12 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1 S1x1x64.size (by sl_kernel_rfl) y

/-- What that run leaves in window 12's staging buffer: its pieces read back over junk. -/
def out2_B_12 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO2_12.read (Elt F) (VO2_12.writes (Elt F) VO2_12.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1)

/-- The pieces the run with the branch not taken found for window 13 tile its block (1 store of the whole `S1x256x64`, checked by
    evaluation), so they cover it. -/
theorem cover2_B_13 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x256x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1 S1x256x64.size (by sl_kernel_rfl) y

/-- What that run leaves in window 13's staging buffer: its pieces read back over junk. -/
def out2_B_13 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x256x64 .f32 :=
  VO2_13.read (Elt F) (VO2_13.writes (Elt F) VO2_13.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1)

/-- The pieces the run with the branch not taken found for window 14 tile its block (1 store of the whole `S1x1x256`, checked by
    evaluation), so they cover it. -/
theorem cover2_B_14 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x256.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1 S1x1x256.size (by sl_kernel_rfl) y

/-- What that run leaves in window 14's staging buffer: its pieces read back over junk. -/
def out2_B_14 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x256 .f32 :=
  VO2_14.read (Elt F) (VO2_14.writes (Elt F) VO2_14.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1)

section Region2
-- the TensorCore's buffer contents when the region is entered
variable (V : (c : Dev nD) → (b : Ref sig .tc) → Buf (Elt F) ((c : Thread nD τ).loc b))

/-! ## What the written windows hold after each point -/

/-- THE ACCUMULATION. What the written windows' staging buffers hold after the body at position `n` (a tuple, in window
    order): the case the closed form selects at `n`, run at the point's memrefs and read blocks, a window the case
    reads before covering (11–14 when the branch is not taken) at what this leaves at `n - 1` (its buffer is not
    written back between: `before2_W_B`). -/
def outsAt2 (c : Dev nD) : (n : ℕ) → n < cfg2.N → Vec F S5000x64 .f32 × Vec F S1x1x64 .f32 × Vec F S1x1x64 .f32 × Vec F S1x256x64 .f32 × Vec F S1x1x256 .f32
  | 0, hn => (out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩),
      out2_A_11 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩),
      out2_A_12 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩),
      out2_A_13 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩),
      out2_A_14 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩))
  | n + 1, hn =>
    if h0 : (n + 1) % 5 = 0 then
      (out2_A_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩),
       out2_A_11 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩),
       out2_A_12 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩),
       out2_A_13 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩),
       out2_A_14 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩))
    else
      (out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
       out2_B_11 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
       out2_B_12 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
       out2_B_13 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
       out2_B_14 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2)

/-- `outsAt2` at a point where the branch is taken: that case's contents. -/
theorem outsAt2_A (c : Dev nD) (t : Fin cfg2.N) (h0 : t.val % 5 = 0) :
    outsAt2 V c t.val t.isLt = (out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
      out2_A_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
      out2_A_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
      out2_A_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
      out2_A_14 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) := by
  obtain ⟨n, hn⟩ := t
  cases n with
  | zero => exact rfl
  | succ n => exact (dif_pos h0).trans rfl

/-- `outsAt2` at a point where the branch is not taken: that case's contents, over what the point before left. -/
theorem outsAt2_B (c : Dev nD) (t : Fin cfg2.N) (h0 : ¬t.val % 5 = 0) :
    outsAt2 V c t.val t.isLt = (out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_14 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at point `t`
    each read window's buffer at its block and the written windows' at `outsAt2`'s components; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => (outsAt2 V c t.val t.isLt).1
    | ⟨11, _⟩ => (outsAt2 V c t.val t.isLt).2.1
    | ⟨12, _⟩ => (outsAt2 V c t.val t.isLt).2.2.1
    | ⟨13, _⟩ => (outsAt2 V c t.val t.isLt).2.2.2.1
    | ⟨14, _⟩ => (outsAt2 V c t.val t.isLt).2.2.2.2
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = (outsAt2 V c t.val t.isLt).1 := by dsimp only [dat2]
theorem after2_11 (c : Dev nD) (t : Fin cfg2.N) : (dat2 V c).after 11 t = (outsAt2 V c t.val t.isLt).2.1 := by dsimp only [dat2]
theorem after2_12 (c : Dev nD) (t : Fin cfg2.N) : (dat2 V c).after 12 t = (outsAt2 V c t.val t.isLt).2.2.1 := by dsimp only [dat2]
theorem after2_13 (c : Dev nD) (t : Fin cfg2.N) : (dat2 V c).after 13 t = (outsAt2 V c t.val t.isLt).2.2.2.1 := by dsimp only [dat2]
theorem after2_14 (c : Dev nD) (t : Fin cfg2.N) : (dat2 V c).after 14 t = (outsAt2 V c t.val t.isLt).2.2.2.2 := by dsimp only [dat2]

/-- Each read window's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
/-- At a point where the branch is not taken, written window 11's current staging buffer holds what the body left at the
    point before: the point is not the first of its core's five, the buffer was not written back between (it is
    written back after the fifth only), the window is never idle and uncut. -/
theorem before2_11_B (c : Dev nD) (t : Fin cfg2.N) (h0 : ¬t.val % 5 = 0) (d) :
    (dat2 V c).before 11 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 11 rfl t (by omega) (Bool.eq_false_iff.mpr fun h => by have := (flush2_11 _).mp h; dsimp only at this; omega)
    (fun _ => rfl) (fun _ _ => rfl)]
  dsimp only [dat2]
/-- At a point where the branch is not taken, written window 12's current staging buffer holds what the body left at the
    point before: the point is not the first of its core's five, the buffer was not written back between (it is
    written back after the fifth only), the window is never idle and uncut. -/
theorem before2_12_B (c : Dev nD) (t : Fin cfg2.N) (h0 : ¬t.val % 5 = 0) (d) :
    (dat2 V c).before 12 t d = (outsAt2 V c (t.val - 1) (Nat.lt_of_le_of_lt (Nat.sub_le _ _) t.isLt)).2.2.1 := by
  have hN : t.val < 10 := lt_of_lt_of_eq t.isLt (show cfg2.N = 10 from N_2)
  rw [Dat.before_out_kept _ 12 rfl t (by omega) (Bool.eq_false_iff.mpr fun h => by have := (flush2_12 _).mp h; dsimp only at this; omega)
    (fun _ => rfl) (fun _ _ => rfl)]
  dsimp only [dat2]
/-- At a point where the branch is not taken, written window 13's current staging buffer holds what the body left at the
    point before: the point is not the first of its core's five, the buffer was not written back between (it is
    written back after the fifth only), the window is never idle and uncut. -/
theorem before2_13_B (c : Dev nD) (t : Fin cfg2.N) (h0 : ¬t.val % 5 = 0) (d) :
    (dat2 V c).before 13 t d = (outsAt2 V c (t.val - 1) (Nat.lt_of_le_of_lt (Nat.sub_le _ _) t.isLt)).2.2.2.1 := by
  have hN : t.val < 10 := lt_of_lt_of_eq t.isLt (show cfg2.N = 10 from N_2)
  rw [Dat.before_out_kept _ 13 rfl t (by omega) (Bool.eq_false_iff.mpr fun h => by have := (flush2_13 _).mp h; dsimp only at this; omega)
    (fun _ => rfl) (fun _ _ => rfl)]
  dsimp only [dat2]
/-- At a point where the branch is not taken, written window 14's current staging buffer holds what the body left at the
    point before: the point is not the first of its core's five, the buffer was not written back between (it is
    written back after the fifth only), the window is never idle and uncut. -/
theorem before2_14_B (c : Dev nD) (t : Fin cfg2.N) (h0 : ¬t.val % 5 = 0) (d) :
    (dat2 V c).before 14 t d = (outsAt2 V c (t.val - 1) (Nat.lt_of_le_of_lt (Nat.sub_le _ _) t.isLt)).2.2.2.2 := by
  have hN : t.val < 10 := lt_of_lt_of_eq t.isLt (show cfg2.N = 10 from N_2)
  rw [Dat.before_out_kept _ 14 rfl t (by omega) (Bool.eq_false_iff.mpr fun h => by have := (flush2_14 _).mp h; dsimp only at this; omega)
    (fun _ => rfl) (fun _ _ => rfl)]
  dsimp only [dat2]

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t)
    ∗ owns (c : Thread nD τ) (ms2_14 t) fullShare ((dat2 V c).after 14 t))

set_option maxHeartbeats 2400000 in
/-- The body at any point: the read windows' memrefs hold their blocks (`before2_W`); the closed form says which case
    the point is in; where the branch is not taken, windows 11–14 hold what the point before left (`before2_W_B`); so
    the case's run applies, and each written window comes back at its pieces read back, which cover it; the invariant
    passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  have hN : t.val < 10 := lt_of_lt_of_eq t.isLt (show cfg2.N = 10 from N_2)
  by_cases h0 : t.val % 5 = 0
  · rw [outsAt2_A V c t h0]
    unfold out2_A_10 out2_A_11 out2_A_12 out2_A_13 out2_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun2_A c (grid2.coords t) _ _ _ _ _ _ _ _ _ _ _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover2_A_10 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover2_A_11 c _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover2_A_12 c _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover2_A_13 c _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover2_A_14 c _ _ _ _ _ _ _ _ _ _ _ _ _ _ _ _ _ _ _ _ _ _ _ _ _ _ _ _ _ _ _ _ _ _ _ _ _ _ _ _ _ _)
  · rw [outsAt2_B V c t h0]
    simp only [before2_11_B V c t h0, before2_12_B V c t h0, before2_13_B V c t h0, before2_14_B V c t h0]
    unfold out2_B_10 out2_B_11 out2_B_12 out2_B_13 out2_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun2_B c (grid2.coords t) _ _ _ _ _ _ _ _ _ _ _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover2_B_10 c _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover2_B_11 c _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover2_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover2_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover2_B_14 c _ _ _ _ _ _ _ _ _ _ _ _ _ _ _ _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.B3Frame.lean ====
/- The kernel-body half of the region of custom_call 3 (`cc3__bn_kernel`, a row-wise normalisation: five whole-buffer
   loads, pointwise arithmetic with one reciprocal square root, one whole-buffer store) of `Cert.Kernel`, generic
   in the float instance, at a parameter `V`: the TensorCore's buffer contents when the region is entered. Each
   window's block at a point, the output buffer after the body as the canonical form of its one store, the body's
   triple, the proof data and the body obligation. -/
import proofs.«429418_j73830487818378_3_alg».proof.Proof.Gen.Kernel.Launch
import proofs.«429418_j73830487818378_3_alg».proof.Proof.Gen.Kernel.Skeleton
import proofs.«429418_j73830487818378_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 3, `cc3__bn_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block index
    has not moved, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block index
    has not moved, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block index
    has not moved, and the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block index
    has not moved, and the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000x128 buffer (the load of window 0 and the one store). -/
abbrev r3_0 : Rect S5000x128 := Rect.unit (s := S5000x128) ![0, 0] S5000x128.size inb_S5000x128_S5000x128_0_0
/-- The whole 1x128 row (the loads of windows 1 to 4). -/
abbrev r3_1 : Rect S1x128 := Rect.unit (s := S1x128) ![0, 0] S1x128.size inb_S1x128_S1x128_0_0

/-! ## What the body leaves in the output window's buffer -/

/-- Window 5's staging buffer after the body, from the input windows' blocks: its one store as a piece, the payload
    the skeleton's, over the values the five loads read (window 2's row is the second argument of the payload,
    window 1's the third). -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_0, k3_pay1 (View.ld x0 r3_0) (View.ld x2 r3_1) (View.ld x1 r3_1) (View.ld x3 r3_1) (View.ld x4 r3_1)⟩]

/-- The one store is the whole buffer, so it covers it. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `xW` and the output's at anything, runs to
    the continuation holding the inputs' as they were and the output's at `out3_5` of the inputs': the printed function
    is its skeleton, whose six loads and one store are run one by one. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point `t`
    each input's buffer at its block and the output's at `out3_5` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.BRun.lean ====
import proofs.«429418_j73830487818378_3_alg».proof.Proof.B0Frame
import proofs.«429418_j73830487818378_3_alg».proof.Proof.B1Frame
import proofs.«429418_j73830487818378_3_alg».proof.Proof.B2Frame
import proofs.«429418_j73830487818378_3_alg».proof.Proof.B3Frame
import Idealize.ShloMosaic.Lib.Pipeline.RegionsLoop
import Idealize.ShloMosaic.Lib.Pipeline.FrameSuffix
import Idealize.ShloMosaic.Lib.Pipeline.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: five stretches of host operations around four kernel regions

## The buffer contents at each boundary: a fold through @main from the launch memory -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (an input as entered, an output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (an input as entered, an output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (an input as entered, an output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (an input as entered, an output's write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (the return). -/
abbrev W9 : Dev nD → Valuation τ sig (Elt F) := fun c => StableHlo.after hostOps4 (W8 m ρ c)

/-! ## What the host stretches write

Each operation writes its one result reference; a stretch's results are listed, so that "this reference is not written"
is decided over references in one pass. -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_cst, main_v5, main_v6, main_v7, main_v8, main_cst_0, main_v9, main_cst_1, main_v10, main_c, main_v11, main_v12, main_c_2, main_v13, main_v14, main_v15, main_v16, main_v17, main_v18, main_v19, main_v20, main_cst_3, main_v21, main_v22, main_v23, main_v24, main_v25, main_v26, main_v27]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps0` does not write keeps its contents across the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_cst_4, main_v29, main_v30, main_cst_5, main_v31, main_v32, main_cst_6, main_v33, main_cst_7, main_v34, main_v35, main_cst_8, main_v36, main_v37, main_cst_9, main_v38, main_v39, main_v40, main_v41, main_cst_10, main_v42, main_v43, main_cst_11, main_v44, main_v45, main_v46, main_v47, main_v48, main_v49, main_v50, main_v51, main_v52, main_v53, main_v54, main_v55, main_v56, main_v57, main_v58, main_v59, main_v60, main_v61, main_v62, main_v63, main_v64, main_v65, main_v66, main_v67, main_c_12, main_v68, main_v69, main_c_13, main_v70, main_v71, main_v72, main_v73, main_v74, main_v75, main_v76, main_v77, main_cst_14, main_v78, main_v79, main_v80, main_v81, main_v82, main_v83, main_v84]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps1` does not write keeps its contents across the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_cst_15, main_v86, main_v87, main_cst_16, main_v88, main_v89, main_cst_17, main_v90, main_cst_18, main_v91, main_v92, main_cst_19, main_v93, main_v94, main_cst_20, main_v95, main_v96, main_v97, main_v98, main_cst_21, main_v99, main_v100, main_cst_22, main_v101, main_v102, main_v103, main_v104, main_v105, main_v106, main_v107, main_v108, main_v109, main_v110, main_v111, main_v112, main_v113, main_v114, main_v115, main_v116, main_v117, main_v118, main_v119, main_v120, main_v121, main_v122, main_v123, main_v124, main_c_23, main_v125, main_v126, main_c_24, main_v127, main_v128, main_v129, main_v130, main_v131, main_v132, main_v133, main_v134, main_cst_25, main_v135, main_v136, main_v137, main_v138, main_v139, main_v140, main_v141]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps2` does not write keeps its contents across the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_cst_26, main_v143, main_v144, main_cst_27, main_v145, main_v146, main_cst_28, main_v147, main_cst_29, main_v148, main_v149, main_cst_30, main_v150, main_v151, main_cst_31, main_v152, main_v153, main_v154, main_v155, main_cst_32, main_v156, main_v157, main_cst_33, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps3` does not write keeps its contents across the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v189, main_v190]
theorem hostOps4_writes : (hostOps4 : List (HloOp τ sig (Elt F))).Forall fun op => op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps4` does not write keeps its contents across the stretch. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-! ## The arguments end as launched

No host operation writes an argument; a region reads an argument through an input window (whose array the pipeline leaves as
entered) or does not touch it. So the fold at an argument's buffer walks back to the launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 6).trans (((dat0 (V1 m ρ) c).arrAt_in 6 rfl _).trans (A_eq0 (V1 m ρ) c 6))
    _ = W0 m ρ c (Proc.devRef .tc main_arg4) := W1_of m ρ c main_arg4 (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 8).trans (((dat0 (V1 m ρ) c).arrAt_in 8 rfl _).trans (A_eq0 (V1 m ρ) c 8))
    _ = W0 m ρ c (Proc.devRef .tc main_arg6) := W1_of m ρ c main_arg6 (by decide)
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of m ρ c main_arg10 (by decide)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := (W4_arr m ρ c 6).trans (((dat1 (V3 m ρ) c).arrAt_in 6 rfl _).trans (A_eq1 (V3 m ρ) c 6))
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of m ρ c main_arg11 (by decide)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of m ρ c main_arg12 (by decide)
    _ = W7 m ρ c (Proc.devRef .tc main_arg12) := W8_of_ne m ρ c main_arg12 (by decide)
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := (W4_arr m ρ c 8).trans (((dat1 (V3 m ρ) c).arrAt_in 8 rfl _).trans (A_eq1 (V3 m ρ) c 8))
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := W9_of m ρ c main_arg13 (by decide)
    _ = W7 m ρ c (Proc.devRef .tc main_arg13) := W8_of_ne m ρ c main_arg13 (by decide)
    _ = W6 m ρ c (Proc.devRef .tc main_arg13) := W7_of m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := W9_of m ρ c main_arg14 (by decide)
    _ = W7 m ρ c (Proc.devRef .tc main_arg14) := W8_of_ne m ρ c main_arg14 (by decide)
    _ = W6 m ρ c (Proc.devRef .tc main_arg14) := W7_of m ρ c main_arg14 (by decide)
    _ = W5 m ρ c (Proc.devRef .tc main_arg14) := W6_of_ne m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
theorem W9_main_arg15 (c : Dev nD) : W9 m ρ c (Proc.devRef .tc main_arg15) = m ((c : Thread nD τ).loc main_arg15) :=
  calc W9 m ρ c (Proc.devRef .tc main_arg15)
    _ = W8 m ρ c (Proc.devRef .tc main_arg15) := W9_of m ρ c main_arg15 (by decide)
    _ = W7 m ρ c (Proc.devRef .tc main_arg15) := W8_of_ne m ρ c main_arg15 (by decide)
    _ = W6 m ρ c (Proc.devRef .tc main_arg15) := W7_of m ρ c main_arg15 (by decide)
    _ = W5 m ρ c (Proc.devRef .tc main_arg15) := W6_of_ne m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl
theorem W9_main_arg16 (c : Dev nD) : W9 m ρ c (Proc.devRef .tc main_arg16) = m ((c : Thread nD τ).loc main_arg16) :=
  calc W9 m ρ c (Proc.devRef .tc main_arg16)
    _ = W8 m ρ c (Proc.devRef .tc main_arg16) := W9_of m ρ c main_arg16 (by decide)
    _ = W7 m ρ c (Proc.devRef .tc main_arg16) := W8_of_ne m ρ c main_arg16 (by decide)
    _ = W6 m ρ c (Proc.devRef .tc main_arg16) := W7_of m ρ c main_arg16 (by decide)
    _ = W5 m ρ c (Proc.devRef .tc main_arg16) := (W6_arr m ρ c 6).trans (((dat2 (V5 m ρ) c).arrAt_in 6 rfl _).trans (A_eq2 (V5 m ρ) c 6))
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl
theorem W9_main_arg17 (c : Dev nD) : W9 m ρ c (Proc.devRef .tc main_arg17) = m ((c : Thread nD τ).loc main_arg17) :=
  calc W9 m ρ c (Proc.devRef .tc main_arg17)
    _ = W8 m ρ c (Proc.devRef .tc main_arg17) := W9_of m ρ c main_arg17 (by decide)
    _ = W7 m ρ c (Proc.devRef .tc main_arg17) := W8_of_ne m ρ c main_arg17 (by decide)
    _ = W6 m ρ c (Proc.devRef .tc main_arg17) := W7_of m ρ c main_arg17 (by decide)
    _ = W5 m ρ c (Proc.devRef .tc main_arg17) := W6_of_ne m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of_ne m ρ c main_arg17 (by decide)
    _ = W0 m ρ c (Proc.devRef .tc main_arg17) := W1_of m ρ c main_arg17 (by decide)
    _ = m ((c : Thread nD τ).loc main_arg17) := rfl
theorem W9_main_arg18 (c : Dev nD) : W9 m ρ c (Proc.devRef .tc main_arg18) = m ((c : Thread nD τ).loc main_arg18) :=
  calc W9 m ρ c (Proc.devRef .tc main_arg18)
    _ = W8 m ρ c (Proc.devRef .tc main_arg18) := W9_of m ρ c main_arg18 (by decide)
    _ = W7 m ρ c (Proc.devRef .tc main_arg18) := W8_of_ne m ρ c main_arg18 (by decide)
    _ = W6 m ρ c (Proc.devRef .tc main_arg18) := W7_of m ρ c main_arg18 (by decide)
    _ = W5 m ρ c (Proc.devRef .tc main_arg18) := (W6_arr m ρ c 8).trans (((dat2 (V5 m ρ) c).arrAt_in 8 rfl _).trans (A_eq2 (V5 m ρ) c 8))
    _ = W4 m ρ c (Proc.devRef .tc main_arg18) := W5_of m ρ c main_arg18 (by decide)
    _ = W3 m ρ c (Proc.devRef .tc main_arg18) := W4_of_ne m ρ c main_arg18 (by decide)
    _ = W2 m ρ c (Proc.devRef .tc main_arg18) := W3_of m ρ c main_arg18 (by decide)
    _ = W1 m ρ c (Proc.devRef .tc main_arg18) := W2_of_ne m ρ c main_arg18 (by decide)
    _ = W0 m ρ c (Proc.devRef .tc main_arg18) := W1_of m ρ c main_arg18 (by decide)
    _ = m ((c : Thread nD τ).loc main_arg18) := rfl
theorem W9_main_arg19 (c : Dev nD) : W9 m ρ c (Proc.devRef .tc main_arg19) = m ((c : Thread nD τ).loc main_arg19) :=
  calc W9 m ρ c (Proc.devRef .tc main_arg19)
    _ = W8 m ρ c (Proc.devRef .tc main_arg19) := W9_of m ρ c main_arg19 (by decide)
    _ = W7 m ρ c (Proc.devRef .tc main_arg19) := W8_of_ne m ρ c main_arg19 (by decide)
    _ = W6 m ρ c (Proc.devRef .tc main_arg19) := W7_of m ρ c main_arg19 (by decide)
    _ = W5 m ρ c (Proc.devRef .tc main_arg19) := W6_of_ne m ρ c main_arg19 (by decide)
    _ = W4 m ρ c (Proc.devRef .tc main_arg19) := W5_of m ρ c main_arg19 (by decide)
    _ = W3 m ρ c (Proc.devRef .tc main_arg19) := W4_of_ne m ρ c main_arg19 (by decide)
    _ = W2 m ρ c (Proc.devRef .tc main_arg19) := W3_of m ρ c main_arg19 (by decide)
    _ = W1 m ρ c (Proc.devRef .tc main_arg19) := W2_of_ne m ρ c main_arg19 (by decide)
    _ = W0 m ρ c (Proc.devRef .tc main_arg19) := W1_of m ρ c main_arg19 (by decide)
    _ = m ((c : Thread nD τ).loc main_arg19) := rfl
theorem W9_main_arg20 (c : Dev nD) : W9 m ρ c (Proc.devRef .tc main_arg20) = m ((c : Thread nD τ).loc main_arg20) :=
  calc W9 m ρ c (Proc.devRef .tc main_arg20)
    _ = W8 m ρ c (Proc.devRef .tc main_arg20) := W9_of m ρ c main_arg20 (by decide)
    _ = W7 m ρ c (Proc.devRef .tc main_arg20) := W8_of_ne m ρ c main_arg20 (by decide)
    _ = W6 m ρ c (Proc.devRef .tc main_arg20) := W7_of m ρ c main_arg20 (by decide)
    _ = W5 m ρ c (Proc.devRef .tc main_arg20) := W6_of_ne m ρ c main_arg20 (by decide)
    _ = W4 m ρ c (Proc.devRef .tc main_arg20) := W5_of m ρ c main_arg20 (by decide)
    _ = W3 m ρ c (Proc.devRef .tc main_arg20) := W4_of_ne m ρ c main_arg20 (by decide)
    _ = W2 m ρ c (Proc.devRef .tc main_arg20) := W3_of m ρ c main_arg20 (by decide)
    _ = W1 m ρ c (Proc.devRef .tc main_arg20) := W2_of_ne m ρ c main_arg20 (by decide)
    _ = W0 m ρ c (Proc.devRef .tc main_arg20) := W1_of m ρ c main_arg20 (by decide)
    _ = m ((c : Thread nD τ).loc main_arg20) := rfl
theorem W9_main_arg21 (c : Dev nD) : W9 m ρ c (Proc.devRef .tc main_arg21) = m ((c : Thread nD τ).loc main_arg21) :=
  calc W9 m ρ c (Proc.devRef .tc main_arg21)
    _ = W8 m ρ c (Proc.devRef .tc main_arg21) := W9_of m ρ c main_arg21 (by decide)
    _ = W7 m ρ c (Proc.devRef .tc main_arg21) := W8_of_ne m ρ c main_arg21 (by decide)
    _ = W6 m ρ c (Proc.devRef .tc main_arg21) := W7_of m ρ c main_arg21 (by decide)
    _ = W5 m ρ c (Proc.devRef .tc main_arg21) := W6_of_ne m ρ c main_arg21 (by decide)
    _ = W4 m ρ c (Proc.devRef .tc main_arg21) := W5_of m ρ c main_arg21 (by decide)
    _ = W3 m ρ c (Proc.devRef .tc main_arg21) := W4_of_ne m ρ c main_arg21 (by decide)
    _ = W2 m ρ c (Proc.devRef .tc main_arg21) := W3_of m ρ c main_arg21 (by decide)
    _ = W1 m ρ c (Proc.devRef .tc main_arg21) := W2_of_ne m ρ c main_arg21 (by decide)
    _ = W0 m ρ c (Proc.devRef .tc main_arg21) := W1_of m ρ c main_arg21 (by decide)
    _ = m ((c : Thread nD τ).loc main_arg21) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents (a literal match on the pipeline's index, so that
    the pinned configuration at a numeral reduces to the printed one). -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment: the operations over the unscoped references from the contents `W`, `R` riding along; it
    ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents `W9`, the generator
    register at some state. -/
abbrev Tₙ (c : Dev nD) : sProp 𝕄 := iprop(StableHlo.held (c : Thread nD τ) (Pipeline.ucRefs τ sig) (W9 m ρ c) ∗ ∃ r, prngReg c r)

/-! ## The regions as segments

Each region is entered from every unscoped buffer at its entry contents and left with them at its exit contents: its arrays
are split out of the unscoped buffers and put back; the generator register goes into the invariant and comes out; nothing is
owed; the kernel has no semaphore of its own. -/

-- applying a library lemma stated over the pinned configuration unifies with the printed one only when unification may
-- unfold plain definitions in a metavariable's type
set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments: it is the chain of its items, and the segments' run unfolds to that chain (checked
    by the kernel's definitional unfolding). -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds, at every unscoped buffer, the last boundary's
    contents `W9`: the launch over the segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame claim's post at any `F`: every argument array ends as launched — each read off the last valuation
    (`run_all`) and walked back through the fold (`W9_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c),
     (h c _ (mem_uc main_arg18 (by decide))).trans (W9_main_arg18 m ρ c),
     (h c _ (mem_uc main_arg19 (by decide))).trans (W9_main_arg19 m ρ c),
     (h c _ (mem_uc main_arg20 (by decide))).trans (W9_main_arg20 m ρ c),
     (h c _ (mem_uc main_arg21 (by decide))).trans (W9_main_arg21 m ρ c)⟩) (run_all m ρ)

end Cert.Kernel.Fr

end
-- ==== Proof.K0Runs.lean ====
/- Pallas call 0 (`cc0__mlp_kernel`, grid 2 × 5, fifteen windows: 0–9 read, 10–14 written): what the two runs of its
   body share. Each window's block at a point, read off the window's array at the contents `V` the region is entered
   with; that a read window's staging buffer holds that block at every point; the body's one branch condition (the
   second grid coordinate is 0: the first of a core's five points, where the four accumulators are zero-filled) in
   closed form over the grid; a view of each written window through which its contents are stated; and the staging
   memrefs the pipeline passes the body at a point. -/
import proofs.«429418_j73830487818378_3_alg».proof.Proof.Gen.KernelIdeal.Launch
import proofs.«429418_j73830487818378_3_alg».proof.Proof.Gen.KernelIdeal.Skeleton
import proofs.«429418_j73830487818378_3_alg».proof.Proof.Gen.KernelIdeal.Points
import Idealize.ShloMosaic.Lib.Pipeline.FrameBody
import Idealize.ShloMosaic.Lib.Ring
import Idealize.ShloMosaic.Lib.Tactic

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Read window 0's current staging buffer holds its block at every point, fetched there or not (unfetched, the block
    index has not moved), for any proof data whose array is `V`'s (`hA`) and whose body leaves the block in place
    (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Read window 1's current staging buffer holds its block at every point, fetched there or not (unfetched, the block
    index has not moved), for any proof data whose array is `V`'s (`hA`) and whose body leaves the block in place
    (`hafter`); the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Read window 2's current staging buffer holds its block at every point, fetched there or not (unfetched, the block
    index has not moved), for any proof data whose array is `V`'s (`hA`) and whose body leaves the block in place
    (`hafter`); the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Read window 3's current staging buffer holds its block at every point, fetched there or not (unfetched, the block
    index has not moved), for any proof data whose array is `V`'s (`hA`) and whose body leaves the block in place
    (`hafter`); the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Read window 4's current staging buffer holds its block at every point, fetched there or not (unfetched, the block
    index has not moved), for any proof data whose array is `V`'s (`hA`) and whose body leaves the block in place
    (`hafter`); the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Read window 5's current staging buffer holds its block at every point, fetched there or not (unfetched, the block
    index has not moved), for any proof data whose array is `V`'s (`hA`) and whose body leaves the block in place
    (`hafter`); the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Read window 6's current staging buffer holds its block at every point, fetched there or not (unfetched, the block
    index has not moved), for any proof data whose array is `V`'s (`hA`) and whose body leaves the block in place
    (`hafter`); the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Read window 7's current staging buffer holds its block at every point, fetched there or not (unfetched, the block
    index has not moved), for any proof data whose array is `V`'s (`hA`) and whose body leaves the block in place
    (`hafter`); the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Read window 8's current staging buffer holds its block at every point, fetched there or not (unfetched, the block
    index has not moved), for any proof data whose array is `V`'s (`hA`) and whose body leaves the block in place
    (`hafter`); the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Read window 9's current staging buffer holds its block at every point, fetched there or not (unfetched, the block
    index has not moved), for any proof data whose array is `V`'s (`hA`) and whose body leaves the block in place
    (`hafter`); the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's one `scf.if`, from the grid coordinates (the scalar chain substituted): the second
    coordinate is 0. -/
abbrev cond0_0 (i : grid0.Coords) : Prop := (Scalar.cmpi .ne (Scalar.extui (Scalar.cmpi .eq (BitVec.ofNat 32 (i 1).val) 0#32)) 0#32) = 1#1
/-- It holds at the first of each core's five points — decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-! ## The staging memrefs -/

/-- One staging buffer of written window 10, through which its contents are stated (the choice does not matter: the
    pieces cover the buffer). -/
abbrev VO0_10 : View sig .tc .vmem S5000x64 .f32 := (Memref.whole cc0_stg10_0 : Memref sig .tc .vmem S5000x64 .f32).view
/-- One staging buffer of written window 11, through which its contents are stated (the choice does not matter: the
    pieces cover the buffer). -/
abbrev VO0_11 : View sig .tc .vmem S1x1x64 .f32 := (Memref.whole cc0_stg11_0 : Memref sig .tc .vmem S1x1x64 .f32).view
/-- One staging buffer of written window 12, through which its contents are stated (the choice does not matter: the
    pieces cover the buffer). -/
abbrev VO0_12 : View sig .tc .vmem S1x1x64 .f32 := (Memref.whole cc0_stg12_0 : Memref sig .tc .vmem S1x1x64 .f32).view
/-- One staging buffer of written window 13, through which its contents are stated (the choice does not matter: the
    pieces cover the buffer). -/
abbrev VO0_13 : View sig .tc .vmem S1x256x64 .f32 := (Memref.whole cc0_stg13_0 : Memref sig .tc .vmem S1x256x64 .f32).view
/-- One staging buffer of written window 14, through which its contents are stated (the choice does not matter: the
    pieces cover the buffer). -/
abbrev VO0_14 : View sig .tc .vmem S1x1x256 .f32 := (Memref.whole cc0_stg14_0 : Memref sig .tc .vmem S1x1x256 .f32).view
/-- Each window's current staging memref at point `t`, spelled as the pipeline passes it to the body, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5000x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256 .f32 := win0_14.stage (cfg0.slots t 14)
abbrev hs0_14 (t : Fin cfg0.N) : (ms0_14 t).IsWhole := hstage0_14 ((cfg0.slots t 14).cast nbuf0_14)

end Cert.KernelIdeal.Fr

end
-- ==== Proof.K0RunA.lean ====
/- Pallas call 0, the run of its whole body at a point where the branch is TAKEN (the second grid coordinate is 0: the
   first of a core's five points). There the four accumulators are zero-filled before anything reads them, so every
   written window's staging buffer may hold anything when the body starts. The run finds, per written window, the
   pieces its stores leave (last first): window 10 one store, windows 11–14 two each (the zero fill, then the sum). -/
import proofs.«429418_j73830487818378_3_alg».proof.Proof.K0Runs

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is taken (`hc0`), WITH the proof that on whole staging memrefs — the read windows' at their contents `x·`,
    the written windows' at anything — the body runs to the continuation holding the read windows' as they were and
    each written window's buffer with its pieces written. The printed functions are their skeletons, which the
    executor runs, the branch decided by `hc0`; the pieces are the witness that run finds (assigned when the buffer is
    handed to the continuation). -/
noncomputable def kernelRun0_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__mlp_kernel_eq_skeleton]; unfold cc0__mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.KernelIdeal.Fr

end
-- ==== Proof.K0RunB.lean ====
/- Pallas call 0, the run of its whole body at a point where the branch is NOT taken (the second grid coordinate is not
   0: the later four of a core's five points). There windows 11–14 are accumulators: the body reads what the point
   before left in them (`xo·`) and stores the sum back; window 10 is stored whole without being read. The run finds,
   per written window, the one piece its store leaves. -/
import proofs.«429418_j73830487818378_3_alg».proof.Proof.K0RunA

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is not taken (`hc0`), WITH the proof that on whole staging memrefs — the read windows' at their contents `x·`,
    windows 11–14 at their running contents `xo·`, window 10 at anything — the body runs to the continuation holding the read windows' as they were and
    each written window's buffer with its pieces written. The printed functions are their skeletons, which the
    executor runs, the branch decided by `hc0`; the pieces are the witness that run finds (assigned when the buffer is
    handed to the continuation). -/
noncomputable def kernelRun0_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__mlp_kernel_eq_skeleton]; unfold cc0__mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.KernelIdeal.Fr

end
-- ==== Proof.K0Frame.lean ====
/- Pallas call 0 (`cc0__mlp_kernel`), the body's half of its frame at the contents `V` the region is entered with:
   what each written window holds per case (the pieces the run found cover the window's block, so what it holds is
   the pieces read back) and point by point (`outsAt0`: by recursion on the point, a window the later points of a
   core accumulate into taken at what the point before left), the pipeline's proof data `dat0` over those contents,
   what the body finds in each staging buffer, and the body obligation at every point. -/
import proofs.«429418_j73830487818378_3_alg».proof.Proof.K0RunB

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each written window's buffer, per case -/

/-- The pieces the run with the branch taken found for window 10 tile its block (1 store of the whole `S5000x64`, checked by
    evaluation), so they cover it. -/
theorem cover0_A_10 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S5000x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S5000x64.size (by sl_kernel_rfl) y

/-- What that run leaves in window 10's staging buffer: its pieces read back over junk. -/
def out0_A_10 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S5000x64 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1)

/-- The pieces the run with the branch taken found for window 11 tile its block (2 stores of the whole `S1x1x64`, checked by
    evaluation), so they cover it. -/
theorem cover0_A_11 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S1x1x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 S1x1x64.size (by sl_kernel_rfl) y

/-- What that run leaves in window 11's staging buffer: its pieces read back over junk. -/
def out0_A_11 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S1x1x64 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1)

/-- The pieces the run with the branch taken found for window 12 tile its block (2 stores of the whole `S1x1x64`, checked by
    evaluation), so they cover it. -/
theorem cover0_A_12 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S1x1x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1 S1x1x64.size (by sl_kernel_rfl) y

/-- What that run leaves in window 12's staging buffer: its pieces read back over junk. -/
def out0_A_12 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S1x1x64 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1)

/-- The pieces the run with the branch taken found for window 13 tile its block (2 stores of the whole `S1x256x64`, checked by
    evaluation), so they cover it. -/
theorem cover0_A_13 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S1x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1 S1x256x64.size (by sl_kernel_rfl) y

/-- What that run leaves in window 13's staging buffer: its pieces read back over junk. -/
def out0_A_13 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S1x256x64 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1)

/-- The pieces the run with the branch taken found for window 14 tile its block (2 stores of the whole `S1x1x256`, checked by
    evaluation), so they cover it. -/
theorem cover0_A_14 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1 S1x1x256.size (by sl_kernel_rfl) y

/-- What that run leaves in window 14's staging buffer: its pieces read back over junk. -/
def out0_A_14 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) : Vec F S1x1x256 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1)

/-- The pieces the run with the branch not taken found for window 10 tile its block (1 store of the whole `S5000x64`, checked by
    evaluation), so they cover it. -/
theorem cover0_B_10 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S5000x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1 S5000x64.size (by sl_kernel_rfl) y

/-- What that run leaves in window 10's staging buffer: its pieces read back over junk. -/
def out0_B_10 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S5000x64 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1)

/-- The pieces the run with the branch not taken found for window 11 tile its block (1 store of the whole `S1x1x64`, checked by
    evaluation), so they cover it. -/
theorem cover0_B_11 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1 S1x1x64.size (by sl_kernel_rfl) y

/-- What that run leaves in window 11's staging buffer: its pieces read back over junk. -/
def out0_B_11 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1)

/-- The pieces the run with the branch not taken found for window 12 tile its block (1 store of the whole `S1x1x64`, checked by
    evaluation), so they cover it. -/
theorem cover0_B_12 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1 S1x1x64.size (by sl_kernel_rfl) y

/-- What that run leaves in window 12's staging buffer: its pieces read back over junk. -/
def out0_B_12 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1)

/-- The pieces the run with the branch not taken found for window 13 tile its block (1 store of the whole `S1x256x64`, checked by
    evaluation), so they cover it. -/
theorem cover0_B_13 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x256x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1 S1x256x64.size (by sl_kernel_rfl) y

/-- What that run leaves in window 13's staging buffer: its pieces read back over junk. -/
def out0_B_13 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x256x64 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1)

/-- The pieces the run with the branch not taken found for window 14 tile its block (1 store of the whole `S1x1x256`, checked by
    evaluation), so they cover it. -/
theorem cover0_B_14 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1 S1x1x256.size (by sl_kernel_rfl) y

/-- What that run leaves in window 14's staging buffer: its pieces read back over junk. -/
def out0_B_14 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x256 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1)

section Region0
-- the TensorCore's buffer contents when the region is entered
variable (V : (c : Dev nD) → (b : Ref sig .tc) → Buf (Elt F) ((c : Thread nD τ).loc b))

/-! ## What the written windows hold after each point -/

/-- THE ACCUMULATION. What the written windows' staging buffers hold after the body at position `n` (a tuple, in window
    order): the case the closed form selects at `n`, run at the point's memrefs and read blocks, a window the case
    reads before covering (11–14 when the branch is not taken) at what this leaves at `n - 1` (its buffer is not
    written back between: `before0_W_B`). -/
def outsAt0 (c : Dev nD) : (n : ℕ) → n < cfg0.N → Vec F S5000x64 .f32 × Vec F S1x1x64 .f32 × Vec F S1x1x64 .f32 × Vec F S1x256x64 .f32 × Vec F S1x1x256 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩),
      out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 5 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩),
       out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point where the branch is taken: that case's contents. -/
theorem outsAt0_A (c : Dev nD) (t : Fin cfg0.N) (h0 : t.val % 5 = 0) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
      out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans rfl

/-- `outsAt0` at a point where the branch is not taken: that case's contents, over what the point before left. -/
theorem outsAt0_B (c : Dev nD) (t : Fin cfg0.N) (h0 : ¬t.val % 5 = 0) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    each read window's buffer at its block and the written windows' at `outsAt0`'s components; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2.1
    | ⟨12, _⟩ => (outsAt0 V c t.val t.isLt).2.2.1
    | ⟨13, _⟩ => (outsAt0 V c t.val t.isLt).2.2.2.1
    | ⟨14, _⟩ => (outsAt0 V c t.val t.isLt).2.2.2.2
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2.1 := by dsimp only [dat0]
theorem after0_12 (c : Dev nD) (t : Fin cfg0.N) : (dat0 V c).after 12 t = (outsAt0 V c t.val t.isLt).2.2.1 := by dsimp only [dat0]
theorem after0_13 (c : Dev nD) (t : Fin cfg0.N) : (dat0 V c).after 13 t = (outsAt0 V c t.val t.isLt).2.2.2.1 := by dsimp only [dat0]
theorem after0_14 (c : Dev nD) (t : Fin cfg0.N) : (dat0 V c).after 14 t = (outsAt0 V c t.val t.isLt).2.2.2.2 := by dsimp only [dat0]

/-- Each read window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
/-- At a point where the branch is not taken, written window 11's current staging buffer holds what the body left at the
    point before: the point is not the first of its core's five, the buffer was not written back between (it is
    written back after the fifth only), the window is never idle and uncut. -/
theorem before0_11_B (c : Dev nD) (t : Fin cfg0.N) (h0 : ¬t.val % 5 = 0) (d) :
    (dat0 V c).before 11 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 11 rfl t (by omega) (Bool.eq_false_iff.mpr fun h => by have := (flush0_11 _).mp h; dsimp only at this; omega)
    (fun _ => rfl) (fun _ _ => rfl)]
  dsimp only [dat0]
/-- At a point where the branch is not taken, written window 12's current staging buffer holds what the body left at the
    point before: the point is not the first of its core's five, the buffer was not written back between (it is
    written back after the fifth only), the window is never idle and uncut. -/
theorem before0_12_B (c : Dev nD) (t : Fin cfg0.N) (h0 : ¬t.val % 5 = 0) (d) :
    (dat0 V c).before 12 t d = (outsAt0 V c (t.val - 1) (Nat.lt_of_le_of_lt (Nat.sub_le _ _) t.isLt)).2.2.1 := by
  have hN : t.val < 10 := lt_of_lt_of_eq t.isLt (show cfg0.N = 10 from N_0)
  rw [Dat.before_out_kept _ 12 rfl t (by omega) (Bool.eq_false_iff.mpr fun h => by have := (flush0_12 _).mp h; dsimp only at this; omega)
    (fun _ => rfl) (fun _ _ => rfl)]
  dsimp only [dat0]
/-- At a point where the branch is not taken, written window 13's current staging buffer holds what the body left at the
    point before: the point is not the first of its core's five, the buffer was not written back between (it is
    written back after the fifth only), the window is never idle and uncut. -/
theorem before0_13_B (c : Dev nD) (t : Fin cfg0.N) (h0 : ¬t.val % 5 = 0) (d) :
    (dat0 V c).before 13 t d = (outsAt0 V c (t.val - 1) (Nat.lt_of_le_of_lt (Nat.sub_le _ _) t.isLt)).2.2.2.1 := by
  have hN : t.val < 10 := lt_of_lt_of_eq t.isLt (show cfg0.N = 10 from N_0)
  rw [Dat.before_out_kept _ 13 rfl t (by omega) (Bool.eq_false_iff.mpr fun h => by have := (flush0_13 _).mp h; dsimp only at this; omega)
    (fun _ => rfl) (fun _ _ => rfl)]
  dsimp only [dat0]
/-- At a point where the branch is not taken, written window 14's current staging buffer holds what the body left at the
    point before: the point is not the first of its core's five, the buffer was not written back between (it is
    written back after the fifth only), the window is never idle and uncut. -/
theorem before0_14_B (c : Dev nD) (t : Fin cfg0.N) (h0 : ¬t.val % 5 = 0) (d) :
    (dat0 V c).before 14 t d = (outsAt0 V c (t.val - 1) (Nat.lt_of_le_of_lt (Nat.sub_le _ _) t.isLt)).2.2.2.2 := by
  have hN : t.val < 10 := lt_of_lt_of_eq t.isLt (show cfg0.N = 10 from N_0)
  rw [Dat.before_out_kept _ 14 rfl t (by omega) (Bool.eq_false_iff.mpr fun h => by have := (flush0_14 _).mp h; dsimp only at this; omega)
    (fun _ => rfl) (fun _ _ => rfl)]
  dsimp only [dat0]

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t))

set_option maxHeartbeats 2400000 in
/-- The body at any point: the read windows' memrefs hold their blocks (`before0_W`); the closed form says which case
    the point is in; where the branch is not taken, windows 11–14 hold what the point before left (`before0_W_B`); so
    the case's run applies, and each written window comes back at its pieces read back, which cover it; the invariant
    passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  have hN : t.val < 10 := lt_of_lt_of_eq t.isLt (show cfg0.N = 10 from N_0)
  by_cases h0 : t.val % 5 = 0
  · rw [outsAt0_A V c t h0]
    unfold out0_A_10 out0_A_11 out0_A_12 out0_A_13 out0_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _)
  · rw [outsAt0_B V c t h0]
    simp only [before0_11_B V c t h0, before0_12_B V c t h0, before0_13_B V c t h0, before0_14_B V c t h0]
    unfold out0_B_10 out0_B_11 out0_B_12 out0_B_13 out0_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.K1Runs.lean ====
/- Pallas call 1 (`cc1__mlp_kernel`, grid 2 × 5, fifteen windows: 0–9 read, 10–14 written): what the two runs of its
   body share. Each window's block at a point, read off the window's array at the contents `V` the region is entered
   with; that a read window's staging buffer holds that block at every point; the body's one branch condition (the
   second grid coordinate is 0: the first of a core's five points, where the four accumulators are zero-filled) in
   closed form over the grid; a view of each written window through which its contents are stated; and the staging
   memrefs the pipeline passes the body at a point. -/
import proofs.«429418_j73830487818378_3_alg».proof.Proof.Gen.KernelIdeal.Launch
import proofs.«429418_j73830487818378_3_alg».proof.Proof.Gen.KernelIdeal.Skeleton
import proofs.«429418_j73830487818378_3_alg».proof.Proof.Gen.KernelIdeal.Points
import Idealize.ShloMosaic.Lib.Pipeline.FrameBody
import Idealize.ShloMosaic.Lib.Ring
import Idealize.ShloMosaic.Lib.Tactic

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Read window 0's current staging buffer holds its block at every point, fetched there or not (unfetched, the block
    index has not moved), for any proof data whose array is `V`'s (`hA`) and whose body leaves the block in place
    (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Read window 1's current staging buffer holds its block at every point, fetched there or not (unfetched, the block
    index has not moved), for any proof data whose array is `V`'s (`hA`) and whose body leaves the block in place
    (`hafter`); the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Read window 2's current staging buffer holds its block at every point, fetched there or not (unfetched, the block
    index has not moved), for any proof data whose array is `V`'s (`hA`) and whose body leaves the block in place
    (`hafter`); the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Read window 3's current staging buffer holds its block at every point, fetched there or not (unfetched, the block
    index has not moved), for any proof data whose array is `V`'s (`hA`) and whose body leaves the block in place
    (`hafter`); the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Read window 4's current staging buffer holds its block at every point, fetched there or not (unfetched, the block
    index has not moved), for any proof data whose array is `V`'s (`hA`) and whose body leaves the block in place
    (`hafter`); the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Read window 5's current staging buffer holds its block at every point, fetched there or not (unfetched, the block
    index has not moved), for any proof data whose array is `V`'s (`hA`) and whose body leaves the block in place
    (`hafter`); the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Read window 6's current staging buffer holds its block at every point, fetched there or not (unfetched, the block
    index has not moved), for any proof data whose array is `V`'s (`hA`) and whose body leaves the block in place
    (`hafter`); the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Read window 7's current staging buffer holds its block at every point, fetched there or not (unfetched, the block
    index has not moved), for any proof data whose array is `V`'s (`hA`) and whose body leaves the block in place
    (`hafter`); the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Read window 8's current staging buffer holds its block at every point, fetched there or not (unfetched, the block
    index has not moved), for any proof data whose array is `V`'s (`hA`) and whose body leaves the block in place
    (`hafter`); the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Read window 9's current staging buffer holds its block at every point, fetched there or not (unfetched, the block
    index has not moved), for any proof data whose array is `V`'s (`hA`) and whose body leaves the block in place
    (`hafter`); the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch condition -/

/-- The condition of the body's one `scf.if`, from the grid coordinates (the scalar chain substituted): the second
    coordinate is 0. -/
abbrev cond1_0 (i : grid1.Coords) : Prop := (Scalar.cmpi .ne (Scalar.extui (Scalar.cmpi .eq (BitVec.ofNat 32 (i 1).val) 0#32)) 0#32) = 1#1
/-- It holds at the first of each core's five points — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)

/-! ## The staging memrefs -/

/-- One staging buffer of written window 10, through which its contents are stated (the choice does not matter: the
    pieces cover the buffer). -/
abbrev VO1_10 : View sig .tc .vmem S5000x64 .f32 := (Memref.whole cc1_stg10_0 : Memref sig .tc .vmem S5000x64 .f32).view
/-- One staging buffer of written window 11, through which its contents are stated (the choice does not matter: the
    pieces cover the buffer). -/
abbrev VO1_11 : View sig .tc .vmem S1x1x64 .f32 := (Memref.whole cc1_stg11_0 : Memref sig .tc .vmem S1x1x64 .f32).view
/-- One staging buffer of written window 12, through which its contents are stated (the choice does not matter: the
    pieces cover the buffer). -/
abbrev VO1_12 : View sig .tc .vmem S1x1x64 .f32 := (Memref.whole cc1_stg12_0 : Memref sig .tc .vmem S1x1x64 .f32).view
/-- One staging buffer of written window 13, through which its contents are stated (the choice does not matter: the
    pieces cover the buffer). -/
abbrev VO1_13 : View sig .tc .vmem S1x256x64 .f32 := (Memref.whole cc1_stg13_0 : Memref sig .tc .vmem S1x256x64 .f32).view
/-- One staging buffer of written window 14, through which its contents are stated (the choice does not matter: the
    pieces cover the buffer). -/
abbrev VO1_14 : View sig .tc .vmem S1x1x256 .f32 := (Memref.whole cc1_stg14_0 : Memref sig .tc .vmem S1x1x256 .f32).view
/-- Each window's current staging memref at point `t`, spelled as the pipeline passes it to the body, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S5000x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1x64 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x256x64 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x1x256 .f32 := win1_14.stage (cfg1.slots t 14)
abbrev hs1_14 (t : Fin cfg1.N) : (ms1_14 t).IsWhole := hstage1_14 ((cfg1.slots t 14).cast nbuf1_14)

end Cert.KernelIdeal.Fr

end
-- ==== Proof.K1RunA.lean ====
/- Pallas call 1, the run of its whole body at a point where the branch is TAKEN (the second grid coordinate is 0: the
   first of a core's five points). There the four accumulators are zero-filled before anything reads them, so every
   written window's staging buffer may hold anything when the body starts. The run finds, per written window, the
   pieces its stores leave (last first): window 10 one store, windows 11–14 two each (the zero fill, then the sum). -/
import proofs.«429418_j73830487818378_3_alg».proof.Proof.K1Runs

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is taken (`hc0`), WITH the proof that on whole staging memrefs — the read windows' at their contents `x·`,
    the written windows' at anything — the body runs to the continuation holding the read windows' as they were and
    each written window's buffer with its pieces written. The printed functions are their skeletons, which the
    executor runs, the branch decided by `hc0`; the pieces are the witness that run finds (assigned when the buffer is
    handed to the continuation). -/
noncomputable def kernelRun1_A (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc1__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc1__mlp_kernel_eq_skeleton]; unfold cc1__mlp_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.KernelIdeal.Fr

end
-- ==== Proof.K1RunB.lean ====
/- Pallas call 1, the run of its whole body at a point where the branch is NOT taken (the second grid coordinate is not
   0: the later four of a core's five points). There windows 11–14 are accumulators: the body reads what the point
   before left in them (`xo·`) and stores the sum back; window 10 is stored whole without being read. The run finds,
   per written window, the one piece its store leaves. -/
import proofs.«429418_j73830487818378_3_alg».proof.Proof.K1RunA

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is not taken (`hc0`), WITH the proof that on whole staging memrefs — the read windows' at their contents `x·`,
    windows 11–14 at their running contents `xo·`, window 10 at anything — the body runs to the continuation holding the read windows' as they were and
    each written window's buffer with its pieces written. The printed functions are their skeletons, which the
    executor runs, the branch decided by `hc0`; the pieces are the witness that run finds (assigned when the buffer is
    handed to the continuation). -/
noncomputable def kernelRun1_B (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc1__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc1__mlp_kernel_eq_skeleton]; unfold cc1__mlp_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.KernelIdeal.Fr

end
-- ==== Proof.K1Frame.lean ====
/- Pallas call 1 (`cc1__mlp_kernel`), the body's half of its frame at the contents `V` the region is entered with:
   what each written window holds per case (the pieces the run found cover the window's block, so what it holds is
   the pieces read back) and point by point (`outsAt1`: by recursion on the point, a window the later points of a
   core accumulate into taken at what the point before left), the pipeline's proof data `dat1` over those contents,
   what the body finds in each staging buffer, and the body obligation at every point. -/
import proofs.«429418_j73830487818378_3_alg».proof.Proof.K1RunB

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each written window's buffer, per case -/

/-- The pieces the run with the branch taken found for window 10 tile its block (1 store of the whole `S5000x64`, checked by
    evaluation), so they cover it. -/
theorem cover1_A_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S5000x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S5000x64.size (by sl_kernel_rfl) y

/-- What that run leaves in window 10's staging buffer: its pieces read back over junk. -/
def out1_A_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S5000x64 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1)

/-- The pieces the run with the branch taken found for window 11 tile its block (2 stores of the whole `S1x1x64`, checked by
    evaluation), so they cover it. -/
theorem cover1_A_11 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 S1x1x64.size (by sl_kernel_rfl) y

/-- What that run leaves in window 11's staging buffer: its pieces read back over junk. -/
def out1_A_11 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x64 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1)

/-- The pieces the run with the branch taken found for window 12 tile its block (2 stores of the whole `S1x1x64`, checked by
    evaluation), so they cover it. -/
theorem cover1_A_12 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1 S1x1x64.size (by sl_kernel_rfl) y

/-- What that run leaves in window 12's staging buffer: its pieces read back over junk. -/
def out1_A_12 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x64 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1)

/-- The pieces the run with the branch taken found for window 13 tile its block (2 stores of the whole `S1x256x64`, checked by
    evaluation), so they cover it. -/
theorem cover1_A_13 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x256x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1 S1x256x64.size (by sl_kernel_rfl) y

/-- What that run leaves in window 13's staging buffer: its pieces read back over junk. -/
def out1_A_13 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x256x64 .f32 :=
  VO1_13.read (Elt F) (VO1_13.writes (Elt F) VO1_13.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1)

/-- The pieces the run with the branch taken found for window 14 tile its block (2 stores of the whole `S1x1x256`, checked by
    evaluation), so they cover it. -/
theorem cover1_A_14 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1 S1x1x256.size (by sl_kernel_rfl) y

/-- What that run leaves in window 14's staging buffer: its pieces read back over junk. -/
def out1_A_14 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x256 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1)

/-- The pieces the run with the branch not taken found for window 10 tile its block (1 store of the whole `S5000x64`, checked by
    evaluation), so they cover it. -/
theorem cover1_B_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S5000x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1 S5000x64.size (by sl_kernel_rfl) y

/-- What that run leaves in window 10's staging buffer: its pieces read back over junk. -/
def out1_B_10 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S5000x64 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1)

/-- The pieces the run with the branch not taken found for window 11 tile its block (1 store of the whole `S1x1x64`, checked by
    evaluation), so they cover it. -/
theorem cover1_B_11 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1 S1x1x64.size (by sl_kernel_rfl) y

/-- What that run leaves in window 11's staging buffer: its pieces read back over junk. -/
def out1_B_11 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1)

/-- The pieces the run with the branch not taken found for window 12 tile its block (1 store of the whole `S1x1x64`, checked by
    evaluation), so they cover it. -/
theorem cover1_B_12 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1 S1x1x64.size (by sl_kernel_rfl) y

/-- What that run leaves in window 12's staging buffer: its pieces read back over junk. -/
def out1_B_12 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1)

/-- The pieces the run with the branch not taken found for window 13 tile its block (1 store of the whole `S1x256x64`, checked by
    evaluation), so they cover it. -/
theorem cover1_B_13 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x256x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1 S1x256x64.size (by sl_kernel_rfl) y

/-- What that run leaves in window 13's staging buffer: its pieces read back over junk. -/
def out1_B_13 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x256x64 .f32 :=
  VO1_13.read (Elt F) (VO1_13.writes (Elt F) VO1_13.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1)

/-- The pieces the run with the branch not taken found for window 14 tile its block (1 store of the whole `S1x1x256`, checked by
    evaluation), so they cover it. -/
theorem cover1_B_14 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1 S1x1x256.size (by sl_kernel_rfl) y

/-- What that run leaves in window 14's staging buffer: its pieces read back over junk. -/
def out1_B_14 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x256 .f32 :=
  VO1_14.read (Elt F) (VO1_14.writes (Elt F) VO1_14.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1)

section Region1
-- the TensorCore's buffer contents when the region is entered
variable (V : (c : Dev nD) → (b : Ref sig .tc) → Buf (Elt F) ((c : Thread nD τ).loc b))

/-! ## What the written windows hold after each point -/

/-- THE ACCUMULATION. What the written windows' staging buffers hold after the body at position `n` (a tuple, in window
    order): the case the closed form selects at `n`, run at the point's memrefs and read blocks, a window the case
    reads before covering (11–14 when the branch is not taken) at what this leaves at `n - 1` (its buffer is not
    written back between: `before1_W_B`). -/
def outsAt1 (c : Dev nD) : (n : ℕ) → n < cfg1.N → Vec F S5000x64 .f32 × Vec F S1x1x64 .f32 × Vec F S1x1x64 .f32 × Vec F S1x256x64 .f32 × Vec F S1x1x256 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      out1_A_14 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 5 = 0 then
      (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
       out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
       out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
       out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
       out1_A_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       out1_B_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

/-- `outsAt1` at a point where the branch is taken: that case's contents. -/
theorem outsAt1_A (c : Dev nD) (t : Fin cfg1.N) (h0 : t.val % 5 = 0) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans rfl

/-- `outsAt1` at a point where the branch is not taken: that case's contents, over what the point before left. -/
theorem outsAt1_B (c : Dev nD) (t : Fin cfg1.N) (h0 : ¬t.val % 5 = 0) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point `t`
    each read window's buffer at its block and the written windows' at `outsAt1`'s components; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
    | ⟨12, _⟩ => (outsAt1 V c t.val t.isLt).2.2.1
    | ⟨13, _⟩ => (outsAt1 V c t.val t.isLt).2.2.2.1
    | ⟨14, _⟩ => (outsAt1 V c t.val t.isLt).2.2.2.2
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]
theorem after1_12 (c : Dev nD) (t : Fin cfg1.N) : (dat1 V c).after 12 t = (outsAt1 V c t.val t.isLt).2.2.1 := by dsimp only [dat1]
theorem after1_13 (c : Dev nD) (t : Fin cfg1.N) : (dat1 V c).after 13 t = (outsAt1 V c t.val t.isLt).2.2.2.1 := by dsimp only [dat1]
theorem after1_14 (c : Dev nD) (t : Fin cfg1.N) : (dat1 V c).after 14 t = (outsAt1 V c t.val t.isLt).2.2.2.2 := by dsimp only [dat1]

/-- Each read window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
/-- At a point where the branch is not taken, written window 11's current staging buffer holds what the body left at the
    point before: the point is not the first of its core's five, the buffer was not written back between (it is
    written back after the fifth only), the window is never idle and uncut. -/
theorem before1_11_B (c : Dev nD) (t : Fin cfg1.N) (h0 : ¬t.val % 5 = 0) (d) :
    (dat1 V c).before 11 t d = (outsAt1 V c (t.val - 1) (Nat.lt_of_le_of_lt (Nat.sub_le _ _) t.isLt)).2.1 := by
  have hN : t.val < 10 := lt_of_lt_of_eq t.isLt (show cfg1.N = 10 from N_1)
  rw [Dat.before_out_kept _ 11 rfl t (by omega) (Bool.eq_false_iff.mpr fun h => by have := (flush1_11 _).mp h; dsimp only at this; omega)
    (fun _ => rfl) (fun _ _ => rfl)]
  dsimp only [dat1]
/-- At a point where the branch is not taken, written window 12's current staging buffer holds what the body left at the
    point before: the point is not the first of its core's five, the buffer was not written back between (it is
    written back after the fifth only), the window is never idle and uncut. -/
theorem before1_12_B (c : Dev nD) (t : Fin cfg1.N) (h0 : ¬t.val % 5 = 0) (d) :
    (dat1 V c).before 12 t d = (outsAt1 V c (t.val - 1) (Nat.lt_of_le_of_lt (Nat.sub_le _ _) t.isLt)).2.2.1 := by
  have hN : t.val < 10 := lt_of_lt_of_eq t.isLt (show cfg1.N = 10 from N_1)
  rw [Dat.before_out_kept _ 12 rfl t (by omega) (Bool.eq_false_iff.mpr fun h => by have := (flush1_12 _).mp h; dsimp only at this; omega)
    (fun _ => rfl) (fun _ _ => rfl)]
  dsimp only [dat1]
/-- At a point where the branch is not taken, written window 13's current staging buffer holds what the body left at the
    point before: the point is not the first of its core's five, the buffer was not written back between (it is
    written back after the fifth only), the window is never idle and uncut. -/
theorem before1_13_B (c : Dev nD) (t : Fin cfg1.N) (h0 : ¬t.val % 5 = 0) (d) :
    (dat1 V c).before 13 t d = (outsAt1 V c (t.val - 1) (Nat.lt_of_le_of_lt (Nat.sub_le _ _) t.isLt)).2.2.2.1 := by
  have hN : t.val < 10 := lt_of_lt_of_eq t.isLt (show cfg1.N = 10 from N_1)
  rw [Dat.before_out_kept _ 13 rfl t (by omega) (Bool.eq_false_iff.mpr fun h => by have := (flush1_13 _).mp h; dsimp only at this; omega)
    (fun _ => rfl) (fun _ _ => rfl)]
  dsimp only [dat1]
/-- At a point where the branch is not taken, written window 14's current staging buffer holds what the body left at the
    point before: the point is not the first of its core's five, the buffer was not written back between (it is
    written back after the fifth only), the window is never idle and uncut. -/
theorem before1_14_B (c : Dev nD) (t : Fin cfg1.N) (h0 : ¬t.val % 5 = 0) (d) :
    (dat1 V c).before 14 t d = (outsAt1 V c (t.val - 1) (Nat.lt_of_le_of_lt (Nat.sub_le _ _) t.isLt)).2.2.2.2 := by
  have hN : t.val < 10 := lt_of_lt_of_eq t.isLt (show cfg1.N = 10 from N_1)
  rw [Dat.before_out_kept _ 14 rfl t (by omega) (Bool.eq_false_iff.mpr fun h => by have := (flush1_14 _).mp h; dsimp only at this; omega)
    (fun _ => rfl) (fun _ _ => rfl)]
  dsimp only [dat1]

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t))

set_option maxHeartbeats 2400000 in
/-- The body at any point: the read windows' memrefs hold their blocks (`before1_W`); the closed form says which case
    the point is in; where the branch is not taken, windows 11–14 hold what the point before left (`before1_W_B`); so
    the case's run applies, and each written window comes back at its pieces read back, which cover it; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  have hN : t.val < 10 := lt_of_lt_of_eq t.isLt (show cfg1.N = 10 from N_1)
  by_cases h0 : t.val % 5 = 0
  · rw [outsAt1_A V c t h0]
    unfold out1_A_10 out1_A_11 out1_A_12 out1_A_13 out1_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun1_A c (grid1.coords t) _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover1_A_11 c _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover1_A_14 c _ _ _ _ _ _ _ _ _ _ _ _ _ _ _ _ _ _ _ _ _ _ _ _ _ _ _ _ _ _ _ _ _ _ _ _ _ _ _ _ _ _)
  · rw [outsAt1_B V c t h0]
    simp only [before1_11_B V c t h0, before1_12_B V c t h0, before1_13_B V c t h0, before1_14_B V c t h0]
    unfold out1_B_10 out1_B_11 out1_B_12 out1_B_13 out1_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun1_B c (grid1.coords t) _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover1_B_10 c _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover1_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover1_B_14 c _ _ _ _ _ _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.K2Runs.lean ====
/- Pallas call 2 (`cc2__mlp_kernel`, grid 2 × 5, fifteen windows: 0–9 read, 10–14 written): what the two runs of its
   body share. Each window's block at a point, read off the window's array at the contents `V` the region is entered
   with; that a read window's staging buffer holds that block at every point; the body's one branch condition (the
   second grid coordinate is 0: the first of a core's five points, where the four accumulators are zero-filled) in
   closed form over the grid; a view of each written window through which its contents are stated; and the staging
   memrefs the pipeline passes the body at a point. -/
import proofs.«429418_j73830487818378_3_alg».proof.Proof.Gen.KernelIdeal.Launch
import proofs.«429418_j73830487818378_3_alg».proof.Proof.Gen.KernelIdeal.Skeleton
import proofs.«429418_j73830487818378_3_alg».proof.Proof.Gen.KernelIdeal.Points
import Idealize.ShloMosaic.Lib.Pipeline.FrameBody
import Idealize.ShloMosaic.Lib.Ring
import Idealize.ShloMosaic.Lib.Tactic

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Read window 0's current staging buffer holds its block at every point, fetched there or not (unfetched, the block
    index has not moved), for any proof data whose array is `V`'s (`hA`) and whose body leaves the block in place
    (`hafter`); the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Read window 1's current staging buffer holds its block at every point, fetched there or not (unfetched, the block
    index has not moved), for any proof data whose array is `V`'s (`hA`) and whose body leaves the block in place
    (`hafter`); the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Read window 2's current staging buffer holds its block at every point, fetched there or not (unfetched, the block
    index has not moved), for any proof data whose array is `V`'s (`hA`) and whose body leaves the block in place
    (`hafter`); the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Read window 3's current staging buffer holds its block at every point, fetched there or not (unfetched, the block
    index has not moved), for any proof data whose array is `V`'s (`hA`) and whose body leaves the block in place
    (`hafter`); the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Read window 4's current staging buffer holds its block at every point, fetched there or not (unfetched, the block
    index has not moved), for any proof data whose array is `V`'s (`hA`) and whose body leaves the block in place
    (`hafter`); the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Read window 5's current staging buffer holds its block at every point, fetched there or not (unfetched, the block
    index has not moved), for any proof data whose array is `V`'s (`hA`) and whose body leaves the block in place
    (`hafter`); the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Read window 6's current staging buffer holds its block at every point, fetched there or not (unfetched, the block
    index has not moved), for any proof data whose array is `V`'s (`hA`) and whose body leaves the block in place
    (`hafter`); the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Read window 7's current staging buffer holds its block at every point, fetched there or not (unfetched, the block
    index has not moved), for any proof data whose array is `V`'s (`hA`) and whose body leaves the block in place
    (`hafter`); the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Read window 8's current staging buffer holds its block at every point, fetched there or not (unfetched, the block
    index has not moved), for any proof data whose array is `V`'s (`hA`) and whose body leaves the block in place
    (`hafter`); the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Read window 9's current staging buffer holds its block at every point, fetched there or not (unfetched, the block
    index has not moved), for any proof data whose array is `V`'s (`hA`) and whose body leaves the block in place
    (`hafter`); the window is uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch condition -/

/-- The condition of the body's one `scf.if`, from the grid coordinates (the scalar chain substituted): the second
    coordinate is 0. -/
abbrev cond2_0 (i : grid2.Coords) : Prop := (Scalar.cmpi .ne (Scalar.extui (Scalar.cmpi .eq (BitVec.ofNat 32 (i 1).val) 0#32)) 0#32) = 1#1
/-- It holds at the first of each core's five points — decided over the grid. -/
theorem hcond2_0 : ∀ t : Fin cfg2.N, cond2_0 (grid2.coords t) ↔ t.val % 5 = 0 :=
  (by decide +kernel : ∀ t : Fin grid2.N, cond2_0 (grid2.coords t) ↔ t.val % 5 = 0)

/-! ## The staging memrefs -/

/-- One staging buffer of written window 10, through which its contents are stated (the choice does not matter: the
    pieces cover the buffer). -/
abbrev VO2_10 : View sig .tc .vmem S5000x64 .f32 := (Memref.whole cc2_stg10_0 : Memref sig .tc .vmem S5000x64 .f32).view
/-- One staging buffer of written window 11, through which its contents are stated (the choice does not matter: the
    pieces cover the buffer). -/
abbrev VO2_11 : View sig .tc .vmem S1x1x64 .f32 := (Memref.whole cc2_stg11_0 : Memref sig .tc .vmem S1x1x64 .f32).view
/-- One staging buffer of written window 12, through which its contents are stated (the choice does not matter: the
    pieces cover the buffer). -/
abbrev VO2_12 : View sig .tc .vmem S1x1x64 .f32 := (Memref.whole cc2_stg12_0 : Memref sig .tc .vmem S1x1x64 .f32).view
/-- One staging buffer of written window 13, through which its contents are stated (the choice does not matter: the
    pieces cover the buffer). -/
abbrev VO2_13 : View sig .tc .vmem S1x256x64 .f32 := (Memref.whole cc2_stg13_0 : Memref sig .tc .vmem S1x256x64 .f32).view
/-- One staging buffer of written window 14, through which its contents are stated (the choice does not matter: the
    pieces cover the buffer). -/
abbrev VO2_14 : View sig .tc .vmem S1x1x256 .f32 := (Memref.whole cc2_stg14_0 : Memref sig .tc .vmem S1x1x256 .f32).view
/-- Each window's current staging memref at point `t`, spelled as the pipeline passes it to the body, and its wholeness. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x1 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S5000x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x1x64 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x1x64 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x256x64 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x1x256 .f32 := win2_14.stage (cfg2.slots t 14)
abbrev hs2_14 (t : Fin cfg2.N) : (ms2_14 t).IsWhole := hstage2_14 ((cfg2.slots t 14).cast nbuf2_14)

end Cert.KernelIdeal.Fr

end
-- ==== Proof.K2RunA.lean ====
/- Pallas call 2, the run of its whole body at a point where the branch is TAKEN (the second grid coordinate is 0: the
   first of a core's five points). There the four accumulators are zero-filled before anything reads them, so every
   written window's staging buffer may hold anything when the body starts. The run finds, per written window, the
   pieces its stores leave (last first): window 10 one store, windows 11–14 two each (the zero fill, then the sum). -/
import proofs.«429418_j73830487818378_3_alg».proof.Proof.K2Runs

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is taken (`hc0`), WITH the proof that on whole staging memrefs — the read windows' at their contents `x·`,
    the written windows' at anything — the body runs to the continuation holding the read windows' as they were and
    each written window's buffer with its pieces written. The printed functions are their skeletons, which the
    executor runs, the branch decided by `hc0`; the pieces are the witness that run finds (assigned when the buffer is
    handed to the continuation). -/
noncomputable def kernelRun2_A (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc2__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc2__mlp_kernel_eq_skeleton]; unfold cc2__mlp_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.KernelIdeal.Fr

end
-- ==== Proof.K2RunB.lean ====
/- Pallas call 2, the run of its whole body at a point where the branch is NOT taken (the second grid coordinate is not
   0: the later four of a core's five points). There windows 11–14 are accumulators: the body reads what the point
   before left in them (`xo·`) and stores the sum back; window 10 is stored whole without being read. The run finds,
   per written window, the one piece its store leaves. -/
import proofs.«429418_j73830487818378_3_alg».proof.Proof.K2RunA

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each written window's staging memref, as pieces (last first), at a point where the
    branch is not taken (`hc0`), WITH the proof that on whole staging memrefs — the read windows' at their contents `x·`,
    windows 11–14 at their running contents `xo·`, window 10 at anything — the body runs to the continuation holding the read windows' as they were and
    each written window's buffer with its pieces written. The printed functions are their skeletons, which the
    executor runs, the branch decided by `hc0`; the pieces are the witness that run finds (assigned when the buffer is
    handed to the continuation). -/
noncomputable def kernelRun2_B (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    Σ' (L10 : List (View.Piece (Elt F) S5000x64 .f32)), Σ' (L11 : List (View.Piece (Elt F) S1x1x64 .f32)), Σ' (L12 : List (View.Piece (Elt F) S1x1x64 .f32)), Σ' (L13 : List (View.Piece (Elt F) S1x256x64 .f32)), { L14 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc2__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc2__mlp_kernel_eq_skeleton]; unfold cc2__mlp_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.KernelIdeal.Fr

end
-- ==== Proof.K2Frame.lean ====
/- Pallas call 2 (`cc2__mlp_kernel`), the body's half of its frame at the contents `V` the region is entered with:
   what each written window holds per case (the pieces the run found cover the window's block, so what it holds is
   the pieces read back) and point by point (`outsAt2`: by recursion on the point, a window the later points of a
   core accumulate into taken at what the point before left), the pipeline's proof data `dat2` over those contents,
   what the body finds in each staging buffer, and the body obligation at every point. -/
import proofs.«429418_j73830487818378_3_alg».proof.Proof.K2RunB

-- membership in a rectangle of the blocks' extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each written window's buffer, per case -/

/-- The pieces the run with the branch taken found for window 10 tile its block (1 store of the whole `S5000x64`, checked by
    evaluation), so they cover it. -/
theorem cover2_A_10 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S5000x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S5000x64.size (by sl_kernel_rfl) y

/-- What that run leaves in window 10's staging buffer: its pieces read back over junk. -/
def out2_A_10 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S5000x64 .f32 :=
  VO2_10.read (Elt F) (VO2_10.writes (Elt F) VO2_10.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1)

/-- The pieces the run with the branch taken found for window 11 tile its block (2 stores of the whole `S1x1x64`, checked by
    evaluation), so they cover it. -/
theorem cover2_A_11 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 S1x1x64.size (by sl_kernel_rfl) y

/-- What that run leaves in window 11's staging buffer: its pieces read back over junk. -/
def out2_A_11 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x64 .f32 :=
  VO2_11.read (Elt F) (VO2_11.writes (Elt F) VO2_11.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1)

/-- The pieces the run with the branch taken found for window 12 tile its block (2 stores of the whole `S1x1x64`, checked by
    evaluation), so they cover it. -/
theorem cover2_A_12 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1 S1x1x64.size (by sl_kernel_rfl) y

/-- What that run leaves in window 12's staging buffer: its pieces read back over junk. -/
def out2_A_12 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x64 .f32 :=
  VO2_12.read (Elt F) (VO2_12.writes (Elt F) VO2_12.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1)

/-- The pieces the run with the branch taken found for window 13 tile its block (2 stores of the whole `S1x256x64`, checked by
    evaluation), so they cover it. -/
theorem cover2_A_13 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x256x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1 S1x256x64.size (by sl_kernel_rfl) y

/-- What that run leaves in window 13's staging buffer: its pieces read back over junk. -/
def out2_A_13 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x256x64 .f32 :=
  VO2_13.read (Elt F) (VO2_13.writes (Elt F) VO2_13.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1)

/-- The pieces the run with the branch taken found for window 14 tile its block (2 stores of the whole `S1x1x256`, checked by
    evaluation), so they cover it. -/
theorem cover2_A_14 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (y : S1x1x256.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1 S1x1x256.size (by sl_kernel_rfl) y

/-- What that run leaves in window 14's staging buffer: its pieces read back over junk. -/
def out2_A_14 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) : Vec F S1x1x256 .f32 :=
  VO2_14.read (Elt F) (VO2_14.writes (Elt F) VO2_14.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2.1)

/-- The pieces the run with the branch not taken found for window 10 tile its block (1 store of the whole `S5000x64`, checked by
    evaluation), so they cover it. -/
theorem cover2_B_10 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S5000x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1 S5000x64.size (by sl_kernel_rfl) y

/-- What that run leaves in window 10's staging buffer: its pieces read back over junk. -/
def out2_B_10 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S5000x64 .f32 :=
  VO2_10.read (Elt F) (VO2_10.writes (Elt F) VO2_10.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).1)

/-- The pieces the run with the branch not taken found for window 11 tile its block (1 store of the whole `S1x1x64`, checked by
    evaluation), so they cover it. -/
theorem cover2_B_11 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1 S1x1x64.size (by sl_kernel_rfl) y

/-- What that run leaves in window 11's staging buffer: its pieces read back over junk. -/
def out2_B_11 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO2_11.read (Elt F) (VO2_11.writes (Elt F) VO2_11.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.1)

/-- The pieces the run with the branch not taken found for window 12 tile its block (1 store of the whole `S1x1x64`, checked by
    evaluation), so they cover it. -/
theorem cover2_B_12 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1 S1x1x64.size (by sl_kernel_rfl) y

/-- What that run leaves in window 12's staging buffer: its pieces read back over junk. -/
def out2_B_12 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x64 .f32 :=
  VO2_12.read (Elt F) (VO2_12.writes (Elt F) VO2_12.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.1)

/-- The pieces the run with the branch not taken found for window 13 tile its block (1 store of the whole `S1x256x64`, checked by
    evaluation), so they cover it. -/
theorem cover2_B_13 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x256x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1 S1x256x64.size (by sl_kernel_rfl) y

/-- What that run leaves in window 13's staging buffer: its pieces read back over junk. -/
def out2_B_13 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x256x64 .f32 :=
  VO2_13.read (Elt F) (VO2_13.writes (Elt F) VO2_13.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.1)

/-- The pieces the run with the branch not taken found for window 14 tile its block (1 store of the whole `S1x1x256`, checked by
    evaluation), so they cover it. -/
theorem cover2_B_14 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) (y : S1x1x256.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1 S1x1x256.size (by sl_kernel_rfl) y

/-- What that run leaves in window 14's staging buffer: its pieces read back over junk. -/
def out2_B_14 (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) : Vec F S1x1x256 .f32 :=
  VO2_14.read (Elt F) (VO2_14.writes (Elt F) VO2_14.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14).2.2.2.2.1)

section Region2
-- the TensorCore's buffer contents when the region is entered
variable (V : (c : Dev nD) → (b : Ref sig .tc) → Buf (Elt F) ((c : Thread nD τ).loc b))

/-! ## What the written windows hold after each point -/

/-- THE ACCUMULATION. What the written windows' staging buffers hold after the body at position `n` (a tuple, in window
    order): the case the closed form selects at `n`, run at the point's memrefs and read blocks, a window the case
    reads before covering (11–14 when the branch is not taken) at what this leaves at `n - 1` (its buffer is not
    written back between: `before2_W_B`). -/
def outsAt2 (c : Dev nD) : (n : ℕ) → n < cfg2.N → Vec F S5000x64 .f32 × Vec F S1x1x64 .f32 × Vec F S1x1x64 .f32 × Vec F S1x256x64 .f32 × Vec F S1x1x256 .f32
  | 0, hn => (out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩),
      out2_A_11 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩),
      out2_A_12 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩),
      out2_A_13 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩),
      out2_A_14 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩))
  | n + 1, hn =>
    if h0 : (n + 1) % 5 = 0 then
      (out2_A_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩),
       out2_A_11 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩),
       out2_A_12 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩),
       out2_A_13 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩),
       out2_A_14 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩))
    else
      (out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
       out2_B_11 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
       out2_B_12 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
       out2_B_13 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
       out2_B_14 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2)

/-- `outsAt2` at a point where the branch is taken: that case's contents. -/
theorem outsAt2_A (c : Dev nD) (t : Fin cfg2.N) (h0 : t.val % 5 = 0) :
    outsAt2 V c t.val t.isLt = (out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
      out2_A_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
      out2_A_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
      out2_A_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
      out2_A_14 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) := by
  obtain ⟨n, hn⟩ := t
  cases n with
  | zero => exact rfl
  | succ n => exact (dif_pos h0).trans rfl

/-- `outsAt2` at a point where the branch is not taken: that case's contents, over what the point before left. -/
theorem outsAt2_B (c : Dev nD) (t : Fin cfg2.N) (h0 : ¬t.val % 5 = 0) :
    outsAt2 V c t.val t.isLt = (out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_14 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at point `t`
    each read window's buffer at its block and the written windows' at `outsAt2`'s components; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => (outsAt2 V c t.val t.isLt).1
    | ⟨11, _⟩ => (outsAt2 V c t.val t.isLt).2.1
    | ⟨12, _⟩ => (outsAt2 V c t.val t.isLt).2.2.1
    | ⟨13, _⟩ => (outsAt2 V c t.val t.isLt).2.2.2.1
    | ⟨14, _⟩ => (outsAt2 V c t.val t.isLt).2.2.2.2
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = (outsAt2 V c t.val t.isLt).1 := by dsimp only [dat2]
theorem after2_11 (c : Dev nD) (t : Fin cfg2.N) : (dat2 V c).after 11 t = (outsAt2 V c t.val t.isLt).2.1 := by dsimp only [dat2]
theorem after2_12 (c : Dev nD) (t : Fin cfg2.N) : (dat2 V c).after 12 t = (outsAt2 V c t.val t.isLt).2.2.1 := by dsimp only [dat2]
theorem after2_13 (c : Dev nD) (t : Fin cfg2.N) : (dat2 V c).after 13 t = (outsAt2 V c t.val t.isLt).2.2.2.1 := by dsimp only [dat2]
theorem after2_14 (c : Dev nD) (t : Fin cfg2.N) : (dat2 V c).after 14 t = (outsAt2 V c t.val t.isLt).2.2.2.2 := by dsimp only [dat2]

/-- Each read window's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
/-- At a point where the branch is not taken, written window 11's current staging buffer holds what the body left at the
    point before: the point is not the first of its core's five, the buffer was not written back between (it is
    written back after the fifth only), the window is never idle and uncut. -/
theorem before2_11_B (c : Dev nD) (t : Fin cfg2.N) (h0 : ¬t.val % 5 = 0) (d) :
    (dat2 V c).before 11 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 11 rfl t (by omega) (Bool.eq_false_iff.mpr fun h => by have := (flush2_11 _).mp h; dsimp only at this; omega)
    (fun _ => rfl) (fun _ _ => rfl)]
  dsimp only [dat2]
/-- At a point where the branch is not taken, written window 12's current staging buffer holds what the body left at the
    point before: the point is not the first of its core's five, the buffer was not written back between (it is
    written back after the fifth only), the window is never idle and uncut. -/
theorem before2_12_B (c : Dev nD) (t : Fin cfg2.N) (h0 : ¬t.val % 5 = 0) (d) :
    (dat2 V c).before 12 t d = (outsAt2 V c (t.val - 1) (Nat.lt_of_le_of_lt (Nat.sub_le _ _) t.isLt)).2.2.1 := by
  have hN : t.val < 10 := lt_of_lt_of_eq t.isLt (show cfg2.N = 10 from N_2)
  rw [Dat.before_out_kept _ 12 rfl t (by omega) (Bool.eq_false_iff.mpr fun h => by have := (flush2_12 _).mp h; dsimp only at this; omega)
    (fun _ => rfl) (fun _ _ => rfl)]
  dsimp only [dat2]
/-- At a point where the branch is not taken, written window 13's current staging buffer holds what the body left at the
    point before: the point is not the first of its core's five, the buffer was not written back between (it is
    written back after the fifth only), the window is never idle and uncut. -/
theorem before2_13_B (c : Dev nD) (t : Fin cfg2.N) (h0 : ¬t.val % 5 = 0) (d) :
    (dat2 V c).before 13 t d = (outsAt2 V c (t.val - 1) (Nat.lt_of_le_of_lt (Nat.sub_le _ _) t.isLt)).2.2.2.1 := by
  have hN : t.val < 10 := lt_of_lt_of_eq t.isLt (show cfg2.N = 10 from N_2)
  rw [Dat.before_out_kept _ 13 rfl t (by omega) (Bool.eq_false_iff.mpr fun h => by have := (flush2_13 _).mp h; dsimp only at this; omega)
    (fun _ => rfl) (fun _ _ => rfl)]
  dsimp only [dat2]
/-- At a point where the branch is not taken, written window 14's current staging buffer holds what the body left at the
    point before: the point is not the first of its core's five, the buffer was not written back between (it is
    written back after the fifth only), the window is never idle and uncut. -/
theorem before2_14_B (c : Dev nD) (t : Fin cfg2.N) (h0 : ¬t.val % 5 = 0) (d) :
    (dat2 V c).before 14 t d = (outsAt2 V c (t.val - 1) (Nat.lt_of_le_of_lt (Nat.sub_le _ _) t.isLt)).2.2.2.2 := by
  have hN : t.val < 10 := lt_of_lt_of_eq t.isLt (show cfg2.N = 10 from N_2)
  rw [Dat.before_out_kept _ 14 rfl t (by omega) (Bool.eq_false_iff.mpr fun h => by have := (flush2_14 _).mp h; dsimp only at this; omega)
    (fun _ => rfl) (fun _ _ => rfl)]
  dsimp only [dat2]

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t)
    ∗ owns (c : Thread nD τ) (ms2_14 t) fullShare ((dat2 V c).after 14 t))

set_option maxHeartbeats 2400000 in
/-- The body at any point: the read windows' memrefs hold their blocks (`before2_W`); the closed form says which case
    the point is in; where the branch is not taken, windows 11–14 hold what the point before left (`before2_W_B`); so
    the case's run applies, and each written window comes back at its pieces read back, which cover it; the invariant
    passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  have hN : t.val < 10 := lt_of_lt_of_eq t.isLt (show cfg2.N = 10 from N_2)
  by_cases h0 : t.val % 5 = 0
  · rw [outsAt2_A V c t h0]
    unfold out2_A_10 out2_A_11 out2_A_12 out2_A_13 out2_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun2_A c (grid2.coords t) _ _ _ _ _ _ _ _ _ _ _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover2_A_10 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover2_A_11 c _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover2_A_12 c _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover2_A_13 c _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover2_A_14 c _ _ _ _ _ _ _ _ _ _ _ _ _ _ _ _ _ _ _ _ _ _ _ _ _ _ _ _ _ _ _ _ _ _ _ _ _ _ _ _ _ _)
  · rw [outsAt2_B V c t h0]
    simp only [before2_11_B V c t h0, before2_12_B V c t h0, before2_13_B V c t h0, before2_14_B V c t h0]
    unfold out2_B_10 out2_B_11 out2_B_12 out2_B_13 out2_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun2_B c (grid2.coords t) _ _ _ _ _ _ _ _ _ _ _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    iintro ⟨H0, H1, H2, H3, H4, H5, H6, H7, H8, H9, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover2_B_10 c _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover2_B_11 c _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover2_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover2_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover2_B_14 c _ _ _ _ _ _ _ _ _ _ _ _ _ _ _ _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.K3Frame.lean ====
/- The kernel-body half of the region of custom_call 3 (`cc3__bn_kernel`, a row-wise normalisation: five whole-buffer
   loads, pointwise arithmetic with one reciprocal square root, one whole-buffer store) of `Cert.KernelIdeal`, generic
   in the float instance, at a parameter `V`: the TensorCore's buffer contents when the region is entered. Each
   window's block at a point, the output buffer after the body as the canonical form of its one store, the body's
   triple, the proof data and the body obligation. -/
import proofs.«429418_j73830487818378_3_alg».proof.Proof.Gen.KernelIdeal.Launch
import proofs.«429418_j73830487818378_3_alg».proof.Proof.Gen.KernelIdeal.Skeleton
import proofs.«429418_j73830487818378_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 3, `cc3__bn_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block index
    has not moved, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block index
    has not moved, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block index
    has not moved, and the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block index
    has not moved, and the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000x128 buffer (the load of window 0 and the one store). -/
abbrev r3_0 : Rect S5000x128 := Rect.unit (s := S5000x128) ![0, 0] S5000x128.size inb_S5000x128_S5000x128_0_0
/-- The whole 1x128 row (the loads of windows 1 to 4). -/
abbrev r3_1 : Rect S1x128 := Rect.unit (s := S1x128) ![0, 0] S1x128.size inb_S1x128_S1x128_0_0

/-! ## What the body leaves in the output window's buffer -/

/-- Window 5's staging buffer after the body, from the input windows' blocks: its one store as a piece, the payload
    the skeleton's, over the values the five loads read (window 2's row is the second argument of the payload,
    window 1's the third). -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_0, k3_pay1 (View.ld x0 r3_0) (View.ld x2 r3_1) (View.ld x1 r3_1) (View.ld x3 r3_1) (View.ld x4 r3_1)⟩]

/-- The one store is the whole buffer, so it covers it. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `xW` and the output's at anything, runs to
    the continuation holding the inputs' as they were and the output's at `out3_5` of the inputs': the printed function
    is its skeleton, whose six loads and one store are run one by one. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point `t`
    each input's buffer at its block and the output's at `out3_5` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KRun.lean ====
import proofs.«429418_j73830487818378_3_alg».proof.Proof.K0Frame
import proofs.«429418_j73830487818378_3_alg».proof.Proof.K1Frame
import proofs.«429418_j73830487818378_3_alg».proof.Proof.K2Frame
import proofs.«429418_j73830487818378_3_alg».proof.Proof.K3Frame
import Idealize.ShloMosaic.Lib.Pipeline.RegionsLoop
import Idealize.ShloMosaic.Lib.Pipeline.FrameSuffix
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: five stretches of host operations around four kernel regions

## The buffer contents at each boundary: a fold through @main from the launch memory -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (an input as entered, an output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (an input as entered, an output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (an input as entered, an output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (an input as entered, an output's write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (the return). -/
abbrev W9 : Dev nD → Valuation τ sig (Elt F) := fun c => StableHlo.after hostOps4 (W8 m ρ c)

/-! ## What the host stretches write

Each operation writes its one result reference; a stretch's results are listed, so that "this reference is not written"
is decided over references in one pass. -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_cst, main_v5, main_v6, main_v7, main_v8, main_cst_0, main_v9, main_cst_1, main_v10, main_c, main_v11, main_v12, main_c_2, main_v13, main_v14, main_v15, main_v16, main_v17, main_v18, main_v19, main_v20, main_cst_3, main_v21, main_v22, main_v23, main_v24, main_v25, main_v26, main_v27]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps0` does not write keeps its contents across the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_cst_4, main_v29, main_v30, main_cst_5, main_v31, main_v32, main_cst_6, main_v33, main_cst_7, main_v34, main_v35, main_cst_8, main_v36, main_v37, main_cst_9, main_v38, main_v39, main_v40, main_v41, main_cst_10, main_v42, main_v43, main_cst_11, main_v44, main_v45, main_v46, main_v47, main_v48, main_v49, main_v50, main_v51, main_v52, main_v53, main_v54, main_v55, main_v56, main_v57, main_v58, main_v59, main_v60, main_v61, main_v62, main_v63, main_v64, main_v65, main_v66, main_v67, main_c_12, main_v68, main_v69, main_c_13, main_v70, main_v71, main_v72, main_v73, main_v74, main_v75, main_v76, main_v77, main_cst_14, main_v78, main_v79, main_v80, main_v81, main_v82, main_v83, main_v84]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps1` does not write keeps its contents across the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_cst_15, main_v86, main_v87, main_cst_16, main_v88, main_v89, main_cst_17, main_v90, main_cst_18, main_v91, main_v92, main_cst_19, main_v93, main_v94, main_cst_20, main_v95, main_v96, main_v97, main_v98, main_cst_21, main_v99, main_v100, main_cst_22, main_v101, main_v102, main_v103, main_v104, main_v105, main_v106, main_v107, main_v108, main_v109, main_v110, main_v111, main_v112, main_v113, main_v114, main_v115, main_v116, main_v117, main_v118, main_v119, main_v120, main_v121, main_v122, main_v123, main_v124, main_c_23, main_v125, main_v126, main_c_24, main_v127, main_v128, main_v129, main_v130, main_v131, main_v132, main_v133, main_v134, main_cst_25, main_v135, main_v136, main_v137, main_v138, main_v139, main_v140, main_v141]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps2` does not write keeps its contents across the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_cst_26, main_v143, main_v144, main_cst_27, main_v145, main_v146, main_cst_28, main_v147, main_cst_29, main_v148, main_v149, main_cst_30, main_v150, main_v151, main_cst_31, main_v152, main_v153, main_v154, main_v155, main_cst_32, main_v156, main_v157, main_cst_33, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps3` does not write keeps its contents across the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v189, main_v190]
theorem hostOps4_writes : (hostOps4 : List (HloOp τ sig (Elt F))).Forall fun op => op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference `hostOps4` does not write keeps its contents across the stretch. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-! ## The arguments end as launched

No host operation writes an argument; a region reads an argument through an input window (whose array the pipeline leaves as
entered) or does not touch it. So the fold at an argument's buffer walks back to the launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 6).trans (((dat0 (V1 m ρ) c).arrAt_in 6 rfl _).trans (A_eq0 (V1 m ρ) c 6))
    _ = W0 m ρ c (Proc.devRef .tc main_arg4) := W1_of m ρ c main_arg4 (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 8).trans (((dat0 (V1 m ρ) c).arrAt_in 8 rfl _).trans (A_eq0 (V1 m ρ) c 8))
    _ = W0 m ρ c (Proc.devRef .tc main_arg6) := W1_of m ρ c main_arg6 (by decide)
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of m ρ c main_arg10 (by decide)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := (W4_arr m ρ c 6).trans (((dat1 (V3 m ρ) c).arrAt_in 6 rfl _).trans (A_eq1 (V3 m ρ) c 6))
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of m ρ c main_arg11 (by decide)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of m ρ c main_arg12 (by decide)
    _ = W7 m ρ c (Proc.devRef .tc main_arg12) := W8_of_ne m ρ c main_arg12 (by decide)
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := (W4_arr m ρ c 8).trans (((dat1 (V3 m ρ) c).arrAt_in 8 rfl _).trans (A_eq1 (V3 m ρ) c 8))
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := W9_of m ρ c main_arg13 (by decide)
    _ = W7 m ρ c (Proc.devRef .tc main_arg13) := W8_of_ne m ρ c main_arg13 (by decide)
    _ = W6 m ρ c (Proc.devRef .tc main_arg13) := W7_of m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := W9_of m ρ c main_arg14 (by decide)
    _ = W7 m ρ c (Proc.devRef .tc main_arg14) := W8_of_ne m ρ c main_arg14 (by decide)
    _ = W6 m ρ c (Proc.devRef .tc main_arg14) := W7_of m ρ c main_arg14 (by decide)
    _ = W5 m ρ c (Proc.devRef .tc main_arg14) := W6_of_ne m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
theorem W9_main_arg15 (c : Dev nD) : W9 m ρ c (Proc.devRef .tc main_arg15) = m ((c : Thread nD τ).loc main_arg15) :=
  calc W9 m ρ c (Proc.devRef .tc main_arg15)
    _ = W8 m ρ c (Proc.devRef .tc main_arg15) := W9_of m ρ c main_arg15 (by decide)
    _ = W7 m ρ c (Proc.devRef .tc main_arg15) := W8_of_ne m ρ c main_arg15 (by decide)
    _ = W6 m ρ c (Proc.devRef .tc main_arg15) := W7_of m ρ c main_arg15 (by decide)
    _ = W5 m ρ c (Proc.devRef .tc main_arg15) := W6_of_ne m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl
theorem W9_main_arg16 (c : Dev nD) : W9 m ρ c (Proc.devRef .tc main_arg16) = m ((c : Thread nD τ).loc main_arg16) :=
  calc W9 m ρ c (Proc.devRef .tc main_arg16)
    _ = W8 m ρ c (Proc.devRef .tc main_arg16) := W9_of m ρ c main_arg16 (by decide)
    _ = W7 m ρ c (Proc.devRef .tc main_arg16) := W8_of_ne m ρ c main_arg16 (by decide)
    _ = W6 m ρ c (Proc.devRef .tc main_arg16) := W7_of m ρ c main_arg16 (by decide)
    _ = W5 m ρ c (Proc.devRef .tc main_arg16) := (W6_arr m ρ c 6).trans (((dat2 (V5 m ρ) c).arrAt_in 6 rfl _).trans (A_eq2 (V5 m ρ) c 6))
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl
theorem W9_main_arg17 (c : Dev nD) : W9 m ρ c (Proc.devRef .tc main_arg17) = m ((c : Thread nD τ).loc main_arg17) :=
  calc W9 m ρ c (Proc.devRef .tc main_arg17)
    _ = W8 m ρ c (Proc.devRef .tc main_arg17) := W9_of m ρ c main_arg17 (by decide)
    _ = W7 m ρ c (Proc.devRef .tc main_arg17) := W8_of_ne m ρ c main_arg17 (by decide)
    _ = W6 m ρ c (Proc.devRef .tc main_arg17) := W7_of m ρ c main_arg17 (by decide)
    _ = W5 m ρ c (Proc.devRef .tc main_arg17) := W6_of_ne m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of_ne m ρ c main_arg17 (by decide)
    _ = W0 m ρ c (Proc.devRef .tc main_arg17) := W1_of m ρ c main_arg17 (by decide)
    _ = m ((c : Thread nD τ).loc main_arg17) := rfl
theorem W9_main_arg18 (c : Dev nD) : W9 m ρ c (Proc.devRef .tc main_arg18) = m ((c : Thread nD τ).loc main_arg18) :=
  calc W9 m ρ c (Proc.devRef .tc main_arg18)
    _ = W8 m ρ c (Proc.devRef .tc main_arg18) := W9_of m ρ c main_arg18 (by decide)
    _ = W7 m ρ c (Proc.devRef .tc main_arg18) := W8_of_ne m ρ c main_arg18 (by decide)
    _ = W6 m ρ c (Proc.devRef .tc main_arg18) := W7_of m ρ c main_arg18 (by decide)
    _ = W5 m ρ c (Proc.devRef .tc main_arg18) := (W6_arr m ρ c 8).trans (((dat2 (V5 m ρ) c).arrAt_in 8 rfl _).trans (A_eq2 (V5 m ρ) c 8))
    _ = W4 m ρ c (Proc.devRef .tc main_arg18) := W5_of m ρ c main_arg18 (by decide)
    _ = W3 m ρ c (Proc.devRef .tc main_arg18) := W4_of_ne m ρ c main_arg18 (by decide)
    _ = W2 m ρ c (Proc.devRef .tc main_arg18) := W3_of m ρ c main_arg18 (by decide)
    _ = W1 m ρ c (Proc.devRef .tc main_arg18) := W2_of_ne m ρ c main_arg18 (by decide)
    _ = W0 m ρ c (Proc.devRef .tc main_arg18) := W1_of m ρ c main_arg18 (by decide)
    _ = m ((c : Thread nD τ).loc main_arg18) := rfl
theorem W9_main_arg19 (c : Dev nD) : W9 m ρ c (Proc.devRef .tc main_arg19) = m ((c : Thread nD τ).loc main_arg19) :=
  calc W9 m ρ c (Proc.devRef .tc main_arg19)
    _ = W8 m ρ c (Proc.devRef .tc main_arg19) := W9_of m ρ c main_arg19 (by decide)
    _ = W7 m ρ c (Proc.devRef .tc main_arg19) := W8_of_ne m ρ c main_arg19 (by decide)
    _ = W6 m ρ c (Proc.devRef .tc main_arg19) := W7_of m ρ c main_arg19 (by decide)
    _ = W5 m ρ c (Proc.devRef .tc main_arg19) := W6_of_ne m ρ c main_arg19 (by decide)
    _ = W4 m ρ c (Proc.devRef .tc main_arg19) := W5_of m ρ c main_arg19 (by decide)
    _ = W3 m ρ c (Proc.devRef .tc main_arg19) := W4_of_ne m ρ c main_arg19 (by decide)
    _ = W2 m ρ c (Proc.devRef .tc main_arg19) := W3_of m ρ c main_arg19 (by decide)
    _ = W1 m ρ c (Proc.devRef .tc main_arg19) := W2_of_ne m ρ c main_arg19 (by decide)
    _ = W0 m ρ c (Proc.devRef .tc main_arg19) := W1_of m ρ c main_arg19 (by decide)
    _ = m ((c : Thread nD τ).loc main_arg19) := rfl
theorem W9_main_arg20 (c : Dev nD) : W9 m ρ c (Proc.devRef .tc main_arg20) = m ((c : Thread nD τ).loc main_arg20) :=
  calc W9 m ρ c (Proc.devRef .tc main_arg20)
    _ = W8 m ρ c (Proc.devRef .tc main_arg20) := W9_of m ρ c main_arg20 (by decide)
    _ = W7 m ρ c (Proc.devRef .tc main_arg20) := W8_of_ne m ρ c main_arg20 (by decide)
    _ = W6 m ρ c (Proc.devRef .tc main_arg20) := W7_of m ρ c main_arg20 (by decide)
    _ = W5 m ρ c (Proc.devRef .tc main_arg20) := W6_of_ne m ρ c main_arg20 (by decide)
    _ = W4 m ρ c (Proc.devRef .tc main_arg20) := W5_of m ρ c main_arg20 (by decide)
    _ = W3 m ρ c (Proc.devRef .tc main_arg20) := W4_of_ne m ρ c main_arg20 (by decide)
    _ = W2 m ρ c (Proc.devRef .tc main_arg20) := W3_of m ρ c main_arg20 (by decide)
    _ = W1 m ρ c (Proc.devRef .tc main_arg20) := W2_of_ne m ρ c main_arg20 (by decide)
    _ = W0 m ρ c (Proc.devRef .tc main_arg20) := W1_of m ρ c main_arg20 (by decide)
    _ = m ((c : Thread nD τ).loc main_arg20) := rfl
theorem W9_main_arg21 (c : Dev nD) : W9 m ρ c (Proc.devRef .tc main_arg21) = m ((c : Thread nD τ).loc main_arg21) :=
  calc W9 m ρ c (Proc.devRef .tc main_arg21)
    _ = W8 m ρ c (Proc.devRef .tc main_arg21) := W9_of m ρ c main_arg21 (by decide)
    _ = W7 m ρ c (Proc.devRef .tc main_arg21) := W8_of_ne m ρ c main_arg21 (by decide)
    _ = W6 m ρ c (Proc.devRef .tc main_arg21) := W7_of m ρ c main_arg21 (by decide)
    _ = W5 m ρ c (Proc.devRef .tc main_arg21) := W6_of_ne m ρ c main_arg21 (by decide)
    _ = W4 m ρ c (Proc.devRef .tc main_arg21) := W5_of m ρ c main_arg21 (by decide)
    _ = W3 m ρ c (Proc.devRef .tc main_arg21) := W4_of_ne m ρ c main_arg21 (by decide)
    _ = W2 m ρ c (Proc.devRef .tc main_arg21) := W3_of m ρ c main_arg21 (by decide)
    _ = W1 m ρ c (Proc.devRef .tc main_arg21) := W2_of_ne m ρ c main_arg21 (by decide)
    _ = W0 m ρ c (Proc.devRef .tc main_arg21) := W1_of m ρ c main_arg21 (by decide)
    _ = m ((c : Thread nD τ).loc main_arg21) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents (a literal match on the pipeline's index, so that
    the pinned configuration at a numeral reduces to the printed one). -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment: the operations over the unscoped references from the contents `W`, `R` riding along; it
    ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents `W9`, the generator
    register at some state. -/
abbrev Tₙ (c : Dev nD) : sProp 𝕄 := iprop(StableHlo.held (c : Thread nD τ) (Pipeline.ucRefs τ sig) (W9 m ρ c) ∗ ∃ r, prngReg c r)

/-! ## The regions as segments

Each region is entered from every unscoped buffer at its entry contents and left with them at its exit contents: its arrays
are split out of the unscoped buffers and put back; the generator register goes into the invariant and comes out; nothing is
owed; the kernel has no semaphore of its own. -/

-- applying a library lemma stated over the pinned configuration unifies with the printed one only when unification may
-- unfold plain definitions in a metavariable's type
set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments: it is the chain of its items, and the segments' run unfolds to that chain (checked
    by the kernel's definitional unfolding). -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds, at every unscoped buffer, the last boundary's
    contents `W9`: the launch over the segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame claim's post at any `F`: every argument array ends as launched — each read off the last valuation
    (`run_all`) and walked back through the fold (`W9_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c),
     (h c _ (mem_uc main_arg18 (by decide))).trans (W9_main_arg18 m ρ c),
     (h c _ (mem_uc main_arg19 (by decide))).trans (W9_main_arg19 m ρ c),
     (h c _ (mem_uc main_arg20 (by decide))).trans (W9_main_arg20 m ρ c),
     (h c _ (mem_uc main_arg21 (by decide))).trans (W9_main_arg21 m ρ c)⟩) (run_all m ρ)

end Cert.KernelIdeal.Fr

end
-- ==== Proof.RefRun0.lean ====
/-
  The reference's @main as a list of host operations, cut into stages: the program is a three-layer
  message-passing network (per layer: wrap the source indices, gather-scale-scatter the rows along the edges, two
  affine maps with a maximum with zero after each, then a normalisation of every column by its mean and variance
  over the rows), followed by a per-graph sum of each layer's output and their concatenation. A call of a
  module-local function is its body's operations over that call's buffers, in place. `after ops V` is then the
  composition of the stages' folds; for each stage: every operation touches TensorCore references only, none
  leaves a buffer undetermined, and a reference outside the stage's written list keeps its contents.
-/
import proofs.«429418_j73830487818378_3_alg».proof.ReferenceIdeal
import proofs.«429418_j73830487818378_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.SL.Sem

variable {F : FTy → Type} [FloatOps F]

/-- Stage 0 (12 operations): the two rows of the edge table as vectors, and the source indices wrapped into range (a negative index takes the node count added). -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)) ]

/-- Stage 1 (9 operations): layer 1, aggregation: the sources' rows gathered, scaled by the edge weights, summed into the targets' rows, added to the input. -/
abbrev ops1 : List (HloOp τ sig (Elt F)) :=
  [ StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg3 main_v11 (broadcastInDim S800000x1 ![0] bcast_S800000_S800000x1_0 : (⟨S800000, .f32⟩ : BufTy).Contents (Elt F) → (⟨S800000x1, .f32⟩ : BufTy).Contents (Elt F)),
    StableHlo.unary main_v11 main_v12 (broadcastInDim S800000x128 ![0, 1] bcast_S800000x1_S800000x128_0_1 : (⟨S800000x1, .f32⟩ : BufTy).Contents (Elt F) → (⟨S800000x128, .f32⟩ : BufTy).Contents (Elt F)),
    StableHlo.binary main_v10 main_v12 main_v13 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v14 (broadcastInDim S50000x128 ![] bcast_S_S50000x128 : (⟨S_, .f32⟩ : BufTy).Contents (Elt F) → (⟨S50000x128, .f32⟩ : BufTy).Contents (Elt F)),
    StableHlo.unary main_v3 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v16 main_v17 (addf : (⟨S50000x128, .f32⟩ : BufTy).Contents (Elt F) → (⟨S50000x128, .f32⟩ : BufTy).Contents (Elt F) → (⟨S50000x128, .f32⟩ : BufTy).Contents (Elt F)) ]

/-- Stage 2 (14 operations): layer 1, the two affine maps, each followed by the maximum with zero (`@relu`'s three operations listed at each call). -/
abbrev ops2 : List (HloOp τ sig (Elt F)) :=
  [ StableHlo.binary main_v17 main_arg4 main_v18 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S50000x64 ![0, 1] bcast_S1x64_S50000x64_0_1 : (⟨S1x64, .f32⟩ : BufTy).Contents (Elt F) → (⟨S50000x64, .f32⟩ : BufTy).Contents (Elt F)),
    StableHlo.binary main_v18 main_v20 main_v21 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v21) main_call0.v0 main_call0.v1 maximumf,
    StableHlo.binary main_v22 main_arg6 main_v23 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S50000x64 ![0, 1] bcast_S1x64_S50000x64_0_1 : (⟨S1x64, .f32⟩ : BufTy).Contents (Elt F) → (⟨S50000x64, .f32⟩ : BufTy).Contents (Elt F)),
    StableHlo.binary main_v23 main_v25 main_v26 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v26) main_call1.v0 main_call1.v1 maximumf ]

/-- Stage 3 (6 operations): layer 1, the column means (the sum over the rows divided by the row count) and the correction constant handed to `@_var`. -/
abbrev ops3 : List (HloOp τ sig (Elt F)) :=
  [ StableHlo.nullary main_cst_1 (constant S_ .f32 0x00000000#32),
    StableHlo.binary main_v27 main_cst_1 main_v28 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v29 (broadcastInDim S64 ![] bcast_S_S64 : (⟨S_, .f32⟩ : BufTy).Contents (Elt F) → (⟨S64, .f32⟩ : BufTy).Contents (Elt F)),
    StableHlo.binary main_v28 main_v29 main_v30 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32) ]

/-- Stage 4 (22 operations): layer 1, the column variances: `@_var`'s nineteen operations and, at its end, `@_where`'s three. -/
abbrev ops4 : List (HloOp τ sig (Elt F)) :=
  [ StableHlo.TRef.nullary main_call2.cst (constant S_ .f32 0x00000000#32),
    StableHlo.TRef.binary (.of main_v27) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v27) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

/-- Stage 5 (16 operations): layer 1, the normalisation: centred, scaled by the inverse square root of the variance plus epsilon, then the affine scale and shift. -/
abbrev ops5 : List (HloOp τ sig (Elt F)) :=
  [ StableHlo.unary main_v30 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v33 main_v34 (subf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x3727C5AC#32),
    StableHlo.unary main_cst_4 main_v35 (broadcastInDim S64 ![] bcast_S_S64 : (⟨S_, .f32⟩ : BufTy).Contents (Elt F) → (⟨S64, .f32⟩ : BufTy).Contents (Elt F)),
    StableHlo.binary main_v31 main_v35 main_v36 (addf : (⟨S64, .f32⟩ : BufTy).Contents (Elt F) → (⟨S64, .f32⟩ : BufTy).Contents (Elt F) → (⟨S64, .f32⟩ : BufTy).Contents (Elt F)),
    StableHlo.unary main_v36 main_v37 (Host.rsqrt : (⟨S64, .f32⟩ : BufTy).Contents (Elt F) → (⟨S64, .f32⟩ : BufTy).Contents (Elt F)),
    StableHlo.unary main_v37 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S50000x64 ![0, 1] bcast_S1x64_S50000x64_0_1 : (⟨S1x64, .f32⟩ : BufTy).Contents (Elt F) → (⟨S50000x64, .f32⟩ : BufTy).Contents (Elt F)),
    StableHlo.binary main_v34 main_v39 main_v40 (mulf : (⟨S50000x64, .f32⟩ : BufTy).Contents (Elt F) → (⟨S50000x64, .f32⟩ : BufTy).Contents (Elt F) → (⟨S50000x64, .f32⟩ : BufTy).Contents (Elt F)),
    StableHlo.unary main_arg8 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S50000x64 ![0, 1] bcast_S1x64_S50000x64_0_1 : (⟨S1x64, .f32⟩ : BufTy).Contents (Elt F) → (⟨S50000x64, .f32⟩ : BufTy).Contents (Elt F)),
    StableHlo.binary main_v40 main_v42 main_v43 (mulf : (⟨S50000x64, .f32⟩ : BufTy).Contents (Elt F) → (⟨S50000x64, .f32⟩ : BufTy).Contents (Elt F) → (⟨S50000x64, .f32⟩ : BufTy).Contents (Elt F)),
    StableHlo.unary main_arg9 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)) ]

/-- Stage 6 (8 operations): layer 2, the source indices wrapped into range again. -/
abbrev ops6 : List (HloOp τ sig (Elt F)) :=
  [ StableHlo.nullary main_c_5 (constantI S_ 32 0#32),
    StableHlo.unary main_c_5 main_v47 (broadcastInDim S800000 ![] bcast_S_S800000 : (⟨S_, .i32⟩ : BufTy).Contents (Elt F) → (⟨S800000, .i32⟩ : BufTy).Contents (Elt F)),
    StableHlo.binary main_v1 main_v47 main_v48 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v49 (broadcastInDim S800000 ![] bcast_S_S800000 : (⟨S_, .i32⟩ : BufTy).Contents (Elt F) → (⟨S800000, .i32⟩ : BufTy).Contents (Elt F)),
    StableHlo.binary main_v1 main_v49 main_v50 (addi : (⟨S800000, .i32⟩ : BufTy).Contents (Elt F) → (⟨S800000, .i32⟩ : BufTy).Contents (Elt F) → (⟨S800000, .i32⟩ : BufTy).Contents (Elt F)),
    StableHlo.ternary main_v48 main_v50 main_v1 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v51 main_v52 (broadcastInDim S800000x1 ![0] bcast_S800000_S800000x1_0 : (⟨S800000, .i32⟩ : BufTy).Contents (Elt F) → (⟨S800000x1, .i32⟩ : BufTy).Contents (Elt F)) ]

/-- Stage 7 (9 operations): layer 2, aggregation. -/
abbrev ops7 : List (HloOp τ sig (Elt F)) :=
  [ StableHlo.binary main_v46 main_v52 main_v53 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v54 (broadcastInDim S800000x1 ![0] bcast_S800000_S800000x1_0 : (⟨S800000, .f32⟩ : BufTy).Contents (Elt F) → (⟨S800000x1, .f32⟩ : BufTy).Contents (Elt F)),
    StableHlo.unary main_v54 main_v55 (broadcastInDim S800000x64 ![0, 1] bcast_S800000x1_S800000x64_0_1 : (⟨S800000x1, .f32⟩ : BufTy).Contents (Elt F) → (⟨S800000x64, .f32⟩ : BufTy).Contents (Elt F)),
    StableHlo.binary main_v53 main_v55 main_v56 (mulf : (⟨S800000x64, .f32⟩ : BufTy).Contents (Elt F) → (⟨S800000x64, .f32⟩ : BufTy).Contents (Elt F) → (⟨S800000x64, .f32⟩ : BufTy).Contents (Elt F)),
    StableHlo.nullary main_cst_7 (constant S_ .f32 0x00000000#32),
    StableHlo.unary main_cst_7 main_v57 (broadcastInDim S50000x64 ![] bcast_S_S50000x64 : (⟨S_, .f32⟩ : BufTy).Contents (Elt F) → (⟨S50000x64, .f32⟩ : BufTy).Contents (Elt F)),
    StableHlo.unary main_v3 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v56 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v46 main_v59 main_v60 (addf : (⟨S50000x64, .f32⟩ : BufTy).Contents (Elt F) → (⟨S50000x64, .f32⟩ : BufTy).Contents (Elt F) → (⟨S50000x64, .f32⟩ : BufTy).Contents (Elt F)) ]

/-- Stage 8 (14 operations): layer 2, the two affine maps, each followed by the maximum with zero. -/
abbrev ops8 : List (HloOp τ sig (Elt F)) :=
  [ StableHlo.binary main_v60 main_arg10 main_v61 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v64) main_call3.v0 main_call3.v1 maximumf,
    StableHlo.binary main_v65 main_arg12 main_v66 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg13 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),
    StableHlo.binary main_v66 main_v68 main_v69 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (.of main_v69) main_call4.v0 main_call4.v1 maximumf ]

/-- Stage 9 (6 operations): layer 2, the column means and the correction constant. -/
abbrev ops9 : List (HloOp τ sig (Elt F)) :=
  [ StableHlo.nullary main_cst_8 (constant S_ .f32 0x00000000#32),
    StableHlo.binary main_v70 main_cst_8 main_v71 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_9 (constant S_ .f32 0x47435000#32),
    StableHlo.unary main_cst_9 main_v72 (broadcastInDim S64 ![] bcast_S_S64 : (⟨S_, .f32⟩ : BufTy).Contents (Elt F) → (⟨S64, .f32⟩ : BufTy).Contents (Elt F)),
    StableHlo.binary main_v71 main_v72 main_v73 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32) ]

/-- Stage 10 (22 operations): layer 2, the column variances (`@_var`, `@_where`). -/
abbrev ops10 : List (HloOp τ sig (Elt F)) :=
  [ StableHlo.TRef.nullary main_call5.cst (constant S_ .f32 0x00000000#32),
    StableHlo.TRef.binary (.of main_v70) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (.of main_v70) main_call5.v4 main_call5.v5 subf,
    StableHlo.TRef.binary main_call5.v5 main_call5.v5 main_call5.v6 mulf,
    StableHlo.TRef.unary (.of main_c_10) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b) ]

/-- Stage 11 (16 operations): layer 2, the normalisation. -/
abbrev ops11 : List (HloOp τ sig (Elt F)) :=
  [ StableHlo.unary main_v73 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S50000x64 ![0, 1] bcast_S1x64_S50000x64_0_1 : (⟨S1x64, .f32⟩ : BufTy).Contents (Elt F) → (⟨S50000x64, .f32⟩ : BufTy).Contents (Elt F)),
    StableHlo.binary main_v70 main_v76 main_v77 (subf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x3727C5AC#32),
    StableHlo.unary main_cst_11 main_v78 (broadcastInDim S64 ![] bcast_S_S64 : (⟨S_, .f32⟩ : BufTy).Contents (Elt F) → (⟨S64, .f32⟩ : BufTy).Contents (Elt F)),
    StableHlo.binary main_v74 main_v78 main_v79 (addf : (⟨S64, .f32⟩ : BufTy).Contents (Elt F) → (⟨S64, .f32⟩ : BufTy).Contents (Elt F) → (⟨S64, .f32⟩ : BufTy).Contents (Elt F)),
    StableHlo.unary main_v79 main_v80 (Host.rsqrt : (⟨S64, .f32⟩ : BufTy).Contents (Elt F) → (⟨S64, .f32⟩ : BufTy).Contents (Elt F)),
    StableHlo.unary main_v80 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S50000x64 ![0, 1] bcast_S1x64_S50000x64_0_1 : (⟨S1x64, .f32⟩ : BufTy).Contents (Elt F) → (⟨S50000x64, .f32⟩ : BufTy).Contents (Elt F)),
    StableHlo.binary main_v77 main_v82 main_v83 (mulf : (⟨S50000x64, .f32⟩ : BufTy).Contents (Elt F) → (⟨S50000x64, .f32⟩ : BufTy).Contents (Elt F) → (⟨S50000x64, .f32⟩ : BufTy).Contents (Elt F)),
    StableHlo.unary main_arg14 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S50000x64 ![0, 1] bcast_S1x64_S50000x64_0_1 : (⟨S1x64, .f32⟩ : BufTy).Contents (Elt F) → (⟨S50000x64, .f32⟩ : BufTy).Contents (Elt F)),
    StableHlo.binary main_v83 main_v85 main_v86 (mulf : (⟨S50000x64, .f32⟩ : BufTy).Contents (Elt F) → (⟨S50000x64, .f32⟩ : BufTy).Contents (Elt F) → (⟨S50000x64, .f32⟩ : BufTy).Contents (Elt F)),
    StableHlo.unary main_arg15 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S50000x64 ![0, 1] bcast_S1x64_S50000x64_0_1 : (⟨S1x64, .f32⟩ : BufTy).Contents (Elt F) → (⟨S50000x64, .f32⟩ : BufTy).Contents (Elt F)),
    StableHlo.binary main_v86 main_v88 main_v89 (addf : (⟨S50000x64, .f32⟩ : BufTy).Contents (Elt F) → (⟨S50000x64, .f32⟩ : BufTy).Contents (Elt F) → (⟨S50000x64, .f32⟩ : BufTy).Contents (Elt F)) ]

/-- Stage 12 (8 operations): layer 3, the source indices wrapped into range again. -/
abbrev ops12 : List (HloOp τ sig (Elt F)) :=
  [ StableHlo.nullary main_c_12 (constantI S_ 32 0#32),
    StableHlo.unary main_c_12 main_v90 (broadcastInDim S800000 ![] bcast_S_S800000 : (⟨S_, .i32⟩ : BufTy).Contents (Elt F) → (⟨S800000, .i32⟩ : BufTy).Contents (Elt F)),
    StableHlo.binary main_v1 main_v90 main_v91 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v92 (broadcastInDim S800000 ![] bcast_S_S800000 : (⟨S_, .i32⟩ : BufTy).Contents (Elt F) → (⟨S800000, .i32⟩ : BufTy).Contents (Elt F)),
    StableHlo.binary main_v1 main_v92 main_v93 (addi : (⟨S800000, .i32⟩ : BufTy).Contents (Elt F) → (⟨S800000, .i32⟩ : BufTy).Contents (Elt F) → (⟨S800000, .i32⟩ : BufTy).Contents (Elt F)),
    StableHlo.ternary main_v91 main_v93 main_v1 main_v94 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v94 main_v95 (broadcastInDim S800000x1 ![0] bcast_S800000_S800000x1_0 : (⟨S800000, .i32⟩ : BufTy).Contents (Elt F) → (⟨S800000x1, .i32⟩ : BufTy).Contents (Elt F)) ]

/-- Stage 13 (9 operations): layer 3, aggregation. -/
abbrev ops13 : List (HloOp τ sig (Elt F)) :=
  [ StableHlo.binary main_v89 main_v95 main_v96 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v97 (broadcastInDim S800000x1 ![0] bcast_S800000_S800000x1_0 : (⟨S800000, .f32⟩ : BufTy).Contents (Elt F) → (⟨S800000x1, .f32⟩ : BufTy).Contents (Elt F)),
    StableHlo.unary main_v97 main_v98 (broadcastInDim S800000x64 ![0, 1] bcast_S800000x1_S800000x64_0_1 : (⟨S800000x1, .f32⟩ : BufTy).Contents (Elt F) → (⟨S800000x64, .f32⟩ : BufTy).Contents (Elt F)),
    StableHlo.binary main_v96 main_v98 main_v99 (mulf : (⟨S800000x64, .f32⟩ : BufTy).Contents (Elt F) → (⟨S800000x64, .f32⟩ : BufTy).Contents (Elt F) → (⟨S800000x64, .f32⟩ : BufTy).Contents (Elt F)),
    StableHlo.nullary main_cst_14 (constant S_ .f32 0x00000000#32),
    StableHlo.unary main_cst_14 main_v100 (broadcastInDim S50000x64 ![] bcast_S_S50000x64 : (⟨S_, .f32⟩ : BufTy).Contents (Elt F) → (⟨S50000x64, .f32⟩ : BufTy).Contents (Elt F)),
    StableHlo.unary main_v3 main_v101 (broadcastInDim S800000x1 ![0] bcast_S800000_S800000x1_0 : (⟨S800000, .i32⟩ : BufTy).Contents (Elt F) → (⟨S800000x1, .i32⟩ : BufTy).Contents (Elt F)),
    StableHlo.ternary main_v100 main_v101 main_v99 main_v102 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v89 main_v102 main_v103 (addf : (⟨S50000x64, .f32⟩ : BufTy).Contents (Elt F) → (⟨S50000x64, .f32⟩ : BufTy).Contents (Elt F) → (⟨S50000x64, .f32⟩ : BufTy).Contents (Elt F)) ]

/-- Stage 14 (14 operations): layer 3, the two affine maps, each followed by the maximum with zero. -/
abbrev ops14 : List (HloOp τ sig (Elt F)) :=
  [ StableHlo.binary main_v103 main_arg16 main_v104 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg17 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S50000x64 ![0, 1] bcast_S1x64_S50000x64_0_1 : (⟨S1x64, .f32⟩ : BufTy).Contents (Elt F) → (⟨S50000x64, .f32⟩ : BufTy).Contents (Elt F)),
    StableHlo.binary main_v104 main_v106 main_v107 (addf : (⟨S50000x64, .f32⟩ : BufTy).Contents (Elt F) → (⟨S50000x64, .f32⟩ : BufTy).Contents (Elt F) → (⟨S50000x64, .f32⟩ : BufTy).Contents (Elt F)),
    StableHlo.TRef.nullary main_call6.cst (constant S_ .f32 0x00000000#32),
    StableHlo.TRef.unary main_call6.cst main_call6.v0 (broadcastInDim S50000x64 ![] bcast_S_S50000x64),
    StableHlo.TRef.binary (.of main_v107) main_call6.v0 main_call6.v1 maximumf,
    StableHlo.binary main_v108 main_arg18 main_v109 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg19 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v109 main_v111 main_v112 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v112) main_call7.v0 main_call7.v1 maximumf ]

/-- Stage 15 (6 operations): layer 3, the column means and the correction constant. -/
abbrev ops15 : List (HloOp τ sig (Elt F)) :=
  [ StableHlo.nullary main_cst_15 (constant S_ .f32 0x00000000#32),
    StableHlo.binary main_v113 main_cst_15 main_v114 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_16 (constant S_ .f32 0x47435000#32),
    StableHlo.unary main_cst_16 main_v115 (broadcastInDim S64 ![] bcast_S_S64 : (⟨S_, .f32⟩ : BufTy).Contents (Elt F) → (⟨S64, .f32⟩ : BufTy).Contents (Elt F)),
    StableHlo.binary main_v114 main_v115 main_v116 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32) ]

/-- Stage 16 (22 operations): layer 3, the column variances (`@_var`, `@_where`). -/
abbrev ops16 : List (HloOp τ sig (Elt F)) :=
  [ StableHlo.TRef.nullary main_call8.cst (constant S_ .f32 0x00000000#32),
    StableHlo.TRef.binary (.of main_v113) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v113) main_call8.v4 main_call8.v5 subf,
    StableHlo.TRef.binary main_call8.v5 main_call8.v5 main_call8.v6 mulf,
    StableHlo.TRef.unary (.of main_c_17) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b) ]

/-- Stage 17 (16 operations): layer 3, the normalisation: its last value is the first result. -/
abbrev ops17 : List (HloOp τ sig (Elt F)) :=
  [ StableHlo.unary main_v116 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v119 main_v120 (subf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3727C5AC#32),
    StableHlo.unary main_cst_18 main_v121 (broadcastInDim S64 ![] bcast_S_S64 : (⟨S_, .f32⟩ : BufTy).Contents (Elt F) → (⟨S64, .f32⟩ : BufTy).Contents (Elt F)),
    StableHlo.binary main_v117 main_v121 main_v122 (addf : (⟨S64, .f32⟩ : BufTy).Contents (Elt F) → (⟨S64, .f32⟩ : BufTy).Contents (Elt F) → (⟨S64, .f32⟩ : BufTy).Contents (Elt F)),
    StableHlo.unary main_v122 main_v123 (Host.rsqrt : (⟨S64, .f32⟩ : BufTy).Contents (Elt F) → (⟨S64, .f32⟩ : BufTy).Contents (Elt F)),
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S50000x64 ![0, 1] bcast_S1x64_S50000x64_0_1 : (⟨S1x64, .f32⟩ : BufTy).Contents (Elt F) → (⟨S50000x64, .f32⟩ : BufTy).Contents (Elt F)),
    StableHlo.binary main_v120 main_v125 main_v126 (mulf : (⟨S50000x64, .f32⟩ : BufTy).Contents (Elt F) → (⟨S50000x64, .f32⟩ : BufTy).Contents (Elt F) → (⟨S50000x64, .f32⟩ : BufTy).Contents (Elt F)),
    StableHlo.unary main_arg20 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S50000x64 ![0, 1] bcast_S1x64_S50000x64_0_1 : (⟨S1x64, .f32⟩ : BufTy).Contents (Elt F) → (⟨S50000x64, .f32⟩ : BufTy).Contents (Elt F)),
    StableHlo.binary main_v126 main_v128 main_v129 (mulf : (⟨S50000x64, .f32⟩ : BufTy).Contents (Elt F) → (⟨S50000x64, .f32⟩ : BufTy).Contents (Elt F) → (⟨S50000x64, .f32⟩ : BufTy).Contents (Elt F)),
    StableHlo.unary main_arg21 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S50000x64 ![0, 1] bcast_S1x64_S50000x64_0_1 : (⟨S1x64, .f32⟩ : BufTy).Contents (Elt F) → (⟨S50000x64, .f32⟩ : BufTy).Contents (Elt F)),
    StableHlo.binary main_v129 main_v131 main_v132 (addf : (⟨S50000x64, .f32⟩ : BufTy).Contents (Elt F) → (⟨S50000x64, .f32⟩ : BufTy).Contents (Elt F) → (⟨S50000x64, .f32⟩ : BufTy).Contents (Elt F)) ]

/-- Stage 18 (12 operations): the three layers' outputs summed per graph: a zero table, the graph index as a column, the scatter-add, three times. -/
abbrev ops18 : List (HloOp τ sig (Elt F)) :=
  [ StableHlo.nullary main_cst_19 (constant S_ .f32 0x00000000#32),
    StableHlo.unary main_cst_19 main_v133 (broadcastInDim S256x64 ![] bcast_S_S256x64 : (⟨S_, .f32⟩ : BufTy).Contents (Elt F) → (⟨S256x64, .f32⟩ : BufTy).Contents (Elt F)),
    StableHlo.unary main_arg2 main_v134 (broadcastInDim S50000x1 ![0] bcast_S50000_S50000x1_0 : (⟨S50000, .i32⟩ : BufTy).Contents (Elt F) → (⟨S50000x1, .i32⟩ : BufTy).Contents (Elt F)),
    StableHlo.ternary main_v133 main_v134 main_v46 main_v135 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    StableHlo.nullary main_cst_20 (constant S_ .f32 0x00000000#32),
    StableHlo.unary main_cst_20 main_v136 (broadcastInDim S256x64 ![] bcast_S_S256x64 : (⟨S_, .f32⟩ : BufTy).Contents (Elt F) → (⟨S256x64, .f32⟩ : BufTy).Contents (Elt F)),
    StableHlo.unary main_arg2 main_v137 (broadcastInDim S50000x1 ![0] bcast_S50000_S50000x1_0 : (⟨S50000, .i32⟩ : BufTy).Contents (Elt F) → (⟨S50000x1, .i32⟩ : BufTy).Contents (Elt F)),
    StableHlo.ternary main_v136 main_v137 main_v89 main_v138 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    StableHlo.nullary main_cst_21 (constant S_ .f32 0x00000000#32),
    StableHlo.unary main_cst_21 main_v139 (broadcastInDim S256x64 ![] bcast_S_S256x64 : (⟨S_, .f32⟩ : BufTy).Contents (Elt F) → (⟨S256x64, .f32⟩ : BufTy).Contents (Elt F)),
    StableHlo.unary main_arg2 main_v140 (broadcastInDim S50000x1 ![0] bcast_S50000_S50000x1_0 : (⟨S50000, .i32⟩ : BufTy).Contents (Elt F) → (⟨S50000x1, .i32⟩ : BufTy).Contents (Elt F)),
    StableHlo.ternary main_v139 main_v140 main_v132 main_v141 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)) ]

/-- Stage 19 (1 operation): the three tables side by side: the second result. -/
abbrev ops19 : List (HloOp τ sig (Elt F)) :=
  [ StableHlo.nary ![main_v135, main_v138, main_v141] main_v142 (fun u => concatenate S256x192 1 [⟨S256x64, u 0⟩, ⟨S256x64, u 1⟩, ⟨S256x64, u 2⟩] concatenates_S256x64_S256x64_S256x64_S256x192_d1) ]

/-- @main's operations, in order: the stages one after the other. -/
abbrev ops : List (HloOp τ sig (Elt F)) :=
  ops0 ++ ops1 ++ ops2 ++ ops3 ++ ops4 ++ ops5 ++ ops6 ++ ops7 ++ ops8 ++ ops9 ++ ops10 ++ ops11 ++ ops12 ++ ops13 ++ ops14 ++ ops15 ++ ops16 ++ ops17 ++ ops18 ++ ops19

/-! ## Per stage: the operations touch TensorCore references only, determine what they write, and write only
their own result buffers -/

theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem ops0_fresh : (ops0 : List (HloOp τ sig (Elt F))).Forall fun op => op.fresh = ∅ := by
  simp only [List.Forall]; repeat' constructor
/-- The references stage 0 writes, in order. -/
abbrev ops0_W : List (Ref sig .tc) := [main_v0, main_v1, main_v2, main_v3, main_c, main_v4, main_v5, main_c_0, main_v6, main_v7, main_v8, main_v9]
theorem ops0_writes : (ops0 : List (HloOp τ sig (Elt F))).Forall fun op => op.writes ⊆ (ops0_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 0 does not write keeps its contents through it. -/
theorem ops0_keep (V : Valuation τ sig (Elt F)) (r : Ref sig .tc) (h : r ∉ ops0_W) :
    StableHlo.after ops0 V (Proc.devRef .tc r) = V (Proc.devRef .tc r) :=
  StableHlo.after_of_writes_sub ops0 V ops0_writes h

theorem ops1_sub : (ops1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub ..⟩
theorem ops1_fresh : (ops1 : List (HloOp τ sig (Elt F))).Forall fun op => op.fresh = ∅ := by
  simp only [List.Forall]; repeat' constructor
/-- The references stage 1 writes, in order. -/
abbrev ops1_W : List (Ref sig .tc) := [main_v10, main_v11, main_v12, main_v13, main_cst, main_v14, main_v15, main_v16, main_v17]
theorem ops1_writes : (ops1 : List (HloOp τ sig (Elt F))).Forall fun op => op.writes ⊆ (ops1_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 1 does not write keeps its contents through it. -/
theorem ops1_keep (V : Valuation τ sig (Elt F)) (r : Ref sig .tc) (h : r ∉ ops1_W) :
    StableHlo.after ops1 V (Proc.devRef .tc r) = V (Proc.devRef .tc r) :=
  StableHlo.after_of_writes_sub ops1 V ops1_writes h

theorem ops2_sub : (ops2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem ops2_fresh : (ops2 : List (HloOp τ sig (Elt F))).Forall fun op => op.fresh = ∅ := by
  simp only [List.Forall]; repeat' constructor
/-- The references stage 2 writes, in order. -/
abbrev ops2_W : List (Ref sig .tc) := [main_v18, main_v19, main_v20, main_v21, main_call0_cst, main_call0_v0, main_v22, main_v23, main_v24, main_v25, main_v26, main_call1_cst, main_call1_v0, main_v27]
theorem ops2_writes : (ops2 : List (HloOp τ sig (Elt F))).Forall fun op => op.writes ⊆ (ops2_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 2 does not write keeps its contents through it. -/
theorem ops2_keep (V : Valuation τ sig (Elt F)) (r : Ref sig .tc) (h : r ∉ ops2_W) :
    StableHlo.after ops2 V (Proc.devRef .tc r) = V (Proc.devRef .tc r) :=
  StableHlo.after_of_writes_sub ops2 V ops2_writes h

theorem ops3_sub : (ops3 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
theorem ops3_fresh : (ops3 : List (HloOp τ sig (Elt F))).Forall fun op => op.fresh = ∅ := by
  simp only [List.Forall]; repeat' constructor
/-- The references stage 3 writes, in order. -/
abbrev ops3_W : List (Ref sig .tc) := [main_cst_1, main_v28, main_cst_2, main_v29, main_v30, main_c_3]
theorem ops3_writes : (ops3 : List (HloOp τ sig (Elt F))).Forall fun op => op.writes ⊆ (ops3_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 3 does not write keeps its contents through it. -/
theorem ops3_keep (V : Valuation τ sig (Elt F)) (r : Ref sig .tc) (h : r ∉ ops3_W) :
    StableHlo.after ops3 V (Proc.devRef .tc r) = V (Proc.devRef .tc r) :=
  StableHlo.after_of_writes_sub ops3 V ops3_writes h

theorem ops4_sub : (ops4 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem ops4_fresh : (ops4 : List (HloOp τ sig (Elt F))).Forall fun op => op.fresh = ∅ := by
  simp only [List.Forall]; repeat' constructor
/-- The references stage 4 writes, in order. -/
abbrev ops4_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v31]
theorem ops4_writes : (ops4 : List (HloOp τ sig (Elt F))).Forall fun op => op.writes ⊆ (ops4_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 4 does not write keeps its contents through it. -/
theorem ops4_keep (V : Valuation τ sig (Elt F)) (r : Ref sig .tc) (h : r ∉ ops4_W) :
    StableHlo.after ops4 V (Proc.devRef .tc r) = V (Proc.devRef .tc r) :=
  StableHlo.after_of_writes_sub ops4 V ops4_writes h

theorem ops5_sub : (ops5 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops5_fresh : (ops5 : List (HloOp τ sig (Elt F))).Forall fun op => op.fresh = ∅ := by
  simp only [List.Forall]; repeat' constructor
/-- The references stage 5 writes, in order. -/
abbrev ops5_W : List (Ref sig .tc) := [main_v32, main_v33, main_v34, main_cst_4, main_v35, main_v36, main_v37, main_v38, main_v39, main_v40, main_v41, main_v42, main_v43, main_v44, main_v45, main_v46]
theorem ops5_writes : (ops5 : List (HloOp τ sig (Elt F))).Forall fun op => op.writes ⊆ (ops5_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 5 does not write keeps its contents through it. -/
theorem ops5_keep (V : Valuation τ sig (Elt F)) (r : Ref sig .tc) (h : r ∉ ops5_W) :
    StableHlo.after ops5 V (Proc.devRef .tc r) = V (Proc.devRef .tc r) :=
  StableHlo.after_of_writes_sub ops5 V ops5_writes h

theorem ops6_sub : (ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem ops6_fresh : (ops6 : List (HloOp τ sig (Elt F))).Forall fun op => op.fresh = ∅ := by
  simp only [List.Forall]; repeat' constructor
/-- The references stage 6 writes, in order. -/
abbrev ops6_W : List (Ref sig .tc) := [main_c_5, main_v47, main_v48, main_c_6, main_v49, main_v50, main_v51, main_v52]
theorem ops6_writes : (ops6 : List (HloOp τ sig (Elt F))).Forall fun op => op.writes ⊆ (ops6_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 6 does not write keeps its contents through it. -/
theorem ops6_keep (V : Valuation τ sig (Elt F)) (r : Ref sig .tc) (h : r ∉ ops6_W) :
    StableHlo.after ops6 V (Proc.devRef .tc r) = V (Proc.devRef .tc r) :=
  StableHlo.after_of_writes_sub ops6 V ops6_writes h

theorem ops7_sub : (ops7 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub ..⟩
theorem ops7_fresh : (ops7 : List (HloOp τ sig (Elt F))).Forall fun op => op.fresh = ∅ := by
  simp only [List.Forall]; repeat' constructor
/-- The references stage 7 writes, in order. -/
abbrev ops7_W : List (Ref sig .tc) := [main_v53, main_v54, main_v55, main_v56, main_cst_7, main_v57, main_v58, main_v59, main_v60]
theorem ops7_writes : (ops7 : List (HloOp τ sig (Elt F))).Forall fun op => op.writes ⊆ (ops7_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 7 does not write keeps its contents through it. -/
theorem ops7_keep (V : Valuation τ sig (Elt F)) (r : Ref sig .tc) (h : r ∉ ops7_W) :
    StableHlo.after ops7 V (Proc.devRef .tc r) = V (Proc.devRef .tc r) :=
  StableHlo.after_of_writes_sub ops7 V ops7_writes h

theorem ops8_sub : (ops8 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem ops8_fresh : (ops8 : List (HloOp τ sig (Elt F))).Forall fun op => op.fresh = ∅ := by
  simp only [List.Forall]; repeat' constructor
/-- The references stage 8 writes, in order. -/
abbrev ops8_W : List (Ref sig .tc) := [main_v61, main_v62, main_v63, main_v64, main_call3_cst, main_call3_v0, main_v65, main_v66, main_v67, main_v68, main_v69, main_call4_cst, main_call4_v0, main_v70]
theorem ops8_writes : (ops8 : List (HloOp τ sig (Elt F))).Forall fun op => op.writes ⊆ (ops8_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 8 does not write keeps its contents through it. -/
theorem ops8_keep (V : Valuation τ sig (Elt F)) (r : Ref sig .tc) (h : r ∉ ops8_W) :
    StableHlo.after ops8 V (Proc.devRef .tc r) = V (Proc.devRef .tc r) :=
  StableHlo.after_of_writes_sub ops8 V ops8_writes h

theorem ops9_sub : (ops9 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
theorem ops9_fresh : (ops9 : List (HloOp τ sig (Elt F))).Forall fun op => op.fresh = ∅ := by
  simp only [List.Forall]; repeat' constructor
/-- The references stage 9 writes, in order. -/
abbrev ops9_W : List (Ref sig .tc) := [main_cst_8, main_v71, main_cst_9, main_v72, main_v73, main_c_10]
theorem ops9_writes : (ops9 : List (HloOp τ sig (Elt F))).Forall fun op => op.writes ⊆ (ops9_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 9 does not write keeps its contents through it. -/
theorem ops9_keep (V : Valuation τ sig (Elt F)) (r : Ref sig .tc) (h : r ∉ ops9_W) :
    StableHlo.after ops9 V (Proc.devRef .tc r) = V (Proc.devRef .tc r) :=
  StableHlo.after_of_writes_sub ops9 V ops9_writes h

theorem ops10_sub : (ops10 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem ops10_fresh : (ops10 : List (HloOp τ sig (Elt F))).Forall fun op => op.fresh = ∅ := by
  simp only [List.Forall]; repeat' constructor
/-- The references stage 10 writes, in order. -/
abbrev ops10_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v74]
theorem ops10_writes : (ops10 : List (HloOp τ sig (Elt F))).Forall fun op => op.writes ⊆ (ops10_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 10 does not write keeps its contents through it. -/
theorem ops10_keep (V : Valuation τ sig (Elt F)) (r : Ref sig .tc) (h : r ∉ ops10_W) :
    StableHlo.after ops10 V (Proc.devRef .tc r) = V (Proc.devRef .tc r) :=
  StableHlo.after_of_writes_sub ops10 V ops10_writes h

theorem ops11_sub : (ops11 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops11_fresh : (ops11 : List (HloOp τ sig (Elt F))).Forall fun op => op.fresh = ∅ := by
  simp only [List.Forall]; repeat' constructor
/-- The references stage 11 writes, in order. -/
abbrev ops11_W : List (Ref sig .tc) := [main_v75, main_v76, main_v77, main_cst_11, main_v78, main_v79, main_v80, main_v81, main_v82, main_v83, main_v84, main_v85, main_v86, main_v87, main_v88, main_v89]
theorem ops11_writes : (ops11 : List (HloOp τ sig (Elt F))).Forall fun op => op.writes ⊆ (ops11_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 11 does not write keeps its contents through it. -/
theorem ops11_keep (V : Valuation τ sig (Elt F)) (r : Ref sig .tc) (h : r ∉ ops11_W) :
    StableHlo.after ops11 V (Proc.devRef .tc r) = V (Proc.devRef .tc r) :=
  StableHlo.after_of_writes_sub ops11 V ops11_writes h

theorem ops12_sub : (ops12 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem ops12_fresh : (ops12 : List (HloOp τ sig (Elt F))).Forall fun op => op.fresh = ∅ := by
  simp only [List.Forall]; repeat' constructor
/-- The references stage 12 writes, in order. -/
abbrev ops12_W : List (Ref sig .tc) := [main_c_12, main_v90, main_v91, main_c_13, main_v92, main_v93, main_v94, main_v95]
theorem ops12_writes : (ops12 : List (HloOp τ sig (Elt F))).Forall fun op => op.writes ⊆ (ops12_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 12 does not write keeps its contents through it. -/
theorem ops12_keep (V : Valuation τ sig (Elt F)) (r : Ref sig .tc) (h : r ∉ ops12_W) :
    StableHlo.after ops12 V (Proc.devRef .tc r) = V (Proc.devRef .tc r) :=
  StableHlo.after_of_writes_sub ops12 V ops12_writes h

theorem ops13_sub : (ops13 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub ..⟩
theorem ops13_fresh : (ops13 : List (HloOp τ sig (Elt F))).Forall fun op => op.fresh = ∅ := by
  simp only [List.Forall]; repeat' constructor
/-- The references stage 13 writes, in order. -/
abbrev ops13_W : List (Ref sig .tc) := [main_v96, main_v97, main_v98, main_v99, main_cst_14, main_v100, main_v101, main_v102, main_v103]
theorem ops13_writes : (ops13 : List (HloOp τ sig (Elt F))).Forall fun op => op.writes ⊆ (ops13_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 13 does not write keeps its contents through it. -/
theorem ops13_keep (V : Valuation τ sig (Elt F)) (r : Ref sig .tc) (h : r ∉ ops13_W) :
    StableHlo.after ops13 V (Proc.devRef .tc r) = V (Proc.devRef .tc r) :=
  StableHlo.after_of_writes_sub ops13 V ops13_writes h

theorem ops14_sub : (ops14 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem ops14_fresh : (ops14 : List (HloOp τ sig (Elt F))).Forall fun op => op.fresh = ∅ := by
  simp only [List.Forall]; repeat' constructor
/-- The references stage 14 writes, in order. -/
abbrev ops14_W : List (Ref sig .tc) := [main_v104, main_v105, main_v106, main_v107, main_call6_cst, main_call6_v0, main_v108, main_v109, main_v110, main_v111, main_v112, main_call7_cst, main_call7_v0, main_v113]
theorem ops14_writes : (ops14 : List (HloOp τ sig (Elt F))).Forall fun op => op.writes ⊆ (ops14_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 14 does not write keeps its contents through it. -/
theorem ops14_keep (V : Valuation τ sig (Elt F)) (r : Ref sig .tc) (h : r ∉ ops14_W) :
    StableHlo.after ops14 V (Proc.devRef .tc r) = V (Proc.devRef .tc r) :=
  StableHlo.after_of_writes_sub ops14 V ops14_writes h

theorem ops15_sub : (ops15 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
theorem ops15_fresh : (ops15 : List (HloOp τ sig (Elt F))).Forall fun op => op.fresh = ∅ := by
  simp only [List.Forall]; repeat' constructor
/-- The references stage 15 writes, in order. -/
abbrev ops15_W : List (Ref sig .tc) := [main_cst_15, main_v114, main_cst_16, main_v115, main_v116, main_c_17]
theorem ops15_writes : (ops15 : List (HloOp τ sig (Elt F))).Forall fun op => op.writes ⊆ (ops15_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 15 does not write keeps its contents through it. -/
theorem ops15_keep (V : Valuation τ sig (Elt F)) (r : Ref sig .tc) (h : r ∉ ops15_W) :
    StableHlo.after ops15 V (Proc.devRef .tc r) = V (Proc.devRef .tc r) :=
  StableHlo.after_of_writes_sub ops15 V ops15_writes h

theorem ops16_sub : (ops16 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem ops16_fresh : (ops16 : List (HloOp τ sig (Elt F))).Forall fun op => op.fresh = ∅ := by
  simp only [List.Forall]; repeat' constructor
/-- The references stage 16 writes, in order. -/
abbrev ops16_W : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v117]
theorem ops16_writes : (ops16 : List (HloOp τ sig (Elt F))).Forall fun op => op.writes ⊆ (ops16_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 16 does not write keeps its contents through it. -/
theorem ops16_keep (V : Valuation τ sig (Elt F)) (r : Ref sig .tc) (h : r ∉ ops16_W) :
    StableHlo.after ops16 V (Proc.devRef .tc r) = V (Proc.devRef .tc r) :=
  StableHlo.after_of_writes_sub ops16 V ops16_writes h

theorem ops17_sub : (ops17 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops17_fresh : (ops17 : List (HloOp τ sig (Elt F))).Forall fun op => op.fresh = ∅ := by
  simp only [List.Forall]; repeat' constructor
/-- The references stage 17 writes, in order. -/
abbrev ops17_W : List (Ref sig .tc) := [main_v118, main_v119, main_v120, main_cst_18, main_v121, main_v122, main_v123, main_v124, main_v125, main_v126, main_v127, main_v128, main_v129, main_v130, main_v131, main_v132]
theorem ops17_writes : (ops17 : List (HloOp τ sig (Elt F))).Forall fun op => op.writes ⊆ (ops17_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 17 does not write keeps its contents through it. -/
theorem ops17_keep (V : Valuation τ sig (Elt F)) (r : Ref sig .tc) (h : r ∉ ops17_W) :
    StableHlo.after ops17 V (Proc.devRef .tc r) = V (Proc.devRef .tc r) :=
  StableHlo.after_of_writes_sub ops17 V ops17_writes h

theorem ops18_sub : (ops18 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub ..⟩
theorem ops18_fresh : (ops18 : List (HloOp τ sig (Elt F))).Forall fun op => op.fresh = ∅ := by
  simp only [List.Forall]; repeat' constructor
/-- The references stage 18 writes, in order. -/
abbrev ops18_W : List (Ref sig .tc) := [main_cst_19, main_v133, main_v134, main_v135, main_cst_20, main_v136, main_v137, main_v138, main_cst_21, main_v139, main_v140, main_v141]
theorem ops18_writes : (ops18 : List (HloOp τ sig (Elt F))).Forall fun op => op.writes ⊆ (ops18_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩
/-- A reference stage 18 does not write keeps its contents through it. -/
theorem ops18_keep (V : Valuation τ sig (Elt F)) (r : Ref sig .tc) (h : r ∉ ops18_W) :
    StableHlo.after ops18 V (Proc.devRef .tc r) = V (Proc.devRef .tc r) :=
  StableHlo.after_of_writes_sub ops18 V ops18_writes h

theorem ops19_sub : (ops19 : List (HloOp τ sig (Elt F))).Forall fun op => op.bufs ⊆ StableHlo.tcRefs τ sig :=
  StableHlo.nary_bufs_sub ..
theorem ops19_fresh : (ops19 : List (HloOp τ sig (Elt F))).Forall fun op => op.fresh = ∅ := by
  simp only [List.Forall]; repeat' constructor
/-- The references stage 19 writes, in order. -/
abbrev ops19_W : List (Ref sig .tc) := [main_v142]
theorem ops19_writes : (ops19 : List (HloOp τ sig (Elt F))).Forall fun op => op.writes ⊆ (ops19_W.map (Proc.devRef (τ := τ) .tc)).toFinset := by
  simp only [List.Forall]
  exact (by simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference stage 19 does not write keeps its contents through it. -/
theorem ops19_keep (V : Valuation τ sig (Elt F)) (r : Ref sig .tc) (h : r ∉ ops19_W) :
    StableHlo.after ops19 V (Proc.devRef .tc r) = V (Proc.devRef .tc r) :=
  StableHlo.after_of_writes_sub ops19 V ops19_writes h

/-! ## The whole line -/

/-- A property of every element of two lists holds of every element of their concatenation. -/
theorem forall_append {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

/-- Two lines that each keep every reference outside their written lists: so does the one after the other,
    outside both lists. -/
theorem keep_append {l₁ l₂ : List (HloOp τ sig (Elt F))} {W₁ W₂ : List (Ref sig .tc)}
    (k₁ : ∀ (V : Valuation τ sig (Elt F)) (r : Ref sig .tc), r ∉ W₁ → StableHlo.after l₁ V (Proc.devRef .tc r) = V (Proc.devRef .tc r))
    (k₂ : ∀ (V : Valuation τ sig (Elt F)) (r : Ref sig .tc), r ∉ W₂ → StableHlo.after l₂ V (Proc.devRef .tc r) = V (Proc.devRef .tc r))
    (V : Valuation τ sig (Elt F)) (r : Ref sig .tc) (h : r ∉ W₁ ++ W₂) :
    StableHlo.after (l₁ ++ l₂) V (Proc.devRef .tc r) = V (Proc.devRef .tc r) := by
  rw [StableHlo.after_append, k₂ _ r fun h' => h (List.mem_append_right _ h'), k₁ V r fun h' => h (List.mem_append_left _ h')]

/-- The references @main writes, in order: every buffer but the twenty-two arguments'. -/
abbrev ops_W : List (Ref sig .tc) :=
  ops0_W ++ ops1_W ++ ops2_W ++ ops3_W ++ ops4_W ++ ops5_W ++ ops6_W ++ ops7_W ++ ops8_W ++ ops9_W ++ ops10_W ++ ops11_W ++ ops12_W ++ ops13_W ++ ops14_W ++ ops15_W ++ ops16_W ++ ops17_W ++ ops18_W ++ ops19_W

/-- The fold over @main's operations is the stages' folds composed, the first stage innermost. -/
theorem after_ops (V : Valuation τ sig (Elt F)) :
    StableHlo.after ops V = StableHlo.after ops19 (StableHlo.after ops18 (StableHlo.after ops17 (StableHlo.after ops16 (StableHlo.after ops15 (StableHlo.after ops14 (StableHlo.after ops13 (StableHlo.after ops12 (StableHlo.after ops11 (StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 (V)))))))))))))))))))) := by
  simp only [ops, StableHlo.after_append]

/-- A reference @main does not write — an argument's — keeps its contents through the whole line. -/
theorem ops_keep (V : Valuation τ sig (Elt F)) (r : Ref sig .tc) (h : r ∉ ops_W) :
    StableHlo.after ops V (Proc.devRef .tc r) = V (Proc.devRef .tc r) :=
  keep_append (keep_append (keep_append (keep_append (keep_append (keep_append (keep_append (keep_append (keep_append (keep_append (keep_append (keep_append (keep_append (keep_append (keep_append (keep_append (keep_append (keep_append (keep_append ops0_keep ops1_keep) ops2_keep) ops3_keep) ops4_keep) ops5_keep) ops6_keep) ops7_keep) ops8_keep) ops9_keep) ops10_keep) ops11_keep) ops12_keep) ops13_keep) ops14_keep) ops15_keep) ops16_keep) ops17_keep) ops18_keep) ops19_keep V r h

variable (m : (ℓ : Loc nD τ sig) → Buf (Elt F) ℓ)

/-- What device `c`'s buffers hold once @main has run from the memory `m`: the fold of its operations over the
    launch contents. -/
abbrev Wend (c : Dev nD) : Valuation τ sig (Elt F) := StableHlo.after ops (fun b => m (c, b))

end Cert.ReferenceIdeal.Hand

end
-- ==== Proof.RefRun.lean ====
/-
  The reference's run: @main is the straight line `ops` (definitional unfolding: the windows in order, each call its
  body over the call's buffers), the signature scopes no TensorCore buffer and no semaphore, so from any memory with
  zero counters every weakly fair execution terminates with each TensorCore buffer at the fold of the operations
  over the launch contents (`Wend`); an argument's buffer is written by no operation, so it ends as it began.
-/
import proofs.«429418_j73830487818378_3_alg».proof.Proof.RefRun0
import Idealize.ShloMosaic.Lib.Pipeline.Regions

noncomputable section

namespace Cert.ReferenceIdeal.Hand

open Cert.ReferenceIdeal Cert.ReferenceIdeal.Gen Idealize.ShloMosaic Idealize.SL.Sem

variable {F : FTy → Type} [FloatOps F]

-- `List.Forall` over the two hundred and forty-two operations stays folded: the facts below combine the stages' facts
-- (`forall_append`) and hand them on whole; none looks inside the conjunction it abbreviates
attribute [local irreducible] List.Forall

/-- Every operation of @main touches TensorCore references only: stage by stage. -/
theorem ops_sub : (ops : List (HloOp τ sig (Elt F))).Forall fun op => op.bufs ⊆ StableHlo.tcRefs τ sig := by
  unfold ops
  exact forall_append (forall_append (forall_append (forall_append (forall_append (forall_append (forall_append
    (forall_append (forall_append (forall_append (forall_append (forall_append (forall_append (forall_append
    (forall_append (forall_append (forall_append (forall_append (forall_append
      ops0_sub ops1_sub) ops2_sub) ops3_sub) ops4_sub) ops5_sub) ops6_sub) ops7_sub) ops8_sub) ops9_sub) ops10_sub)
      ops11_sub) ops12_sub) ops13_sub) ops14_sub) ops15_sub) ops16_sub) ops17_sub) ops18_sub) ops19_sub

/-- Every operation of @main determines what it writes: stage by stage. -/
theorem ops_fresh : ∀ op ∈ (ops : List (HloOp τ sig (Elt F))), op.fresh = ∅ := by
  unfold ops
  exact List.forall_iff_forall_mem.mp
    (forall_append (forall_append (forall_append (forall_append (forall_append (forall_append (forall_append
    (forall_append (forall_append (forall_append (forall_append (forall_append (forall_append (forall_append
    (forall_append (forall_append (forall_append (forall_append (forall_append
      ops0_fresh ops1_fresh) ops2_fresh) ops3_fresh) ops4_fresh) ops5_fresh) ops6_fresh) ops7_fresh) ops8_fresh) ops9_fresh)
      ops10_fresh) ops11_fresh) ops12_fresh) ops13_fresh) ops14_fresh) ops15_fresh) ops16_fresh) ops17_fresh) ops18_fresh)
      ops19_fresh)

/-- @main is that straight line: its three windows in order, `@relu`, `@_var` and `@_where` unfolded at their calls
    over the calls' records; both sides are one chain of `hlo` steps by computation. -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ) (ρ : Dev nD → PrngReg)

/-- A buffer no operation writes — an argument's — holds at the end what the launch gave it. -/
theorem Wend_keep (c : Dev nD) (r : Ref sig .tc) (h : r ∉ ops_W) :
    Wend m c (Proc.devRef .tc r) = m ((c.tc : Thread nD τ).loc r) :=
  ops_keep _ r h

/-- From any memory with zero counters every weakly fair execution of @main terminates, and every TensorCore
    buffer of every device ends at the fold of the operations over the launch contents. -/
theorem run_all :
    θ_run defs (onTc (τ := τ) (main (F := F))) ⟨m, fun _ => 0, ρ⟩ (fun r =>
      ∀ (c : Dev nD) (b : Ref sig .tc), r.2.mem ((c.tc : Thread nD τ).loc b) = Wend m c (Proc.devRef .tc b)) :=
  StableHlo.run_seq scopedRefs_eq scopedSems_eq defs main (fun _ => ops) main_eq (fun _ => ops_sub) m ρ (fun _ => ops_fresh)

/-- The same read at the two results and the twenty-two arguments: the results at the fold, the arguments unchanged. -/
theorem run :
    θ_run defs (onTc (τ := τ) (main (F := F))) ⟨m, fun _ => 0, ρ⟩ (fun r => ∀ c : Dev nD,
      r.2.mem ((c.tc : Thread nD τ).loc main_v132) = Wend m c (Proc.devRef .tc main_v132)
      ∧ r.2.mem ((c.tc : Thread nD τ).loc main_v142) = Wend m c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨h c main_v132, h c main_v142,
      (h c main_arg0).trans (Wend_keep m c main_arg0 (by decide)),
      (h c main_arg1).trans (Wend_keep m c main_arg1 (by decide)),
      (h c main_arg2).trans (Wend_keep m c main_arg2 (by decide)),
      (h c main_arg3).trans (Wend_keep m c main_arg3 (by decide)),
      (h c main_arg4).trans (Wend_keep m c main_arg4 (by decide)),
      (h c main_arg5).trans (Wend_keep m c main_arg5 (by decide)),
      (h c main_arg6).trans (Wend_keep m c main_arg6 (by decide)),
      (h c main_arg7).trans (Wend_keep m c main_arg7 (by decide)),
      (h c main_arg8).trans (Wend_keep m c main_arg8 (by decide)),
      (h c main_arg9).trans (Wend_keep m c main_arg9 (by decide)),
      (h c main_arg10).trans (Wend_keep m c main_arg10 (by decide)),
      (h c main_arg11).trans (Wend_keep m c main_arg11 (by decide)),
      (h c main_arg12).trans (Wend_keep m c main_arg12 (by decide)),
      (h c main_arg13).trans (Wend_keep m c main_arg13 (by decide)),
      (h c main_arg14).trans (Wend_keep m c main_arg14 (by decide)),
      (h c main_arg15).trans (Wend_keep m c main_arg15 (by decide)),
      (h c main_arg16).trans (Wend_keep m c main_arg16 (by decide)),
      (h c main_arg17).trans (Wend_keep m c main_arg17 (by decide)),
      (h c main_arg18).trans (Wend_keep m c main_arg18 (by decide)),
      (h c main_arg19).trans (Wend_keep m c main_arg19 (by decide)),
      (h c main_arg20).trans (Wend_keep m c main_arg20 (by decide)),
      (h c main_arg21).trans (Wend_keep m c main_arg21 (by decide))⟩)
    (run_all m ρ)

/-- @main runs and leaves its arguments as they were. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => (h c).2.2) (run m ρ)

end Cert.ReferenceIdeal.Hand

end
-- ==== Proof.LibERealFin.lean ====
/-
  Finiteness on the extended reals.  A value is finite when it is neither of the two infinities; the finite values
  are exactly the coercions of real numbers, and they are closed under addition, subtraction, negation,
  multiplication, the maximum of two values and finite sums.  On finite values the extended reals' arithmetic is the
  reals' (the coercion commutes with each operation), which is what lets an identity that needs distributivity be
  proved in the reals and carried back.
-/
import Mathlib.Data.EReal.Operations
import Mathlib.Data.EReal.Inv
import Mathlib.Algebra.BigOperators.Group.Finset.Basic

namespace Cert.Lib.EFin

open scoped BigOperators

/-- A finite extended real: neither `⊥` nor `⊤`. -/
def IsFin (x : EReal) : Prop := x ≠ ⊥ ∧ x ≠ ⊤

/-- A real number, read as an extended real, is finite. -/
theorem isFin_coe (r : ℝ) : IsFin (r : EReal) := ⟨EReal.coe_ne_bot r, EReal.coe_ne_top r⟩

/-- A finite value is the coercion of its real part. -/
theorem IsFin.coe_toReal {x : EReal} (h : IsFin x) : ((x.toReal : ℝ) : EReal) = x :=
  EReal.coe_toReal h.2 h.1

/-- The finite values are exactly the coercions of reals. -/
theorem isFin_iff_exists {x : EReal} : IsFin x ↔ ∃ r : ℝ, x = (r : EReal) :=
  ⟨fun h => ⟨x.toReal, h.coe_toReal.symm⟩, fun ⟨r, hr⟩ => hr ▸ isFin_coe r⟩

theorem isFin_zero : IsFin (0 : EReal) := by
  rw [← EReal.coe_zero]; exact isFin_coe 0

theorem isFin_one : IsFin (1 : EReal) := by
  rw [← EReal.coe_one]; exact isFin_coe 1

theorem IsFin.add {x y : EReal} (hx : IsFin x) (hy : IsFin y) : IsFin (x + y) := by
  obtain ⟨a, rfl⟩ := isFin_iff_exists.1 hx
  obtain ⟨b, rfl⟩ := isFin_iff_exists.1 hy
  rw [← EReal.coe_add]; exact isFin_coe _

theorem IsFin.neg {x : EReal} (hx : IsFin x) : IsFin (-x) := by
  obtain ⟨a, rfl⟩ := isFin_iff_exists.1 hx
  rw [← EReal.coe_neg]; exact isFin_coe _

theorem IsFin.sub {x y : EReal} (hx : IsFin x) (hy : IsFin y) : IsFin (x - y) := by
  obtain ⟨a, rfl⟩ := isFin_iff_exists.1 hx
  obtain ⟨b, rfl⟩ := isFin_iff_exists.1 hy
  rw [← EReal.coe_sub]; exact isFin_coe _

theorem IsFin.mul {x y : EReal} (hx : IsFin x) (hy : IsFin y) : IsFin (x * y) := by
  obtain ⟨a, rfl⟩ := isFin_iff_exists.1 hx
  obtain ⟨b, rfl⟩ := isFin_iff_exists.1 hy
  rw [← EReal.coe_mul]; exact isFin_coe _

/-- The maximum of two finite values is one of them, so it is finite. -/
theorem IsFin.max {x y : EReal} (hx : IsFin x) (hy : IsFin y) : IsFin (max x y) := by
  rcases max_choice x y with h | h <;> rw [h] <;> assumption

/-- A finite sum of finite values is finite. -/
theorem IsFin.sum {ι : Type*} (s : Finset ι) (f : ι → EReal) (h : ∀ i ∈ s, IsFin (f i)) :
    IsFin (∑ i ∈ s, f i) := by
  classical
  induction s using Finset.induction_on with
  | empty => rw [Finset.sum_empty]; exact isFin_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of finite values is the coercion of the sum of their real parts. -/
theorem sum_eq_coe {ι : Type*} (s : Finset ι) (f : ι → EReal) (h : ∀ i ∈ s, IsFin (f i)) :
    ∑ i ∈ s, f i = ((∑ i ∈ s, (f i).toReal : ℝ) : EReal) := by
  rw [coe_sum]
  exact Finset.sum_congr rfl fun i hi => (h i hi).coe_toReal.symm

/-- Clamping a non-negative value at zero from below changes nothing. -/
theorem max_zero_of_nonneg {x : EReal} (h : 0 ≤ x) : max x 0 = x := max_eq_left h

end Cert.Lib.EFin
-- ==== Proof.LibGinAlg.lean ====
/-
  The algebraic identities that join two spellings of one graph network's arithmetic, on the extended reals.
  Each is a scalar identity at one output index, its sums over an arbitrary finite index set.  The extended reals
  are not a ring (distributivity fails at the infinities), so every value an identity distributes over is assumed
  finite; the proof lifts each finite value to the real it is the coercion of, pushes the coercion out through every
  operation and every finite sum, and closes the identity in the reals.

    * `bn_fold`        a normalisation's affine map carried through the next layer's weighted neighbour sum: the
                        sum of the mapped values is the affine map's slope times the sum of the raw values plus its
                        intercept times the sum of the weights.
    * `first_layer`    the map with slope one and intercept zero is the identity (no finiteness: `0 * z = 0` for
                        every extended real `z`).
    * `var_two_forms`  the variance as the mean of the squares minus the square of the mean, clamped at zero from
                        below, is the mean of the squared deviations: the second is non-negative, so the clamp is
                        the identity.
    * `pool_bn`        summing a group's members after the affine map is the affine map applied to the group's
                        sum, the group's size multiplying the shift and the intercept.
-/
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Tactic.Ring
import Mathlib.Tactic.FieldSimp
import Mathlib.Tactic.Linarith
import Mathlib.Tactic.Positivity
import Mathlib.Tactic.NormNum
import proofs.«429418_j73830487818378_3_alg».proof.Proof.LibERealFin

namespace Cert.Lib.GinAlg

open scoped BigOperators
open Cert.Lib.EFin

/-! ## Lifting a family of finite values to a family of reals -/

/-- A family finite on a finite set is, on that set, the coercion of a real family. -/
theorem exists_real_fun {ι : Type*} (s : Finset ι) (f : ι → EReal) (h : ∀ i ∈ s, IsFin (f i)) :
    ∃ g : ι → ℝ, ∀ i ∈ s, f i = (g i : EReal) :=
  ⟨fun i => (f i).toReal, fun i hi => (h i hi).coe_toReal.symm⟩

/-- A sum whose terms are, on the index set, coercions of reals is the coercion of the real sum. -/
theorem sum_eq_coe_of {ι : Type*} (s : Finset ι) (F : ι → EReal) (g : ι → ℝ)
    (h : ∀ i ∈ s, F i = (g i : EReal)) : ∑ i ∈ s, F i = ((∑ i ∈ s, g i : ℝ) : EReal) := by
  rw [coe_sum]; exact Finset.sum_congr rfl h

/-- The sum of ones over a finite set is the coercion of its size. -/
theorem sum_one_eq_coe {ι : Type*} (s : Finset ι) : ∑ _i ∈ s, (1 : EReal) = ((s.card : ℝ) : EReal) := by
  have h1 : ∑ _i ∈ s, (1 : EReal) = ((∑ _i ∈ s, (1 : ℝ) : ℝ) : EReal) :=
    sum_eq_coe_of s _ _ fun _ _ => EReal.coe_one.symm
  rw [h1, Finset.sum_const, nsmul_eq_mul, mul_one]

/-! ## The normalisation's affine map through a weighted neighbour sum -/

theorem bn_fold {ε : Type*} (H : Finset ε) (raw μ inv γ β : EReal) (rawAt ew : ε → EReal)
    (hraw : IsFin raw) (hμ : IsFin μ) (hinv : IsFin inv) (hγ : IsFin γ) (hβ : IsFin β)
    (hrawAt : ∀ e ∈ H, IsFin (rawAt e)) (hew : ∀ e ∈ H, IsFin (ew e)) :
    (((raw - μ) * inv) * γ + β) + (0 + ∑ e ∈ H, ((((rawAt e - μ) * inv) * γ + β) * ew e))
      = (inv * γ) * (raw + (0 + ∑ e ∈ H, rawAt e * ew e))
        + (β - μ * (inv * γ)) * (1 + (0 + ∑ e ∈ H, ew e)) := by
  obtain ⟨r, rfl⟩ := isFin_iff_exists.1 hraw
  obtain ⟨m, rfl⟩ := isFin_iff_exists.1 hμ
  obtain ⟨k, rfl⟩ := isFin_iff_exists.1 hinv
  obtain ⟨g, rfl⟩ := isFin_iff_exists.1 hγ
  obtain ⟨b, rfl⟩ := isFin_iff_exists.1 hβ
  obtain ⟨a, ha⟩ := exists_real_fun H rawAt hrawAt
  obtain ⟨w, hw⟩ := exists_real_fun H ew hew
  -- each of the three sums is the coercion of a real sum
  have s1 : ∑ e ∈ H, ((((rawAt e - (m : EReal)) * k) * g + b) * ew e)
      = ((∑ e ∈ H, (((a e - m) * k) * g + b) * w e : ℝ) : EReal) :=
    sum_eq_coe_of H _ _ fun e he => by
      rw [ha e he, hw e he]; simp only [EReal.coe_add, EReal.coe_mul, EReal.coe_sub]
  have s2 : ∑ e ∈ H, rawAt e * ew e = ((∑ e ∈ H, a e * w e : ℝ) : EReal) :=
    sum_eq_coe_of H _ _ fun e he => by rw [ha e he, hw e he, EReal.coe_mul]
  have s3 : ∑ e ∈ H, ew e = ((∑ e ∈ H, w e : ℝ) : EReal) := sum_eq_coe_of H _ _ hw
  rw [s1, s2, s3]
  -- the identity in the reals: the slope and the intercept come out of the sum
  have key : (((r - m) * k) * g + b) + (0 + ∑ e ∈ H, (((a e - m) * k) * g + b) * w e)
      = (k * g) * (r + (0 + ∑ e ∈ H, a e * w e)) + (b - m * (k * g)) * (1 + (0 + ∑ e ∈ H, w e)) := by
    have hterm : ∀ e, (((a e - m) * k) * g + b) * w e = (k * g) * (a e * w e) + (b - m * (k * g)) * w e :=
      fun e => by ring
    simp only [hterm, Finset.sum_add_distrib, ← Finset.mul_sum]
    ring
  exact_mod_cast key

/-- Both sides of `bn_fold` are finite. -/
theorem bn_fold_isFin {ε : Type*} (H : Finset ε) (raw μ inv γ β : EReal) (rawAt ew : ε → EReal)
    (hraw : IsFin raw) (hμ : IsFin μ) (hinv : IsFin inv) (hγ : IsFin γ) (hβ : IsFin β)
    (hrawAt : ∀ e ∈ H, IsFin (rawAt e)) (hew : ∀ e ∈ H, IsFin (ew e)) :
    IsFin ((inv * γ) * (raw + (0 + ∑ e ∈ H, rawAt e * ew e))
        + (β - μ * (inv * γ)) * (1 + (0 + ∑ e ∈ H, ew e))) := by
  exact ((hinv.mul hγ).mul (hraw.add (isFin_zero.add
      (IsFin.sum H _ fun e he => (hrawAt e he).mul (hew e he))))).add
    ((hβ.sub (hμ.mul (hinv.mul hγ))).mul (isFin_one.add (isFin_zero.add (IsFin.sum H _ hew))))

/-! ## The first layer: slope one, intercept zero -/

theorem first_layer (y z : EReal) : 1 * y + 0 * z = y := by
  rw [one_mul, zero_mul, add_zero]

/-! ## The variance: two forms -/

/-- In the reals: the mean of the squared deviations from the mean is the mean of the squares minus the square of
    the mean (`c` the number of terms). -/
theorem var_real {ι : Type*} (s : Finset ι) (a : ι → ℝ) (c : ℝ) (hc : 0 < c) (hcard : (s.card : ℝ) = c) :
    (∑ i ∈ s, a i * a i) * (1 / c) - ((∑ i ∈ s, a i) * (1 / c)) * ((∑ i ∈ s, a i) * (1 / c))
      = (∑ i ∈ s, (a i - (∑ j ∈ s, a j) * (1 / c)) * (a i - (∑ j ∈ s, a j) * (1 / c))) * (1 / c) := by
  have hc' : c ≠ 0 := hc.ne'
  have hterm : ∀ (m : ℝ) (i : ι), (a i - m) * (a i - m) = a i * a i - (2 * m) * a i + m * m := fun m i => by ring
  simp only [hterm, Finset.sum_add_distrib, Finset.sum_sub_distrib, ← Finset.mul_sum, Finset.sum_const,
    nsmul_eq_mul, hcard]
  field_simp
  ring

/-- The mean of finite values is finite. -/
theorem mean_isFin {ι : Type*} (s : Finset ι) (h : ι → EReal) (c : ℝ) (hfin : ∀ i ∈ s, IsFin (h i)) :
    IsFin ((0 + ∑ i ∈ s, h i) * ((1 / c : ℝ) : EReal)) := by
  exact (isFin_zero.add (IsFin.sum s h hfin)).mul (isFin_coe _)

/-- The three extended-real sums of the variance, as coercions of real sums: the mean `μ`, the sum of the squares
    and the sum of the squared deviations. -/
theorem var_lift {ι : Type*} (s : Finset ι) (h : ι → EReal) (c : ℝ) (hfin : ∀ i ∈ s, IsFin (h i))
    (q μ : EReal) (hq : q = ((1 / c : ℝ) : EReal)) (hμ : μ = (0 + ∑ i ∈ s, h i) * q) :
    ∃ a : ι → ℝ, μ = (((∑ i ∈ s, a i) * (1 / c) : ℝ) : EReal)
      ∧ ∑ i ∈ s, h i * h i = ((∑ i ∈ s, a i * a i : ℝ) : EReal)
      ∧ ∑ i ∈ s, (h i - μ) * (h i - μ)
          = ((∑ i ∈ s, (a i - (∑ j ∈ s, a j) * (1 / c)) * (a i - (∑ j ∈ s, a j) * (1 / c)) : ℝ) : EReal) := by
  obtain ⟨a, ha⟩ := exists_real_fun s h hfin
  have hS : ∑ i ∈ s, h i = ((∑ i ∈ s, a i : ℝ) : EReal) := sum_eq_coe_of s _ _ ha
  have hμr : μ = (((∑ i ∈ s, a i) * (1 / c) : ℝ) : EReal) := by rw [hμ, hq, zero_add, hS, EReal.coe_mul]
  refine ⟨a, hμr, sum_eq_coe_of s _ _ fun i hi => by rw [ha i hi, EReal.coe_mul], ?_⟩
  rw [hμr]
  exact sum_eq_coe_of s _ _ fun i hi => by rw [ha i hi]; simp only [EReal.coe_mul, EReal.coe_sub]

/-- `var_nonneg` with the reciprocal `q` and the mean `μ` as variables. -/
theorem var_nonneg_aux {ι : Type*} (s : Finset ι) (h : ι → EReal) (c : ℝ) (hc : 0 < c)
    (hfin : ∀ i ∈ s, IsFin (h i)) (q μ : EReal) (hq : q = ((1 / c : ℝ) : EReal))
    (hμ : μ = (0 + ∑ i ∈ s, h i) * q) :
    0 ≤ (0 + ∑ i ∈ s, (h i - μ) * (h i - μ)) * q := by
  obtain ⟨a, -, -, hD⟩ := var_lift s h c hfin q μ hq hμ
  rw [hD, hq, zero_add, ← EReal.coe_mul, EReal.coe_nonneg]
  exact mul_nonneg (Finset.sum_nonneg fun i _ => mul_self_nonneg _) (by positivity)

/-- `var_two_forms` with the reciprocal `q` and the mean `μ` as variables. -/
theorem var_two_forms_aux {ι : Type*} (s : Finset ι) (h : ι → EReal) (c : ℝ) (hc : 0 < c)
    (hcard : (s.card : ℝ) = c) (hfin : ∀ i ∈ s, IsFin (h i)) (q μ : EReal)
    (hq : q = ((1 / c : ℝ) : EReal)) (hμ : μ = (0 + ∑ i ∈ s, h i) * q) :
    max ((0 + ∑ i ∈ s, h i * h i) * q - μ * μ) 0 = (0 + ∑ i ∈ s, (h i - μ) * (h i - μ)) * q := by
  have hnn := var_nonneg_aux s h c hc hfin q μ hq hμ
  obtain ⟨a, hμr, hQ, hD⟩ := var_lift s h c hfin q μ hq hμ
  -- the clamped side is the other side, which is non-negative
  have heq : (0 + ∑ i ∈ s, h i * h i) * q - μ * μ = (0 + ∑ i ∈ s, (h i - μ) * (h i - μ)) * q := by
    rw [hD, hQ, hq, zero_add, zero_add]
    rw [hμr, ← EReal.coe_mul, ← EReal.coe_mul, ← EReal.coe_mul, ← EReal.coe_sub, var_real s a c hc hcard]
  rw [heq]
  exact max_eq_left hnn

theorem var_two_forms {ι : Type*} (s : Finset ι) (h : ι → EReal) (c : ℝ) (hc : 0 < c)
    (hcard : (s.card : ℝ) = c) (hfin : ∀ i ∈ s, IsFin (h i)) :
    let q : EReal := ((1 / c : ℝ) : EReal)
    let μ := (0 + ∑ i ∈ s, h i) * q
    max ((0 + ∑ i ∈ s, h i * h i) * q - μ * μ) 0 = (0 + ∑ i ∈ s, (h i - μ) * (h i - μ)) * q := by
  intro q μ
  exact var_two_forms_aux s h c hc hcard hfin q μ rfl rfl

theorem var_nonneg {ι : Type*} (s : Finset ι) (h : ι → EReal) (c : ℝ) (hc : 0 < c)
    (hfin : ∀ i ∈ s, IsFin (h i)) :
    let q : EReal := ((1 / c : ℝ) : EReal)
    let μ := (0 + ∑ i ∈ s, h i) * q
    0 ≤ (0 + ∑ i ∈ s, (h i - μ) * (h i - μ)) * q := by
  intro q μ
  exact var_nonneg_aux s h c hc hfin q μ rfl rfl

theorem var_isFin {ι : Type*} (s : Finset ι) (h : ι → EReal) (c : ℝ)
    (hfin : ∀ i ∈ s, IsFin (h i)) :
    let q : EReal := ((1 / c : ℝ) : EReal)
    let μ := (0 + ∑ i ∈ s, h i) * q
    IsFin ((0 + ∑ i ∈ s, (h i - μ) * (h i - μ)) * q) := by
  intro q μ
  have hμ : IsFin μ := mean_isFin s h c hfin
  exact (isFin_zero.add (IsFin.sum s _ fun i hi => ((hfin i hi).sub hμ).mul ((hfin i hi).sub hμ))).mul
    (isFin_coe _)

/-! ## Pooling a group after the affine map -/

theorem pool_bn {ι : Type*} (G : Finset ι) (h : ι → EReal) (μ inv γ β : EReal)
    (hμ : IsFin μ) (hinv : IsFin inv) (hγ : IsFin γ) (hβ : IsFin β) (hfin : ∀ n ∈ G, IsFin (h n)) :
    0 + ∑ n ∈ G, (((h n - μ) * inv) * γ + β)
      = (((0 + ∑ n ∈ G, h n) - (0 + ∑ _n ∈ G, (1 : EReal)) * μ) * inv) * γ
        + (0 + ∑ _n ∈ G, (1 : EReal)) * β := by
  obtain ⟨m, rfl⟩ := isFin_iff_exists.1 hμ
  obtain ⟨k, rfl⟩ := isFin_iff_exists.1 hinv
  obtain ⟨g, rfl⟩ := isFin_iff_exists.1 hγ
  obtain ⟨b, rfl⟩ := isFin_iff_exists.1 hβ
  obtain ⟨a, ha⟩ := exists_real_fun G h hfin
  have s1 : ∑ n ∈ G, ((((h n - (m : EReal)) * k) * g + b))
      = ((∑ n ∈ G, (((a n - m) * k) * g + b) : ℝ) : EReal) :=
    sum_eq_coe_of G _ _ fun n hn => by
      rw [ha n hn]; simp only [EReal.coe_add, EReal.coe_mul, EReal.coe_sub]
  have s2 : ∑ n ∈ G, h n = ((∑ n ∈ G, a n : ℝ) : EReal) := sum_eq_coe_of G _ _ ha
  rw [s1, s2, sum_one_eq_coe]
  have key : 0 + ∑ n ∈ G, (((a n - m) * k) * g + b)
      = (((0 + ∑ n ∈ G, a n) - (0 + (G.card : ℝ)) * m) * k) * g + (0 + (G.card : ℝ)) * b := by
    have hterm : ∀ n, ((a n - m) * k) * g + b = (k * g) * a n + (b - m * (k * g)) := fun n => by ring
    simp only [hterm, Finset.sum_add_distrib, ← Finset.mul_sum, Finset.sum_const, nsmul_eq_mul]
    ring
  exact_mod_cast key

/-! ## Regrouping -/

theorem two_halves {M : Type*} [AddCommMonoid M] (a b : M) : 0 + a + b = a + b := by
  rw [zero_add]

/-- A sum over two disjoint halves, accumulated from zero one half after the other. -/
theorem sum_two_halves {ι M : Type*} [AddCommMonoid M] [DecidableEq ι] (s t : Finset ι) (hd : Disjoint s t)
    (f : ι → M) : 0 + ∑ i ∈ s, f i + ∑ i ∈ t, f i = ∑ i ∈ s ∪ t, f i := by
  rw [zero_add, Finset.sum_union hd]

end Cert.Lib.GinAlg
-- ==== Proof.IdealFin.lean ====
/-
  The ideal floats' operations on finite values, and the values of five single-precision bit patterns.
  An ideal float is an extended real.  A quotient by a nonzero real constant is the product with its reciprocal, so
  it keeps a finite value finite; the reciprocal square root of a finite positive value is the real `(√r)⁻¹`, finite
  and positive.  The patterns denote `0`, `1`, the real `50000` (the number of terms a mean divides by), a
  positive real (a variance's `ε ≈ 10⁻⁵`, exactly `10995116 · 2⁻⁴⁰`), and, for the quiet not-a-number, `⊥`.
-/
import Idealize.ShloMosaic.PureOps.Ideal
import proofs.«429418_j73830487818378_3_alg».proof.Proof.LibERealFin

noncomputable section

namespace Cert.Lib.IdealFin

open Idealize.ShloMosaic Cert.Lib.EFin

/-! ## The quotient by a nonzero real -/

/-- The quotient of a finite value by a nonzero real constant is finite: it is the product with the reciprocal. -/
theorem isFin_div_coe {x : EReal} (hx : IsFin x) {c : ℝ} (hc : c ≠ 0) : IsFin (Ideal.div x (c : EReal)) := by
  rw [Ideal.div_coe hc]; exact hx.mul (isFin_coe _)

/-- The same quotient, as the real it is. -/
theorem div_coe_coe (r : ℝ) {c : ℝ} (hc : c ≠ 0) :
    Ideal.div (r : EReal) (c : EReal) = ((r * (1 / c) : ℝ) : EReal) := by
  rw [Ideal.div_coe hc, EReal.coe_mul]

/-! ## The reciprocal square root of a finite positive value -/

/-- At a positive real the reciprocal square root is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.2 hr.le), if_neg hr.ne']

/-- The reciprocal square root of a finite positive value is finite. -/
theorem isFin_rsqrt {x : EReal} (hx : IsFin x) (hpos : 0 < x) : IsFin (Ideal.rsqrt x) := by
  obtain ⟨r, rfl⟩ := isFin_iff_exists.1 hx
  rw [rsqrt_coe_pos (EReal.coe_pos.1 hpos)]; exact isFin_coe _

/-- The reciprocal square root of a finite positive value is positive. -/
theorem rsqrt_pos {x : EReal} (hx : IsFin x) (hpos : 0 < x) : 0 < Ideal.rsqrt x := by
  obtain ⟨r, rfl⟩ := isFin_iff_exists.1 hx
  have hr : 0 < r := EReal.coe_pos.1 hpos
  rw [rsqrt_coe_pos hr, EReal.coe_pos]
  exact inv_pos.2 (Real.sqrt_pos.2 hr)

/-- A non-negative finite value plus a positive real is finite and positive: the argument of the reciprocal
    square root, a variance plus `ε`. -/
theorem add_pos_isFin {v : EReal} (hv : IsFin v) (hnn : 0 ≤ v) {e : ℝ} (he : 0 < e) :
    IsFin (v + (e : EReal)) ∧ 0 < v + (e : EReal) := by
  obtain ⟨r, rfl⟩ := isFin_iff_exists.1 hv
  have hr : 0 ≤ r := EReal.coe_nonneg.1 hnn
  refine ⟨(isFin_coe r).add (isFin_coe e), ?_⟩
  rw [← EReal.coe_add, EReal.coe_pos]
  exact add_pos_of_nonneg_of_pos hr he

/-- The float interface's `rsqrt` and its one-operand host operation `.rsqrt` are both this function at the ideal
    floats (`Ideal.rsqrt_def`, `Ideal.hostUnary_rsqrt_def`): finiteness in those two spellings. -/
theorem isFin_floatOps_rsqrt {φ : FTy} {x : Ideal φ} (hx : IsFin x) (hpos : 0 < x) :
    IsFin (FloatOps.rsqrt x : Ideal φ) := by
  rw [Ideal.rsqrt_def]; exact isFin_rsqrt hx hpos

theorem isFin_hostUnary_rsqrt {φ : FTy} {x : Ideal φ} (hx : IsFin x) (hpos : 0 < x) :
    IsFin (FloatOps.hostUnary .rsqrt x : Ideal φ) := by
  rw [Ideal.hostUnary_rsqrt_def]; exact isFin_rsqrt hx hpos

/-! ## The values of the bit patterns -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `5.0e4` denotes the real `50000`: `(2²³ + 4411392) · 2⁻⁸`. -/
theorem ofBits_50000 : Ideal.ofBits .f32 0x47435000#32 = ((50000 : ℝ) : EReal) := by
  simp [Ideal.ofBits, Ideal.ieee, -EReal.coe_mul]; norm_num

/-- The variance's `ε`, printed `9.99999974E-6`, denotes a positive real (`10995116 · 2⁻⁴⁰`). -/
theorem ofBits_eps : ∃ r : ℝ, 0 < r ∧ Ideal.ofBits .f32 0x3727C5AC#32 = (r : EReal) := by
  refine ⟨(10995116 : ℝ) * (2 : ℝ) ^ (-40 : Int), by positivity, ?_⟩
  simp [Ideal.ofBits, Ideal.ieee, -EReal.coe_mul]

/-- The all-ones-exponent pattern with a nonzero fraction (a NaN) denotes the junk value `⊥`. -/
theorem ofBits_nan : Ideal.ofBits .f32 0x7FC00000#32 = ⊥ := by
  simp [Ideal.ofBits, Ideal.ieee]

end Cert.Lib.IdealFin

end
-- ==== Proof.LibTileSum.lean ====
/-
  General facts about finite sums in a commutative additive monoid: a sum over `T·R` indices taken tile by tile, a
  sum of indicator-selected terms as a sum over the selected indices, and a running total unrolled.
-/
import Mathlib.Algebra.BigOperators.Fin
import Mathlib.Algebra.BigOperators.Intervals

namespace Cert.Lib.TileSum

open Finset

/-- A sum over `T·R` consecutive indices is the sum over the `T` tiles of the sums over each tile's `R` indices. -/
theorem sum_tiles {M : Type*} [AddCommMonoid M] (T R : ℕ) (f : ℕ → M) :
    ∑ t : Fin T, ∑ r : Fin R, f (t.val * R + r.val) = ∑ n : Fin (T * R), f n.val := by
  -- the double sum is a sum over pairs (tile, offset); pairs and flat indices correspond by (t, r) ↦ t·R + r
  rw [← Fintype.sum_prod_type' (f := fun (t : Fin T) (r : Fin R) => f (t.val * R + r.val))]
  refine Fintype.sum_equiv finProdFinEquiv _ _ (fun x => ?_)
  simp only [finProdFinEquiv_apply_val]
  rw [Nat.add_comm, Nat.mul_comm]

/-- Adding `f n` where `p n` holds and nothing elsewhere is adding `f` over the indices where `p` holds. -/
theorem sum_ite_eq_filter {M : Type*} [AddCommMonoid M] {ι : Type*} [Fintype ι] (p : ι → Prop) [DecidablePred p] (f : ι → M) :
    ∑ n, (if p n then f n else 0) = ∑ n ∈ univ.filter p, f n :=
  (Finset.sum_filter p f).symm

/-- A running total that starts at `z + c 0` and adds `c (n+1)` at step `n+1` is `z` plus the partial sum. -/
theorem running_total {M : Type*} [AddCommMonoid M] (N : ℕ) (a c : ℕ → M) (z : M) (h0 : a 0 = z + c 0)
    (hs : ∀ n, n + 1 < N → a (n + 1) = a n + c (n + 1)) (n : ℕ) (hn : n < N) :
    a n = z + ∑ i ∈ range (n + 1), c i := by
  induction n with
  | zero => simpa using h0
  | succ k ih =>
    rw [hs k hn, ih (Nat.lt_of_succ_lt hn), Finset.sum_range_succ _ (k + 1), add_assoc]

end Cert.Lib.TileSum
-- ==== Proof.LibLayer.lean ====
/-
  One layer's sums, tile by tile and whole.  A column of 50000 values is accumulated in ten tiles of 5000, five
  tiles on each of two accumulators, each accumulator starting at zero and the two then added from zero; that total
  is the sum over all 50000 indices.  With it, the mean, the variance (as the clamped difference of the mean of the
  squares and the square of the mean, against the mean of the squared deviations) and a group's pooled sum after an
  affine map (the group selected by a zero-one indicator, against the sum over the group's members) are the same
  extended real in both spellings, the values being finite.  Last, the finiteness of what a dense layer computes:
  the maximum with zero of a finite sum of products plus a bias.
-/
import Mathlib.Algebra.BigOperators.Fin
import Mathlib.Data.Fintype.Card
import Idealize.ShloMosaic.PureOps.Ideal
import proofs.«429418_j73830487818378_3_alg».proof.Proof.LibERealFin
import proofs.«429418_j73830487818378_3_alg».proof.Proof.LibGinAlg
import proofs.«429418_j73830487818378_3_alg».proof.Proof.IdealFin
import proofs.«429418_j73830487818378_3_alg».proof.Proof.LibTileSum

noncomputable section

namespace Cert.Lib.Layer

open scoped BigOperators
open Idealize.ShloMosaic Cert.Lib.EFin Cert.Lib.GinAlg Cert.Lib.IdealFin Cert.Lib.TileSum

/-! ## Ten tiles of 5000 on two accumulators -/

/-- Sums over `Fin a` and over `Fin b` of a function of the index's value agree when `a = b`. -/
theorem sum_fin_eq {M : Type*} [AddCommMonoid M] {a b : ℕ} (h : a = b) (g : ℕ → M) :
    ∑ n : Fin a, g n.val = ∑ n : Fin b, g n.val := by
  subst h; rfl

/-- Tiles in two levels: `Q` groups of `T` tiles of `R` indices, group `q`'s tile `i` being tile `T·q + i`. -/
theorem sum_tiles₂ {M : Type*} [AddCommMonoid M] (Q T R : ℕ) (f : ℕ → M) :
    ∑ q : Fin Q, ∑ i : Fin T, ∑ r : Fin R, f ((T * q.val + i.val) * R + r.val)
      = ∑ n : Fin (Q * T * R), f n.val := by
  have e1 := sum_tiles Q T (fun t => ∑ r : Fin R, f (t * R + r.val))
  have e2 := sum_tiles (Q * T) R f
  rw [← e2, ← e1]
  simp only [Nat.mul_comm T]

/-- Ten tiles of 5000 consecutive indices are the 50000 indices. -/
theorem tiles_total_t {M : Type*} [AddCommMonoid M] (f : ℕ → M) :
    ∑ t : Fin 10, ∑ r : Fin 5000, f (t.val * 5000 + r.val) = ∑ n : Fin 50000, f n.val :=
  (sum_tiles 10 5000 f).trans (sum_fin_eq (by norm_num) f)

/-- Two accumulators `q`, each from zero over its five tiles `5q + i`: together, every index once. -/
theorem tiles_total_q {M : Type*} [AddCommMonoid M] (f : ℕ → M) :
    ∑ q : Fin 2, (0 + ∑ i : Fin 5, ∑ r : Fin 5000, f ((5 * q.val + i.val) * 5000 + r.val))
      = ∑ n : Fin 50000, f n.val := by
  simp only [zero_add]
  exact (sum_tiles₂ 2 5 5000 f).trans (sum_fin_eq (by norm_num) f)

/-- The two accumulators written out and added from zero. -/
theorem tiles_total {M : Type*} [AddCommMonoid M] (f : ℕ → M) :
    (0 + (0 + ∑ i : Fin 5, ∑ r : Fin 5000, f ((5 * 0 + i.val) * 5000 + r.val)) + (0 + ∑ i : Fin 5, ∑ r : Fin 5000, f ((5 * 1 + i.val) * 5000 + r.val)))
      = 0 + ∑ n : Fin 50000, f n.val := by
  have h := tiles_total_q f
  simp only [Fin.sum_univ_two, Fin.val_zero, Fin.val_one, zero_add] at h ⊢
  exact h

/-- The same with every starting value a `z` that is zero. -/
theorem tiles_total_z {M : Type*} [AddCommMonoid M] (z : M) (hz : z = 0) (f : ℕ → M) :
    (z + (z + ∑ i : Fin 5, ∑ r : Fin 5000, f ((5 * 0 + i.val) * 5000 + r.val)) + (z + ∑ i : Fin 5, ∑ r : Fin 5000, f ((5 * 1 + i.val) * 5000 + r.val)))
      = z + ∑ n : Fin 50000, f n.val := by
  subst hz; exact tiles_total f

theorem tiles_total_q_z {M : Type*} [AddCommMonoid M] (z : M) (hz : z = 0) (f : ℕ → M) :
    ∑ q : Fin 2, (z + ∑ i : Fin 5, ∑ r : Fin 5000, f ((5 * q.val + i.val) * 5000 + r.val))
      = ∑ n : Fin 50000, f n.val := by
  subst hz; exact tiles_total_q f

/-! ## Indicators and index words -/

/-- A zero-one indicator times a value selects the value. -/
theorem one_hot_mul (b : Prop) [Decidable b] (x : EReal) :
    (if b then (1 : EReal) else 0) * x = if b then x else 0 := by
  by_cases h : b <;> simp [h]

/-- A 32-bit word is the word of a small natural number exactly when its signed reading is that number. -/
theorem word_eq_iff (v : BitVec 32) (g : ℕ) (hg : g < 256) : v = BitVec.ofNat 32 g ↔ v.toInt = (g : ℤ) := by
  have hbm : (g : ℤ).bmod (2 ^ 32) = (g : ℤ) := by
    apply Int.bmod_eq_of_le <;> omega
  constructor
  · rintro rfl; rw [BitVec.toInt_ofNat', hbm]
  · intro h; apply BitVec.eq_of_toInt_eq; rw [h, BitVec.toInt_ofNat', hbm]

/-! ## The mean -/

theorem mean_bridge (f : ℕ → EReal) :
    Ideal.div (0 + (0 + ∑ i : Fin 5, ∑ r : Fin 5000, f ((5 * 0 + i.val) * 5000 + r.val)) + (0 + ∑ i : Fin 5, ∑ r : Fin 5000, f ((5 * 1 + i.val) * 5000 + r.val))) ((50000 : ℝ) : EReal)
      = Ideal.div (0 + ∑ n : Fin 50000, f n.val) ((50000 : ℝ) : EReal) := by
  rw [tiles_total]

/-- The mean of finite values is finite. -/
theorem mean_bridge_isFin (f : ℕ → EReal) (hfin : ∀ n < 50000, IsFin (f n)) :
    IsFin (Ideal.div (0 + ∑ n : Fin 50000, f n.val) ((50000 : ℝ) : EReal)) := by
  exact isFin_div_coe (isFin_zero.add (IsFin.sum _ _ fun n _ => hfin n.val n.isLt)) (by norm_num)

/-! ## The variance -/

theorem var_bridge (f : ℕ → EReal) (hfin : ∀ n < 50000, IsFin (f n)) (μ : EReal)
    (hμ : μ = Ideal.div (0 + ∑ n : Fin 50000, f n.val) ((50000 : ℝ) : EReal)) :
    max (Ideal.div (0 + (0 + ∑ i : Fin 5, ∑ r : Fin 5000, f ((5 * 0 + i.val) * 5000 + r.val) * f ((5 * 0 + i.val) * 5000 + r.val)) + (0 + ∑ i : Fin 5, ∑ r : Fin 5000, f ((5 * 1 + i.val) * 5000 + r.val) * f ((5 * 1 + i.val) * 5000 + r.val))) ((50000 : ℝ) : EReal) - μ * μ) 0
      = Ideal.div (0 + ∑ n : Fin 50000, (f n.val - μ) * (f n.val - μ)) ((50000 : ℝ) : EReal) := by
  have hc : (50000 : ℝ) ≠ 0 := by norm_num
  have hfin' : ∀ n ∈ (Finset.univ : Finset (Fin 50000)), IsFin (f n.val) := fun n _ => hfin n.val n.isLt
  have hμ' : μ = (0 + ∑ n : Fin 50000, f n.val) * ((1 / 50000 : ℝ) : EReal) := by rw [hμ, Ideal.div_coe hc]
  have hcard : ((Finset.univ : Finset (Fin 50000)).card : ℝ) = 50000 := by
    rw [Finset.card_univ, Fintype.card_fin]; norm_num
  rw [tiles_total (fun n => f n * f n), Ideal.div_coe hc, Ideal.div_coe hc]
  exact var_two_forms_aux Finset.univ (fun n : Fin 50000 => f n.val) 50000 (by norm_num) hcard hfin' _ μ rfl hμ'

theorem var_bridge_nonneg (f : ℕ → EReal) (hfin : ∀ n < 50000, IsFin (f n)) (μ : EReal)
    (hμ : μ = Ideal.div (0 + ∑ n : Fin 50000, f n.val) ((50000 : ℝ) : EReal)) :
    0 ≤ Ideal.div (0 + ∑ n : Fin 50000, (f n.val - μ) * (f n.val - μ)) ((50000 : ℝ) : EReal) := by
  have hc : (50000 : ℝ) ≠ 0 := by norm_num
  have hfin' : ∀ n ∈ (Finset.univ : Finset (Fin 50000)), IsFin (f n.val) := fun n _ => hfin n.val n.isLt
  have hμ' : μ = (0 + ∑ n : Fin 50000, f n.val) * ((1 / 50000 : ℝ) : EReal) := by rw [hμ, Ideal.div_coe hc]
  rw [Ideal.div_coe hc]
  exact var_nonneg_aux Finset.univ (fun n : Fin 50000 => f n.val) 50000 (by norm_num) hfin' _ μ rfl hμ'

theorem var_bridge_isFin (f : ℕ → EReal) (hfin : ∀ n < 50000, IsFin (f n)) (μ : EReal)
    (hμ : μ = Ideal.div (0 + ∑ n : Fin 50000, f n.val) ((50000 : ℝ) : EReal)) :
    IsFin (Ideal.div (0 + ∑ n : Fin 50000, (f n.val - μ) * (f n.val - μ)) ((50000 : ℝ) : EReal)) := by
  have hμfin : IsFin μ := hμ ▸ mean_bridge_isFin f hfin
  exact isFin_div_coe (isFin_zero.add (IsFin.sum _ _ fun n _ =>
    ((hfin n.val n.isLt).sub hμfin).mul ((hfin n.val n.isLt).sub hμfin))) (by norm_num)

/-- The variance plus a positive `ε` is finite and positive, so its reciprocal square root is finite. -/
theorem inv_isFin (f : ℕ → EReal) (hfin : ∀ n < 50000, IsFin (f n)) (μ : EReal)
    (hμ : μ = Ideal.div (0 + ∑ n : Fin 50000, f n.val) ((50000 : ℝ) : EReal)) (e : ℝ) (he : 0 < e) :
    IsFin (Ideal.rsqrt (Ideal.div (0 + ∑ n : Fin 50000, (f n.val - μ) * (f n.val - μ)) ((50000 : ℝ) : EReal) + (e : EReal))) := by
  obtain ⟨h1, h2⟩ := add_pos_isFin (var_bridge_isFin f hfin μ hμ) (var_bridge_nonneg f hfin μ hμ) he
  exact isFin_rsqrt h1 h2

/-- The same for the clamped form of the variance. -/
theorem inv_isFin_clamped (f : ℕ → EReal) (hfin : ∀ n < 50000, IsFin (f n)) (μ : EReal)
    (hμ : μ = Ideal.div (0 + ∑ n : Fin 50000, f n.val) ((50000 : ℝ) : EReal)) (e : ℝ) (he : 0 < e) :
    IsFin (Ideal.rsqrt (max (Ideal.div (0 + (0 + ∑ i : Fin 5, ∑ r : Fin 5000, f ((5 * 0 + i.val) * 5000 + r.val) * f ((5 * 0 + i.val) * 5000 + r.val)) + (0 + ∑ i : Fin 5, ∑ r : Fin 5000, f ((5 * 1 + i.val) * 5000 + r.val) * f ((5 * 1 + i.val) * 5000 + r.val))) ((50000 : ℝ) : EReal) - μ * μ) 0 + (e : EReal))) := by
  rw [var_bridge f hfin μ hμ]
  exact inv_isFin f hfin μ hμ e he

/-! ## A group's pooled sum after the affine map -/

theorem pool_bridge (f : ℕ → EReal) (p : ℕ → Prop) [DecidablePred p] (μ inv γ β : EReal)
    (hμ : IsFin μ) (hinv : IsFin inv) (hγ : IsFin γ) (hβ : IsFin β) (hfin : ∀ n < 50000, IsFin (f n)) :
    (((0 + (0 + ∑ i : Fin 5, ∑ r : Fin 5000, (if p ((5 * 0 + i.val) * 5000 + r.val) then (1 : EReal) else 0) * f ((5 * 0 + i.val) * 5000 + r.val)) + (0 + ∑ i : Fin 5, ∑ r : Fin 5000, (if p ((5 * 1 + i.val) * 5000 + r.val) then (1 : EReal) else 0) * f ((5 * 1 + i.val) * 5000 + r.val)))
        - (0 + (0 + ∑ i : Fin 5, ∑ r : Fin 5000, (if p ((5 * 0 + i.val) * 5000 + r.val) then (1 : EReal) else 0)) + (0 + ∑ i : Fin 5, ∑ r : Fin 5000, (if p ((5 * 1 + i.val) * 5000 + r.val) then (1 : EReal) else 0))) * μ) * inv) * γ
      + (0 + (0 + ∑ i : Fin 5, ∑ r : Fin 5000, (if p ((5 * 0 + i.val) * 5000 + r.val) then (1 : EReal) else 0)) + (0 + ∑ i : Fin 5, ∑ r : Fin 5000, (if p ((5 * 1 + i.val) * 5000 + r.val) then (1 : EReal) else 0))) * β
      = 0 + ∑ n ∈ Finset.univ.filter (fun n : Fin 50000 => p n.val), (((f n.val - μ) * inv) * γ + β) := by
  rw [tiles_total (fun n => (if p n then (1 : EReal) else 0) * f n),
    tiles_total (fun n => if p n then (1 : EReal) else 0)]
  simp only [one_hot_mul]
  rw [sum_ite_eq_filter (fun n : Fin 50000 => p n.val) (fun n => f n.val),
    sum_ite_eq_filter (fun n : Fin 50000 => p n.val) (fun _ => (1 : EReal))]
  exact (pool_bn (Finset.univ.filter fun n : Fin 50000 => p n.val) (fun n => f n.val) μ inv γ β hμ hinv hγ hβ
    (fun n _ => hfin n.val n.isLt)).symm

/-! ## A dense layer's output is finite -/

theorem dense_isFin {D : ℕ} (a w : Fin D → EReal) (b : EReal) (ha : ∀ j, IsFin (a j)) (hw : ∀ j, IsFin (w j))
    (hb : IsFin b) : IsFin (max ((∑ j : Fin D, a j * w j) + b) 0) := by
  exact IsFin.max ((IsFin.sum _ _ fun j _ => (ha j).mul (hw j)).add hb) isFin_zero

/-- The same with the sum accumulated from zero. -/
theorem dense_isFin_z {D : ℕ} (a w : Fin D → EReal) (b : EReal) (ha : ∀ j, IsFin (a j)) (hw : ∀ j, IsFin (w j))
    (hb : IsFin b) : IsFin (max ((0 + ∑ j : Fin D, a j * w j) + b) 0) := by
  exact IsFin.max ((isFin_zero.add (IsFin.sum _ _ fun j _ => (ha j).mul (hw j))).add hb) isFin_zero

/-- Without the maximum. -/
theorem dense_isFin_lin {D : ℕ} (a w : Fin D → EReal) (b : EReal) (ha : ∀ j, IsFin (a j)) (hw : ∀ j, IsFin (w j))
    (hb : IsFin b) : IsFin ((∑ j : Fin D, a j * w j) + b) := by
  exact (IsFin.sum _ _ fun j _ => (ha j).mul (hw j)).add hb

end Cert.Lib.Layer

end
-- ==== Proof.GinMath.lean ====
/-
  The two networks as plain functions on the extended reals, and their equality.

  Three GIN layers with batch normalisation over N = 50000 nodes, E = 800000 weighted edges, 256 graphs.  One layer:
  aggregate the weighted rows of the in-neighbours, add the node's own row, two dense layers each followed by a clamp at
  zero, then normalise every feature by its mean and variance over the nodes.  The reference does each step the textbook
  way.  The kernel (i) takes every sum over the nodes tile by tile (two halves of five tiles of 5000 rows, each half a
  running total from zero, the halves added afterwards), (ii) computes the variance as E[h²] − E[h]² clamped at zero,
  (iii) never forms the normalised rows of the first two layers: normalisation is the affine map h ↦ s·h + t per feature,
  aggregation is linear, so the next layer's input s·(h + agg h) + t·(1 + deg) is formed from the raw rows, deg the
  weighted in-degree, and (iv) pools the raw rows per graph and normalises the pooled sums afterwards.  Over the reals these
  agree; on the extended reals the distributive law needs every value finite, which the inputs' finiteness gives layer
  by layer.
-/
import Idealize.ShloMosaic.PureOps.Ideal
import proofs.«429418_j73830487818378_3_alg».proof.Proof.LibLayer

noncomputable section

open scoped BigOperators

namespace Cert.GinMath

open Idealize.ShloMosaic Cert.Lib.EFin

/-- The data both networks read: the words the programs spell for 0, 1, 50000 and ε; the edges (for node `n` the edges
    landing on it, for edge `e` the row it reads and its weight); which nodes belong to graph `g`. -/
structure Graph where
  z : EReal
  one : EReal
  cN : EReal
  eps : EReal
  ew : Fin 800000 → EReal
  H : Fin 50000 → Finset (Fin 800000)
  ρ : Fin 800000 → Fin 50000
  P : Fin 256 → Fin 50000 → Prop
  decP : ∀ g n, Decidable (P g n)

attribute [instance] Graph.decP

/-- What the literal words denote, and that every weight is finite. -/
structure Graph.Ok (𝔾 : Graph) : Prop where
  hz : 𝔾.z = 0
  hone : 𝔾.one = 1
  hcN : 𝔾.cN = ((50000 : ℝ) : EReal)
  heps : ∃ r : ℝ, 0 < r ∧ 𝔾.eps = (r : EReal)
  hew : ∀ e, IsFin (𝔾.ew e)

variable (𝔾 : Graph)

/-- Row `(5q + i)·5000 + r`: row `r` of tile `i` of half `q`. -/
def rowOf (q : Fin 2) (i : Fin 5) (r : Fin 5000) : Fin 50000 :=
  ⟨(5 * q.val + i.val) * 5000 + r.val, by have := q.isLt; have := i.isLt; have := r.isLt; omega⟩

/-! ## Shared by both -/

/-- The weighted sum of the in-neighbours' rows. -/
def agg {D : ℕ} (h : Fin 50000 → Fin D → EReal) (n : Fin 50000) (k : Fin D) : EReal :=
  𝔾.z + ∑ e ∈ 𝔾.H n, h (𝔾.ρ e) k * 𝔾.ew e
/-- The weighted in-degree. -/
def deg (n : Fin 50000) : EReal := 𝔾.z + ∑ e ∈ 𝔾.H n, 𝔾.ew e
/-- A dense layer followed by the clamp at zero. -/
def dense {D : ℕ} (a : Fin 50000 → Fin D → EReal) (W : Fin D → Fin 64 → EReal) (b : Fin 64 → EReal)
    (n : Fin 50000) (k : Fin 64) : EReal :=
  max ((∑ j : Fin D, a n j * W j k) + b k) 𝔾.z
/-- The two dense layers of one GIN layer. -/
def mlp {D : ℕ} (xin : Fin 50000 → Fin D → EReal) (W1 : Fin D → Fin 64 → EReal) (b1 : Fin 64 → EReal)
    (W2 : Fin 64 → Fin 64 → EReal) (b2 : Fin 64 → EReal) : Fin 50000 → Fin 64 → EReal :=
  dense 𝔾 (dense 𝔾 xin W1 b1) W2 b2

/-! ## The reference -/

def xinR {D : ℕ} (hin : Fin 50000 → Fin D → EReal) (n : Fin 50000) (j : Fin D) : EReal := hin n j + agg 𝔾 hin n j
def meanR (h : Fin 50000 → Fin 64 → EReal) (k : Fin 64) : EReal := Ideal.div (𝔾.z + ∑ n : Fin 50000, h n k) 𝔾.cN
def varR (h : Fin 50000 → Fin 64 → EReal) (k : Fin 64) : EReal :=
  Ideal.div (𝔾.z + ∑ n : Fin 50000, (h n k - meanR 𝔾 h k) * (h n k - meanR 𝔾 h k)) 𝔾.cN
def bnR (h : Fin 50000 → Fin 64 → EReal) (γ β : Fin 64 → EReal) (n : Fin 50000) (k : Fin 64) : EReal :=
  (((h n k - meanR 𝔾 h k) * Ideal.rsqrt (varR 𝔾 h k + 𝔾.eps)) * γ k) + β k
def poolR (hb : Fin 50000 → Fin 64 → EReal) (g : Fin 256) (k : Fin 64) : EReal :=
  𝔾.z + ∑ n ∈ Finset.univ.filter (fun n : Fin 50000 => 𝔾.P g n), hb n k

/-! ## The kernel -/

/-- A sum over the nodes as the kernel takes it: per half a running total from zero over its five tiles, the halves
    added from zero on the host. -/
def tiled (f : Fin 50000 → EReal) : EReal :=
  𝔾.z + ∑ q : Fin 2, (𝔾.z + ∑ i : Fin 5, ∑ r : Fin 5000, f (rowOf q i r))
def meanK (h : Fin 50000 → Fin 64 → EReal) (k : Fin 64) : EReal := Ideal.div (tiled 𝔾 fun n => h n k) 𝔾.cN
def varK (h : Fin 50000 → Fin 64 → EReal) (k : Fin 64) : EReal :=
  max (Ideal.div (tiled 𝔾 fun n => h n k * h n k) 𝔾.cN - meanK 𝔾 h k * meanK 𝔾 h k) 𝔾.z
def invK (h : Fin 50000 → Fin 64 → EReal) (k : Fin 64) : EReal := Ideal.rsqrt (varK 𝔾 h k + 𝔾.eps)
def sK (h : Fin 50000 → Fin 64 → EReal) (γ : Fin 64 → EReal) (k : Fin 64) : EReal := invK 𝔾 h k * γ k
def tK (h : Fin 50000 → Fin 64 → EReal) (γ β : Fin 64 → EReal) (k : Fin 64) : EReal := β k - meanK 𝔾 h k * sK 𝔾 h γ k
def xinK {D : ℕ} (raw : Fin 50000 → Fin D → EReal) (s t : Fin D → EReal) (n : Fin 50000) (j : Fin D) : EReal :=
  s j * (raw n j + agg 𝔾 raw n j) + t j * (𝔾.one + deg 𝔾 n)
def oh (g : Fin 256) (n : Fin 50000) : EReal := if 𝔾.P g n then 1 else 0
def poolK (h : Fin 50000 → Fin 64 → EReal) (γ β : Fin 64 → EReal) (g : Fin 256) (k : Fin 64) : EReal :=
  (((tiled 𝔾 fun n => oh 𝔾 g n * h n k) - (tiled 𝔾 fun n => oh 𝔾 g n) * meanK 𝔾 h k) * invK 𝔾 h k) * γ k
    + (tiled 𝔾 fun n => oh 𝔾 g n) * β k
/-- The last layer's rows normalised (the kernel's normalising call). -/
def bnK (h : Fin 50000 → Fin 64 → EReal) (γ β : Fin 64 → EReal) (n : Fin 50000) (k : Fin 64) : EReal :=
  (h n k - meanK 𝔾 h k) * invK 𝔾 h k * γ k + β k

/-! ## The parameters, and the two networks -/

structure Params where
  x : Fin 50000 → Fin 128 → EReal
  W1_0 : Fin 128 → Fin 64 → EReal
  b1_0 : Fin 64 → EReal
  W2_0 : Fin 64 → Fin 64 → EReal
  b2_0 : Fin 64 → EReal
  γ0 : Fin 64 → EReal
  β0 : Fin 64 → EReal
  W1_1 : Fin 64 → Fin 64 → EReal
  b1_1 : Fin 64 → EReal
  W2_1 : Fin 64 → Fin 64 → EReal
  b2_1 : Fin 64 → EReal
  γ1 : Fin 64 → EReal
  β1 : Fin 64 → EReal
  W1_2 : Fin 64 → Fin 64 → EReal
  b1_2 : Fin 64 → EReal
  W2_2 : Fin 64 → Fin 64 → EReal
  b2_2 : Fin 64 → EReal
  γ2 : Fin 64 → EReal
  β2 : Fin 64 → EReal

/-- Every parameter entry is finite. -/
structure Params.Fin (p : Params) : Prop where
  x : ∀ n j, IsFin (p.x n j)
  W1_0 : ∀ i j, IsFin (p.W1_0 i j)
  b1_0 : ∀ j, IsFin (p.b1_0 j)
  W2_0 : ∀ i j, IsFin (p.W2_0 i j)
  b2_0 : ∀ j, IsFin (p.b2_0 j)
  γ0 : ∀ j, IsFin (p.γ0 j)
  β0 : ∀ j, IsFin (p.β0 j)
  W1_1 : ∀ i j, IsFin (p.W1_1 i j)
  b1_1 : ∀ j, IsFin (p.b1_1 j)
  W2_1 : ∀ i j, IsFin (p.W2_1 i j)
  b2_1 : ∀ j, IsFin (p.b2_1 j)
  γ1 : ∀ j, IsFin (p.γ1 j)
  β1 : ∀ j, IsFin (p.β1 j)
  W1_2 : ∀ i j, IsFin (p.W1_2 i j)
  b1_2 : ∀ j, IsFin (p.b1_2 j)
  W2_2 : ∀ i j, IsFin (p.W2_2 i j)
  b2_2 : ∀ j, IsFin (p.b2_2 j)
  γ2 : ∀ j, IsFin (p.γ2 j)
  β2 : ∀ j, IsFin (p.β2 j)

variable (p : Params)

/-! The reference: each layer's clamped rows `hR·` and normalised rows `bR·`. -/
def hR0 : Fin 50000 → Fin 64 → EReal := mlp 𝔾 (xinR 𝔾 p.x) p.W1_0 p.b1_0 p.W2_0 p.b2_0
def bR0 : Fin 50000 → Fin 64 → EReal := bnR 𝔾 (hR0 𝔾 p) p.γ0 p.β0
def hR1 : Fin 50000 → Fin 64 → EReal := mlp 𝔾 (xinR 𝔾 (bR0 𝔾 p)) p.W1_1 p.b1_1 p.W2_1 p.b2_1
def bR1 : Fin 50000 → Fin 64 → EReal := bnR 𝔾 (hR1 𝔾 p) p.γ1 p.β1
def hR2 : Fin 50000 → Fin 64 → EReal := mlp 𝔾 (xinR 𝔾 (bR1 𝔾 p)) p.W1_2 p.b1_2 p.W2_2 p.b2_2
def bR2 : Fin 50000 → Fin 64 → EReal := bnR 𝔾 (hR2 𝔾 p) p.γ2 p.β2

/-! The kernel: each layer's clamped rows `hK·`; the first layer's affine map is the identity (s = 1, t = 0). -/
def hK0 : Fin 50000 → Fin 64 → EReal :=
  mlp 𝔾 (xinK 𝔾 p.x (fun _ => 𝔾.one) (fun _ => 𝔾.z)) p.W1_0 p.b1_0 p.W2_0 p.b2_0
def hK1 : Fin 50000 → Fin 64 → EReal :=
  mlp 𝔾 (xinK 𝔾 (hK0 𝔾 p) (sK 𝔾 (hK0 𝔾 p) p.γ0) (tK 𝔾 (hK0 𝔾 p) p.γ0 p.β0)) p.W1_1 p.b1_1 p.W2_1 p.b2_1
def hK2 : Fin 50000 → Fin 64 → EReal :=
  mlp 𝔾 (xinK 𝔾 (hK1 𝔾 p) (sK 𝔾 (hK1 𝔾 p) p.γ1) (tK 𝔾 (hK1 𝔾 p) p.γ1 p.β1)) p.W1_2 p.b1_2 p.W2_2 p.b2_2

end Cert.GinMath

end
-- ==== Proof.GinMathProof.lean ====
/-
  The two networks agree.

  A sum over the nodes taken tile by tile is the sum over the nodes; so the two means are one value, and, every row
  being finite, the clamped difference of the mean of the squares and the square of the mean is the mean of the
  squared deviations: the two variances, and with them the two reciprocal standard deviations, are one value too.
  Normalisation is then the affine map `h ↦ ((h − μ)·inv)·γ + β` with finite `μ`, `inv`, `γ`, `β`.  Carried through the
  weighted neighbour sum it is the slope times the raw sum plus the intercept times the weight sum (layers two and
  three; for the first layer the slope is one and the intercept zero); summed over a graph's nodes it is the map
  applied to the raw pooled sum, the graph's size multiplying the shift and the intercept.  Finiteness goes layer by
  layer: finite rows give a finite aggregate, finite dense layers, a finite mean and variance, a positive finite
  variance plus `ε`, a finite reciprocal square root, finite normalised rows.
-/
import proofs.«429418_j73830487818378_3_alg».proof.Proof.GinMath

noncomputable section

open scoped BigOperators

namespace Cert.GinMath

open Idealize.ShloMosaic Cert.Lib.EFin Cert.Lib.GinAlg Cert.Lib.IdealFin Cert.Lib.Layer Cert.Lib.TileSum

variable {𝔾 : Graph} {p : Params}

/-! ## A sum over the nodes, tile by tile -/

/-- A family over the 50000 nodes continued by zero to every natural number. -/
def extN (f : Fin 50000 → EReal) (m : ℕ) : EReal := if h : m < 50000 then f ⟨m, h⟩ else 0

theorem extN_val (f : Fin 50000 → EReal) (n : Fin 50000) : extN f n.val = f n := by
  unfold extN; rw [dif_pos n.isLt]

theorem extN_rowOf (f : Fin 50000 → EReal) (q : Fin 2) (i : Fin 5) (r : Fin 5000) :
    extN f ((5 * q.val + i.val) * 5000 + r.val) = f (rowOf q i r) :=
  extN_val f (rowOf q i r)

/-- The tiled sum is the sum over the nodes. -/
theorem tiled_eq (h𝔾 : 𝔾.Ok) (f : Fin 50000 → EReal) : tiled 𝔾 f = 0 + ∑ n : Fin 50000, f n := by
  unfold tiled
  rw [h𝔾.hz]
  have h := tiles_total_q (extN f)
  simp only [extN_rowOf, extN_val] at h
  rw [h]

/-! ## Mean, variance and reciprocal standard deviation: one value in both forms -/

theorem c50000_ne : (50000 : ℝ) ≠ 0 := by norm_num

theorem card_nodes : ((Finset.univ : Finset (Fin 50000)).card : ℝ) = 50000 := by
  rw [Finset.card_univ, Fintype.card_fin]; norm_num

theorem meanK_eq (h𝔾 : 𝔾.Ok) (h : Fin 50000 → Fin 64 → EReal) (k : Fin 64) : meanK 𝔾 h k = meanR 𝔾 h k := by
  unfold meanK meanR; rw [tiled_eq h𝔾, h𝔾.hz]

/-- The mean as the product with the reciprocal of the number of nodes. -/
theorem meanR_eq_mul (h𝔾 : 𝔾.Ok) (h : Fin 50000 → Fin 64 → EReal) (k : Fin 64) :
    meanR 𝔾 h k = (0 + ∑ n : Fin 50000, h n k) * ((1 / 50000 : ℝ) : EReal) := by
  unfold meanR; rw [h𝔾.hz, h𝔾.hcN, Ideal.div_coe c50000_ne]

/-- The variance as the product with the reciprocal of the number of nodes. -/
theorem varR_eq_mul (h𝔾 : 𝔾.Ok) (h : Fin 50000 → Fin 64 → EReal) (k : Fin 64) :
    varR 𝔾 h k = (0 + ∑ n : Fin 50000, (h n k - meanR 𝔾 h k) * (h n k - meanR 𝔾 h k))
      * ((1 / 50000 : ℝ) : EReal) := by
  unfold varR; rw [h𝔾.hz, h𝔾.hcN, Ideal.div_coe c50000_ne]

section Rows

variable {h : Fin 50000 → Fin 64 → EReal}

theorem meanR_isFin (h𝔾 : 𝔾.Ok) (hfin : ∀ n k, IsFin (h n k)) (k : Fin 64) : IsFin (meanR 𝔾 h k) := by
  rw [meanR_eq_mul h𝔾]
  exact (isFin_zero.add (IsFin.sum _ _ fun n _ => hfin n k)).mul (isFin_coe _)

theorem varR_nonneg (h𝔾 : 𝔾.Ok) (hfin : ∀ n k, IsFin (h n k)) (k : Fin 64) : 0 ≤ varR 𝔾 h k := by
  rw [varR_eq_mul h𝔾]
  exact var_nonneg_aux Finset.univ (fun n => h n k) 50000 (by norm_num) (fun n _ => hfin n k) _ _ rfl
    (meanR_eq_mul h𝔾 h k)

theorem varR_isFin (h𝔾 : 𝔾.Ok) (hfin : ∀ n k, IsFin (h n k)) (k : Fin 64) : IsFin (varR 𝔾 h k) := by
  rw [varR_eq_mul h𝔾]
  have hμ := meanR_isFin h𝔾 hfin k
  exact (isFin_zero.add (IsFin.sum _ _ fun n _ => ((hfin n k).sub hμ).mul ((hfin n k).sub hμ))).mul
    (isFin_coe _)

/-- The clamped difference of the mean of the squares and the square of the mean is the mean of the squared
    deviations. -/
theorem varK_eq (h𝔾 : 𝔾.Ok) (hfin : ∀ n k, IsFin (h n k)) (k : Fin 64) : varK 𝔾 h k = varR 𝔾 h k := by
  unfold varK
  rw [meanK_eq h𝔾, tiled_eq h𝔾, h𝔾.hz, h𝔾.hcN, Ideal.div_coe c50000_ne, varR_eq_mul h𝔾]
  exact var_two_forms_aux Finset.univ (fun n => h n k) 50000 (by norm_num) card_nodes (fun n _ => hfin n k) _ _ rfl
    (meanR_eq_mul h𝔾 h k)

/-- The variance plus `ε` is finite and positive, so its reciprocal square root is finite. -/
theorem rsqrt_var_isFin (h𝔾 : 𝔾.Ok) (hfin : ∀ n k, IsFin (h n k)) (k : Fin 64) :
    IsFin (Ideal.rsqrt (varR 𝔾 h k + 𝔾.eps)) := by
  obtain ⟨e, he, hε⟩ := h𝔾.heps
  rw [hε]
  obtain ⟨h1, h2⟩ := add_pos_isFin (varR_isFin h𝔾 hfin k) (varR_nonneg h𝔾 hfin k) he
  exact isFin_rsqrt h1 h2

theorem invK_eq (h𝔾 : 𝔾.Ok) (hfin : ∀ n k, IsFin (h n k)) (k : Fin 64) :
    invK 𝔾 h k = Ideal.rsqrt (varR 𝔾 h k + 𝔾.eps) := by
  unfold invK; rw [varK_eq h𝔾 hfin]

/-! ## Normalisation: finite, and one function in both forms -/

theorem bnR_isFin (h𝔾 : 𝔾.Ok) (hfin : ∀ n k, IsFin (h n k)) {γ β : Fin 64 → EReal} (hγ : ∀ k, IsFin (γ k))
    (hβ : ∀ k, IsFin (β k)) (n : Fin 50000) (k : Fin 64) : IsFin (bnR 𝔾 h γ β n k) := by
  unfold bnR
  exact ((((hfin n k).sub (meanR_isFin h𝔾 hfin k)).mul (rsqrt_var_isFin h𝔾 hfin k)).mul (hγ k)).add (hβ k)

theorem bnK_eq (h𝔾 : 𝔾.Ok) (hfin : ∀ n k, IsFin (h n k)) (γ β : Fin 64 → EReal) : bnK 𝔾 h γ β = bnR 𝔾 h γ β := by
  funext n k
  unfold bnK bnR
  rw [meanK_eq h𝔾, invK_eq h𝔾 hfin]

/-- The affine map carried through the weighted neighbour sum: the next layer's input formed from the raw rows is
    the input formed from the normalised rows. -/
theorem xinK_eq (h𝔾 : 𝔾.Ok) (hfin : ∀ n k, IsFin (h n k)) {γ β : Fin 64 → EReal} (hγ : ∀ k, IsFin (γ k))
    (hβ : ∀ k, IsFin (β k)) : xinK 𝔾 h (sK 𝔾 h γ) (tK 𝔾 h γ β) = xinR 𝔾 (bnR 𝔾 h γ β) := by
  funext n j
  unfold xinK xinR agg deg tK sK
  rw [meanK_eq h𝔾, invK_eq h𝔾 hfin, h𝔾.hz, h𝔾.hone]
  unfold bnR
  exact (bn_fold (𝔾.H n) (h n j) (meanR 𝔾 h j) (Ideal.rsqrt (varR 𝔾 h j + 𝔾.eps)) (γ j) (β j)
    (fun e => h (𝔾.ρ e) j) 𝔾.ew (hfin n j) (meanR_isFin h𝔾 hfin j) (rsqrt_var_isFin h𝔾 hfin j) (hγ j) (hβ j)
    (fun e _ => hfin (𝔾.ρ e) j) (fun e _ => h𝔾.hew e)).symm

/-- Pooling the raw rows and applying the affine map to the pooled sums is pooling the normalised rows. -/
theorem poolK_eq (h𝔾 : 𝔾.Ok) (hfin : ∀ n k, IsFin (h n k)) {γ β : Fin 64 → EReal} (hγ : ∀ k, IsFin (γ k))
    (hβ : ∀ k, IsFin (β k)) : poolK 𝔾 h γ β = poolR 𝔾 (bnR 𝔾 h γ β) := by
  funext g k
  have e1 : ∑ n : Fin 50000, oh 𝔾 g n * h n k
      = ∑ n ∈ Finset.univ.filter (fun n : Fin 50000 => 𝔾.P g n), h n k := by
    unfold oh; simp only [one_hot_mul]; exact sum_ite_eq_filter _ _
  have e2 : ∑ n : Fin 50000, oh 𝔾 g n
      = ∑ _n ∈ Finset.univ.filter (fun n : Fin 50000 => 𝔾.P g n), (1 : EReal) := by
    unfold oh; exact sum_ite_eq_filter _ (fun _ => (1 : EReal))
  unfold poolK poolR
  rw [meanK_eq h𝔾, invK_eq h𝔾 hfin, tiled_eq h𝔾, tiled_eq h𝔾, h𝔾.hz, e1, e2]
  unfold bnR
  exact (pool_bn (Finset.univ.filter (fun n : Fin 50000 => 𝔾.P g n)) (fun n => h n k) (meanR 𝔾 h k)
    (Ideal.rsqrt (varR 𝔾 h k + 𝔾.eps)) (γ k) (β k) (meanR_isFin h𝔾 hfin k) (rsqrt_var_isFin h𝔾 hfin k) (hγ k) (hβ k)
    (fun n _ => hfin n k)).symm

end Rows

/-! ## Finiteness through one layer -/

theorem agg_isFin {D : ℕ} (h𝔾 : 𝔾.Ok) {a : Fin 50000 → Fin D → EReal} (ha : ∀ n j, IsFin (a n j))
    (n : Fin 50000) (j : Fin D) : IsFin (agg 𝔾 a n j) := by
  unfold agg; rw [h𝔾.hz]
  exact isFin_zero.add (IsFin.sum _ _ fun e _ => (ha (𝔾.ρ e) j).mul (h𝔾.hew e))

theorem xinR_isFin {D : ℕ} (h𝔾 : 𝔾.Ok) {a : Fin 50000 → Fin D → EReal} (ha : ∀ n j, IsFin (a n j))
    (n : Fin 50000) (j : Fin D) : IsFin (xinR 𝔾 a n j) := by
  unfold xinR; exact (ha n j).add (agg_isFin h𝔾 ha n j)

theorem dense_fin {D : ℕ} (h𝔾 : 𝔾.Ok) {a : Fin 50000 → Fin D → EReal} {W : Fin D → Fin 64 → EReal}
    {b : Fin 64 → EReal} (ha : ∀ n j, IsFin (a n j)) (hW : ∀ i j, IsFin (W i j)) (hb : ∀ j, IsFin (b j))
    (n : Fin 50000) (k : Fin 64) : IsFin (dense 𝔾 a W b n k) := by
  unfold dense; rw [h𝔾.hz]
  exact dense_isFin (fun j => a n j) (fun j => W j k) (b k) (fun j => ha n j) (fun j => hW j k) (hb k)

theorem mlp_fin {D : ℕ} (h𝔾 : 𝔾.Ok) {xin : Fin 50000 → Fin D → EReal} {W1 : Fin D → Fin 64 → EReal}
    {b1 : Fin 64 → EReal} {W2 : Fin 64 → Fin 64 → EReal} {b2 : Fin 64 → EReal} (hx : ∀ n j, IsFin (xin n j))
    (hW1 : ∀ i j, IsFin (W1 i j)) (hb1 : ∀ j, IsFin (b1 j)) (hW2 : ∀ i j, IsFin (W2 i j))
    (hb2 : ∀ j, IsFin (b2 j)) (n : Fin 50000) (k : Fin 64) : IsFin (mlp 𝔾 xin W1 b1 W2 b2 n k) := by
  unfold mlp; exact dense_fin h𝔾 (dense_fin h𝔾 hx hW1 hb1) hW2 hb2 n k

/-! ## The three layers -/

theorem hR0_fin (h𝔾 : 𝔾.Ok) (hp : p.Fin) (n : Fin 50000) (k : Fin 64) : IsFin (hR0 𝔾 p n k) := by
  unfold hR0; exact mlp_fin h𝔾 (xinR_isFin h𝔾 hp.x) hp.W1_0 hp.b1_0 hp.W2_0 hp.b2_0 n k

theorem bR0_fin (h𝔾 : 𝔾.Ok) (hp : p.Fin) (n : Fin 50000) (k : Fin 64) : IsFin (bR0 𝔾 p n k) := by
  unfold bR0; exact bnR_isFin h𝔾 (hR0_fin h𝔾 hp) hp.γ0 hp.β0 n k

theorem hR1_fin (h𝔾 : 𝔾.Ok) (hp : p.Fin) (n : Fin 50000) (k : Fin 64) : IsFin (hR1 𝔾 p n k) := by
  unfold hR1; exact mlp_fin h𝔾 (xinR_isFin h𝔾 (bR0_fin h𝔾 hp)) hp.W1_1 hp.b1_1 hp.W2_1 hp.b2_1 n k

theorem bR1_fin (h𝔾 : 𝔾.Ok) (hp : p.Fin) (n : Fin 50000) (k : Fin 64) : IsFin (bR1 𝔾 p n k) := by
  unfold bR1; exact bnR_isFin h𝔾 (hR1_fin h𝔾 hp) hp.γ1 hp.β1 n k

theorem hR2_fin (h𝔾 : 𝔾.Ok) (hp : p.Fin) (n : Fin 50000) (k : Fin 64) : IsFin (hR2 𝔾 p n k) := by
  unfold hR2; exact mlp_fin h𝔾 (xinR_isFin h𝔾 (bR1_fin h𝔾 hp)) hp.W1_2 hp.b1_2 hp.W2_2 hp.b2_2 n k

theorem bR2_fin (h𝔾 : 𝔾.Ok) (hp : p.Fin) (n : Fin 50000) (k : Fin 64) : IsFin (bR2 𝔾 p n k) := by
  unfold bR2; exact bnR_isFin h𝔾 (hR2_fin h𝔾 hp) hp.γ2 hp.β2 n k

/-- The first layer: slope one, intercept zero. -/
theorem hK0_eq (h𝔾 : 𝔾.Ok) (hp : p.Fin) : hK0 𝔾 p = hR0 𝔾 p := by
  have hx : xinK 𝔾 p.x (fun _ => 𝔾.one) (fun _ => 𝔾.z) = xinR 𝔾 p.x := by
    funext n j
    unfold xinK xinR
    rw [h𝔾.hone, h𝔾.hz]
    exact first_layer _ _
  unfold hK0 hR0
  rw [hx]

theorem hK1_eq (h𝔾 : 𝔾.Ok) (hp : p.Fin) : hK1 𝔾 p = hR1 𝔾 p := by
  unfold hK1 hR1 bR0
  rw [hK0_eq h𝔾 hp, xinK_eq h𝔾 (hR0_fin h𝔾 hp) hp.γ0 hp.β0]

theorem hK2_eq (h𝔾 : 𝔾.Ok) (hp : p.Fin) : hK2 𝔾 p = hR2 𝔾 p := by
  unfold hK2 hR2 bR1
  rw [hK1_eq h𝔾 hp, xinK_eq h𝔾 (hR1_fin h𝔾 hp) hp.γ1 hp.β1]

/-- The first result: the last layer's normalised rows. -/
theorem out_eq (h𝔾 : 𝔾.Ok) (hp : p.Fin) : bnK 𝔾 (hK2 𝔾 p) p.γ2 p.β2 = bR2 𝔾 p := by
  rw [hK2_eq h𝔾 hp]; unfold bR2
  exact bnK_eq h𝔾 (hR2_fin h𝔾 hp) _ _

/-- The second result, block by block: the pooled normalised rows. -/
theorem pool0_eq (h𝔾 : 𝔾.Ok) (hp : p.Fin) : poolK 𝔾 (hK0 𝔾 p) p.γ0 p.β0 = poolR 𝔾 (bR0 𝔾 p) := by
  rw [hK0_eq h𝔾 hp]; unfold bR0
  exact poolK_eq h𝔾 (hR0_fin h𝔾 hp) hp.γ0 hp.β0

theorem pool1_eq (h𝔾 : 𝔾.Ok) (hp : p.Fin) : poolK 𝔾 (hK1 𝔾 p) p.γ1 p.β1 = poolR 𝔾 (bR1 𝔾 p) := by
  rw [hK1_eq h𝔾 hp]; unfold bR1
  exact poolK_eq h𝔾 (hR1_fin h𝔾 hp) hp.γ1 hp.β1

theorem pool2_eq (h𝔾 : 𝔾.Ok) (hp : p.Fin) : poolK 𝔾 (hK2 𝔾 p) p.γ2 p.β2 = poolR 𝔾 (bR2 𝔾 p) := by
  rw [hK2_eq h𝔾 hp]; unfold bR2
  exact poolK_eq h𝔾 (hR2_fin h𝔾 hp) hp.γ2 hp.β2

end Cert.GinMath

end
-- ==== Proof.PreFin.lean ====
/-
  The precondition read back.  The predicate tests, for each of the twenty float arrays, that the absolute value of
  every element is strictly below plus infinity, and conjoins the twenty answers.  On the extended reals the absolute
  value is the larger of a value and its negative, the bit pattern with all exponent bits set and no fraction bits
  denotes the top element, and the negative of the bottom element is the top element: so the test holds of an
  element exactly when it is neither infinity, that is, when it is a real number.  A conjunction over all indices
  that comes out true was true at every index.  Hence: where the predicate is true, every element of every float
  array is finite.  The two integer arrays are not tested and nothing is said of them.
-/
import proofs.«429418_j73830487818378_3_alg».proof.Defs
import proofs.«429418_j73830487818378_3_alg».proof.Proof.Gen.Pre_finite_inputs
import proofs.«429418_j73830487818378_3_alg».proof.Proof.LibERealFin
import Idealize.ShloMosaic.Lib.ReduceAll
import Idealize.ShloMosaic.Lib.ValueIdx
import Idealize.ShloMosaic.Lib.StableHlo.Predicate

namespace Cert.PreFin

open Idealize.ShloMosaic Idealize.SL.Sem
open Cert.Pre_finite_inputs
open Cert.Lib.EFin

/-- The scalar shape has a single index. -/
instance subsingleton_scalarIdx : Subsingleton S_.Idx := ⟨fun a b => funext fun d => d.elim0⟩

/-- The pattern with all eight exponent bits set, sign and fraction clear, denotes plus infinity. -/
theorem ofBits_inf : Ideal.ofBits .f32 0x7F800000#32 = (⊤ : EReal) := by
  simp [Ideal.ofBits, Ideal.ieee]

/-- An extended real whose absolute value (the larger of it and its negative) is strictly below plus infinity is
    neither infinity. -/
theorem isFin_of_abs_lt_top (x : EReal) (h : max x (-x) < (⊤ : EReal)) : IsFin x := by
  induction x using EReal.rec with
  | bot => exact absurd h (by simp)
  | coe r => exact isFin_coe r
  | top => exact absurd h (by simp)

/-- The element test in the predicate's own form: the comparison "less than" of the absolute value against the pattern of plus
    infinity answers 1 only at a finite value. -/
theorem isFin_of_cmp (x : EReal)
    (h : Ideal.cmp .olt (max x (-x)) (Ideal.ofBits .f32 0x7F800000#32) = 1#1) : IsFin x := by
  rw [ofBits_inf] at h
  refine isFin_of_abs_lt_top x ?_
  have hb : decide (max x (-x) < (⊤ : EReal)) = true :=
    (StableHlo.Predicate.ofBool_eq_one_iff _).1 h
  exact of_decide_eq_true hb

/-- The conjunction of two scalar truth values is 1 only if both are. -/
theorem and_ix0 (x y : IVec S_ 1) (h : andi x y ValueIdx.ix0 = 1#1) :
    x ValueIdx.ix0 = 1#1 ∧ y ValueIdx.ix0 = 1#1 :=
  IntOp.andi_eq_one.1 h

/-- One array's test: if the conjunction over all indices of "the absolute value is below plus infinity" is 1, every
    element of the array is finite. -/
theorem isFin_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1)
    (i : s.Idx) : IsFin (x i) :=
  isFin_of_cmp (x i) (Host.reduce_andi_all _ _ hr hu ValueIdx.ix0 e i)

/-- Every element of each of the twenty float arrays is finite. -/
structure AllFin (a0 : FVec Ideal S50000x128 .f32) (a3 : FVec Ideal S800000 .f32) (a4 : FVec Ideal S128x64 .f32) (a5 : FVec Ideal S64 .f32) (a6 : FVec Ideal S64x64 .f32) (a7 : FVec Ideal S64 .f32) (a8 : FVec Ideal S64 .f32) (a9 : FVec Ideal S64 .f32) (a10 : FVec Ideal S64x64 .f32) (a11 : FVec Ideal S64 .f32) (a12 : FVec Ideal S64x64 .f32) (a13 : FVec Ideal S64 .f32) (a14 : FVec Ideal S64 .f32) (a15 : FVec Ideal S64 .f32) (a16 : FVec Ideal S64x64 .f32) (a17 : FVec Ideal S64 .f32) (a18 : FVec Ideal S64x64 .f32) (a19 : FVec Ideal S64 .f32) (a20 : FVec Ideal S64 .f32) (a21 : FVec Ideal S64 .f32) : Prop where
  fin0 : ∀ i, IsFin (a0 i)
  fin3 : ∀ i, IsFin (a3 i)
  fin4 : ∀ i, IsFin (a4 i)
  fin5 : ∀ i, IsFin (a5 i)
  fin6 : ∀ i, IsFin (a6 i)
  fin7 : ∀ i, IsFin (a7 i)
  fin8 : ∀ i, IsFin (a8 i)
  fin9 : ∀ i, IsFin (a9 i)
  fin10 : ∀ i, IsFin (a10 i)
  fin11 : ∀ i, IsFin (a11 i)
  fin12 : ∀ i, IsFin (a12 i)
  fin13 : ∀ i, IsFin (a13 i)
  fin14 : ∀ i, IsFin (a14 i)
  fin15 : ∀ i, IsFin (a15 i)
  fin16 : ∀ i, IsFin (a16 i)
  fin17 : ∀ i, IsFin (a17 i)
  fin18 : ∀ i, IsFin (a18 i)
  fin19 : ∀ i, IsFin (a19 i)
  fin20 : ∀ i, IsFin (a20 i)
  fin21 : ∀ i, IsFin (a21 i)

/-- Where the predicate answers 1, every element of every float array is finite. -/
theorem finite_of_fn (a0 : FVec Ideal S50000x128 .f32) (a1 : IVec S2x800000 32) (a2 : IVec S50000 32) (a3 : FVec Ideal S800000 .f32) (a4 : FVec Ideal S128x64 .f32) (a5 : FVec Ideal S64 .f32) (a6 : FVec Ideal S64x64 .f32) (a7 : FVec Ideal S64 .f32) (a8 : FVec Ideal S64 .f32) (a9 : FVec Ideal S64 .f32) (a10 : FVec Ideal S64x64 .f32) (a11 : FVec Ideal S64 .f32) (a12 : FVec Ideal S64x64 .f32) (a13 : FVec Ideal S64 .f32) (a14 : FVec Ideal S64 .f32) (a15 : FVec Ideal S64 .f32) (a16 : FVec Ideal S64x64 .f32) (a17 : FVec Ideal S64 .f32) (a18 : FVec Ideal S64x64 .f32) (a19 : FVec Ideal S64 .f32) (a20 : FVec Ideal S64 .f32) (a21 : FVec Ideal S64 .f32)
    (h : Cert.Pre_finite_inputs.fn (F := Ideal) a0 a1 a2 a3 a4 a5 a6 a7 a8 a9 a10 a11 a12 a13 a14 a15 a16 a17 a18 a19 a20 a21 = fun _ => 1#1) :
    AllFin a0 a3 a4 a5 a6 a7 a8 a9 a10 a11 a12 a13 a14 a15 a16 a17 a18 a19 a20 a21 := by
  have h0 := congrFun h ValueIdx.ix0
  dsimp only [fn, fn_part1, fn_part2, fn_part3, fn_part4, fn_part5] at h0
  obtain ⟨c21, e21⟩ := and_ix0 _ _ h0
  obtain ⟨c20, e20⟩ := and_ix0 _ _ c21
  obtain ⟨c19, e19⟩ := and_ix0 _ _ c20
  obtain ⟨c18, e18⟩ := and_ix0 _ _ c19
  obtain ⟨c17, e17⟩ := and_ix0 _ _ c18
  obtain ⟨c16, e16⟩ := and_ix0 _ _ c17
  obtain ⟨c15, e15⟩ := and_ix0 _ _ c16
  obtain ⟨c14, e14⟩ := and_ix0 _ _ c15
  obtain ⟨c13, e13⟩ := and_ix0 _ _ c14
  obtain ⟨c12, e12⟩ := and_ix0 _ _ c13
  obtain ⟨c11, e11⟩ := and_ix0 _ _ c12
  obtain ⟨c10, e10⟩ := and_ix0 _ _ c11
  obtain ⟨c9, e9⟩ := and_ix0 _ _ c10
  obtain ⟨c8, e8⟩ := and_ix0 _ _ c9
  obtain ⟨c7, e7⟩ := and_ix0 _ _ c8
  obtain ⟨c6, e6⟩ := and_ix0 _ _ c7
  obtain ⟨c5, e5⟩ := and_ix0 _ _ c6
  obtain ⟨c4, e4⟩ := and_ix0 _ _ c5
  obtain ⟨e0, e3⟩ := and_ix0 _ _ c4
  exact ⟨isFin_of_all a0 _ _ _ e0,
    isFin_of_all a3 _ _ _ e3,
    isFin_of_all a4 _ _ _ e4,
    isFin_of_all a5 _ _ _ e5,
    isFin_of_all a6 _ _ _ e6,
    isFin_of_all a7 _ _ _ e7,
    isFin_of_all a8 _ _ _ e8,
    isFin_of_all a9 _ _ _ e9,
    isFin_of_all a10 _ _ _ e10,
    isFin_of_all a11 _ _ _ e11,
    isFin_of_all a12 _ _ _ e12,
    isFin_of_all a13 _ _ _ e13,
    isFin_of_all a14 _ _ _ e14,
    isFin_of_all a15 _ _ _ e15,
    isFin_of_all a16 _ _ _ e16,
    isFin_of_all a17 _ _ _ e17,
    isFin_of_all a18 _ _ _ e18,
    isFin_of_all a19 _ _ _ e19,
    isFin_of_all a20 _ _ _ e20,
    isFin_of_all a21 _ _ _ e21⟩

/-- The same at the idealized kernel's memory: under its precondition every element of every float argument array is
    finite, on every device. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    AllFin (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)) := by
  exact finite_of_fn _ _ _ _ _ _ _ _ _ _ _ _ _ _ _ _ _ _ _ _ _ _ (h c)

end Cert.PreFin
-- ==== Proof.AggRow.lean ====
import Idealize.ShloMosaic.Lib.ValueIdx

/-!
# The row an edge reads, and two broadcasts at an index

An edge list gives each of `800000` edges a source row of a `50000`-row matrix as a 32-bit word. A negative word is
wrapped once (`50000` is added to it), and the gather that reads the row clamps the wrapped word, taken as a signed
integer, into `[0, 49999]`: `rowOf src e` is the row edge `e` reads.

A vector `[E]` broadcast to a column `[E, 1]` reads the vector's entry of the row; a column `[E, 1]` broadcast along
the rows of `[E, D]` reads the column's entry of the row.
-/

noncomputable section

namespace Cert.Lib.AggRow

open Idealize.ShloMosaic Idealize.ShloMosaic.ValueIdx

/-! ## The wrapped source word and the row it names -/

/-- Edge `e`'s source word, `50000` added to it when it is negative. -/
def wrapWord (src : IVec ⟨1, ![800000]⟩ 32) (e : Fin 800000) : BitVec 32 :=
  Scalar.select (IntOp.cmpi .slt (src (ix1 e)) 0#32) (IntOp.addi (src (ix1 e)) 50000#32) (src (ix1 e))

/-- The row edge `e` reads: its wrapped source word, taken as a signed integer and clamped into `[0, 49999]`. -/
def rowOf (src : IVec ⟨1, ![800000]⟩ 32) (e : Fin 800000) : Fin 50000 :=
  ⟨min (wrapWord src e).toInt.toNat 49999, by omega⟩

/-- The elementwise wrap — select on "the word is below the splat of `0`" between the word plus the splat of `50000`
    and the word — read at `e`. -/
theorem wrap_apply (src : IVec ⟨1, ![800000]⟩ 32)
    (hb : (⟨0, ![]⟩ : Shape).BroadcastsInDim ⟨1, ![800000]⟩ ![]) (e : Fin 800000) :
    select (cmpi .slt src (broadcastInDim ⟨1, ![800000]⟩ ![] hb (constantI ⟨0, ![]⟩ 32 0#32)))
        (addi src (broadcastInDim ⟨1, ![800000]⟩ ![] hb (constantI ⟨0, ![]⟩ 32 50000#32))) src (ix1 e)
      = wrapWord src e := rfl

/-! ## Broadcasts at an index -/

section Broadcast
variable {α : Type}

/-- A vector `[E]` broadcast to a column `[E, 1]` reads, at `(e, z)`, the vector at `e`. -/
theorem bcastCol_apply {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) := by
  unfold broadcastInDim
  congr 1
  funext a
  obtain rfl : a = 0 := Subsingleton.elim _ _
  refine Fin.ext ?_
  have he := e.isLt
  by_cases h1 : (⟨1, ![E]⟩ : Shape).size 0 = 1
  · rw [dif_pos h1]
    have h1' : E = 1 := h1
    show 0 = e.val
    omega
  · rw [dif_neg h1]
    rfl

/-- A column `[E, 1]` broadcast along the rows of `[E, D]` reads, at `(e, k)`, the column at `(e, 0)`. -/
theorem bcastAlong_apply {E D : Nat} (hb : (⟨2, ![E, 1]⟩ : Shape).BroadcastsInDim ⟨2, ![E, D]⟩ ![0, 1])
    (v : (⟨2, ![E, 1]⟩ : Shape).Idx → α) (e : Fin E) (k : Fin D) :
    broadcastInDim ⟨2, ![E, D]⟩ ![0, 1] hb v (ix2 e k) = v (ix2 e (0 : Fin 1)) := by
  unfold broadcastInDim
  congr 1
  funext a
  refine Fin.ext ?_
  have he := e.isLt
  match a with
  | ⟨0, _⟩ =>
    split
    · rename_i h1
      have h1' : E = 1 := h1
      show 0 = e.val
      omega
    · rfl
  | ⟨1, _⟩ =>
    split
    · rfl
    · rename_i h1
      exact absurd rfl h1

/-- The two in a row: a vector `[E]` broadcast to a column and then along the rows of `[E, D]` reads, at `(e, k)`, the
    vector at `e`. -/
theorem bcastRows_apply {E D : Nat} (hb1 : (⟨1, ![E]⟩ : Shape).BroadcastsInDim ⟨2, ![E, 1]⟩ ![0])
    (hb2 : (⟨2, ![E, 1]⟩ : Shape).BroadcastsInDim ⟨2, ![E, D]⟩ ![0, 1])
    (v : (⟨1, ![E]⟩ : Shape).Idx → α) (e : Fin E) (k : Fin D) :
    broadcastInDim ⟨2, ![E, D]⟩ ![0, 1] hb2 (broadcastInDim ⟨2, ![E, 1]⟩ ![0] hb1 v) (ix2 e k) = v (ix1 e) := by
  rw [bcastAlong_apply, bcastCol_apply]

end Broadcast

end Cert.Lib.AggRow

end
-- ==== Proof.Inst.lean ====
/-
  The two networks' data read off the programs' argument arrays: the graph (edge list, weights, the nodes' graph
  numbers) and the parameters, as the curried functions the mathematical statement is about.  Arrays are typed by
  literal shapes, which both programs' shape names unfold to.
-/
import Idealize.ShloMosaic.Lib.ValueIdx
import proofs.«429418_j73830487818378_3_alg».proof.Proof.GinMath
import proofs.«429418_j73830487818378_3_alg».proof.Proof.AggRow

noncomputable section

namespace Cert.Inst

open Idealize.ShloMosaic Idealize.ShloMosaic.ValueIdx Cert.Lib.EFin

/-- Row 0 of the edge list: each edge's source word. -/
def srcA (ei : IVec ⟨2, ![2, 800000]⟩ 32) : IVec ⟨1, ![800000]⟩ 32 := fun i => ei (ix2 (0 : Fin 2) ⟨(i 0).val, (i 0).isLt⟩)
/-- Row 1 of the edge list: each edge's destination word. -/
def dstA (ei : IVec ⟨2, ![2, 800000]⟩ 32) : IVec ⟨1, ![800000]⟩ 32 := fun i => ei (ix2 (1 : Fin 2) ⟨(i 0).val, (i 0).isLt⟩)

theorem srcA_apply (ei : IVec ⟨2, ![2, 800000]⟩ 32) (e : Fin 800000) : srcA ei (ix1 e) = ei (ix2 (0 : Fin 2) e) := rfl
theorem dstA_apply (ei : IVec ⟨2, ![2, 800000]⟩ 32) (e : Fin 800000) : dstA ei (ix1 e) = ei (ix2 (1 : Fin 2) e) := rfl

/-- The graph: the words for 0, 1, 50000 and ε as the programs spell them; an edge lands on node `n` when its
    destination word, read signed, is `n` (a word outside the node range lands nowhere); it reads the row its source
    word names after wrapping a negative word once and clamping into the node range; node `n` is in graph `g` when
    its graph word, read signed, is `g`. -/
def graph (ei : IVec ⟨2, ![2, 800000]⟩ 32) (bt : IVec ⟨1, ![50000]⟩ 32) (ew : (⟨1, ![800000]⟩ : Shape).Idx → EReal) :
    Cert.GinMath.Graph where
  z := Ideal.ofBits .f32 0x00000000#32
  one := Ideal.ofBits .f32 0x3F800000#32
  cN := Ideal.ofBits .f32 0x47435000#32
  eps := Ideal.ofBits .f32 0x3727C5AC#32
  ew := fun e => ew (ix1 e)
  H := fun n => Finset.univ.filter (fun e : Fin 800000 => (dstA ei (ix1 e)).toInt = (n.val : ℤ))
  ρ := fun e => Cert.Lib.AggRow.rowOf (srcA ei) e
  P := fun g n => (bt (ix1 n)).toInt = (g.val : ℤ)
  decP := fun _ _ => inferInstance

theorem graph_ok (ei : IVec ⟨2, ![2, 800000]⟩ 32) (bt : IVec ⟨1, ![50000]⟩ 32) (ew : (⟨1, ![800000]⟩ : Shape).Idx → EReal)
    (hew : ∀ i, IsFin (ew i)) : (graph ei bt ew).Ok where
  hz := Cert.Lib.IdealFin.ofBits_zero
  hone := Cert.Lib.IdealFin.ofBits_one
  hcN := Cert.Lib.IdealFin.ofBits_50000
  heps := Cert.Lib.IdealFin.ofBits_eps
  hew := fun e => hew (ix1 e)

/-- A matrix argument as a curried function. -/
def mat {a b : ℕ} (w : (⟨2, ![a, b]⟩ : Shape).Idx → EReal) : Fin a → Fin b → EReal := fun i j => w (ix2 i j)
/-- A vector argument as a function. -/
def vec {a : ℕ} (v : (⟨1, ![a]⟩ : Shape).Idx → EReal) : Fin a → EReal := fun i => v (ix1 i)

/-- The parameters, from the twenty float arguments in the programs' order. -/
def params (x : (⟨2, ![50000, 128]⟩ : Shape).Idx → EReal)
    (W1_0 : (⟨2, ![128, 64]⟩ : Shape).Idx → EReal) (b1_0 : (⟨1, ![64]⟩ : Shape).Idx → EReal)
    (W2_0 : (⟨2, ![64, 64]⟩ : Shape).Idx → EReal) (b2_0 γ0 β0 : (⟨1, ![64]⟩ : Shape).Idx → EReal)
    (W1_1 : (⟨2, ![64, 64]⟩ : Shape).Idx → EReal) (b1_1 : (⟨1, ![64]⟩ : Shape).Idx → EReal)
    (W2_1 : (⟨2, ![64, 64]⟩ : Shape).Idx → EReal) (b2_1 γ1 β1 : (⟨1, ![64]⟩ : Shape).Idx → EReal)
    (W1_2 : (⟨2, ![64, 64]⟩ : Shape).Idx → EReal) (b1_2 : (⟨1, ![64]⟩ : Shape).Idx → EReal)
    (W2_2 : (⟨2, ![64, 64]⟩ : Shape).Idx → EReal) (b2_2 γ2 β2 : (⟨1, ![64]⟩ : Shape).Idx → EReal) :
    Cert.GinMath.Params where
  x := mat x
  W1_0 := mat W1_0
  b1_0 := vec b1_0
  W2_0 := mat W2_0
  b2_0 := vec b2_0
  γ0 := vec γ0
  β0 := vec β0
  W1_1 := mat W1_1
  b1_1 := vec b1_1
  W2_1 := mat W2_1
  b2_1 := vec b2_1
  γ1 := vec γ1
  β1 := vec β1
  W1_2 := mat W1_2
  b1_2 := vec b1_2
  W2_2 := mat W2_2
  b2_2 := vec b2_2
  γ2 := vec γ2
  β2 := vec β2

end Cert.Inst

end
-- ==== Proof.KGlue4.lean ====
import proofs.«429418_j73830487818378_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Glue

open Cert.KernelIdeal Cert.KernelIdeal.Gen Idealize.ShloMosaic Idealize.ShloMosaic.ValueIdx

variable {F : FTy → Type} [FloatOps F]

/-! # The last host stretch, read

The last kernel region's result, two nodes to a row, unpacked to one node a row. -/

/-- An array of 25000 rows of 128 with each row cut into two rows of 64: 50000 rows of 64. -/
def unpack64 (y : FVec F S25000x128 .f32) : FVec F S50000x64 .f32 :=
  shapeCast S50000x64 y shapeCasts_S25000x128_S50000x64

/-- The three pooled blocks side by side. -/
def pool3 (a b c : FVec F S256x64 .f32) : FVec F S256x192 .f32 :=
  concatenate S256x192 1 [⟨S256x64, a⟩, ⟨S256x64, b⟩, ⟨S256x64, c⟩] concatenates_S256x64_S256x64_S256x64_S256x192_d1

section After
variable (W : Valuation τ sig (Elt F))

theorem after4_v189 : StableHlo.after (hostOps4 (F := F)) W (Proc.devRef .tc main_v189)
    = unpack64 (W (Proc.devRef .tc main_v188)) := by
  after_results; rfl

theorem after4_v190 : StableHlo.after (hostOps4 (F := F)) W (Proc.devRef .tc main_v190)
    = pool3 (W (Proc.devRef .tc main_v64)) (W (Proc.devRef .tc main_v121)) (W (Proc.devRef .tc main_v178)) := by
  after_results; rfl

end After

/-- Node `n`, feature `k` of the unpacked array is row `n / 2`, lane `(n % 2) * 64 + k` of the packed one. -/
theorem unpack64_apply (y : FVec F S25000x128 .f32) (n : Fin 50000) (k : Fin 64) :
    unpack64 y (ix2 n k)
      = y (ix2 (⟨n.val / 2, by have := n.isLt; omega⟩ : Fin 25000)
            (⟨(n.val % 2) * 64 + k.val, by have := k.isLt; omega⟩ : Fin 128)) := by
  unfold unpack64
  refine shapeCast_apply y shapeCasts_S25000x128_S50000x64 _ _ ?_
  rw [Shape.rowMajor_val_two, Shape.rowMajor_val_two]
  show n.val / 2 * 128 + ((n.val % 2) * 64 + k.val) = n.val * 64 + k.val
  omega

/-- Column `j` of the three blocks side by side: block `j / 64` at column `j % 64`. -/
theorem pool3_apply (a b c : FVec F S256x64 .f32) (g : Fin 256) (j : Fin 192) :
    pool3 a b c (ix2 g j)
      = (if j.val < 64 then a else if j.val < 128 then b else c)
          (ix2 g (⟨j.val % 64, Nat.mod_lt _ (by decide)⟩ : Fin 64)) := by
  unfold pool3
  have hj := j.isLt
  let xs : List ((s : Shape) × (s.Idx → F .f32)) := [⟨S256x64, a⟩, ⟨S256x64, b⟩, ⟨S256x64, c⟩]
  show concatenate S256x192 1 xs concatenates_S256x64_S256x64_S256x64_S256x192_d1 (ix2 g j) = _
  by_cases h0 : j.val < 64
  · rw [if_pos h0]
    refine concatenate_apply_piece (t := S256x192) (1 : Fin 2) xs concatenates_S256x64_S256x64_S256x64_S256x192_d1 (ix2 g j)
      0 (by show (0 : Nat) < 3; decide) S256x64 a rfl rfl 0 rfl _ (fun b hb => ?_) ?_
    · match b with
      | ⟨0, _⟩ => rfl
      | ⟨1, _⟩ => exact absurd rfl hb
    · show 0 + j.val % 64 = j.val
      omega
  · rw [if_neg h0]
    by_cases h1 : j.val < 128
    · rw [if_pos h1]
      refine concatenate_apply_piece (t := S256x192) (1 : Fin 2) xs concatenates_S256x64_S256x64_S256x64_S256x192_d1 (ix2 g j)
        1 (by show (1 : Nat) < 3; decide) S256x64 b rfl rfl 64 rfl _ (fun b' hb => ?_) ?_
      · match b' with
        | ⟨0, _⟩ => rfl
        | ⟨1, _⟩ => exact absurd rfl hb
      · show 64 + j.val % 64 = j.val
        omega
    · rw [if_neg h1]
      refine concatenate_apply_piece (t := S256x192) (1 : Fin 2) xs concatenates_S256x64_S256x64_S256x64_S256x192_d1 (ix2 g j)
        2 (by show (2 : Nat) < 3; decide) S256x64 c rfl rfl 128 rfl _ (fun b' hb => ?_) ?_
      · match b' with
        | ⟨0, _⟩ => rfl
        | ⟨1, _⟩ => exact absurd rfl hb
      · show 128 + j.val % 64 = j.val
        omega

end Cert.KernelIdeal.Glue

end
-- ==== Proof.AggRead.lean ====
import Idealize.ShloMosaic.PureOps.Ideal
import Idealize.ShloMosaic.Lib.ValueIdx

/-!
# The two indexing host operations read at an index

A gather of ROWS of a matrix `x : [N, D]` at a column of start indices `idx : [E, 1]` (what `x[idx]` over the leading
axis lowers to) reads, at result index `(e, k)`, the matrix at row `idx[e, 0]` — taken as a signed integer and clamped
into `[0, N − 1]` — and column `k`.

An accumulating scatter of the rows of `upd : [E, D]` into `x : [N, D]` at the same kind of index column adds to
`x[n, k]` every `upd[e, k]` whose index `idx[e, 0]`, taken as a signed integer and NOT clamped, is `n`; an index outside
`[0, N)` lands nowhere. The flat form (`x : [N]`, `upd : [E]`) is the same without the column.
-/

noncomputable section

open scoped BigOperators

namespace Cert.Lib.AggRead

open Idealize.ShloMosaic Idealize.ShloMosaic.ValueIdx

/-- On two axes, axis 1 is not axis 0. -/
theorem fin2_one_ne_zero : (1 : Fin 2) ≠ 0 := by decide

/-! ## The gather of rows -/

section Gather
variable {α : Type}

/-- The dimension numbers of a gather of rows: operand `[N, D]`, start indices `[E, 1]`, result `[E, D]`; the result's
    axis 1 is the offset axis, the operand's axis 0 is collapsed and is the one the start index names, the slice is one
    whole row. -/
abbrev rowsGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Its operand index on axis 0: the start index `idx[e, 0]`, read signed and clamped into `[0, N − 1]` (the axis is
    collapsed and not a batching one, so neither an offset nor a batch coordinate is added). -/
theorem rowsGather_operandIdx_zero {N E D w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    ((rowsGather N E D wf).operandIdx (ix2 e k) idx 0).val = min (idx (ix2 e (0 : Fin 1))).toInt.toNat (N - 1) := by
  show (rowsGather N E D wf).start (ix2 e k) idx 0 + (rowsGather N E D wf).batchCoord (ix2 e k) 0
    + (rowsGather N E D wf).offCoord (ix2 e k) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsGather N E D wf).startIndexMap from List.mem_singleton.mpr rfl)]
  have hsi : (rowsGather N E D wf).siIdx (ix2 e k) ⟨List.idxOf (0 : Fin 2) (rowsGather N E D wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Its operand index on axis 1: the result's column (the axis is not named by the start index map, so its start is
    `0`, and it is the one kept axis, read by the one offset axis). -/
theorem rowsGather_operandIdx_one {N E D w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    ((rowsGather N E D wf).operandIdx (ix2 e k) idx 1).val = k.val := by
  show (rowsGather N E D wf).start (ix2 e k) idx 1 + (rowsGather N E D wf).batchCoord (ix2 e k) 1
    + (rowsGather N E D wf).offCoord (ix2 e k) 1 = _
  rw [GatherDims.batchCoord_eq_zero _ _ _ List.not_mem_nil, Nat.add_zero]
  have hs : (rowsGather N E D wf).start (ix2 e k) idx 1 = 0 := by
    unfold GatherDims.start
    rw [dif_neg (fun h : (1 : Fin 2) ∈ (rowsGather N E D wf).startIndexMap => fin2_one_ne_zero (List.mem_singleton.mp h))]
  rw [hs, Nat.zero_add]
  unfold GatherDims.offCoord
  rw [dif_pos ((GatherDims.mem_sKept _ _).2 ⟨fun h => fin2_one_ne_zero (List.mem_singleton.mp h), List.not_mem_nil⟩)]
  rfl

/-- THE GATHER OF ROWS READ AT `(e, k)`: the operand at row `idx[e, 0]`, read signed and clamped into `[0, N − 1]`,
    column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsGather N E D wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ => exact rowsGather_operandIdx_zero wf idx e k
  | ⟨1, _⟩ => exact rowsGather_operandIdx_one wf idx e k

end Gather

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The accumulating scatter of rows -/

section ScatterRows

/-- The dimension numbers of a scatter of rows: operand `[N, D]`, scatter indices `[E, 1]`, updates `[E, D]`; the
    updates' axis 1 is the window axis, the operand's axis 0 is inserted and is the one the scatter index names. -/
abbrev rowsScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w) (e : Fin E) (k : Fin D)

/-- The window of update `(e, k)` starts, on axis 0, at the scatter index `idx[e, 0]` read signed … -/
theorem rowsScatter_start_zero :
    (rowsScatter N E D wf).start (ix2 e k) idx 0 = (idx (ix2 e (0 : Fin 1))).toInt := by
  unfold ScatterDims.start
  rw [dif_pos (show (0 : Fin 2) ∈ (rowsScatter N E D wf).scatterDimsToOperandDims from List.mem_singleton.mpr rfl)]
  have hsi : (rowsScatter N E D wf).siIdx (ix2 e k) ⟨List.idxOf (0 : Fin 2) (rowsScatter N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
/-- … and, on axis 1, which the scatter index does not name, at `0`. -/
theorem rowsScatter_start_one : (rowsScatter N E D wf).start (ix2 e k) idx 1 = 0 := by
  unfold ScatterDims.start
  rw [dif_neg (fun h : (1 : Fin 2) ∈ (rowsScatter N E D wf).scatterDimsToOperandDims =>
    fin2_one_ne_zero (List.mem_singleton.mp h))]
/-- Its window coordinate is `0` on the inserted axis 0 … -/
theorem rowsScatter_window_zero : (rowsScatter N E D wf).window (ix2 e k) 0 = 0 := by
  unfold ScatterDims.window
  rw [dif_neg (fun h : (0 : Fin 2) ∈ (rowsScatter N E D wf).sKept => by
    have := (List.mem_filter.1 h).2
    simp at this)]
/-- … and the update's column on axis 1. -/
theorem rowsScatter_window_one : (rowsScatter N E D wf).window (ix2 e k) 1 = k.val := by
  unfold ScatterDims.window
  rw [dif_pos (show (1 : Fin 2) ∈ (rowsScatter N E D wf).sKept from
    List.mem_filter.2 ⟨List.mem_finRange _, by simp⟩)]
  rfl

/-- Update `(e, k')` lands on operand element `(n, k)` exactly when its scatter index, read signed, is `n` and its column
    is `k`. -/
theorem rowsScatter_resultIdx?_eq_some (k' : Fin D) (n : Fin N) :
    (rowsScatter N E D wf).resultIdx? (ix2 e k') idx = some (ix2 n k)
      ↔ (idx (ix2 e (0 : Fin 1))).toInt = (n.val : ℤ) ∧ k' = k := by
  have hn := n.isLt
  have hk := k.isLt
  have hk' := k'.isLt
  unfold ScatterDims.resultIdx?
  split
  · rename_i h
    rw [Option.some.injEq]
    have h0 := h 0
    rw [rowsScatter_start_zero, rowsScatter_window_zero] at h0
    constructor
    · intro hf
      have e0 : ((rowsScatter N E D wf).start (ix2 e k') idx 0 + ((rowsScatter N E D wf).window (ix2 e k') 0 : ℕ)).toNat = n.val :=
        congrArg Fin.val (congrFun hf 0)
      have e1 : ((rowsScatter N E D wf).start (ix2 e k') idx 1 + ((rowsScatter N E D wf).window (ix2 e k') 1 : ℕ)).toNat = k.val :=
        congrArg Fin.val (congrFun hf 1)
      rw [rowsScatter_start_zero, rowsScatter_window_zero] at e0
      rw [rowsScatter_start_one, rowsScatter_window_one] at e1
      exact ⟨by omega, Fin.ext (by omega)⟩
    · rintro ⟨hi, rfl⟩
      funext a
      refine Fin.ext ?_
      match a with
      | ⟨0, _⟩ =>
        show ((rowsScatter N E D wf).start (ix2 e k') idx 0 + ((rowsScatter N E D wf).window (ix2 e k') 0 : ℕ)).toNat = n.val
        rw [rowsScatter_start_zero, rowsScatter_window_zero]; omega
      | ⟨1, _⟩ =>
        show ((rowsScatter N E D wf).start (ix2 e k') idx 1 + ((rowsScatter N E D wf).window (ix2 e k') 1 : ℕ)).toNat = k'.val
        rw [rowsScatter_start_one, rowsScatter_window_one]; omega
  · rename_i h
    constructor
    · intro hf; cases hf
    · rintro ⟨hi, rfl⟩
      refine absurd (fun a => ?_) h
      match a with
      | ⟨0, _⟩ =>
        show 0 ≤ (rowsScatter N E D wf).start (ix2 e k') idx 0 + ((rowsScatter N E D wf).window (ix2 e k') 0 : ℕ)
          ∧ (rowsScatter N E D wf).start (ix2 e k') idx 0 + ((rowsScatter N E D wf).window (ix2 e k') 0 : ℕ) < (N : ℤ)
        rw [rowsScatter_start_zero, rowsScatter_window_zero]; omega
      | ⟨1, _⟩ =>
        show 0 ≤ (rowsScatter N E D wf).start (ix2 e k') idx 1 + ((rowsScatter N E D wf).window (ix2 e k') 1 : ℕ)
          ∧ (rowsScatter N E D wf).start (ix2 e k') idx 1 + ((rowsScatter N E D wf).window (ix2 e k') 1 : ℕ) < (D : ℤ)
        rw [rowsScatter_start_one, rowsScatter_window_one]; omega

/-- THE SCATTER OF ROWS READ AT `(n, k)`: the operand's element plus the updates `upd[e, k]` over the `e` whose scatter
    index `idx[e, 0]`, read signed and not clamped, is `n`. -/
theorem scatterAdd_rows_apply (x : (⟨2, ![N, D]⟩ : Shape).Idx → EReal) (upd : (⟨2, ![E, D]⟩ : Shape).Idx → EReal)
    (n : Fin N) :
    Ideal.hostScatterAdd (rowsScatter N E D wf) x idx upd (ix2 n k)
      = x (ix2 n k)
        + ∑ e ∈ Finset.univ.filter (fun e : Fin E => (idx (ix2 e (0 : Fin 1))).toInt = (n.val : ℤ)), upd (ix2 e k) := by
  unfold Ideal.hostScatterAdd
  congr 1
  rw [Finset.sum_filter, sum_idx2, Finset.sum_filter]
  refine Finset.sum_congr rfl fun e _ => ?_
  by_cases hc : (idx (ix2 e (0 : Fin 1))).toInt = (n.val : ℤ)
  · rw [if_pos hc, Finset.sum_eq_single k]
    · rw [if_pos ((rowsScatter_resultIdx?_eq_some wf idx e k k n).2 ⟨hc, rfl⟩)]
    · intro k' _ hk
      rw [if_neg fun h => hk ((rowsScatter_resultIdx?_eq_some wf idx e k k' n).1 h).2]
    · intro h; exact absurd (Finset.mem_univ _) h
  · rw [if_neg hc]
    exact Finset.sum_eq_zero fun k' _ => if_neg fun h => hc ((rowsScatter_resultIdx?_eq_some wf idx e k k' n).1 h).1

/-- The same at the ideal instance's `Host.scatterAdd`, whose accumulation is the exact sum. -/
theorem host_scatterAdd_rows_apply {φ : FTy} (x : FVec Ideal ⟨2, ![N, D]⟩ φ) (upd : FVec Ideal ⟨2, ![E, D]⟩ φ) (n : Fin N) :
    Host.scatterAdd (F := Ideal) (rowsScatter N E D wf) x idx upd (ix2 n k)
      = x (ix2 n k)
        + ∑ e ∈ Finset.univ.filter (fun e : Fin E => (idx (ix2 e (0 : Fin 1))).toInt = (n.val : ℤ)), upd (ix2 e k) :=
  scatterAdd_rows_apply wf idx k x upd n

end ScatterRows

/-! ## The accumulating scatter of a flat array -/

section ScatterFlat

/-- The dimension numbers of a flat scatter: operand `[N]`, scatter indices `[E, 1]`, updates `[E]`; no window axis,
    the operand's one axis is inserted and is the one the scatter index names. -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the scatter index `idx[e, 0]` read signed … -/
theorem flatScatter_start : (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
/-- … and its window coordinate on the inserted axis is `0`. -/
theorem flatScatter_window : (flatScatter N E wf).window (ix1 e) 0 = 0 := by
  unfold ScatterDims.window
  rw [dif_neg (fun h : (0 : Fin 1) ∈ (flatScatter N E wf).sKept => by
    have := (List.mem_filter.1 h).2
    simp at this)]

/-- Update `e` lands on operand element `n` exactly when its scatter index, read signed, is `n`. -/
theorem flatScatter_resultIdx?_eq_some (n : Fin N) :
    (flatScatter N E wf).resultIdx? (ix1 e) idx = some (ix1 n) ↔ (idx (ix2 e (0 : Fin 1))).toInt = (n.val : ℤ) := by
  have hn := n.isLt
  unfold ScatterDims.resultIdx?
  split
  · rename_i h
    rw [Option.some.injEq]
    have h0 := h 0
    rw [flatScatter_start, flatScatter_window] at h0
    constructor
    · intro hf
      have e0 : ((flatScatter N E wf).start (ix1 e) idx 0 + ((flatScatter N E wf).window (ix1 e) 0 : ℕ)).toNat = n.val :=
        congrArg Fin.val (congrFun hf 0)
      rw [flatScatter_start, flatScatter_window] at e0
      omega
    · intro hi
      funext a
      refine Fin.ext ?_
      match a with
      | ⟨0, _⟩ =>
        show ((flatScatter N E wf).start (ix1 e) idx 0 + ((flatScatter N E wf).window (ix1 e) 0 : ℕ)).toNat = n.val
        rw [flatScatter_start, flatScatter_window]; omega
  · rename_i h
    constructor
    · intro hf; cases hf
    · intro hi
      refine absurd (fun a => ?_) h
      match a with
      | ⟨0, _⟩ =>
        show 0 ≤ (flatScatter N E wf).start (ix1 e) idx 0 + ((flatScatter N E wf).window (ix1 e) 0 : ℕ)
          ∧ (flatScatter N E wf).start (ix1 e) idx 0 + ((flatScatter N E wf).window (ix1 e) 0 : ℕ) < (N : ℤ)
        rw [flatScatter_start, flatScatter_window]; omega

/-- THE FLAT SCATTER READ AT `n`: the operand's element plus the updates `upd[e]` over the `e` whose scatter index
    `idx[e, 0]`, read signed and not clamped, is `n`. -/
theorem scatterAdd_flat_apply (x : (⟨1, ![N]⟩ : Shape).Idx → EReal) (upd : (⟨1, ![E]⟩ : Shape).Idx → EReal) (n : Fin N) :
    Ideal.hostScatterAdd (flatScatter N E wf) x idx upd (ix1 n)
      = x (ix1 n)
        + ∑ e ∈ Finset.univ.filter (fun e : Fin E => (idx (ix2 e (0 : Fin 1))).toInt = (n.val : ℤ)), upd (ix1 e) := by
  unfold Ideal.hostScatterAdd
  congr 1
  rw [Finset.sum_filter, sum_idx1, Finset.sum_filter]
  refine Finset.sum_congr rfl fun e _ => ?_
  by_cases hc : (idx (ix2 e (0 : Fin 1))).toInt = (n.val : ℤ)
  · rw [if_pos hc, if_pos ((flatScatter_resultIdx?_eq_some wf idx e n).2 hc)]
  · rw [if_neg hc, if_neg fun h => hc ((flatScatter_resultIdx?_eq_some wf idx e n).1 h)]

/-- The same at the ideal instance's `Host.scatterAdd`. -/
theorem host_scatterAdd_flat_apply {φ : FTy} (x : FVec Ideal ⟨1, ![N]⟩ φ) (upd : FVec Ideal ⟨1, ![E]⟩ φ) (n : Fin N) :
    Host.scatterAdd (F := Ideal) (flatScatter N E wf) x idx upd (ix1 n)
      = x (ix1 n)
        + ∑ e ∈ Finset.univ.filter (fun e : Fin E => (idx (ix2 e (0 : Fin 1))).toInt = (n.val : ℤ)), upd (ix1 e) :=
  scatterAdd_flat_apply wf idx x upd n

end ScatterFlat

end Cert.Lib.AggRead

end
-- ==== Proof.AggReadR.lean ====
import proofs.«429418_j73830487818378_3_alg».proof.ReferenceIdeal
import proofs.«429418_j73830487818378_3_alg».proof.Proof.AggRead

/-!
# The program's gathers and accumulating scatters read at an index

Each of the program's dimension-number records is the record of a gather of rows, of a scatter of rows or of a flat
scatter at the program's literal extents (the fields are the same lists; the well-formedness field is one of the
program's facts), so the reads at an index hold of it.
-/

noncomputable section

open scoped BigOperators

namespace Cert.Lib.AggReadR

open Idealize.ShloMosaic Idealize.ShloMosaic.ValueIdx Cert.Lib.AggRead Cert.ReferenceIdeal

variable [Facts₀]
open Facts₀

/-- The gather of rows of a `[50000, 128]` matrix at `[800000, 1]` start indices, read at `(e, k)`. -/
theorem gather_50000x128_apply {α : Type} {w : Nat} (x : (⟨2, ![50000, 128]⟩ : Shape).Idx → α) (idx : IVec ⟨2, ![800000, 1]⟩ w)
    (e : Fin 800000) (k : Fin 128) :
    Host.gather gather_S50000x128_S800000x1_S800000x128_1_0_n_n_0_1_1128 x idx (ix2 e k)
      = x (ix2 ⟨min (idx (ix2 e (0 : Fin 1))).toInt.toNat (50000 - 1), by omega⟩ k) :=
  gather_rows_apply (by decide) gather_S50000x128_S800000x1_S800000x128_1_0_n_n_0_1_1128_wf x idx e k

/-- The gather of rows of a `[50000, 64]` matrix at `[800000, 1]` start indices, read at `(e, k)`. -/
theorem gather_50000x64_apply {α : Type} {w : Nat} (x : (⟨2, ![50000, 64]⟩ : Shape).Idx → α) (idx : IVec ⟨2, ![800000, 1]⟩ w)
    (e : Fin 800000) (k : Fin 64) :
    Host.gather gather_S50000x64_S800000x1_S800000x64_1_0_n_n_0_1_164 x idx (ix2 e k)
      = x (ix2 ⟨min (idx (ix2 e (0 : Fin 1))).toInt.toNat (50000 - 1), by omega⟩ k) :=
  gather_rows_apply (by decide) gather_S50000x64_S800000x1_S800000x64_1_0_n_n_0_1_164_wf x idx e k

/-- The accumulating scatter of the rows of `[800000, 128]` updates into a `[50000, 128]` matrix, read at `(n, k)`. -/
theorem scatterAdd_50000x128_apply {w : Nat} (x : (⟨2, ![50000, 128]⟩ : Shape).Idx → EReal) (idx : IVec ⟨2, ![800000, 1]⟩ w)
    (upd : (⟨2, ![800000, 128]⟩ : Shape).Idx → EReal) (n : Fin 50000) (k : Fin 128) :
    Ideal.hostScatterAdd scatter_S50000x128_S800000x1_S800000x128_1_0_0_1 x idx upd (ix2 n k)
      = x (ix2 n k)
        + ∑ e ∈ Finset.univ.filter (fun e : Fin 800000 => (idx (ix2 e (0 : Fin 1))).toInt = (n.val : ℤ)), upd (ix2 e k) :=
  scatterAdd_rows_apply scatter_S50000x128_S800000x1_S800000x128_1_0_0_1_wf idx k x upd n

/-- The same of the ideal instance's `Host.scatterAdd`. -/
theorem host_scatterAdd_50000x128_apply {φ : FTy} {w : Nat} (x : FVec Ideal ⟨2, ![50000, 128]⟩ φ) (idx : IVec ⟨2, ![800000, 1]⟩ w)
    (upd : FVec Ideal ⟨2, ![800000, 128]⟩ φ) (n : Fin 50000) (k : Fin 128) :
    Host.scatterAdd (F := Ideal) scatter_S50000x128_S800000x1_S800000x128_1_0_0_1 x idx upd (ix2 n k)
      = x (ix2 n k)
        + ∑ e ∈ Finset.univ.filter (fun e : Fin 800000 => (idx (ix2 e (0 : Fin 1))).toInt = (n.val : ℤ)), upd (ix2 e k) :=
  scatterAdd_rows_apply scatter_S50000x128_S800000x1_S800000x128_1_0_0_1_wf idx k x upd n

/-- The accumulating scatter of the rows of `[800000, 64]` updates into a `[50000, 64]` matrix, read at `(n, k)`. -/
theorem scatterAdd_50000x64_apply {w : Nat} (x : (⟨2, ![50000, 64]⟩ : Shape).Idx → EReal) (idx : IVec ⟨2, ![800000, 1]⟩ w)
    (upd : (⟨2, ![800000, 64]⟩ : Shape).Idx → EReal) (n : Fin 50000) (k : Fin 64) :
    Ideal.hostScatterAdd scatter_S50000x64_S800000x1_S800000x64_1_0_0_1 x idx upd (ix2 n k)
      = x (ix2 n k)
        + ∑ e ∈ Finset.univ.filter (fun e : Fin 800000 => (idx (ix2 e (0 : Fin 1))).toInt = (n.val : ℤ)), upd (ix2 e k) :=
  scatterAdd_rows_apply scatter_S50000x64_S800000x1_S800000x64_1_0_0_1_wf idx k x upd n

/-- The same of the ideal instance's `Host.scatterAdd`. -/
theorem host_scatterAdd_50000x64_apply {φ : FTy} {w : Nat} (x : FVec Ideal ⟨2, ![50000, 64]⟩ φ) (idx : IVec ⟨2, ![800000, 1]⟩ w)
    (upd : FVec Ideal ⟨2, ![800000, 64]⟩ φ) (n : Fin 50000) (k : Fin 64) :
    Host.scatterAdd (F := Ideal) scatter_S50000x64_S800000x1_S800000x64_1_0_0_1 x idx upd (ix2 n k)
      = x (ix2 n k)
        + ∑ e ∈ Finset.univ.filter (fun e : Fin 800000 => (idx (ix2 e (0 : Fin 1))).toInt = (n.val : ℤ)), upd (ix2 e k) :=
  scatterAdd_rows_apply scatter_S50000x64_S800000x1_S800000x64_1_0_0_1_wf idx k x upd n

/-- The accumulating scatter of the rows of `[50000, 64]` updates into a `[256, 64]` matrix, read at `(n, k)`. -/
theorem scatterAdd_256x64_apply {w : Nat} (x : (⟨2, ![256, 64]⟩ : Shape).Idx → EReal) (idx : IVec ⟨2, ![50000, 1]⟩ w)
    (upd : (⟨2, ![50000, 64]⟩ : Shape).Idx → EReal) (n : Fin 256) (k : Fin 64) :
    Ideal.hostScatterAdd scatter_S256x64_S50000x1_S50000x64_1_0_0_1 x idx upd (ix2 n k)
      = x (ix2 n k)
        + ∑ e ∈ Finset.univ.filter (fun e : Fin 50000 => (idx (ix2 e (0 : Fin 1))).toInt = (n.val : ℤ)), upd (ix2 e k) :=
  scatterAdd_rows_apply scatter_S256x64_S50000x1_S50000x64_1_0_0_1_wf idx k x upd n

/-- The same of the ideal instance's `Host.scatterAdd`. -/
theorem host_scatterAdd_256x64_apply {φ : FTy} {w : Nat} (x : FVec Ideal ⟨2, ![256, 64]⟩ φ) (idx : IVec ⟨2, ![50000, 1]⟩ w)
    (upd : FVec Ideal ⟨2, ![50000, 64]⟩ φ) (n : Fin 256) (k : Fin 64) :
    Host.scatterAdd (F := Ideal) scatter_S256x64_S50000x1_S50000x64_1_0_0_1 x idx upd (ix2 n k)
      = x (ix2 n k)
        + ∑ e ∈ Finset.univ.filter (fun e : Fin 50000 => (idx (ix2 e (0 : Fin 1))).toInt = (n.val : ℤ)), upd (ix2 e k) :=
  scatterAdd_rows_apply scatter_S256x64_S50000x1_S50000x64_1_0_0_1_wf idx k x upd n

end Cert.Lib.AggReadR

end
-- ==== Proof.RGlueEnd.lean ====
/-
  The end of the reference program read as mathematics.  Its last two stages sum each of the three layers' outputs
  per graph — into a table of zeros with one row per graph, the row of every node is added to the row its graph
  index names — and lay the three tables of 64 columns side by side as one of 192 columns.  Here: the per-graph
  sum as one function of a layer's output and the graph indices; the contents of the three pools and of the second
  result after those stages, at any valuation; the per-graph sum at an entry as zero plus the sum over the nodes of
  that graph; the side-by-side table at a column as block (column / 64) at column (column mod 64); and that two
  side-by-side tables whose blocks agree entry by entry are equal.  The side-by-side table is stated over the
  literal shapes, so that it is the same function for any program that lays three such tables side by side.
-/
import proofs.«429418_j73830487818378_3_alg».proof.ReferenceIdeal
import proofs.«429418_j73830487818378_3_alg».proof.Proof.Gen.ReferenceIdeal
import proofs.«429418_j73830487818378_3_alg».proof.Proof.RefRun0
import proofs.«429418_j73830487818378_3_alg».proof.Proof.AggReadR
import Idealize.ShloMosaic.Lib.StableHlo.Run
import Idealize.ShloMosaic.Lib.StableHlo.Predicate
import Idealize.ShloMosaic.Lib.Pipeline.Value
import Idealize.ShloMosaic.Lib.ValueIdx

noncomputable section

open scoped BigOperators

namespace Cert.ReferenceIdeal.Glue

open Cert.ReferenceIdeal Idealize.ShloMosaic Idealize.ShloMosaic.ValueIdx Idealize.SL.Sem

/-! ## Three tables of 256 rows and 64 columns side by side -/

/-- Three tables of 64 columns laid side by side make one of 192 columns. -/
theorem cat_ok : Shape.Concatenates [(⟨2, ![256, 64]⟩ : Shape), ⟨2, ![256, 64]⟩, ⟨2, ![256, 64]⟩] ⟨2, ![256, 192]⟩ 1 := by
  decide

/-- The table of 192 columns whose columns 0 … 63 are those of the first table, 64 … 127 those of the second and
    128 … 191 those of the third. -/
def outPool {α : Type} (p0 p1 p2 : (⟨2, ![256, 64]⟩ : Shape).Idx → α) : (⟨2, ![256, 192]⟩ : Shape).Idx → α :=
  concatenate ⟨2, ![256, 192]⟩ 1 [⟨⟨2, ![256, 64]⟩, p0⟩, ⟨⟨2, ![256, 64]⟩, p1⟩, ⟨⟨2, ![256, 64]⟩, p2⟩] cat_ok

/-- Any concatenation of three such tables along the columns, whatever the proof of its shape relation, is the
    side-by-side table of the three. -/
theorem concatenate_eq_outPool {α : Type} (p0 p1 p2 : (⟨2, ![256, 64]⟩ : Shape).Idx → α)
    (h : Shape.Concatenates [(⟨2, ![256, 64]⟩ : Shape), ⟨2, ![256, 64]⟩, ⟨2, ![256, 64]⟩] ⟨2, ![256, 192]⟩ 1) :
    concatenate ⟨2, ![256, 192]⟩ 1 [⟨⟨2, ![256, 64]⟩, p0⟩, ⟨⟨2, ![256, 64]⟩, p1⟩, ⟨⟨2, ![256, 64]⟩, p2⟩] h
      = outPool p0 p1 p2 := rfl

/-- Block b (of three) at column k (of 64): the side-by-side table at column 64 b + k is table b at column k. -/
theorem outPool_block {α : Type} (p : Fin 3 → (⟨2, ![256, 64]⟩ : Shape).Idx → α) (g : Fin 256) (b : Fin 3) (k : Fin 64) :
    outPool (p 0) (p 1) (p 2) (ix2 g ⟨64 * b.val + k.val, by omega⟩) = p b (ix2 g k) := by
  unfold outPool
  refine concatenate_apply_piece (t := ⟨2, ![256, 192]⟩) (1 : Fin 2)
    [⟨⟨2, ![256, 64]⟩, p 0⟩, ⟨⟨2, ![256, 64]⟩, p 1⟩, ⟨⟨2, ![256, 64]⟩, p 2⟩] cat_ok
    (ix2 g ⟨64 * b.val + k.val, by omega⟩) b.val b.isLt ⟨2, ![256, 64]⟩ (p b) ?_ rfl
    (64 * b.val) ?_ (ix2 g k) ?_ rfl
  · fin_cases b <;> rfl
  · fin_cases b <;> rfl
  · intro c hc
    fin_cases c
    · rfl
    · exact absurd rfl hc

/-- The first block: columns 0 … 63. -/
theorem outPool_apply0 {α : Type} (p0 p1 p2 : (⟨2, ![256, 64]⟩ : Shape).Idx → α) (g : Fin 256) (k : Fin 64) :
    outPool p0 p1 p2 (ix2 g ⟨k.val, by omega⟩) = p0 (ix2 g k) := by
  have := outPool_block ![p0, p1, p2] g 0 k
  simpa using this

/-- The second block: columns 64 … 127. -/
theorem outPool_apply1 {α : Type} (p0 p1 p2 : (⟨2, ![256, 64]⟩ : Shape).Idx → α) (g : Fin 256) (k : Fin 64) :
    outPool p0 p1 p2 (ix2 g ⟨64 + k.val, by omega⟩) = p1 (ix2 g k) := by
  have := outPool_block ![p0, p1, p2] g 1 k
  simpa using this

/-- The third block: columns 128 … 191. -/
theorem outPool_apply2 {α : Type} (p0 p1 p2 : (⟨2, ![256, 64]⟩ : Shape).Idx → α) (g : Fin 256) (k : Fin 64) :
    outPool p0 p1 p2 (ix2 g ⟨128 + k.val, by omega⟩) = p2 (ix2 g k) := by
  have := outPool_block ![p0, p1, p2] g 2 k
  simpa using this

/-- Read at any column j of the 192: block j / 64 at column j % 64. -/
theorem outPool_apply {α : Type} (p : Fin 3 → (⟨2, ![256, 64]⟩ : Shape).Idx → α) (g : Fin 256) (j : Fin 192) :
    outPool (p 0) (p 1) (p 2) (ix2 g j) = p ⟨j.val / 64, by omega⟩ (ix2 g ⟨j.val % 64, Nat.mod_lt _ (by decide)⟩) := by
  have hj : j = ⟨64 * (⟨j.val / 64, by omega⟩ : Fin 3).val + (⟨j.val % 64, Nat.mod_lt _ (by decide)⟩ : Fin 64).val, by
      have := j.isLt; simp only; omega⟩ := Fin.ext (by simp only; omega)
  conv_lhs => rw [hj]
  exact outPool_block p g _ _

/-- Tables that agree entry by entry are equal. -/
theorem ext_ix2 {α : Type} {n0 n1 : Nat} {p q : (⟨2, ![n0, n1]⟩ : Shape).Idx → α}
    (h : ∀ a b, p (ix2 a b) = q (ix2 a b)) : p = q := by
  funext i; rw [eq_ix2 i]; exact h _ _

/-- If the three blocks agree entry by entry, the two side-by-side tables are equal. -/
theorem concat_congr {α : Type} {p0 p1 p2 p0' p1' p2' : (⟨2, ![256, 64]⟩ : Shape).Idx → α}
    (h0 : ∀ g k, p0 (ix2 g k) = p0' (ix2 g k)) (h1 : ∀ g k, p1 (ix2 g k) = p1' (ix2 g k))
    (h2 : ∀ g k, p2 (ix2 g k) = p2' (ix2 g k)) : outPool p0 p1 p2 = outPool p0' p1' p2' := by
  rw [ext_ix2 h0, ext_ix2 h1, ext_ix2 h2]

/-! ## One layer's output summed per graph -/

section Chain

variable {F : FTy → Type} [FloatOps F]

/-- The per-graph sum of one layer's output: into a table of zeros with one row per graph, row n of the layer's
    output is added to the row the graph index of node n names. -/
def poolChain (hbn : FVec F S50000x64 .f32) (batch : IVec S50000 32) : FVec F S256x64 .f32 :=
  Host.scatterAdd scatter_S256x64_S50000x1_S50000x64_1_0_0_1
    (broadcastInDim S256x64 ![] Facts₀.bcast_S_S256x64 (constant S_ .f32 0x00000000#32))
    (broadcastInDim S50000x1 ![0] Facts₀.bcast_S50000_S50000x1_0 batch) hbn

end Chain

/-! ## The last two stages of the program, read off a valuation -/

section After

variable {F : FTy → Type} [FloatOps F]

/-- After the pooling stage the first pool is the per-graph sum of the first layer's output. -/
theorem after_v135 (W : Valuation τ sig (Elt F)) :
    StableHlo.after (Hand.ops18 (F := F)) W (Proc.devRef .tc main_v135)
      = poolChain (F := F) (W (Proc.devRef .tc main_v46)) (W (Proc.devRef .tc main_arg2)) := by
  after_results
  rfl

/-- After the pooling stage the second pool is the per-graph sum of the second layer's output. -/
theorem after_v138 (W : Valuation τ sig (Elt F)) :
    StableHlo.after (Hand.ops18 (F := F)) W (Proc.devRef .tc main_v138)
      = poolChain (F := F) (W (Proc.devRef .tc main_v89)) (W (Proc.devRef .tc main_arg2)) := by
  after_results
  rfl

/-- After the pooling stage the third pool is the per-graph sum of the third layer's output. -/
theorem after_v141 (W : Valuation τ sig (Elt F)) :
    StableHlo.after (Hand.ops18 (F := F)) W (Proc.devRef .tc main_v141)
      = poolChain (F := F) (W (Proc.devRef .tc main_v132)) (W (Proc.devRef .tc main_arg2)) := by
  after_results
  rfl

/-- After the last stage the second result is the three pools side by side. -/
theorem after_v142 (W : Valuation τ sig (Elt F)) :
    StableHlo.after (Hand.ops19 (F := F)) W (Proc.devRef .tc main_v142)
      = outPool (α := F .f32) (W (Proc.devRef .tc main_v135)) (W (Proc.devRef .tc main_v138)) (W (Proc.devRef .tc main_v141)) := by
  after_results
  rfl

end After

/-! ## The per-graph sum read at an entry, on the extended reals -/

/-- A vector laid as a column reads, at row n, the vector at n. -/
theorem bcast_col_apply {α : Type} (h : S50000.BroadcastsInDim S50000x1 (![0] : Fin 1 → Fin S50000x1.rank))
    (v : S50000.Idx → α) (n : Fin 50000) :
    broadcastInDim S50000x1 ![0] h v (ix2 n (0 : Fin 1)) = v (ix1 n) := by
  simp only [broadcastInDim]
  congr 1
  funext a
  have ha : a = 0 := Subsingleton.elim _ _
  subst ha
  apply Fin.ext
  split
  · next h1 => exact absurd h1 (by decide)
  · rfl

/-- The table of zeros reads, at every entry, the value the pattern of all zero bits denotes. -/
theorem bcast_zero_apply (h : S_.BroadcastsInDim S256x64 (![] : Fin 0 → Fin S256x64.rank)) (j : S256x64.Idx) :
    broadcastInDim S256x64 ![] h (constant (F := Ideal) S_ .f32 0x00000000#32) j = Ideal.ofBits .f32 0x00000000#32 := by
  rw [StableHlo.Predicate.bcast_scalar h (by decide)]
  rfl

/-- Entry (g, k) of the per-graph sum: zero plus the sum, over the nodes n whose graph index is g, of the layer's
    output at (n, k). -/
theorem poolChain_apply (hbn : FVec Ideal S50000x64 .f32) (batch : IVec S50000 32) (g : Fin 256) (k : Fin 64) :
    poolChain (F := Ideal) hbn batch (ix2 g k)
      = Ideal.ofBits .f32 0x00000000#32
        + ∑ n ∈ Finset.univ.filter (fun n : Fin 50000 => (batch (ix1 n)).toInt = (g.val : ℤ)), hbn (ix2 n k) := by
  unfold poolChain
  rw [Cert.Lib.AggReadR.host_scatterAdd_256x64_apply, bcast_zero_apply]
  have hf : ∀ n : Fin 50000,
      broadcastInDim S50000x1 ![0] Facts₀.bcast_S50000_S50000x1_0 batch (ix2 n (0 : Fin 1)) = batch (ix1 n) :=
    fun n => bcast_col_apply _ batch n
  refine congrArg (Ideal.ofBits .f32 0x00000000#32 + ·) (Finset.sum_congr (Finset.filter_congr fun n _ => ?_) fun _ _ => rfl)
  rw [hf n]

/-- The pattern of all zero bits denotes zero. -/
theorem ofBits_zero : Ideal.ofBits .f32 0x00000000#32 = (0 : EReal) := by
  simp [Ideal.ofBits, Ideal.ieee]

/-- The same without the leading zero. -/
theorem poolChain_apply' (hbn : FVec Ideal S50000x64 .f32) (batch : IVec S50000 32) (g : Fin 256) (k : Fin 64) :
    poolChain (F := Ideal) hbn batch (ix2 g k)
      = ∑ n ∈ Finset.univ.filter (fun n : Fin 50000 => (batch (ix1 n)).toInt = (g.val : ℤ)), hbn (ix2 n k) := by
  rw [poolChain_apply, ofBits_zero, zero_add]

end Cert.ReferenceIdeal.Glue

end
-- ==== Proof.KGlueEnd.lean ====
/-
  The kernel program's second result and the reference's are the same function of their three per-graph tables: each
  lays three tables of 256 rows and 64 columns side by side along the columns.  Hence, where the three tables agree
  entry by entry, the two results are equal.
-/
import proofs.«429418_j73830487818378_3_alg».proof.Proof.KGlue4
import proofs.«429418_j73830487818378_3_alg».proof.Proof.RGlueEnd

noncomputable section

namespace Cert.KernelIdeal.Glue

open Cert.KernelIdeal Cert.KernelIdeal.Gen Idealize.ShloMosaic Idealize.ShloMosaic.ValueIdx Idealize.SL.Sem
open Cert.ReferenceIdeal.Glue (outPool concat_congr)

variable {F : FTy → Type} [FloatOps F]

/-- The kernel program's side-by-side table of its three per-graph tables is the same function of the three as the
    reference's. -/
theorem pool3_eq_outPool (a b c : FVec F S256x64 .f32) : pool3 a b c = outPool (α := F .f32) a b c := rfl

/-- After the program's last host stretch the second result is the three per-graph tables side by side. -/
theorem after_v190 (W : Valuation τ sig (Elt F)) :
    StableHlo.after (hostOps4 (F := F)) W (Proc.devRef .tc main_v190)
      = outPool (α := F .f32) (W (Proc.devRef .tc main_v64)) (W (Proc.devRef .tc main_v121))
          (W (Proc.devRef .tc main_v178)) := by
  rw [after4_v190, pool3_eq_outPool]

/-- If the kernel's three per-graph tables agree entry by entry with three others, its side-by-side table is the
    side-by-side table of those. -/
theorem pool3_congr {a b c : FVec F S256x64 .f32} {a' b' c' : (⟨2, ![256, 64]⟩ : Shape).Idx → F .f32}
    (h0 : ∀ g k, a (ix2 g k) = a' (ix2 g k)) (h1 : ∀ g k, b (ix2 g k) = b' (ix2 g k))
    (h2 : ∀ g k, c (ix2 g k) = c' (ix2 g k)) : pool3 a b c = outPool a' b' c' := by
  rw [pool3_eq_outPool]
  exact concat_congr h0 h1 h2

end Cert.KernelIdeal.Glue

end
-- ==== Proof.K3Value.lean ====
/- The value of the region of custom_call 3 (`cc3__bn_kernel`) at the ideal instance: after the region the output array
   is one function of the five input arrays as the region finds them — at row `r` and lane `l`,
   `(h[r,l] - mean[0,l]) * rsqrt(var[0,l] + eps) * gamma[0,l] + beta[0,l]` over the extended reals. The body's payload
   read at an index; each window's block read as its array; what a point writes back as that point's block of the
   function; the five 5000-row blocks cover the 25000 rows (row `r` is in block `r / 5000`). -/
import proofs.«429418_j73830487818378_3_alg».proof.Proof.K3Frame
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- The normalisation, index by index: the 25000x128 array `h` against the four 1x128 rows, each row read at the
    index's lane; `eps` is the word the body adds to the variance. -/
def bnSpec (h : S25000x128.Idx → Elt Ideal .f32) (mean var gamma beta : S1x128.Idx → Elt Ideal .f32) :
    S25000x128.Idx → Elt Ideal .f32 := fun i =>
  (h i - mean (ix2 0 (i 1))) * Ideal.rsqrt (var (ix2 0 (i 1)) + Ideal.ofBits .f32 0x3727C5AC#32) * gamma (ix2 0 (i 1))
    + beta (ix2 0 (i 1))

/-! ## The body's payload at an index -/

/-- A 1x128 row broadcast to 5000 rows reads, at any index, the row at that index's lane. -/
theorem row_bcast (x : Vec Ideal S1x128 .f32) (j : S5000x128.Idx) :
    broadcastTo S5000x128 x broadcasts_S1x128_S5000x128 j = x (ix2 0 (j 1)) := by
  refine broadcastTo_apply x _ j _ fun a => ?_
  match a with
  | ⟨0, _⟩ => rfl
  | ⟨1, _⟩ => rfl

/-- The payload of the one store, read at an index of the block: the casts are to the same shapes, the four rows are
    broadcast along the rows, and the arithmetic is the extended reals'. (The payload takes the variance row before the
    mean row.) -/
theorem pay_apply (x0 : Vec Ideal S5000x128 .f32) (xv xm xg xb : Vec Ideal S1x128 .f32) (j : S5000x128.Idx) :
    k3_pay1 x0 xv xm xg xb j
      = (x0 j - xm (ix2 0 (j 1))) * Ideal.rsqrt (xv (ix2 0 (j 1)) + Ideal.ofBits .f32 0x3727C5AC#32) * xg (ix2 0 (j 1))
        + xb (ix2 0 (j 1)) := by
  unfold k3_pay1
  simp only [shapeCast_self]
  rw [addf_apply, mulf_apply, mulf_apply, subf_apply, row_bcast, row_bcast, row_bcast, row_bcast]
  rfl

/-- So the payload of blocks that are reads of five arrays is the function of those arrays, at an array index on the
    same lane at which the big block reads the big array. -/
theorem pay_eq_spec (A0 : S25000x128.Idx → Elt Ideal .f32) (A1 A2 A3 A4 : S1x128.Idx → Elt Ideal .f32)
    (x0 : Vec Ideal S5000x128 .f32) (xv xm xg xb : Vec Ideal S1x128 .f32) (j : S5000x128.Idx) (i : S25000x128.Idx)
    (h1 : (i 1).val = (j 1).val) (e0 : x0 j = A0 i) (em : ∀ k, xm k = A1 k) (ev : ∀ k, xv k = A2 k)
    (eg : ∀ k, xg k = A3 k) (eb : ∀ k, xb k = A4 k) :
    k3_pay1 x0 xv xm xg xb j = bnSpec A0 A1 A2 A3 A4 i := by
  have hl : (j 1 : Fin 128) = i 1 := Fin.ext h1.symm
  rw [pay_apply, e0, em, ev, eg, eb]
  unfold bnSpec
  rw [hl]

variable (V : (c : Dev nD) → (b : Ref sig .tc) → Buf (Elt Ideal) ((c : Thread nD τ).loc b))

/-! ## The windows' blocks as reads of their arrays -/

/-- The printed index maps, decided over the five points: the two big windows are at block (t, 0), the four row windows
    at block (0, 0). -/
theorem idx_facts3 : ∀ t : Fin cfg3.N,
    win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Window 0's block at point `t` is rows `5000 t … 5000 t + 4999` of its array. -/
theorem iblk3_0_apply (c : Dev nD) (t : Fin cfg3.N) (j : S5000x128.Idx) (i : S25000x128.Idx)
    (h0 : (i 0).val = 5000 * t.val + (j 0).val) (h1 : (i 1).val = (j 1).val) :
    (iblk3 V c 0 t : Vec Ideal S5000x128 .f32) j = (V c (Pipeline.arrRef spec3 0) : S25000x128.Idx → Elt Ideal .f32) i := by
  have hi := idx_facts3 t
  unfold iblk3
  rw [View.read_apply]
  show V c main_v179 _ = V c main_v179 _
  congr 1
  funext a
  apply Fin.ext
  match a with
  | ⟨0, _⟩ => show win3_0.index t (0 : Fin 2) * 5000 + 1 * (j 0).val = (i 0).val; omega
  | ⟨1, _⟩ => show win3_0.index t (1 : Fin 2) * 128 + 1 * (j 1).val = (i 1).val; omega

/-- Window 1's block at any point is its whole 1x128 array: the block index is (0, 0) and the block is the array's size. -/
theorem iblk3_1_apply (c : Dev nD) (t : Fin cfg3.N) (k : S1x128.Idx) :
    (iblk3 V c 1 t : Vec Ideal S1x128 .f32) k = (V c (Pipeline.arrRef spec3 1) : S1x128.Idx → Elt Ideal .f32) k := by
  have hi := idx_facts3 t
  unfold iblk3
  rw [View.read_apply]
  show V c main_v181 _ = V c main_v181 _
  congr 1
  funext a
  apply Fin.ext
  match a with
  | ⟨0, _⟩ => show win3_1.index t (0 : Fin 2) * 1 + 1 * (k 0).val = (k 0).val; omega
  | ⟨1, _⟩ => show win3_1.index t (1 : Fin 2) * 128 + 1 * (k 1).val = (k 1).val; omega

/-- Window 2's block at any point is its whole 1x128 array: the block index is (0, 0) and the block is the array's size. -/
theorem iblk3_2_apply (c : Dev nD) (t : Fin cfg3.N) (k : S1x128.Idx) :
    (iblk3 V c 2 t : Vec Ideal S1x128 .f32) k = (V c (Pipeline.arrRef spec3 2) : S1x128.Idx → Elt Ideal .f32) k := by
  have hi := idx_facts3 t
  unfold iblk3
  rw [View.read_apply]
  show V c main_v183 _ = V c main_v183 _
  congr 1
  funext a
  apply Fin.ext
  match a with
  | ⟨0, _⟩ => show win3_2.index t (0 : Fin 2) * 1 + 1 * (k 0).val = (k 0).val; omega
  | ⟨1, _⟩ => show win3_2.index t (1 : Fin 2) * 128 + 1 * (k 1).val = (k 1).val; omega

/-- Window 3's block at any point is its whole 1x128 array: the block index is (0, 0) and the block is the array's size. -/
theorem iblk3_3_apply (c : Dev nD) (t : Fin cfg3.N) (k : S1x128.Idx) :
    (iblk3 V c 3 t : Vec Ideal S1x128 .f32) k = (V c (Pipeline.arrRef spec3 3) : S1x128.Idx → Elt Ideal .f32) k := by
  have hi := idx_facts3 t
  unfold iblk3
  rw [View.read_apply]
  show V c main_v185 _ = V c main_v185 _
  congr 1
  funext a
  apply Fin.ext
  match a with
  | ⟨0, _⟩ => show win3_3.index t (0 : Fin 2) * 1 + 1 * (k 0).val = (k 0).val; omega
  | ⟨1, _⟩ => show win3_3.index t (1 : Fin 2) * 128 + 1 * (k 1).val = (k 1).val; omega

/-- Window 4's block at any point is its whole 1x128 array: the block index is (0, 0) and the block is the array's size. -/
theorem iblk3_4_apply (c : Dev nD) (t : Fin cfg3.N) (k : S1x128.Idx) :
    (iblk3 V c 4 t : Vec Ideal S1x128 .f32) k = (V c (Pipeline.arrRef spec3 4) : S1x128.Idx → Elt Ideal .f32) k := by
  have hi := idx_facts3 t
  unfold iblk3
  rw [View.read_apply]
  show V c main_v187 _ = V c main_v187 _
  congr 1
  funext a
  apply Fin.ext
  match a with
  | ⟨0, _⟩ => show win3_4.index t (0 : Fin 2) * 1 + 1 * (k 0).val = (k 0).val; omega
  | ⟨1, _⟩ => show win3_4.index t (1 : Fin 2) * 128 + 1 * (k 1).val = (k 1).val; omega

/-! ## What a point writes back -/

theorem hz : (![0, 0] : Fin 2 → Nat) = fun _ => 0 := funext fun a => by fin_cases a <;> rfl

/-- What point `t` writes back is block `t` of the function of the arrays as the region finds them. -/
theorem flushed3_5_eq (c : Dev nD) (t : Fin cfg3.N) :
    (dat3 V c).flushed 5 t = ((cfg3.win 5).blk t).view.read (Elt Ideal) (bnSpec (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  have hi := idx_facts3 t
  funext j
  show k3_pay1 (iblk3 V c 0 t) (iblk3 V c 2 t) (iblk3 V c 1 t) (iblk3 V c 3 t) (iblk3 V c 4 t) j
    = bnSpec (V c (Pipeline.arrRef spec3 0)) (V c (Pipeline.arrRef spec3 1)) (V c (Pipeline.arrRef spec3 2)) (V c (Pipeline.arrRef spec3 3)) (V c (Pipeline.arrRef spec3 4)) (((cfg3.win 5).blk t).view.emb j)
  have h0 : ((((cfg3.win 5).blk t).view.emb j : S25000x128.Idx) 0).val = 5000 * t.val + (j 0).val := by
    show win3_5.index t (0 : Fin 2) * 5000 + 1 * (j 0).val = _; omega
  have h1 : ((((cfg3.win 5).blk t).view.emb j : S25000x128.Idx) 1).val = (j 1).val := by
    show win3_5.index t (1 : Fin 2) * 128 + 1 * (j 1).val = _; omega
  exact pay_eq_spec _ _ _ _ _ _ _ _ _ _ j _ h1 (iblk3_0_apply V c t j _ h0 h1)
    (iblk3_1_apply V c t) (iblk3_2_apply V c t) (iblk3_3_apply V c t) (iblk3_4_apply V c t)

/-! ## The cover, and the array -/

/-- An index of the output array is in point `t`'s block iff each coordinate is in the block's range on its axis. -/
theorem mem_blk3_5 (t : Fin cfg3.N) (i : S25000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v188).slice (win3_5.rect t)).set ↔ _
  rw [View.set_slice_whole, Rect.mem_set_unit]
  exact Iff.rfl

/-- Every index of the output array is in the block of the point `r / 5000`, `r` its row; every point writes back. -/
theorem covered3_5 (i : S25000x128.Idx) :
    ∃ t : Fin cfg3.N, (cfg3.win 5).flush t = true ∧ i ∈ ((cfg3.win 5).blk t).view.set := by
  have hi0 : (i 0).val < 25000 := (i 0).isLt
  have hi1 : (i 1).val < 128 := (i 1).isLt
  have hN : cfg3.N = 5 := N_3
  obtain ⟨t, ht⟩ : ∃ t : Fin cfg3.N, t.val = (i 0).val / 5000 := ⟨⟨(i 0).val / 5000, by rw [hN]; omega⟩, rfl⟩
  have hi := idx_facts3 t
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region: the function of the five input arrays as the region finds them. -/
theorem final3_5 (c : Dev nD) :
    (dat3 (F := Ideal) V c).arrAt 5 cfg3.N = bnSpec (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 (bnSpec (V c (Pipeline.arrRef spec3 0)) (V c (Pipeline.arrRef spec3 1)) (V c (Pipeline.arrRef spec3 2)) (V c (Pipeline.arrRef spec3 3)) (V c (Pipeline.arrRef spec3 4)))
    (fun t _ => flushed3_5_eq V c t) covered3_5

end Cert.KernelIdeal.Fr

end
-- ==== Proof.KChain.lean ====
/- The kernel-side chain at the ideal instance: which buffer each window of each pallas_call stages, the named arrays
   the custom_calls leave, and the facts that a buffer written early is still there when a later stretch of host
   operations or a later region reads it — so that each region's input arrays, and each host stretch's operands, are
   read as named values. -/
import proofs.«429418_j73830487818378_3_alg».proof.Proof.KRun
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The buffer each window stages -/

/-- custom_call 0's windows, in operand order then result order. -/
theorem arr_0_0 : Pipeline.arrRef spec0 0 = main_arg0 := rfl
theorem arr_0_1 : Pipeline.arrRef spec0 1 = main_v23 := rfl
theorem arr_0_2 : Pipeline.arrRef spec0 2 = main_v8 := rfl
theorem arr_0_3 : Pipeline.arrRef spec0 3 = main_v26 := rfl
theorem arr_0_4 : Pipeline.arrRef spec0 4 = main_v27 := rfl
theorem arr_0_5 : Pipeline.arrRef spec0 5 = main_v4 := rfl
theorem arr_0_6 : Pipeline.arrRef spec0 6 = main_arg4 := rfl
theorem arr_0_7 : Pipeline.arrRef spec0 7 = main_v24 := rfl
theorem arr_0_8 : Pipeline.arrRef spec0 8 = main_arg6 := rfl
theorem arr_0_9 : Pipeline.arrRef spec0 9 = main_v25 := rfl
theorem arr_0_10 : Pipeline.arrRef spec0 10 = main_v28_0 := rfl
theorem arr_0_11 : Pipeline.arrRef spec0 11 = main_v28_1 := rfl
theorem arr_0_12 : Pipeline.arrRef spec0 12 = main_v28_2 := rfl
theorem arr_0_13 : Pipeline.arrRef spec0 13 = main_v28_3 := rfl
theorem arr_0_14 : Pipeline.arrRef spec0 14 = main_v28_4 := rfl

/-- custom_call 1's windows, in operand order then result order. -/
theorem arr_1_0 : Pipeline.arrRef spec1 0 = main_v28_0 := rfl
theorem arr_1_1 : Pipeline.arrRef spec1 1 = main_v80 := rfl
theorem arr_1_2 : Pipeline.arrRef spec1 2 = main_v8 := rfl
theorem arr_1_3 : Pipeline.arrRef spec1 3 = main_v83 := rfl
theorem arr_1_4 : Pipeline.arrRef spec1 4 = main_v84 := rfl
theorem arr_1_5 : Pipeline.arrRef spec1 5 = main_v4 := rfl
theorem arr_1_6 : Pipeline.arrRef spec1 6 = main_arg10 := rfl
theorem arr_1_7 : Pipeline.arrRef spec1 7 = main_v81 := rfl
theorem arr_1_8 : Pipeline.arrRef spec1 8 = main_arg12 := rfl
theorem arr_1_9 : Pipeline.arrRef spec1 9 = main_v82 := rfl
theorem arr_1_10 : Pipeline.arrRef spec1 10 = main_v85_0 := rfl
theorem arr_1_11 : Pipeline.arrRef spec1 11 = main_v85_1 := rfl
theorem arr_1_12 : Pipeline.arrRef spec1 12 = main_v85_2 := rfl
theorem arr_1_13 : Pipeline.arrRef spec1 13 = main_v85_3 := rfl
theorem arr_1_14 : Pipeline.arrRef spec1 14 = main_v85_4 := rfl

/-- custom_call 2's windows, in operand order then result order. -/
theorem arr_2_0 : Pipeline.arrRef spec2 0 = main_v85_0 := rfl
theorem arr_2_1 : Pipeline.arrRef spec2 1 = main_v137 := rfl
theorem arr_2_2 : Pipeline.arrRef spec2 2 = main_v8 := rfl
theorem arr_2_3 : Pipeline.arrRef spec2 3 = main_v140 := rfl
theorem arr_2_4 : Pipeline.arrRef spec2 4 = main_v141 := rfl
theorem arr_2_5 : Pipeline.arrRef spec2 5 = main_v4 := rfl
theorem arr_2_6 : Pipeline.arrRef spec2 6 = main_arg16 := rfl
theorem arr_2_7 : Pipeline.arrRef spec2 7 = main_v138 := rfl
theorem arr_2_8 : Pipeline.arrRef spec2 8 = main_arg18 := rfl
theorem arr_2_9 : Pipeline.arrRef spec2 9 = main_v139 := rfl
theorem arr_2_10 : Pipeline.arrRef spec2 10 = main_v142_0 := rfl
theorem arr_2_11 : Pipeline.arrRef spec2 11 = main_v142_1 := rfl
theorem arr_2_12 : Pipeline.arrRef spec2 12 = main_v142_2 := rfl
theorem arr_2_13 : Pipeline.arrRef spec2 13 = main_v142_3 := rfl
theorem arr_2_14 : Pipeline.arrRef spec2 14 = main_v142_4 := rfl

/-- custom_call 3's windows, in operand order then result order. -/
theorem arr_3_0 : Pipeline.arrRef spec3 0 = main_v179 := rfl
theorem arr_3_1 : Pipeline.arrRef spec3 1 = main_v181 := rfl
theorem arr_3_2 : Pipeline.arrRef spec3 2 = main_v183 := rfl
theorem arr_3_3 : Pipeline.arrRef spec3 3 = main_v185 := rfl
theorem arr_3_4 : Pipeline.arrRef spec3 4 = main_v187 := rfl
theorem arr_3_5 : Pipeline.arrRef spec3 5 = main_v188 := rfl

/-! ## Across a region, an input window's array is as entered -/

/-- Region 0 leaves the array of an input window as it found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- Region 1 leaves the array of an input window as it found it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
/-- Region 2 leaves the array of an input window as it found it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
/-- Region 3 leaves the array of an input window as it found it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ## The named arrays: each custom_call's results at its region's exit -/

/-- At launch a buffer holds the launch memory's contents. -/
theorem W0_at (c : Dev nD) (b : Ref sig .tc) : W0 m ρ c (Proc.devRef .tc b) = m ((c : Thread nD τ).loc b) := rfl

/-- Result 0 of custom_call 0 (`main_v28_0`) at region 0's exit. -/
abbrev hpK0 (c : Dev nD) : FVec Ideal S50000x64 .f32 := W2 m ρ c (Proc.devRef .tc main_v28_0)
/-- Result 1 of custom_call 0 (`main_v28_1`) at region 0's exit. -/
abbrev smK0 (c : Dev nD) : FVec Ideal S2x1x64 .f32 := W2 m ρ c (Proc.devRef .tc main_v28_1)
/-- Result 2 of custom_call 0 (`main_v28_2`) at region 0's exit. -/
abbrev sqK0 (c : Dev nD) : FVec Ideal S2x1x64 .f32 := W2 m ρ c (Proc.devRef .tc main_v28_2)
/-- Result 3 of custom_call 0 (`main_v28_3`) at region 0's exit. -/
abbrev plK0 (c : Dev nD) : FVec Ideal S2x256x64 .f32 := W2 m ρ c (Proc.devRef .tc main_v28_3)
/-- Result 4 of custom_call 0 (`main_v28_4`) at region 0's exit. -/
abbrev ctK0 (c : Dev nD) : FVec Ideal S2x1x256 .f32 := W2 m ρ c (Proc.devRef .tc main_v28_4)
theorem hpK0_eq (c : Dev nD) : hpK0 m ρ c = (dat0 (V1 m ρ) c).arrAt 10 cfg0.N := W2_arr m ρ c 10
theorem smK0_eq (c : Dev nD) : smK0 m ρ c = (dat0 (V1 m ρ) c).arrAt 11 cfg0.N := W2_arr m ρ c 11
theorem sqK0_eq (c : Dev nD) : sqK0 m ρ c = (dat0 (V1 m ρ) c).arrAt 12 cfg0.N := W2_arr m ρ c 12
theorem plK0_eq (c : Dev nD) : plK0 m ρ c = (dat0 (V1 m ρ) c).arrAt 13 cfg0.N := W2_arr m ρ c 13
theorem ctK0_eq (c : Dev nD) : ctK0 m ρ c = (dat0 (V1 m ρ) c).arrAt 14 cfg0.N := W2_arr m ρ c 14

/-- Result 0 of custom_call 1 (`main_v85_0`) at region 1's exit. -/
abbrev hpK1 (c : Dev nD) : FVec Ideal S50000x64 .f32 := W4 m ρ c (Proc.devRef .tc main_v85_0)
/-- Result 1 of custom_call 1 (`main_v85_1`) at region 1's exit. -/
abbrev smK1 (c : Dev nD) : FVec Ideal S2x1x64 .f32 := W4 m ρ c (Proc.devRef .tc main_v85_1)
/-- Result 2 of custom_call 1 (`main_v85_2`) at region 1's exit. -/
abbrev sqK1 (c : Dev nD) : FVec Ideal S2x1x64 .f32 := W4 m ρ c (Proc.devRef .tc main_v85_2)
/-- Result 3 of custom_call 1 (`main_v85_3`) at region 1's exit. -/
abbrev plK1 (c : Dev nD) : FVec Ideal S2x256x64 .f32 := W4 m ρ c (Proc.devRef .tc main_v85_3)
/-- Result 4 of custom_call 1 (`main_v85_4`) at region 1's exit. -/
abbrev ctK1 (c : Dev nD) : FVec Ideal S2x1x256 .f32 := W4 m ρ c (Proc.devRef .tc main_v85_4)
theorem hpK1_eq (c : Dev nD) : hpK1 m ρ c = (dat1 (V3 m ρ) c).arrAt 10 cfg1.N := W4_arr m ρ c 10
theorem smK1_eq (c : Dev nD) : smK1 m ρ c = (dat1 (V3 m ρ) c).arrAt 11 cfg1.N := W4_arr m ρ c 11
theorem sqK1_eq (c : Dev nD) : sqK1 m ρ c = (dat1 (V3 m ρ) c).arrAt 12 cfg1.N := W4_arr m ρ c 12
theorem plK1_eq (c : Dev nD) : plK1 m ρ c = (dat1 (V3 m ρ) c).arrAt 13 cfg1.N := W4_arr m ρ c 13
theorem ctK1_eq (c : Dev nD) : ctK1 m ρ c = (dat1 (V3 m ρ) c).arrAt 14 cfg1.N := W4_arr m ρ c 14

/-- Result 0 of custom_call 2 (`main_v142_0`) at region 2's exit. -/
abbrev hpK2 (c : Dev nD) : FVec Ideal S50000x64 .f32 := W6 m ρ c (Proc.devRef .tc main_v142_0)
/-- Result 1 of custom_call 2 (`main_v142_1`) at region 2's exit. -/
abbrev smK2 (c : Dev nD) : FVec Ideal S2x1x64 .f32 := W6 m ρ c (Proc.devRef .tc main_v142_1)
/-- Result 2 of custom_call 2 (`main_v142_2`) at region 2's exit. -/
abbrev sqK2 (c : Dev nD) : FVec Ideal S2x1x64 .f32 := W6 m ρ c (Proc.devRef .tc main_v142_2)
/-- Result 3 of custom_call 2 (`main_v142_3`) at region 2's exit. -/
abbrev plK2 (c : Dev nD) : FVec Ideal S2x256x64 .f32 := W6 m ρ c (Proc.devRef .tc main_v142_3)
/-- Result 4 of custom_call 2 (`main_v142_4`) at region 2's exit. -/
abbrev ctK2 (c : Dev nD) : FVec Ideal S2x1x256 .f32 := W6 m ρ c (Proc.devRef .tc main_v142_4)
theorem hpK2_eq (c : Dev nD) : hpK2 m ρ c = (dat2 (V5 m ρ) c).arrAt 10 cfg2.N := W6_arr m ρ c 10
theorem smK2_eq (c : Dev nD) : smK2 m ρ c = (dat2 (V5 m ρ) c).arrAt 11 cfg2.N := W6_arr m ρ c 11
theorem sqK2_eq (c : Dev nD) : sqK2 m ρ c = (dat2 (V5 m ρ) c).arrAt 12 cfg2.N := W6_arr m ρ c 12
theorem plK2_eq (c : Dev nD) : plK2 m ρ c = (dat2 (V5 m ρ) c).arrAt 13 cfg2.N := W6_arr m ρ c 13
theorem ctK2_eq (c : Dev nD) : ctK2 m ρ c = (dat2 (V5 m ρ) c).arrAt 14 cfg2.N := W6_arr m ρ c 14

/-- The result of custom_call 3 (`main_v188`) at region 3's exit. -/
abbrev bnK (c : Dev nD) : FVec Ideal S25000x128 .f32 := W8 m ρ c (Proc.devRef .tc main_v188)
theorem bnK_eq (c : Dev nD) : bnK m ρ c = (dat3 (V7 m ρ) c).arrAt 5 cfg3.N := W8_arr m ρ c 5

/-! ## What each host stretch reads from before it -/

theorem W2_main_arg8 (c : Dev nD) : W2 m ρ c (Proc.devRef .tc main_arg8) = m ((c : Thread nD τ).loc main_arg8) :=
  (((W2_of_ne m ρ c main_arg8 (by decide)).trans (W1_of m ρ c main_arg8 (by decide))).trans rfl)
theorem W2_main_arg9 (c : Dev nD) : W2 m ρ c (Proc.devRef .tc main_arg9) = m ((c : Thread nD τ).loc main_arg9) :=
  (((W2_of_ne m ρ c main_arg9 (by decide)).trans (W1_of m ρ c main_arg9 (by decide))).trans rfl)
theorem W2_main_arg3 (c : Dev nD) : W2 m ρ c (Proc.devRef .tc main_arg3) = m ((c : Thread nD τ).loc main_arg3) :=
  (((W2_of_ne m ρ c main_arg3 (by decide)).trans (W1_of m ρ c main_arg3 (by decide))).trans rfl)
theorem W2_main_arg11 (c : Dev nD) : W2 m ρ c (Proc.devRef .tc main_arg11) = m ((c : Thread nD τ).loc main_arg11) :=
  (((W2_of_ne m ρ c main_arg11 (by decide)).trans (W1_of m ρ c main_arg11 (by decide))).trans rfl)
theorem W2_main_arg13 (c : Dev nD) : W2 m ρ c (Proc.devRef .tc main_arg13) = m ((c : Thread nD τ).loc main_arg13) :=
  (((W2_of_ne m ρ c main_arg13 (by decide)).trans (W1_of m ρ c main_arg13 (by decide))).trans rfl)
theorem W2_main_v1 (c : Dev nD) : W2 m ρ c (Proc.devRef .tc main_v1) = W1 m ρ c (Proc.devRef .tc main_v1) :=
  (W2_of_ne m ρ c main_v1 (by decide))
theorem W2_main_v3 (c : Dev nD) : W2 m ρ c (Proc.devRef .tc main_v3) = W1 m ρ c (Proc.devRef .tc main_v3) :=
  (W2_of_ne m ρ c main_v3 (by decide))
theorem W4_main_arg14 (c : Dev nD) : W4 m ρ c (Proc.devRef .tc main_arg14) = m ((c : Thread nD τ).loc main_arg14) :=
  (((((W4_of_ne m ρ c main_arg14 (by decide)).trans (W3_of m ρ c main_arg14 (by decide))).trans (W2_of_ne m ρ c main_arg14 (by decide))).trans (W1_of m ρ c main_arg14 (by decide))).trans rfl)
theorem W4_main_arg15 (c : Dev nD) : W4 m ρ c (Proc.devRef .tc main_arg15) = m ((c : Thread nD τ).loc main_arg15) :=
  (((((W4_of_ne m ρ c main_arg15 (by decide)).trans (W3_of m ρ c main_arg15 (by decide))).trans (W2_of_ne m ρ c main_arg15 (by decide))).trans (W1_of m ρ c main_arg15 (by decide))).trans rfl)
theorem W4_main_arg3 (c : Dev nD) : W4 m ρ c (Proc.devRef .tc main_arg3) = m ((c : Thread nD τ).loc main_arg3) :=
  (((((W4_of_ne m ρ c main_arg3 (by decide)).trans (W3_of m ρ c main_arg3 (by decide))).trans (W2_of_ne m ρ c main_arg3 (by decide))).trans (W1_of m ρ c main_arg3 (by decide))).trans rfl)
theorem W4_main_arg17 (c : Dev nD) : W4 m ρ c (Proc.devRef .tc main_arg17) = m ((c : Thread nD τ).loc main_arg17) :=
  (((((W4_of_ne m ρ c main_arg17 (by decide)).trans (W3_of m ρ c main_arg17 (by decide))).trans (W2_of_ne m ρ c main_arg17 (by decide))).trans (W1_of m ρ c main_arg17 (by decide))).trans rfl)
theorem W4_main_arg19 (c : Dev nD) : W4 m ρ c (Proc.devRef .tc main_arg19) = m ((c : Thread nD τ).loc main_arg19) :=
  (((((W4_of_ne m ρ c main_arg19 (by decide)).trans (W3_of m ρ c main_arg19 (by decide))).trans (W2_of_ne m ρ c main_arg19 (by decide))).trans (W1_of m ρ c main_arg19 (by decide))).trans rfl)
theorem W4_main_v1 (c : Dev nD) : W4 m ρ c (Proc.devRef .tc main_v1) = W1 m ρ c (Proc.devRef .tc main_v1) :=
  (((W4_of_ne m ρ c main_v1 (by decide)).trans (W3_of m ρ c main_v1 (by decide))).trans (W2_of_ne m ρ c main_v1 (by decide)))
theorem W4_main_v3 (c : Dev nD) : W4 m ρ c (Proc.devRef .tc main_v3) = W1 m ρ c (Proc.devRef .tc main_v3) :=
  (((W4_of_ne m ρ c main_v3 (by decide)).trans (W3_of m ρ c main_v3 (by decide))).trans (W2_of_ne m ρ c main_v3 (by decide)))
theorem W6_main_arg20 (c : Dev nD) : W6 m ρ c (Proc.devRef .tc main_arg20) = m ((c : Thread nD τ).loc main_arg20) :=
  (((((((W6_of_ne m ρ c main_arg20 (by decide)).trans (W5_of m ρ c main_arg20 (by decide))).trans (W4_of_ne m ρ c main_arg20 (by decide))).trans (W3_of m ρ c main_arg20 (by decide))).trans (W2_of_ne m ρ c main_arg20 (by decide))).trans (W1_of m ρ c main_arg20 (by decide))).trans rfl)
theorem W6_main_arg21 (c : Dev nD) : W6 m ρ c (Proc.devRef .tc main_arg21) = m ((c : Thread nD τ).loc main_arg21) :=
  (((((((W6_of_ne m ρ c main_arg21 (by decide)).trans (W5_of m ρ c main_arg21 (by decide))).trans (W4_of_ne m ρ c main_arg21 (by decide))).trans (W3_of m ρ c main_arg21 (by decide))).trans (W2_of_ne m ρ c main_arg21 (by decide))).trans (W1_of m ρ c main_arg21 (by decide))).trans rfl)
theorem W8_main_v64 (c : Dev nD) : W8 m ρ c (Proc.devRef .tc main_v64) = W3 m ρ c (Proc.devRef .tc main_v64) :=
  (((((W8_of_ne m ρ c main_v64 (by decide)).trans (W7_of m ρ c main_v64 (by decide))).trans (W6_of_ne m ρ c main_v64 (by decide))).trans (W5_of m ρ c main_v64 (by decide))).trans (W4_of_ne m ρ c main_v64 (by decide)))
theorem W8_main_v121 (c : Dev nD) : W8 m ρ c (Proc.devRef .tc main_v121) = W5 m ρ c (Proc.devRef .tc main_v121) :=
  (((W8_of_ne m ρ c main_v121 (by decide)).trans (W7_of m ρ c main_v121 (by decide))).trans (W6_of_ne m ρ c main_v121 (by decide)))
theorem W8_main_v178 (c : Dev nD) : W8 m ρ c (Proc.devRef .tc main_v178) = W7 m ρ c (Proc.devRef .tc main_v178) :=
  (W8_of_ne m ρ c main_v178 (by decide))

/-! ## Each region's input arrays, as named values -/

theorem in0_0 (c : Dev nD) : V1 m ρ c (Pipeline.arrRef spec0 0) = m ((c : Thread nD τ).loc main_arg0) :=
  ((W1_of m ρ c main_arg0 (by decide)).trans rfl)
theorem in0_1 (c : Dev nD) : V1 m ρ c (Pipeline.arrRef spec0 1) = W1 m ρ c (Proc.devRef .tc main_v23) :=
  rfl
theorem in0_2 (c : Dev nD) : V1 m ρ c (Pipeline.arrRef spec0 2) = W1 m ρ c (Proc.devRef .tc main_v8) :=
  rfl
theorem in0_3 (c : Dev nD) : V1 m ρ c (Pipeline.arrRef spec0 3) = W1 m ρ c (Proc.devRef .tc main_v26) :=
  rfl
theorem in0_4 (c : Dev nD) : V1 m ρ c (Pipeline.arrRef spec0 4) = W1 m ρ c (Proc.devRef .tc main_v27) :=
  rfl
theorem in0_5 (c : Dev nD) : V1 m ρ c (Pipeline.arrRef spec0 5) = W1 m ρ c (Proc.devRef .tc main_v4) :=
  rfl
theorem in0_6 (c : Dev nD) : V1 m ρ c (Pipeline.arrRef spec0 6) = m ((c : Thread nD τ).loc main_arg4) :=
  ((W1_of m ρ c main_arg4 (by decide)).trans rfl)
theorem in0_7 (c : Dev nD) : V1 m ρ c (Pipeline.arrRef spec0 7) = W1 m ρ c (Proc.devRef .tc main_v24) :=
  rfl
theorem in0_8 (c : Dev nD) : V1 m ρ c (Pipeline.arrRef spec0 8) = m ((c : Thread nD τ).loc main_arg6) :=
  ((W1_of m ρ c main_arg6 (by decide)).trans rfl)
theorem in0_9 (c : Dev nD) : V1 m ρ c (Pipeline.arrRef spec0 9) = W1 m ρ c (Proc.devRef .tc main_v25) :=
  rfl

theorem in1_0 (c : Dev nD) : (V3 m ρ c (Pipeline.arrRef spec1 0) : FVec Ideal S50000x64 .f32) = hpK0 m ρ c :=
  (W3_of m ρ c main_v28_0 (by decide))
theorem in1_1 (c : Dev nD) : V3 m ρ c (Pipeline.arrRef spec1 1) = W3 m ρ c (Proc.devRef .tc main_v80) :=
  rfl
theorem in1_2 (c : Dev nD) : V3 m ρ c (Pipeline.arrRef spec1 2) = W1 m ρ c (Proc.devRef .tc main_v8) :=
  ((W3_of m ρ c main_v8 (by decide)).trans (W2_in m ρ c 2 rfl))
theorem in1_3 (c : Dev nD) : V3 m ρ c (Pipeline.arrRef spec1 3) = W3 m ρ c (Proc.devRef .tc main_v83) :=
  rfl
theorem in1_4 (c : Dev nD) : V3 m ρ c (Pipeline.arrRef spec1 4) = W3 m ρ c (Proc.devRef .tc main_v84) :=
  rfl
theorem in1_5 (c : Dev nD) : V3 m ρ c (Pipeline.arrRef spec1 5) = W1 m ρ c (Proc.devRef .tc main_v4) :=
  ((W3_of m ρ c main_v4 (by decide)).trans (W2_in m ρ c 5 rfl))
theorem in1_6 (c : Dev nD) : V3 m ρ c (Pipeline.arrRef spec1 6) = m ((c : Thread nD τ).loc main_arg10) :=
  ((((W3_of m ρ c main_arg10 (by decide)).trans (W2_of_ne m ρ c main_arg10 (by decide))).trans (W1_of m ρ c main_arg10 (by decide))).trans rfl)
theorem in1_7 (c : Dev nD) : V3 m ρ c (Pipeline.arrRef spec1 7) = W3 m ρ c (Proc.devRef .tc main_v81) :=
  rfl
theorem in1_8 (c : Dev nD) : V3 m ρ c (Pipeline.arrRef spec1 8) = m ((c : Thread nD τ).loc main_arg12) :=
  ((((W3_of m ρ c main_arg12 (by decide)).trans (W2_of_ne m ρ c main_arg12 (by decide))).trans (W1_of m ρ c main_arg12 (by decide))).trans rfl)
theorem in1_9 (c : Dev nD) : V3 m ρ c (Pipeline.arrRef spec1 9) = W3 m ρ c (Proc.devRef .tc main_v82) :=
  rfl

theorem in2_0 (c : Dev nD) : (V5 m ρ c (Pipeline.arrRef spec2 0) : FVec Ideal S50000x64 .f32) = hpK1 m ρ c :=
  (W5_of m ρ c main_v85_0 (by decide))
theorem in2_1 (c : Dev nD) : V5 m ρ c (Pipeline.arrRef spec2 1) = W5 m ρ c (Proc.devRef .tc main_v137) :=
  rfl
theorem in2_2 (c : Dev nD) : V5 m ρ c (Pipeline.arrRef spec2 2) = W1 m ρ c (Proc.devRef .tc main_v8) :=
  ((((W5_of m ρ c main_v8 (by decide)).trans (W4_in m ρ c 2 rfl)).trans (W3_of m ρ c main_v8 (by decide))).trans (W2_in m ρ c 2 rfl))
theorem in2_3 (c : Dev nD) : V5 m ρ c (Pipeline.arrRef spec2 3) = W5 m ρ c (Proc.devRef .tc main_v140) :=
  rfl
theorem in2_4 (c : Dev nD) : V5 m ρ c (Pipeline.arrRef spec2 4) = W5 m ρ c (Proc.devRef .tc main_v141) :=
  rfl
theorem in2_5 (c : Dev nD) : V5 m ρ c (Pipeline.arrRef spec2 5) = W1 m ρ c (Proc.devRef .tc main_v4) :=
  ((((W5_of m ρ c main_v4 (by decide)).trans (W4_in m ρ c 5 rfl)).trans (W3_of m ρ c main_v4 (by decide))).trans (W2_in m ρ c 5 rfl))
theorem in2_6 (c : Dev nD) : V5 m ρ c (Pipeline.arrRef spec2 6) = m ((c : Thread nD τ).loc main_arg16) :=
  ((((((W5_of m ρ c main_arg16 (by decide)).trans (W4_of_ne m ρ c main_arg16 (by decide))).trans (W3_of m ρ c main_arg16 (by decide))).trans (W2_of_ne m ρ c main_arg16 (by decide))).trans (W1_of m ρ c main_arg16 (by decide))).trans rfl)
theorem in2_7 (c : Dev nD) : V5 m ρ c (Pipeline.arrRef spec2 7) = W5 m ρ c (Proc.devRef .tc main_v138) :=
  rfl
theorem in2_8 (c : Dev nD) : V5 m ρ c (Pipeline.arrRef spec2 8) = m ((c : Thread nD τ).loc main_arg18) :=
  ((((((W5_of m ρ c main_arg18 (by decide)).trans (W4_of_ne m ρ c main_arg18 (by decide))).trans (W3_of m ρ c main_arg18 (by decide))).trans (W2_of_ne m ρ c main_arg18 (by decide))).trans (W1_of m ρ c main_arg18 (by decide))).trans rfl)
theorem in2_9 (c : Dev nD) : V5 m ρ c (Pipeline.arrRef spec2 9) = W5 m ρ c (Proc.devRef .tc main_v139) :=
  rfl

theorem in3_0 (c : Dev nD) : V7 m ρ c (Pipeline.arrRef spec3 0) = W7 m ρ c (Proc.devRef .tc main_v179) :=
  rfl
theorem in3_1 (c : Dev nD) : V7 m ρ c (Pipeline.arrRef spec3 1) = W7 m ρ c (Proc.devRef .tc main_v181) :=
  rfl
theorem in3_2 (c : Dev nD) : V7 m ρ c (Pipeline.arrRef spec3 2) = W7 m ρ c (Proc.devRef .tc main_v183) :=
  rfl
theorem in3_3 (c : Dev nD) : V7 m ρ c (Pipeline.arrRef spec3 3) = W7 m ρ c (Proc.devRef .tc main_v185) :=
  rfl
theorem in3_4 (c : Dev nD) : V7 m ρ c (Pipeline.arrRef spec3 4) = W7 m ρ c (Proc.devRef .tc main_v187) :=
  rfl

end Cert.KernelIdeal.Fr

end
-- ==== Proof.KGlue1.lean ====
import proofs.«429418_j73830487818378_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Glue

open Cert.KernelIdeal Cert.KernelIdeal.Gen Idealize.ShloMosaic Idealize.ShloMosaic.ValueIdx

variable {F : FTy → Type} [FloatOps F]

/-! ## The host stretch between two layers, as functions of what it reads

Each layer's kernel returns, per core, a row of column sums, a row of column sums of squares, a block of per-graph
row sums and a row of per-graph row counts. The stretch adds the two cores' parts, divides the column sums by the
number of rows (the batch mean and mean of squares), forms the clamped variance and its inverse root, normalises the
per-graph block with them, and prepares the next layer's scale, shift and neighbour sum. Each definition below is
one of these values as the operations compose, generic in the float instance. -/

/-- The two cores' rows added from zero, as a vector, divided by the constant row count. -/
def colMean (sm : FVec F S2x1x64 .f32) : FVec F S64 .f32 :=
  Host.divf
    (shapeCast S64 (Host.reduceAdd sm (constant S_ .f32 0x00000000#32) reducesTo_S2x1x64_S1x64_d0 h_S_) shapeCasts_S1x64_S64)
    (broadcastInDim S64 ![] bcast_S_S64 (constant S_ .f32 0x47435000#32))

/-- The variance: mean of squares minus squared mean, clamped below at zero. -/
def colVar (sm sq : FVec F S2x1x64 .f32) : FVec F S64 .f32 :=
  maximumf (subf (colMean sq) (mulf (colMean sm) (colMean sm)))
    (broadcastInDim S64 ![] bcast_S_S64 (constant S_ .f32 0x00000000#32))

/-- The inverse root of the variance plus the constant epsilon. -/
def colInv (sm sq : FVec F S2x1x64 .f32) : FVec F S64 .f32 :=
  Host.rsqrt (addf (colVar sm sq) (broadcastInDim S64 ![] bcast_S_S64 (constant S_ .f32 0x3727C5AC#32)))

/-- The two cores' per-graph blocks added from zero. -/
def poolSum (pl : FVec F S2x256x64 .f32) : FVec F S256x64 .f32 :=
  Host.reduceAdd pl (constant S_ .f32 0x00000000#32) reducesTo_S2x256x64_S256x64_d0 h_S_

/-- The two cores' per-graph counts added from zero, as a vector. -/
def cntSum (ct : FVec F S2x1x256 .f32) : FVec F S256 .f32 :=
  shapeCast S256 (Host.reduceAdd ct (constant S_ .f32 0x00000000#32) reducesTo_S2x1x256_S1x256_d0 h_S_) shapeCasts_S1x256_S256

/-- A per-graph vector repeated along the columns. -/
def alongCols (c : FVec F S256 .f32) : FVec F S256x64 .f32 :=
  broadcastInDim S256x64 ![0, 1] bcast_S256x1_S256x64_0_1 (broadcastInDim S256x1 ![0] bcast_S256_S256x1_0 c)

/-- A per-column vector repeated along the rows. -/
def alongRows (v : FVec F S64 .f32) : FVec F S256x64 .f32 :=
  broadcastInDim S256x64 ![0, 1] bcast_S1x64_S256x64_0_1 (broadcastInDim S1x64 ![1] bcast_S64_S1x64_1 v)

/-- The per-graph block normalised: (sum − count · mean) · inv · γ + count · β. -/
def poolBn (sm sq : FVec F S2x1x64 .f32) (pl : FVec F S2x256x64 .f32) (ct : FVec F S2x1x256 .f32) (γ β : FVec F S64 .f32) :
    FVec F S256x64 .f32 :=
  addf
    (mulf (mulf (subf (poolSum pl) (mulf (alongCols (cntSum ct)) (alongRows (colMean sm)))) (alongRows (colInv sm sq))) (alongRows γ))
    (mulf (alongCols (cntSum ct)) (alongRows β))

/-- The next layer's scale, inv · γ, as a one-row matrix. -/
def scaleRow (sm sq : FVec F S2x1x64 .f32) (γ : FVec F S64 .f32) : FVec F S1x64 .f32 :=
  shapeCast S1x64 (mulf (colInv sm sq) γ) shapeCasts_S64_S1x64

/-- The next layer's shift, β − mean · (inv · γ), as a one-row matrix. -/
def shiftRow (sm sq : FVec F S2x1x64 .f32) (γ β : FVec F S64 .f32) : FVec F S1x64 .f32 :=
  shapeCast S1x64 (subf β (mulf (colMean sm) (mulf (colInv sm sq) γ))) shapeCasts_S64_S1x64

/-- A vector as a one-row matrix. -/
def asRow (v : FVec F S64 .f32) : FVec F S1x64 .f32 := shapeCast S1x64 v shapeCasts_S64_S1x64

/-- The source indices with negative ones wrapped by the row count. -/
def srcWrap (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The next layer's neighbour sum: rows gathered at the wrapped sources, each times its edge weight, added into
    a zero matrix at the destinations. -/
def aggChain64 (hp : FVec F S50000x64 .f32) (src dst : IVec S800000 32) (ew : FVec F S800000 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf
      (Host.gather gather_S50000x64_S800000x1_S800000x64_1_0_n_n_0_1_164 hp
        (broadcastInDim S800000x1 ![0] bcast_S800000_S800000x1_0 (srcWrap src)))
      (broadcastInDim S800000x64 ![0, 1] bcast_S800000x1_S800000x64_0_1
        (broadcastInDim S800000x1 ![0] bcast_S800000_S800000x1_0 ew)))

/-! ## What the first stretch leaves in each buffer a later item reads -/

section After1
variable (W : Valuation τ sig (Elt F))

theorem after1_main_v37 :
    (StableHlo.after hostOps1 W (Proc.devRef .tc main_v37) : FVec F S64 .f32) = colMean (W (Proc.devRef .tc main_v28_1)) := by
  after_results_simp; rfl

theorem after1_main_v39 :
    (StableHlo.after hostOps1 W (Proc.devRef .tc main_v39) : FVec F S64 .f32) = colMean (W (Proc.devRef .tc main_v28_2)) := by
  after_results_simp; rfl

theorem after1_main_v43 :
    (StableHlo.after hostOps1 W (Proc.devRef .tc main_v43) : FVec F S64 .f32)
      = colVar (W (Proc.devRef .tc main_v28_1)) (W (Proc.devRef .tc main_v28_2)) := by
  after_results_simp; rfl

theorem after1_main_v46 :
    (StableHlo.after hostOps1 W (Proc.devRef .tc main_v46) : FVec F S64 .f32)
      = colInv (W (Proc.devRef .tc main_v28_1)) (W (Proc.devRef .tc main_v28_2)) := by
  after_results_simp; rfl

theorem after1_main_v64 :
    (StableHlo.after hostOps1 W (Proc.devRef .tc main_v64) : FVec F S256x64 .f32)
      = poolBn (W (Proc.devRef .tc main_v28_1)) (W (Proc.devRef .tc main_v28_2)) (W (Proc.devRef .tc main_v28_3))
          (W (Proc.devRef .tc main_v28_4)) (W (Proc.devRef .tc main_arg8)) (W (Proc.devRef .tc main_arg9)) := by
  after_results_simp; rfl

theorem after1_main_v83 :
    (StableHlo.after hostOps1 W (Proc.devRef .tc main_v83) : FVec F S1x64 .f32)
      = scaleRow (W (Proc.devRef .tc main_v28_1)) (W (Proc.devRef .tc main_v28_2)) (W (Proc.devRef .tc main_arg8)) := by
  after_results_simp; rfl

theorem after1_main_v84 :
    (StableHlo.after hostOps1 W (Proc.devRef .tc main_v84) : FVec F S1x64 .f32)
      = shiftRow (W (Proc.devRef .tc main_v28_1)) (W (Proc.devRef .tc main_v28_2)) (W (Proc.devRef .tc main_arg8))
          (W (Proc.devRef .tc main_arg9)) := by
  after_results_simp; rfl

theorem after1_main_v81 :
    (StableHlo.after hostOps1 W (Proc.devRef .tc main_v81) : FVec F S1x64 .f32) = asRow (W (Proc.devRef .tc main_arg11)) := by
  after_results_simp; rfl

theorem after1_main_v82 :
    (StableHlo.after hostOps1 W (Proc.devRef .tc main_v82) : FVec F S1x64 .f32) = asRow (W (Proc.devRef .tc main_arg13)) := by
  after_results_simp; rfl

set_option maxHeartbeats 4000000 in
theorem after1_main_v80 :
    (StableHlo.after hostOps1 W (Proc.devRef .tc main_v80) : FVec F S50000x64 .f32)
      = aggChain64 (W (Proc.devRef .tc main_v28_0)) (W (Proc.devRef .tc main_v1)) (W (Proc.devRef .tc main_v3))
          (W (Proc.devRef .tc main_arg3)) := by
  after_results_simp; rfl

end After1

/-! ## The same values read at an index, at the ideal instance -/

section AtIdeal

/-- The source index over `(u, k)` with core `c` inserted on the leading axis. -/
theorem lift_S2x1x64 (h : S2x1x64.Reduces [0] S1x64) (u : Fin 1) (k : Fin 64) (c : Fin 2) :
    h.lift (ix2 u k) c = ix3 c u k := by
  funext a; match a with | ⟨0, _⟩ => rfl | ⟨1, _⟩ => rfl | ⟨2, _⟩ => rfl

theorem lift_S2x1x256 (h : S2x1x256.Reduces [0] S1x256) (u : Fin 1) (g : Fin 256) (c : Fin 2) :
    h.lift (ix2 u g) c = ix3 c u g := by
  funext a; match a with | ⟨0, _⟩ => rfl | ⟨1, _⟩ => rfl | ⟨2, _⟩ => rfl

theorem lift_S2x256x64 (h : S2x256x64.Reduces [0] S256x64) (g : Fin 256) (k : Fin 64) (c : Fin 2) :
    h.lift (ix2 g k) c = ix3 c g k := by
  funext a; match a with | ⟨0, _⟩ => rfl | ⟨1, _⟩ => rfl | ⟨2, _⟩ => rfl

/-- The two cores' rows added from the initial value, at a column. -/
theorem reduce_S2x1x64_apply (x : FVec Ideal S2x1x64 .f32) (init : FVec Ideal S_ .f32) (u : Fin 1) (k : Fin 64) :
    Host.reduceAdd x init reducesTo_S2x1x64_S1x64_d0 h_S_ (ix2 u k) = init ix0 + (x (ix3 0 u k) + x (ix3 1 u k)) := by
  rw [hostReduceAdd_apply, Ideal.hostReduceAdd_single reducesTo_S2x1x64_S1x64_d0 (by decide)]
  show init _ + ∑ c : Fin 2, x _ = _
  rw [Fin.sum_univ_two, lift_S2x1x64, lift_S2x1x64, eq_ix0 (Shape.Idx.first h_S_)]

/-- The two cores' count rows added from the initial value, at a graph. -/
theorem reduce_S2x1x256_apply (x : FVec Ideal S2x1x256 .f32) (init : FVec Ideal S_ .f32) (u : Fin 1) (g : Fin 256) :
    Host.reduceAdd x init reducesTo_S2x1x256_S1x256_d0 h_S_ (ix2 u g) = init ix0 + (x (ix3 0 u g) + x (ix3 1 u g)) := by
  rw [hostReduceAdd_apply, Ideal.hostReduceAdd_single reducesTo_S2x1x256_S1x256_d0 (by decide)]
  show init _ + ∑ c : Fin 2, x _ = _
  rw [Fin.sum_univ_two, lift_S2x1x256, lift_S2x1x256, eq_ix0 (Shape.Idx.first h_S_)]

/-- The two cores' per-graph blocks added from the initial value, at an entry. -/
theorem reduce_S2x256x64_apply (x : FVec Ideal S2x256x64 .f32) (init : FVec Ideal S_ .f32) (g : Fin 256) (k : Fin 64) :
    Host.reduceAdd x init reducesTo_S2x256x64_S256x64_d0 h_S_ (ix2 g k) = init ix0 + (x (ix3 0 g k) + x (ix3 1 g k)) := by
  rw [hostReduceAdd_apply, Ideal.hostReduceAdd_single reducesTo_S2x256x64_S256x64_d0 (by decide)]
  show init _ + ∑ c : Fin 2, x _ = _
  rw [Fin.sum_univ_two, lift_S2x256x64, lift_S2x256x64, eq_ix0 (Shape.Idx.first h_S_)]

/-- The host's inverse root at an index is the ideal instance's inverse root of the element. -/
theorem hostRsqrt_apply {s : Shape} {φ : FTy} (a : FVec Ideal s φ) (i : s.Idx) : Host.rsqrt a i = Ideal.rsqrt (a i) := rfl

/-- The mean at column `k`: zero plus the two cores' sums, over the row count. -/
theorem colMean_apply (sm : FVec Ideal S2x1x64 .f32) (k : Fin 64) :
    colMean sm (ix1 k)
      = Ideal.div (Ideal.ofBits .f32 0x00000000#32 + (sm (ix3 0 0 k) + sm (ix3 1 0 k))) (Ideal.ofBits .f32 0x47435000#32) := by
  unfold colMean
  rw [hostDivf_apply, shapeCast_1a_a_apply, reduce_S2x1x64_apply, broadcastInDim_scalar_apply, constant_apply, constant_apply]

/-- The variance at column `k`. -/
theorem colVar_apply (sm sq : FVec Ideal S2x1x64 .f32) (k : Fin 64) :
    colVar sm sq (ix1 k)
      = max (colMean sq (ix1 k) - colMean sm (ix1 k) * colMean sm (ix1 k)) (Ideal.ofBits .f32 0x00000000#32) := by
  unfold colVar
  rw [maximumf_apply, subf_apply, mulf_apply, broadcastInDim_scalar_apply, constant_apply]

/-- The inverse root at column `k`. -/
theorem colInv_apply (sm sq : FVec Ideal S2x1x64 .f32) (k : Fin 64) :
    colInv sm sq (ix1 k) = Ideal.rsqrt (colVar sm sq (ix1 k) + Ideal.ofBits .f32 0x3727C5AC#32) := by
  unfold colInv
  rw [hostRsqrt_apply, addf_apply, broadcastInDim_scalar_apply, constant_apply]

/-- The per-graph sum at an entry. -/
theorem poolSum_apply (pl : FVec Ideal S2x256x64 .f32) (g : Fin 256) (k : Fin 64) :
    poolSum pl (ix2 g k) = Ideal.ofBits .f32 0x00000000#32 + (pl (ix3 0 g k) + pl (ix3 1 g k)) := by
  unfold poolSum
  rw [reduce_S2x256x64_apply, constant_apply]

/-- The per-graph count at a graph. -/
theorem cntSum_apply (ct : FVec Ideal S2x1x256 .f32) (g : Fin 256) :
    cntSum ct (ix1 g) = Ideal.ofBits .f32 0x00000000#32 + (ct (ix3 0 0 g) + ct (ix3 1 0 g)) := by
  unfold cntSum
  rw [shapeCast_1a_a_apply, reduce_S2x1x256_apply, constant_apply]

/-- A per-graph vector repeated along the columns reads the graph's entry. -/
theorem alongCols_apply {F : FTy → Type} (c : FVec F S256 .f32) (g : Fin 256) (k : Fin 64) :
    alongCols c (ix2 g k) = c (ix1 g) := by
  unfold alongCols
  rw [broadcastInDim_apply ![0, 1] bcast_S256x1_S256x64_0_1 _ (ix2 g k) (ix2 g 0)
      (fun a => match a with | ⟨0, _⟩ => rfl | ⟨1, _⟩ => rfl),
    broadcastInDim_apply ![0] bcast_S256_S256x1_0 c (ix2 g 0) (ix1 g) (fun a => match a with | ⟨0, _⟩ => rfl)]

/-- A per-column vector repeated along the rows reads the column's entry. -/
theorem alongRows_apply {F : FTy → Type} (v : FVec F S64 .f32) (g : Fin 256) (k : Fin 64) :
    alongRows v (ix2 g k) = v (ix1 k) := by
  unfold alongRows
  rw [broadcastInDim_apply ![0, 1] bcast_S1x64_S256x64_0_1 _ (ix2 g k) (ix2 0 k)
      (fun a => match a with | ⟨0, _⟩ => rfl | ⟨1, _⟩ => rfl),
    broadcastInDim_apply ![1] bcast_S64_S1x64_1 v (ix2 0 k) (ix1 k) (fun a => match a with | ⟨0, _⟩ => rfl)]

/-- The normalised per-graph block at an entry: ((sum − count · mean) · inv) · γ + count · β. -/
theorem poolBn_apply (sm sq : FVec Ideal S2x1x64 .f32) (pl : FVec Ideal S2x256x64 .f32) (ct : FVec Ideal S2x1x256 .f32)
    (γ β : FVec Ideal S64 .f32) (g : Fin 256) (k : Fin 64) :
    poolBn sm sq pl ct γ β (ix2 g k)
      = ((poolSum pl (ix2 g k) - cntSum ct (ix1 g) * colMean sm (ix1 k)) * colInv sm sq (ix1 k)) * γ (ix1 k)
        + cntSum ct (ix1 g) * β (ix1 k) := by
  unfold poolBn
  simp only [addf_apply, mulf_apply, subf_apply, alongCols_apply, alongRows_apply]

/-- The next layer's scale at column `k`. -/
theorem scaleRow_apply (sm sq : FVec Ideal S2x1x64 .f32) (γ : FVec Ideal S64 .f32) (u : Fin 1) (k : Fin 64) :
    scaleRow sm sq γ (ix2 u k) = colInv sm sq (ix1 k) * γ (ix1 k) := by
  unfold scaleRow
  rw [shapeCast_a_1a_apply, mulf_apply]

/-- The next layer's shift at column `k`. -/
theorem shiftRow_apply (sm sq : FVec Ideal S2x1x64 .f32) (γ β : FVec Ideal S64 .f32) (u : Fin 1) (k : Fin 64) :
    shiftRow sm sq γ β (ix2 u k) = β (ix1 k) - colMean sm (ix1 k) * (colInv sm sq (ix1 k) * γ (ix1 k)) := by
  unfold shiftRow
  rw [shapeCast_a_1a_apply, subf_apply, mulf_apply, mulf_apply]

/-- A vector as a one-row matrix reads the vector. -/
theorem asRow_apply {F : FTy → Type} (v : FVec F S64 .f32) (u : Fin 1) (k : Fin 64) : asRow v (ix2 u k) = v (ix1 k) := by
  unfold asRow
  rw [shapeCast_a_1a_apply]

end AtIdeal

end Cert.KernelIdeal.Glue

end
-- ==== Proof.KStats.lean ====
/-
  One layer's statistics as the host computes them are the statistics of the mathematical statement.  A layer's kernel
  returns, per half of the nodes, running totals over that half's five tiles of 5000 rows: of every column, of every
  column's squares, of every column restricted to each graph, and of each graph's indicator.  The host adds the two
  halves from zero, divides the column totals by the number of nodes, forms the clamped variance as the mean of squares
  minus the squared mean, its inverse root after adding epsilon, the next layer's scale and shift, and the per-graph
  block normalised after pooling.  With the four accumulators given in closed form, each of these is, entry by entry,
  the corresponding tile-by-tile quantity: pure unfolding, no finiteness needed.
-/
import proofs.«429418_j73830487818378_3_alg».proof.Proof.KGlue1
import proofs.«429418_j73830487818378_3_alg».proof.Proof.GinMath
import proofs.«429418_j73830487818378_3_alg».proof.Proof.Inst
import proofs.«429418_j73830487818378_3_alg».proof.Proof.LibLayer

noncomputable section

open scoped BigOperators

namespace Cert.KernelIdeal.Glue

open Cert.KernelIdeal Idealize.ShloMosaic Idealize.ShloMosaic.ValueIdx Cert.GinMath

/-! ## One layer's host statistics are the mathematical ones

Given that each of the four accumulators a layer's kernel returns holds, per half, zero plus the sum over that half's
five tiles of 5000 rows of the summand (the row's entry, its square, the entry where the row belongs to the graph, the
indicator of belonging), the host's mean, variance, inverse root, scale, shift and normalised per-graph block are the
tile-by-tile mean, variance, inverse root, scale, shift and block of the mathematical statement. -/

section Stats

variable (𝔾 : Cert.GinMath.Graph)

/-- Zero plus the two halves' running totals is the tile-by-tile sum. -/
theorem tiled_of_halves (f : Fin 50000 → EReal) (x0 x1 : EReal)
    (h0 : x0 = 𝔾.z + ∑ i : Fin 5, ∑ r : Fin 5000, f (rowOf 0 i r))
    (h1 : x1 = 𝔾.z + ∑ i : Fin 5, ∑ r : Fin 5000, f (rowOf 1 i r)) :
    𝔾.z + (x0 + x1) = tiled 𝔾 f := by
  unfold tiled
  rw [Fin.sum_univ_two, h0, h1]

variable (hz : 𝔾.z = Ideal.ofBits .f32 0x00000000#32) (hcN : 𝔾.cN = Ideal.ofBits .f32 0x47435000#32)
  (heps : 𝔾.eps = Ideal.ofBits .f32 0x3727C5AC#32)
  (h : Fin 50000 → Fin 64 → EReal)
  (sm sq : FVec Ideal S2x1x64 .f32) (pl : FVec Ideal S2x256x64 .f32) (ct : FVec Ideal S2x1x256 .f32)
  (γ β : FVec Ideal S64 .f32)
  (hsm : ∀ (q : Fin 2) (k : Fin 64), sm (ix3 q 0 k) = 𝔾.z + ∑ i : Fin 5, ∑ r : Fin 5000, h (rowOf q i r) k)
  (hsq : ∀ (q : Fin 2) (k : Fin 64), sq (ix3 q 0 k) = 𝔾.z + ∑ i : Fin 5, ∑ r : Fin 5000, h (rowOf q i r) k * h (rowOf q i r) k)
  (hpl : ∀ (q : Fin 2) (g : Fin 256) (k : Fin 64),
    pl (ix3 q g k) = 𝔾.z + ∑ i : Fin 5, ∑ r : Fin 5000, oh 𝔾 g (rowOf q i r) * h (rowOf q i r) k)
  (hct : ∀ (q : Fin 2) (g : Fin 256), ct (ix3 q 0 g) = 𝔾.z + ∑ i : Fin 5, ∑ r : Fin 5000, oh 𝔾 g (rowOf q i r))

include hz hcN hsm in
/-- The host's column mean is the tile-by-tile mean. -/
theorem colMean_eq (k : Fin 64) : colMean sm (ix1 k) = meanK 𝔾 h k := by
  rw [colMean_apply, ← hz, ← hcN, tiled_of_halves 𝔾 (fun n => h n k) _ _ (hsm 0 k) (hsm 1 k)]
  rfl

include hz hcN hsq in
/-- The host's column mean of the squares is the tile-by-tile sum of the squares over the row count. -/
theorem colMeanSq_eq (k : Fin 64) : colMean sq (ix1 k) = Ideal.div (tiled 𝔾 fun n => h n k * h n k) 𝔾.cN := by
  rw [colMean_apply, ← hz, ← hcN, tiled_of_halves 𝔾 (fun n => h n k * h n k) _ _ (hsq 0 k) (hsq 1 k)]

include hz hcN hsm hsq in
/-- The host's clamped variance is the tile-by-tile one. -/
theorem colVar_eq (k : Fin 64) : colVar sm sq (ix1 k) = varK 𝔾 h k := by
  rw [colVar_apply, colMeanSq_eq 𝔾 hz hcN h sq hsq k, colMean_eq 𝔾 hz hcN h sm hsm k, ← hz]
  rfl

include hz hcN heps hsm hsq in
/-- The host's inverse root is the tile-by-tile one. -/
theorem colInv_eq (k : Fin 64) : colInv sm sq (ix1 k) = invK 𝔾 h k := by
  rw [colInv_apply, colVar_eq 𝔾 hz hcN h sm sq hsm hsq k, ← heps]
  rfl

include hz hcN heps hsm hsq in
/-- The next layer's scale row is the mathematical scale. -/
theorem scaleRow_eq (u : Fin 1) (k : Fin 64) :
    scaleRow sm sq γ (ix2 u k) = sK 𝔾 h (Cert.Inst.vec (a := 64) γ) k := by
  rw [scaleRow_apply, colInv_eq 𝔾 hz hcN heps h sm sq hsm hsq k]
  rfl

include hz hcN heps hsm hsq in
/-- The next layer's shift row is the mathematical shift. -/
theorem shiftRow_eq (u : Fin 1) (k : Fin 64) :
    shiftRow sm sq γ β (ix2 u k) = tK 𝔾 h (Cert.Inst.vec (a := 64) γ) (Cert.Inst.vec (a := 64) β) k := by
  rw [shiftRow_apply, colInv_eq 𝔾 hz hcN heps h sm sq hsm hsq k, colMean_eq 𝔾 hz hcN h sm hsm k]
  rfl

include hz hpl in
/-- The two halves' per-graph sums added from zero are the tile-by-tile per-graph sum. -/
theorem poolSum_eq (g : Fin 256) (k : Fin 64) : poolSum pl (ix2 g k) = tiled 𝔾 fun n => oh 𝔾 g n * h n k := by
  rw [poolSum_apply, ← hz, tiled_of_halves 𝔾 (fun n => oh 𝔾 g n * h n k) _ _ (hpl 0 g k) (hpl 1 g k)]

include hz hct in
/-- The two halves' per-graph counts added from zero are the tile-by-tile count. -/
theorem cntSum_eq (g : Fin 256) : cntSum ct (ix1 g) = tiled 𝔾 fun n => oh 𝔾 g n := by
  rw [cntSum_apply, ← hz, tiled_of_halves 𝔾 (fun n => oh 𝔾 g n) _ _ (hct 0 g) (hct 1 g)]

include hz hcN heps hsm hsq hpl hct in
/-- The host's normalised per-graph block is the mathematical one. -/
theorem poolBn_eq (g : Fin 256) (k : Fin 64) :
    poolBn sm sq pl ct γ β (ix2 g k)
      = poolK 𝔾 h (Cert.Inst.vec (a := 64) γ) (Cert.Inst.vec (a := 64) β) g k := by
  rw [poolBn_apply, poolSum_eq 𝔾 hz h pl hpl g k, cntSum_eq 𝔾 hz ct hct g, colMean_eq 𝔾 hz hcN h sm hsm k,
    colInv_eq 𝔾 hz hcN heps h sm sq hsm hsq k]
  rfl

end Stats

end Cert.KernelIdeal.Glue

end
-- ==== Proof.KGlue0.lean ====
import proofs.«429418_j73830487818378_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Glue

open Cert.KernelIdeal Cert.KernelIdeal.Gen Idealize.ShloMosaic Idealize.ShloMosaic.ValueIdx

variable {F : FTy → Type} [FloatOps F]

/-! # The first host stretch, read

The operations before the first kernel region, as functions of the program's arguments, and each
function read at an index. -/

/-! ## The composed functions -/

/-- Row 0 of the edge list, as a vector: each edge's source. -/
def srcOf (ei : IVec S2x800000 32) : IVec S800000 32 :=
  shapeCast S800000 (extractStridedSlice S1x800000 ![0, 0] ei slices_S2x800000_S1x800000_0_0) shapeCasts_S1x800000_S800000

/-- Row 1 of the edge list, as a vector: each edge's destination. -/
def dstOf (ei : IVec S2x800000 32) : IVec S800000 32 :=
  shapeCast S800000 (extractStridedSlice S1x800000 ![1, 0] ei slices_S2x800000_S1x800000_1_0) shapeCasts_S1x800000_S800000

/-- The graph ids as one column. -/
def batchCol (b : IVec S50000 32) : IVec S50000x1 32 := shapeCast S50000x1 b shapeCasts_S50000_S50000x1

/-- A vector of edge indices as the one-column array of start indices a gather or scatter takes. -/
def idxCol (v : IVec S800000 32) : IVec S800000x1 32 := broadcastInDim S800000x1 ![0] bcast_S800000_S800000x1_0 v

/-- The weighted in-degree: the edge weights added up by destination, from zero. -/
def degVec (dst : IVec S800000 32) (ew : FVec F S800000 .f32) : FVec F S50000 .f32 :=
  Host.scatterAdd scatter_S50000_S800000x1_S800000_n_0_0_1
    (broadcastInDim S50000 ![] bcast_S_S50000 (constant (F := F) S_ .f32 0x00000000#32)) (idxCol dst) ew

/-- The weighted in-degree as one column. -/
def degw (dst : IVec S800000 32) (ew : FVec F S800000 .f32) : FVec F S50000x1 .f32 :=
  shapeCast S50000x1 (degVec dst ew) shapeCasts_S50000_S50000x1

/-- A row of 128 ones. -/
def onesRow : FVec F S1x128 .f32 :=
  shapeCast S1x128 (broadcastInDim S128 ![] bcast_S_S128 (constant (F := F) S_ .f32 0x3F800000#32)) shapeCasts_S128_S1x128

/-- A row of 128 zeros. -/
def zerosRow : FVec F S1x128 .f32 :=
  shapeCast S1x128 (broadcastInDim S128 ![] bcast_S_S128 (constant (F := F) S_ .f32 0x00000000#32)) shapeCasts_S128_S1x128

/-- A vector of 64 as one row. -/
def rowOf64 (v : FVec F S64 .f32) : FVec F S1x64 .f32 := shapeCast S1x64 v shapeCasts_S64_S1x64

/-- The source indices with a negative one counted from the end. -/
def srcNorm (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The edge weights repeated along 128 columns. -/
def ewMat128 (ew : FVec F S800000 .f32) : FVec F S800000x128 .f32 :=
  broadcastInDim S800000x128 ![0, 1] bcast_S800000x1_S800000x128_0_1
    (broadcastInDim S800000x1 ![0] bcast_S800000_S800000x1_0 ew)

/-- The first layer's edge aggregation: the source rows gathered, each times its edge's weight, added up by
    destination from zero. -/
def aggChain128 (x : FVec F S50000x128 .f32) (src dst : IVec S800000 32) (ew : FVec F S800000 .f32) :
    FVec F S50000x128 .f32 :=
  Host.scatterAdd scatter_S50000x128_S800000x1_S800000x128_1_0_0_1
    (broadcastInDim S50000x128 ![] bcast_S_S50000x128 (constant (F := F) S_ .f32 0x00000000#32)) (idxCol dst)
    (mulf (Host.gather gather_S50000x128_S800000x1_S800000x128_1_0_n_n_0_1_1128 x (idxCol (srcNorm src))) (ewMat128 ew))

/-! ## The stretch's buffers are these functions of its inputs -/

section After
variable (W : Valuation τ sig (Elt F))

set_option maxHeartbeats 4000000 in
theorem after0_v1 : StableHlo.after (hostOps0 (F := F)) W (Proc.devRef .tc main_v1)
    = srcOf (W (Proc.devRef .tc main_arg1)) := by
  after_results_simp; rfl

set_option maxHeartbeats 4000000 in
theorem after0_v3 : StableHlo.after (hostOps0 (F := F)) W (Proc.devRef .tc main_v3)
    = dstOf (W (Proc.devRef .tc main_arg1)) := by
  after_results_simp; rfl

set_option maxHeartbeats 4000000 in
theorem after0_v4 : StableHlo.after (hostOps0 (F := F)) W (Proc.devRef .tc main_v4)
    = batchCol (W (Proc.devRef .tc main_arg2)) := by
  after_results_simp; rfl

set_option maxHeartbeats 4000000 in
theorem after0_v8 : StableHlo.after (hostOps0 (F := F)) W (Proc.devRef .tc main_v8)
    = degw (dstOf (W (Proc.devRef .tc main_arg1))) (W (Proc.devRef .tc main_arg3)) := by
  after_results_simp; rfl

set_option maxHeartbeats 4000000 in
theorem after0_v26 : StableHlo.after (hostOps0 (F := F)) W (Proc.devRef .tc main_v26) = onesRow (F := F) := by
  after_results_simp; rfl

set_option maxHeartbeats 4000000 in
theorem after0_v27 : StableHlo.after (hostOps0 (F := F)) W (Proc.devRef .tc main_v27) = zerosRow (F := F) := by
  after_results_simp; rfl

set_option maxHeartbeats 4000000 in
theorem after0_v24 : StableHlo.after (hostOps0 (F := F)) W (Proc.devRef .tc main_v24)
    = rowOf64 (W (Proc.devRef .tc main_arg5)) := by
  after_results_simp; rfl

set_option maxHeartbeats 4000000 in
theorem after0_v25 : StableHlo.after (hostOps0 (F := F)) W (Proc.devRef .tc main_v25)
    = rowOf64 (W (Proc.devRef .tc main_arg7)) := by
  after_results_simp; rfl

set_option maxHeartbeats 4000000 in
theorem after0_v23 : StableHlo.after (hostOps0 (F := F)) W (Proc.devRef .tc main_v23)
    = aggChain128 (W (Proc.devRef .tc main_arg0)) (srcOf (W (Proc.devRef .tc main_arg1)))
        (dstOf (W (Proc.devRef .tc main_arg1))) (W (Proc.devRef .tc main_arg3)) := by
  after_results_simp; rfl

end After

/-! ## The functions at an index -/

theorem srcOf_apply (ei : IVec S2x800000 32) (e : Fin 800000) : srcOf ei (ix1 e) = ei (ix2 (0 : Fin 2) e) := by
  unfold srcOf
  exact (shapeCast_1a_a_apply _ shapeCasts_S1x800000_S800000 e).trans
    (slice2_axis0_apply 0 ei slices_S2x800000_S1x800000_0_0 (0 : Fin 1) e (0 : Fin 2) rfl)

theorem dstOf_apply (ei : IVec S2x800000 32) (e : Fin 800000) : dstOf ei (ix1 e) = ei (ix2 (1 : Fin 2) e) := by
  unfold dstOf
  exact (shapeCast_1a_a_apply _ shapeCasts_S1x800000_S800000 e).trans
    (slice2_axis0_apply 1 ei slices_S2x800000_S1x800000_1_0 (0 : Fin 1) e (1 : Fin 2) rfl)

/-- A vector cast to one column reads, at `(n, 0)`, the vector at `n`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem batchCol_apply (b : IVec S50000 32) (n : Fin 50000) (u : Fin 1) : batchCol b (ix2 n u) = b (ix1 n) :=
  shapeCast_a_a1_apply b shapeCasts_S50000_S50000x1 n u

theorem idxCol_apply (v : IVec S800000 32) (e : Fin 800000) (u : Fin 1) : idxCol v (ix2 e u) = v (ix1 e) := by
  unfold idxCol
  exact broadcastInDim_apply _ bcast_S800000_S800000x1_0 v (ix2 e u) (ix1 e) (fun a => by
    match a with
    | ⟨0, _⟩ => rfl)

theorem degw_apply (dst : IVec S800000 32) (ew : FVec F S800000 .f32) (n : Fin 50000) (u : Fin 1) :
    degw dst ew (ix2 n u) = degVec dst ew (ix1 n) :=
  shapeCast_a_a1_apply (degVec dst ew) shapeCasts_S50000_S50000x1 n u

theorem rowOf64_apply (v : FVec F S64 .f32) (u : Fin 1) (k : Fin 64) : rowOf64 v (ix2 u k) = v (ix1 k) :=
  shapeCast_a_1a_apply v shapeCasts_S64_S1x64 u k

theorem onesRow_apply (u : Fin 1) (j : Fin 128) :
    onesRow (F := Ideal) (ix2 u j) = Ideal.ofBits .f32 0x3F800000#32 := by
  unfold onesRow
  refine (shapeCast_a_1a_apply _ shapeCasts_S128_S1x128 u j).trans ?_
  exact (broadcastInDim_apply _ bcast_S_S128 _ (ix1 j) ix0 (fun a => a.elim0)).trans (constant_apply _ _)

theorem zerosRow_apply (u : Fin 1) (j : Fin 128) :
    zerosRow (F := Ideal) (ix2 u j) = Ideal.ofBits .f32 0x00000000#32 := by
  unfold zerosRow
  refine (shapeCast_a_1a_apply _ shapeCasts_S128_S1x128 u j).trans ?_
  exact (broadcastInDim_apply _ bcast_S_S128 _ (ix1 j) ix0 (fun a => a.elim0)).trans (constant_apply _ _)

theorem ewMat128_apply (ew : FVec F S800000 .f32) (e : Fin 800000) (k : Fin 128) :
    ewMat128 ew (ix2 e k) = ew (ix1 e) := by
  unfold ewMat128
  refine (broadcastInDim_apply _ bcast_S800000x1_S800000x128_0_1 _ (ix2 e k) (ix2 e (0 : Fin 1)) (fun a => by
    match a with
    | ⟨0, _⟩ => rfl
    | ⟨1, _⟩ => rfl)).trans ?_
  exact broadcastInDim_apply _ bcast_S800000_S800000x1_0 ew (ix2 e (0 : Fin 1)) (ix1 e) (fun a => by
    match a with
    | ⟨0, _⟩ => rfl)

/-- The zero array the weighted in-degree starts from. -/
theorem degZero_apply (n : Fin 50000) :
    broadcastInDim S50000 ![] bcast_S_S50000 (constant (F := Ideal) S_ .f32 0x00000000#32) (ix1 n)
      = Ideal.ofBits .f32 0x00000000#32 :=
  (broadcastInDim_apply _ bcast_S_S50000 _ (ix1 n) ix0 (fun a => a.elim0)).trans (constant_apply _ _)

/-- The zero array the aggregation starts from. -/
theorem aggZero128_apply (n : Fin 50000) (k : Fin 128) :
    broadcastInDim S50000x128 ![] bcast_S_S50000x128 (constant (F := Ideal) S_ .f32 0x00000000#32) (ix2 n k)
      = Ideal.ofBits .f32 0x00000000#32 :=
  (broadcastInDim_apply _ bcast_S_S50000x128 _ (ix2 n k) ix0 (fun a => a.elim0)).trans (constant_apply _ _)

end Cert.KernelIdeal.Glue

end
-- ==== Proof.KGlue2.lean ====
import proofs.«429418_j73830487818378_3_alg».proof.Proof.KGlue1

set_option maxRecDepth 16384

noncomputable section

namespace Cert.KernelIdeal.Glue

open Cert.KernelIdeal Cert.KernelIdeal.Gen Idealize.ShloMosaic Idealize.ShloMosaic.ValueIdx

variable {F : FTy → Type} [FloatOps F]

/-! ## What the second stretch leaves in each buffer a later item reads -/

section After2
variable (W : Valuation τ sig (Elt F))

theorem after2_main_v94 :
    (StableHlo.after hostOps2 W (Proc.devRef .tc main_v94) : FVec F S64 .f32) = colMean (W (Proc.devRef .tc main_v85_1)) := by
  after_results_simp; rfl

theorem after2_main_v96 :
    (StableHlo.after hostOps2 W (Proc.devRef .tc main_v96) : FVec F S64 .f32) = colMean (W (Proc.devRef .tc main_v85_2)) := by
  after_results_simp; rfl

theorem after2_main_v100 :
    (StableHlo.after hostOps2 W (Proc.devRef .tc main_v100) : FVec F S64 .f32)
      = colVar (W (Proc.devRef .tc main_v85_1)) (W (Proc.devRef .tc main_v85_2)) := by
  after_results_simp; rfl

theorem after2_main_v103 :
    (StableHlo.after hostOps2 W (Proc.devRef .tc main_v103) : FVec F S64 .f32)
      = colInv (W (Proc.devRef .tc main_v85_1)) (W (Proc.devRef .tc main_v85_2)) := by
  after_results_simp; rfl

theorem after2_main_v121 :
    (StableHlo.after hostOps2 W (Proc.devRef .tc main_v121) : FVec F S256x64 .f32)
      = poolBn (W (Proc.devRef .tc main_v85_1)) (W (Proc.devRef .tc main_v85_2)) (W (Proc.devRef .tc main_v85_3))
          (W (Proc.devRef .tc main_v85_4)) (W (Proc.devRef .tc main_arg14)) (W (Proc.devRef .tc main_arg15)) := by
  after_results_simp; rfl

theorem after2_main_v140 :
    (StableHlo.after hostOps2 W (Proc.devRef .tc main_v140) : FVec F S1x64 .f32)
      = scaleRow (W (Proc.devRef .tc main_v85_1)) (W (Proc.devRef .tc main_v85_2)) (W (Proc.devRef .tc main_arg14)) := by
  after_results_simp; rfl

theorem after2_main_v141 :
    (StableHlo.after hostOps2 W (Proc.devRef .tc main_v141) : FVec F S1x64 .f32)
      = shiftRow (W (Proc.devRef .tc main_v85_1)) (W (Proc.devRef .tc main_v85_2)) (W (Proc.devRef .tc main_arg14))
          (W (Proc.devRef .tc main_arg15)) := by
  after_results_simp; rfl

theorem after2_main_v138 :
    (StableHlo.after hostOps2 W (Proc.devRef .tc main_v138) : FVec F S1x64 .f32) = asRow (W (Proc.devRef .tc main_arg17)) := by
  after_results_simp; rfl

theorem after2_main_v139 :
    (StableHlo.after hostOps2 W (Proc.devRef .tc main_v139) : FVec F S1x64 .f32) = asRow (W (Proc.devRef .tc main_arg19)) := by
  after_results_simp; rfl

set_option maxHeartbeats 4000000 in
theorem after2_main_v137 :
    (StableHlo.after hostOps2 W (Proc.devRef .tc main_v137) : FVec F S50000x64 .f32)
      = aggChain64 (W (Proc.devRef .tc main_v85_0)) (W (Proc.devRef .tc main_v1)) (W (Proc.devRef .tc main_v3))
          (W (Proc.devRef .tc main_arg3)) := by
  after_results_simp; rfl

end After2

end Cert.KernelIdeal.Glue

end
-- ==== Proof.KGlue3a.lean ====
import proofs.«429418_j73830487818378_3_alg».proof.Proof.KGlue1

set_option maxRecDepth 16384

noncomputable section

namespace Cert.KernelIdeal.Glue

open Cert.KernelIdeal Cert.KernelIdeal.Gen Idealize.ShloMosaic Idealize.ShloMosaic.ValueIdx

variable {F : FTy → Type} [FloatOps F]

/-! ## What the third stretch leaves in each buffer a later item reads -/

section After3
variable (W : Valuation τ sig (Elt F))

theorem after3_main_v151 :
    (StableHlo.after hostOps3 W (Proc.devRef .tc main_v151) : FVec F S64 .f32) = colMean (W (Proc.devRef .tc main_v142_1)) := by
  after_results_simp; rfl

theorem after3_main_v153 :
    (StableHlo.after hostOps3 W (Proc.devRef .tc main_v153) : FVec F S64 .f32) = colMean (W (Proc.devRef .tc main_v142_2)) := by
  after_results_simp; rfl

theorem after3_main_v157 :
    (StableHlo.after hostOps3 W (Proc.devRef .tc main_v157) : FVec F S64 .f32)
      = colVar (W (Proc.devRef .tc main_v142_1)) (W (Proc.devRef .tc main_v142_2)) := by
  after_results_simp; rfl

theorem after3_main_v160 :
    (StableHlo.after hostOps3 W (Proc.devRef .tc main_v160) : FVec F S64 .f32)
      = colInv (W (Proc.devRef .tc main_v142_1)) (W (Proc.devRef .tc main_v142_2)) := by
  after_results_simp; rfl

theorem after3_main_v178 :
    (StableHlo.after hostOps3 W (Proc.devRef .tc main_v178) : FVec F S256x64 .f32)
      = poolBn (W (Proc.devRef .tc main_v142_1)) (W (Proc.devRef .tc main_v142_2)) (W (Proc.devRef .tc main_v142_3))
          (W (Proc.devRef .tc main_v142_4)) (W (Proc.devRef .tc main_arg20)) (W (Proc.devRef .tc main_arg21)) := by
  after_results_simp; rfl

end After3

end Cert.KernelIdeal.Glue

end
-- ==== Proof.KGlue3b.lean ====
import proofs.«429418_j73830487818378_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Glue

open Cert.KernelIdeal Cert.KernelIdeal.Gen Idealize.ShloMosaic Idealize.ShloMosaic.ValueIdx

variable {F : FTy → Type} [FloatOps F]

/-! # The end of the fourth host stretch, read

What the last kernel region is given: the third layer's activations with two nodes to a row, and four rows of 128
that are a vector of 64 laid twice. -/

/-! ## The composed functions -/

/-- An array of 50000 rows of 64 with two consecutive rows laid side by side: 25000 rows of 128. -/
def pack128 (h : FVec F S50000x64 .f32) : FVec F S25000x128 .f32 :=
  shapeCast S25000x128 h shapeCasts_S50000x64_S25000x128

/-- A vector of 64 laid twice, as one row of 128. -/
def twice128 (v : FVec F S64 .f32) : FVec F S1x128 .f32 :=
  shapeCast S1x128 (concatenate S128 0 [⟨S64, v⟩, ⟨S64, v⟩] concatenates_S64_S64_S128_d0) shapeCasts_S128_S1x128

/-! ## The stretch's buffers are these functions -/

section After
variable (W : Valuation τ sig (Elt F))

set_option maxHeartbeats 8000000 in
theorem after3_v179 : StableHlo.after (hostOps3 (F := F)) W (Proc.devRef .tc main_v179)
    = pack128 (W (Proc.devRef .tc main_v142_0)) := by
  after_results_simp; rfl

set_option maxHeartbeats 8000000 in
/-- The mean's row: the stretch's own mean (`main_v151`) laid twice. -/
theorem after3_v181 : StableHlo.after (hostOps3 (F := F)) W (Proc.devRef .tc main_v181)
    = twice128 (StableHlo.after (hostOps3 (F := F)) W (Proc.devRef .tc main_v151)) := by
  after_results_simp; rfl

set_option maxHeartbeats 8000000 in
/-- The variance's row: the stretch's own variance (`main_v157`) laid twice. -/
theorem after3_v183 : StableHlo.after (hostOps3 (F := F)) W (Proc.devRef .tc main_v183)
    = twice128 (StableHlo.after (hostOps3 (F := F)) W (Proc.devRef .tc main_v157)) := by
  after_results_simp; rfl

set_option maxHeartbeats 8000000 in
theorem after3_v185 : StableHlo.after (hostOps3 (F := F)) W (Proc.devRef .tc main_v185)
    = twice128 (W (Proc.devRef .tc main_arg20)) := by
  after_results_simp; rfl

set_option maxHeartbeats 8000000 in
theorem after3_v187 : StableHlo.after (hostOps3 (F := F)) W (Proc.devRef .tc main_v187)
    = twice128 (W (Proc.devRef .tc main_arg21)) := by
  after_results_simp; rfl

end After

/-! ## The functions at an index -/

/-- Row `r`, lane `l` of the packed array is node `2 r + l / 64`, feature `l % 64`. -/
theorem pack128_apply (h : FVec F S50000x64 .f32) (r : Fin 25000) (l : Fin 128) :
    pack128 h (ix2 r l)
      = h (ix2 (⟨2 * r.val + l.val / 64, by have := r.isLt; have := l.isLt; omega⟩ : Fin 50000)
            (⟨l.val % 64, Nat.mod_lt _ (by decide)⟩ : Fin 64)) := by
  unfold pack128
  refine shapeCast_apply h shapeCasts_S50000x64_S25000x128 _ _ ?_
  rw [Shape.rowMajor_val_two, Shape.rowMajor_val_two]
  show (2 * r.val + l.val / 64) * 64 + l.val % 64 = r.val * 128 + l.val
  omega

/-- Lane `l` of a vector laid twice is the vector at `l % 64`. -/
theorem twice128_apply (v : FVec F S64 .f32) (u : Fin 1) (l : Fin 128) :
    twice128 v (ix2 u l) = v (ix1 (⟨l.val % 64, Nat.mod_lt _ (by decide)⟩ : Fin 64)) := by
  unfold twice128
  refine (shapeCast_a_1a_apply _ shapeCasts_S128_S1x128 u l).trans ?_
  by_cases hl : l.val < 64
  · refine concatenate_pair_apply_left (0 : Fin 1) v v concatenates_S64_S64_S128_d0 (ix1 l) rfl _ (fun b => ?_)
    match b with
    | ⟨0, _⟩ => exact Nat.mod_eq_of_lt hl
  · refine concatenate_pair_apply_right (0 : Fin 1) v v concatenates_S64_S64_S128_d0 (ix1 l) rfl rfl _ (fun b hb => ?_) ?_
    · match b with
      | ⟨0, _⟩ => exact absurd rfl hb
    · show l.val % 64 + 64 = l.val
      have := l.isLt
      omega

end Cert.KernelIdeal.Glue

end
-- ==== Proof.AggReadK.lean ====
import proofs.«429418_j73830487818378_3_alg».proof.KernelIdeal
import proofs.«429418_j73830487818378_3_alg».proof.Proof.AggRead

/-!
# The program's gathers and accumulating scatters read at an index

Each of the program's dimension-number records is the record of a gather of rows, of a scatter of rows or of a flat
scatter at the program's literal extents (the fields are the same lists; the well-formedness field is one of the
program's facts), so the reads at an index hold of it.
-/

noncomputable section

open scoped BigOperators

namespace Cert.Lib.AggReadK

open Idealize.ShloMosaic Idealize.ShloMosaic.ValueIdx Cert.Lib.AggRead Cert.KernelIdeal

variable [Facts₀]
open Facts₀

/-- The gather of rows of a `[50000, 128]` matrix at `[800000, 1]` start indices, read at `(e, k)`. -/
theorem gather_50000x128_apply {α : Type} {w : Nat} (x : (⟨2, ![50000, 128]⟩ : Shape).Idx → α) (idx : IVec ⟨2, ![800000, 1]⟩ w)
    (e : Fin 800000) (k : Fin 128) :
    Host.gather gather_S50000x128_S800000x1_S800000x128_1_0_n_n_0_1_1128 x idx (ix2 e k)
      = x (ix2 ⟨min (idx (ix2 e (0 : Fin 1))).toInt.toNat (50000 - 1), by omega⟩ k) :=
  gather_rows_apply (by decide) gather_S50000x128_S800000x1_S800000x128_1_0_n_n_0_1_1128_wf x idx e k

/-- The gather of rows of a `[50000, 64]` matrix at `[800000, 1]` start indices, read at `(e, k)`. -/
theorem gather_50000x64_apply {α : Type} {w : Nat} (x : (⟨2, ![50000, 64]⟩ : Shape).Idx → α) (idx : IVec ⟨2, ![800000, 1]⟩ w)
    (e : Fin 800000) (k : Fin 64) :
    Host.gather gather_S50000x64_S800000x1_S800000x64_1_0_n_n_0_1_164 x idx (ix2 e k)
      = x (ix2 ⟨min (idx (ix2 e (0 : Fin 1))).toInt.toNat (50000 - 1), by omega⟩ k) :=
  gather_rows_apply (by decide) gather_S50000x64_S800000x1_S800000x64_1_0_n_n_0_1_164_wf x idx e k

/-- The accumulating scatter of the rows of `[800000, 128]` updates into a `[50000, 128]` matrix, read at `(n, k)`. -/
theorem scatterAdd_50000x128_apply {w : Nat} (x : (⟨2, ![50000, 128]⟩ : Shape).Idx → EReal) (idx : IVec ⟨2, ![800000, 1]⟩ w)
    (upd : (⟨2, ![800000, 128]⟩ : Shape).Idx → EReal) (n : Fin 50000) (k : Fin 128) :
    Ideal.hostScatterAdd scatter_S50000x128_S800000x1_S800000x128_1_0_0_1 x idx upd (ix2 n k)
      = x (ix2 n k)
        + ∑ e ∈ Finset.univ.filter (fun e : Fin 800000 => (idx (ix2 e (0 : Fin 1))).toInt = (n.val : ℤ)), upd (ix2 e k) :=
  scatterAdd_rows_apply scatter_S50000x128_S800000x1_S800000x128_1_0_0_1_wf idx k x upd n

/-- The same of the ideal instance's `Host.scatterAdd`. -/
theorem host_scatterAdd_50000x128_apply {φ : FTy} {w : Nat} (x : FVec Ideal ⟨2, ![50000, 128]⟩ φ) (idx : IVec ⟨2, ![800000, 1]⟩ w)
    (upd : FVec Ideal ⟨2, ![800000, 128]⟩ φ) (n : Fin 50000) (k : Fin 128) :
    Host.scatterAdd (F := Ideal) scatter_S50000x128_S800000x1_S800000x128_1_0_0_1 x idx upd (ix2 n k)
      = x (ix2 n k)
        + ∑ e ∈ Finset.univ.filter (fun e : Fin 800000 => (idx (ix2 e (0 : Fin 1))).toInt = (n.val : ℤ)), upd (ix2 e k) :=
  scatterAdd_rows_apply scatter_S50000x128_S800000x1_S800000x128_1_0_0_1_wf idx k x upd n

/-- The accumulating scatter of the rows of `[800000, 64]` updates into a `[50000, 64]` matrix, read at `(n, k)`. -/
theorem scatterAdd_50000x64_apply {w : Nat} (x : (⟨2, ![50000, 64]⟩ : Shape).Idx → EReal) (idx : IVec ⟨2, ![800000, 1]⟩ w)
    (upd : (⟨2, ![800000, 64]⟩ : Shape).Idx → EReal) (n : Fin 50000) (k : Fin 64) :
    Ideal.hostScatterAdd scatter_S50000x64_S800000x1_S800000x64_1_0_0_1 x idx upd (ix2 n k)
      = x (ix2 n k)
        + ∑ e ∈ Finset.univ.filter (fun e : Fin 800000 => (idx (ix2 e (0 : Fin 1))).toInt = (n.val : ℤ)), upd (ix2 e k) :=
  scatterAdd_rows_apply scatter_S50000x64_S800000x1_S800000x64_1_0_0_1_wf idx k x upd n

/-- The same of the ideal instance's `Host.scatterAdd`. -/
theorem host_scatterAdd_50000x64_apply {φ : FTy} {w : Nat} (x : FVec Ideal ⟨2, ![50000, 64]⟩ φ) (idx : IVec ⟨2, ![800000, 1]⟩ w)
    (upd : FVec Ideal ⟨2, ![800000, 64]⟩ φ) (n : Fin 50000) (k : Fin 64) :
    Host.scatterAdd (F := Ideal) scatter_S50000x64_S800000x1_S800000x64_1_0_0_1 x idx upd (ix2 n k)
      = x (ix2 n k)
        + ∑ e ∈ Finset.univ.filter (fun e : Fin 800000 => (idx (ix2 e (0 : Fin 1))).toInt = (n.val : ℤ)), upd (ix2 e k) :=
  scatterAdd_rows_apply scatter_S50000x64_S800000x1_S800000x64_1_0_0_1_wf idx k x upd n

/-- The accumulating scatter of `[800000]` updates into a `[50000]` array, read at `n`. -/
theorem scatterAdd_50000_apply {w : Nat} (x : (⟨1, ![50000]⟩ : Shape).Idx → EReal) (idx : IVec ⟨2, ![800000, 1]⟩ w)
    (upd : (⟨1, ![800000]⟩ : Shape).Idx → EReal) (n : Fin 50000) :
    Ideal.hostScatterAdd scatter_S50000_S800000x1_S800000_n_0_0_1 x idx upd (ix1 n)
      = x (ix1 n)
        + ∑ e ∈ Finset.univ.filter (fun e : Fin 800000 => (idx (ix2 e (0 : Fin 1))).toInt = (n.val : ℤ)), upd (ix1 e) :=
  scatterAdd_flat_apply scatter_S50000_S800000x1_S800000_n_0_0_1_wf idx x upd n

/-- The same of the ideal instance's `Host.scatterAdd`. -/
theorem host_scatterAdd_50000_apply {φ : FTy} {w : Nat} (x : FVec Ideal ⟨1, ![50000]⟩ φ) (idx : IVec ⟨2, ![800000, 1]⟩ w)
    (upd : FVec Ideal ⟨1, ![800000]⟩ φ) (n : Fin 50000) :
    Host.scatterAdd (F := Ideal) scatter_S50000_S800000x1_S800000_n_0_0_1 x idx upd (ix1 n)
      = x (ix1 n)
        + ∑ e ∈ Finset.univ.filter (fun e : Fin 800000 => (idx (ix2 e (0 : Fin 1))).toInt = (n.val : ℤ)), upd (ix1 e) :=
  scatterAdd_flat_apply scatter_S50000_S800000x1_S800000_n_0_0_1_wf idx x upd n

end Cert.Lib.AggReadK

end
-- ==== Proof.AggChainK.lean ====
import proofs.«429418_j73830487818378_3_alg».proof.Proof.Gen.KernelIdeal
import proofs.«429418_j73830487818378_3_alg».proof.Proof.AggReadK
import proofs.«429418_j73830487818378_3_alg».proof.Proof.AggRow

/-!
# The edge aggregation of the program, read at an index

The program aggregates a node-feature matrix over the graph's edges by a gather of source rows, a product with the
edge weights broadcast along the rows, and an accumulating scatter into the destination rows of a zero matrix. Here
that composition is named (`agg128`, `agg64`; `degw` is the same scatter of the bare edge weights into a zero vector, a node's weighted in-degree) and read at one index at the ideal instance: a sum over the edges whose destination is
the node.
-/

noncomputable section

open scoped BigOperators

namespace Cert.KernelIdeal.Agg

open Idealize.ShloMosaic Idealize.ShloMosaic.ValueIdx Cert.KernelIdeal Cert.KernelIdeal.Facts₀
open Cert.Lib.AggRow Cert.Lib.AggReadK

section Defs
variable {F : FTy → Type} [FloatOps F]

/-- One round of weighted neighbour aggregation over `[50000, 128]` features, as the program's operations compose: every
    edge `e` reads the row `src[e]` of `h` (a negative `src[e]` wrapped by `50000`), scales it by the edge weight `ew[e]`,
    and the scaled rows are summed into the rows `dst[e]` of a zero matrix. -/
def agg128 (h : FVec F S50000x128 .f32) (src dst : IVec S800000 32) (ew : FVec F S800000 .f32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (mulf
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1
        (broadcastInDim S800000x1 ![0] bcast_S800000_S800000x1_0 ew)))

/-- One round of weighted neighbour aggregation over `[50000, 64]` features, as the program's operations compose: every
    edge `e` reads the row `src[e]` of `h` (a negative `src[e]` wrapped by `50000`), scales it by the edge weight `ew[e]`,
    and the scaled rows are summed into the rows `dst[e]` of a zero matrix. -/
def agg64 (h : FVec F S50000x64 .f32) (src dst : IVec S800000 32) (ew : FVec F S800000 .f32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst)
    (mulf
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x64 ![0, 1] bcast_S800000x1_S800000x64_0_1
        (broadcastInDim S800000x1 ![0] bcast_S800000_S800000x1_0 ew)))

/-- A node's weighted in-degree, as the program's operations compose: the edge weights summed into the entries `dst[e]`
    of a zero vector. -/
def degw (dst : IVec S800000 32) (ew : FVec F S800000 .f32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 dst)
    ew

end Defs

/-- THE AGGREGATION READ AT `(n, k)`: zero plus, over the edges `e` whose destination `dst[e]` is `n`, the entry
    `(rowOf src e, k)` of `h` times the edge's weight. -/
theorem agg128_apply (h : FVec Ideal S50000x128 .f32) (src dst : IVec S800000 32) (ew : FVec Ideal S800000 .f32)
    (n : Fin 50000) (k : Fin 128) :
    agg128 h src dst ew (ix2 n k)
      = Ideal.ofBits .f32 0x00000000#32
        + ∑ e ∈ Finset.univ.filter (fun e : Fin 800000 => (dst (ix1 e)).toInt = (n.val : ℤ)),
            h (ix2 (rowOf src e) k) * ew (ix1 e) := by
  unfold agg128
  rw [host_scatterAdd_50000x128_apply]
  refine congrArg₂ (· + ·) rfl ?_
  refine Finset.sum_congr (Finset.filter_congr fun e _ => by rw [bcastCol_apply]) fun e _ => ?_
  rw [mulf_apply, gather_50000x128_apply, bcastRows_apply]
  refine congrArg (fun r : Fin 50000 => h (ix2 r k) * ew (ix1 e)) (Fin.ext ?_)
  exact congrArg (fun w : BitVec 32 => min w.toInt.toNat 49999)
    ((bcastCol_apply _ _ e 0).trans (wrap_apply src _ e))

/-- THE AGGREGATION READ AT `(n, k)`: zero plus, over the edges `e` whose destination `dst[e]` is `n`, the entry
    `(rowOf src e, k)` of `h` times the edge's weight. -/
theorem agg64_apply (h : FVec Ideal S50000x64 .f32) (src dst : IVec S800000 32) (ew : FVec Ideal S800000 .f32)
    (n : Fin 50000) (k : Fin 64) :
    agg64 h src dst ew (ix2 n k)
      = Ideal.ofBits .f32 0x00000000#32
        + ∑ e ∈ Finset.univ.filter (fun e : Fin 800000 => (dst (ix1 e)).toInt = (n.val : ℤ)),
            h (ix2 (rowOf src e) k) * ew (ix1 e) := by
  unfold agg64
  rw [host_scatterAdd_50000x64_apply]
  refine congrArg₂ (· + ·) rfl ?_
  refine Finset.sum_congr (Finset.filter_congr fun e _ => by rw [bcastCol_apply]) fun e _ => ?_
  rw [mulf_apply, gather_50000x64_apply, bcastRows_apply]
  refine congrArg (fun r : Fin 50000 => h (ix2 r k) * ew (ix1 e)) (Fin.ext ?_)
  exact congrArg (fun w : BitVec 32 => min w.toInt.toNat 49999)
    ((bcastCol_apply _ _ e 0).trans (wrap_apply src _ e))

/-- THE WEIGHTED IN-DEGREE READ AT `n`: zero plus the weights of the edges whose destination is `n`. -/
theorem degw_apply (dst : IVec S800000 32) (ew : FVec Ideal S800000 .f32) (n : Fin 50000) :
    degw dst ew (ix1 n)
      = Ideal.ofBits .f32 0x00000000#32
        + ∑ e ∈ Finset.univ.filter (fun e : Fin 800000 => (dst (ix1 e)).toInt = (n.val : ℤ)), ew (ix1 e) := by
  unfold degw
  rw [host_scatterAdd_50000_apply]
  refine congrArg₂ (· + ·) rfl ?_
  exact Finset.sum_congr (Finset.filter_congr fun e _ => by rw [bcastCol_apply]) fun e _ => rfl

end Cert.KernelIdeal.Agg

end
-- ==== Proof.AggChainR.lean ====
import proofs.«429418_j73830487818378_3_alg».proof.Proof.Gen.ReferenceIdeal
import proofs.«429418_j73830487818378_3_alg».proof.Proof.AggReadR
import proofs.«429418_j73830487818378_3_alg».proof.Proof.AggRow

/-!
# The edge aggregation of the program, read at an index

The program aggregates a node-feature matrix over the graph's edges by a gather of source rows, a product with the
edge weights broadcast along the rows, and an accumulating scatter into the destination rows of a zero matrix. Here
that composition is named (`agg128`, `agg64`) and read at one index at the ideal instance: a sum over the edges whose destination is
the node.
-/

noncomputable section

open scoped BigOperators

namespace Cert.ReferenceIdeal.Agg

open Idealize.ShloMosaic Idealize.ShloMosaic.ValueIdx Cert.ReferenceIdeal Cert.ReferenceIdeal.Facts₀
open Cert.Lib.AggRow Cert.Lib.AggReadR

section Defs
variable {F : FTy → Type} [FloatOps F]

/-- One round of weighted neighbour aggregation over `[50000, 128]` features, as the program's operations compose: every
    edge `e` reads the row `src[e]` of `h` (a negative `src[e]` wrapped by `50000`), scales it by the edge weight `ew[e]`,
    and the scaled rows are summed into the rows `dst[e]` of a zero matrix. -/
def agg128 (h : FVec F S50000x128 .f32) (src dst : IVec S800000 32) (ew : FVec F S800000 .f32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (mulf
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1
        (broadcastInDim S800000x1 ![0] bcast_S800000_S800000x1_0 ew)))

/-- One round of weighted neighbour aggregation over `[50000, 64]` features, as the program's operations compose: every
    edge `e` reads the row `src[e]` of `h` (a negative `src[e]` wrapped by `50000`), scales it by the edge weight `ew[e]`,
    and the scaled rows are summed into the rows `dst[e]` of a zero matrix. -/
def agg64 (h : FVec F S50000x64 .f32) (src dst : IVec S800000 32) (ew : FVec F S800000 .f32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst)
    (mulf
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x64 ![0, 1] bcast_S800000x1_S800000x64_0_1
        (broadcastInDim S800000x1 ![0] bcast_S800000_S800000x1_0 ew)))

end Defs

/-- THE AGGREGATION READ AT `(n, k)`: zero plus, over the edges `e` whose destination `dst[e]` is `n`, the entry
    `(rowOf src e, k)` of `h` times the edge's weight. -/
theorem agg128_apply (h : FVec Ideal S50000x128 .f32) (src dst : IVec S800000 32) (ew : FVec Ideal S800000 .f32)
    (n : Fin 50000) (k : Fin 128) :
    agg128 h src dst ew (ix2 n k)
      = Ideal.ofBits .f32 0x00000000#32
        + ∑ e ∈ Finset.univ.filter (fun e : Fin 800000 => (dst (ix1 e)).toInt = (n.val : ℤ)),
            h (ix2 (rowOf src e) k) * ew (ix1 e) := by
  unfold agg128
  rw [host_scatterAdd_50000x128_apply]
  refine congrArg₂ (· + ·) rfl ?_
  refine Finset.sum_congr (Finset.filter_congr fun e _ => by rw [bcastCol_apply]) fun e _ => ?_
  rw [mulf_apply, gather_50000x128_apply, bcastRows_apply]
  refine congrArg (fun r : Fin 50000 => h (ix2 r k) * ew (ix1 e)) (Fin.ext ?_)
  exact congrArg (fun w : BitVec 32 => min w.toInt.toNat 49999)
    ((bcastCol_apply _ _ e 0).trans (wrap_apply src _ e))

/-- THE AGGREGATION READ AT `(n, k)`: zero plus, over the edges `e` whose destination `dst[e]` is `n`, the entry
    `(rowOf src e, k)` of `h` times the edge's weight. -/
theorem agg64_apply (h : FVec Ideal S50000x64 .f32) (src dst : IVec S800000 32) (ew : FVec Ideal S800000 .f32)
    (n : Fin 50000) (k : Fin 64) :
    agg64 h src dst ew (ix2 n k)
      = Ideal.ofBits .f32 0x00000000#32
        + ∑ e ∈ Finset.univ.filter (fun e : Fin 800000 => (dst (ix1 e)).toInt = (n.val : ℤ)),
            h (ix2 (rowOf src e) k) * ew (ix1 e) := by
  unfold agg64
  rw [host_scatterAdd_50000x64_apply]
  refine congrArg₂ (· + ·) rfl ?_
  refine Finset.sum_congr (Finset.filter_congr fun e _ => by rw [bcastCol_apply]) fun e _ => ?_
  rw [mulf_apply, gather_50000x64_apply, bcastRows_apply]
  refine congrArg (fun r : Fin 50000 => h (ix2 r k) * ew (ix1 e)) (Fin.ext ?_)
  exact congrArg (fun w : BitVec 32 => min w.toInt.toNat 49999)
    ((bcastCol_apply _ _ e 0).trans (wrap_apply src _ e))

end Cert.ReferenceIdeal.Agg

end
-- ==== Proof.AggInst.lean ====
import proofs.«429418_j73830487818378_3_alg».proof.Proof.AggChainK
import proofs.«429418_j73830487818378_3_alg».proof.Proof.AggChainR
import proofs.«429418_j73830487818378_3_alg».proof.Proof.KGlue0
import proofs.«429418_j73830487818378_3_alg».proof.Proof.GinMath
import proofs.«429418_j73830487818378_3_alg».proof.Proof.Inst
import Idealize.ShloMosaic.Lib.ValueLayout

/-!
# The programs' aggregations are the graph's

Both programs cut the two rows of the `[2, 800000]` edge list out as vectors: row 0 the edges' sources, row 1 their
destinations. At the graph read off the edge list, the node numbers and the edge weights, each program's edge
aggregation of a feature matrix is the graph's weighted sum of in-neighbour rows, and the scatter of the bare weights is
the graph's weighted in-degree.
-/

noncomputable section

open scoped BigOperators

namespace Cert.Lib.AggInst

open Idealize.ShloMosaic Idealize.ShloMosaic.ValueIdx

/-! ## The rows of the edge list -/

/-- Row `r` of a `[2, E]` array, cut out as a `[1, E]` slab and cast to a vector, reads at `e` the array at `(r, e)`. -/
theorem edgeRow_apply {α : Type} {E : Nat} (o : Nat) (r : Fin 2) (hr : r.val = o)
    (ei : (⟨2, ![2, E]⟩ : Shape).Idx → α) (hs : (⟨2, ![2, E]⟩ : Shape).Slices ![o, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![o, 0] ei hs) hc (ix1 e) = ei (ix2 r e) :=
  (shapeCast_1a_a_apply _ hc e).trans (slice2_axis0_apply o ei hs (0 : Fin 1) e r (by rw [hr]; rfl))

section Rows
variable (ei : IVec ⟨2, ![2, 800000]⟩ 32)

/-- In the first program, row 0 of the edge list as a vector is the source words. -/
theorem K_src_eq :
    shapeCast Cert.KernelIdeal.S800000
        (extractStridedSlice Cert.KernelIdeal.S1x800000 ![0, 0] ei
          Cert.KernelIdeal.Facts₀.slices_S2x800000_S1x800000_0_0)
        Cert.KernelIdeal.Facts₀.shapeCasts_S1x800000_S800000
      = Cert.Inst.srcA ei := by
  funext i
  obtain ⟨e, rfl⟩ : ∃ e : Fin 800000, i = ix1 e := ⟨i 0, eq_ix1 i⟩
  exact edgeRow_apply 0 0 rfl ei _ _ e

/-- In the first program, row 1 of the edge list as a vector is the destination words. -/
theorem K_dst_eq :
    shapeCast Cert.KernelIdeal.S800000
        (extractStridedSlice Cert.KernelIdeal.S1x800000 ![1, 0] ei
          Cert.KernelIdeal.Facts₀.slices_S2x800000_S1x800000_1_0)
        Cert.KernelIdeal.Facts₀.shapeCasts_S1x800000_S800000
      = Cert.Inst.dstA ei := by
  funext i
  obtain ⟨e, rfl⟩ : ∃ e : Fin 800000, i = ix1 e := ⟨i 0, eq_ix1 i⟩
  exact edgeRow_apply 1 1 rfl ei _ _ e

/-- In the second program, row 0 of the edge list as a vector is the source words. -/
theorem R_src_eq :
    shapeCast Cert.ReferenceIdeal.S800000
        (extractStridedSlice Cert.ReferenceIdeal.S1x800000 ![0, 0] ei
          Cert.ReferenceIdeal.Facts₀.slices_S2x800000_S1x800000_0_0)
        Cert.ReferenceIdeal.Facts₀.shapeCasts_S1x800000_S800000
      = Cert.Inst.srcA ei := by
  funext i
  obtain ⟨e, rfl⟩ : ∃ e : Fin 800000, i = ix1 e := ⟨i 0, eq_ix1 i⟩
  exact edgeRow_apply 0 0 rfl ei _ _ e

/-- In the second program, row 1 of the edge list as a vector is the destination words. -/
theorem R_dst_eq :
    shapeCast Cert.ReferenceIdeal.S800000
        (extractStridedSlice Cert.ReferenceIdeal.S1x800000 ![1, 0] ei
          Cert.ReferenceIdeal.Facts₀.slices_S2x800000_S1x800000_1_0)
        Cert.ReferenceIdeal.Facts₀.shapeCasts_S1x800000_S800000
      = Cert.Inst.dstA ei := by
  funext i
  obtain ⟨e, rfl⟩ : ∃ e : Fin 800000, i = ix1 e := ⟨i 0, eq_ix1 i⟩
  exact edgeRow_apply 1 1 rfl ei _ _ e

/-- The first program's named source row is the source words. -/
theorem K_srcOf_eq : Cert.KernelIdeal.Glue.srcOf ei = Cert.Inst.srcA ei := K_src_eq ei

/-- The first program's named destination row is the destination words. -/
theorem K_dstOf_eq : Cert.KernelIdeal.Glue.dstOf ei = Cert.Inst.dstA ei := K_dst_eq ei

end Rows

/-! ## The aggregations at the graph -/

section AtGraph
variable (ei : IVec ⟨2, ![2, 800000]⟩ 32) (bt : IVec ⟨1, ![50000]⟩ 32) (ew : (⟨1, ![800000]⟩ : Shape).Idx → EReal)

/-- The first program's aggregation of `[50000, 128]` features is the graph's. -/
theorem K_agg128_graph (h : (⟨2, ![50000, 128]⟩ : Shape).Idx → EReal) (n : Fin 50000) (k : Fin 128) :
    Cert.KernelIdeal.Agg.agg128 (F := Ideal) h (Cert.Inst.srcA ei) (Cert.Inst.dstA ei) ew (ix2 n k)
      = Cert.GinMath.agg (Cert.Inst.graph ei bt ew) (fun n k => h (ix2 n k)) n k :=
  Cert.KernelIdeal.Agg.agg128_apply h _ _ ew n k

/-- The first program's aggregation of `[50000, 64]` features is the graph's. -/
theorem K_agg64_graph (h : (⟨2, ![50000, 64]⟩ : Shape).Idx → EReal) (n : Fin 50000) (k : Fin 64) :
    Cert.KernelIdeal.Agg.agg64 (F := Ideal) h (Cert.Inst.srcA ei) (Cert.Inst.dstA ei) ew (ix2 n k)
      = Cert.GinMath.agg (Cert.Inst.graph ei bt ew) (fun n k => h (ix2 n k)) n k :=
  Cert.KernelIdeal.Agg.agg64_apply h _ _ ew n k

/-- The second program's aggregation of `[50000, 128]` features is the graph's. -/
theorem R_agg128_graph (h : (⟨2, ![50000, 128]⟩ : Shape).Idx → EReal) (n : Fin 50000) (k : Fin 128) :
    Cert.ReferenceIdeal.Agg.agg128 (F := Ideal) h (Cert.Inst.srcA ei) (Cert.Inst.dstA ei) ew (ix2 n k)
      = Cert.GinMath.agg (Cert.Inst.graph ei bt ew) (fun n k => h (ix2 n k)) n k :=
  Cert.ReferenceIdeal.Agg.agg128_apply h _ _ ew n k

/-- The second program's aggregation of `[50000, 64]` features is the graph's. -/
theorem R_agg64_graph (h : (⟨2, ![50000, 64]⟩ : Shape).Idx → EReal) (n : Fin 50000) (k : Fin 64) :
    Cert.ReferenceIdeal.Agg.agg64 (F := Ideal) h (Cert.Inst.srcA ei) (Cert.Inst.dstA ei) ew (ix2 n k)
      = Cert.GinMath.agg (Cert.Inst.graph ei bt ew) (fun n k => h (ix2 n k)) n k :=
  Cert.ReferenceIdeal.Agg.agg64_apply h _ _ ew n k

/-- The scatter of the bare edge weights is the graph's weighted in-degree. -/
theorem K_degw_graph (n : Fin 50000) :
    Cert.KernelIdeal.Agg.degw (F := Ideal) (Cert.Inst.dstA ei) ew (ix1 n)
      = Cert.GinMath.deg (Cert.Inst.graph ei bt ew) n :=
  Cert.KernelIdeal.Agg.degw_apply _ ew n

/-- The first program's named in-degree vector is that scatter. -/
theorem K_degVec_eq {F : FTy → Type} [FloatOps F] (dst : IVec ⟨1, ![800000]⟩ 32)
    (ew' : FVec F ⟨1, ![800000]⟩ .f32) :
    Cert.KernelIdeal.Glue.degVec dst ew' = Cert.KernelIdeal.Agg.degw dst ew' := rfl

/-- The in-degree as a `[50000, 1]` column reads, at `(n, u)`, the graph's weighted in-degree of `n`. -/
theorem K_degCol_graph (n : Fin 50000) (u : Fin 1) :
    Cert.KernelIdeal.Glue.degw (F := Ideal) (Cert.Inst.dstA ei) ew (ix2 n u)
      = Cert.GinMath.deg (Cert.Inst.graph ei bt ew) n :=
  (Cert.KernelIdeal.Glue.degw_apply (F := Ideal) (Cert.Inst.dstA ei) ew n u).trans (K_degw_graph ei bt ew n)

end AtGraph

end Cert.Lib.AggInst

end
-- ==== Proof.KChain2.lean ====
/- The kernel side's values in the terms of the two networks' mathematical statement, at the run's valuations: each
   stretch of host operations read as named functions of named arrays; each layer's ten input arrays as the statement's
   functions (the raw rows, their neighbour sum, the weighted in-degree, the scale and shift rows, the weights); the
   three pooled blocks as the statement's `poolK`; and the last layer's rows normalised as the statement's `bnK`. What
   the regions themselves compute enters as hypotheses (`TileStats`, and each lemma's named assumptions). -/
import proofs.«429418_j73830487818378_3_alg».proof.Proof.KChain
import proofs.«429418_j73830487818378_3_alg».proof.Proof.KStats
import proofs.«429418_j73830487818378_3_alg».proof.Proof.KGlue0
import proofs.«429418_j73830487818378_3_alg».proof.Proof.KGlue1
import proofs.«429418_j73830487818378_3_alg».proof.Proof.KGlue2
import proofs.«429418_j73830487818378_3_alg».proof.Proof.KGlue3a
import proofs.«429418_j73830487818378_3_alg».proof.Proof.KGlue3b
import proofs.«429418_j73830487818378_3_alg».proof.Proof.KGlue4
import proofs.«429418_j73830487818378_3_alg».proof.Proof.Inst
import proofs.«429418_j73830487818378_3_alg».proof.Proof.AggInst

set_option maxRecDepth 16384

noncomputable section

open scoped BigOperators

namespace Cert.KernelIdeal.Fr

open Cert.KernelIdeal Cert.KernelIdeal.Gen Cert.KernelIdeal.Glue
open Idealize.ShloMosaic Idealize.ShloMosaic.TcCoe Idealize.SL.Sem
open Idealize.ShloMosaic.ValueIdx

/-- The four statistics arrays of a layer whose rows are `h`: per half `q`, from zero, the sums over the half's five
    tiles of the rows, of their squares, of the rows of graph `g`, and of graph `g`'s membership. -/
structure TileStats (𝔾 : Cert.GinMath.Graph) (h : Fin 50000 → Fin 64 → EReal) (sm sq : FVec Ideal S2x1x64 .f32)
    (pl : FVec Ideal S2x256x64 .f32) (ct : FVec Ideal S2x1x256 .f32) : Prop where
  hsm : ∀ (q : Fin 2) (k : Fin 64),
    sm (ix3 q 0 k) = 𝔾.z + ∑ i : Fin 5, ∑ r : Fin 5000, h (Cert.GinMath.rowOf q i r) k
  hsq : ∀ (q : Fin 2) (k : Fin 64),
    sq (ix3 q 0 k) = 𝔾.z + ∑ i : Fin 5, ∑ r : Fin 5000, h (Cert.GinMath.rowOf q i r) k * h (Cert.GinMath.rowOf q i r) k
  hpl : ∀ (q : Fin 2) (g : Fin 256) (k : Fin 64),
    pl (ix3 q g k) = 𝔾.z + ∑ i : Fin 5, ∑ r : Fin 5000,
      Cert.GinMath.oh 𝔾 g (Cert.GinMath.rowOf q i r) * h (Cert.GinMath.rowOf q i r) k
  hct : ∀ (q : Fin 2) (g : Fin 256),
    ct (ix3 q 0 g) = 𝔾.z + ∑ i : Fin 5, ∑ r : Fin 5000, Cert.GinMath.oh 𝔾 g (Cert.GinMath.rowOf q i r)

/-- The host's neighbour sum of 64-column rows is the composition read at an index elsewhere (the same operations). -/
theorem aggChain64_eq (hp : FVec Ideal S50000x64 .f32) (src dst : IVec S800000 32) (ew : FVec Ideal S800000 .f32) :
    aggChain64 hp src dst ew = Cert.KernelIdeal.Agg.agg64 hp src dst ew := rfl
/-- The host's neighbour sum of the 128-column input rows, likewise. -/
theorem aggChain128_eq (x : FVec Ideal S50000x128 .f32) (src dst : IVec S800000 32) (ew : FVec Ideal S800000 .f32) :
    aggChain128 x src dst ew = Cert.KernelIdeal.Agg.agg128 x src dst ew := rfl

variable (m : (ℓ : Loc nD τ sig) → Buf (Elt Ideal) ℓ) (ρ : Dev nD → PrngReg)

/-! ## The run's graph and parameters -/

/-- The graph the run's arguments spell (edge list, graph words, edge weights). -/
abbrev 𝔾r (c : Dev nD) : Cert.GinMath.Graph :=
  Cert.Inst.graph (m ((c : Thread nD τ).loc main_arg1)) (m ((c : Thread nD τ).loc main_arg2)) (m ((c : Thread nD τ).loc main_arg3))
/-- The parameters the run's arguments spell. -/
abbrev 𝕡r (c : Dev nD) : Cert.GinMath.Params :=
  Cert.Inst.params (m ((c : Thread nD τ).loc main_arg0)) (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))

/-! ## Stretch 0: what region 0 and the later items read of it -/

theorem W1_main_v1 (c : Dev nD) : W1 m ρ c (Proc.devRef .tc main_v1) = srcOf (m ((c : Thread nD τ).loc main_arg1)) := after0_v1 (W0 m ρ c)
theorem W1_main_v3 (c : Dev nD) : W1 m ρ c (Proc.devRef .tc main_v3) = dstOf (m ((c : Thread nD τ).loc main_arg1)) := after0_v3 (W0 m ρ c)
theorem W1_main_v4 (c : Dev nD) : W1 m ρ c (Proc.devRef .tc main_v4) = batchCol (m ((c : Thread nD τ).loc main_arg2)) := after0_v4 (W0 m ρ c)
theorem W1_main_v8 (c : Dev nD) : (W1 m ρ c (Proc.devRef .tc main_v8) : FVec Ideal S50000x1 .f32) = Glue.degw (F := Ideal) (dstOf (m ((c : Thread nD τ).loc main_arg1))) (m ((c : Thread nD τ).loc main_arg3)) := after0_v8 (W0 m ρ c)
theorem W1_main_v26 (c : Dev nD) : (W1 m ρ c (Proc.devRef .tc main_v26) : FVec Ideal S1x128 .f32) = onesRow (F := Ideal) := after0_v26 (W0 m ρ c)
theorem W1_main_v27 (c : Dev nD) : (W1 m ρ c (Proc.devRef .tc main_v27) : FVec Ideal S1x128 .f32) = zerosRow (F := Ideal) := after0_v27 (W0 m ρ c)
theorem W1_main_v24 (c : Dev nD) : (W1 m ρ c (Proc.devRef .tc main_v24) : FVec Ideal S1x64 .f32) = rowOf64 (F := Ideal) (m ((c : Thread nD τ).loc main_arg5)) := after0_v24 (W0 m ρ c)
theorem W1_main_v25 (c : Dev nD) : (W1 m ρ c (Proc.devRef .tc main_v25) : FVec Ideal S1x64 .f32) = rowOf64 (F := Ideal) (m ((c : Thread nD τ).loc main_arg7)) := after0_v25 (W0 m ρ c)
theorem W1_main_v23 (c : Dev nD) : (W1 m ρ c (Proc.devRef .tc main_v23) : FVec Ideal S50000x128 .f32)
    = aggChain128 (F := Ideal) (m ((c : Thread nD τ).loc main_arg0)) (srcOf (m ((c : Thread nD τ).loc main_arg1))) (dstOf (m ((c : Thread nD τ).loc main_arg1))) (m ((c : Thread nD τ).loc main_arg3)) := after0_v23 (W0 m ρ c)

/-- The graph-word column at a node, against a graph's number: the statement's membership. -/
theorem bat_iff (c : Dev nD) (g : Fin 256) (n : Fin 50000) :
    (𝔾r m c).P g n ↔ (W1 m ρ c (Proc.devRef .tc main_v4) : Vec Ideal S50000x1 .i32) (ix2 n 0) = BitVec.ofNat 32 g.val := by
  rw [W1_main_v4, batchCol_apply]
  exact (Cert.Lib.Layer.word_eq_iff _ g.val g.isLt).symm

/-- The graph-word column at a node is the node's graph word. -/
theorem bat_at (c : Dev nD) (n : Fin 50000) :
    (W1 m ρ c (Proc.devRef .tc main_v4) : Vec Ideal S50000x1 .i32) (ix2 n 0) = ((m ((c : Thread nD τ).loc main_arg2)) : IVec S50000 32) (ix1 n) := by
  rw [W1_main_v4]
  exact batchCol_apply _ n 0

/-- The in-degree column at a node is the statement's `deg`. -/
theorem deg_at (c : Dev nD) (n : Fin 50000) :
    (W1 m ρ c (Proc.devRef .tc main_v8) : Vec Ideal S50000x1 .f32) (ix2 n 0) = Cert.GinMath.deg (𝔾r m c) n := by
  rw [W1_main_v8, Cert.Lib.AggInst.K_dstOf_eq]
  exact Cert.Lib.AggInst.K_degCol_graph _ (m ((c : Thread nD τ).loc main_arg2)) _ n 0

/-! ## Region 0's input arrays in the statement's terms -/

theorem in0_x (c : Dev nD) (n : Fin 50000) (j : Fin 128) :
    (V1 m ρ c (Pipeline.arrRef spec0 0) : Vec Ideal S50000x128 .f32) (ix2 n j) = (𝕡r m c).x n j :=
  congrFun (in0_0 m ρ c) (ix2 n j)
theorem in0_agg (c : Dev nD) (n : Fin 50000) (j : Fin 128) :
    (V1 m ρ c (Pipeline.arrRef spec0 1) : Vec Ideal S50000x128 .f32) (ix2 n j) = Cert.GinMath.agg (𝔾r m c) (𝕡r m c).x n j := by
  show (W1 m ρ c (Proc.devRef .tc main_v23) : Vec Ideal S50000x128 .f32) (ix2 n j) = _
  rw [W1_main_v23, aggChain128_eq, Cert.Lib.AggInst.K_srcOf_eq, Cert.Lib.AggInst.K_dstOf_eq]
  exact Cert.Lib.AggInst.K_agg128_graph _ (m ((c : Thread nD τ).loc main_arg2)) _ _ n j
theorem in0_deg (c : Dev nD) (n : Fin 50000) :
    (V1 m ρ c (Pipeline.arrRef spec0 2) : Vec Ideal S50000x1 .f32) (ix2 n 0) = Cert.GinMath.deg (𝔾r m c) n := deg_at m ρ c n
theorem in0_s (c : Dev nD) (j : Fin 128) :
    (V1 m ρ c (Pipeline.arrRef spec0 3) : Vec Ideal S1x128 .f32) (ix2 0 j) = (𝔾r m c).one := by
  show (W1 m ρ c (Proc.devRef .tc main_v26) : Vec Ideal S1x128 .f32) (ix2 0 j) = _
  rw [W1_main_v26]
  exact onesRow_apply 0 j
theorem in0_t (c : Dev nD) (j : Fin 128) :
    (V1 m ρ c (Pipeline.arrRef spec0 4) : Vec Ideal S1x128 .f32) (ix2 0 j) = (𝔾r m c).z := by
  show (W1 m ρ c (Proc.devRef .tc main_v27) : Vec Ideal S1x128 .f32) (ix2 0 j) = _
  rw [W1_main_v27]
  exact zerosRow_apply 0 j
theorem in0_bat (c : Dev nD) (g : Fin 256) (n : Fin 50000) :
    (𝔾r m c).P g n ↔ (V1 m ρ c (Pipeline.arrRef spec0 5) : Vec Ideal S50000x1 .i32) (ix2 n 0) = BitVec.ofNat 32 g.val :=
  bat_iff m ρ c g n
theorem in0_batw (c : Dev nD) (n : Fin 50000) :
    (V1 m ρ c (Pipeline.arrRef spec0 5) : Vec Ideal S50000x1 .i32) (ix2 n 0) = ((m ((c : Thread nD τ).loc main_arg2)) : IVec S50000 32) (ix1 n) :=
  bat_at m ρ c n
theorem in0_w1 (c : Dev nD) (j : Fin 128) (k : Fin 64) :
    (V1 m ρ c (Pipeline.arrRef spec0 6) : Vec Ideal S128x64 .f32) (ix2 j k) = (𝕡r m c).W1_0 j k :=
  congrFun (in0_6 m ρ c) (ix2 j k)
theorem in0_b1 (c : Dev nD) (k : Fin 64) :
    (V1 m ρ c (Pipeline.arrRef spec0 7) : Vec Ideal S1x64 .f32) (ix2 0 k) = (𝕡r m c).b1_0 k := by
  show (W1 m ρ c (Proc.devRef .tc main_v24) : Vec Ideal S1x64 .f32) (ix2 0 k) = _
  rw [W1_main_v24]
  exact rowOf64_apply _ 0 k
theorem in0_w2 (c : Dev nD) (j : Fin 64) (k : Fin 64) :
    (V1 m ρ c (Pipeline.arrRef spec0 8) : Vec Ideal S64x64 .f32) (ix2 j k) = (𝕡r m c).W2_0 j k :=
  congrFun (in0_8 m ρ c) (ix2 j k)
theorem in0_b2 (c : Dev nD) (k : Fin 64) :
    (V1 m ρ c (Pipeline.arrRef spec0 9) : Vec Ideal S1x64 .f32) (ix2 0 k) = (𝕡r m c).b2_0 k := by
  show (W1 m ρ c (Proc.devRef .tc main_v25) : Vec Ideal S1x64 .f32) (ix2 0 k) = _
  rw [W1_main_v25]
  exact rowOf64_apply _ 0 k

/-! ## Stretch 1: the host's values over layer 0's named arrays -/

theorem W3_main_v80 (c : Dev nD) : (W3 m ρ c (Proc.devRef .tc main_v80) : FVec Ideal S50000x64 .f32)
    = aggChain64 (hpK0 m ρ c) (srcOf (m ((c : Thread nD τ).loc main_arg1))) (dstOf (m ((c : Thread nD τ).loc main_arg1))) (m ((c : Thread nD τ).loc main_arg3)) := by
  refine (after1_main_v80 (W2 m ρ c)).trans ?_
  rw [W2_main_v1 m ρ c, W2_main_v3 m ρ c, W2_main_arg3 m ρ c, W1_main_v1 m ρ c, W1_main_v3 m ρ c]
theorem W3_main_v83 (c : Dev nD) : (W3 m ρ c (Proc.devRef .tc main_v83) : FVec Ideal S1x64 .f32)
    = scaleRow (smK0 m ρ c) (sqK0 m ρ c) (m ((c : Thread nD τ).loc main_arg8)) := by
  refine (after1_main_v83 (W2 m ρ c)).trans ?_
  rw [W2_main_arg8 m ρ c]
theorem W3_main_v84 (c : Dev nD) : (W3 m ρ c (Proc.devRef .tc main_v84) : FVec Ideal S1x64 .f32)
    = shiftRow (smK0 m ρ c) (sqK0 m ρ c) (m ((c : Thread nD τ).loc main_arg8)) (m ((c : Thread nD τ).loc main_arg9)) := by
  refine (after1_main_v84 (W2 m ρ c)).trans ?_
  rw [W2_main_arg8 m ρ c, W2_main_arg9 m ρ c]
theorem W3_main_v81 (c : Dev nD) : (W3 m ρ c (Proc.devRef .tc main_v81) : FVec Ideal S1x64 .f32) = asRow (F := Ideal) (m ((c : Thread nD τ).loc main_arg11)) := by
  refine (after1_main_v81 (W2 m ρ c)).trans ?_
  rw [W2_main_arg11 m ρ c]
theorem W3_main_v82 (c : Dev nD) : (W3 m ρ c (Proc.devRef .tc main_v82) : FVec Ideal S1x64 .f32) = asRow (F := Ideal) (m ((c : Thread nD τ).loc main_arg13)) := by
  refine (after1_main_v82 (W2 m ρ c)).trans ?_
  rw [W2_main_arg13 m ρ c]
theorem W3_main_v64 (c : Dev nD) : (W3 m ρ c (Proc.devRef .tc main_v64) : FVec Ideal S256x64 .f32)
    = poolBn (smK0 m ρ c) (sqK0 m ρ c) (plK0 m ρ c) (ctK0 m ρ c) (m ((c : Thread nD τ).loc main_arg8)) (m ((c : Thread nD τ).loc main_arg9)) := by
  refine (after1_main_v64 (W2 m ρ c)).trans ?_
  rw [W2_main_arg8 m ρ c, W2_main_arg9 m ρ c]

/-! ## Region 1's input arrays in the statement's terms, given layer 0's rows and statistics -/

section Layer1
variable (c : Dev nD) (HP : ∀ n k, hpK0 m ρ c (ix2 n k) = Cert.GinMath.hK0 (𝔾r m c) (𝕡r m c) n k) (S : TileStats (𝔾r m c) (Cert.GinMath.hK0 (𝔾r m c) (𝕡r m c)) (smK0 m ρ c) (sqK0 m ρ c) (plK0 m ρ c) (ctK0 m ρ c))
include HP in
theorem in1_raw (n : Fin 50000) (j : Fin 64) :
    (V3 m ρ c (Pipeline.arrRef spec1 0) : Vec Ideal S50000x64 .f32) (ix2 n j) = Cert.GinMath.hK0 (𝔾r m c) (𝕡r m c) n j :=
  (congrFun (in1_0 m ρ c) (ix2 n j)).trans (HP n j)
include HP in
theorem in1_agg (n : Fin 50000) (j : Fin 64) :
    (V3 m ρ c (Pipeline.arrRef spec1 1) : Vec Ideal S50000x64 .f32) (ix2 n j) = Cert.GinMath.agg (𝔾r m c) (Cert.GinMath.hK0 (𝔾r m c) (𝕡r m c)) n j := by
  show (W3 m ρ c (Proc.devRef .tc main_v80) : FVec Ideal S50000x64 .f32) (ix2 n j) = _
  rw [W3_main_v80, aggChain64_eq, Cert.Lib.AggInst.K_srcOf_eq, Cert.Lib.AggInst.K_dstOf_eq,
    Cert.Lib.AggInst.K_agg64_graph _ (m ((c : Thread nD τ).loc main_arg2)) _ _ n j]
  have hf : (fun n k => hpK0 m ρ c (ix2 n k)) = Cert.GinMath.hK0 (𝔾r m c) (𝕡r m c) := funext fun n => funext fun k => HP n k
  rw [hf]
theorem in1_deg (n : Fin 50000) :
    (V3 m ρ c (Pipeline.arrRef spec1 2) : Vec Ideal S50000x1 .f32) (ix2 n 0) = Cert.GinMath.deg (𝔾r m c) n :=
  (congrFun (in1_2 m ρ c) (ix2 n 0)).trans (deg_at m ρ c n)
include S in
theorem in1_s (j : Fin 64) :
    (V3 m ρ c (Pipeline.arrRef spec1 3) : Vec Ideal S1x64 .f32) (ix2 0 j) = Cert.GinMath.sK (𝔾r m c) (Cert.GinMath.hK0 (𝔾r m c) (𝕡r m c)) (𝕡r m c).γ0 j := by
  show (W3 m ρ c (Proc.devRef .tc main_v83) : FVec Ideal S1x64 .f32) (ix2 0 j) = _
  rw [W3_main_v83]
  exact scaleRow_eq (𝔾r m c) rfl rfl rfl (Cert.GinMath.hK0 (𝔾r m c) (𝕡r m c)) _ _ (m ((c : Thread nD τ).loc main_arg8)) S.hsm S.hsq 0 j
include S in
theorem in1_t (j : Fin 64) :
    (V3 m ρ c (Pipeline.arrRef spec1 4) : Vec Ideal S1x64 .f32) (ix2 0 j) = Cert.GinMath.tK (𝔾r m c) (Cert.GinMath.hK0 (𝔾r m c) (𝕡r m c)) (𝕡r m c).γ0 (𝕡r m c).β0 j := by
  show (W3 m ρ c (Proc.devRef .tc main_v84) : FVec Ideal S1x64 .f32) (ix2 0 j) = _
  rw [W3_main_v84]
  exact shiftRow_eq (𝔾r m c) rfl rfl rfl (Cert.GinMath.hK0 (𝔾r m c) (𝕡r m c)) _ _ (m ((c : Thread nD τ).loc main_arg8)) (m ((c : Thread nD τ).loc main_arg9)) S.hsm S.hsq 0 j
theorem in1_bat (g : Fin 256) (n : Fin 50000) :
    (𝔾r m c).P g n ↔ (V3 m ρ c (Pipeline.arrRef spec1 5) : Vec Ideal S50000x1 .i32) (ix2 n 0) = BitVec.ofNat 32 g.val := by
  rw [show (V3 m ρ c (Pipeline.arrRef spec1 5) : Vec Ideal S50000x1 .i32) = W1 m ρ c (Proc.devRef .tc main_v4) from in1_5 m ρ c]
  exact bat_iff m ρ c g n
theorem in1_batw (n : Fin 50000) :
    (V3 m ρ c (Pipeline.arrRef spec1 5) : Vec Ideal S50000x1 .i32) (ix2 n 0) = ((m ((c : Thread nD τ).loc main_arg2)) : IVec S50000 32) (ix1 n) :=
  (congrFun (in1_5 m ρ c) (ix2 n 0)).trans (bat_at m ρ c n)
theorem in1_w1 (j k : Fin 64) :
    (V3 m ρ c (Pipeline.arrRef spec1 6) : Vec Ideal S64x64 .f32) (ix2 j k) = (𝕡r m c).W1_1 j k :=
  congrFun (in1_6 m ρ c) (ix2 j k)
theorem in1_b1 (k : Fin 64) :
    (V3 m ρ c (Pipeline.arrRef spec1 7) : Vec Ideal S1x64 .f32) (ix2 0 k) = (𝕡r m c).b1_1 k := by
  show (W3 m ρ c (Proc.devRef .tc main_v81) : FVec Ideal S1x64 .f32) (ix2 0 k) = _
  rw [W3_main_v81]
  exact asRow_apply _ 0 k
theorem in1_w2 (j k : Fin 64) :
    (V3 m ρ c (Pipeline.arrRef spec1 8) : Vec Ideal S64x64 .f32) (ix2 j k) = (𝕡r m c).W2_1 j k :=
  congrFun (in1_8 m ρ c) (ix2 j k)
theorem in1_b2 (k : Fin 64) :
    (V3 m ρ c (Pipeline.arrRef spec1 9) : Vec Ideal S1x64 .f32) (ix2 0 k) = (𝕡r m c).b2_1 k := by
  show (W3 m ρ c (Proc.devRef .tc main_v82) : FVec Ideal S1x64 .f32) (ix2 0 k) = _
  rw [W3_main_v82]
  exact asRow_apply _ 0 k

include S in
/-- Layer 0's pooled block, normalised by the host, is the statement's. -/
theorem K_pool0 (g : Fin 256) (k : Fin 64) :
    (W3 m ρ c (Proc.devRef .tc main_v64) : FVec Ideal S256x64 .f32) (ix2 g k) = Cert.GinMath.poolK (𝔾r m c) (Cert.GinMath.hK0 (𝔾r m c) (𝕡r m c)) (𝕡r m c).γ0 (𝕡r m c).β0 g k := by
  rw [W3_main_v64]
  exact poolBn_eq (𝔾r m c) rfl rfl rfl (Cert.GinMath.hK0 (𝔾r m c) (𝕡r m c)) _ _ _ _ (m ((c : Thread nD τ).loc main_arg8)) (m ((c : Thread nD τ).loc main_arg9)) S.hsm S.hsq S.hpl S.hct g k
end Layer1

/-! ## Stretch 2: the host's values over layer 1's named arrays -/

theorem W5_main_v137 (c : Dev nD) : (W5 m ρ c (Proc.devRef .tc main_v137) : FVec Ideal S50000x64 .f32)
    = aggChain64 (hpK1 m ρ c) (srcOf (m ((c : Thread nD τ).loc main_arg1))) (dstOf (m ((c : Thread nD τ).loc main_arg1))) (m ((c : Thread nD τ).loc main_arg3)) := by
  refine (after2_main_v137 (W4 m ρ c)).trans ?_
  rw [W4_main_v1 m ρ c, W4_main_v3 m ρ c, W4_main_arg3 m ρ c, W1_main_v1 m ρ c, W1_main_v3 m ρ c]
theorem W5_main_v140 (c : Dev nD) : (W5 m ρ c (Proc.devRef .tc main_v140) : FVec Ideal S1x64 .f32)
    = scaleRow (smK1 m ρ c) (sqK1 m ρ c) (m ((c : Thread nD τ).loc main_arg14)) := by
  refine (after2_main_v140 (W4 m ρ c)).trans ?_
  rw [W4_main_arg14 m ρ c]
theorem W5_main_v141 (c : Dev nD) : (W5 m ρ c (Proc.devRef .tc main_v141) : FVec Ideal S1x64 .f32)
    = shiftRow (smK1 m ρ c) (sqK1 m ρ c) (m ((c : Thread nD τ).loc main_arg14)) (m ((c : Thread nD τ).loc main_arg15)) := by
  refine (after2_main_v141 (W4 m ρ c)).trans ?_
  rw [W4_main_arg14 m ρ c, W4_main_arg15 m ρ c]
theorem W5_main_v138 (c : Dev nD) : (W5 m ρ c (Proc.devRef .tc main_v138) : FVec Ideal S1x64 .f32) = asRow (F := Ideal) (m ((c : Thread nD τ).loc main_arg17)) := by
  refine (after2_main_v138 (W4 m ρ c)).trans ?_
  rw [W4_main_arg17 m ρ c]
theorem W5_main_v139 (c : Dev nD) : (W5 m ρ c (Proc.devRef .tc main_v139) : FVec Ideal S1x64 .f32) = asRow (F := Ideal) (m ((c : Thread nD τ).loc main_arg19)) := by
  refine (after2_main_v139 (W4 m ρ c)).trans ?_
  rw [W4_main_arg19 m ρ c]
theorem W5_main_v121 (c : Dev nD) : (W5 m ρ c (Proc.devRef .tc main_v121) : FVec Ideal S256x64 .f32)
    = poolBn (smK1 m ρ c) (sqK1 m ρ c) (plK1 m ρ c) (ctK1 m ρ c) (m ((c : Thread nD τ).loc main_arg14)) (m ((c : Thread nD τ).loc main_arg15)) := by
  refine (after2_main_v121 (W4 m ρ c)).trans ?_
  rw [W4_main_arg14 m ρ c, W4_main_arg15 m ρ c]

/-! ## Region 2's input arrays in the statement's terms, given layer 1's rows and statistics -/

section Layer2
variable (c : Dev nD) (HP : ∀ n k, hpK1 m ρ c (ix2 n k) = Cert.GinMath.hK1 (𝔾r m c) (𝕡r m c) n k) (S : TileStats (𝔾r m c) (Cert.GinMath.hK1 (𝔾r m c) (𝕡r m c)) (smK1 m ρ c) (sqK1 m ρ c) (plK1 m ρ c) (ctK1 m ρ c))
include HP in
theorem in2_raw (n : Fin 50000) (j : Fin 64) :
    (V5 m ρ c (Pipeline.arrRef spec2 0) : Vec Ideal S50000x64 .f32) (ix2 n j) = Cert.GinMath.hK1 (𝔾r m c) (𝕡r m c) n j :=
  (congrFun (in2_0 m ρ c) (ix2 n j)).trans (HP n j)
include HP in
theorem in2_agg (n : Fin 50000) (j : Fin 64) :
    (V5 m ρ c (Pipeline.arrRef spec2 1) : Vec Ideal S50000x64 .f32) (ix2 n j) = Cert.GinMath.agg (𝔾r m c) (Cert.GinMath.hK1 (𝔾r m c) (𝕡r m c)) n j := by
  show (W5 m ρ c (Proc.devRef .tc main_v137) : FVec Ideal S50000x64 .f32) (ix2 n j) = _
  rw [W5_main_v137, aggChain64_eq, Cert.Lib.AggInst.K_srcOf_eq, Cert.Lib.AggInst.K_dstOf_eq,
    Cert.Lib.AggInst.K_agg64_graph _ (m ((c : Thread nD τ).loc main_arg2)) _ _ n j]
  have hf : (fun n k => hpK1 m ρ c (ix2 n k)) = Cert.GinMath.hK1 (𝔾r m c) (𝕡r m c) := funext fun n => funext fun k => HP n k
  rw [hf]
theorem in2_deg (n : Fin 50000) :
    (V5 m ρ c (Pipeline.arrRef spec2 2) : Vec Ideal S50000x1 .f32) (ix2 n 0) = Cert.GinMath.deg (𝔾r m c) n :=
  (congrFun (in2_2 m ρ c) (ix2 n 0)).trans (deg_at m ρ c n)
include S in
theorem in2_s (j : Fin 64) :
    (V5 m ρ c (Pipeline.arrRef spec2 3) : Vec Ideal S1x64 .f32) (ix2 0 j) = Cert.GinMath.sK (𝔾r m c) (Cert.GinMath.hK1 (𝔾r m c) (𝕡r m c)) (𝕡r m c).γ1 j := by
  show (W5 m ρ c (Proc.devRef .tc main_v140) : FVec Ideal S1x64 .f32) (ix2 0 j) = _
  rw [W5_main_v140]
  exact scaleRow_eq (𝔾r m c) rfl rfl rfl (Cert.GinMath.hK1 (𝔾r m c) (𝕡r m c)) _ _ (m ((c : Thread nD τ).loc main_arg14)) S.hsm S.hsq 0 j
include S in
theorem in2_t (j : Fin 64) :
    (V5 m ρ c (Pipeline.arrRef spec2 4) : Vec Ideal S1x64 .f32) (ix2 0 j) = Cert.GinMath.tK (𝔾r m c) (Cert.GinMath.hK1 (𝔾r m c) (𝕡r m c)) (𝕡r m c).γ1 (𝕡r m c).β1 j := by
  show (W5 m ρ c (Proc.devRef .tc main_v141) : FVec Ideal S1x64 .f32) (ix2 0 j) = _
  rw [W5_main_v141]
  exact shiftRow_eq (𝔾r m c) rfl rfl rfl (Cert.GinMath.hK1 (𝔾r m c) (𝕡r m c)) _ _ (m ((c : Thread nD τ).loc main_arg14)) (m ((c : Thread nD τ).loc main_arg15)) S.hsm S.hsq 0 j
theorem in2_bat (g : Fin 256) (n : Fin 50000) :
    (𝔾r m c).P g n ↔ (V5 m ρ c (Pipeline.arrRef spec2 5) : Vec Ideal S50000x1 .i32) (ix2 n 0) = BitVec.ofNat 32 g.val := by
  rw [show (V5 m ρ c (Pipeline.arrRef spec2 5) : Vec Ideal S50000x1 .i32) = W1 m ρ c (Proc.devRef .tc main_v4) from in2_5 m ρ c]
  exact bat_iff m ρ c g n
theorem in2_batw (n : Fin 50000) :
    (V5 m ρ c (Pipeline.arrRef spec2 5) : Vec Ideal S50000x1 .i32) (ix2 n 0) = ((m ((c : Thread nD τ).loc main_arg2)) : IVec S50000 32) (ix1 n) :=
  (congrFun (in2_5 m ρ c) (ix2 n 0)).trans (bat_at m ρ c n)
theorem in2_w1 (j k : Fin 64) :
    (V5 m ρ c (Pipeline.arrRef spec2 6) : Vec Ideal S64x64 .f32) (ix2 j k) = (𝕡r m c).W1_2 j k :=
  congrFun (in2_6 m ρ c) (ix2 j k)
theorem in2_b1 (k : Fin 64) :
    (V5 m ρ c (Pipeline.arrRef spec2 7) : Vec Ideal S1x64 .f32) (ix2 0 k) = (𝕡r m c).b1_2 k := by
  show (W5 m ρ c (Proc.devRef .tc main_v138) : FVec Ideal S1x64 .f32) (ix2 0 k) = _
  rw [W5_main_v138]
  exact asRow_apply _ 0 k
theorem in2_w2 (j k : Fin 64) :
    (V5 m ρ c (Pipeline.arrRef spec2 8) : Vec Ideal S64x64 .f32) (ix2 j k) = (𝕡r m c).W2_2 j k :=
  congrFun (in2_8 m ρ c) (ix2 j k)
theorem in2_b2 (k : Fin 64) :
    (V5 m ρ c (Pipeline.arrRef spec2 9) : Vec Ideal S1x64 .f32) (ix2 0 k) = (𝕡r m c).b2_2 k := by
  show (W5 m ρ c (Proc.devRef .tc main_v139) : FVec Ideal S1x64 .f32) (ix2 0 k) = _
  rw [W5_main_v139]
  exact asRow_apply _ 0 k

include S in
/-- Layer 1's pooled block, normalised by the host, is the statement's. -/
theorem K_pool1 (g : Fin 256) (k : Fin 64) :
    (W5 m ρ c (Proc.devRef .tc main_v121) : FVec Ideal S256x64 .f32) (ix2 g k) = Cert.GinMath.poolK (𝔾r m c) (Cert.GinMath.hK1 (𝔾r m c) (𝕡r m c)) (𝕡r m c).γ1 (𝕡r m c).β1 g k := by
  rw [W5_main_v121]
  exact poolBn_eq (𝔾r m c) rfl rfl rfl (Cert.GinMath.hK1 (𝔾r m c) (𝕡r m c)) _ _ _ _ (m ((c : Thread nD τ).loc main_arg14)) (m ((c : Thread nD τ).loc main_arg15)) S.hsm S.hsq S.hpl S.hct g k
end Layer2

/-! ## Stretch 3: the host's values over layer 2's named arrays -/

theorem W7_main_v151 (c : Dev nD) : (W7 m ρ c (Proc.devRef .tc main_v151) : FVec Ideal S64 .f32) = colMean (smK2 m ρ c) :=
  after3_main_v151 (W6 m ρ c)
theorem W7_main_v157 (c : Dev nD) : (W7 m ρ c (Proc.devRef .tc main_v157) : FVec Ideal S64 .f32) = colVar (smK2 m ρ c) (sqK2 m ρ c) :=
  after3_main_v157 (W6 m ρ c)
theorem W7_main_v178 (c : Dev nD) : (W7 m ρ c (Proc.devRef .tc main_v178) : FVec Ideal S256x64 .f32)
    = poolBn (smK2 m ρ c) (sqK2 m ρ c) (plK2 m ρ c) (ctK2 m ρ c) (m ((c : Thread nD τ).loc main_arg20)) (m ((c : Thread nD τ).loc main_arg21)) := by
  refine (after3_main_v178 (W6 m ρ c)).trans ?_
  rw [W6_main_arg20 m ρ c, W6_main_arg21 m ρ c]
theorem W7_main_v179 (c : Dev nD) : (W7 m ρ c (Proc.devRef .tc main_v179) : FVec Ideal S25000x128 .f32) = pack128 (hpK2 m ρ c) :=
  after3_v179 (W6 m ρ c)
theorem W7_main_v181 (c : Dev nD) : (W7 m ρ c (Proc.devRef .tc main_v181) : FVec Ideal S1x128 .f32) = twice128 (colMean (smK2 m ρ c)) :=
  (after3_v181 (W6 m ρ c)).trans (congrArg twice128 (W7_main_v151 m ρ c))
theorem W7_main_v183 (c : Dev nD) : (W7 m ρ c (Proc.devRef .tc main_v183) : FVec Ideal S1x128 .f32)
    = twice128 (colVar (smK2 m ρ c) (sqK2 m ρ c)) :=
  (after3_v183 (W6 m ρ c)).trans (congrArg twice128 (W7_main_v157 m ρ c))
theorem W7_main_v185 (c : Dev nD) : (W7 m ρ c (Proc.devRef .tc main_v185) : FVec Ideal S1x128 .f32) = twice128 (F := Ideal) (m ((c : Thread nD τ).loc main_arg20)) := by
  refine (after3_v185 (W6 m ρ c)).trans ?_
  rw [W6_main_arg20 m ρ c]
theorem W7_main_v187 (c : Dev nD) : (W7 m ρ c (Proc.devRef .tc main_v187) : FVec Ideal S1x128 .f32) = twice128 (F := Ideal) (m ((c : Thread nD τ).loc main_arg21)) := by
  refine (after3_v187 (W6 m ρ c)).trans ?_
  rw [W6_main_arg21 m ρ c]

/-! ## The two results -/

/-- Region 3's five input arrays as the run finds them, at their literal types. -/
abbrev hA3 (c : Dev nD) : Vec Ideal S25000x128 .f32 := V7 m ρ c (Pipeline.arrRef spec3 0)
abbrev meanA3 (c : Dev nD) : Vec Ideal S1x128 .f32 := V7 m ρ c (Pipeline.arrRef spec3 1)
abbrev varA3 (c : Dev nD) : Vec Ideal S1x128 .f32 := V7 m ρ c (Pipeline.arrRef spec3 2)
abbrev gamA3 (c : Dev nD) : Vec Ideal S1x128 .f32 := V7 m ρ c (Pipeline.arrRef spec3 3)
abbrev betA3 (c : Dev nD) : Vec Ideal S1x128 .f32 := V7 m ρ c (Pipeline.arrRef spec3 4)

section Results
variable (c : Dev nD) (HP : ∀ n k, hpK2 m ρ c (ix2 n k) = Cert.GinMath.hK2 (𝔾r m c) (𝕡r m c) n k)
  (S : TileStats (𝔾r m c) (Cert.GinMath.hK2 (𝔾r m c) (𝕡r m c)) (smK2 m ρ c) (sqK2 m ρ c) (plK2 m ρ c) (ctK2 m ρ c))

include S in
/-- Layer 2's pooled block, normalised by the host, is the statement's. -/
theorem K_pool2 (g : Fin 256) (k : Fin 64) :
    (W7 m ρ c (Proc.devRef .tc main_v178) : FVec Ideal S256x64 .f32) (ix2 g k)
      = Cert.GinMath.poolK (𝔾r m c) (Cert.GinMath.hK2 (𝔾r m c) (𝕡r m c)) (𝕡r m c).γ2 (𝕡r m c).β2 g k := by
  rw [W7_main_v178]
  exact poolBn_eq (𝔾r m c) rfl rfl rfl (Cert.GinMath.hK2 (𝔾r m c) (𝕡r m c)) _ _ _ _ (m ((c : Thread nD τ).loc main_arg20)) (m ((c : Thread nD τ).loc main_arg21)) S.hsm S.hsq S.hpl S.hct g k

/-- The second result: the three layers' pooled blocks side by side. -/
theorem K_out1' : (W9 m ρ c (Proc.devRef .tc main_v190) : FVec Ideal S256x192 .f32)
    = pool3 (F := Ideal) (W3 m ρ c (Proc.devRef .tc main_v64)) (W5 m ρ c (Proc.devRef .tc main_v121)) (W7 m ρ c (Proc.devRef .tc main_v178)) := by
  refine (after4_v190 (W8 m ρ c)).trans ?_
  rw [W8_main_v64 m ρ c, W8_main_v121 m ρ c, W8_main_v178 m ρ c]

include HP S in
/-- The first result, node `n`, feature `k`: the last layer's rows normalised. The normalising region's value enters as
    `F3`: at row `r`, lane `l` of its output, `(h - mean) * rsqrt (var + eps) * gamma + beta` of its five input arrays
    (`hA3` … `betA3`). -/
theorem K_out0
    (F3 : ∀ (r : Fin 25000) (l : Fin 128), bnK m ρ c (ix2 r l)
      = (hA3 m ρ c (ix2 r l) - meanA3 m ρ c (ix2 0 l))
          * Ideal.rsqrt (varA3 m ρ c (ix2 0 l) + Ideal.ofBits .f32 0x3727C5AC#32) * gamA3 m ρ c (ix2 0 l)
        + betA3 m ρ c (ix2 0 l))
    (n : Fin 50000) (k : Fin 64) :
    (W9 m ρ c (Proc.devRef .tc main_v189) : FVec Ideal S50000x64 .f32) (ix2 n k)
      = Cert.GinMath.bnK (𝔾r m c) (Cert.GinMath.hK2 (𝔾r m c) (𝕡r m c)) (𝕡r m c).γ2 (𝕡r m c).β2 n k := by
  have hn := n.isLt
  have hk := k.isLt
  have e9 : (W9 m ρ c (Proc.devRef .tc main_v189) : FVec Ideal S50000x64 .f32) = unpack64 (bnK m ρ c) := after4_v189 (W8 m ρ c)
  rw [e9, unpack64_apply, F3]
  -- the five input arrays, read where the output's entry reads them
  have hlane : ((n.val % 2) * 64 + k.val) % 64 = k.val := by omega
  have hnode : 2 * (n.val / 2) + ((n.val % 2) * 64 + k.val) / 64 = n.val := by omega
  have a0 : hA3 m ρ c (ix2 (⟨n.val / 2, by omega⟩ : Fin 25000) (⟨(n.val % 2) * 64 + k.val, by omega⟩ : Fin 128)) = Cert.GinMath.hK2 (𝔾r m c) (𝕡r m c) n k := by
    show (W7 m ρ c (Proc.devRef .tc main_v179) : FVec Ideal S25000x128 .f32) _ = _
    rw [W7_main_v179, pack128_apply]
    have e : ∀ (a : Fin 50000) (b : Fin 64), a.val = n.val → b.val = k.val → hpK2 m ρ c (ix2 a b) = hpK2 m ρ c (ix2 n k) :=
      fun a b ha hb => by rw [Fin.ext ha, Fin.ext hb]
    exact (e _ _ hnode hlane).trans (HP n k)
  have a1 : meanA3 m ρ c (ix2 0 (⟨(n.val % 2) * 64 + k.val, by omega⟩ : Fin 128)) = Cert.GinMath.meanK (𝔾r m c) (Cert.GinMath.hK2 (𝔾r m c) (𝕡r m c)) k := by
    show (W7 m ρ c (Proc.devRef .tc main_v181) : FVec Ideal S1x128 .f32) _ = _
    rw [W7_main_v181, twice128_apply]
    have e : ∀ b : Fin 64, b.val = k.val → colMean (smK2 m ρ c) (ix1 b) = colMean (smK2 m ρ c) (ix1 k) :=
      fun b hb => by rw [Fin.ext hb]
    exact (e _ hlane).trans (colMean_eq (𝔾r m c) rfl rfl (Cert.GinMath.hK2 (𝔾r m c) (𝕡r m c)) _ S.hsm k)
  have a2 : varA3 m ρ c (ix2 0 (⟨(n.val % 2) * 64 + k.val, by omega⟩ : Fin 128)) = Cert.GinMath.varK (𝔾r m c) (Cert.GinMath.hK2 (𝔾r m c) (𝕡r m c)) k := by
    show (W7 m ρ c (Proc.devRef .tc main_v183) : FVec Ideal S1x128 .f32) _ = _
    rw [W7_main_v183, twice128_apply]
    have e : ∀ b : Fin 64, b.val = k.val →
        colVar (smK2 m ρ c) (sqK2 m ρ c) (ix1 b) = colVar (smK2 m ρ c) (sqK2 m ρ c) (ix1 k) :=
      fun b hb => by rw [Fin.ext hb]
    exact (e _ hlane).trans (colVar_eq (𝔾r m c) rfl rfl (Cert.GinMath.hK2 (𝔾r m c) (𝕡r m c)) _ _ S.hsm S.hsq k)
  have a3 : gamA3 m ρ c (ix2 0 (⟨(n.val % 2) * 64 + k.val, by omega⟩ : Fin 128)) = (𝕡r m c).γ2 k := by
    show (W7 m ρ c (Proc.devRef .tc main_v185) : FVec Ideal S1x128 .f32) _ = _
    rw [W7_main_v185, twice128_apply]
    have e : ∀ b : Fin 64, b.val = k.val → ((m ((c : Thread nD τ).loc main_arg20)) : FVec Ideal S64 .f32) (ix1 b) = (𝕡r m c).γ2 k :=
      fun b hb => by rw [Fin.ext hb]; rfl
    exact e _ hlane
  have a4 : betA3 m ρ c (ix2 0 (⟨(n.val % 2) * 64 + k.val, by omega⟩ : Fin 128)) = (𝕡r m c).β2 k := by
    show (W7 m ρ c (Proc.devRef .tc main_v187) : FVec Ideal S1x128 .f32) _ = _
    rw [W7_main_v187, twice128_apply]
    have e : ∀ b : Fin 64, b.val = k.val → ((m ((c : Thread nD τ).loc main_arg21)) : FVec Ideal S64 .f32) (ix1 b) = (𝕡r m c).β2 k :=
      fun b hb => by rw [Fin.ext hb]; rfl
    exact e _ hlane
  rw [a0, a1, a2, a3, a4]
  rfl
end Results

end Cert.KernelIdeal.Fr

end
-- ==== Proof.K0Spec.lean ====
/- Pallas call 0, what it computes, as functions of its ten input arrays at the ideal values: per node the scaled and
   shifted input, the two dense layers with their rectifiers, and per core the four running statistics of the second
   layer's output over the core's 25000 nodes (five tiles of 5000): the column sums, the column sums of squares, the
   sums pooled by batch id, and the node counts by batch id. -/
import proofs.«429418_j73830487818378_3_alg».proof.KernelIdeal
import Idealize.ShloMosaic.Lib.ValueIdx
import Idealize.ShloMosaic.PureOps.Ideal.Laws

noncomputable section

namespace Cert.KernelIdeal.Fr.R0

open Cert.KernelIdeal
open Idealize.ShloMosaic Idealize.ShloMosaic.ValueIdx

section Spec
variable (rawA aggA : Vec Ideal S50000x128 .f32) (degA : Vec Ideal S50000x1 .f32) (sA tA : Vec Ideal S1x128 .f32)
  (batA : Vec Ideal S50000x1 .i32) (w1A : Vec Ideal S128x64 .f32) (b1A : Vec Ideal S1x64 .f32)
  (w2A : Vec Ideal S64x64 .f32) (b2A : Vec Ideal S1x64 .f32)

/-- The scaled and shifted input of node `n`, lane `j`: `s·(raw + agg) + t·(1 + deg)`. -/
def xin (n : Fin 50000) (j : Fin 128) : EReal :=
  sA (ix2 0 j) * (rawA (ix2 n j) + aggA (ix2 n j)) + tA (ix2 0 j) * (Ideal.ofBits .f32 0x3F800000#32 + degA (ix2 n 0))

/-- The first layer's rectified output of node `n`, column `k`. -/
def h1 (n : Fin 50000) (k : Fin 64) : EReal :=
  max ((∑ j : Fin 128, xin rawA aggA degA sA tA n j * w1A (ix2 j k)) + b1A (ix2 0 k)) (Ideal.ofBits .f32 0x00000000#32)

/-- The second layer's rectified output of node `n`, column `k`. -/
def hpost (n : Fin 50000) (k : Fin 64) : EReal :=
  max ((∑ j : Fin 64, h1 rawA aggA degA sA tA w1A b1A n j * w2A (ix2 j k)) + b2A (ix2 0 k)) (Ideal.ofBits .f32 0x00000000#32)

/-- The one-hot word of node `n` for graph `g`: 1 when the node's batch id is `g`, else 0. -/
def oh (n : Fin 50000) (g : Fin 256) : EReal := if batA (ix2 n 0) = BitVec.ofNat 32 g.val then 1 else 0

end Spec

/-- Row `r` of tile `i` of core `q`: node `(5q + i)·5000 + r`. -/
def rowOf (q : Fin 2) (i : Fin 5) (r : Fin 5000) : Fin 50000 :=
  ⟨(5 * q.val + i.val) * 5000 + r.val, by have := q.isLt; have := i.isLt; have := r.isLt; omega⟩

end Cert.KernelIdeal.Fr.R0

end
-- ==== Proof.KLayer0.lean ====
/-
  One call of the kernel, read at a node and a column, is the mathematical layer.  The call's per-node values — the
  scaled and shifted input `s·(raw + agg) + t·(1 + deg)` and the two dense maps each followed by the maximum with
  zero — are the curried functions of the same names once the arrays are read entry by entry; the tile a row lies in
  is the same function of the core, the step and the row; and the zero-one word of a node for a graph, the node's
  graph word compared with the graph's number as a 32-bit word, is the indicator of the node's signed graph word
  being that number.
-/
import proofs.«429418_j73830487818378_3_alg».proof.Proof.K0Spec
import proofs.«429418_j73830487818378_3_alg».proof.Proof.GinMath
import proofs.«429418_j73830487818378_3_alg».proof.Proof.Inst
import proofs.«429418_j73830487818378_3_alg».proof.Proof.LibLayer

noncomputable section

open scoped BigOperators

namespace Cert.KernelIdeal.Fr.R0

open Cert.KernelIdeal Idealize.ShloMosaic Idealize.ShloMosaic.ValueIdx

variable (ei : IVec ⟨2, ![2, 800000]⟩ 32) (bt : IVec ⟨1, ![50000]⟩ 32) (ew : (⟨1, ![800000]⟩ : Shape).Idx → EReal)

local notation "𝔾" => Cert.Inst.graph ei bt ew

/-- The scaled and shifted input, the arrays given entry by entry. -/
theorem xin_eq (rawA aggA : Vec Ideal S50000x128 .f32) (degA : Vec Ideal S50000x1 .f32) (sA tA : Vec Ideal S1x128 .f32)
    (raw : Fin 50000 → Fin 128 → EReal) (s t : Fin 128 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (n : Fin 50000) (j : Fin 128) :
    xin rawA aggA degA sA tA n j = Cert.GinMath.xinK 𝔾 raw s t n j := by
  unfold xin; rw [hraw, hagg, hdeg, hs, ht]; rfl

/-- The first dense map and the maximum with zero. -/
theorem h1_eq (rawA aggA : Vec Ideal S50000x128 .f32) (degA : Vec Ideal S50000x1 .f32) (sA tA : Vec Ideal S1x128 .f32)
    (w1A : Vec Ideal S128x64 .f32) (b1A : Vec Ideal S1x64 .f32)
    (raw : Fin 50000 → Fin 128 → EReal) (s t : Fin 128 → EReal) (b1 : Fin 64 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (hb1 : ∀ k, b1A (ix2 0 k) = b1 k) (n : Fin 50000) (k : Fin 64) :
    h1 rawA aggA degA sA tA w1A b1A n k
      = Cert.GinMath.dense 𝔾 (Cert.GinMath.xinK 𝔾 raw s t) (Cert.Inst.mat w1A) b1 n k := by
  unfold h1
  simp only [xin_eq ei bt ew rawA aggA degA sA tA raw s t hraw hagg hdeg hs ht, hb1]
  rfl

/-- The call's two dense maps over the scaled and shifted input. -/
theorem hpost_eq (rawA aggA : Vec Ideal S50000x128 .f32) (degA : Vec Ideal S50000x1 .f32) (sA tA : Vec Ideal S1x128 .f32)
    (w1A : Vec Ideal S128x64 .f32) (b1A : Vec Ideal S1x64 .f32) (w2A : Vec Ideal S64x64 .f32) (b2A : Vec Ideal S1x64 .f32)
    (raw : Fin 50000 → Fin 128 → EReal) (s t : Fin 128 → EReal) (b1 b2 : Fin 64 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (hb1 : ∀ k, b1A (ix2 0 k) = b1 k) (hb2 : ∀ k, b2A (ix2 0 k) = b2 k) (n : Fin 50000) (k : Fin 64) :
    hpost rawA aggA degA sA tA w1A b1A w2A b2A n k
      = Cert.GinMath.mlp 𝔾 (Cert.GinMath.xinK 𝔾 raw s t) (Cert.Inst.mat w1A) b1 (Cert.Inst.mat w2A) b2 n k := by
  unfold hpost Cert.GinMath.mlp
  simp only [h1_eq ei bt ew rawA aggA degA sA tA w1A b1A raw s t b1 hraw hagg hdeg hs ht hb1, hb2]
  rfl

/-- The tile a row lies in: the same function of the core, the step and the row. -/
theorem rowOf_eq : rowOf = Cert.GinMath.rowOf := rfl

/-- The zero-one word of a node for a graph is the indicator of the node lying in the graph. -/
theorem oh_eq (batA : Vec Ideal S50000x1 .i32) (hbat : ∀ n, batA (ix2 n 0) = bt (ix1 n)) (n : Fin 50000) (g : Fin 256) :
    oh batA n g = Cert.GinMath.oh 𝔾 g n := by
  unfold oh Cert.GinMath.oh
  rw [hbat]
  exact if_congr (Cert.Lib.Layer.word_eq_iff (bt (ix1 n)) g.val g.isLt) rfl rfl

end Cert.KernelIdeal.Fr.R0

end
-- ==== Proof.K0Pay.lean ====
/- Pallas call 0 (the first MLP layer pair, over 128 input lanes, with its batch statistics), the arithmetic of its body at an index, read at
   the ideal values: the scaled and shifted input, the two dense layers with their rectifiers (each matrix product
   into a zero accumulator is the plain sum over the contracted axis; the narrowing to bf16 is the identity on the
   extended reals), the column sums, the one-hot words of the batch ids, and what each of the four accumulators' stored
   payloads holds at an index in terms of a tile's rows. -/
import proofs.«429418_j73830487818378_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Fr.R0

open Cert.KernelIdeal Cert.KernelIdeal.Gen
open Idealize.ShloMosaic Idealize.ShloMosaic.TcCoe Idealize.SL.Sem
open Idealize.ShloMosaic.ValueIdx

/-! ## Layout operations of the body at an index -/

/-- A [1,128] row broadcast over 5000 rows reads its column everywhere. -/
theorem row_bcast128 {α : Type} (x : S1x128.Idx → α) (r : Fin 5000) (j : Fin 128) :
    broadcastTo S5000x128 x broadcasts_S1x128_S5000x128 (ix2 r j) = x (ix2 0 j) := by
  refine broadcastTo_apply x _ _ _ fun a => ?_
  match a with
  | ⟨0, _⟩ => rfl
  | ⟨1, _⟩ => rfl

/-- A [1,64] row broadcast over 5000 rows reads its column everywhere. -/
theorem row_bcast1 {α : Type} (x : S1x64.Idx → α) (r : Fin 5000) (j : Fin 64) :
    broadcastTo S5000x64 x broadcasts_S1x64_S5000x64 (ix2 r j) = x (ix2 0 j) := by
  refine broadcastTo_apply x _ _ _ fun a => ?_
  match a with
  | ⟨0, _⟩ => rfl
  | ⟨1, _⟩ => rfl

/-- A [5000,1] column broadcast over 128 lanes reads its row everywhere. -/
theorem col_bcast1 {α : Type} (x : S5000x1.Idx → α) (r : Fin 5000) (j : Fin 128) :
    broadcastTo S5000x128 x broadcasts_S5000x1_S5000x128 (ix2 r j) = x (ix2 r 0) := by
  refine broadcastTo_apply x _ _ _ fun a => ?_
  match a with
  | ⟨0, _⟩ => rfl
  | ⟨1, _⟩ => rfl

/-- A [5000,1] column broadcast over 256 lanes reads its row everywhere. -/
theorem col_bcast1g {α : Type} (x : S5000x1.Idx → α) (r : Fin 5000) (g : Fin 256) :
    broadcastTo S5000x256 x broadcasts_S5000x1_S5000x256 (ix2 r g) = x (ix2 r 0) := by
  refine broadcastTo_apply x _ _ _ fun a => ?_
  match a with
  | ⟨0, _⟩ => rfl
  | ⟨1, _⟩ => rfl

/-! ## The two matrix products' operand indices

The dense layers contract the left operand's lanes with the right operand's rows; the pooling product contracts the
rows of both operands (the one-hot matrix enters transposed). -/

theorem lhs_dotA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dotA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dotA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dotA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A dense layer's product into the zero accumulator, at row `r` and column `k`: the sum over the 64 contracted lanes. -/
theorem dense_apply (x : FVec Ideal S5000x64 .bf16) (w : FVec Ideal S64x64 .bf16) (r : Fin 5000) (k : Fin 64) :
    matmul dot_S5000x64_S64x64_S5000x64_1_0_0_1_n_n none x w (constant (F := Ideal) S5000x64 .f32 0x00000000#32) (ix2 r k)
      = ∑ j : Fin 64, x (ix2 r j) * w (ix2 j k) := by
  simp only [matmul]
  rw [Ideal.matmul_constant_zero_apply, ← Equiv.sum_comp (contrEquiv1 dot_S5000x64_S64x64_S5000x64_1_0_0_1_n_n 64 rfl rfl).symm]
  refine Finset.sum_congr rfl fun j _ => ?_
  have hk := contrEquiv1_symm_val dot_S5000x64_S64x64_S5000x64_1_0_0_1_n_n 64 rfl rfl j
  have el : dot_S5000x64_S64x64_S5000x64_1_0_0_1_n_n.lhsIdx (ix2 r k) ((contrEquiv1 dot_S5000x64_S64x64_S5000x64_1_0_0_1_n_n 64 rfl rfl).symm j) = ix2 r j := funext fun a => Fin.ext (by
    match a with
    | ⟨0, _⟩ => exact lhs_dotA_0 _ _
    | ⟨1, _⟩ => exact (lhs_dotA_1 _ _).trans hk)
  have er : dot_S5000x64_S64x64_S5000x64_1_0_0_1_n_n.rhsIdx (ix2 r k) ((contrEquiv1 dot_S5000x64_S64x64_S5000x64_1_0_0_1_n_n 64 rfl rfl).symm j) = ix2 j k := funext fun a => Fin.ext (by
    match a with
    | ⟨0, _⟩ => exact (rhs_dotA_0 _ _).trans hk
    | ⟨1, _⟩ => exact rhs_dotA_1 _ _)
  rw [el, er]

/-! The first layer contracts 128 lanes. -/

theorem lhs_dotW_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_dotW_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_dotW_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_dotW_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first dense layer's product into the zero accumulator, at row `r` and column `k`: the sum over the 128 contracted lanes. -/
theorem dense128_apply (x : FVec Ideal S5000x128 .bf16) (w : FVec Ideal S128x64 .bf16) (r : Fin 5000) (k : Fin 64) :
    matmul dot_S5000x128_S128x64_S5000x64_1_0_0_1_n_n none x w (constant (F := Ideal) S5000x64 .f32 0x00000000#32) (ix2 r k)
      = ∑ j : Fin 128, x (ix2 r j) * w (ix2 j k) := by
  simp only [matmul]
  rw [Ideal.matmul_constant_zero_apply, ← Equiv.sum_comp (contrEquiv1 dot_S5000x128_S128x64_S5000x64_1_0_0_1_n_n 128 rfl rfl).symm]
  refine Finset.sum_congr rfl fun j _ => ?_
  have hk := contrEquiv1_symm_val dot_S5000x128_S128x64_S5000x64_1_0_0_1_n_n 128 rfl rfl j
  have el : dot_S5000x128_S128x64_S5000x64_1_0_0_1_n_n.lhsIdx (ix2 r k) ((contrEquiv1 dot_S5000x128_S128x64_S5000x64_1_0_0_1_n_n 128 rfl rfl).symm j) = ix2 r j := funext fun a => Fin.ext (by
    match a with
    | ⟨0, _⟩ => exact lhs_dotW_0 _ _
    | ⟨1, _⟩ => exact (lhs_dotW_1 _ _).trans hk)
  have er : dot_S5000x128_S128x64_S5000x64_1_0_0_1_n_n.rhsIdx (ix2 r k) ((contrEquiv1 dot_S5000x128_S128x64_S5000x64_1_0_0_1_n_n 128 rfl rfl).symm j) = ix2 j k := funext fun a => Fin.ext (by
    match a with
    | ⟨0, _⟩ => exact (rhs_dotW_0 _ _).trans hk
    | ⟨1, _⟩ => exact rhs_dotW_1 _ _)
  rw [el, er]

theorem lhs_dotP_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_dotP_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_dotP_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_dotP_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The pooling product into the zero accumulator, at graph `g` and column `k`: the sum over the tile's 5000 rows. -/
theorem pool_apply (oh : FVec Ideal S5000x256 .f32) (h : FVec Ideal S5000x64 .f32) (g : Fin 256) (k : Fin 64) :
    matmul dot_S5000x256_S5000x64_S256x64_0_0_1_1_n_n (some .fp32) oh h (constant (F := Ideal) S256x64 .f32 0x00000000#32) (ix2 g k)
      = ∑ r : Fin 5000, oh (ix2 r g) * h (ix2 r k) := by
  simp only [matmul]
  rw [Ideal.matmul_constant_zero_apply, ← Equiv.sum_comp (contrEquiv1 dot_S5000x256_S5000x64_S256x64_0_0_1_1_n_n 5000 rfl rfl).symm]
  refine Finset.sum_congr rfl fun r _ => ?_
  have hk := contrEquiv1_symm_val dot_S5000x256_S5000x64_S256x64_0_0_1_1_n_n 5000 rfl rfl r
  have el : dot_S5000x256_S5000x64_S256x64_0_0_1_1_n_n.lhsIdx (ix2 g k) ((contrEquiv1 dot_S5000x256_S5000x64_S256x64_0_0_1_1_n_n 5000 rfl rfl).symm r) = ix2 r g := funext fun a => Fin.ext (by
    match a with
    | ⟨0, _⟩ => exact (lhs_dotP_0 _ _).trans hk
    | ⟨1, _⟩ => exact lhs_dotP_1 _ _)
  have er : dot_S5000x256_S5000x64_S256x64_0_0_1_1_n_n.rhsIdx (ix2 g k) ((contrEquiv1 dot_S5000x256_S5000x64_S256x64_0_0_1_1_n_n 5000 rfl rfl).symm r) = ix2 r k := funext fun a => Fin.ext (by
    match a with
    | ⟨0, _⟩ => exact (rhs_dotP_0 _ _).trans hk
    | ⟨1, _⟩ => exact rhs_dotP_1 _ _)
  rw [el, er]

/-! ## Column sums -/

/-- The sum over a [5000,64] tile's rows, at lane `k`. -/
theorem colsum64_apply (x : FVec Ideal S5000x64 .f32) (hφ : FKind.Formats .f32)
    (hacc : (0x00000000#32 : BitVec (FTy.bits .f32)) = FKind.add.neutral .f32 hφ) (k : Fin 64) :
    multiReduction (F := Ideal) .add [0] S64 x 0x00000000#32 reduces_S5000x64_S64 hφ hacc (ix1 k) = ∑ r : Fin 5000, x (ix2 r k) := by
  refine (Ideal.multiReduction_add_single x _ reduces_S5000x64_S64 hφ hacc (ix1 k)).trans ?_
  refine Finset.sum_congr rfl fun r _ => congrArg x (funext fun a => Fin.ext ?_)
  match a with
  | ⟨0, _⟩ => rfl
  | ⟨1, _⟩ => rfl

/-- The sum over a [5000,256] tile's rows, at lane `g`. -/
theorem colsum256_apply (x : FVec Ideal S5000x256 .f32) (hφ : FKind.Formats .f32)
    (hacc : (0x00000000#32 : BitVec (FTy.bits .f32)) = FKind.add.neutral .f32 hφ) (g : Fin 256) :
    multiReduction (F := Ideal) .add [0] S256 x 0x00000000#32 reduces_S5000x256_S256 hφ hacc (ix1 g) = ∑ r : Fin 5000, x (ix2 r g) := by
  refine (Ideal.multiReduction_add_single x _ reduces_S5000x256_S256 hφ hacc (ix1 g)).trans ?_
  refine Finset.sum_congr rfl fun r _ => congrArg x (funext fun a => Fin.ext ?_)
  match a with
  | ⟨0, _⟩ => rfl
  | ⟨1, _⟩ => rfl

/-! ## The one-hot words -/

/-- The float of "row `r`'s batch id is `g`": the comparison's bit, widened to a word and converted. -/
def ohw (b : BitVec 32) (g : Fin 256) : EReal := if b = BitVec.ofNat 32 g.val then 1 else 0

theorem onehot_word (b : BitVec 32) (g : Fin 256) :
    (FloatOps.sitofp (F := Ideal) .f32 ((IntOp.cmpi .eq b (BitVec.ofNat 32 g.val)).setWidth 32) : Ideal .f32) = ohw b g := by
  show (((((IntOp.cmpi .eq b (BitVec.ofNat 32 g.val)).setWidth 32).toInt : ℤ) : ℝ) : EReal) = ohw b g
  rw [toInt_setWidth_bit]
  unfold ohw IntOp.cmpi
  by_cases h : b = BitVec.ofNat 32 g.val
  · rw [if_pos h]; simp [h]
  · rw [if_neg h]; simp [h]

/-! ## The body's values on one tile

`x0`, `x1`: the tile's rows of the two summed inputs; `x2`: their degree column; `x3`, `x4`: the scale and shift rows;
`x6`, `x7`, `x8`, `x9`: the two layers' weights and biases. -/

section Tile
variable (x0 x1 : Vec Ideal S5000x128 .f32) (x2 : Vec Ideal S5000x1 .f32) (x3 x4 : Vec Ideal S1x128 .f32)
  (x6 : Vec Ideal S128x64 .f32) (x7 : Vec Ideal S1x64 .f32) (x8 : Vec Ideal S64x64 .f32) (x9 : Vec Ideal S1x64 .f32)

/-- The scaled and shifted input at row `r`, lane `j`. -/
def xinT (r : Fin 5000) (j : Fin 128) : EReal :=
  x3 (ix2 0 j) * (x0 (ix2 r j) + x1 (ix2 r j)) + x4 (ix2 0 j) * (Ideal.ofBits .f32 0x3F800000#32 + x2 (ix2 r 0))

/-- The first layer's rectified output at row `r`, column `k`. -/
def h1T (r : Fin 5000) (k : Fin 64) : EReal :=
  max ((∑ j : Fin 128, xinT x0 x1 x2 x3 x4 r j * x6 (ix2 j k)) + x7 (ix2 0 k)) (Ideal.ofBits .f32 0x00000000#32)

/-- The second layer's rectified output at row `r`, column `k`. -/
def hpT (r : Fin 5000) (k : Fin 64) : EReal :=
  max ((∑ j : Fin 64, h1T x0 x1 x2 x3 x4 x6 x7 r j * x8 (ix2 j k)) + x9 (ix2 0 k)) (Ideal.ofBits .f32 0x00000000#32)

/-- The first layer's rectified output, narrowed, as the second product's left operand. -/
theorem h1_apply (r : Fin 5000) (k : Fin 64) :
    (maximumf (addf (matmul dot_S5000x128_S128x64_S5000x64_1_0_0_1_n_n none
        (truncf .bf16 (addf (mulf (broadcastTo S5000x128 x3 broadcasts_S1x128_S5000x128) (addf x0 x1))
          (mulf (broadcastTo S5000x128 x4 broadcasts_S1x128_S5000x128)
            (broadcastTo S5000x128 (addf (broadcast S5000x1 (Scalar.ofBits (F := Ideal) .f32 0x3F800000#32)) x2) broadcasts_S5000x1_S5000x128))) bitsLt_bf16_f32)
        (truncf .bf16 x6 bitsLt_bf16_f32) (constant (F := Ideal) S5000x64 .f32 0x00000000#32))
      (broadcastTo S5000x64 x7 broadcasts_S1x64_S5000x64)) (broadcast S5000x64 (Scalar.ofBits (F := Ideal) .f32 0x00000000#32)) : FVec Ideal S5000x64 .f32) (ix2 r k)
      = h1T x0 x1 x2 x3 x4 x6 x7 r k := by
  unfold h1T
  rw [maximumf_apply, addf_apply, dense128_apply, row_bcast1, broadcast_apply]
  refine congrArg (fun z => max (z + x7 (ix2 0 k)) _) (Finset.sum_congr rfl fun j _ => ?_)
  rw [truncf_apply, truncf_apply, addf_apply, mulf_apply, mulf_apply, addf_apply, row_bcast128, row_bcast128, col_bcast1, addf_apply, broadcast_apply]
  rfl

/-- The second product at row `r`, column `k`: the sum over the first layer's 64 outputs. -/
theorem pay7_apply (r : Fin 5000) (k : Fin 64) :
    k0_pay7 (F := Ideal) x3 x0 x1 x4 x2 x6 x7 x8 (ix2 r k) = ∑ j : Fin 64, h1T x0 x1 x2 x3 x4 x6 x7 r j * x8 (ix2 j k) := by
  unfold k0_pay7
  simp only [shapeCast_self]
  rw [dense_apply]
  refine Finset.sum_congr rfl fun j _ => ?_
  rw [truncf_apply, truncf_apply, h1_apply]

/-- The bias and the rectifier at row `r`, column `k`, on any product. -/
theorem pay8_apply (v34 : FVec Ideal S5000x64 .f32) (v35 : Vec Ideal S1x64 .f32) (r : Fin 5000) (k : Fin 64) :
    k0_pay8 (F := Ideal) v34 v35 (ix2 r k) = max (v34 (ix2 r k) + v35 (ix2 0 k)) (Ideal.ofBits .f32 0x00000000#32) := by
  unfold k0_pay8
  simp only [shapeCast_self]
  rw [maximumf_apply, addf_apply, row_bcast1, broadcast_apply]
  rfl

/-- The block stored to the second layer's output window is the second layer's output. -/
theorem hp_apply (r : Fin 5000) (k : Fin 64) :
    k0_pay8 (F := Ideal) (k0_pay7 x3 x0 x1 x4 x2 x6 x7 x8) x9 (ix2 r k) = hpT x0 x1 x2 x3 x4 x6 x7 x8 x9 r k := by
  rw [pay8_apply, pay7_apply]
  rfl

end Tile

/-! ## The four accumulators' stored payloads at an index -/

/-- The column-sum accumulator: what was there plus the sum over the tile's rows. -/
theorem pay9S_apply (v34 : FVec Ideal S5000x64 .f32) (v35 : Vec Ideal S1x64 .f32)
    (v43 : Vec Ideal S1x1x64 .f32) (k : Fin 64) :
    k0_pay9 (F := Ideal) v34 v35 v43 (ix3 0 0 k) = v43 (ix3 0 0 k) + ∑ r : Fin 5000, k0_pay8 (F := Ideal) v34 v35 (ix2 r k) := by
  unfold k0_pay9
  dsimp only
  refine (shapeCast_ab_1ab_apply _ shapeCasts_S1x64_S1x1x64 0 0 k).trans ?_
  rw [addf_apply]
  refine congrArg₂ (· + ·) (shapeCast_1ab_ab_apply v43 shapeCasts_S1x1x64_S1x64 0 k) ?_
  refine (shapeCast_a_1a_apply _ shapeCasts_S64_S1x64 0 k).trans ?_
  exact colsum64_apply _ _ _ k

/-- The sum-of-squares accumulator: what was there plus the sum of the squares over the tile's rows. -/
theorem pay10Q_apply (v34 : FVec Ideal S5000x64 .f32) (v35 : Vec Ideal S1x64 .f32)
    (v51 : Vec Ideal S1x1x64 .f32) (k : Fin 64) :
    k0_pay10 (F := Ideal) v34 v35 v51 (ix3 0 0 k)
      = v51 (ix3 0 0 k) + ∑ r : Fin 5000, k0_pay8 (F := Ideal) v34 v35 (ix2 r k) * k0_pay8 (F := Ideal) v34 v35 (ix2 r k) := by
  unfold k0_pay10
  dsimp only
  refine (shapeCast_ab_1ab_apply _ shapeCasts_S1x64_S1x1x64 0 0 k).trans ?_
  rw [addf_apply]
  refine congrArg₂ (· + ·) (shapeCast_1ab_ab_apply v51 shapeCasts_S1x1x64_S1x64 0 k) ?_
  refine (shapeCast_a_1a_apply _ shapeCasts_S64_S1x64 0 k).trans ?_
  exact colsum64_apply _ _ _ k

/-- The one-hot matrix of a tile's batch ids at row `r`, graph `g`. -/
theorem pay11H_apply (v60 : Vec Ideal S5000x1 .i32) (r : Fin 5000) (g : Fin 256) :
    k0_pay11 (F := Ideal) v60 (ix2 r g) = ohw (v60 (ix2 r 0)) g := by
  unfold k0_pay11
  simp only [shapeCast_self]
  rw [sitofp_apply, extui_apply]
  refine Eq.trans ?_ (onehot_word (v60 (ix2 r 0)) g)
  refine congrArg (fun z : BitVec 1 => (FloatOps.sitofp (F := Ideal) .f32 (z.setWidth 32) : Ideal .f32)) ?_
  show IntOp.cmpi .eq (broadcastTo S5000x256 v60 broadcasts_S5000x1_S5000x256 (ix2 r g)) (iota .tc S5000x256 32 [1] iota_S5000x256_d1_w32 (ix2 r g)) = _
  rw [col_bcast1g, iota_single_apply]

/-- The pooled sums of one tile at graph `g`, column `k`. -/
theorem pay12P_apply (v34 : FVec Ideal S5000x64 .f32) (v35 : Vec Ideal S1x64 .f32)
    (v60 : Vec Ideal S5000x1 .i32) (g : Fin 256) (k : Fin 64) :
    k0_pay12 (F := Ideal) v34 v35 v60 (ix2 g k) = ∑ r : Fin 5000, ohw (v60 (ix2 r 0)) g * k0_pay8 (F := Ideal) v34 v35 (ix2 r k) := by
  unfold k0_pay12
  refine (pool_apply _ _ g k).trans ?_
  exact Finset.sum_congr rfl fun r _ => congrArg (· * _) (pay11H_apply v60 r g)

/-- The pooling accumulator: what was there plus the tile's pooled sums. -/
theorem pay1_apply (v67 : FVec Ideal S256x64 .f32) (v68 : Vec Ideal S1x256x64 .f32) (g : Fin 256) (k : Fin 64) :
    k0_pay1 (F := Ideal) v67 v68 (ix3 0 g k) = v68 (ix3 0 g k) + v67 (ix2 g k) := by
  unfold k0_pay1
  refine (shapeCast_ab_1ab_apply _ shapeCasts_S256x64_S1x256x64 0 g k).trans ?_
  rw [addf_apply]
  exact congrArg (· + _) (shapeCast_1ab_ab_apply v68 shapeCasts_S1x256x64_S256x64 g k)

/-- The node-count accumulator: what was there plus the one-hot matrix's column sums. -/
theorem pay2_apply (v66 : FVec Ideal S5000x256 .f32) (v74 : Vec Ideal S1x1x256 .f32) (g : Fin 256) :
    k0_pay2 (F := Ideal) v66 v74 (ix3 0 0 g) = v74 (ix3 0 0 g) + ∑ r : Fin 5000, v66 (ix2 r g) := by
  unfold k0_pay2
  dsimp only
  refine (shapeCast_ab_1ab_apply _ shapeCasts_S1x256_S1x1x256 0 0 g).trans ?_
  rw [addf_apply]
  refine congrArg₂ (· + ·) (shapeCast_1ab_ab_apply v74 shapeCasts_S1x1x256_S1x256 0 g) ?_
  refine (shapeCast_a_1a_apply _ shapeCasts_S256_S1x256 0 g).trans ?_
  exact colsum256_apply _ _ _ g

/-- The four zero fills. -/
theorem pay3_apply (i : S1x1x64.Idx) : k0_pay3 (F := Ideal) i = Ideal.ofBits .f32 0x00000000#32 := rfl
theorem pay4_apply (i : S1x1x64.Idx) : k0_pay4 (F := Ideal) i = Ideal.ofBits .f32 0x00000000#32 := rfl
theorem pay5_apply (i : S1x256x64.Idx) : k0_pay5 (F := Ideal) i = Ideal.ofBits .f32 0x00000000#32 := rfl
theorem pay6_apply (i : S1x1x256.Idx) : k0_pay6 (F := Ideal) i = Ideal.ofBits .f32 0x00000000#32 := rfl

end Cert.KernelIdeal.Fr.R0

end
-- ==== Proof.K0Out.lean ====
/- Pallas call 0's five written arrays as functions of its ten input arrays: the second layer's output node by node, and
   per core the four statistics of it over the core's five tiles of 5000 nodes, each started from the zero the body
   fills in at the core's first point. -/
import proofs.«429418_j73830487818378_3_alg».proof.Proof.K0Spec

noncomputable section

namespace Cert.KernelIdeal.Fr.R0

open Cert.KernelIdeal
open Idealize.ShloMosaic Idealize.ShloMosaic.ValueIdx

section Out
variable (rawA aggA : Vec Ideal S50000x128 .f32) (degA : Vec Ideal S50000x1 .f32) (sA tA : Vec Ideal S1x128 .f32)
  (batA : Vec Ideal S50000x1 .i32) (w1A : Vec Ideal S128x64 .f32) (b1A : Vec Ideal S1x64 .f32)
  (w2A : Vec Ideal S64x64 .f32) (b2A : Vec Ideal S1x64 .f32)

/-- Core `q`'s column sum of the second layer's output at column `k`: the zero it starts from plus its five tiles' sums. -/
def sumOf (q : Fin 2) (k : Fin 64) : EReal :=
  Ideal.ofBits .f32 0x00000000#32 + ∑ i : Fin 5, ∑ r : Fin 5000, hpost rawA aggA degA sA tA w1A b1A w2A b2A (rowOf q i r) k

/-- Core `q`'s column sum of squares at column `k`. -/
def sumsqOf (q : Fin 2) (k : Fin 64) : EReal :=
  Ideal.ofBits .f32 0x00000000#32 + ∑ i : Fin 5, ∑ r : Fin 5000,
    hpost rawA aggA degA sA tA w1A b1A w2A b2A (rowOf q i r) k * hpost rawA aggA degA sA tA w1A b1A w2A b2A (rowOf q i r) k

/-- Core `q`'s sums pooled by batch id at graph `g`, column `k`. -/
def poolOf (q : Fin 2) (g : Fin 256) (k : Fin 64) : EReal :=
  Ideal.ofBits .f32 0x00000000#32 + ∑ i : Fin 5, ∑ r : Fin 5000,
    oh batA (rowOf q i r) g * hpost rawA aggA degA sA tA w1A b1A w2A b2A (rowOf q i r) k

/-- Core `q`'s node count of graph `g`. -/
def cntOf (q : Fin 2) (g : Fin 256) : EReal :=
  Ideal.ofBits .f32 0x00000000#32 + ∑ i : Fin 5, ∑ r : Fin 5000, oh batA (rowOf q i r) g

/-- The five written arrays, index by index. -/
def out10 : S50000x64.Idx → Elt Ideal .f32 := fun i => hpost rawA aggA degA sA tA w1A b1A w2A b2A (i 0) (i 1)
def out11 : S2x1x64.Idx → Elt Ideal .f32 := fun i => sumOf rawA aggA degA sA tA w1A b1A w2A b2A (i 0) (i 2)
def out12 : S2x1x64.Idx → Elt Ideal .f32 := fun i => sumsqOf rawA aggA degA sA tA w1A b1A w2A b2A (i 0) (i 2)
def out13 : S2x256x64.Idx → Elt Ideal .f32 := fun i => poolOf rawA aggA degA sA tA batA w1A b1A w2A b2A (i 0) (i 1) (i 2)
def out14 : S2x1x256.Idx → Elt Ideal .f32 := fun i => cntOf batA (i 0) (i 2)

end Out

end Cert.KernelIdeal.Fr.R0

end
-- ==== Proof.K0Value.lean ====
/- Pallas call 0, what its five written arrays hold after the region, read off the region's proof data at the ideal
   values. Each run's found pieces are the body's payloads of the blocks; a read window's block is a read of its array
   (tile `t` is rows `5000 t …`); window 10 after any point is the second layer's output on the point's tile; windows
   11–14 after a core's first point are the zero fill plus the point's addend and after each later point what the point
   before left plus the point's addend, so after the core's fifth point the zero plus the five addends; each point
   writes window 10's block back and a core's last point writes back windows 11–14's, and those blocks cover the arrays. -/
import proofs.«429418_j73830487818378_3_alg».proof.Proof.K0Frame
import proofs.«429418_j73830487818378_3_alg».proof.Proof.K0Pay
import proofs.«429418_j73830487818378_3_alg».proof.Proof.K0Spec
import proofs.«429418_j73830487818378_3_alg».proof.Proof.K0Out
import proofs.«429418_j73830487818378_3_alg».proof.Proof.LibTileSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Fr.R0

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-! ## What each run leaves in each written window's buffer, as the body's payloads of the blocks -/

/-- With the branch not taken, window 10 is left at the second layer's output block's payload of the read blocks: its one
    covering store, whose loads read whole buffers. -/
theorem out0_B_10_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k0_pay8 (k0_pay7 x3 x0 x1 x4 x2 x6 x7 x8) x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch not taken, window 11 is left at the column-sum accumulator's payload of the read blocks and of what the buffer held: its one
    covering store, whose loads read whole buffers. -/
theorem out0_B_11_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k0_pay9 (k0_pay7 x3 x0 x1 x4 x2 x6 x7 x8) x9 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch not taken, window 12 is left at the sum-of-squares accumulator's payload of the read blocks and of what the buffer held: its one
    covering store, whose loads read whole buffers. -/
theorem out0_B_12_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k0_pay10 (k0_pay7 x3 x0 x1 x4 x2 x6 x7 x8) x9 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch not taken, window 13 is left at the pooling accumulator's payload of the read blocks and of what the buffer held: its one
    covering store, whose loads read whole buffers. -/
theorem out0_B_13_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k0_pay1 (k0_pay12 (k0_pay7 x3 x0 x1 x4 x2 x6 x7 x8) x9 x5) xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch not taken, window 14 is left at the node-count accumulator's payload of the read blocks and of what the buffer held: its one
    covering store, whose loads read whole buffers. -/
theorem out0_B_14_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k0_pay2 (k0_pay11 x5) xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch taken, window 10 is left at the second layer's output block's payload of the read blocks. -/
theorem out0_A_10_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k0_pay8 (k0_pay7 x3 x0 x1 x4 x2 x6 x7 x8) x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch taken, window 11 is left at the column-sum accumulator's payload of the read blocks and of the zero fill (stored first, read back, then covered by the sum). -/
theorem out0_A_11_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k0_pay9 (k0_pay7 x3 x0 x1 x4 x2 x6 x7 x8) x9 k0_pay3 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch taken, window 12 is left at the sum-of-squares accumulator's payload of the read blocks and of the zero fill (stored first, read back, then covered by the sum). -/
theorem out0_A_12_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k0_pay10 (k0_pay7 x3 x0 x1 x4 x2 x6 x7 x8) x9 k0_pay4 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch taken, window 13 is left at the pooling accumulator's payload of the read blocks and of the zero fill (stored first, read back, then covered by the sum). -/
theorem out0_A_13_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k0_pay1 (k0_pay12 (k0_pay7 x3 x0 x1 x4 x2 x6 x7 x8) x9 x5) k0_pay5 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_cons_unit_zero (S := S1x256x64) hz3, View.readCov_unit_zero (S := S1x256x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

/-- With the branch taken, window 14 is left at the node-count accumulator's payload of the read blocks and of the zero fill (stored first, read back, then covered by the sum). -/
theorem out0_A_14_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x1 .i32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond0_0 i)
    (x0 : Vec F S5000x128 .f32) (x1 : Vec F S5000x128 .f32) (x2 : Vec F S5000x1 .f32) (x3 : Vec F S1x128 .f32) (x4 : Vec F S1x128 .f32) (x5 : Vec F S5000x1 .i32) (x6 : Vec F S128x64 .f32) (x7 : Vec F S1x64 .f32) (x8 : Vec F S64x64 .f32) (x9 : Vec F S1x64 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k0_pay2 (k0_pay11 x5) k0_pay6 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x128) hz2, View.ld_unit_zero (S := S5000x1) hz2, View.ld_unit_zero (S := S1x128) hz2, View.ld_unit_zero (S := S128x64) hz2, View.ld_unit_zero (S := S1x64) hz2, View.ld_unit_zero (S := S64x64) hz2, View.ld_unit_zero (S := S5000x64) hz2, View.ld_unit_zero (S := S1x1x64) hz3, View.ld_unit_zero (S := S1x256x64) hz3, View.ld_unit_zero (S := S1x1x256) hz3]

end Pieces

/-! ## The arrays and the blocks, by their literal types -/

section Value
variable (V : (c : Dev nD) → (b : Ref sig .tc) → Buf (Elt Ideal) ((c : Thread nD τ).loc b)) (c : Dev nD)

abbrev rawA : Vec Ideal S50000x128 .f32 := V c (Pipeline.arrRef spec0 0)
abbrev aggA : Vec Ideal S50000x128 .f32 := V c (Pipeline.arrRef spec0 1)
abbrev degA : Vec Ideal S50000x1 .f32 := V c (Pipeline.arrRef spec0 2)
abbrev sA : Vec Ideal S1x128 .f32 := V c (Pipeline.arrRef spec0 3)
abbrev tA : Vec Ideal S1x128 .f32 := V c (Pipeline.arrRef spec0 4)
abbrev batA : Vec Ideal S50000x1 .i32 := V c (Pipeline.arrRef spec0 5)
abbrev w1A : Vec Ideal S128x64 .f32 := V c (Pipeline.arrRef spec0 6)
abbrev b1A : Vec Ideal S1x64 .f32 := V c (Pipeline.arrRef spec0 7)
abbrev w2A : Vec Ideal S64x64 .f32 := V c (Pipeline.arrRef spec0 8)
abbrev b2A : Vec Ideal S1x64 .f32 := V c (Pipeline.arrRef spec0 9)

abbrev b0 (t : Fin cfg0.N) : Vec Ideal S5000x128 .f32 := iblk0 V c 0 t
abbrev b1 (t : Fin cfg0.N) : Vec Ideal S5000x128 .f32 := iblk0 V c 1 t
abbrev b2 (t : Fin cfg0.N) : Vec Ideal S5000x1 .f32 := iblk0 V c 2 t
abbrev b3 (t : Fin cfg0.N) : Vec Ideal S1x128 .f32 := iblk0 V c 3 t
abbrev b4 (t : Fin cfg0.N) : Vec Ideal S1x128 .f32 := iblk0 V c 4 t
abbrev b5 (t : Fin cfg0.N) : Vec Ideal S5000x1 .i32 := iblk0 V c 5 t
abbrev b6 (t : Fin cfg0.N) : Vec Ideal S128x64 .f32 := iblk0 V c 6 t
abbrev b7 (t : Fin cfg0.N) : Vec Ideal S1x64 .f32 := iblk0 V c 7 t
abbrev b8 (t : Fin cfg0.N) : Vec Ideal S64x64 .f32 := iblk0 V c 8 t
abbrev b9 (t : Fin cfg0.N) : Vec Ideal S1x64 .f32 := iblk0 V c 9 t

/-! ## The windows' blocks as reads of their arrays -/

/-- The printed index maps, decided over the ten points: the tiled windows (0, 1, 2, 5, 10) are at block (t, 0), the
    whole-array windows at block (0, 0), the per-core windows (11–14) at block (t / 5, 0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem idx_facts0' : ∀ t : Fin cfg0.N,
    win0_11.index t (0 : Fin 3) = t.val / 5 ∧ win0_11.index t (1 : Fin 3) = 0 ∧ win0_11.index t (2 : Fin 3) = 0
    ∧ win0_12.index t (0 : Fin 3) = t.val / 5 ∧ win0_12.index t (1 : Fin 3) = 0 ∧ win0_12.index t (2 : Fin 3) = 0
    ∧ win0_13.index t (0 : Fin 3) = t.val / 5 ∧ win0_13.index t (1 : Fin 3) = 0 ∧ win0_13.index t (2 : Fin 3) = 0
    ∧ win0_14.index t (0 : Fin 3) = t.val / 5 ∧ win0_14.index t (1 : Fin 3) = 0 ∧ win0_14.index t (2 : Fin 3) = 0 :=
  (by decide +kernel : ∀ t : Fin grid0.N, _)

/-- Window 0's block at point `t` is rows `5000 t … 5000 t + 4999` of its array. -/
theorem b0_apply (t : Fin cfg0.N) (r : Fin 5000) (j : Fin 128) (n : Fin 50000) (hn : n.val = t.val * 5000 + r.val) :
    b0 V c t (ix2 r j) = rawA V c (ix2 n j) := by
  have hi := idx_facts0 t
  unfold b0 rawA iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * r.val = n.val; omega
  | ⟨1, _⟩ => show win0_0.index t (1 : Fin 2) * 128 + 1 * j.val = j.val; omega

/-- Window 1's block at point `t` is rows `5000 t … 5000 t + 4999` of its array. -/
theorem b1_apply (t : Fin cfg0.N) (r : Fin 5000) (j : Fin 128) (n : Fin 50000) (hn : n.val = t.val * 5000 + r.val) :
    b1 V c t (ix2 r j) = aggA V c (ix2 n j) := by
  have hi := idx_facts0 t
  unfold b1 aggA iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * r.val = n.val; omega
  | ⟨1, _⟩ => show win0_1.index t (1 : Fin 2) * 128 + 1 * j.val = j.val; omega

/-- Window 2's block at point `t` is rows `5000 t … 5000 t + 4999` of its array. -/
theorem b2_apply (t : Fin cfg0.N) (r : Fin 5000) (j : Fin 1) (n : Fin 50000) (hn : n.val = t.val * 5000 + r.val) :
    b2 V c t (ix2 r j) = degA V c (ix2 n j) := by
  have hi := idx_facts0 t
  unfold b2 degA iblk0
  rw [View.read_apply]
  show V c (Pipeline.arrRef spec0 2) _ = V c (Pipeline.arrRef spec0 2) _
  congr 1
  funext a
  apply Fin.ext
  match a with
  | ⟨0, _⟩ => show win0_2.index t (0 : Fin 2) * 5000 + 1 * r.val = n.val; omega
  | ⟨1, _⟩ => show win0_2.index t (1 : Fin 2) * 1 + 1 * j.val = j.val; omega

/-- Window 5's block at point `t` is rows `5000 t … 5000 t + 4999` of its array. -/
theorem b5_apply (t : Fin cfg0.N) (r : Fin 5000) (j : Fin 1) (n : Fin 50000) (hn : n.val = t.val * 5000 + r.val) :
    b5 V c t (ix2 r j) = batA V c (ix2 n j) := by
  have hi := idx_facts0 t
  unfold b5 batA iblk0
  rw [View.read_apply]
  show V c (Pipeline.arrRef spec0 5) _ = V c (Pipeline.arrRef spec0 5) _
  congr 1
  funext a
  apply Fin.ext
  match a with
  | ⟨0, _⟩ => show win0_5.index t (0 : Fin 2) * 5000 + 1 * r.val = n.val; omega
  | ⟨1, _⟩ => show win0_5.index t (1 : Fin 2) * 1 + 1 * j.val = j.val; omega

/-- Window 3's block at any point is its whole array. -/
theorem b3_apply (t : Fin cfg0.N) (k : S1x128.Idx) : b3 V c t k = sA V c k := by
  have hi := idx_facts0 t
  unfold b3 sA iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (k 0).val = (k 0).val; omega
  | ⟨1, _⟩ => show win0_3.index t (1 : Fin 2) * 128 + 1 * (k 1).val = (k 1).val; omega

/-- Window 4's block at any point is its whole array. -/
theorem b4_apply (t : Fin cfg0.N) (k : S1x128.Idx) : b4 V c t k = tA V c k := by
  have hi := idx_facts0 t
  unfold b4 tA iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (k 0).val = (k 0).val; omega
  | ⟨1, _⟩ => show win0_4.index t (1 : Fin 2) * 128 + 1 * (k 1).val = (k 1).val; omega

/-- Window 6's block at any point is its whole array. -/
theorem b6_apply (t : Fin cfg0.N) (k : S128x64.Idx) : b6 V c t k = w1A V c k := by
  have hi := idx_facts0 t
  unfold b6 w1A iblk0
  rw [View.read_apply]
  show V c (Pipeline.arrRef spec0 6) _ = V c (Pipeline.arrRef spec0 6) _
  congr 1
  funext a
  apply Fin.ext
  match a with
  | ⟨0, _⟩ => show win0_6.index t (0 : Fin 2) * 128 + 1 * (k 0).val = (k 0).val; omega
  | ⟨1, _⟩ => show win0_6.index t (1 : Fin 2) * 64 + 1 * (k 1).val = (k 1).val; omega

/-- Window 7's block at any point is its whole array. -/
theorem b7_apply (t : Fin cfg0.N) (k : S1x64.Idx) : b7 V c t k = b1A V c k := by
  have hi := idx_facts0 t
  unfold b7 b1A iblk0
  rw [View.read_apply]
  show V c (Pipeline.arrRef spec0 7) _ = V c (Pipeline.arrRef spec0 7) _
  congr 1
  funext a
  apply Fin.ext
  match a with
  | ⟨0, _⟩ => show win0_7.index t (0 : Fin 2) * 1 + 1 * (k 0).val = (k 0).val; omega
  | ⟨1, _⟩ => show win0_7.index t (1 : Fin 2) * 64 + 1 * (k 1).val = (k 1).val; omega

/-- Window 8's block at any point is its whole array. -/
theorem b8_apply (t : Fin cfg0.N) (k : S64x64.Idx) : b8 V c t k = w2A V c k := by
  have hi := idx_facts0 t
  unfold b8 w2A iblk0
  rw [View.read_apply]
  show V c (Pipeline.arrRef spec0 8) _ = V c (Pipeline.arrRef spec0 8) _
  congr 1
  funext a
  apply Fin.ext
  match a with
  | ⟨0, _⟩ => show win0_8.index t (0 : Fin 2) * 64 + 1 * (k 0).val = (k 0).val; omega
  | ⟨1, _⟩ => show win0_8.index t (1 : Fin 2) * 64 + 1 * (k 1).val = (k 1).val; omega

/-- Window 9's block at any point is its whole array. -/
theorem b9_apply (t : Fin cfg0.N) (k : S1x64.Idx) : b9 V c t k = b2A V c k := by
  have hi := idx_facts0 t
  unfold b9 b2A iblk0
  rw [View.read_apply]
  show V c (Pipeline.arrRef spec0 9) _ = V c (Pipeline.arrRef spec0 9) _
  congr 1
  funext a
  apply Fin.ext
  match a with
  | ⟨0, _⟩ => show win0_9.index t (0 : Fin 2) * 1 + 1 * (k 0).val = (k 0).val; omega
  | ⟨1, _⟩ => show win0_9.index t (1 : Fin 2) * 64 + 1 * (k 1).val = (k 1).val; omega

/-- The second layer's output on tile `t`, row `r`, is its output at node `5000 t + r`. -/
theorem hpT_eq (t : Fin cfg0.N) (r : Fin 5000) (k : Fin 64) (n : Fin 50000) (hn : n.val = t.val * 5000 + r.val) :
    hpT (b0 V c t) (b1 V c t) (b2 V c t) (b3 V c t) (b4 V c t) (b6 V c t) (b7 V c t) (b8 V c t) (b9 V c t) r k = hpost (rawA V c) (aggA V c) (degA V c) (sA V c) (tA V c) (w1A V c) (b1A V c) (w2A V c) (b2A V c) n k := by
  unfold hpT hpost h1T h1 xinT xin
  simp only [b0_apply V c t r _ n hn, b1_apply V c t r _ n hn, b2_apply V c t r _ n hn, b3_apply V c t, b4_apply V c t,
    b6_apply V c t, b7_apply V c t, b8_apply V c t, b9_apply V c t]

/-- The one-hot word of tile `t`'s row `r` is that of node `5000 t + r`. -/
theorem ohw_eq (t : Fin cfg0.N) (r : Fin 5000) (g : Fin 256) (n : Fin 50000) (hn : n.val = t.val * 5000 + r.val) :
    ohw (b5 V c t (ix2 r 0)) g = oh (batA V c) n g := by
  unfold ohw oh
  rw [b5_apply V c t r 0 n hn]

/-! ## What the written windows hold after a point -/

/-- Window 10 after any point: the second layer's output on the point's tile. -/
theorem at10 (t : Fin cfg0.N) (r : Fin 5000) (k : Fin 64) :
    (outsAt0 V c t.val t.isLt).1 (ix2 r k) = hpT (b0 V c t) (b1 V c t) (b2 V c t) (b3 V c t) (b4 V c t) (b6 V c t) (b7 V c t) (b8 V c t) (b9 V c t) r k := by
  by_cases h0 : t.val % 5 = 0
  · rw [outsAt0_A V c t h0]
    dsimp only
    refine (congrFun (out0_A_10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix2 r k)).trans ?_
    exact hp_apply (b0 V c t) (b1 V c t) (b2 V c t) (b3 V c t) (b4 V c t) (b6 V c t) (b7 V c t) (b8 V c t) (b9 V c t) r k
  · rw [outsAt0_B V c t h0]
    dsimp only
    refine (congrFun (out0_B_10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 r k)).trans ?_
    exact hp_apply (b0 V c t) (b1 V c t) (b2 V c t) (b3 V c t) (b4 V c t) (b6 V c t) (b7 V c t) (b8 V c t) (b9 V c t) r k

/-- The addends of the four accumulators at point `t`. -/
def add11 (t : Fin cfg0.N) (k : Fin 64) : EReal := ∑ r : Fin 5000, hpT (b0 V c t) (b1 V c t) (b2 V c t) (b3 V c t) (b4 V c t) (b6 V c t) (b7 V c t) (b8 V c t) (b9 V c t) r k
def add12 (t : Fin cfg0.N) (k : Fin 64) : EReal := ∑ r : Fin 5000, hpT (b0 V c t) (b1 V c t) (b2 V c t) (b3 V c t) (b4 V c t) (b6 V c t) (b7 V c t) (b8 V c t) (b9 V c t) r k * hpT (b0 V c t) (b1 V c t) (b2 V c t) (b3 V c t) (b4 V c t) (b6 V c t) (b7 V c t) (b8 V c t) (b9 V c t) r k
def add13 (t : Fin cfg0.N) (g : Fin 256) (k : Fin 64) : EReal := ∑ r : Fin 5000, ohw (b5 V c t (ix2 r 0)) g * hpT (b0 V c t) (b1 V c t) (b2 V c t) (b3 V c t) (b4 V c t) (b6 V c t) (b7 V c t) (b8 V c t) (b9 V c t) r k
def add14 (t : Fin cfg0.N) (g : Fin 256) : EReal := ∑ r : Fin 5000, ohw (b5 V c t (ix2 r 0)) g

theorem sum_at (t : Fin cfg0.N) (v43 : Vec Ideal S1x1x64 .f32) (k : Fin 64) :
    k0_pay9 (F := Ideal) (k0_pay7 (b3 V c t) (b0 V c t) (b1 V c t) (b4 V c t) (b2 V c t) (b6 V c t) (b7 V c t) (b8 V c t)) (b9 V c t) v43 (ix3 0 0 k) = v43 (ix3 0 0 k) + add11 V c t k := by
  refine (pay9S_apply _ _ v43 k).trans ?_
  unfold add11
  exact congrArg (v43 (ix3 0 0 k) + ·) (Finset.sum_congr rfl fun r _ => hp_apply (b0 V c t) (b1 V c t) (b2 V c t) (b3 V c t) (b4 V c t) (b6 V c t) (b7 V c t) (b8 V c t) (b9 V c t) r k)

theorem sumsq_at (t : Fin cfg0.N) (v51 : Vec Ideal S1x1x64 .f32) (k : Fin 64) :
    k0_pay10 (F := Ideal) (k0_pay7 (b3 V c t) (b0 V c t) (b1 V c t) (b4 V c t) (b2 V c t) (b6 V c t) (b7 V c t) (b8 V c t)) (b9 V c t) v51 (ix3 0 0 k) = v51 (ix3 0 0 k) + add12 V c t k := by
  refine (pay10Q_apply _ _ v51 k).trans ?_
  unfold add12
  exact congrArg (v51 (ix3 0 0 k) + ·) (Finset.sum_congr rfl fun r _ => by rw [hp_apply (b0 V c t) (b1 V c t) (b2 V c t) (b3 V c t) (b4 V c t) (b6 V c t) (b7 V c t) (b8 V c t) (b9 V c t) r k])

theorem pool_at (t : Fin cfg0.N) (v68 : Vec Ideal S1x256x64 .f32) (g : Fin 256) (k : Fin 64) :
    k0_pay1 (F := Ideal) (k0_pay12 (k0_pay7 (b3 V c t) (b0 V c t) (b1 V c t) (b4 V c t) (b2 V c t) (b6 V c t) (b7 V c t) (b8 V c t)) (b9 V c t) (b5 V c t)) v68 (ix3 0 g k) = v68 (ix3 0 g k) + add13 V c t g k := by
  refine (pay1_apply _ v68 g k).trans ?_
  unfold add13
  refine congrArg (v68 (ix3 0 g k) + ·) ((pay12P_apply _ _ (b5 V c t) g k).trans ?_)
  exact Finset.sum_congr rfl fun r _ => congrArg (ohw (b5 V c t (ix2 r 0)) g * ·) (hp_apply (b0 V c t) (b1 V c t) (b2 V c t) (b3 V c t) (b4 V c t) (b6 V c t) (b7 V c t) (b8 V c t) (b9 V c t) r k)

theorem cnt_at (t : Fin cfg0.N) (v74 : Vec Ideal S1x1x256 .f32) (g : Fin 256) :
    k0_pay2 (F := Ideal) (k0_pay11 (b5 V c t)) v74 (ix3 0 0 g) = v74 (ix3 0 0 g) + add14 V c t g := by
  refine (pay2_apply _ v74 g).trans ?_
  unfold add14
  exact congrArg (v74 (ix3 0 0 g) + ·) (Finset.sum_congr rfl fun r _ => pay11H_apply (b5 V c t) r g)

/-- Window 11 after a core's first point: the zero fill plus the point's addend. -/
theorem base11 (t : Fin cfg0.N) (h0 : t.val % 5 = 0) (k : Fin 64) :
    (outsAt0 V c t.val t.isLt).2.1 (ix3 0 0 k) = Ideal.ofBits .f32 0x00000000#32 + add11 V c t k := by
  rw [outsAt0_A V c t h0]
  dsimp only
  refine (congrFun (out0_A_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix3 0 0 k)).trans ?_
  exact sum_at V c t (k0_pay3 (F := Ideal)) k

/-- Window 11 after a later point: what the point before left plus the point's addend. -/
theorem step11 (t : Fin cfg0.N) (h0 : ¬t.val % 5 = 0) (k : Fin 64) :
    (outsAt0 V c t.val t.isLt).2.1 (ix3 0 0 k)
      = (outsAt0 V c (t.val - 1) (Nat.lt_of_le_of_lt (Nat.sub_le _ _) t.isLt)).2.1 (ix3 0 0 k) + add11 V c t k := by
  rw [outsAt0_B V c t h0]
  dsimp only
  refine (congrFun (out0_B_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix3 0 0 k)).trans ?_
  exact sum_at V c t _ k

/-- Window 12 after a core's first point: the zero fill plus the point's addend. -/
theorem base12 (t : Fin cfg0.N) (h0 : t.val % 5 = 0) (k : Fin 64) :
    (outsAt0 V c t.val t.isLt).2.2.1 (ix3 0 0 k) = Ideal.ofBits .f32 0x00000000#32 + add12 V c t k := by
  rw [outsAt0_A V c t h0]
  dsimp only
  refine (congrFun (out0_A_12_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix3 0 0 k)).trans ?_
  exact sumsq_at V c t (k0_pay4 (F := Ideal)) k

/-- Window 12 after a later point: what the point before left plus the point's addend. -/
theorem step12 (t : Fin cfg0.N) (h0 : ¬t.val % 5 = 0) (k : Fin 64) :
    (outsAt0 V c t.val t.isLt).2.2.1 (ix3 0 0 k)
      = (outsAt0 V c (t.val - 1) (Nat.lt_of_le_of_lt (Nat.sub_le _ _) t.isLt)).2.2.1 (ix3 0 0 k) + add12 V c t k := by
  rw [outsAt0_B V c t h0]
  dsimp only
  refine (congrFun (out0_B_12_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix3 0 0 k)).trans ?_
  exact sumsq_at V c t _ k

/-- Window 13 after a core's first point: the zero fill plus the point's addend. -/
theorem base13 (t : Fin cfg0.N) (h0 : t.val % 5 = 0) (g : Fin 256) (k : Fin 64) :
    (outsAt0 V c t.val t.isLt).2.2.2.1 (ix3 0 g k) = Ideal.ofBits .f32 0x00000000#32 + add13 V c t g k := by
  rw [outsAt0_A V c t h0]
  dsimp only
  refine (congrFun (out0_A_13_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix3 0 g k)).trans ?_
  exact pool_at V c t (k0_pay5 (F := Ideal)) g k

/-- Window 13 after a later point: what the point before left plus the point's addend. -/
theorem step13 (t : Fin cfg0.N) (h0 : ¬t.val % 5 = 0) (g : Fin 256) (k : Fin 64) :
    (outsAt0 V c t.val t.isLt).2.2.2.1 (ix3 0 g k)
      = (outsAt0 V c (t.val - 1) (Nat.lt_of_le_of_lt (Nat.sub_le _ _) t.isLt)).2.2.2.1 (ix3 0 g k) + add13 V c t g k := by
  rw [outsAt0_B V c t h0]
  dsimp only
  refine (congrFun (out0_B_13_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix3 0 g k)).trans ?_
  exact pool_at V c t _ g k

/-- Window 14 after a core's first point: the zero fill plus the point's addend. -/
theorem base14 (t : Fin cfg0.N) (h0 : t.val % 5 = 0) (g : Fin 256) :
    (outsAt0 V c t.val t.isLt).2.2.2.2 (ix3 0 0 g) = Ideal.ofBits .f32 0x00000000#32 + add14 V c t g := by
  rw [outsAt0_A V c t h0]
  dsimp only
  refine (congrFun (out0_A_14_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix3 0 0 g)).trans ?_
  exact cnt_at V c t (k0_pay6 (F := Ideal)) g

/-- Window 14 after a later point: what the point before left plus the point's addend. -/
theorem step14 (t : Fin cfg0.N) (h0 : ¬t.val % 5 = 0) (g : Fin 256) :
    (outsAt0 V c t.val t.isLt).2.2.2.2 (ix3 0 0 g)
      = (outsAt0 V c (t.val - 1) (Nat.lt_of_le_of_lt (Nat.sub_le _ _) t.isLt)).2.2.2.2 (ix3 0 0 g) + add14 V c t g := by
  rw [outsAt0_B V c t h0]
  dsimp only
  refine (congrFun (out0_B_14_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix3 0 0 g)).trans ?_
  exact cnt_at V c t _ g

/-! ## The accumulation over a core's five points -/

/-- A quantity that starts at `z` plus its addend at a core's first point and grows by its addend at each later point
    is, `j` points on, `z` plus the sum of the addends so far. -/
theorem acc_closed (f M : (n : ℕ) → n < cfg0.N → EReal) (z : EReal)
    (hb : ∀ (n : ℕ) (h : n < cfg0.N), n % 5 = 0 → f n h = z + M n h)
    (hs : ∀ (n : ℕ) (h : n + 1 < cfg0.N), ¬(n + 1) % 5 = 0 → f (n + 1) h = f n (Nat.lt_of_succ_lt h) + M (n + 1) h)
    (q : ℕ) : ∀ (j : ℕ) (hj : j < 5) (h : 5 * q + j < cfg0.N),
      f (5 * q + j) h = z + ∑ s : Fin (j + 1), M (5 * q + s.val) (Nat.lt_of_le_of_lt (Nat.add_le_add_left (Nat.le_of_lt_succ s.isLt) _) h)
  | 0, _, h => by
    rw [Fin.sum_univ_one]
    exact hb (5 * q + 0) h (by omega)
  | j + 1, hj, h => by
    rw [Fin.sum_univ_castSucc]
    have ih := acc_closed f M z hb hs q j (by omega) (Nat.lt_of_succ_lt h)
    exact ((hs (5 * q + j) h (by omega)).trans (congrArg (· + M (5 * q + (j + 1)) h) ih)).trans (add_assoc _ _ _)

theorem hN0 : cfg0.N = 10 := N_0

/-- The last point of core `q`. -/
def lastPt (q : Fin 2) : Fin cfg0.N := ⟨5 * q.val + 4, by rw [hN0]; have := q.isLt; omega⟩
/-- Point `i` of core `q`. -/
def ptOf (q : Fin 2) (i : Fin 5) : Fin cfg0.N := ⟨5 * q.val + i.val, by rw [hN0]; have := q.isLt; have := i.isLt; omega⟩

/-- Window 11 after core `q`'s last point: the zero fill plus the five points' addends. -/
theorem last11 (q : Fin 2) (k : Fin 64) :
    (outsAt0 V c (lastPt q).val (lastPt q).isLt).2.1 (ix3 0 0 k) = Ideal.ofBits .f32 0x00000000#32 + ∑ i : Fin 5, add11 V c (ptOf q i) k :=
  acc_closed (fun n h => (outsAt0 V c n h).2.1 (ix3 0 0 k)) (fun n h => add11 V c ⟨n, h⟩ k) (Ideal.ofBits .f32 0x00000000#32)
    (fun n h h0 => base11 V c ⟨n, h⟩ h0 k)
    (fun n h h0 => step11 V c ⟨n + 1, h⟩ h0 k)
    q.val 4 (by omega) (lastPt q).isLt

/-- Window 12 after core `q`'s last point: the zero fill plus the five points' addends. -/
theorem last12 (q : Fin 2) (k : Fin 64) :
    (outsAt0 V c (lastPt q).val (lastPt q).isLt).2.2.1 (ix3 0 0 k) = Ideal.ofBits .f32 0x00000000#32 + ∑ i : Fin 5, add12 V c (ptOf q i) k :=
  acc_closed (fun n h => (outsAt0 V c n h).2.2.1 (ix3 0 0 k)) (fun n h => add12 V c ⟨n, h⟩ k) (Ideal.ofBits .f32 0x00000000#32)
    (fun n h h0 => base12 V c ⟨n, h⟩ h0 k)
    (fun n h h0 => step12 V c ⟨n + 1, h⟩ h0 k)
    q.val 4 (by omega) (lastPt q).isLt

/-- Window 13 after core `q`'s last point: the zero fill plus the five points' addends. -/
theorem last13 (q : Fin 2) (g : Fin 256) (k : Fin 64) :
    (outsAt0 V c (lastPt q).val (lastPt q).isLt).2.2.2.1 (ix3 0 g k) = Ideal.ofBits .f32 0x00000000#32 + ∑ i : Fin 5, add13 V c (ptOf q i) g k :=
  acc_closed (fun n h => (outsAt0 V c n h).2.2.2.1 (ix3 0 g k)) (fun n h => add13 V c ⟨n, h⟩ g k) (Ideal.ofBits .f32 0x00000000#32)
    (fun n h h0 => base13 V c ⟨n, h⟩ h0 g k)
    (fun n h h0 => step13 V c ⟨n + 1, h⟩ h0 g k)
    q.val 4 (by omega) (lastPt q).isLt

/-- Window 14 after core `q`'s last point: the zero fill plus the five points' addends. -/
theorem last14 (q : Fin 2) (g : Fin 256) :
    (outsAt0 V c (lastPt q).val (lastPt q).isLt).2.2.2.2 (ix3 0 0 g) = Ideal.ofBits .f32 0x00000000#32 + ∑ i : Fin 5, add14 V c (ptOf q i) g :=
  acc_closed (fun n h => (outsAt0 V c n h).2.2.2.2 (ix3 0 0 g)) (fun n h => add14 V c ⟨n, h⟩ g) (Ideal.ofBits .f32 0x00000000#32)
    (fun n h h0 => base14 V c ⟨n, h⟩ h0 g)
    (fun n h h0 => step14 V c ⟨n + 1, h⟩ h0 g)
    q.val 4 (by omega) (lastPt q).isLt

/-- Tile `ptOf q i`'s row `r` is node `rowOf q i r`. -/
theorem row_pt (q : Fin 2) (i : Fin 5) (r : Fin 5000) : (rowOf q i r).val = (ptOf q i).val * 5000 + r.val := rfl

theorem add11_eq (q : Fin 2) (i : Fin 5) (k : Fin 64) :
    add11 V c (ptOf q i) k = ∑ r : Fin 5000, hpost (rawA V c) (aggA V c) (degA V c) (sA V c) (tA V c) (w1A V c) (b1A V c) (w2A V c) (b2A V c) (rowOf q i r) k := by
  unfold add11
  exact Finset.sum_congr rfl fun r _ => hpT_eq V c (ptOf q i) r k (rowOf q i r) (row_pt q i r)

theorem add12_eq (q : Fin 2) (i : Fin 5) (k : Fin 64) :
    add12 V c (ptOf q i) k = ∑ r : Fin 5000, hpost (rawA V c) (aggA V c) (degA V c) (sA V c) (tA V c) (w1A V c) (b1A V c) (w2A V c) (b2A V c) (rowOf q i r) k * hpost (rawA V c) (aggA V c) (degA V c) (sA V c) (tA V c) (w1A V c) (b1A V c) (w2A V c) (b2A V c) (rowOf q i r) k := by
  unfold add12
  exact Finset.sum_congr rfl fun r _ => by rw [hpT_eq V c (ptOf q i) r k (rowOf q i r) (row_pt q i r)]

theorem add13_eq (q : Fin 2) (i : Fin 5) (g : Fin 256) (k : Fin 64) :
    add13 V c (ptOf q i) g k = ∑ r : Fin 5000, oh (batA V c) (rowOf q i r) g * hpost (rawA V c) (aggA V c) (degA V c) (sA V c) (tA V c) (w1A V c) (b1A V c) (w2A V c) (b2A V c) (rowOf q i r) k := by
  unfold add13
  exact Finset.sum_congr rfl fun r _ => by
    rw [hpT_eq V c (ptOf q i) r k (rowOf q i r) (row_pt q i r), ohw_eq V c (ptOf q i) r g (rowOf q i r) (row_pt q i r)]

theorem add14_eq (q : Fin 2) (i : Fin 5) (g : Fin 256) :
    add14 V c (ptOf q i) g = ∑ r : Fin 5000, oh (batA V c) (rowOf q i r) g := by
  unfold add14
  exact Finset.sum_congr rfl fun r _ => ohw_eq V c (ptOf q i) r g (rowOf q i r) (row_pt q i r)

/-! ## What a point writes back, the cover, and the arrays -/

/-- Window 10: what point `t` writes back is block `t` of the second layer's output. -/
theorem flushed10_eq (t : Fin cfg0.N) :
    (dat0 V c).flushed 10 t = ((cfg0.win 10).blk t).view.read (Elt Ideal) (out10 (rawA V c) (aggA V c) (degA V c) (sA V c) (tA V c) (w1A V c) (b1A V c) (w2A V c) (b2A V c)) := by
  show (cfg0.win 10).cut (grid0.coords t) ((dat0 V c).after 10 t) = _
  rw [after0_10]
  have hi := idx_facts0 t
  funext j
  obtain ⟨r, k, rfl⟩ : ∃ (r : Fin 5000) (k : Fin 64), j = ix2 r k := ⟨j 0, j 1, eq_ix2 j⟩
  show (outsAt0 V c t.val t.isLt).1 (ix2 r k) = out10 (rawA V c) (aggA V c) (degA V c) (sA V c) (tA V c) (w1A V c) (b1A V c) (w2A V c) (b2A V c) (((cfg0.win 10).blk t).view.emb (ix2 r k))
  rw [at10 V c t r k]
  have h0 : ((((cfg0.win 10).blk t).view.emb (ix2 r k) : S50000x64.Idx) 0).val = t.val * 5000 + r.val := by
    show win0_10.index t (0 : Fin 2) * 5000 + 1 * r.val = _; omega
  have h1 : ((((cfg0.win 10).blk t).view.emb (ix2 r k) : S50000x64.Idx) 1) = k := Fin.ext (by
    show win0_10.index t (1 : Fin 2) * 64 + 1 * k.val = _; omega)
  unfold out10
  rw [h1]
  exact hpT_eq V c t r k _ h0

theorem mem_blk10 (t : Fin cfg0.N) (i : S50000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole (Pipeline.arrRef spec0 10)).slice (win0_10.rect t)).set ↔ _
  rw [View.set_slice_whole, Rect.mem_set_unit]
  exact Iff.rfl

/-- Every node's row is in the block of the point `row / 5000`; every point writes window 10 back. -/
theorem covered10 (i : S50000x64.Idx) :
    ∃ t : Fin cfg0.N, (cfg0.win 10).flush t = true ∧ i ∈ ((cfg0.win 10).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  have hi := idx_facts0 t
  refine ⟨t, flush0_10 t, ?_⟩
  rw [mem_blk10]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 64 ≤ (i 1).val ∧ (i 1).val < win0_10.index t (1 : Fin 2) * 64 + 64; omega

/-- The second layer's output array after the region. -/
theorem final0_10 : (dat0 (F := Ideal) V c).arrAt 10 cfg0.N = out10 (rawA V c) (aggA V c) (degA V c) (sA V c) (tA V c) (w1A V c) (b1A V c) (w2A V c) (b2A V c) :=
  (dat0 V c).arrAt_eq_of_cover 10 (out10 (rawA V c) (aggA V c) (degA V c) (sA V c) (tA V c) (w1A V c) (b1A V c) (w2A V c) (b2A V c)) (fun t _ => flushed10_eq V c t) covered10

/-- Window 11: what a core's last point writes back is the core's block of the closed form. -/
theorem flushed11_eq (t : Fin cfg0.N) (hf : (cfg0.win 11).flush t = true) :
    (dat0 V c).flushed 11 t = ((cfg0.win 11).blk t).view.read (Elt Ideal) (out11 (rawA V c) (aggA V c) (degA V c) (sA V c) (tA V c) (w1A V c) (b1A V c) (w2A V c) (b2A V c)) := by
  have hN : cfg0.N = 10 := N_0
  have h4 : t.val % 5 = 4 := (flush0_11 t).mp hf
  obtain ⟨q, rfl⟩ : ∃ q : Fin 2, t = lastPt q := ⟨⟨t.val / 5, by have := t.isLt; omega⟩, Fin.ext (by show t.val = 5 * (t.val / 5) + 4; omega)⟩
  show (cfg0.win 11).cut (grid0.coords (lastPt q)) ((dat0 V c).after 11 (lastPt q)) = _
  rw [after0_11]
  have hi := idx_facts0' (lastPt q)
  have hq : (lastPt q).val / 5 = q.val := by show (5 * q.val + 4) / 5 = q.val; omega
  funext j
  obtain ⟨u, v, k, rfl⟩ : ∃ (u v : Fin 1) (k : Fin 64), j = ix3 u v k := ⟨j 0, j 1, j 2, eq_ix3 j⟩
  obtain rfl : u = 0 := Subsingleton.elim _ _
  obtain rfl : v = 0 := Subsingleton.elim _ _
  show (outsAt0 V c (lastPt q).val (lastPt q).isLt).2.1 (ix3 0 0 k) = out11 (rawA V c) (aggA V c) (degA V c) (sA V c) (tA V c) (w1A V c) (b1A V c) (w2A V c) (b2A V c) (((cfg0.win 11).blk (lastPt q)).view.emb (ix3 0 0 k))
  rw [last11 V c q k]
  have e0 : ((((cfg0.win 11).blk (lastPt q)).view.emb (ix3 0 0 k) : S2x1x64.Idx) 0) = q := Fin.ext (by
    show win0_11.index (lastPt q) (0 : Fin 3) * 1 + 1 * (0 : Fin 1).val = _; omega)

  have e2 : ((((cfg0.win 11).blk (lastPt q)).view.emb (ix3 0 0 k) : S2x1x64.Idx) 2) = k := Fin.ext (by
    show win0_11.index (lastPt q) (2 : Fin 3) * 64 + 1 * k.val = _; omega)
  unfold out11 sumOf
  rw [e0, e2]
  exact congrArg (Ideal.ofBits .f32 0x00000000#32 + ·) (Finset.sum_congr rfl fun i _ => add11_eq V c q i k)

theorem mem_blk11 (t : Fin cfg0.N) (i : S2x1x64.Idx) :
    i ∈ ((cfg0.win 11).blk t).view.set ↔ ∀ a : Fin 3, win0_11.index t a * S1x1x64.size a ≤ (i a).val ∧ (i a).val < win0_11.index t a * S1x1x64.size a + S1x1x64.size a := by
  show i ∈ ((View.whole (Pipeline.arrRef spec0 11)).slice (win0_11.rect t)).set ↔ _
  rw [View.set_slice_whole, Rect.mem_set_unit]
  exact Iff.rfl

/-- Every index of window 11's array is in the block its core's last point writes back. -/
theorem covered11 (i : S2x1x64.Idx) :
    ∃ t : Fin cfg0.N, (cfg0.win 11).flush t = true ∧ i ∈ ((cfg0.win 11).blk t).view.set := by
  have hi0 : (i 0).val < 2 := (i 0).isLt
  have hi1 : (i 1).val < 1 := (i 1).isLt
  have hi2 : (i 2).val < 64 := (i 2).isLt
  have hN : cfg0.N = 10 := N_0
  obtain ⟨t, ht⟩ : ∃ t : Fin cfg0.N, t.val = 5 * (i 0).val + 4 := ⟨⟨5 * (i 0).val + 4, by rw [hN]; omega⟩, rfl⟩
  have hi := idx_facts0' t
  refine ⟨t, (flush0_11 t).mpr (by omega), ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 1 ≤ (i 1).val ∧ (i 1).val < win0_11.index t (1 : Fin 3) * 1 + 1; omega
  | ⟨2, _⟩ => show win0_11.index t (2 : Fin 3) * 64 ≤ (i 2).val ∧ (i 2).val < win0_11.index t (2 : Fin 3) * 64 + 64; omega

/-- Window 11's array after the region. -/
theorem final0_11 : (dat0 (F := Ideal) V c).arrAt 11 cfg0.N = out11 (rawA V c) (aggA V c) (degA V c) (sA V c) (tA V c) (w1A V c) (b1A V c) (w2A V c) (b2A V c) :=
  (dat0 V c).arrAt_eq_of_cover 11 (out11 (rawA V c) (aggA V c) (degA V c) (sA V c) (tA V c) (w1A V c) (b1A V c) (w2A V c) (b2A V c)) (flushed11_eq V c) covered11

/-- Window 12: what a core's last point writes back is the core's block of the closed form. -/
theorem flushed12_eq (t : Fin cfg0.N) (hf : (cfg0.win 12).flush t = true) :
    (dat0 V c).flushed 12 t = ((cfg0.win 12).blk t).view.read (Elt Ideal) (out12 (rawA V c) (aggA V c) (degA V c) (sA V c) (tA V c) (w1A V c) (b1A V c) (w2A V c) (b2A V c)) := by
  have hN : cfg0.N = 10 := N_0
  have h4 : t.val % 5 = 4 := (flush0_12 t).mp hf
  obtain ⟨q, rfl⟩ : ∃ q : Fin 2, t = lastPt q := ⟨⟨t.val / 5, by have := t.isLt; omega⟩, Fin.ext (by show t.val = 5 * (t.val / 5) + 4; omega)⟩
  show (cfg0.win 12).cut (grid0.coords (lastPt q)) ((dat0 V c).after 12 (lastPt q)) = _
  rw [after0_12]
  have hi := idx_facts0' (lastPt q)
  have hq : (lastPt q).val / 5 = q.val := by show (5 * q.val + 4) / 5 = q.val; omega
  funext j
  obtain ⟨u, v, k, rfl⟩ : ∃ (u v : Fin 1) (k : Fin 64), j = ix3 u v k := ⟨j 0, j 1, j 2, eq_ix3 j⟩
  obtain rfl : u = 0 := Subsingleton.elim _ _
  obtain rfl : v = 0 := Subsingleton.elim _ _
  show (outsAt0 V c (lastPt q).val (lastPt q).isLt).2.2.1 (ix3 0 0 k) = out12 (rawA V c) (aggA V c) (degA V c) (sA V c) (tA V c) (w1A V c) (b1A V c) (w2A V c) (b2A V c) (((cfg0.win 12).blk (lastPt q)).view.emb (ix3 0 0 k))
  rw [last12 V c q k]
  have e0 : ((((cfg0.win 12).blk (lastPt q)).view.emb (ix3 0 0 k) : S2x1x64.Idx) 0) = q := Fin.ext (by
    show win0_12.index (lastPt q) (0 : Fin 3) * 1 + 1 * (0 : Fin 1).val = _; omega)

  have e2 : ((((cfg0.win 12).blk (lastPt q)).view.emb (ix3 0 0 k) : S2x1x64.Idx) 2) = k := Fin.ext (by
    show win0_12.index (lastPt q) (2 : Fin 3) * 64 + 1 * k.val = _; omega)
  unfold out12 sumsqOf
  rw [e0, e2]
  exact congrArg (Ideal.ofBits .f32 0x00000000#32 + ·) (Finset.sum_congr rfl fun i _ => add12_eq V c q i k)

theorem mem_blk12 (t : Fin cfg0.N) (i : S2x1x64.Idx) :
    i ∈ ((cfg0.win 12).blk t).view.set ↔ ∀ a : Fin 3, win0_12.index t a * S1x1x64.size a ≤ (i a).val ∧ (i a).val < win0_12.index t a * S1x1x64.size a + S1x1x64.size a := by
  show i ∈ ((View.whole (Pipeline.arrRef spec0 12)).slice (win0_12.rect t)).set ↔ _
  rw [View.set_slice_whole, Rect.mem_set_unit]
  exact Iff.rfl

/-- Every index of window 12's array is in the block its core's last point writes back. -/
theorem covered12 (i : S2x1x64.Idx) :
    ∃ t : Fin cfg0.N, (cfg0.win 12).flush t = true ∧ i ∈ ((cfg0.win 12).blk t).view.set := by
  have hi0 : (i 0).val < 2 := (i 0).isLt
  have hi1 : (i 1).val < 1 := (i 1).isLt
  have hi2 : (i 2).val < 64 := (i 2).isLt
  have hN : cfg0.N = 10 := N_0
  obtain ⟨t, ht⟩ : ∃ t : Fin cfg0.N, t.val = 5 * (i 0).val + 4 := ⟨⟨5 * (i 0).val + 4, by rw [hN]; omega⟩, rfl⟩
  have hi := idx_facts0' t
  refine ⟨t, (flush0_12 t).mpr (by omega), ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 1 ≤ (i 1).val ∧ (i 1).val < win0_12.index t (1 : Fin 3) * 1 + 1; omega
  | ⟨2, _⟩ => show win0_12.index t (2 : Fin 3) * 64 ≤ (i 2).val ∧ (i 2).val < win0_12.index t (2 : Fin 3) * 64 + 64; omega

/-- Window 12's array after the region. -/
theorem final0_12 : (dat0 (F := Ideal) V c).arrAt 12 cfg0.N = out12 (rawA V c) (aggA V c) (degA V c) (sA V c) (tA V c) (w1A V c) (b1A V c) (w2A V c) (b2A V c) :=
  (dat0 V c).arrAt_eq_of_cover 12 (out12 (rawA V c) (aggA V c) (degA V c) (sA V c) (tA V c) (w1A V c) (b1A V c) (w2A V c) (b2A V c)) (flushed12_eq V c) covered12

/-- Window 13: what a core's last point writes back is the core's block of the closed form. -/
theorem flushed13_eq (t : Fin cfg0.N) (hf : (cfg0.win 13).flush t = true) :
    (dat0 V c).flushed 13 t = ((cfg0.win 13).blk t).view.read (Elt Ideal) (out13 (rawA V c) (aggA V c) (degA V c) (sA V c) (tA V c) (batA V c) (w1A V c) (b1A V c) (w2A V c) (b2A V c)) := by
  have hN : cfg0.N = 10 := N_0
  have h4 : t.val % 5 = 4 := (flush0_13 t).mp hf
  obtain ⟨q, rfl⟩ : ∃ q : Fin 2, t = lastPt q := ⟨⟨t.val / 5, by have := t.isLt; omega⟩, Fin.ext (by show t.val = 5 * (t.val / 5) + 4; omega)⟩
  show (cfg0.win 13).cut (grid0.coords (lastPt q)) ((dat0 V c).after 13 (lastPt q)) = _
  rw [after0_13]
  have hi := idx_facts0' (lastPt q)
  have hq : (lastPt q).val / 5 = q.val := by show (5 * q.val + 4) / 5 = q.val; omega
  funext j
  obtain ⟨u, g, k, rfl⟩ : ∃ (u : Fin 1) (g : Fin 256) (k : Fin 64), j = ix3 u g k := ⟨j 0, j 1, j 2, eq_ix3 j⟩
  obtain rfl : u = 0 := Subsingleton.elim _ _
  show (outsAt0 V c (lastPt q).val (lastPt q).isLt).2.2.2.1 (ix3 0 g k) = out13 (rawA V c) (aggA V c) (degA V c) (sA V c) (tA V c) (batA V c) (w1A V c) (b1A V c) (w2A V c) (b2A V c) (((cfg0.win 13).blk (lastPt q)).view.emb (ix3 0 g k))
  rw [last13 V c q g k]
  have e0 : ((((cfg0.win 13).blk (lastPt q)).view.emb (ix3 0 g k) : S2x256x64.Idx) 0) = q := Fin.ext (by
    show win0_13.index (lastPt q) (0 : Fin 3) * 1 + 1 * (0 : Fin 1).val = _; omega)
  have e1 : ((((cfg0.win 13).blk (lastPt q)).view.emb (ix3 0 g k) : S2x256x64.Idx) 1) = g := Fin.ext (by
    show win0_13.index (lastPt q) (1 : Fin 3) * 256 + 1 * g.val = _; omega)
  have e2 : ((((cfg0.win 13).blk (lastPt q)).view.emb (ix3 0 g k) : S2x256x64.Idx) 2) = k := Fin.ext (by
    show win0_13.index (lastPt q) (2 : Fin 3) * 64 + 1 * k.val = _; omega)
  unfold out13 poolOf
  rw [e0, e1, e2]
  exact congrArg (Ideal.ofBits .f32 0x00000000#32 + ·) (Finset.sum_congr rfl fun i _ => add13_eq V c q i g k)

theorem mem_blk13 (t : Fin cfg0.N) (i : S2x256x64.Idx) :
    i ∈ ((cfg0.win 13).blk t).view.set ↔ ∀ a : Fin 3, win0_13.index t a * S1x256x64.size a ≤ (i a).val ∧ (i a).val < win0_13.index t a * S1x256x64.size a + S1x256x64.size a := by
  show i ∈ ((View.whole (Pipeline.arrRef spec0 13)).slice (win0_13.rect t)).set ↔ _
  rw [View.set_slice_whole, Rect.mem_set_unit]
  exact Iff.rfl

/-- Every index of window 13's array is in the block its core's last point writes back. -/
theorem covered13 (i : S2x256x64.Idx) :
    ∃ t : Fin cfg0.N, (cfg0.win 13).flush t = true ∧ i ∈ ((cfg0.win 13).blk t).view.set := by
  have hi0 : (i 0).val < 2 := (i 0).isLt
  have hi1 : (i 1).val < 256 := (i 1).isLt
  have hi2 : (i 2).val < 64 := (i 2).isLt
  have hN : cfg0.N = 10 := N_0
  obtain ⟨t, ht⟩ : ∃ t : Fin cfg0.N, t.val = 5 * (i 0).val + 4 := ⟨⟨5 * (i 0).val + 4, by rw [hN]; omega⟩, rfl⟩
  have hi := idx_facts0' t
  refine ⟨t, (flush0_13 t).mpr (by omega), ?_⟩
  rw [mem_blk13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 256 ≤ (i 1).val ∧ (i 1).val < win0_13.index t (1 : Fin 3) * 256 + 256; omega
  | ⟨2, _⟩ => show win0_13.index t (2 : Fin 3) * 64 ≤ (i 2).val ∧ (i 2).val < win0_13.index t (2 : Fin 3) * 64 + 64; omega

/-- Window 13's array after the region. -/
theorem final0_13 : (dat0 (F := Ideal) V c).arrAt 13 cfg0.N = out13 (rawA V c) (aggA V c) (degA V c) (sA V c) (tA V c) (batA V c) (w1A V c) (b1A V c) (w2A V c) (b2A V c) :=
  (dat0 V c).arrAt_eq_of_cover 13 (out13 (rawA V c) (aggA V c) (degA V c) (sA V c) (tA V c) (batA V c) (w1A V c) (b1A V c) (w2A V c) (b2A V c)) (flushed13_eq V c) covered13

/-- Window 14: what a core's last point writes back is the core's block of the closed form. -/
theorem flushed14_eq (t : Fin cfg0.N) (hf : (cfg0.win 14).flush t = true) :
    (dat0 V c).flushed 14 t = ((cfg0.win 14).blk t).view.read (Elt Ideal) (out14 (batA V c)) := by
  have hN : cfg0.N = 10 := N_0
  have h4 : t.val % 5 = 4 := (flush0_14 t).mp hf
  obtain ⟨q, rfl⟩ : ∃ q : Fin 2, t = lastPt q := ⟨⟨t.val / 5, by have := t.isLt; omega⟩, Fin.ext (by show t.val = 5 * (t.val / 5) + 4; omega)⟩
  show (cfg0.win 14).cut (grid0.coords (lastPt q)) ((dat0 V c).after 14 (lastPt q)) = _
  rw [after0_14]
  have hi := idx_facts0' (lastPt q)
  have hq : (lastPt q).val / 5 = q.val := by show (5 * q.val + 4) / 5 = q.val; omega
  funext j
  obtain ⟨u, v, g, rfl⟩ : ∃ (u v : Fin 1) (g : Fin 256), j = ix3 u v g := ⟨j 0, j 1, j 2, eq_ix3 j⟩
  obtain rfl : u = 0 := Subsingleton.elim _ _
  obtain rfl : v = 0 := Subsingleton.elim _ _
  show (outsAt0 V c (lastPt q).val (lastPt q).isLt).2.2.2.2 (ix3 0 0 g) = out14 (batA V c) (((cfg0.win 14).blk (lastPt q)).view.emb (ix3 0 0 g))
  rw [last14 V c q g]
  have e0 : ((((cfg0.win 14).blk (lastPt q)).view.emb (ix3 0 0 g) : S2x1x256.Idx) 0) = q := Fin.ext (by
    show win0_14.index (lastPt q) (0 : Fin 3) * 1 + 1 * (0 : Fin 1).val = _; omega)

  have e2 : ((((cfg0.win 14).blk (lastPt q)).view.emb (ix3 0 0 g) : S2x1x256.Idx) 2) = g := Fin.ext (by
    show win0_14.index (lastPt q) (2 : Fin 3) * 256 + 1 * g.val = _; omega)
  unfold out14 cntOf
  rw [e0, e2]
  exact congrArg (Ideal.ofBits .f32 0x00000000#32 + ·) (Finset.sum_congr rfl fun i _ => add14_eq V c q i g)

theorem mem_blk14 (t : Fin cfg0.N) (i : S2x1x256.Idx) :
    i ∈ ((cfg0.win 14).blk t).view.set ↔ ∀ a : Fin 3, win0_14.index t a * S1x1x256.size a ≤ (i a).val ∧ (i a).val < win0_14.index t a * S1x1x256.size a + S1x1x256.size a := by
  show i ∈ ((View.whole (Pipeline.arrRef spec0 14)).slice (win0_14.rect t)).set ↔ _
  rw [View.set_slice_whole, Rect.mem_set_unit]
  exact Iff.rfl

/-- Every index of window 14's array is in the block its core's last point writes back. -/
theorem covered14 (i : S2x1x256.Idx) :
    ∃ t : Fin cfg0.N, (cfg0.win 14).flush t = true ∧ i ∈ ((cfg0.win 14).blk t).view.set := by
  have hi0 : (i 0).val < 2 := (i 0).isLt
  have hi1 : (i 1).val < 1 := (i 1).isLt
  have hi2 : (i 2).val < 256 := (i 2).isLt
  have hN : cfg0.N = 10 := N_0
  obtain ⟨t, ht⟩ : ∃ t : Fin cfg0.N, t.val = 5 * (i 0).val + 4 := ⟨⟨5 * (i 0).val + 4, by rw [hN]; omega⟩, rfl⟩
  have hi := idx_facts0' t
  refine ⟨t, (flush0_14 t).mpr (by omega), ?_⟩
  rw [mem_blk14]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 1 ≤ (i 1).val ∧ (i 1).val < win0_14.index t (1 : Fin 3) * 1 + 1; omega
  | ⟨2, _⟩ => show win0_14.index t (2 : Fin 3) * 256 ≤ (i 2).val ∧ (i 2).val < win0_14.index t (2 : Fin 3) * 256 + 256; omega

/-- Window 14's array after the region. -/
theorem final0_14 : (dat0 (F := Ideal) V c).arrAt 14 cfg0.N = out14 (batA V c) :=
  (dat0 V c).arrAt_eq_of_cover 14 (out14 (batA V c)) (flushed14_eq V c) covered14

end Value

end Cert.KernelIdeal.Fr.R0

end
-- ==== Proof.KChainL0.lean ====
/- Layer 0 of the kernel side in the terms of the mathematical statement: pallas_call 0's rows are the statement's
   `hK0`, and its four statistics arrays are the per-half tile sums of those rows. The
   region's value over its ten input arrays, those arrays read entry by entry at the run's valuations, and the dense part
   as the statement's `mlp` of `xinK`. -/
import proofs.«429418_j73830487818378_3_alg».proof.Proof.KChain2
import proofs.«429418_j73830487818378_3_alg».proof.Proof.KLayer0
import proofs.«429418_j73830487818378_3_alg».proof.Proof.K0Value

set_option maxRecDepth 16384

noncomputable section

open scoped BigOperators

namespace Cert.KernelIdeal.Fr

open Cert.KernelIdeal Cert.KernelIdeal.Gen Cert.KernelIdeal.Glue
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- Region 0's dense part over its input arrays as the run finds them is the statement's layer-0 rows. -/
theorem layer0_hpost (n : Fin 50000) (k : Fin 64) :
    R0.hpost (R0.rawA (V1 m ρ) c) (R0.aggA (V1 m ρ) c) (R0.degA (V1 m ρ) c) (R0.sA (V1 m ρ) c) (R0.tA (V1 m ρ) c) (R0.w1A (V1 m ρ) c) (R0.b1A (V1 m ρ) c) (R0.w2A (V1 m ρ) c) (R0.b2A (V1 m ρ) c) n k = Cert.GinMath.hK0 (𝔾r m c) (𝕡r m c) n k := by
  rw [R0.hpost_eq (m ((c : Thread nD τ).loc main_arg1)) (m ((c : Thread nD τ).loc main_arg2)) (m ((c : Thread nD τ).loc main_arg3)) _ _ _ _ _ _ _ _ _ (𝕡r m c).x (fun _ => (𝔾r m c).one) (fun _ => (𝔾r m c).z) (𝕡r m c).b1_0 (𝕡r m c).b2_0
    (in0_x m ρ c) (in0_agg m ρ c) (in0_deg m ρ c) (in0_s m ρ c) (in0_t m ρ c) (in0_b1 m ρ c) (in0_b2 m ρ c) n k]
  rw [show R0.w1A (V1 m ρ) c = ((m ((c : Thread nD τ).loc main_arg4)) : Vec Ideal S128x64 .f32) from in0_6 m ρ c,
    show R0.w2A (V1 m ρ) c = ((m ((c : Thread nD τ).loc main_arg6)) : Vec Ideal S64x64 .f32) from in0_8 m ρ c]
  rfl

/-- Region 0's one-hot word over its graph-word column is the statement's membership indicator. -/
theorem layer0_oh (n : Fin 50000) (g : Fin 256) :
    R0.oh (R0.batA (V1 m ρ) c) n g = Cert.GinMath.oh (𝔾r m c) g n :=
  R0.oh_eq (m ((c : Thread nD τ).loc main_arg1)) (m ((c : Thread nD τ).loc main_arg2)) (m ((c : Thread nD τ).loc main_arg3)) _ (in0_batw m ρ c) n g

/-- Pallas_call 0's rows are the statement's layer-0 rows. -/
theorem hpK0_is (n : Fin 50000) (k : Fin 64) : hpK0 m ρ c (ix2 n k) = Cert.GinMath.hK0 (𝔾r m c) (𝕡r m c) n k :=
  calc hpK0 m ρ c (ix2 n k)
      = (dat0 (V1 m ρ) c).arrAt 10 cfg0.N (ix2 n k) := congrFun (hpK0_eq m ρ c) (ix2 n k)
    _ = R0.out10 (R0.rawA (V1 m ρ) c) (R0.aggA (V1 m ρ) c) (R0.degA (V1 m ρ) c) (R0.sA (V1 m ρ) c) (R0.tA (V1 m ρ) c) (R0.w1A (V1 m ρ) c) (R0.b1A (V1 m ρ) c) (R0.w2A (V1 m ρ) c) (R0.b2A (V1 m ρ) c) (ix2 n k) := congrFun (R0.final0_10 (V1 m ρ) c) (ix2 n k)
    _ = R0.hpost (R0.rawA (V1 m ρ) c) (R0.aggA (V1 m ρ) c) (R0.degA (V1 m ρ) c) (R0.sA (V1 m ρ) c) (R0.tA (V1 m ρ) c) (R0.w1A (V1 m ρ) c) (R0.b1A (V1 m ρ) c) (R0.w2A (V1 m ρ) c) (R0.b2A (V1 m ρ) c) n k := rfl
    _ = Cert.GinMath.hK0 (𝔾r m c) (𝕡r m c) n k := layer0_hpost m ρ c n k

/-- Pallas_call 0's four statistics arrays are the per-half tile sums of the statement's layer-0 rows. -/
theorem statsK0 : TileStats (𝔾r m c) (Cert.GinMath.hK0 (𝔾r m c) (𝕡r m c)) (smK0 m ρ c) (sqK0 m ρ c) (plK0 m ρ c) (ctK0 m ρ c) where
  hsm q k := by
    have e : smK0 m ρ c (ix3 q 0 k) = R0.sumOf (R0.rawA (V1 m ρ) c) (R0.aggA (V1 m ρ) c) (R0.degA (V1 m ρ) c) (R0.sA (V1 m ρ) c) (R0.tA (V1 m ρ) c) (R0.w1A (V1 m ρ) c) (R0.b1A (V1 m ρ) c) (R0.w2A (V1 m ρ) c) (R0.b2A (V1 m ρ) c) q k :=
      (congrFun (smK0_eq m ρ c) (ix3 q 0 k)).trans (congrFun (R0.final0_11 (V1 m ρ) c) (ix3 q 0 k))
    rw [e]
    unfold R0.sumOf
    simp only [layer0_hpost m ρ c, R0.rowOf_eq]
    rfl
  hsq q k := by
    have e : sqK0 m ρ c (ix3 q 0 k) = R0.sumsqOf (R0.rawA (V1 m ρ) c) (R0.aggA (V1 m ρ) c) (R0.degA (V1 m ρ) c) (R0.sA (V1 m ρ) c) (R0.tA (V1 m ρ) c) (R0.w1A (V1 m ρ) c) (R0.b1A (V1 m ρ) c) (R0.w2A (V1 m ρ) c) (R0.b2A (V1 m ρ) c) q k :=
      (congrFun (sqK0_eq m ρ c) (ix3 q 0 k)).trans (congrFun (R0.final0_12 (V1 m ρ) c) (ix3 q 0 k))
    rw [e]
    unfold R0.sumsqOf
    simp only [layer0_hpost m ρ c, R0.rowOf_eq]
    rfl
  hpl q g k := by
    have e : plK0 m ρ c (ix3 q g k) = R0.poolOf (R0.rawA (V1 m ρ) c) (R0.aggA (V1 m ρ) c) (R0.degA (V1 m ρ) c) (R0.sA (V1 m ρ) c) (R0.tA (V1 m ρ) c) (R0.batA (V1 m ρ) c) (R0.w1A (V1 m ρ) c) (R0.b1A (V1 m ρ) c) (R0.w2A (V1 m ρ) c) (R0.b2A (V1 m ρ) c) q g k :=
      (congrFun (plK0_eq m ρ c) (ix3 q g k)).trans (congrFun (R0.final0_13 (V1 m ρ) c) (ix3 q g k))
    rw [e]
    unfold R0.poolOf
    simp only [layer0_hpost m ρ c, layer0_oh m ρ c, R0.rowOf_eq]
    rfl
  hct q g := by
    have e : ctK0 m ρ c (ix3 q 0 g) = R0.cntOf (R0.batA (V1 m ρ) c) q g :=
      (congrFun (ctK0_eq m ρ c) (ix3 q 0 g)).trans (congrFun (R0.final0_14 (V1 m ρ) c) (ix3 q 0 g))
    rw [e]
    unfold R0.cntOf
    simp only [layer0_oh m ρ c, R0.rowOf_eq]
    rfl

end Cert.KernelIdeal.Fr

end
-- ==== Proof.K1Spec.lean ====
/- Pallas call 1, what it computes, as functions of its ten input arrays at the ideal values: per node the scaled and
   shifted input, the two dense layers with their rectifiers, and per core the four running statistics of the second
   layer's output over the core's 25000 nodes (five tiles of 5000): the column sums, the column sums of squares, the
   sums pooled by batch id, and the node counts by batch id. -/
import proofs.«429418_j73830487818378_3_alg».proof.KernelIdeal
import Idealize.ShloMosaic.Lib.ValueIdx
import Idealize.ShloMosaic.PureOps.Ideal.Laws

noncomputable section

namespace Cert.KernelIdeal.Fr.R1

open Cert.KernelIdeal
open Idealize.ShloMosaic Idealize.ShloMosaic.ValueIdx

section Spec
variable (rawA aggA : Vec Ideal S50000x64 .f32) (degA : Vec Ideal S50000x1 .f32) (sA tA : Vec Ideal S1x64 .f32)
  (batA : Vec Ideal S50000x1 .i32) (w1A : Vec Ideal S64x64 .f32) (b1A : Vec Ideal S1x64 .f32)
  (w2A : Vec Ideal S64x64 .f32) (b2A : Vec Ideal S1x64 .f32)

/-- The scaled and shifted input of node `n`, lane `j`: `s·(raw + agg) + t·(1 + deg)`. -/
def xin (n : Fin 50000) (j : Fin 64) : EReal :=
  sA (ix2 0 j) * (rawA (ix2 n j) + aggA (ix2 n j)) + tA (ix2 0 j) * (Ideal.ofBits .f32 0x3F800000#32 + degA (ix2 n 0))

/-- The first layer's rectified output of node `n`, column `k`. -/
def h1 (n : Fin 50000) (k : Fin 64) : EReal :=
  max ((∑ j : Fin 64, xin rawA aggA degA sA tA n j * w1A (ix2 j k)) + b1A (ix2 0 k)) (Ideal.ofBits .f32 0x00000000#32)

/-- The second layer's rectified output of node `n`, column `k`. -/
def hpost (n : Fin 50000) (k : Fin 64) : EReal :=
  max ((∑ j : Fin 64, h1 rawA aggA degA sA tA w1A b1A n j * w2A (ix2 j k)) + b2A (ix2 0 k)) (Ideal.ofBits .f32 0x00000000#32)

/-- The one-hot word of node `n` for graph `g`: 1 when the node's batch id is `g`, else 0. -/
def oh (n : Fin 50000) (g : Fin 256) : EReal := if batA (ix2 n 0) = BitVec.ofNat 32 g.val then 1 else 0

end Spec

/-- Row `r` of tile `i` of core `q`: node `(5q + i)·5000 + r`. -/
def rowOf (q : Fin 2) (i : Fin 5) (r : Fin 5000) : Fin 50000 :=
  ⟨(5 * q.val + i.val) * 5000 + r.val, by have := q.isLt; have := i.isLt; have := r.isLt; omega⟩

end Cert.KernelIdeal.Fr.R1

end
-- ==== Proof.KLayer1.lean ====
/-
  One call of the kernel, read at a node and a column, is the mathematical layer.  The call's per-node values — the
  scaled and shifted input `s·(raw + agg) + t·(1 + deg)` and the two dense maps each followed by the maximum with
  zero — are the curried functions of the same names once the arrays are read entry by entry; the tile a row lies in
  is the same function of the core, the step and the row; and the zero-one word of a node for a graph, the node's
  graph word compared with the graph's number as a 32-bit word, is the indicator of the node's signed graph word
  being that number.
-/
import proofs.«429418_j73830487818378_3_alg».proof.Proof.K1Spec
import proofs.«429418_j73830487818378_3_alg».proof.Proof.GinMath
import proofs.«429418_j73830487818378_3_alg».proof.Proof.Inst
import proofs.«429418_j73830487818378_3_alg».proof.Proof.LibLayer

noncomputable section

open scoped BigOperators

namespace Cert.KernelIdeal.Fr.R1

open Cert.KernelIdeal Idealize.ShloMosaic Idealize.ShloMosaic.ValueIdx

variable (ei : IVec ⟨2, ![2, 800000]⟩ 32) (bt : IVec ⟨1, ![50000]⟩ 32) (ew : (⟨1, ![800000]⟩ : Shape).Idx → EReal)

local notation "𝔾" => Cert.Inst.graph ei bt ew

/-- The scaled and shifted input, the arrays given entry by entry. -/
theorem xin_eq (rawA aggA : Vec Ideal S50000x64 .f32) (degA : Vec Ideal S50000x1 .f32) (sA tA : Vec Ideal S1x64 .f32)
    (raw : Fin 50000 → Fin 64 → EReal) (s t : Fin 64 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (n : Fin 50000) (j : Fin 64) :
    xin rawA aggA degA sA tA n j = Cert.GinMath.xinK 𝔾 raw s t n j := by
  unfold xin; rw [hraw, hagg, hdeg, hs, ht]; rfl

/-- The first dense map and the maximum with zero. -/
theorem h1_eq (rawA aggA : Vec Ideal S50000x64 .f32) (degA : Vec Ideal S50000x1 .f32) (sA tA : Vec Ideal S1x64 .f32)
    (w1A : Vec Ideal S64x64 .f32) (b1A : Vec Ideal S1x64 .f32)
    (raw : Fin 50000 → Fin 64 → EReal) (s t : Fin 64 → EReal) (b1 : Fin 64 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (hb1 : ∀ k, b1A (ix2 0 k) = b1 k) (n : Fin 50000) (k : Fin 64) :
    h1 rawA aggA degA sA tA w1A b1A n k
      = Cert.GinMath.dense 𝔾 (Cert.GinMath.xinK 𝔾 raw s t) (Cert.Inst.mat w1A) b1 n k := by
  unfold h1
  simp only [xin_eq ei bt ew rawA aggA degA sA tA raw s t hraw hagg hdeg hs ht, hb1]
  rfl

/-- The call's two dense maps over the scaled and shifted input. -/
theorem hpost_eq (rawA aggA : Vec Ideal S50000x64 .f32) (degA : Vec Ideal S50000x1 .f32) (sA tA : Vec Ideal S1x64 .f32)
    (w1A : Vec Ideal S64x64 .f32) (b1A : Vec Ideal S1x64 .f32) (w2A : Vec Ideal S64x64 .f32) (b2A : Vec Ideal S1x64 .f32)
    (raw : Fin 50000 → Fin 64 → EReal) (s t : Fin 64 → EReal) (b1 b2 : Fin 64 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (hb1 : ∀ k, b1A (ix2 0 k) = b1 k) (hb2 : ∀ k, b2A (ix2 0 k) = b2 k) (n : Fin 50000) (k : Fin 64) :
    hpost rawA aggA degA sA tA w1A b1A w2A b2A n k
      = Cert.GinMath.mlp 𝔾 (Cert.GinMath.xinK 𝔾 raw s t) (Cert.Inst.mat w1A) b1 (Cert.Inst.mat w2A) b2 n k := by
  unfold hpost Cert.GinMath.mlp
  simp only [h1_eq ei bt ew rawA aggA degA sA tA w1A b1A raw s t b1 hraw hagg hdeg hs ht hb1, hb2]
  rfl

/-- The tile a row lies in: the same function of the core, the step and the row. -/
theorem rowOf_eq : rowOf = Cert.GinMath.rowOf := rfl

/-- The zero-one word of a node for a graph is the indicator of the node lying in the graph. -/
theorem oh_eq (batA : Vec Ideal S50000x1 .i32) (hbat : ∀ n, batA (ix2 n 0) = bt (ix1 n)) (n : Fin 50000) (g : Fin 256) :
    oh batA n g = Cert.GinMath.oh 𝔾 g n := by
  unfold oh Cert.GinMath.oh
  rw [hbat]
  exact if_congr (Cert.Lib.Layer.word_eq_iff (bt (ix1 n)) g.val g.isLt) rfl rfl

end Cert.KernelIdeal.Fr.R1

end
-- ==== Proof.K1Pay.lean ====
/- Pallas call 1 (the second MLP layer pair with its batch statistics), the arithmetic of its body at an index, read at
   the ideal values: the scaled and shifted input, the two dense layers with their rectifiers (each matrix product
   into a zero accumulator is the plain sum over the contracted axis; the narrowing to bf16 is the identity on the
   extended reals), the column sums, the one-hot words of the batch ids, and what each of the four accumulators' stored
   payloads holds at an index in terms of a tile's rows. -/
import proofs.«429418_j73830487818378_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Fr.R1

open Cert.KernelIdeal Cert.KernelIdeal.Gen
open Idealize.ShloMosaic Idealize.ShloMosaic.TcCoe Idealize.SL.Sem
open Idealize.ShloMosaic.ValueIdx

/-! ## Layout operations of the body at an index -/

/-- A [1,64] row broadcast over 5000 rows reads its column everywhere. -/
theorem row_bcast1 {α : Type} (x : S1x64.Idx → α) (r : Fin 5000) (j : Fin 64) :
    broadcastTo S5000x64 x broadcasts_S1x64_S5000x64 (ix2 r j) = x (ix2 0 j) := by
  refine broadcastTo_apply x _ _ _ fun a => ?_
  match a with
  | ⟨0, _⟩ => rfl
  | ⟨1, _⟩ => rfl

/-- A [5000,1] column broadcast over 64 lanes reads its row everywhere. -/
theorem col_bcast1 {α : Type} (x : S5000x1.Idx → α) (r : Fin 5000) (j : Fin 64) :
    broadcastTo S5000x64 x broadcasts_S5000x1_S5000x64 (ix2 r j) = x (ix2 r 0) := by
  refine broadcastTo_apply x _ _ _ fun a => ?_
  match a with
  | ⟨0, _⟩ => rfl
  | ⟨1, _⟩ => rfl

/-- A [5000,1] column broadcast over 256 lanes reads its row everywhere. -/
theorem col_bcast1g {α : Type} (x : S5000x1.Idx → α) (r : Fin 5000) (g : Fin 256) :
    broadcastTo S5000x256 x broadcasts_S5000x1_S5000x256 (ix2 r g) = x (ix2 r 0) := by
  refine broadcastTo_apply x _ _ _ fun a => ?_
  match a with
  | ⟨0, _⟩ => rfl
  | ⟨1, _⟩ => rfl

/-! ## The two matrix products' operand indices

The dense layers contract the left operand's lanes with the right operand's rows; the pooling product contracts the
rows of both operands (the one-hot matrix enters transposed). -/

theorem lhs_dotA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dotA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dotA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dotA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A dense layer's product into the zero accumulator, at row `r` and column `k`: the sum over the 64 contracted lanes. -/
theorem dense_apply (x : FVec Ideal S5000x64 .bf16) (w : FVec Ideal S64x64 .bf16) (r : Fin 5000) (k : Fin 64) :
    matmul dot_S5000x64_S64x64_S5000x64_1_0_0_1_n_n none x w (constant (F := Ideal) S5000x64 .f32 0x00000000#32) (ix2 r k)
      = ∑ j : Fin 64, x (ix2 r j) * w (ix2 j k) := by
  simp only [matmul]
  rw [Ideal.matmul_constant_zero_apply, ← Equiv.sum_comp (contrEquiv1 dot_S5000x64_S64x64_S5000x64_1_0_0_1_n_n 64 rfl rfl).symm]
  refine Finset.sum_congr rfl fun j _ => ?_
  have hk := contrEquiv1_symm_val dot_S5000x64_S64x64_S5000x64_1_0_0_1_n_n 64 rfl rfl j
  have el : dot_S5000x64_S64x64_S5000x64_1_0_0_1_n_n.lhsIdx (ix2 r k) ((contrEquiv1 dot_S5000x64_S64x64_S5000x64_1_0_0_1_n_n 64 rfl rfl).symm j) = ix2 r j := funext fun a => Fin.ext (by
    match a with
    | ⟨0, _⟩ => exact lhs_dotA_0 _ _
    | ⟨1, _⟩ => exact (lhs_dotA_1 _ _).trans hk)
  have er : dot_S5000x64_S64x64_S5000x64_1_0_0_1_n_n.rhsIdx (ix2 r k) ((contrEquiv1 dot_S5000x64_S64x64_S5000x64_1_0_0_1_n_n 64 rfl rfl).symm j) = ix2 j k := funext fun a => Fin.ext (by
    match a with
    | ⟨0, _⟩ => exact (rhs_dotA_0 _ _).trans hk
    | ⟨1, _⟩ => exact rhs_dotA_1 _ _)
  rw [el, er]

theorem lhs_dotP_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_dotP_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_dotP_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_dotP_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The pooling product into the zero accumulator, at graph `g` and column `k`: the sum over the tile's 5000 rows. -/
theorem pool_apply (oh : FVec Ideal S5000x256 .f32) (h : FVec Ideal S5000x64 .f32) (g : Fin 256) (k : Fin 64) :
    matmul dot_S5000x256_S5000x64_S256x64_0_0_1_1_n_n (some .fp32) oh h (constant (F := Ideal) S256x64 .f32 0x00000000#32) (ix2 g k)
      = ∑ r : Fin 5000, oh (ix2 r g) * h (ix2 r k) := by
  simp only [matmul]
  rw [Ideal.matmul_constant_zero_apply, ← Equiv.sum_comp (contrEquiv1 dot_S5000x256_S5000x64_S256x64_0_0_1_1_n_n 5000 rfl rfl).symm]
  refine Finset.sum_congr rfl fun r _ => ?_
  have hk := contrEquiv1_symm_val dot_S5000x256_S5000x64_S256x64_0_0_1_1_n_n 5000 rfl rfl r
  have el : dot_S5000x256_S5000x64_S256x64_0_0_1_1_n_n.lhsIdx (ix2 g k) ((contrEquiv1 dot_S5000x256_S5000x64_S256x64_0_0_1_1_n_n 5000 rfl rfl).symm r) = ix2 r g := funext fun a => Fin.ext (by
    match a with
    | ⟨0, _⟩ => exact (lhs_dotP_0 _ _).trans hk
    | ⟨1, _⟩ => exact lhs_dotP_1 _ _)
  have er : dot_S5000x256_S5000x64_S256x64_0_0_1_1_n_n.rhsIdx (ix2 g k) ((contrEquiv1 dot_S5000x256_S5000x64_S256x64_0_0_1_1_n_n 5000 rfl rfl).symm r) = ix2 r k := funext fun a => Fin.ext (by
    match a with
    | ⟨0, _⟩ => exact (rhs_dotP_0 _ _).trans hk
    | ⟨1, _⟩ => exact rhs_dotP_1 _ _)
  rw [el, er]

/-! ## Column sums -/

/-- The sum over a [5000,64] tile's rows, at lane `k`. -/
theorem colsum64_apply (x : FVec Ideal S5000x64 .f32) (hφ : FKind.Formats .f32)
    (hacc : (0x00000000#32 : BitVec (FTy.bits .f32)) = FKind.add.neutral .f32 hφ) (k : Fin 64) :
    multiReduction (F := Ideal) .add [0] S64 x 0x00000000#32 reduces_S5000x64_S64 hφ hacc (ix1 k) = ∑ r : Fin 5000, x (ix2 r k) := by
  refine (Ideal.multiReduction_add_single x _ reduces_S5000x64_S64 hφ hacc (ix1 k)).trans ?_
  refine Finset.sum_congr rfl fun r _ => congrArg x (funext fun a => Fin.ext ?_)
  match a with
  | ⟨0, _⟩ => rfl
  | ⟨1, _⟩ => rfl

/-- The sum over a [5000,256] tile's rows, at lane `g`. -/
theorem colsum256_apply (x : FVec Ideal S5000x256 .f32) (hφ : FKind.Formats .f32)
    (hacc : (0x00000000#32 : BitVec (FTy.bits .f32)) = FKind.add.neutral .f32 hφ) (g : Fin 256) :
    multiReduction (F := Ideal) .add [0] S256 x 0x00000000#32 reduces_S5000x256_S256 hφ hacc (ix1 g) = ∑ r : Fin 5000, x (ix2 r g) := by
  refine (Ideal.multiReduction_add_single x _ reduces_S5000x256_S256 hφ hacc (ix1 g)).trans ?_
  refine Finset.sum_congr rfl fun r _ => congrArg x (funext fun a => Fin.ext ?_)
  match a with
  | ⟨0, _⟩ => rfl
  | ⟨1, _⟩ => rfl

/-! ## The one-hot words -/

/-- The float of "row `r`'s batch id is `g`": the comparison's bit, widened to a word and converted. -/
def ohw (b : BitVec 32) (g : Fin 256) : EReal := if b = BitVec.ofNat 32 g.val then 1 else 0

theorem onehot_word (b : BitVec 32) (g : Fin 256) :
    (FloatOps.sitofp (F := Ideal) .f32 ((IntOp.cmpi .eq b (BitVec.ofNat 32 g.val)).setWidth 32) : Ideal .f32) = ohw b g := by
  show (((((IntOp.cmpi .eq b (BitVec.ofNat 32 g.val)).setWidth 32).toInt : ℤ) : ℝ) : EReal) = ohw b g
  rw [toInt_setWidth_bit]
  unfold ohw IntOp.cmpi
  by_cases h : b = BitVec.ofNat 32 g.val
  · rw [if_pos h]; simp [h]
  · rw [if_neg h]; simp [h]

/-! ## The body's values on one tile

`x0`, `x1`: the tile's rows of the two summed inputs; `x2`: their degree column; `x3`, `x4`: the scale and shift rows;
`x6`, `x7`, `x8`, `x9`: the two layers' weights and biases. -/

section Tile
variable (x0 x1 : Vec Ideal S5000x64 .f32) (x2 : Vec Ideal S5000x1 .f32) (x3 x4 : Vec Ideal S1x64 .f32)
  (x6 : Vec Ideal S64x64 .f32) (x7 : Vec Ideal S1x64 .f32) (x8 : Vec Ideal S64x64 .f32) (x9 : Vec Ideal S1x64 .f32)

/-- The scaled and shifted input at row `r`, lane `j`. -/
def xinT (r : Fin 5000) (j : Fin 64) : EReal :=
  x3 (ix2 0 j) * (x0 (ix2 r j) + x1 (ix2 r j)) + x4 (ix2 0 j) * (Ideal.ofBits .f32 0x3F800000#32 + x2 (ix2 r 0))

/-- The first layer's rectified output at row `r`, column `k`. -/
def h1T (r : Fin 5000) (k : Fin 64) : EReal :=
  max ((∑ j : Fin 64, xinT x0 x1 x2 x3 x4 r j * x6 (ix2 j k)) + x7 (ix2 0 k)) (Ideal.ofBits .f32 0x00000000#32)

/-- The second layer's rectified output at row `r`, column `k`. -/
def hpT (r : Fin 5000) (k : Fin 64) : EReal :=
  max ((∑ j : Fin 64, h1T x0 x1 x2 x3 x4 x6 x7 r j * x8 (ix2 j k)) + x9 (ix2 0 k)) (Ideal.ofBits .f32 0x00000000#32)

theorem pay7_apply (r : Fin 5000) (k : Fin 64) :
    k1_pay7 (F := Ideal) x3 x0 x1 x4 x2 x6 x7 (ix2 r k) = h1T x0 x1 x2 x3 x4 x6 x7 r k := by
  unfold k1_pay7 h1T
  simp only [shapeCast_self]
  rw [truncf_apply, maximumf_apply, addf_apply, dense_apply, row_bcast1, broadcast_apply]
  refine congrArg (fun z => max (z + x7 (ix2 0 k)) _) (Finset.sum_congr rfl fun j _ => ?_)
  rw [truncf_apply, truncf_apply, addf_apply, mulf_apply, mulf_apply, addf_apply, row_bcast1, row_bcast1, col_bcast1, addf_apply, broadcast_apply]
  rfl

/-- A dense layer, its bias and its rectifier at row `r`, column `k`, on any operands. -/
theorem pay9_apply (v32 : FVec Ideal S5000x64 .bf16) (v34 : FVec Ideal S64x64 .bf16) (v36 : Vec Ideal S1x64 .f32) (r : Fin 5000) (k : Fin 64) :
    k1_pay9 (F := Ideal) v32 v34 (constant (F := Ideal) S5000x64 .f32 0x00000000#32) v36 (ix2 r k)
      = max ((∑ j : Fin 64, v32 (ix2 r j) * v34 (ix2 j k)) + v36 (ix2 0 k)) (Ideal.ofBits .f32 0x00000000#32) := by
  unfold k1_pay9
  simp only [shapeCast_self]
  rw [maximumf_apply, addf_apply, dense_apply, row_bcast1, broadcast_apply]
  rfl

/-- The block stored to the second layer's output window is the second layer's output. -/
theorem hp_apply (r : Fin 5000) (k : Fin 64) :
    k1_pay9 (F := Ideal) (k1_pay7 x3 x0 x1 x4 x2 x6 x7) (k1_pay8 x8) (constant (F := Ideal) S5000x64 .f32 0x00000000#32) x9 (ix2 r k)
      = hpT x0 x1 x2 x3 x4 x6 x7 x8 x9 r k := by
  rw [pay9_apply]
  unfold hpT
  refine congrArg (fun z => max (z + x9 (ix2 0 k)) _) (Finset.sum_congr rfl fun j _ => ?_)
  rw [pay7_apply]
  rfl

end Tile

/-! ## The four accumulators' stored payloads at an index -/

/-- The column-sum accumulator: what was there plus the sum over the tile's rows. -/
theorem pay10_apply (v32 : FVec Ideal S5000x64 .bf16) (v34 : FVec Ideal S64x64 .bf16) (cst : FVec Ideal S5000x64 .f32) (v36 : Vec Ideal S1x64 .f32)
    (v43 : Vec Ideal S1x1x64 .f32) (k : Fin 64) :
    k1_pay10 (F := Ideal) v32 v34 cst v36 v43 (ix3 0 0 k) = v43 (ix3 0 0 k) + ∑ r : Fin 5000, k1_pay9 (F := Ideal) v32 v34 cst v36 (ix2 r k) := by
  unfold k1_pay10
  dsimp only
  refine (shapeCast_ab_1ab_apply _ shapeCasts_S1x64_S1x1x64 0 0 k).trans ?_
  rw [addf_apply]
  refine congrArg₂ (· + ·) (shapeCast_1ab_ab_apply v43 shapeCasts_S1x1x64_S1x64 0 k) ?_
  refine (shapeCast_a_1a_apply _ shapeCasts_S64_S1x64 0 k).trans ?_
  exact colsum64_apply _ _ _ k

/-- The sum-of-squares accumulator: what was there plus the sum of the squares over the tile's rows. -/
theorem pay11_apply (v32 : FVec Ideal S5000x64 .bf16) (v34 : FVec Ideal S64x64 .bf16) (cst : FVec Ideal S5000x64 .f32) (v36 : Vec Ideal S1x64 .f32)
    (v51 : Vec Ideal S1x1x64 .f32) (k : Fin 64) :
    k1_pay11 (F := Ideal) v32 v34 cst v36 v51 (ix3 0 0 k)
      = v51 (ix3 0 0 k) + ∑ r : Fin 5000, k1_pay9 (F := Ideal) v32 v34 cst v36 (ix2 r k) * k1_pay9 (F := Ideal) v32 v34 cst v36 (ix2 r k) := by
  unfold k1_pay11
  dsimp only
  refine (shapeCast_ab_1ab_apply _ shapeCasts_S1x64_S1x1x64 0 0 k).trans ?_
  rw [addf_apply]
  refine congrArg₂ (· + ·) (shapeCast_1ab_ab_apply v51 shapeCasts_S1x1x64_S1x64 0 k) ?_
  refine (shapeCast_a_1a_apply _ shapeCasts_S64_S1x64 0 k).trans ?_
  exact colsum64_apply _ _ _ k

/-- The one-hot matrix of a tile's batch ids at row `r`, graph `g`. -/
theorem pay12_apply (v60 : Vec Ideal S5000x1 .i32) (r : Fin 5000) (g : Fin 256) :
    k1_pay12 (F := Ideal) v60 (ix2 r g) = ohw (v60 (ix2 r 0)) g := by
  unfold k1_pay12
  simp only [shapeCast_self]
  rw [sitofp_apply, extui_apply]
  refine Eq.trans ?_ (onehot_word (v60 (ix2 r 0)) g)
  refine congrArg (fun z : BitVec 1 => (FloatOps.sitofp (F := Ideal) .f32 (z.setWidth 32) : Ideal .f32)) ?_
  show IntOp.cmpi .eq (broadcastTo S5000x256 v60 broadcasts_S5000x1_S5000x256 (ix2 r g)) (iota .tc S5000x256 32 [1] iota_S5000x256_d1_w32 (ix2 r g)) = _
  rw [col_bcast1g, iota_single_apply]

/-- The pooled sums of one tile at graph `g`, column `k`. -/
theorem pay13_apply (v32 : FVec Ideal S5000x64 .bf16) (v34 : FVec Ideal S64x64 .bf16) (cst : FVec Ideal S5000x64 .f32) (v36 : Vec Ideal S1x64 .f32)
    (v60 : Vec Ideal S5000x1 .i32) (g : Fin 256) (k : Fin 64) :
    k1_pay13 (F := Ideal) v32 v34 cst v36 v60 (ix2 g k) = ∑ r : Fin 5000, ohw (v60 (ix2 r 0)) g * k1_pay9 (F := Ideal) v32 v34 cst v36 (ix2 r k) := by
  unfold k1_pay13
  refine (pool_apply _ _ g k).trans ?_
  exact Finset.sum_congr rfl fun r _ => congrArg (· * _) (pay12_apply v60 r g)

/-- The pooling accumulator: what was there plus the tile's pooled sums. -/
theorem pay1_apply (v67 : FVec Ideal S256x64 .f32) (v68 : Vec Ideal S1x256x64 .f32) (g : Fin 256) (k : Fin 64) :
    k1_pay1 (F := Ideal) v67 v68 (ix3 0 g k) = v68 (ix3 0 g k) + v67 (ix2 g k) := by
  unfold k1_pay1
  refine (shapeCast_ab_1ab_apply _ shapeCasts_S256x64_S1x256x64 0 g k).trans ?_
  rw [addf_apply]
  exact congrArg (· + _) (shapeCast_1ab_ab_apply v68 shapeCasts_S1x256x64_S256x64 g k)

/-- The node-count accumulator: what was there plus the one-hot matrix's column sums. -/
theorem pay2_apply (v66 : FVec Ideal S5000x256 .f32) (v74 : Vec Ideal S1x1x256 .f32) (g : Fin 256) :
    k1_pay2 (F := Ideal) v66 v74 (ix3 0 0 g) = v74 (ix3 0 0 g) + ∑ r : Fin 5000, v66 (ix2 r g) := by
  unfold k1_pay2
  dsimp only
  refine (shapeCast_ab_1ab_apply _ shapeCasts_S1x256_S1x1x256 0 0 g).trans ?_
  rw [addf_apply]
  refine congrArg₂ (· + ·) (shapeCast_1ab_ab_apply v74 shapeCasts_S1x1x256_S1x256 0 g) ?_
  refine (shapeCast_a_1a_apply _ shapeCasts_S256_S1x256 0 g).trans ?_
  exact colsum256_apply _ _ _ g

/-- The four zero fills. -/
theorem pay3_apply (i : S1x1x64.Idx) : k1_pay3 (F := Ideal) i = Ideal.ofBits .f32 0x00000000#32 := rfl
theorem pay4_apply (i : S1x1x64.Idx) : k1_pay4 (F := Ideal) i = Ideal.ofBits .f32 0x00000000#32 := rfl
theorem pay5_apply (i : S1x256x64.Idx) : k1_pay5 (F := Ideal) i = Ideal.ofBits .f32 0x00000000#32 := rfl
theorem pay6_apply (i : S1x1x256.Idx) : k1_pay6 (F := Ideal) i = Ideal.ofBits .f32 0x00000000#32 := rfl

end Cert.KernelIdeal.Fr.R1

end
-- ==== Proof.K1Out.lean ====
/- Pallas call 1's five written arrays as functions of its ten input arrays: the second layer's output node by node, and
   per core the four statistics of it over the core's five tiles of 5000 nodes, each started from the zero the body
   fills in at the core's first point. -/
import proofs.«429418_j73830487818378_3_alg».proof.Proof.K1Spec

noncomputable section

namespace Cert.KernelIdeal.Fr.R1

open Cert.KernelIdeal
open Idealize.ShloMosaic Idealize.ShloMosaic.ValueIdx

section Out
variable (rawA aggA : Vec Ideal S50000x64 .f32) (degA : Vec Ideal S50000x1 .f32) (sA tA : Vec Ideal S1x64 .f32)
  (batA : Vec Ideal S50000x1 .i32) (w1A : Vec Ideal S64x64 .f32) (b1A : Vec Ideal S1x64 .f32)
  (w2A : Vec Ideal S64x64 .f32) (b2A : Vec Ideal S1x64 .f32)

/-- Core `q`'s column sum of the second layer's output at column `k`: the zero it starts from plus its five tiles' sums. -/
def sumOf (q : Fin 2) (k : Fin 64) : EReal :=
  Ideal.ofBits .f32 0x00000000#32 + ∑ i : Fin 5, ∑ r : Fin 5000, hpost rawA aggA degA sA tA w1A b1A w2A b2A (rowOf q i r) k

/-- Core `q`'s column sum of squares at column `k`. -/
def sumsqOf (q : Fin 2) (k : Fin 64) : EReal :=
  Ideal.ofBits .f32 0x00000000#32 + ∑ i : Fin 5, ∑ r : Fin 5000,
    hpost rawA aggA degA sA tA w1A b1A w2A b2A (rowOf q i r) k * hpost rawA aggA degA sA tA w1A b1A w2A b2A (rowOf q i r) k

/-- Core `q`'s sums pooled by batch id at graph `g`, column `k`. -/
def poolOf (q : Fin 2) (g : Fin 256) (k : Fin 64) : EReal :=
  Ideal.ofBits .f32 0x00000000#32 + ∑ i : Fin 5, ∑ r : Fin 5000,
    oh batA (rowOf q i r) g * hpost rawA aggA degA sA tA w1A b1A w2A b2A (rowOf q i r) k

/-- Core `q`'s node count of graph `g`. -/
def cntOf (q : Fin 2) (g : Fin 256) : EReal :=
  Ideal.ofBits .f32 0x00000000#32 + ∑ i : Fin 5, ∑ r : Fin 5000, oh batA (rowOf q i r) g

/-- The five written arrays, index by index. -/
def out10 : S50000x64.Idx → Elt Ideal .f32 := fun i => hpost rawA aggA degA sA tA w1A b1A w2A b2A (i 0) (i 1)
def out11 : S2x1x64.Idx → Elt Ideal .f32 := fun i => sumOf rawA aggA degA sA tA w1A b1A w2A b2A (i 0) (i 2)
def out12 : S2x1x64.Idx → Elt Ideal .f32 := fun i => sumsqOf rawA aggA degA sA tA w1A b1A w2A b2A (i 0) (i 2)
def out13 : S2x256x64.Idx → Elt Ideal .f32 := fun i => poolOf rawA aggA degA sA tA batA w1A b1A w2A b2A (i 0) (i 1) (i 2)
def out14 : S2x1x256.Idx → Elt Ideal .f32 := fun i => cntOf batA (i 0) (i 2)

end Out

end Cert.KernelIdeal.Fr.R1

end
-- ==== Proof.K1Value.lean ====
/- Pallas call 1, what its five written arrays hold after the region, read off the region's proof data at the ideal
   values. Each run's found pieces are the body's payloads of the blocks; a read window's block is a read of its array
   (tile `t` is rows `5000 t …`); window 10 after any point is the second layer's output on the point's tile; windows
   11–14 after a core's first point are the zero fill plus the point's addend and after each later point what the point
   before left plus the point's addend, so after the core's fifth point the zero plus the five addends; each point
   writes window 10's block back and a core's last point writes back windows 11–14's, and those blocks cover the arrays. -/
import proofs.«429418_j73830487818378_3_alg».proof.Proof.K1Frame
import proofs.«429418_j73830487818378_3_alg».proof.Proof.K1Pay
import proofs.«429418_j73830487818378_3_alg».proof.Proof.K1Spec
import proofs.«429418_j73830487818378_3_alg».proof.Proof.K1Out
import proofs.«429418_j73830487818378_3_alg».proof.Proof.LibTileSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Fr.R1

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-! ## What each run leaves in each written window's buffer, as the body's payloads of the blocks -/

/-- With the branch not taken, window 10 is left at the second layer's output block's payload of the read blocks: its one
    covering store, whose loads read whole buffers. -/
theorem out1_B_10_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k1_pay9 (k1_pay7 x3 x0 x1 x4 x2 x6 x7) (k1_pay8 x8) (constant S5000x64 .f32 0x00000000#32) x9 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch not taken, window 11 is left at the column-sum accumulator's payload of the read blocks and of what the buffer held: its one
    covering store, whose loads read whole buffers. -/
theorem out1_B_11_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k1_pay10 (k1_pay7 x3 x0 x1 x4 x2 x6 x7) (k1_pay8 x8) (constant S5000x64 .f32 0x00000000#32) x9 xo11 := by
  unfold out1_B_11
  rw [View.read_writes_eq_canon _ _ _ (cover1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch not taken, window 12 is left at the sum-of-squares accumulator's payload of the read blocks and of what the buffer held: its one
    covering store, whose loads read whole buffers. -/
theorem out1_B_12_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k1_pay11 (k1_pay7 x3 x0 x1 x4 x2 x6 x7) (k1_pay8 x8) (constant S5000x64 .f32 0x00000000#32) x9 xo12 := by
  unfold out1_B_12
  rw [View.read_writes_eq_canon _ _ _ (cover1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch not taken, window 13 is left at the pooling accumulator's payload of the read blocks and of what the buffer held: its one
    covering store, whose loads read whole buffers. -/
theorem out1_B_13_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k1_pay1 (k1_pay13 (k1_pay7 x3 x0 x1 x4 x2 x6 x7) (k1_pay8 x8) (constant S5000x64 .f32 0x00000000#32) x9 x5) xo13 := by
  unfold out1_B_13
  rw [View.read_writes_eq_canon _ _ _ (cover1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch not taken, window 14 is left at the node-count accumulator's payload of the read blocks and of what the buffer held: its one
    covering store, whose loads read whole buffers. -/
theorem out1_B_14_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out1_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k1_pay2 (k1_pay12 x5) xo14 := by
  unfold out1_B_14
  rw [View.read_writes_eq_canon _ _ _ (cover1_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 10 is left at the second layer's output block's payload of the read blocks. -/
theorem out1_A_10_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k1_pay9 (k1_pay7 x3 x0 x1 x4 x2 x6 x7) (k1_pay8 x8) (constant S5000x64 .f32 0x00000000#32) x9 := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 11 is left at the column-sum accumulator's payload of the read blocks and of the zero fill (stored first, read back, then covered by the sum). -/
theorem out1_A_11_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k1_pay10 (k1_pay7 x3 x0 x1 x4 x2 x6 x7) (k1_pay8 x8) (constant S5000x64 .f32 0x00000000#32) x9 k1_pay3 := by
  unfold out1_A_11
  rw [View.read_writes_eq_canon _ _ _ (cover1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 12 is left at the sum-of-squares accumulator's payload of the read blocks and of the zero fill (stored first, read back, then covered by the sum). -/
theorem out1_A_12_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k1_pay11 (k1_pay7 x3 x0 x1 x4 x2 x6 x7) (k1_pay8 x8) (constant S5000x64 .f32 0x00000000#32) x9 k1_pay4 := by
  unfold out1_A_12
  rw [View.read_writes_eq_canon _ _ _ (cover1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 13 is left at the pooling accumulator's payload of the read blocks and of the zero fill (stored first, read back, then covered by the sum). -/
theorem out1_A_13_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k1_pay1 (k1_pay13 (k1_pay7 x3 x0 x1 x4 x2 x6 x7) (k1_pay8 x8) (constant S5000x64 .f32 0x00000000#32) x9 x5) k1_pay5 := by
  unfold out1_A_13
  rw [View.read_writes_eq_canon _ _ _ (cover1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_cons_unit_zero (S := S1x256x64) hz3, View.readCov_unit_zero (S := S1x256x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 14 is left at the node-count accumulator's payload of the read blocks and of the zero fill (stored first, read back, then covered by the sum). -/
theorem out1_A_14_eq (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond1_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k1_pay2 (k1_pay12 x5) k1_pay6 := by
  unfold out1_A_14
  rw [View.read_writes_eq_canon _ _ _ (cover1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun1_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

end Pieces

/-! ## The arrays and the blocks, by their literal types -/

section Value
variable (V : (c : Dev nD) → (b : Ref sig .tc) → Buf (Elt Ideal) ((c : Thread nD τ).loc b)) (c : Dev nD)

abbrev rawA : Vec Ideal S50000x64 .f32 := V c (Pipeline.arrRef spec1 0)
abbrev aggA : Vec Ideal S50000x64 .f32 := V c (Pipeline.arrRef spec1 1)
abbrev degA : Vec Ideal S50000x1 .f32 := V c (Pipeline.arrRef spec1 2)
abbrev sA : Vec Ideal S1x64 .f32 := V c (Pipeline.arrRef spec1 3)
abbrev tA : Vec Ideal S1x64 .f32 := V c (Pipeline.arrRef spec1 4)
abbrev batA : Vec Ideal S50000x1 .i32 := V c (Pipeline.arrRef spec1 5)
abbrev w1A : Vec Ideal S64x64 .f32 := V c (Pipeline.arrRef spec1 6)
abbrev b1A : Vec Ideal S1x64 .f32 := V c (Pipeline.arrRef spec1 7)
abbrev w2A : Vec Ideal S64x64 .f32 := V c (Pipeline.arrRef spec1 8)
abbrev b2A : Vec Ideal S1x64 .f32 := V c (Pipeline.arrRef spec1 9)

abbrev b0 (t : Fin cfg1.N) : Vec Ideal S5000x64 .f32 := iblk1 V c 0 t
abbrev b1 (t : Fin cfg1.N) : Vec Ideal S5000x64 .f32 := iblk1 V c 1 t
abbrev b2 (t : Fin cfg1.N) : Vec Ideal S5000x1 .f32 := iblk1 V c 2 t
abbrev b3 (t : Fin cfg1.N) : Vec Ideal S1x64 .f32 := iblk1 V c 3 t
abbrev b4 (t : Fin cfg1.N) : Vec Ideal S1x64 .f32 := iblk1 V c 4 t
abbrev b5 (t : Fin cfg1.N) : Vec Ideal S5000x1 .i32 := iblk1 V c 5 t
abbrev b6 (t : Fin cfg1.N) : Vec Ideal S64x64 .f32 := iblk1 V c 6 t
abbrev b7 (t : Fin cfg1.N) : Vec Ideal S1x64 .f32 := iblk1 V c 7 t
abbrev b8 (t : Fin cfg1.N) : Vec Ideal S64x64 .f32 := iblk1 V c 8 t
abbrev b9 (t : Fin cfg1.N) : Vec Ideal S1x64 .f32 := iblk1 V c 9 t

/-! ## The windows' blocks as reads of their arrays -/

/-- The printed index maps, decided over the ten points: the tiled windows (0, 1, 2, 5, 10) are at block (t, 0), the
    whole-array windows at block (0, 0), the per-core windows (11–14) at block (t / 5, 0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

theorem idx_facts1' : ∀ t : Fin cfg1.N,
    win1_11.index t (0 : Fin 3) = t.val / 5 ∧ win1_11.index t (1 : Fin 3) = 0 ∧ win1_11.index t (2 : Fin 3) = 0
    ∧ win1_12.index t (0 : Fin 3) = t.val / 5 ∧ win1_12.index t (1 : Fin 3) = 0 ∧ win1_12.index t (2 : Fin 3) = 0
    ∧ win1_13.index t (0 : Fin 3) = t.val / 5 ∧ win1_13.index t (1 : Fin 3) = 0 ∧ win1_13.index t (2 : Fin 3) = 0
    ∧ win1_14.index t (0 : Fin 3) = t.val / 5 ∧ win1_14.index t (1 : Fin 3) = 0 ∧ win1_14.index t (2 : Fin 3) = 0 :=
  (by decide +kernel : ∀ t : Fin grid1.N, _)

/-- Window 0's block at point `t` is rows `5000 t … 5000 t + 4999` of its array. -/
theorem b0_apply (t : Fin cfg1.N) (r : Fin 5000) (j : Fin 64) (n : Fin 50000) (hn : n.val = t.val * 5000 + r.val) :
    b0 V c t (ix2 r j) = rawA V c (ix2 n j) := by
  have hi := idx_facts1 t
  unfold b0 rawA iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * r.val = n.val; omega
  | ⟨1, _⟩ => show win1_0.index t (1 : Fin 2) * 64 + 1 * j.val = j.val; omega

/-- Window 1's block at point `t` is rows `5000 t … 5000 t + 4999` of its array. -/
theorem b1_apply (t : Fin cfg1.N) (r : Fin 5000) (j : Fin 64) (n : Fin 50000) (hn : n.val = t.val * 5000 + r.val) :
    b1 V c t (ix2 r j) = aggA V c (ix2 n j) := by
  have hi := idx_facts1 t
  unfold b1 aggA iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * r.val = n.val; omega
  | ⟨1, _⟩ => show win1_1.index t (1 : Fin 2) * 64 + 1 * j.val = j.val; omega

/-- Window 2's block at point `t` is rows `5000 t … 5000 t + 4999` of its array. -/
theorem b2_apply (t : Fin cfg1.N) (r : Fin 5000) (j : Fin 1) (n : Fin 50000) (hn : n.val = t.val * 5000 + r.val) :
    b2 V c t (ix2 r j) = degA V c (ix2 n j) := by
  have hi := idx_facts1 t
  unfold b2 degA iblk1
  rw [View.read_apply]
  show V c (Pipeline.arrRef spec1 2) _ = V c (Pipeline.arrRef spec1 2) _
  congr 1
  funext a
  apply Fin.ext
  match a with
  | ⟨0, _⟩ => show win1_2.index t (0 : Fin 2) * 5000 + 1 * r.val = n.val; omega
  | ⟨1, _⟩ => show win1_2.index t (1 : Fin 2) * 1 + 1 * j.val = j.val; omega

/-- Window 5's block at point `t` is rows `5000 t … 5000 t + 4999` of its array. -/
theorem b5_apply (t : Fin cfg1.N) (r : Fin 5000) (j : Fin 1) (n : Fin 50000) (hn : n.val = t.val * 5000 + r.val) :
    b5 V c t (ix2 r j) = batA V c (ix2 n j) := by
  have hi := idx_facts1 t
  unfold b5 batA iblk1
  rw [View.read_apply]
  show V c (Pipeline.arrRef spec1 5) _ = V c (Pipeline.arrRef spec1 5) _
  congr 1
  funext a
  apply Fin.ext
  match a with
  | ⟨0, _⟩ => show win1_5.index t (0 : Fin 2) * 5000 + 1 * r.val = n.val; omega
  | ⟨1, _⟩ => show win1_5.index t (1 : Fin 2) * 1 + 1 * j.val = j.val; omega

/-- Window 3's block at any point is its whole array. -/
theorem b3_apply (t : Fin cfg1.N) (k : S1x64.Idx) : b3 V c t k = sA V c k := by
  have hi := idx_facts1 t
  unfold b3 sA iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (k 0).val = (k 0).val; omega
  | ⟨1, _⟩ => show win1_3.index t (1 : Fin 2) * 64 + 1 * (k 1).val = (k 1).val; omega

/-- Window 4's block at any point is its whole array. -/
theorem b4_apply (t : Fin cfg1.N) (k : S1x64.Idx) : b4 V c t k = tA V c k := by
  have hi := idx_facts1 t
  unfold b4 tA iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (k 0).val = (k 0).val; omega
  | ⟨1, _⟩ => show win1_4.index t (1 : Fin 2) * 64 + 1 * (k 1).val = (k 1).val; omega

/-- Window 6's block at any point is its whole array. -/
theorem b6_apply (t : Fin cfg1.N) (k : S64x64.Idx) : b6 V c t k = w1A V c k := by
  have hi := idx_facts1 t
  unfold b6 w1A iblk1
  rw [View.read_apply]
  show V c (Pipeline.arrRef spec1 6) _ = V c (Pipeline.arrRef spec1 6) _
  congr 1
  funext a
  apply Fin.ext
  match a with
  | ⟨0, _⟩ => show win1_6.index t (0 : Fin 2) * 64 + 1 * (k 0).val = (k 0).val; omega
  | ⟨1, _⟩ => show win1_6.index t (1 : Fin 2) * 64 + 1 * (k 1).val = (k 1).val; omega

/-- Window 7's block at any point is its whole array. -/
theorem b7_apply (t : Fin cfg1.N) (k : S1x64.Idx) : b7 V c t k = b1A V c k := by
  have hi := idx_facts1 t
  unfold b7 b1A iblk1
  rw [View.read_apply]
  show V c (Pipeline.arrRef spec1 7) _ = V c (Pipeline.arrRef spec1 7) _
  congr 1
  funext a
  apply Fin.ext
  match a with
  | ⟨0, _⟩ => show win1_7.index t (0 : Fin 2) * 1 + 1 * (k 0).val = (k 0).val; omega
  | ⟨1, _⟩ => show win1_7.index t (1 : Fin 2) * 64 + 1 * (k 1).val = (k 1).val; omega

/-- Window 8's block at any point is its whole array. -/
theorem b8_apply (t : Fin cfg1.N) (k : S64x64.Idx) : b8 V c t k = w2A V c k := by
  have hi := idx_facts1 t
  unfold b8 w2A iblk1
  rw [View.read_apply]
  show V c (Pipeline.arrRef spec1 8) _ = V c (Pipeline.arrRef spec1 8) _
  congr 1
  funext a
  apply Fin.ext
  match a with
  | ⟨0, _⟩ => show win1_8.index t (0 : Fin 2) * 64 + 1 * (k 0).val = (k 0).val; omega
  | ⟨1, _⟩ => show win1_8.index t (1 : Fin 2) * 64 + 1 * (k 1).val = (k 1).val; omega

/-- Window 9's block at any point is its whole array. -/
theorem b9_apply (t : Fin cfg1.N) (k : S1x64.Idx) : b9 V c t k = b2A V c k := by
  have hi := idx_facts1 t
  unfold b9 b2A iblk1
  rw [View.read_apply]
  show V c (Pipeline.arrRef spec1 9) _ = V c (Pipeline.arrRef spec1 9) _
  congr 1
  funext a
  apply Fin.ext
  match a with
  | ⟨0, _⟩ => show win1_9.index t (0 : Fin 2) * 1 + 1 * (k 0).val = (k 0).val; omega
  | ⟨1, _⟩ => show win1_9.index t (1 : Fin 2) * 64 + 1 * (k 1).val = (k 1).val; omega

/-- The second layer's output on tile `t`, row `r`, is its output at node `5000 t + r`. -/
theorem hpT_eq (t : Fin cfg1.N) (r : Fin 5000) (k : Fin 64) (n : Fin 50000) (hn : n.val = t.val * 5000 + r.val) :
    hpT (b0 V c t) (b1 V c t) (b2 V c t) (b3 V c t) (b4 V c t) (b6 V c t) (b7 V c t) (b8 V c t) (b9 V c t) r k = hpost (rawA V c) (aggA V c) (degA V c) (sA V c) (tA V c) (w1A V c) (b1A V c) (w2A V c) (b2A V c) n k := by
  unfold hpT hpost h1T h1 xinT xin
  simp only [b0_apply V c t r _ n hn, b1_apply V c t r _ n hn, b2_apply V c t r _ n hn, b3_apply V c t, b4_apply V c t,
    b6_apply V c t, b7_apply V c t, b8_apply V c t, b9_apply V c t]

/-- The one-hot word of tile `t`'s row `r` is that of node `5000 t + r`. -/
theorem ohw_eq (t : Fin cfg1.N) (r : Fin 5000) (g : Fin 256) (n : Fin 50000) (hn : n.val = t.val * 5000 + r.val) :
    ohw (b5 V c t (ix2 r 0)) g = oh (batA V c) n g := by
  unfold ohw oh
  rw [b5_apply V c t r 0 n hn]

/-! ## What the written windows hold after a point -/

/-- Window 10 after any point: the second layer's output on the point's tile. -/
theorem at10 (t : Fin cfg1.N) (r : Fin 5000) (k : Fin 64) :
    (outsAt1 V c t.val t.isLt).1 (ix2 r k) = hpT (b0 V c t) (b1 V c t) (b2 V c t) (b3 V c t) (b4 V c t) (b6 V c t) (b7 V c t) (b8 V c t) (b9 V c t) r k := by
  by_cases h0 : t.val % 5 = 0
  · rw [outsAt1_A V c t h0]
    dsimp only
    refine (congrFun (out1_A_10_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (ix2 r k)).trans ?_
    exact hp_apply (b0 V c t) (b1 V c t) (b2 V c t) (b3 V c t) (b4 V c t) (b6 V c t) (b7 V c t) (b8 V c t) (b9 V c t) r k
  · rw [outsAt1_B V c t h0]
    dsimp only
    refine (congrFun (out1_B_10_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 r k)).trans ?_
    exact hp_apply (b0 V c t) (b1 V c t) (b2 V c t) (b3 V c t) (b4 V c t) (b6 V c t) (b7 V c t) (b8 V c t) (b9 V c t) r k

/-- The addends of the four accumulators at point `t`. -/
def add11 (t : Fin cfg1.N) (k : Fin 64) : EReal := ∑ r : Fin 5000, hpT (b0 V c t) (b1 V c t) (b2 V c t) (b3 V c t) (b4 V c t) (b6 V c t) (b7 V c t) (b8 V c t) (b9 V c t) r k
def add12 (t : Fin cfg1.N) (k : Fin 64) : EReal := ∑ r : Fin 5000, hpT (b0 V c t) (b1 V c t) (b2 V c t) (b3 V c t) (b4 V c t) (b6 V c t) (b7 V c t) (b8 V c t) (b9 V c t) r k * hpT (b0 V c t) (b1 V c t) (b2 V c t) (b3 V c t) (b4 V c t) (b6 V c t) (b7 V c t) (b8 V c t) (b9 V c t) r k
def add13 (t : Fin cfg1.N) (g : Fin 256) (k : Fin 64) : EReal := ∑ r : Fin 5000, ohw (b5 V c t (ix2 r 0)) g * hpT (b0 V c t) (b1 V c t) (b2 V c t) (b3 V c t) (b4 V c t) (b6 V c t) (b7 V c t) (b8 V c t) (b9 V c t) r k
def add14 (t : Fin cfg1.N) (g : Fin 256) : EReal := ∑ r : Fin 5000, ohw (b5 V c t (ix2 r 0)) g

theorem sum_at (t : Fin cfg1.N) (v43 : Vec Ideal S1x1x64 .f32) (k : Fin 64) :
    k1_pay10 (F := Ideal) (k1_pay7 (b3 V c t) (b0 V c t) (b1 V c t) (b4 V c t) (b2 V c t) (b6 V c t) (b7 V c t)) (k1_pay8 (b8 V c t)) (constant (F := Ideal) S5000x64 .f32 0x00000000#32) (b9 V c t) v43 (ix3 0 0 k) = v43 (ix3 0 0 k) + add11 V c t k := by
  refine (pay10_apply _ _ _ _ v43 k).trans ?_
  unfold add11
  exact congrArg (v43 (ix3 0 0 k) + ·) (Finset.sum_congr rfl fun r _ => hp_apply (b0 V c t) (b1 V c t) (b2 V c t) (b3 V c t) (b4 V c t) (b6 V c t) (b7 V c t) (b8 V c t) (b9 V c t) r k)

theorem sumsq_at (t : Fin cfg1.N) (v51 : Vec Ideal S1x1x64 .f32) (k : Fin 64) :
    k1_pay11 (F := Ideal) (k1_pay7 (b3 V c t) (b0 V c t) (b1 V c t) (b4 V c t) (b2 V c t) (b6 V c t) (b7 V c t)) (k1_pay8 (b8 V c t)) (constant (F := Ideal) S5000x64 .f32 0x00000000#32) (b9 V c t) v51 (ix3 0 0 k) = v51 (ix3 0 0 k) + add12 V c t k := by
  refine (pay11_apply _ _ _ _ v51 k).trans ?_
  unfold add12
  exact congrArg (v51 (ix3 0 0 k) + ·) (Finset.sum_congr rfl fun r _ => by rw [hp_apply (b0 V c t) (b1 V c t) (b2 V c t) (b3 V c t) (b4 V c t) (b6 V c t) (b7 V c t) (b8 V c t) (b9 V c t) r k])

theorem pool_at (t : Fin cfg1.N) (v68 : Vec Ideal S1x256x64 .f32) (g : Fin 256) (k : Fin 64) :
    k1_pay1 (F := Ideal) (k1_pay13 (k1_pay7 (b3 V c t) (b0 V c t) (b1 V c t) (b4 V c t) (b2 V c t) (b6 V c t) (b7 V c t)) (k1_pay8 (b8 V c t)) (constant (F := Ideal) S5000x64 .f32 0x00000000#32) (b9 V c t) (b5 V c t)) v68 (ix3 0 g k) = v68 (ix3 0 g k) + add13 V c t g k := by
  refine (pay1_apply _ v68 g k).trans ?_
  unfold add13
  refine congrArg (v68 (ix3 0 g k) + ·) ((pay13_apply _ _ _ _ (b5 V c t) g k).trans ?_)
  exact Finset.sum_congr rfl fun r _ => congrArg (ohw (b5 V c t (ix2 r 0)) g * ·) (hp_apply (b0 V c t) (b1 V c t) (b2 V c t) (b3 V c t) (b4 V c t) (b6 V c t) (b7 V c t) (b8 V c t) (b9 V c t) r k)

theorem cnt_at (t : Fin cfg1.N) (v74 : Vec Ideal S1x1x256 .f32) (g : Fin 256) :
    k1_pay2 (F := Ideal) (k1_pay12 (b5 V c t)) v74 (ix3 0 0 g) = v74 (ix3 0 0 g) + add14 V c t g := by
  refine (pay2_apply _ v74 g).trans ?_
  unfold add14
  exact congrArg (v74 (ix3 0 0 g) + ·) (Finset.sum_congr rfl fun r _ => pay12_apply (b5 V c t) r g)

/-- Window 11 after a core's first point: the zero fill plus the point's addend. -/
theorem base11 (t : Fin cfg1.N) (h0 : t.val % 5 = 0) (k : Fin 64) :
    (outsAt1 V c t.val t.isLt).2.1 (ix3 0 0 k) = Ideal.ofBits .f32 0x00000000#32 + add11 V c t k := by
  rw [outsAt1_A V c t h0]
  dsimp only
  refine (congrFun (out1_A_11_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (ix3 0 0 k)).trans ?_
  exact sum_at V c t (k1_pay3 (F := Ideal)) k

/-- Window 11 after a later point: what the point before left plus the point's addend. -/
theorem step11 (t : Fin cfg1.N) (h0 : ¬t.val % 5 = 0) (k : Fin 64) :
    (outsAt1 V c t.val t.isLt).2.1 (ix3 0 0 k)
      = (outsAt1 V c (t.val - 1) (Nat.lt_of_le_of_lt (Nat.sub_le _ _) t.isLt)).2.1 (ix3 0 0 k) + add11 V c t k := by
  rw [outsAt1_B V c t h0]
  dsimp only
  refine (congrFun (out1_B_11_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix3 0 0 k)).trans ?_
  exact sum_at V c t _ k

/-- Window 12 after a core's first point: the zero fill plus the point's addend. -/
theorem base12 (t : Fin cfg1.N) (h0 : t.val % 5 = 0) (k : Fin 64) :
    (outsAt1 V c t.val t.isLt).2.2.1 (ix3 0 0 k) = Ideal.ofBits .f32 0x00000000#32 + add12 V c t k := by
  rw [outsAt1_A V c t h0]
  dsimp only
  refine (congrFun (out1_A_12_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (ix3 0 0 k)).trans ?_
  exact sumsq_at V c t (k1_pay4 (F := Ideal)) k

/-- Window 12 after a later point: what the point before left plus the point's addend. -/
theorem step12 (t : Fin cfg1.N) (h0 : ¬t.val % 5 = 0) (k : Fin 64) :
    (outsAt1 V c t.val t.isLt).2.2.1 (ix3 0 0 k)
      = (outsAt1 V c (t.val - 1) (Nat.lt_of_le_of_lt (Nat.sub_le _ _) t.isLt)).2.2.1 (ix3 0 0 k) + add12 V c t k := by
  rw [outsAt1_B V c t h0]
  dsimp only
  refine (congrFun (out1_B_12_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix3 0 0 k)).trans ?_
  exact sumsq_at V c t _ k

/-- Window 13 after a core's first point: the zero fill plus the point's addend. -/
theorem base13 (t : Fin cfg1.N) (h0 : t.val % 5 = 0) (g : Fin 256) (k : Fin 64) :
    (outsAt1 V c t.val t.isLt).2.2.2.1 (ix3 0 g k) = Ideal.ofBits .f32 0x00000000#32 + add13 V c t g k := by
  rw [outsAt1_A V c t h0]
  dsimp only
  refine (congrFun (out1_A_13_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (ix3 0 g k)).trans ?_
  exact pool_at V c t (k1_pay5 (F := Ideal)) g k

/-- Window 13 after a later point: what the point before left plus the point's addend. -/
theorem step13 (t : Fin cfg1.N) (h0 : ¬t.val % 5 = 0) (g : Fin 256) (k : Fin 64) :
    (outsAt1 V c t.val t.isLt).2.2.2.1 (ix3 0 g k)
      = (outsAt1 V c (t.val - 1) (Nat.lt_of_le_of_lt (Nat.sub_le _ _) t.isLt)).2.2.2.1 (ix3 0 g k) + add13 V c t g k := by
  rw [outsAt1_B V c t h0]
  dsimp only
  refine (congrFun (out1_B_13_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix3 0 g k)).trans ?_
  exact pool_at V c t _ g k

/-- Window 14 after a core's first point: the zero fill plus the point's addend. -/
theorem base14 (t : Fin cfg1.N) (h0 : t.val % 5 = 0) (g : Fin 256) :
    (outsAt1 V c t.val t.isLt).2.2.2.2 (ix3 0 0 g) = Ideal.ofBits .f32 0x00000000#32 + add14 V c t g := by
  rw [outsAt1_A V c t h0]
  dsimp only
  refine (congrFun (out1_A_14_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (ix3 0 0 g)).trans ?_
  exact cnt_at V c t (k1_pay6 (F := Ideal)) g

/-- Window 14 after a later point: what the point before left plus the point's addend. -/
theorem step14 (t : Fin cfg1.N) (h0 : ¬t.val % 5 = 0) (g : Fin 256) :
    (outsAt1 V c t.val t.isLt).2.2.2.2 (ix3 0 0 g)
      = (outsAt1 V c (t.val - 1) (Nat.lt_of_le_of_lt (Nat.sub_le _ _) t.isLt)).2.2.2.2 (ix3 0 0 g) + add14 V c t g := by
  rw [outsAt1_B V c t h0]
  dsimp only
  refine (congrFun (out1_B_14_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix3 0 0 g)).trans ?_
  exact cnt_at V c t _ g

/-! ## The accumulation over a core's five points -/

/-- A quantity that starts at `z` plus its addend at a core's first point and grows by its addend at each later point
    is, `j` points on, `z` plus the sum of the addends so far. -/
theorem acc_closed (f M : (n : ℕ) → n < cfg1.N → EReal) (z : EReal)
    (hb : ∀ (n : ℕ) (h : n < cfg1.N), n % 5 = 0 → f n h = z + M n h)
    (hs : ∀ (n : ℕ) (h : n + 1 < cfg1.N), ¬(n + 1) % 5 = 0 → f (n + 1) h = f n (Nat.lt_of_succ_lt h) + M (n + 1) h)
    (q : ℕ) : ∀ (j : ℕ) (hj : j < 5) (h : 5 * q + j < cfg1.N),
      f (5 * q + j) h = z + ∑ s : Fin (j + 1), M (5 * q + s.val) (Nat.lt_of_le_of_lt (Nat.add_le_add_left (Nat.le_of_lt_succ s.isLt) _) h)
  | 0, _, h => by
    rw [Fin.sum_univ_one]
    exact hb (5 * q + 0) h (by omega)
  | j + 1, hj, h => by
    rw [Fin.sum_univ_castSucc]
    have ih := acc_closed f M z hb hs q j (by omega) (Nat.lt_of_succ_lt h)
    exact ((hs (5 * q + j) h (by omega)).trans (congrArg (· + M (5 * q + (j + 1)) h) ih)).trans (add_assoc _ _ _)

theorem hN1 : cfg1.N = 10 := N_1

/-- The last point of core `q`. -/
def lastPt (q : Fin 2) : Fin cfg1.N := ⟨5 * q.val + 4, by rw [hN1]; have := q.isLt; omega⟩
/-- Point `i` of core `q`. -/
def ptOf (q : Fin 2) (i : Fin 5) : Fin cfg1.N := ⟨5 * q.val + i.val, by rw [hN1]; have := q.isLt; have := i.isLt; omega⟩

/-- Window 11 after core `q`'s last point: the zero fill plus the five points' addends. -/
theorem last11 (q : Fin 2) (k : Fin 64) :
    (outsAt1 V c (lastPt q).val (lastPt q).isLt).2.1 (ix3 0 0 k) = Ideal.ofBits .f32 0x00000000#32 + ∑ i : Fin 5, add11 V c (ptOf q i) k :=
  acc_closed (fun n h => (outsAt1 V c n h).2.1 (ix3 0 0 k)) (fun n h => add11 V c ⟨n, h⟩ k) (Ideal.ofBits .f32 0x00000000#32)
    (fun n h h0 => base11 V c ⟨n, h⟩ h0 k)
    (fun n h h0 => step11 V c ⟨n + 1, h⟩ h0 k)
    q.val 4 (by omega) (lastPt q).isLt

/-- Window 12 after core `q`'s last point: the zero fill plus the five points' addends. -/
theorem last12 (q : Fin 2) (k : Fin 64) :
    (outsAt1 V c (lastPt q).val (lastPt q).isLt).2.2.1 (ix3 0 0 k) = Ideal.ofBits .f32 0x00000000#32 + ∑ i : Fin 5, add12 V c (ptOf q i) k :=
  acc_closed (fun n h => (outsAt1 V c n h).2.2.1 (ix3 0 0 k)) (fun n h => add12 V c ⟨n, h⟩ k) (Ideal.ofBits .f32 0x00000000#32)
    (fun n h h0 => base12 V c ⟨n, h⟩ h0 k)
    (fun n h h0 => step12 V c ⟨n + 1, h⟩ h0 k)
    q.val 4 (by omega) (lastPt q).isLt

/-- Window 13 after core `q`'s last point: the zero fill plus the five points' addends. -/
theorem last13 (q : Fin 2) (g : Fin 256) (k : Fin 64) :
    (outsAt1 V c (lastPt q).val (lastPt q).isLt).2.2.2.1 (ix3 0 g k) = Ideal.ofBits .f32 0x00000000#32 + ∑ i : Fin 5, add13 V c (ptOf q i) g k :=
  acc_closed (fun n h => (outsAt1 V c n h).2.2.2.1 (ix3 0 g k)) (fun n h => add13 V c ⟨n, h⟩ g k) (Ideal.ofBits .f32 0x00000000#32)
    (fun n h h0 => base13 V c ⟨n, h⟩ h0 g k)
    (fun n h h0 => step13 V c ⟨n + 1, h⟩ h0 g k)
    q.val 4 (by omega) (lastPt q).isLt

/-- Window 14 after core `q`'s last point: the zero fill plus the five points' addends. -/
theorem last14 (q : Fin 2) (g : Fin 256) :
    (outsAt1 V c (lastPt q).val (lastPt q).isLt).2.2.2.2 (ix3 0 0 g) = Ideal.ofBits .f32 0x00000000#32 + ∑ i : Fin 5, add14 V c (ptOf q i) g :=
  acc_closed (fun n h => (outsAt1 V c n h).2.2.2.2 (ix3 0 0 g)) (fun n h => add14 V c ⟨n, h⟩ g) (Ideal.ofBits .f32 0x00000000#32)
    (fun n h h0 => base14 V c ⟨n, h⟩ h0 g)
    (fun n h h0 => step14 V c ⟨n + 1, h⟩ h0 g)
    q.val 4 (by omega) (lastPt q).isLt

/-- Tile `ptOf q i`'s row `r` is node `rowOf q i r`. -/
theorem row_pt (q : Fin 2) (i : Fin 5) (r : Fin 5000) : (rowOf q i r).val = (ptOf q i).val * 5000 + r.val := rfl

theorem add11_eq (q : Fin 2) (i : Fin 5) (k : Fin 64) :
    add11 V c (ptOf q i) k = ∑ r : Fin 5000, hpost (rawA V c) (aggA V c) (degA V c) (sA V c) (tA V c) (w1A V c) (b1A V c) (w2A V c) (b2A V c) (rowOf q i r) k := by
  unfold add11
  exact Finset.sum_congr rfl fun r _ => hpT_eq V c (ptOf q i) r k (rowOf q i r) (row_pt q i r)

theorem add12_eq (q : Fin 2) (i : Fin 5) (k : Fin 64) :
    add12 V c (ptOf q i) k = ∑ r : Fin 5000, hpost (rawA V c) (aggA V c) (degA V c) (sA V c) (tA V c) (w1A V c) (b1A V c) (w2A V c) (b2A V c) (rowOf q i r) k * hpost (rawA V c) (aggA V c) (degA V c) (sA V c) (tA V c) (w1A V c) (b1A V c) (w2A V c) (b2A V c) (rowOf q i r) k := by
  unfold add12
  exact Finset.sum_congr rfl fun r _ => by rw [hpT_eq V c (ptOf q i) r k (rowOf q i r) (row_pt q i r)]

theorem add13_eq (q : Fin 2) (i : Fin 5) (g : Fin 256) (k : Fin 64) :
    add13 V c (ptOf q i) g k = ∑ r : Fin 5000, oh (batA V c) (rowOf q i r) g * hpost (rawA V c) (aggA V c) (degA V c) (sA V c) (tA V c) (w1A V c) (b1A V c) (w2A V c) (b2A V c) (rowOf q i r) k := by
  unfold add13
  exact Finset.sum_congr rfl fun r _ => by
    rw [hpT_eq V c (ptOf q i) r k (rowOf q i r) (row_pt q i r), ohw_eq V c (ptOf q i) r g (rowOf q i r) (row_pt q i r)]

theorem add14_eq (q : Fin 2) (i : Fin 5) (g : Fin 256) :
    add14 V c (ptOf q i) g = ∑ r : Fin 5000, oh (batA V c) (rowOf q i r) g := by
  unfold add14
  exact Finset.sum_congr rfl fun r _ => ohw_eq V c (ptOf q i) r g (rowOf q i r) (row_pt q i r)

/-! ## What a point writes back, the cover, and the arrays -/

/-- Window 10: what point `t` writes back is block `t` of the second layer's output. -/
theorem flushed10_eq (t : Fin cfg1.N) :
    (dat1 V c).flushed 10 t = ((cfg1.win 10).blk t).view.read (Elt Ideal) (out10 (rawA V c) (aggA V c) (degA V c) (sA V c) (tA V c) (w1A V c) (b1A V c) (w2A V c) (b2A V c)) := by
  show (cfg1.win 10).cut (grid1.coords t) ((dat1 V c).after 10 t) = _
  rw [after1_10]
  have hi := idx_facts1 t
  funext j
  obtain ⟨r, k, rfl⟩ : ∃ (r : Fin 5000) (k : Fin 64), j = ix2 r k := ⟨j 0, j 1, eq_ix2 j⟩
  show (outsAt1 V c t.val t.isLt).1 (ix2 r k) = out10 (rawA V c) (aggA V c) (degA V c) (sA V c) (tA V c) (w1A V c) (b1A V c) (w2A V c) (b2A V c) (((cfg1.win 10).blk t).view.emb (ix2 r k))
  rw [at10 V c t r k]
  have h0 : ((((cfg1.win 10).blk t).view.emb (ix2 r k) : S50000x64.Idx) 0).val = t.val * 5000 + r.val := by
    show win1_10.index t (0 : Fin 2) * 5000 + 1 * r.val = _; omega
  have h1 : ((((cfg1.win 10).blk t).view.emb (ix2 r k) : S50000x64.Idx) 1) = k := Fin.ext (by
    show win1_10.index t (1 : Fin 2) * 64 + 1 * k.val = _; omega)
  unfold out10
  rw [h1]
  exact hpT_eq V c t r k _ h0

theorem mem_blk10 (t : Fin cfg1.N) (i : S50000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole (Pipeline.arrRef spec1 10)).slice (win1_10.rect t)).set ↔ _
  rw [View.set_slice_whole, Rect.mem_set_unit]
  exact Iff.rfl

/-- Every node's row is in the block of the point `row / 5000`; every point writes window 10 back. -/
theorem covered10 (i : S50000x64.Idx) :
    ∃ t : Fin cfg1.N, (cfg1.win 10).flush t = true ∧ i ∈ ((cfg1.win 10).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  have hi := idx_facts1 t
  refine ⟨t, flush1_10 t, ?_⟩
  rw [mem_blk10]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 64 ≤ (i 1).val ∧ (i 1).val < win1_10.index t (1 : Fin 2) * 64 + 64; omega

/-- The second layer's output array after the region. -/
theorem final1_10 : (dat1 (F := Ideal) V c).arrAt 10 cfg1.N = out10 (rawA V c) (aggA V c) (degA V c) (sA V c) (tA V c) (w1A V c) (b1A V c) (w2A V c) (b2A V c) :=
  (dat1 V c).arrAt_eq_of_cover 10 (out10 (rawA V c) (aggA V c) (degA V c) (sA V c) (tA V c) (w1A V c) (b1A V c) (w2A V c) (b2A V c)) (fun t _ => flushed10_eq V c t) covered10

/-- Window 11: what a core's last point writes back is the core's block of the closed form. -/
theorem flushed11_eq (t : Fin cfg1.N) (hf : (cfg1.win 11).flush t = true) :
    (dat1 V c).flushed 11 t = ((cfg1.win 11).blk t).view.read (Elt Ideal) (out11 (rawA V c) (aggA V c) (degA V c) (sA V c) (tA V c) (w1A V c) (b1A V c) (w2A V c) (b2A V c)) := by
  have hN : cfg1.N = 10 := N_1
  have h4 : t.val % 5 = 4 := (flush1_11 t).mp hf
  obtain ⟨q, rfl⟩ : ∃ q : Fin 2, t = lastPt q := ⟨⟨t.val / 5, by have := t.isLt; omega⟩, Fin.ext (by show t.val = 5 * (t.val / 5) + 4; omega)⟩
  show (cfg1.win 11).cut (grid1.coords (lastPt q)) ((dat1 V c).after 11 (lastPt q)) = _
  rw [after1_11]
  have hi := idx_facts1' (lastPt q)
  have hq : (lastPt q).val / 5 = q.val := by show (5 * q.val + 4) / 5 = q.val; omega
  funext j
  obtain ⟨u, v, k, rfl⟩ : ∃ (u v : Fin 1) (k : Fin 64), j = ix3 u v k := ⟨j 0, j 1, j 2, eq_ix3 j⟩
  obtain rfl : u = 0 := Subsingleton.elim _ _
  obtain rfl : v = 0 := Subsingleton.elim _ _
  show (outsAt1 V c (lastPt q).val (lastPt q).isLt).2.1 (ix3 0 0 k) = out11 (rawA V c) (aggA V c) (degA V c) (sA V c) (tA V c) (w1A V c) (b1A V c) (w2A V c) (b2A V c) (((cfg1.win 11).blk (lastPt q)).view.emb (ix3 0 0 k))
  rw [last11 V c q k]
  have e0 : ((((cfg1.win 11).blk (lastPt q)).view.emb (ix3 0 0 k) : S2x1x64.Idx) 0) = q := Fin.ext (by
    show win1_11.index (lastPt q) (0 : Fin 3) * 1 + 1 * (0 : Fin 1).val = _; omega)

  have e2 : ((((cfg1.win 11).blk (lastPt q)).view.emb (ix3 0 0 k) : S2x1x64.Idx) 2) = k := Fin.ext (by
    show win1_11.index (lastPt q) (2 : Fin 3) * 64 + 1 * k.val = _; omega)
  unfold out11 sumOf
  rw [e0, e2]
  exact congrArg (Ideal.ofBits .f32 0x00000000#32 + ·) (Finset.sum_congr rfl fun i _ => add11_eq V c q i k)

theorem mem_blk11 (t : Fin cfg1.N) (i : S2x1x64.Idx) :
    i ∈ ((cfg1.win 11).blk t).view.set ↔ ∀ a : Fin 3, win1_11.index t a * S1x1x64.size a ≤ (i a).val ∧ (i a).val < win1_11.index t a * S1x1x64.size a + S1x1x64.size a := by
  show i ∈ ((View.whole (Pipeline.arrRef spec1 11)).slice (win1_11.rect t)).set ↔ _
  rw [View.set_slice_whole, Rect.mem_set_unit]
  exact Iff.rfl

/-- Every index of window 11's array is in the block its core's last point writes back. -/
theorem covered11 (i : S2x1x64.Idx) :
    ∃ t : Fin cfg1.N, (cfg1.win 11).flush t = true ∧ i ∈ ((cfg1.win 11).blk t).view.set := by
  have hi0 : (i 0).val < 2 := (i 0).isLt
  have hi1 : (i 1).val < 1 := (i 1).isLt
  have hi2 : (i 2).val < 64 := (i 2).isLt
  have hN : cfg1.N = 10 := N_1
  obtain ⟨t, ht⟩ : ∃ t : Fin cfg1.N, t.val = 5 * (i 0).val + 4 := ⟨⟨5 * (i 0).val + 4, by rw [hN]; omega⟩, rfl⟩
  have hi := idx_facts1' t
  refine ⟨t, (flush1_11 t).mpr (by omega), ?_⟩
  rw [mem_blk11]
  intro a
  match a with
  | ⟨0, _⟩ => show win1_11.index t (0 : Fin 3) * 1 ≤ (i 0).val ∧ (i 0).val < win1_11.index t (0 : Fin 3) * 1 + 1; omega
  | ⟨1, _⟩ => show win1_11.index t (1 : Fin 3) * 1 ≤ (i 1).val ∧ (i 1).val < win1_11.index t (1 : Fin 3) * 1 + 1; omega
  | ⟨2, _⟩ => show win1_11.index t (2 : Fin 3) * 64 ≤ (i 2).val ∧ (i 2).val < win1_11.index t (2 : Fin 3) * 64 + 64; omega

/-- Window 11's array after the region. -/
theorem final1_11 : (dat1 (F := Ideal) V c).arrAt 11 cfg1.N = out11 (rawA V c) (aggA V c) (degA V c) (sA V c) (tA V c) (w1A V c) (b1A V c) (w2A V c) (b2A V c) :=
  (dat1 V c).arrAt_eq_of_cover 11 (out11 (rawA V c) (aggA V c) (degA V c) (sA V c) (tA V c) (w1A V c) (b1A V c) (w2A V c) (b2A V c)) (flushed11_eq V c) covered11

/-- Window 12: what a core's last point writes back is the core's block of the closed form. -/
theorem flushed12_eq (t : Fin cfg1.N) (hf : (cfg1.win 12).flush t = true) :
    (dat1 V c).flushed 12 t = ((cfg1.win 12).blk t).view.read (Elt Ideal) (out12 (rawA V c) (aggA V c) (degA V c) (sA V c) (tA V c) (w1A V c) (b1A V c) (w2A V c) (b2A V c)) := by
  have hN : cfg1.N = 10 := N_1
  have h4 : t.val % 5 = 4 := (flush1_12 t).mp hf
  obtain ⟨q, rfl⟩ : ∃ q : Fin 2, t = lastPt q := ⟨⟨t.val / 5, by have := t.isLt; omega⟩, Fin.ext (by show t.val = 5 * (t.val / 5) + 4; omega)⟩
  show (cfg1.win 12).cut (grid1.coords (lastPt q)) ((dat1 V c).after 12 (lastPt q)) = _
  rw [after1_12]
  have hi := idx_facts1' (lastPt q)
  have hq : (lastPt q).val / 5 = q.val := by show (5 * q.val + 4) / 5 = q.val; omega
  funext j
  obtain ⟨u, v, k, rfl⟩ : ∃ (u v : Fin 1) (k : Fin 64), j = ix3 u v k := ⟨j 0, j 1, j 2, eq_ix3 j⟩
  obtain rfl : u = 0 := Subsingleton.elim _ _
  obtain rfl : v = 0 := Subsingleton.elim _ _
  show (outsAt1 V c (lastPt q).val (lastPt q).isLt).2.2.1 (ix3 0 0 k) = out12 (rawA V c) (aggA V c) (degA V c) (sA V c) (tA V c) (w1A V c) (b1A V c) (w2A V c) (b2A V c) (((cfg1.win 12).blk (lastPt q)).view.emb (ix3 0 0 k))
  rw [last12 V c q k]
  have e0 : ((((cfg1.win 12).blk (lastPt q)).view.emb (ix3 0 0 k) : S2x1x64.Idx) 0) = q := Fin.ext (by
    show win1_12.index (lastPt q) (0 : Fin 3) * 1 + 1 * (0 : Fin 1).val = _; omega)

  have e2 : ((((cfg1.win 12).blk (lastPt q)).view.emb (ix3 0 0 k) : S2x1x64.Idx) 2) = k := Fin.ext (by
    show win1_12.index (lastPt q) (2 : Fin 3) * 64 + 1 * k.val = _; omega)
  unfold out12 sumsqOf
  rw [e0, e2]
  exact congrArg (Ideal.ofBits .f32 0x00000000#32 + ·) (Finset.sum_congr rfl fun i _ => add12_eq V c q i k)

theorem mem_blk12 (t : Fin cfg1.N) (i : S2x1x64.Idx) :
    i ∈ ((cfg1.win 12).blk t).view.set ↔ ∀ a : Fin 3, win1_12.index t a * S1x1x64.size a ≤ (i a).val ∧ (i a).val < win1_12.index t a * S1x1x64.size a + S1x1x64.size a := by
  show i ∈ ((View.whole (Pipeline.arrRef spec1 12)).slice (win1_12.rect t)).set ↔ _
  rw [View.set_slice_whole, Rect.mem_set_unit]
  exact Iff.rfl

/-- Every index of window 12's array is in the block its core's last point writes back. -/
theorem covered12 (i : S2x1x64.Idx) :
    ∃ t : Fin cfg1.N, (cfg1.win 12).flush t = true ∧ i ∈ ((cfg1.win 12).blk t).view.set := by
  have hi0 : (i 0).val < 2 := (i 0).isLt
  have hi1 : (i 1).val < 1 := (i 1).isLt
  have hi2 : (i 2).val < 64 := (i 2).isLt
  have hN : cfg1.N = 10 := N_1
  obtain ⟨t, ht⟩ : ∃ t : Fin cfg1.N, t.val = 5 * (i 0).val + 4 := ⟨⟨5 * (i 0).val + 4, by rw [hN]; omega⟩, rfl⟩
  have hi := idx_facts1' t
  refine ⟨t, (flush1_12 t).mpr (by omega), ?_⟩
  rw [mem_blk12]
  intro a
  match a with
  | ⟨0, _⟩ => show win1_12.index t (0 : Fin 3) * 1 ≤ (i 0).val ∧ (i 0).val < win1_12.index t (0 : Fin 3) * 1 + 1; omega
  | ⟨1, _⟩ => show win1_12.index t (1 : Fin 3) * 1 ≤ (i 1).val ∧ (i 1).val < win1_12.index t (1 : Fin 3) * 1 + 1; omega
  | ⟨2, _⟩ => show win1_12.index t (2 : Fin 3) * 64 ≤ (i 2).val ∧ (i 2).val < win1_12.index t (2 : Fin 3) * 64 + 64; omega

/-- Window 12's array after the region. -/
theorem final1_12 : (dat1 (F := Ideal) V c).arrAt 12 cfg1.N = out12 (rawA V c) (aggA V c) (degA V c) (sA V c) (tA V c) (w1A V c) (b1A V c) (w2A V c) (b2A V c) :=
  (dat1 V c).arrAt_eq_of_cover 12 (out12 (rawA V c) (aggA V c) (degA V c) (sA V c) (tA V c) (w1A V c) (b1A V c) (w2A V c) (b2A V c)) (flushed12_eq V c) covered12

/-- Window 13: what a core's last point writes back is the core's block of the closed form. -/
theorem flushed13_eq (t : Fin cfg1.N) (hf : (cfg1.win 13).flush t = true) :
    (dat1 V c).flushed 13 t = ((cfg1.win 13).blk t).view.read (Elt Ideal) (out13 (rawA V c) (aggA V c) (degA V c) (sA V c) (tA V c) (batA V c) (w1A V c) (b1A V c) (w2A V c) (b2A V c)) := by
  have hN : cfg1.N = 10 := N_1
  have h4 : t.val % 5 = 4 := (flush1_13 t).mp hf
  obtain ⟨q, rfl⟩ : ∃ q : Fin 2, t = lastPt q := ⟨⟨t.val / 5, by have := t.isLt; omega⟩, Fin.ext (by show t.val = 5 * (t.val / 5) + 4; omega)⟩
  show (cfg1.win 13).cut (grid1.coords (lastPt q)) ((dat1 V c).after 13 (lastPt q)) = _
  rw [after1_13]
  have hi := idx_facts1' (lastPt q)
  have hq : (lastPt q).val / 5 = q.val := by show (5 * q.val + 4) / 5 = q.val; omega
  funext j
  obtain ⟨u, g, k, rfl⟩ : ∃ (u : Fin 1) (g : Fin 256) (k : Fin 64), j = ix3 u g k := ⟨j 0, j 1, j 2, eq_ix3 j⟩
  obtain rfl : u = 0 := Subsingleton.elim _ _
  show (outsAt1 V c (lastPt q).val (lastPt q).isLt).2.2.2.1 (ix3 0 g k) = out13 (rawA V c) (aggA V c) (degA V c) (sA V c) (tA V c) (batA V c) (w1A V c) (b1A V c) (w2A V c) (b2A V c) (((cfg1.win 13).blk (lastPt q)).view.emb (ix3 0 g k))
  rw [last13 V c q g k]
  have e0 : ((((cfg1.win 13).blk (lastPt q)).view.emb (ix3 0 g k) : S2x256x64.Idx) 0) = q := Fin.ext (by
    show win1_13.index (lastPt q) (0 : Fin 3) * 1 + 1 * (0 : Fin 1).val = _; omega)
  have e1 : ((((cfg1.win 13).blk (lastPt q)).view.emb (ix3 0 g k) : S2x256x64.Idx) 1) = g := Fin.ext (by
    show win1_13.index (lastPt q) (1 : Fin 3) * 256 + 1 * g.val = _; omega)
  have e2 : ((((cfg1.win 13).blk (lastPt q)).view.emb (ix3 0 g k) : S2x256x64.Idx) 2) = k := Fin.ext (by
    show win1_13.index (lastPt q) (2 : Fin 3) * 64 + 1 * k.val = _; omega)
  unfold out13 poolOf
  rw [e0, e1, e2]
  exact congrArg (Ideal.ofBits .f32 0x00000000#32 + ·) (Finset.sum_congr rfl fun i _ => add13_eq V c q i g k)

theorem mem_blk13 (t : Fin cfg1.N) (i : S2x256x64.Idx) :
    i ∈ ((cfg1.win 13).blk t).view.set ↔ ∀ a : Fin 3, win1_13.index t a * S1x256x64.size a ≤ (i a).val ∧ (i a).val < win1_13.index t a * S1x256x64.size a + S1x256x64.size a := by
  show i ∈ ((View.whole (Pipeline.arrRef spec1 13)).slice (win1_13.rect t)).set ↔ _
  rw [View.set_slice_whole, Rect.mem_set_unit]
  exact Iff.rfl

/-- Every index of window 13's array is in the block its core's last point writes back. -/
theorem covered13 (i : S2x256x64.Idx) :
    ∃ t : Fin cfg1.N, (cfg1.win 13).flush t = true ∧ i ∈ ((cfg1.win 13).blk t).view.set := by
  have hi0 : (i 0).val < 2 := (i 0).isLt
  have hi1 : (i 1).val < 256 := (i 1).isLt
  have hi2 : (i 2).val < 64 := (i 2).isLt
  have hN : cfg1.N = 10 := N_1
  obtain ⟨t, ht⟩ : ∃ t : Fin cfg1.N, t.val = 5 * (i 0).val + 4 := ⟨⟨5 * (i 0).val + 4, by rw [hN]; omega⟩, rfl⟩
  have hi := idx_facts1' t
  refine ⟨t, (flush1_13 t).mpr (by omega), ?_⟩
  rw [mem_blk13]
  intro a
  match a with
  | ⟨0, _⟩ => show win1_13.index t (0 : Fin 3) * 1 ≤ (i 0).val ∧ (i 0).val < win1_13.index t (0 : Fin 3) * 1 + 1; omega
  | ⟨1, _⟩ => show win1_13.index t (1 : Fin 3) * 256 ≤ (i 1).val ∧ (i 1).val < win1_13.index t (1 : Fin 3) * 256 + 256; omega
  | ⟨2, _⟩ => show win1_13.index t (2 : Fin 3) * 64 ≤ (i 2).val ∧ (i 2).val < win1_13.index t (2 : Fin 3) * 64 + 64; omega

/-- Window 13's array after the region. -/
theorem final1_13 : (dat1 (F := Ideal) V c).arrAt 13 cfg1.N = out13 (rawA V c) (aggA V c) (degA V c) (sA V c) (tA V c) (batA V c) (w1A V c) (b1A V c) (w2A V c) (b2A V c) :=
  (dat1 V c).arrAt_eq_of_cover 13 (out13 (rawA V c) (aggA V c) (degA V c) (sA V c) (tA V c) (batA V c) (w1A V c) (b1A V c) (w2A V c) (b2A V c)) (flushed13_eq V c) covered13

/-- Window 14: what a core's last point writes back is the core's block of the closed form. -/
theorem flushed14_eq (t : Fin cfg1.N) (hf : (cfg1.win 14).flush t = true) :
    (dat1 V c).flushed 14 t = ((cfg1.win 14).blk t).view.read (Elt Ideal) (out14 (batA V c)) := by
  have hN : cfg1.N = 10 := N_1
  have h4 : t.val % 5 = 4 := (flush1_14 t).mp hf
  obtain ⟨q, rfl⟩ : ∃ q : Fin 2, t = lastPt q := ⟨⟨t.val / 5, by have := t.isLt; omega⟩, Fin.ext (by show t.val = 5 * (t.val / 5) + 4; omega)⟩
  show (cfg1.win 14).cut (grid1.coords (lastPt q)) ((dat1 V c).after 14 (lastPt q)) = _
  rw [after1_14]
  have hi := idx_facts1' (lastPt q)
  have hq : (lastPt q).val / 5 = q.val := by show (5 * q.val + 4) / 5 = q.val; omega
  funext j
  obtain ⟨u, v, g, rfl⟩ : ∃ (u v : Fin 1) (g : Fin 256), j = ix3 u v g := ⟨j 0, j 1, j 2, eq_ix3 j⟩
  obtain rfl : u = 0 := Subsingleton.elim _ _
  obtain rfl : v = 0 := Subsingleton.elim _ _
  show (outsAt1 V c (lastPt q).val (lastPt q).isLt).2.2.2.2 (ix3 0 0 g) = out14 (batA V c) (((cfg1.win 14).blk (lastPt q)).view.emb (ix3 0 0 g))
  rw [last14 V c q g]
  have e0 : ((((cfg1.win 14).blk (lastPt q)).view.emb (ix3 0 0 g) : S2x1x256.Idx) 0) = q := Fin.ext (by
    show win1_14.index (lastPt q) (0 : Fin 3) * 1 + 1 * (0 : Fin 1).val = _; omega)

  have e2 : ((((cfg1.win 14).blk (lastPt q)).view.emb (ix3 0 0 g) : S2x1x256.Idx) 2) = g := Fin.ext (by
    show win1_14.index (lastPt q) (2 : Fin 3) * 256 + 1 * g.val = _; omega)
  unfold out14 cntOf
  rw [e0, e2]
  exact congrArg (Ideal.ofBits .f32 0x00000000#32 + ·) (Finset.sum_congr rfl fun i _ => add14_eq V c q i g)

theorem mem_blk14 (t : Fin cfg1.N) (i : S2x1x256.Idx) :
    i ∈ ((cfg1.win 14).blk t).view.set ↔ ∀ a : Fin 3, win1_14.index t a * S1x1x256.size a ≤ (i a).val ∧ (i a).val < win1_14.index t a * S1x1x256.size a + S1x1x256.size a := by
  show i ∈ ((View.whole (Pipeline.arrRef spec1 14)).slice (win1_14.rect t)).set ↔ _
  rw [View.set_slice_whole, Rect.mem_set_unit]
  exact Iff.rfl

/-- Every index of window 14's array is in the block its core's last point writes back. -/
theorem covered14 (i : S2x1x256.Idx) :
    ∃ t : Fin cfg1.N, (cfg1.win 14).flush t = true ∧ i ∈ ((cfg1.win 14).blk t).view.set := by
  have hi0 : (i 0).val < 2 := (i 0).isLt
  have hi1 : (i 1).val < 1 := (i 1).isLt
  have hi2 : (i 2).val < 256 := (i 2).isLt
  have hN : cfg1.N = 10 := N_1
  obtain ⟨t, ht⟩ : ∃ t : Fin cfg1.N, t.val = 5 * (i 0).val + 4 := ⟨⟨5 * (i 0).val + 4, by rw [hN]; omega⟩, rfl⟩
  have hi := idx_facts1' t
  refine ⟨t, (flush1_14 t).mpr (by omega), ?_⟩
  rw [mem_blk14]
  intro a
  match a with
  | ⟨0, _⟩ => show win1_14.index t (0 : Fin 3) * 1 ≤ (i 0).val ∧ (i 0).val < win1_14.index t (0 : Fin 3) * 1 + 1; omega
  | ⟨1, _⟩ => show win1_14.index t (1 : Fin 3) * 1 ≤ (i 1).val ∧ (i 1).val < win1_14.index t (1 : Fin 3) * 1 + 1; omega
  | ⟨2, _⟩ => show win1_14.index t (2 : Fin 3) * 256 ≤ (i 2).val ∧ (i 2).val < win1_14.index t (2 : Fin 3) * 256 + 256; omega

/-- Window 14's array after the region. -/
theorem final1_14 : (dat1 (F := Ideal) V c).arrAt 14 cfg1.N = out14 (batA V c) :=
  (dat1 V c).arrAt_eq_of_cover 14 (out14 (batA V c)) (flushed14_eq V c) covered14

end Value

end Cert.KernelIdeal.Fr.R1

end
-- ==== Proof.KChainL1.lean ====
/- Layer 1 of the kernel side in the terms of the mathematical statement: pallas_call 1's rows are the statement's
   `hK1`, and its four statistics arrays are the per-half tile sums of those rows, given the same of layer 0. The
   region's value over its ten input arrays, those arrays read entry by entry at the run's valuations, and the dense part
   as the statement's `mlp` of `xinK`. -/
import proofs.«429418_j73830487818378_3_alg».proof.Proof.KChain2
import proofs.«429418_j73830487818378_3_alg».proof.Proof.KLayer1
import proofs.«429418_j73830487818378_3_alg».proof.Proof.K1Value

set_option maxRecDepth 16384

noncomputable section

open scoped BigOperators

namespace Cert.KernelIdeal.Fr

open Cert.KernelIdeal Cert.KernelIdeal.Gen Cert.KernelIdeal.Glue
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD) (HP : ∀ n k, hpK0 m ρ c (ix2 n k) = Cert.GinMath.hK0 (𝔾r m c) (𝕡r m c) n k)
  (S : TileStats (𝔾r m c) (Cert.GinMath.hK0 (𝔾r m c) (𝕡r m c)) (smK0 m ρ c) (sqK0 m ρ c) (plK0 m ρ c) (ctK0 m ρ c))

include HP S in
/-- Region 1's dense part over its input arrays as the run finds them is the statement's layer-1 rows. -/
theorem layer1_hpost (n : Fin 50000) (k : Fin 64) :
    R1.hpost (R1.rawA (V3 m ρ) c) (R1.aggA (V3 m ρ) c) (R1.degA (V3 m ρ) c) (R1.sA (V3 m ρ) c) (R1.tA (V3 m ρ) c) (R1.w1A (V3 m ρ) c) (R1.b1A (V3 m ρ) c) (R1.w2A (V3 m ρ) c) (R1.b2A (V3 m ρ) c) n k = Cert.GinMath.hK1 (𝔾r m c) (𝕡r m c) n k := by
  rw [R1.hpost_eq (m ((c : Thread nD τ).loc main_arg1)) (m ((c : Thread nD τ).loc main_arg2)) (m ((c : Thread nD τ).loc main_arg3)) _ _ _ _ _ _ _ _ _ (Cert.GinMath.hK0 (𝔾r m c) (𝕡r m c)) (Cert.GinMath.sK (𝔾r m c) (Cert.GinMath.hK0 (𝔾r m c) (𝕡r m c)) (𝕡r m c).γ0) (Cert.GinMath.tK (𝔾r m c) (Cert.GinMath.hK0 (𝔾r m c) (𝕡r m c)) (𝕡r m c).γ0 (𝕡r m c).β0) (𝕡r m c).b1_1 (𝕡r m c).b2_1
    (in1_raw m ρ c HP) (in1_agg m ρ c HP) (in1_deg m ρ c) (in1_s m ρ c S) (in1_t m ρ c S) (in1_b1 m ρ c) (in1_b2 m ρ c) n k]
  rw [show R1.w1A (V3 m ρ) c = ((m ((c : Thread nD τ).loc main_arg10)) : Vec Ideal S64x64 .f32) from in1_6 m ρ c,
    show R1.w2A (V3 m ρ) c = ((m ((c : Thread nD τ).loc main_arg12)) : Vec Ideal S64x64 .f32) from in1_8 m ρ c]
  rfl

/-- Region 1's one-hot word over its graph-word column is the statement's membership indicator. -/
theorem layer1_oh (n : Fin 50000) (g : Fin 256) :
    R1.oh (R1.batA (V3 m ρ) c) n g = Cert.GinMath.oh (𝔾r m c) g n :=
  R1.oh_eq (m ((c : Thread nD τ).loc main_arg1)) (m ((c : Thread nD τ).loc main_arg2)) (m ((c : Thread nD τ).loc main_arg3)) _ (in1_batw m ρ c) n g

include HP S in
/-- Pallas_call 1's rows are the statement's layer-1 rows. -/
theorem hpK1_is (n : Fin 50000) (k : Fin 64) : hpK1 m ρ c (ix2 n k) = Cert.GinMath.hK1 (𝔾r m c) (𝕡r m c) n k :=
  calc hpK1 m ρ c (ix2 n k)
      = (dat1 (V3 m ρ) c).arrAt 10 cfg1.N (ix2 n k) := congrFun (hpK1_eq m ρ c) (ix2 n k)
    _ = R1.out10 (R1.rawA (V3 m ρ) c) (R1.aggA (V3 m ρ) c) (R1.degA (V3 m ρ) c) (R1.sA (V3 m ρ) c) (R1.tA (V3 m ρ) c) (R1.w1A (V3 m ρ) c) (R1.b1A (V3 m ρ) c) (R1.w2A (V3 m ρ) c) (R1.b2A (V3 m ρ) c) (ix2 n k) := congrFun (R1.final1_10 (V3 m ρ) c) (ix2 n k)
    _ = R1.hpost (R1.rawA (V3 m ρ) c) (R1.aggA (V3 m ρ) c) (R1.degA (V3 m ρ) c) (R1.sA (V3 m ρ) c) (R1.tA (V3 m ρ) c) (R1.w1A (V3 m ρ) c) (R1.b1A (V3 m ρ) c) (R1.w2A (V3 m ρ) c) (R1.b2A (V3 m ρ) c) n k := rfl
    _ = Cert.GinMath.hK1 (𝔾r m c) (𝕡r m c) n k := layer1_hpost m ρ c HP S n k

include HP S in
/-- Pallas_call 1's four statistics arrays are the per-half tile sums of the statement's layer-1 rows. -/
theorem statsK1 : TileStats (𝔾r m c) (Cert.GinMath.hK1 (𝔾r m c) (𝕡r m c)) (smK1 m ρ c) (sqK1 m ρ c) (plK1 m ρ c) (ctK1 m ρ c) where
  hsm q k := by
    have e : smK1 m ρ c (ix3 q 0 k) = R1.sumOf (R1.rawA (V3 m ρ) c) (R1.aggA (V3 m ρ) c) (R1.degA (V3 m ρ) c) (R1.sA (V3 m ρ) c) (R1.tA (V3 m ρ) c) (R1.w1A (V3 m ρ) c) (R1.b1A (V3 m ρ) c) (R1.w2A (V3 m ρ) c) (R1.b2A (V3 m ρ) c) q k :=
      (congrFun (smK1_eq m ρ c) (ix3 q 0 k)).trans (congrFun (R1.final1_11 (V3 m ρ) c) (ix3 q 0 k))
    rw [e]
    unfold R1.sumOf
    simp only [layer1_hpost m ρ c HP S, R1.rowOf_eq]
    rfl
  hsq q k := by
    have e : sqK1 m ρ c (ix3 q 0 k) = R1.sumsqOf (R1.rawA (V3 m ρ) c) (R1.aggA (V3 m ρ) c) (R1.degA (V3 m ρ) c) (R1.sA (V3 m ρ) c) (R1.tA (V3 m ρ) c) (R1.w1A (V3 m ρ) c) (R1.b1A (V3 m ρ) c) (R1.w2A (V3 m ρ) c) (R1.b2A (V3 m ρ) c) q k :=
      (congrFun (sqK1_eq m ρ c) (ix3 q 0 k)).trans (congrFun (R1.final1_12 (V3 m ρ) c) (ix3 q 0 k))
    rw [e]
    unfold R1.sumsqOf
    simp only [layer1_hpost m ρ c HP S, R1.rowOf_eq]
    rfl
  hpl q g k := by
    have e : plK1 m ρ c (ix3 q g k) = R1.poolOf (R1.rawA (V3 m ρ) c) (R1.aggA (V3 m ρ) c) (R1.degA (V3 m ρ) c) (R1.sA (V3 m ρ) c) (R1.tA (V3 m ρ) c) (R1.batA (V3 m ρ) c) (R1.w1A (V3 m ρ) c) (R1.b1A (V3 m ρ) c) (R1.w2A (V3 m ρ) c) (R1.b2A (V3 m ρ) c) q g k :=
      (congrFun (plK1_eq m ρ c) (ix3 q g k)).trans (congrFun (R1.final1_13 (V3 m ρ) c) (ix3 q g k))
    rw [e]
    unfold R1.poolOf
    simp only [layer1_hpost m ρ c HP S, layer1_oh m ρ c, R1.rowOf_eq]
    rfl
  hct q g := by
    have e : ctK1 m ρ c (ix3 q 0 g) = R1.cntOf (R1.batA (V3 m ρ) c) q g :=
      (congrFun (ctK1_eq m ρ c) (ix3 q 0 g)).trans (congrFun (R1.final1_14 (V3 m ρ) c) (ix3 q 0 g))
    rw [e]
    unfold R1.cntOf
    simp only [layer1_oh m ρ c, R1.rowOf_eq]
    rfl

end Cert.KernelIdeal.Fr

end
-- ==== Proof.K2Spec.lean ====
/- Pallas call 2, what it computes, as functions of its ten input arrays at the ideal values: per node the scaled and
   shifted input, the two dense layers with their rectifiers, and per core the four running statistics of the second
   layer's output over the core's 25000 nodes (five tiles of 5000): the column sums, the column sums of squares, the
   sums pooled by batch id, and the node counts by batch id. -/
import proofs.«429418_j73830487818378_3_alg».proof.KernelIdeal
import Idealize.ShloMosaic.Lib.ValueIdx
import Idealize.ShloMosaic.PureOps.Ideal.Laws

noncomputable section

namespace Cert.KernelIdeal.Fr.R2

open Cert.KernelIdeal
open Idealize.ShloMosaic Idealize.ShloMosaic.ValueIdx

section Spec
variable (rawA aggA : Vec Ideal S50000x64 .f32) (degA : Vec Ideal S50000x1 .f32) (sA tA : Vec Ideal S1x64 .f32)
  (batA : Vec Ideal S50000x1 .i32) (w1A : Vec Ideal S64x64 .f32) (b1A : Vec Ideal S1x64 .f32)
  (w2A : Vec Ideal S64x64 .f32) (b2A : Vec Ideal S1x64 .f32)

/-- The scaled and shifted input of node `n`, lane `j`: `s·(raw + agg) + t·(1 + deg)`. -/
def xin (n : Fin 50000) (j : Fin 64) : EReal :=
  sA (ix2 0 j) * (rawA (ix2 n j) + aggA (ix2 n j)) + tA (ix2 0 j) * (Ideal.ofBits .f32 0x3F800000#32 + degA (ix2 n 0))

/-- The first layer's rectified output of node `n`, column `k`. -/
def h1 (n : Fin 50000) (k : Fin 64) : EReal :=
  max ((∑ j : Fin 64, xin rawA aggA degA sA tA n j * w1A (ix2 j k)) + b1A (ix2 0 k)) (Ideal.ofBits .f32 0x00000000#32)

/-- The second layer's rectified output of node `n`, column `k`. -/
def hpost (n : Fin 50000) (k : Fin 64) : EReal :=
  max ((∑ j : Fin 64, h1 rawA aggA degA sA tA w1A b1A n j * w2A (ix2 j k)) + b2A (ix2 0 k)) (Ideal.ofBits .f32 0x00000000#32)

/-- The one-hot word of node `n` for graph `g`: 1 when the node's batch id is `g`, else 0. -/
def oh (n : Fin 50000) (g : Fin 256) : EReal := if batA (ix2 n 0) = BitVec.ofNat 32 g.val then 1 else 0

end Spec

/-- Row `r` of tile `i` of core `q`: node `(5q + i)·5000 + r`. -/
def rowOf (q : Fin 2) (i : Fin 5) (r : Fin 5000) : Fin 50000 :=
  ⟨(5 * q.val + i.val) * 5000 + r.val, by have := q.isLt; have := i.isLt; have := r.isLt; omega⟩

end Cert.KernelIdeal.Fr.R2

end
-- ==== Proof.KLayer2.lean ====
/-
  One call of the kernel, read at a node and a column, is the mathematical layer.  The call's per-node values — the
  scaled and shifted input `s·(raw + agg) + t·(1 + deg)` and the two dense maps each followed by the maximum with
  zero — are the curried functions of the same names once the arrays are read entry by entry; the tile a row lies in
  is the same function of the core, the step and the row; and the zero-one word of a node for a graph, the node's
  graph word compared with the graph's number as a 32-bit word, is the indicator of the node's signed graph word
  being that number.
-/
import proofs.«429418_j73830487818378_3_alg».proof.Proof.K2Spec
import proofs.«429418_j73830487818378_3_alg».proof.Proof.GinMath
import proofs.«429418_j73830487818378_3_alg».proof.Proof.Inst
import proofs.«429418_j73830487818378_3_alg».proof.Proof.LibLayer

noncomputable section

open scoped BigOperators

namespace Cert.KernelIdeal.Fr.R2

open Cert.KernelIdeal Idealize.ShloMosaic Idealize.ShloMosaic.ValueIdx

variable (ei : IVec ⟨2, ![2, 800000]⟩ 32) (bt : IVec ⟨1, ![50000]⟩ 32) (ew : (⟨1, ![800000]⟩ : Shape).Idx → EReal)

local notation "𝔾" => Cert.Inst.graph ei bt ew

/-- The scaled and shifted input, the arrays given entry by entry. -/
theorem xin_eq (rawA aggA : Vec Ideal S50000x64 .f32) (degA : Vec Ideal S50000x1 .f32) (sA tA : Vec Ideal S1x64 .f32)
    (raw : Fin 50000 → Fin 64 → EReal) (s t : Fin 64 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (n : Fin 50000) (j : Fin 64) :
    xin rawA aggA degA sA tA n j = Cert.GinMath.xinK 𝔾 raw s t n j := by
  unfold xin; rw [hraw, hagg, hdeg, hs, ht]; rfl

/-- The first dense map and the maximum with zero. -/
theorem h1_eq (rawA aggA : Vec Ideal S50000x64 .f32) (degA : Vec Ideal S50000x1 .f32) (sA tA : Vec Ideal S1x64 .f32)
    (w1A : Vec Ideal S64x64 .f32) (b1A : Vec Ideal S1x64 .f32)
    (raw : Fin 50000 → Fin 64 → EReal) (s t : Fin 64 → EReal) (b1 : Fin 64 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (hb1 : ∀ k, b1A (ix2 0 k) = b1 k) (n : Fin 50000) (k : Fin 64) :
    h1 rawA aggA degA sA tA w1A b1A n k
      = Cert.GinMath.dense 𝔾 (Cert.GinMath.xinK 𝔾 raw s t) (Cert.Inst.mat w1A) b1 n k := by
  unfold h1
  simp only [xin_eq ei bt ew rawA aggA degA sA tA raw s t hraw hagg hdeg hs ht, hb1]
  rfl

/-- The call's two dense maps over the scaled and shifted input. -/
theorem hpost_eq (rawA aggA : Vec Ideal S50000x64 .f32) (degA : Vec Ideal S50000x1 .f32) (sA tA : Vec Ideal S1x64 .f32)
    (w1A : Vec Ideal S64x64 .f32) (b1A : Vec Ideal S1x64 .f32) (w2A : Vec Ideal S64x64 .f32) (b2A : Vec Ideal S1x64 .f32)
    (raw : Fin 50000 → Fin 64 → EReal) (s t : Fin 64 → EReal) (b1 b2 : Fin 64 → EReal)
    (hraw : ∀ n j, rawA (ix2 n j) = raw n j) (hagg : ∀ n j, aggA (ix2 n j) = Cert.GinMath.agg 𝔾 raw n j)
    (hdeg : ∀ n, degA (ix2 n 0) = Cert.GinMath.deg 𝔾 n) (hs : ∀ j, sA (ix2 0 j) = s j) (ht : ∀ j, tA (ix2 0 j) = t j)
    (hb1 : ∀ k, b1A (ix2 0 k) = b1 k) (hb2 : ∀ k, b2A (ix2 0 k) = b2 k) (n : Fin 50000) (k : Fin 64) :
    hpost rawA aggA degA sA tA w1A b1A w2A b2A n k
      = Cert.GinMath.mlp 𝔾 (Cert.GinMath.xinK 𝔾 raw s t) (Cert.Inst.mat w1A) b1 (Cert.Inst.mat w2A) b2 n k := by
  unfold hpost Cert.GinMath.mlp
  simp only [h1_eq ei bt ew rawA aggA degA sA tA w1A b1A raw s t b1 hraw hagg hdeg hs ht hb1, hb2]
  rfl

/-- The tile a row lies in: the same function of the core, the step and the row. -/
theorem rowOf_eq : rowOf = Cert.GinMath.rowOf := rfl

/-- The zero-one word of a node for a graph is the indicator of the node lying in the graph. -/
theorem oh_eq (batA : Vec Ideal S50000x1 .i32) (hbat : ∀ n, batA (ix2 n 0) = bt (ix1 n)) (n : Fin 50000) (g : Fin 256) :
    oh batA n g = Cert.GinMath.oh 𝔾 g n := by
  unfold oh Cert.GinMath.oh
  rw [hbat]
  exact if_congr (Cert.Lib.Layer.word_eq_iff (bt (ix1 n)) g.val g.isLt) rfl rfl

end Cert.KernelIdeal.Fr.R2

end
-- ==== Proof.K2Pay.lean ====
/- Pallas call 2 (the third MLP layer pair with its batch statistics), the arithmetic of its body at an index, read at
   the ideal values: the scaled and shifted input, the two dense layers with their rectifiers (each matrix product
   into a zero accumulator is the plain sum over the contracted axis; the narrowing to bf16 is the identity on the
   extended reals), the column sums, the one-hot words of the batch ids, and what each of the four accumulators' stored
   payloads holds at an index in terms of a tile's rows. -/
import proofs.«429418_j73830487818378_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Fr.R2

open Cert.KernelIdeal Cert.KernelIdeal.Gen
open Idealize.ShloMosaic Idealize.ShloMosaic.TcCoe Idealize.SL.Sem
open Idealize.ShloMosaic.ValueIdx

/-! ## Layout operations of the body at an index -/

/-- A [1,64] row broadcast over 5000 rows reads its column everywhere. -/
theorem row_bcast1 {α : Type} (x : S1x64.Idx → α) (r : Fin 5000) (j : Fin 64) :
    broadcastTo S5000x64 x broadcasts_S1x64_S5000x64 (ix2 r j) = x (ix2 0 j) := by
  refine broadcastTo_apply x _ _ _ fun a => ?_
  match a with
  | ⟨0, _⟩ => rfl
  | ⟨1, _⟩ => rfl

/-- A [5000,1] column broadcast over 64 lanes reads its row everywhere. -/
theorem col_bcast1 {α : Type} (x : S5000x1.Idx → α) (r : Fin 5000) (j : Fin 64) :
    broadcastTo S5000x64 x broadcasts_S5000x1_S5000x64 (ix2 r j) = x (ix2 r 0) := by
  refine broadcastTo_apply x _ _ _ fun a => ?_
  match a with
  | ⟨0, _⟩ => rfl
  | ⟨1, _⟩ => rfl

/-- A [5000,1] column broadcast over 256 lanes reads its row everywhere. -/
theorem col_bcast1g {α : Type} (x : S5000x1.Idx → α) (r : Fin 5000) (g : Fin 256) :
    broadcastTo S5000x256 x broadcasts_S5000x1_S5000x256 (ix2 r g) = x (ix2 r 0) := by
  refine broadcastTo_apply x _ _ _ fun a => ?_
  match a with
  | ⟨0, _⟩ => rfl
  | ⟨1, _⟩ => rfl

/-! ## The two matrix products' operand indices

The dense layers contract the left operand's lanes with the right operand's rows; the pooling product contracts the
rows of both operands (the one-hot matrix enters transposed). -/

theorem lhs_dotA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dotA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dotA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dotA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A dense layer's product into the zero accumulator, at row `r` and column `k`: the sum over the 64 contracted lanes. -/
theorem dense_apply (x : FVec Ideal S5000x64 .bf16) (w : FVec Ideal S64x64 .bf16) (r : Fin 5000) (k : Fin 64) :
    matmul dot_S5000x64_S64x64_S5000x64_1_0_0_1_n_n none x w (constant (F := Ideal) S5000x64 .f32 0x00000000#32) (ix2 r k)
      = ∑ j : Fin 64, x (ix2 r j) * w (ix2 j k) := by
  simp only [matmul]
  rw [Ideal.matmul_constant_zero_apply, ← Equiv.sum_comp (contrEquiv1 dot_S5000x64_S64x64_S5000x64_1_0_0_1_n_n 64 rfl rfl).symm]
  refine Finset.sum_congr rfl fun j _ => ?_
  have hk := contrEquiv1_symm_val dot_S5000x64_S64x64_S5000x64_1_0_0_1_n_n 64 rfl rfl j
  have el : dot_S5000x64_S64x64_S5000x64_1_0_0_1_n_n.lhsIdx (ix2 r k) ((contrEquiv1 dot_S5000x64_S64x64_S5000x64_1_0_0_1_n_n 64 rfl rfl).symm j) = ix2 r j := funext fun a => Fin.ext (by
    match a with
    | ⟨0, _⟩ => exact lhs_dotA_0 _ _
    | ⟨1, _⟩ => exact (lhs_dotA_1 _ _).trans hk)
  have er : dot_S5000x64_S64x64_S5000x64_1_0_0_1_n_n.rhsIdx (ix2 r k) ((contrEquiv1 dot_S5000x64_S64x64_S5000x64_1_0_0_1_n_n 64 rfl rfl).symm j) = ix2 j k := funext fun a => Fin.ext (by
    match a with
    | ⟨0, _⟩ => exact (rhs_dotA_0 _ _).trans hk
    | ⟨1, _⟩ => exact rhs_dotA_1 _ _)
  rw [el, er]

theorem lhs_dotP_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_dotP_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_dotP_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_dotP_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The pooling product into the zero accumulator, at graph `g` and column `k`: the sum over the tile's 5000 rows. -/
theorem pool_apply (oh : FVec Ideal S5000x256 .f32) (h : FVec Ideal S5000x64 .f32) (g : Fin 256) (k : Fin 64) :
    matmul dot_S5000x256_S5000x64_S256x64_0_0_1_1_n_n (some .fp32) oh h (constant (F := Ideal) S256x64 .f32 0x00000000#32) (ix2 g k)
      = ∑ r : Fin 5000, oh (ix2 r g) * h (ix2 r k) := by
  simp only [matmul]
  rw [Ideal.matmul_constant_zero_apply, ← Equiv.sum_comp (contrEquiv1 dot_S5000x256_S5000x64_S256x64_0_0_1_1_n_n 5000 rfl rfl).symm]
  refine Finset.sum_congr rfl fun r _ => ?_
  have hk := contrEquiv1_symm_val dot_S5000x256_S5000x64_S256x64_0_0_1_1_n_n 5000 rfl rfl r
  have el : dot_S5000x256_S5000x64_S256x64_0_0_1_1_n_n.lhsIdx (ix2 g k) ((contrEquiv1 dot_S5000x256_S5000x64_S256x64_0_0_1_1_n_n 5000 rfl rfl).symm r) = ix2 r g := funext fun a => Fin.ext (by
    match a with
    | ⟨0, _⟩ => exact (lhs_dotP_0 _ _).trans hk
    | ⟨1, _⟩ => exact lhs_dotP_1 _ _)
  have er : dot_S5000x256_S5000x64_S256x64_0_0_1_1_n_n.rhsIdx (ix2 g k) ((contrEquiv1 dot_S5000x256_S5000x64_S256x64_0_0_1_1_n_n 5000 rfl rfl).symm r) = ix2 r k := funext fun a => Fin.ext (by
    match a with
    | ⟨0, _⟩ => exact (rhs_dotP_0 _ _).trans hk
    | ⟨1, _⟩ => exact rhs_dotP_1 _ _)
  rw [el, er]

/-! ## Column sums -/

/-- The sum over a [5000,64] tile's rows, at lane `k`. -/
theorem colsum64_apply (x : FVec Ideal S5000x64 .f32) (hφ : FKind.Formats .f32)
    (hacc : (0x00000000#32 : BitVec (FTy.bits .f32)) = FKind.add.neutral .f32 hφ) (k : Fin 64) :
    multiReduction (F := Ideal) .add [0] S64 x 0x00000000#32 reduces_S5000x64_S64 hφ hacc (ix1 k) = ∑ r : Fin 5000, x (ix2 r k) := by
  refine (Ideal.multiReduction_add_single x _ reduces_S5000x64_S64 hφ hacc (ix1 k)).trans ?_
  refine Finset.sum_congr rfl fun r _ => congrArg x (funext fun a => Fin.ext ?_)
  match a with
  | ⟨0, _⟩ => rfl
  | ⟨1, _⟩ => rfl

/-- The sum over a [5000,256] tile's rows, at lane `g`. -/
theorem colsum256_apply (x : FVec Ideal S5000x256 .f32) (hφ : FKind.Formats .f32)
    (hacc : (0x00000000#32 : BitVec (FTy.bits .f32)) = FKind.add.neutral .f32 hφ) (g : Fin 256) :
    multiReduction (F := Ideal) .add [0] S256 x 0x00000000#32 reduces_S5000x256_S256 hφ hacc (ix1 g) = ∑ r : Fin 5000, x (ix2 r g) := by
  refine (Ideal.multiReduction_add_single x _ reduces_S5000x256_S256 hφ hacc (ix1 g)).trans ?_
  refine Finset.sum_congr rfl fun r _ => congrArg x (funext fun a => Fin.ext ?_)
  match a with
  | ⟨0, _⟩ => rfl
  | ⟨1, _⟩ => rfl

/-! ## The one-hot words -/

/-- The float of "row `r`'s batch id is `g`": the comparison's bit, widened to a word and converted. -/
def ohw (b : BitVec 32) (g : Fin 256) : EReal := if b = BitVec.ofNat 32 g.val then 1 else 0

theorem onehot_word (b : BitVec 32) (g : Fin 256) :
    (FloatOps.sitofp (F := Ideal) .f32 ((IntOp.cmpi .eq b (BitVec.ofNat 32 g.val)).setWidth 32) : Ideal .f32) = ohw b g := by
  show (((((IntOp.cmpi .eq b (BitVec.ofNat 32 g.val)).setWidth 32).toInt : ℤ) : ℝ) : EReal) = ohw b g
  rw [toInt_setWidth_bit]
  unfold ohw IntOp.cmpi
  by_cases h : b = BitVec.ofNat 32 g.val
  · rw [if_pos h]; simp [h]
  · rw [if_neg h]; simp [h]

/-! ## The body's values on one tile

`x0`, `x1`: the tile's rows of the two summed inputs; `x2`: their degree column; `x3`, `x4`: the scale and shift rows;
`x6`, `x7`, `x8`, `x9`: the two layers' weights and biases. -/

section Tile
variable (x0 x1 : Vec Ideal S5000x64 .f32) (x2 : Vec Ideal S5000x1 .f32) (x3 x4 : Vec Ideal S1x64 .f32)
  (x6 : Vec Ideal S64x64 .f32) (x7 : Vec Ideal S1x64 .f32) (x8 : Vec Ideal S64x64 .f32) (x9 : Vec Ideal S1x64 .f32)

/-- The scaled and shifted input at row `r`, lane `j`. -/
def xinT (r : Fin 5000) (j : Fin 64) : EReal :=
  x3 (ix2 0 j) * (x0 (ix2 r j) + x1 (ix2 r j)) + x4 (ix2 0 j) * (Ideal.ofBits .f32 0x3F800000#32 + x2 (ix2 r 0))

/-- The first layer's rectified output at row `r`, column `k`. -/
def h1T (r : Fin 5000) (k : Fin 64) : EReal :=
  max ((∑ j : Fin 64, xinT x0 x1 x2 x3 x4 r j * x6 (ix2 j k)) + x7 (ix2 0 k)) (Ideal.ofBits .f32 0x00000000#32)

/-- The second layer's rectified output at row `r`, column `k`. -/
def hpT (r : Fin 5000) (k : Fin 64) : EReal :=
  max ((∑ j : Fin 64, h1T x0 x1 x2 x3 x4 x6 x7 r j * x8 (ix2 j k)) + x9 (ix2 0 k)) (Ideal.ofBits .f32 0x00000000#32)

theorem pay7_apply (r : Fin 5000) (k : Fin 64) :
    k2_pay7 (F := Ideal) x3 x0 x1 x4 x2 x6 x7 (ix2 r k) = h1T x0 x1 x2 x3 x4 x6 x7 r k := by
  unfold k2_pay7 h1T
  simp only [shapeCast_self]
  rw [truncf_apply, maximumf_apply, addf_apply, dense_apply, row_bcast1, broadcast_apply]
  refine congrArg (fun z => max (z + x7 (ix2 0 k)) _) (Finset.sum_congr rfl fun j _ => ?_)
  rw [truncf_apply, truncf_apply, addf_apply, mulf_apply, mulf_apply, addf_apply, row_bcast1, row_bcast1, col_bcast1, addf_apply, broadcast_apply]
  rfl

/-- A dense layer, its bias and its rectifier at row `r`, column `k`, on any operands. -/
theorem pay9_apply (v32 : FVec Ideal S5000x64 .bf16) (v34 : FVec Ideal S64x64 .bf16) (v36 : Vec Ideal S1x64 .f32) (r : Fin 5000) (k : Fin 64) :
    k2_pay9 (F := Ideal) v32 v34 (constant (F := Ideal) S5000x64 .f32 0x00000000#32) v36 (ix2 r k)
      = max ((∑ j : Fin 64, v32 (ix2 r j) * v34 (ix2 j k)) + v36 (ix2 0 k)) (Ideal.ofBits .f32 0x00000000#32) := by
  unfold k2_pay9
  simp only [shapeCast_self]
  rw [maximumf_apply, addf_apply, dense_apply, row_bcast1, broadcast_apply]
  rfl

/-- The block stored to the second layer's output window is the second layer's output. -/
theorem hp_apply (r : Fin 5000) (k : Fin 64) :
    k2_pay9 (F := Ideal) (k2_pay7 x3 x0 x1 x4 x2 x6 x7) (k2_pay8 x8) (constant (F := Ideal) S5000x64 .f32 0x00000000#32) x9 (ix2 r k)
      = hpT x0 x1 x2 x3 x4 x6 x7 x8 x9 r k := by
  rw [pay9_apply]
  unfold hpT
  refine congrArg (fun z => max (z + x9 (ix2 0 k)) _) (Finset.sum_congr rfl fun j _ => ?_)
  rw [pay7_apply]
  rfl

end Tile

/-! ## The four accumulators' stored payloads at an index -/

/-- The column-sum accumulator: what was there plus the sum over the tile's rows. -/
theorem pay10_apply (v32 : FVec Ideal S5000x64 .bf16) (v34 : FVec Ideal S64x64 .bf16) (cst : FVec Ideal S5000x64 .f32) (v36 : Vec Ideal S1x64 .f32)
    (v43 : Vec Ideal S1x1x64 .f32) (k : Fin 64) :
    k2_pay10 (F := Ideal) v32 v34 cst v36 v43 (ix3 0 0 k) = v43 (ix3 0 0 k) + ∑ r : Fin 5000, k2_pay9 (F := Ideal) v32 v34 cst v36 (ix2 r k) := by
  unfold k2_pay10
  dsimp only
  refine (shapeCast_ab_1ab_apply _ shapeCasts_S1x64_S1x1x64 0 0 k).trans ?_
  rw [addf_apply]
  refine congrArg₂ (· + ·) (shapeCast_1ab_ab_apply v43 shapeCasts_S1x1x64_S1x64 0 k) ?_
  refine (shapeCast_a_1a_apply _ shapeCasts_S64_S1x64 0 k).trans ?_
  exact colsum64_apply _ _ _ k

/-- The sum-of-squares accumulator: what was there plus the sum of the squares over the tile's rows. -/
theorem pay11_apply (v32 : FVec Ideal S5000x64 .bf16) (v34 : FVec Ideal S64x64 .bf16) (cst : FVec Ideal S5000x64 .f32) (v36 : Vec Ideal S1x64 .f32)
    (v51 : Vec Ideal S1x1x64 .f32) (k : Fin 64) :
    k2_pay11 (F := Ideal) v32 v34 cst v36 v51 (ix3 0 0 k)
      = v51 (ix3 0 0 k) + ∑ r : Fin 5000, k2_pay9 (F := Ideal) v32 v34 cst v36 (ix2 r k) * k2_pay9 (F := Ideal) v32 v34 cst v36 (ix2 r k) := by
  unfold k2_pay11
  dsimp only
  refine (shapeCast_ab_1ab_apply _ shapeCasts_S1x64_S1x1x64 0 0 k).trans ?_
  rw [addf_apply]
  refine congrArg₂ (· + ·) (shapeCast_1ab_ab_apply v51 shapeCasts_S1x1x64_S1x64 0 k) ?_
  refine (shapeCast_a_1a_apply _ shapeCasts_S64_S1x64 0 k).trans ?_
  exact colsum64_apply _ _ _ k

/-- The one-hot matrix of a tile's batch ids at row `r`, graph `g`. -/
theorem pay12_apply (v60 : Vec Ideal S5000x1 .i32) (r : Fin 5000) (g : Fin 256) :
    k2_pay12 (F := Ideal) v60 (ix2 r g) = ohw (v60 (ix2 r 0)) g := by
  unfold k2_pay12
  simp only [shapeCast_self]
  rw [sitofp_apply, extui_apply]
  refine Eq.trans ?_ (onehot_word (v60 (ix2 r 0)) g)
  refine congrArg (fun z : BitVec 1 => (FloatOps.sitofp (F := Ideal) .f32 (z.setWidth 32) : Ideal .f32)) ?_
  show IntOp.cmpi .eq (broadcastTo S5000x256 v60 broadcasts_S5000x1_S5000x256 (ix2 r g)) (iota .tc S5000x256 32 [1] iota_S5000x256_d1_w32 (ix2 r g)) = _
  rw [col_bcast1g, iota_single_apply]

/-- The pooled sums of one tile at graph `g`, column `k`. -/
theorem pay13_apply (v32 : FVec Ideal S5000x64 .bf16) (v34 : FVec Ideal S64x64 .bf16) (cst : FVec Ideal S5000x64 .f32) (v36 : Vec Ideal S1x64 .f32)
    (v60 : Vec Ideal S5000x1 .i32) (g : Fin 256) (k : Fin 64) :
    k2_pay13 (F := Ideal) v32 v34 cst v36 v60 (ix2 g k) = ∑ r : Fin 5000, ohw (v60 (ix2 r 0)) g * k2_pay9 (F := Ideal) v32 v34 cst v36 (ix2 r k) := by
  unfold k2_pay13
  refine (pool_apply _ _ g k).trans ?_
  exact Finset.sum_congr rfl fun r _ => congrArg (· * _) (pay12_apply v60 r g)

/-- The pooling accumulator: what was there plus the tile's pooled sums. -/
theorem pay1_apply (v67 : FVec Ideal S256x64 .f32) (v68 : Vec Ideal S1x256x64 .f32) (g : Fin 256) (k : Fin 64) :
    k2_pay1 (F := Ideal) v67 v68 (ix3 0 g k) = v68 (ix3 0 g k) + v67 (ix2 g k) := by
  unfold k2_pay1
  refine (shapeCast_ab_1ab_apply _ shapeCasts_S256x64_S1x256x64 0 g k).trans ?_
  rw [addf_apply]
  exact congrArg (· + _) (shapeCast_1ab_ab_apply v68 shapeCasts_S1x256x64_S256x64 g k)

/-- The node-count accumulator: what was there plus the one-hot matrix's column sums. -/
theorem pay2_apply (v66 : FVec Ideal S5000x256 .f32) (v74 : Vec Ideal S1x1x256 .f32) (g : Fin 256) :
    k2_pay2 (F := Ideal) v66 v74 (ix3 0 0 g) = v74 (ix3 0 0 g) + ∑ r : Fin 5000, v66 (ix2 r g) := by
  unfold k2_pay2
  dsimp only
  refine (shapeCast_ab_1ab_apply _ shapeCasts_S1x256_S1x1x256 0 0 g).trans ?_
  rw [addf_apply]
  refine congrArg₂ (· + ·) (shapeCast_1ab_ab_apply v74 shapeCasts_S1x1x256_S1x256 0 g) ?_
  refine (shapeCast_a_1a_apply _ shapeCasts_S256_S1x256 0 g).trans ?_
  exact colsum256_apply _ _ _ g

/-- The four zero fills. -/
theorem pay3_apply (i : S1x1x64.Idx) : k2_pay3 (F := Ideal) i = Ideal.ofBits .f32 0x00000000#32 := rfl
theorem pay4_apply (i : S1x1x64.Idx) : k2_pay4 (F := Ideal) i = Ideal.ofBits .f32 0x00000000#32 := rfl
theorem pay5_apply (i : S1x256x64.Idx) : k2_pay5 (F := Ideal) i = Ideal.ofBits .f32 0x00000000#32 := rfl
theorem pay6_apply (i : S1x1x256.Idx) : k2_pay6 (F := Ideal) i = Ideal.ofBits .f32 0x00000000#32 := rfl

end Cert.KernelIdeal.Fr.R2

end
-- ==== Proof.K2Out.lean ====
/- Pallas call 2's five written arrays as functions of its ten input arrays: the second layer's output node by node, and
   per core the four statistics of it over the core's five tiles of 5000 nodes, each started from the zero the body
   fills in at the core's first point. -/
import proofs.«429418_j73830487818378_3_alg».proof.Proof.K2Spec

noncomputable section

namespace Cert.KernelIdeal.Fr.R2

open Cert.KernelIdeal
open Idealize.ShloMosaic Idealize.ShloMosaic.ValueIdx

section Out
variable (rawA aggA : Vec Ideal S50000x64 .f32) (degA : Vec Ideal S50000x1 .f32) (sA tA : Vec Ideal S1x64 .f32)
  (batA : Vec Ideal S50000x1 .i32) (w1A : Vec Ideal S64x64 .f32) (b1A : Vec Ideal S1x64 .f32)
  (w2A : Vec Ideal S64x64 .f32) (b2A : Vec Ideal S1x64 .f32)

/-- Core `q`'s column sum of the second layer's output at column `k`: the zero it starts from plus its five tiles' sums. -/
def sumOf (q : Fin 2) (k : Fin 64) : EReal :=
  Ideal.ofBits .f32 0x00000000#32 + ∑ i : Fin 5, ∑ r : Fin 5000, hpost rawA aggA degA sA tA w1A b1A w2A b2A (rowOf q i r) k

/-- Core `q`'s column sum of squares at column `k`. -/
def sumsqOf (q : Fin 2) (k : Fin 64) : EReal :=
  Ideal.ofBits .f32 0x00000000#32 + ∑ i : Fin 5, ∑ r : Fin 5000,
    hpost rawA aggA degA sA tA w1A b1A w2A b2A (rowOf q i r) k * hpost rawA aggA degA sA tA w1A b1A w2A b2A (rowOf q i r) k

/-- Core `q`'s sums pooled by batch id at graph `g`, column `k`. -/
def poolOf (q : Fin 2) (g : Fin 256) (k : Fin 64) : EReal :=
  Ideal.ofBits .f32 0x00000000#32 + ∑ i : Fin 5, ∑ r : Fin 5000,
    oh batA (rowOf q i r) g * hpost rawA aggA degA sA tA w1A b1A w2A b2A (rowOf q i r) k

/-- Core `q`'s node count of graph `g`. -/
def cntOf (q : Fin 2) (g : Fin 256) : EReal :=
  Ideal.ofBits .f32 0x00000000#32 + ∑ i : Fin 5, ∑ r : Fin 5000, oh batA (rowOf q i r) g

/-- The five written arrays, index by index. -/
def out10 : S50000x64.Idx → Elt Ideal .f32 := fun i => hpost rawA aggA degA sA tA w1A b1A w2A b2A (i 0) (i 1)
def out11 : S2x1x64.Idx → Elt Ideal .f32 := fun i => sumOf rawA aggA degA sA tA w1A b1A w2A b2A (i 0) (i 2)
def out12 : S2x1x64.Idx → Elt Ideal .f32 := fun i => sumsqOf rawA aggA degA sA tA w1A b1A w2A b2A (i 0) (i 2)
def out13 : S2x256x64.Idx → Elt Ideal .f32 := fun i => poolOf rawA aggA degA sA tA batA w1A b1A w2A b2A (i 0) (i 1) (i 2)
def out14 : S2x1x256.Idx → Elt Ideal .f32 := fun i => cntOf batA (i 0) (i 2)

end Out

end Cert.KernelIdeal.Fr.R2

end
-- ==== Proof.K2Value.lean ====
/- Pallas call 2, what its five written arrays hold after the region, read off the region's proof data at the ideal
   values. Each run's found pieces are the body's payloads of the blocks; a read window's block is a read of its array
   (tile `t` is rows `5000 t …`); window 10 after any point is the second layer's output on the point's tile; windows
   11–14 after a core's first point are the zero fill plus the point's addend and after each later point what the point
   before left plus the point's addend, so after the core's fifth point the zero plus the five addends; each point
   writes window 10's block back and a core's last point writes back windows 11–14's, and those blocks cover the arrays. -/
import proofs.«429418_j73830487818378_3_alg».proof.Proof.K2Frame
import proofs.«429418_j73830487818378_3_alg».proof.Proof.K2Pay
import proofs.«429418_j73830487818378_3_alg».proof.Proof.K2Spec
import proofs.«429418_j73830487818378_3_alg».proof.Proof.K2Out
import proofs.«429418_j73830487818378_3_alg».proof.Proof.LibTileSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Fr.R2

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-! ## What each run leaves in each written window's buffer, as the body's payloads of the blocks -/

/-- With the branch not taken, window 10 is left at the second layer's output block's payload of the read blocks: its one
    covering store, whose loads read whole buffers. -/
theorem out2_B_10_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out2_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k2_pay9 (k2_pay7 x3 x0 x1 x4 x2 x6 x7) (k2_pay8 x8) (constant S5000x64 .f32 0x00000000#32) x9 := by
  unfold out2_B_10
  rw [View.read_writes_eq_canon _ _ _ (cover2_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun2_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch not taken, window 11 is left at the column-sum accumulator's payload of the read blocks and of what the buffer held: its one
    covering store, whose loads read whole buffers. -/
theorem out2_B_11_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out2_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k2_pay10 (k2_pay7 x3 x0 x1 x4 x2 x6 x7) (k2_pay8 x8) (constant S5000x64 .f32 0x00000000#32) x9 xo11 := by
  unfold out2_B_11
  rw [View.read_writes_eq_canon _ _ _ (cover2_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun2_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch not taken, window 12 is left at the sum-of-squares accumulator's payload of the read blocks and of what the buffer held: its one
    covering store, whose loads read whole buffers. -/
theorem out2_B_12_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out2_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k2_pay11 (k2_pay7 x3 x0 x1 x4 x2 x6 x7) (k2_pay8 x8) (constant S5000x64 .f32 0x00000000#32) x9 xo12 := by
  unfold out2_B_12
  rw [View.read_writes_eq_canon _ _ _ (cover2_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun2_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch not taken, window 13 is left at the pooling accumulator's payload of the read blocks and of what the buffer held: its one
    covering store, whose loads read whole buffers. -/
theorem out2_B_13_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out2_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k2_pay1 (k2_pay13 (k2_pay7 x3 x0 x1 x4 x2 x6 x7) (k2_pay8 x8) (constant S5000x64 .f32 0x00000000#32) x9 x5) xo13 := by
  unfold out2_B_13
  rw [View.read_writes_eq_canon _ _ _ (cover2_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun2_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch not taken, window 14 is left at the node-count accumulator's payload of the read blocks and of what the buffer held: its one
    covering store, whose loads read whole buffers. -/
theorem out2_B_14_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : ¬cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) (xo11 : Vec F S1x1x64 .f32) (xo12 : Vec F S1x1x64 .f32) (xo13 : Vec F S1x256x64 .f32) (xo14 : Vec F S1x1x256 .f32) :
    out2_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14
      = k2_pay2 (k2_pay12 x5) xo14 := by
  unfold out2_B_14
  rw [View.read_writes_eq_canon _ _ _ (cover2_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 xo12 xo13 xo14)]
  unfold kernelRun2_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, harg16.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 10 is left at the second layer's output block's payload of the read blocks. -/
theorem out2_A_10_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out2_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k2_pay9 (k2_pay7 x3 x0 x1 x4 x2 x6 x7) (k2_pay8 x8) (constant S5000x64 .f32 0x00000000#32) x9 := by
  unfold out2_A_10
  rw [View.read_writes_eq_canon _ _ _ (cover2_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun2_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 11 is left at the column-sum accumulator's payload of the read blocks and of the zero fill (stored first, read back, then covered by the sum). -/
theorem out2_A_11_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out2_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k2_pay10 (k2_pay7 x3 x0 x1 x4 x2 x6 x7) (k2_pay8 x8) (constant S5000x64 .f32 0x00000000#32) x9 k2_pay3 := by
  unfold out2_A_11
  rw [View.read_writes_eq_canon _ _ _ (cover2_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun2_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 12 is left at the sum-of-squares accumulator's payload of the read blocks and of the zero fill (stored first, read back, then covered by the sum). -/
theorem out2_A_12_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out2_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k2_pay11 (k2_pay7 x3 x0 x1 x4 x2 x6 x7) (k2_pay8 x8) (constant S5000x64 .f32 0x00000000#32) x9 k2_pay4 := by
  unfold out2_A_12
  rw [View.read_writes_eq_canon _ _ _ (cover2_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun2_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 13 is left at the pooling accumulator's payload of the read blocks and of the zero fill (stored first, read back, then covered by the sum). -/
theorem out2_A_13_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out2_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k2_pay1 (k2_pay13 (k2_pay7 x3 x0 x1 x4 x2 x6 x7) (k2_pay8 x8) (constant S5000x64 .f32 0x00000000#32) x9 x5) k2_pay5 := by
  unfold out2_A_13
  rw [View.read_writes_eq_canon _ _ _ (cover2_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun2_A
  dsimp only
  sl_unfold_words
  rw [View.canon_cons_unit_zero (S := S1x256x64) hz3, View.readCov_unit_zero (S := S1x256x64) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

/-- With the branch taken, window 14 is left at the node-count accumulator's payload of the read blocks and of the zero fill (stored first, read back, then covered by the sum). -/
theorem out2_A_14_eq (c : Dev nD) (i : grid2.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S5000x64 .f32) (harg12 : arg12.IsWhole) (arg13 : Memref sig .tc .vmem S1x1x64 .f32) (harg13 : arg13.IsWhole) (arg14 : Memref sig .tc .vmem S1x1x64 .f32) (harg14 : arg14.IsWhole) (arg15 : Memref sig .tc .vmem S1x256x64 .f32) (harg15 : arg15.IsWhole) (arg16 : Memref sig .tc .vmem S1x1x256 .f32) (harg16 : arg16.IsWhole) (hc0 : cond2_0 i)
    (x0 : Vec F S5000x64 .f32) (x1 : Vec F S5000x64 .f32) (x2 : Vec F S5000x1 .f32) (x3 : Vec F S1x64 .f32) (x4 : Vec F S1x64 .f32) (x5 : Vec F S5000x1 .i32) (x6 : Vec F S64x64 .f32) (x7 : Vec F S1x64 .f32) (x8 : Vec F S64x64 .f32) (x9 : Vec F S1x64 .f32) :
    out2_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k2_pay2 (k2_pay12 x5) k2_pay6 := by
  unfold out2_A_14
  rw [View.read_writes_eq_canon _ _ _ (cover2_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun2_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S5000x64) hz2, View.ld_unit_zero (S := S5000x1) hz2, View.ld_unit_zero (S := S1x64) hz2, View.ld_unit_zero (S := S64x64) hz2, View.ld_unit_zero (S := S1x1x64) hz3, View.ld_unit_zero (S := S1x256x64) hz3, View.ld_unit_zero (S := S1x1x256) hz3]

end Pieces

/-! ## The arrays and the blocks, by their literal types -/

section Value
variable (V : (c : Dev nD) → (b : Ref sig .tc) → Buf (Elt Ideal) ((c : Thread nD τ).loc b)) (c : Dev nD)

abbrev rawA : Vec Ideal S50000x64 .f32 := V c (Pipeline.arrRef spec2 0)
abbrev aggA : Vec Ideal S50000x64 .f32 := V c (Pipeline.arrRef spec2 1)
abbrev degA : Vec Ideal S50000x1 .f32 := V c (Pipeline.arrRef spec2 2)
abbrev sA : Vec Ideal S1x64 .f32 := V c (Pipeline.arrRef spec2 3)
abbrev tA : Vec Ideal S1x64 .f32 := V c (Pipeline.arrRef spec2 4)
abbrev batA : Vec Ideal S50000x1 .i32 := V c (Pipeline.arrRef spec2 5)
abbrev w1A : Vec Ideal S64x64 .f32 := V c (Pipeline.arrRef spec2 6)
abbrev b1A : Vec Ideal S1x64 .f32 := V c (Pipeline.arrRef spec2 7)
abbrev w2A : Vec Ideal S64x64 .f32 := V c (Pipeline.arrRef spec2 8)
abbrev b2A : Vec Ideal S1x64 .f32 := V c (Pipeline.arrRef spec2 9)

abbrev b0 (t : Fin cfg2.N) : Vec Ideal S5000x64 .f32 := iblk2 V c 0 t
abbrev b1 (t : Fin cfg2.N) : Vec Ideal S5000x64 .f32 := iblk2 V c 1 t
abbrev b2 (t : Fin cfg2.N) : Vec Ideal S5000x1 .f32 := iblk2 V c 2 t
abbrev b3 (t : Fin cfg2.N) : Vec Ideal S1x64 .f32 := iblk2 V c 3 t
abbrev b4 (t : Fin cfg2.N) : Vec Ideal S1x64 .f32 := iblk2 V c 4 t
abbrev b5 (t : Fin cfg2.N) : Vec Ideal S5000x1 .i32 := iblk2 V c 5 t
abbrev b6 (t : Fin cfg2.N) : Vec Ideal S64x64 .f32 := iblk2 V c 6 t
abbrev b7 (t : Fin cfg2.N) : Vec Ideal S1x64 .f32 := iblk2 V c 7 t
abbrev b8 (t : Fin cfg2.N) : Vec Ideal S64x64 .f32 := iblk2 V c 8 t
abbrev b9 (t : Fin cfg2.N) : Vec Ideal S1x64 .f32 := iblk2 V c 9 t

/-! ## The windows' blocks as reads of their arrays -/

/-- The printed index maps, decided over the ten points: the tiled windows (0, 1, 2, 5, 10) are at block (t, 0), the
    whole-array windows at block (0, 0), the per-core windows (11–14) at block (t / 5, 0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

theorem idx_facts2' : ∀ t : Fin cfg2.N,
    win2_11.index t (0 : Fin 3) = t.val / 5 ∧ win2_11.index t (1 : Fin 3) = 0 ∧ win2_11.index t (2 : Fin 3) = 0
    ∧ win2_12.index t (0 : Fin 3) = t.val / 5 ∧ win2_12.index t (1 : Fin 3) = 0 ∧ win2_12.index t (2 : Fin 3) = 0
    ∧ win2_13.index t (0 : Fin 3) = t.val / 5 ∧ win2_13.index t (1 : Fin 3) = 0 ∧ win2_13.index t (2 : Fin 3) = 0
    ∧ win2_14.index t (0 : Fin 3) = t.val / 5 ∧ win2_14.index t (1 : Fin 3) = 0 ∧ win2_14.index t (2 : Fin 3) = 0 :=
  (by decide +kernel : ∀ t : Fin grid2.N, _)

/-- Window 0's block at point `t` is rows `5000 t … 5000 t + 4999` of its array. -/
theorem b0_apply (t : Fin cfg2.N) (r : Fin 5000) (j : Fin 64) (n : Fin 50000) (hn : n.val = t.val * 5000 + r.val) :
    b0 V c t (ix2 r j) = rawA V c (ix2 n j) := by
  have hi := idx_facts2 t
  unfold b0 rawA iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * r.val = n.val; omega
  | ⟨1, _⟩ => show win2_0.index t (1 : Fin 2) * 64 + 1 * j.val = j.val; omega

/-- Window 1's block at point `t` is rows `5000 t … 5000 t + 4999` of its array. -/
theorem b1_apply (t : Fin cfg2.N) (r : Fin 5000) (j : Fin 64) (n : Fin 50000) (hn : n.val = t.val * 5000 + r.val) :
    b1 V c t (ix2 r j) = aggA V c (ix2 n j) := by
  have hi := idx_facts2 t
  unfold b1 aggA iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * r.val = n.val; omega
  | ⟨1, _⟩ => show win2_1.index t (1 : Fin 2) * 64 + 1 * j.val = j.val; omega

/-- Window 2's block at point `t` is rows `5000 t … 5000 t + 4999` of its array. -/
theorem b2_apply (t : Fin cfg2.N) (r : Fin 5000) (j : Fin 1) (n : Fin 50000) (hn : n.val = t.val * 5000 + r.val) :
    b2 V c t (ix2 r j) = degA V c (ix2 n j) := by
  have hi := idx_facts2 t
  unfold b2 degA iblk2
  rw [View.read_apply]
  show V c (Pipeline.arrRef spec2 2) _ = V c (Pipeline.arrRef spec2 2) _
  congr 1
  funext a
  apply Fin.ext
  match a with
  | ⟨0, _⟩ => show win2_2.index t (0 : Fin 2) * 5000 + 1 * r.val = n.val; omega
  | ⟨1, _⟩ => show win2_2.index t (1 : Fin 2) * 1 + 1 * j.val = j.val; omega

/-- Window 5's block at point `t` is rows `5000 t … 5000 t + 4999` of its array. -/
theorem b5_apply (t : Fin cfg2.N) (r : Fin 5000) (j : Fin 1) (n : Fin 50000) (hn : n.val = t.val * 5000 + r.val) :
    b5 V c t (ix2 r j) = batA V c (ix2 n j) := by
  have hi := idx_facts2 t
  unfold b5 batA iblk2
  rw [View.read_apply]
  show V c (Pipeline.arrRef spec2 5) _ = V c (Pipeline.arrRef spec2 5) _
  congr 1
  funext a
  apply Fin.ext
  match a with
  | ⟨0, _⟩ => show win2_5.index t (0 : Fin 2) * 5000 + 1 * r.val = n.val; omega
  | ⟨1, _⟩ => show win2_5.index t (1 : Fin 2) * 1 + 1 * j.val = j.val; omega

/-- Window 3's block at any point is its whole array. -/
theorem b3_apply (t : Fin cfg2.N) (k : S1x64.Idx) : b3 V c t k = sA V c k := by
  have hi := idx_facts2 t
  unfold b3 sA iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (k 0).val = (k 0).val; omega
  | ⟨1, _⟩ => show win2_3.index t (1 : Fin 2) * 64 + 1 * (k 1).val = (k 1).val; omega

/-- Window 4's block at any point is its whole array. -/
theorem b4_apply (t : Fin cfg2.N) (k : S1x64.Idx) : b4 V c t k = tA V c k := by
  have hi := idx_facts2 t
  unfold b4 tA iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (k 0).val = (k 0).val; omega
  | ⟨1, _⟩ => show win2_4.index t (1 : Fin 2) * 64 + 1 * (k 1).val = (k 1).val; omega

/-- Window 6's block at any point is its whole array. -/
theorem b6_apply (t : Fin cfg2.N) (k : S64x64.Idx) : b6 V c t k = w1A V c k := by
  have hi := idx_facts2 t
  unfold b6 w1A iblk2
  rw [View.read_apply]
  show V c (Pipeline.arrRef spec2 6) _ = V c (Pipeline.arrRef spec2 6) _
  congr 1
  funext a
  apply Fin.ext
  match a with
  | ⟨0, _⟩ => show win2_6.index t (0 : Fin 2) * 64 + 1 * (k 0).val = (k 0).val; omega
  | ⟨1, _⟩ => show win2_6.index t (1 : Fin 2) * 64 + 1 * (k 1).val = (k 1).val; omega

/-- Window 7's block at any point is its whole array. -/
theorem b7_apply (t : Fin cfg2.N) (k : S1x64.Idx) : b7 V c t k = b1A V c k := by
  have hi := idx_facts2 t
  unfold b7 b1A iblk2
  rw [View.read_apply]
  show V c (Pipeline.arrRef spec2 7) _ = V c (Pipeline.arrRef spec2 7) _
  congr 1
  funext a
  apply Fin.ext
  match a with
  | ⟨0, _⟩ => show win2_7.index t (0 : Fin 2) * 1 + 1 * (k 0).val = (k 0).val; omega
  | ⟨1, _⟩ => show win2_7.index t (1 : Fin 2) * 64 + 1 * (k 1).val = (k 1).val; omega

/-- Window 8's block at any point is its whole array. -/
theorem b8_apply (t : Fin cfg2.N) (k : S64x64.Idx) : b8 V c t k = w2A V c k := by
  have hi := idx_facts2 t
  unfold b8 w2A iblk2
  rw [View.read_apply]
  show V c (Pipeline.arrRef spec2 8) _ = V c (Pipeline.arrRef spec2 8) _
  congr 1
  funext a
  apply Fin.ext
  match a with
  | ⟨0, _⟩ => show win2_8.index t (0 : Fin 2) * 64 + 1 * (k 0).val = (k 0).val; omega
  | ⟨1, _⟩ => show win2_8.index t (1 : Fin 2) * 64 + 1 * (k 1).val = (k 1).val; omega

/-- Window 9's block at any point is its whole array. -/
theorem b9_apply (t : Fin cfg2.N) (k : S1x64.Idx) : b9 V c t k = b2A V c k := by
  have hi := idx_facts2 t
  unfold b9 b2A iblk2
  rw [View.read_apply]
  show V c (Pipeline.arrRef spec2 9) _ = V c (Pipeline.arrRef spec2 9) _
  congr 1
  funext a
  apply Fin.ext
  match a with
  | ⟨0, _⟩ => show win2_9.index t (0 : Fin 2) * 1 + 1 * (k 0).val = (k 0).val; omega
  | ⟨1, _⟩ => show win2_9.index t (1 : Fin 2) * 64 + 1 * (k 1).val = (k 1).val; omega

/-- The second layer's output on tile `t`, row `r`, is its output at node `5000 t + r`. -/
theorem hpT_eq (t : Fin cfg2.N) (r : Fin 5000) (k : Fin 64) (n : Fin 50000) (hn : n.val = t.val * 5000 + r.val) :
    hpT (b0 V c t) (b1 V c t) (b2 V c t) (b3 V c t) (b4 V c t) (b6 V c t) (b7 V c t) (b8 V c t) (b9 V c t) r k = hpost (rawA V c) (aggA V c) (degA V c) (sA V c) (tA V c) (w1A V c) (b1A V c) (w2A V c) (b2A V c) n k := by
  unfold hpT hpost h1T h1 xinT xin
  simp only [b0_apply V c t r _ n hn, b1_apply V c t r _ n hn, b2_apply V c t r _ n hn, b3_apply V c t, b4_apply V c t,
    b6_apply V c t, b7_apply V c t, b8_apply V c t, b9_apply V c t]

/-- The one-hot word of tile `t`'s row `r` is that of node `5000 t + r`. -/
theorem ohw_eq (t : Fin cfg2.N) (r : Fin 5000) (g : Fin 256) (n : Fin 50000) (hn : n.val = t.val * 5000 + r.val) :
    ohw (b5 V c t (ix2 r 0)) g = oh (batA V c) n g := by
  unfold ohw oh
  rw [b5_apply V c t r 0 n hn]

/-! ## What the written windows hold after a point -/

/-- Window 10 after any point: the second layer's output on the point's tile. -/
theorem at10 (t : Fin cfg2.N) (r : Fin 5000) (k : Fin 64) :
    (outsAt2 V c t.val t.isLt).1 (ix2 r k) = hpT (b0 V c t) (b1 V c t) (b2 V c t) (b3 V c t) (b4 V c t) (b6 V c t) (b7 V c t) (b8 V c t) (b9 V c t) r k := by
  by_cases h0 : t.val % 5 = 0
  · rw [outsAt2_A V c t h0]
    dsimp only
    refine (congrFun (out2_A_10_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) (ix2 r k)).trans ?_
    exact hp_apply (b0 V c t) (b1 V c t) (b2 V c t) (b3 V c t) (b4 V c t) (b6 V c t) (b7 V c t) (b8 V c t) (b9 V c t) r k
  · rw [outsAt2_B V c t h0]
    dsimp only
    refine (congrFun (out2_B_10_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 r k)).trans ?_
    exact hp_apply (b0 V c t) (b1 V c t) (b2 V c t) (b3 V c t) (b4 V c t) (b6 V c t) (b7 V c t) (b8 V c t) (b9 V c t) r k

/-- The addends of the four accumulators at point `t`. -/
def add11 (t : Fin cfg2.N) (k : Fin 64) : EReal := ∑ r : Fin 5000, hpT (b0 V c t) (b1 V c t) (b2 V c t) (b3 V c t) (b4 V c t) (b6 V c t) (b7 V c t) (b8 V c t) (b9 V c t) r k
def add12 (t : Fin cfg2.N) (k : Fin 64) : EReal := ∑ r : Fin 5000, hpT (b0 V c t) (b1 V c t) (b2 V c t) (b3 V c t) (b4 V c t) (b6 V c t) (b7 V c t) (b8 V c t) (b9 V c t) r k * hpT (b0 V c t) (b1 V c t) (b2 V c t) (b3 V c t) (b4 V c t) (b6 V c t) (b7 V c t) (b8 V c t) (b9 V c t) r k
def add13 (t : Fin cfg2.N) (g : Fin 256) (k : Fin 64) : EReal := ∑ r : Fin 5000, ohw (b5 V c t (ix2 r 0)) g * hpT (b0 V c t) (b1 V c t) (b2 V c t) (b3 V c t) (b4 V c t) (b6 V c t) (b7 V c t) (b8 V c t) (b9 V c t) r k
def add14 (t : Fin cfg2.N) (g : Fin 256) : EReal := ∑ r : Fin 5000, ohw (b5 V c t (ix2 r 0)) g

theorem sum_at (t : Fin cfg2.N) (v43 : Vec Ideal S1x1x64 .f32) (k : Fin 64) :
    k2_pay10 (F := Ideal) (k2_pay7 (b3 V c t) (b0 V c t) (b1 V c t) (b4 V c t) (b2 V c t) (b6 V c t) (b7 V c t)) (k2_pay8 (b8 V c t)) (constant (F := Ideal) S5000x64 .f32 0x00000000#32) (b9 V c t) v43 (ix3 0 0 k) = v43 (ix3 0 0 k) + add11 V c t k := by
  refine (pay10_apply _ _ _ _ v43 k).trans ?_
  unfold add11
  exact congrArg (v43 (ix3 0 0 k) + ·) (Finset.sum_congr rfl fun r _ => hp_apply (b0 V c t) (b1 V c t) (b2 V c t) (b3 V c t) (b4 V c t) (b6 V c t) (b7 V c t) (b8 V c t) (b9 V c t) r k)

theorem sumsq_at (t : Fin cfg2.N) (v51 : Vec Ideal S1x1x64 .f32) (k : Fin 64) :
    k2_pay11 (F := Ideal) (k2_pay7 (b3 V c t) (b0 V c t) (b1 V c t) (b4 V c t) (b2 V c t) (b6 V c t) (b7 V c t)) (k2_pay8 (b8 V c t)) (constant (F := Ideal) S5000x64 .f32 0x00000000#32) (b9 V c t) v51 (ix3 0 0 k) = v51 (ix3 0 0 k) + add12 V c t k := by
  refine (pay11_apply _ _ _ _ v51 k).trans ?_
  unfold add12
  exact congrArg (v51 (ix3 0 0 k) + ·) (Finset.sum_congr rfl fun r _ => by rw [hp_apply (b0 V c t) (b1 V c t) (b2 V c t) (b3 V c t) (b4 V c t) (b6 V c t) (b7 V c t) (b8 V c t) (b9 V c t) r k])

theorem pool_at (t : Fin cfg2.N) (v68 : Vec Ideal S1x256x64 .f32) (g : Fin 256) (k : Fin 64) :
    k2_pay1 (F := Ideal) (k2_pay13 (k2_pay7 (b3 V c t) (b0 V c t) (b1 V c t) (b4 V c t) (b2 V c t) (b6 V c t) (b7 V c t)) (k2_pay8 (b8 V c t)) (constant (F := Ideal) S5000x64 .f32 0x00000000#32) (b9 V c t) (b5 V c t)) v68 (ix3 0 g k) = v68 (ix3 0 g k) + add13 V c t g k := by
  refine (pay1_apply _ v68 g k).trans ?_
  unfold add13
  refine congrArg (v68 (ix3 0 g k) + ·) ((pay13_apply _ _ _ _ (b5 V c t) g k).trans ?_)
  exact Finset.sum_congr rfl fun r _ => congrArg (ohw (b5 V c t (ix2 r 0)) g * ·) (hp_apply (b0 V c t) (b1 V c t) (b2 V c t) (b3 V c t) (b4 V c t) (b6 V c t) (b7 V c t) (b8 V c t) (b9 V c t) r k)

theorem cnt_at (t : Fin cfg2.N) (v74 : Vec Ideal S1x1x256 .f32) (g : Fin 256) :
    k2_pay2 (F := Ideal) (k2_pay12 (b5 V c t)) v74 (ix3 0 0 g) = v74 (ix3 0 0 g) + add14 V c t g := by
  refine (pay2_apply _ v74 g).trans ?_
  unfold add14
  exact congrArg (v74 (ix3 0 0 g) + ·) (Finset.sum_congr rfl fun r _ => pay12_apply (b5 V c t) r g)

/-- Window 11 after a core's first point: the zero fill plus the point's addend. -/
theorem base11 (t : Fin cfg2.N) (h0 : t.val % 5 = 0) (k : Fin 64) :
    (outsAt2 V c t.val t.isLt).2.1 (ix3 0 0 k) = Ideal.ofBits .f32 0x00000000#32 + add11 V c t k := by
  rw [outsAt2_A V c t h0]
  dsimp only
  refine (congrFun (out2_A_11_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) (ix3 0 0 k)).trans ?_
  exact sum_at V c t (k2_pay3 (F := Ideal)) k

/-- Window 11 after a later point: what the point before left plus the point's addend. -/
theorem step11 (t : Fin cfg2.N) (h0 : ¬t.val % 5 = 0) (k : Fin 64) :
    (outsAt2 V c t.val t.isLt).2.1 (ix3 0 0 k)
      = (outsAt2 V c (t.val - 1) (Nat.lt_of_le_of_lt (Nat.sub_le _ _) t.isLt)).2.1 (ix3 0 0 k) + add11 V c t k := by
  rw [outsAt2_B V c t h0]
  dsimp only
  refine (congrFun (out2_B_11_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix3 0 0 k)).trans ?_
  exact sum_at V c t _ k

/-- Window 12 after a core's first point: the zero fill plus the point's addend. -/
theorem base12 (t : Fin cfg2.N) (h0 : t.val % 5 = 0) (k : Fin 64) :
    (outsAt2 V c t.val t.isLt).2.2.1 (ix3 0 0 k) = Ideal.ofBits .f32 0x00000000#32 + add12 V c t k := by
  rw [outsAt2_A V c t h0]
  dsimp only
  refine (congrFun (out2_A_12_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) (ix3 0 0 k)).trans ?_
  exact sumsq_at V c t (k2_pay4 (F := Ideal)) k

/-- Window 12 after a later point: what the point before left plus the point's addend. -/
theorem step12 (t : Fin cfg2.N) (h0 : ¬t.val % 5 = 0) (k : Fin 64) :
    (outsAt2 V c t.val t.isLt).2.2.1 (ix3 0 0 k)
      = (outsAt2 V c (t.val - 1) (Nat.lt_of_le_of_lt (Nat.sub_le _ _) t.isLt)).2.2.1 (ix3 0 0 k) + add12 V c t k := by
  rw [outsAt2_B V c t h0]
  dsimp only
  refine (congrFun (out2_B_12_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix3 0 0 k)).trans ?_
  exact sumsq_at V c t _ k

/-- Window 13 after a core's first point: the zero fill plus the point's addend. -/
theorem base13 (t : Fin cfg2.N) (h0 : t.val % 5 = 0) (g : Fin 256) (k : Fin 64) :
    (outsAt2 V c t.val t.isLt).2.2.2.1 (ix3 0 g k) = Ideal.ofBits .f32 0x00000000#32 + add13 V c t g k := by
  rw [outsAt2_A V c t h0]
  dsimp only
  refine (congrFun (out2_A_13_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) (ix3 0 g k)).trans ?_
  exact pool_at V c t (k2_pay5 (F := Ideal)) g k

/-- Window 13 after a later point: what the point before left plus the point's addend. -/
theorem step13 (t : Fin cfg2.N) (h0 : ¬t.val % 5 = 0) (g : Fin 256) (k : Fin 64) :
    (outsAt2 V c t.val t.isLt).2.2.2.1 (ix3 0 g k)
      = (outsAt2 V c (t.val - 1) (Nat.lt_of_le_of_lt (Nat.sub_le _ _) t.isLt)).2.2.2.1 (ix3 0 g k) + add13 V c t g k := by
  rw [outsAt2_B V c t h0]
  dsimp only
  refine (congrFun (out2_B_13_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix3 0 g k)).trans ?_
  exact pool_at V c t _ g k

/-- Window 14 after a core's first point: the zero fill plus the point's addend. -/
theorem base14 (t : Fin cfg2.N) (h0 : t.val % 5 = 0) (g : Fin 256) :
    (outsAt2 V c t.val t.isLt).2.2.2.2 (ix3 0 0 g) = Ideal.ofBits .f32 0x00000000#32 + add14 V c t g := by
  rw [outsAt2_A V c t h0]
  dsimp only
  refine (congrFun (out2_A_14_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) (ix3 0 0 g)).trans ?_
  exact cnt_at V c t (k2_pay6 (F := Ideal)) g

/-- Window 14 after a later point: what the point before left plus the point's addend. -/
theorem step14 (t : Fin cfg2.N) (h0 : ¬t.val % 5 = 0) (g : Fin 256) :
    (outsAt2 V c t.val t.isLt).2.2.2.2 (ix3 0 0 g)
      = (outsAt2 V c (t.val - 1) (Nat.lt_of_le_of_lt (Nat.sub_le _ _) t.isLt)).2.2.2.2 (ix3 0 0 g) + add14 V c t g := by
  rw [outsAt2_B V c t h0]
  dsimp only
  refine (congrFun (out2_B_14_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix3 0 0 g)).trans ?_
  exact cnt_at V c t _ g

/-! ## The accumulation over a core's five points -/

/-- A quantity that starts at `z` plus its addend at a core's first point and grows by its addend at each later point
    is, `j` points on, `z` plus the sum of the addends so far. -/
theorem acc_closed (f M : (n : ℕ) → n < cfg2.N → EReal) (z : EReal)
    (hb : ∀ (n : ℕ) (h : n < cfg2.N), n % 5 = 0 → f n h = z + M n h)
    (hs : ∀ (n : ℕ) (h : n + 1 < cfg2.N), ¬(n + 1) % 5 = 0 → f (n + 1) h = f n (Nat.lt_of_succ_lt h) + M (n + 1) h)
    (q : ℕ) : ∀ (j : ℕ) (hj : j < 5) (h : 5 * q + j < cfg2.N),
      f (5 * q + j) h = z + ∑ s : Fin (j + 1), M (5 * q + s.val) (Nat.lt_of_le_of_lt (Nat.add_le_add_left (Nat.le_of_lt_succ s.isLt) _) h)
  | 0, _, h => by
    rw [Fin.sum_univ_one]
    exact hb (5 * q + 0) h (by omega)
  | j + 1, hj, h => by
    rw [Fin.sum_univ_castSucc]
    have ih := acc_closed f M z hb hs q j (by omega) (Nat.lt_of_succ_lt h)
    exact ((hs (5 * q + j) h (by omega)).trans (congrArg (· + M (5 * q + (j + 1)) h) ih)).trans (add_assoc _ _ _)

theorem hN2 : cfg2.N = 10 := N_2

/-- The last point of core `q`. -/
def lastPt (q : Fin 2) : Fin cfg2.N := ⟨5 * q.val + 4, by rw [hN2]; have := q.isLt; omega⟩
/-- Point `i` of core `q`. -/
def ptOf (q : Fin 2) (i : Fin 5) : Fin cfg2.N := ⟨5 * q.val + i.val, by rw [hN2]; have := q.isLt; have := i.isLt; omega⟩

/-- Window 11 after core `q`'s last point: the zero fill plus the five points' addends. -/
theorem last11 (q : Fin 2) (k : Fin 64) :
    (outsAt2 V c (lastPt q).val (lastPt q).isLt).2.1 (ix3 0 0 k) = Ideal.ofBits .f32 0x00000000#32 + ∑ i : Fin 5, add11 V c (ptOf q i) k :=
  acc_closed (fun n h => (outsAt2 V c n h).2.1 (ix3 0 0 k)) (fun n h => add11 V c ⟨n, h⟩ k) (Ideal.ofBits .f32 0x00000000#32)
    (fun n h h0 => base11 V c ⟨n, h⟩ h0 k)
    (fun n h h0 => step11 V c ⟨n + 1, h⟩ h0 k)
    q.val 4 (by omega) (lastPt q).isLt

/-- Window 12 after core `q`'s last point: the zero fill plus the five points' addends. -/
theorem last12 (q : Fin 2) (k : Fin 64) :
    (outsAt2 V c (lastPt q).val (lastPt q).isLt).2.2.1 (ix3 0 0 k) = Ideal.ofBits .f32 0x00000000#32 + ∑ i : Fin 5, add12 V c (ptOf q i) k :=
  acc_closed (fun n h => (outsAt2 V c n h).2.2.1 (ix3 0 0 k)) (fun n h => add12 V c ⟨n, h⟩ k) (Ideal.ofBits .f32 0x00000000#32)
    (fun n h h0 => base12 V c ⟨n, h⟩ h0 k)
    (fun n h h0 => step12 V c ⟨n + 1, h⟩ h0 k)
    q.val 4 (by omega) (lastPt q).isLt

/-- Window 13 after core `q`'s last point: the zero fill plus the five points' addends. -/
theorem last13 (q : Fin 2) (g : Fin 256) (k : Fin 64) :
    (outsAt2 V c (lastPt q).val (lastPt q).isLt).2.2.2.1 (ix3 0 g k) = Ideal.ofBits .f32 0x00000000#32 + ∑ i : Fin 5, add13 V c (ptOf q i) g k :=
  acc_closed (fun n h => (outsAt2 V c n h).2.2.2.1 (ix3 0 g k)) (fun n h => add13 V c ⟨n, h⟩ g k) (Ideal.ofBits .f32 0x00000000#32)
    (fun n h h0 => base13 V c ⟨n, h⟩ h0 g k)
    (fun n h h0 => step13 V c ⟨n + 1, h⟩ h0 g k)
    q.val 4 (by omega) (lastPt q).isLt

/-- Window 14 after core `q`'s last point: the zero fill plus the five points' addends. -/
theorem last14 (q : Fin 2) (g : Fin 256) :
    (outsAt2 V c (lastPt q).val (lastPt q).isLt).2.2.2.2 (ix3 0 0 g) = Ideal.ofBits .f32 0x00000000#32 + ∑ i : Fin 5, add14 V c (ptOf q i) g :=
  acc_closed (fun n h => (outsAt2 V c n h).2.2.2.2 (ix3 0 0 g)) (fun n h => add14 V c ⟨n, h⟩ g) (Ideal.ofBits .f32 0x00000000#32)
    (fun n h h0 => base14 V c ⟨n, h⟩ h0 g)
    (fun n h h0 => step14 V c ⟨n + 1, h⟩ h0 g)
    q.val 4 (by omega) (lastPt q).isLt

/-- Tile `ptOf q i`'s row `r` is node `rowOf q i r`. -/
theorem row_pt (q : Fin 2) (i : Fin 5) (r : Fin 5000) : (rowOf q i r).val = (ptOf q i).val * 5000 + r.val := rfl

theorem add11_eq (q : Fin 2) (i : Fin 5) (k : Fin 64) :
    add11 V c (ptOf q i) k = ∑ r : Fin 5000, hpost (rawA V c) (aggA V c) (degA V c) (sA V c) (tA V c) (w1A V c) (b1A V c) (w2A V c) (b2A V c) (rowOf q i r) k := by
  unfold add11
  exact Finset.sum_congr rfl fun r _ => hpT_eq V c (ptOf q i) r k (rowOf q i r) (row_pt q i r)

theorem add12_eq (q : Fin 2) (i : Fin 5) (k : Fin 64) :
    add12 V c (ptOf q i) k = ∑ r : Fin 5000, hpost (rawA V c) (aggA V c) (degA V c) (sA V c) (tA V c) (w1A V c) (b1A V c) (w2A V c) (b2A V c) (rowOf q i r) k * hpost (rawA V c) (aggA V c) (degA V c) (sA V c) (tA V c) (w1A V c) (b1A V c) (w2A V c) (b2A V c) (rowOf q i r) k := by
  unfold add12
  exact Finset.sum_congr rfl fun r _ => by rw [hpT_eq V c (ptOf q i) r k (rowOf q i r) (row_pt q i r)]

theorem add13_eq (q : Fin 2) (i : Fin 5) (g : Fin 256) (k : Fin 64) :
    add13 V c (ptOf q i) g k = ∑ r : Fin 5000, oh (batA V c) (rowOf q i r) g * hpost (rawA V c) (aggA V c) (degA V c) (sA V c) (tA V c) (w1A V c) (b1A V c) (w2A V c) (b2A V c) (rowOf q i r) k := by
  unfold add13
  exact Finset.sum_congr rfl fun r _ => by
    rw [hpT_eq V c (ptOf q i) r k (rowOf q i r) (row_pt q i r), ohw_eq V c (ptOf q i) r g (rowOf q i r) (row_pt q i r)]

theorem add14_eq (q : Fin 2) (i : Fin 5) (g : Fin 256) :
    add14 V c (ptOf q i) g = ∑ r : Fin 5000, oh (batA V c) (rowOf q i r) g := by
  unfold add14
  exact Finset.sum_congr rfl fun r _ => ohw_eq V c (ptOf q i) r g (rowOf q i r) (row_pt q i r)

/-! ## What a point writes back, the cover, and the arrays -/

/-- Window 10: what point `t` writes back is block `t` of the second layer's output. -/
theorem flushed10_eq (t : Fin cfg2.N) :
    (dat2 V c).flushed 10 t = ((cfg2.win 10).blk t).view.read (Elt Ideal) (out10 (rawA V c) (aggA V c) (degA V c) (sA V c) (tA V c) (w1A V c) (b1A V c) (w2A V c) (b2A V c)) := by
  show (cfg2.win 10).cut (grid2.coords t) ((dat2 V c).after 10 t) = _
  rw [after2_10]
  have hi := idx_facts2 t
  funext j
  obtain ⟨r, k, rfl⟩ : ∃ (r : Fin 5000) (k : Fin 64), j = ix2 r k := ⟨j 0, j 1, eq_ix2 j⟩
  show (outsAt2 V c t.val t.isLt).1 (ix2 r k) = out10 (rawA V c) (aggA V c) (degA V c) (sA V c) (tA V c) (w1A V c) (b1A V c) (w2A V c) (b2A V c) (((cfg2.win 10).blk t).view.emb (ix2 r k))
  rw [at10 V c t r k]
  have h0 : ((((cfg2.win 10).blk t).view.emb (ix2 r k) : S50000x64.Idx) 0).val = t.val * 5000 + r.val := by
    show win2_10.index t (0 : Fin 2) * 5000 + 1 * r.val = _; omega
  have h1 : ((((cfg2.win 10).blk t).view.emb (ix2 r k) : S50000x64.Idx) 1) = k := Fin.ext (by
    show win2_10.index t (1 : Fin 2) * 64 + 1 * k.val = _; omega)
  unfold out10
  rw [h1]
  exact hpT_eq V c t r k _ h0

theorem mem_blk10 (t : Fin cfg2.N) (i : S50000x64.Idx) :
    i ∈ ((cfg2.win 10).blk t).view.set ↔ ∀ a : Fin 2, win2_10.index t a * S5000x64.size a ≤ (i a).val ∧ (i a).val < win2_10.index t a * S5000x64.size a + S5000x64.size a := by
  show i ∈ ((View.whole (Pipeline.arrRef spec2 10)).slice (win2_10.rect t)).set ↔ _
  rw [View.set_slice_whole, Rect.mem_set_unit]
  exact Iff.rfl

/-- Every node's row is in the block of the point `row / 5000`; every point writes window 10 back. -/
theorem covered10 (i : S50000x64.Idx) :
    ∃ t : Fin cfg2.N, (cfg2.win 10).flush t = true ∧ i ∈ ((cfg2.win 10).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  have hi := idx_facts2 t
  refine ⟨t, flush2_10 t, ?_⟩
  rw [mem_blk10]
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 64 ≤ (i 1).val ∧ (i 1).val < win2_10.index t (1 : Fin 2) * 64 + 64; omega

/-- The second layer's output array after the region. -/
theorem final2_10 : (dat2 (F := Ideal) V c).arrAt 10 cfg2.N = out10 (rawA V c) (aggA V c) (degA V c) (sA V c) (tA V c) (w1A V c) (b1A V c) (w2A V c) (b2A V c) :=
  (dat2 V c).arrAt_eq_of_cover 10 (out10 (rawA V c) (aggA V c) (degA V c) (sA V c) (tA V c) (w1A V c) (b1A V c) (w2A V c) (b2A V c)) (fun t _ => flushed10_eq V c t) covered10

/-- Window 11: what a core's last point writes back is the core's block of the closed form. -/
theorem flushed11_eq (t : Fin cfg2.N) (hf : (cfg2.win 11).flush t = true) :
    (dat2 V c).flushed 11 t = ((cfg2.win 11).blk t).view.read (Elt Ideal) (out11 (rawA V c) (aggA V c) (degA V c) (sA V c) (tA V c) (w1A V c) (b1A V c) (w2A V c) (b2A V c)) := by
  have hN : cfg2.N = 10 := N_2
  have h4 : t.val % 5 = 4 := (flush2_11 t).mp hf
  obtain ⟨q, rfl⟩ : ∃ q : Fin 2, t = lastPt q := ⟨⟨t.val / 5, by have := t.isLt; omega⟩, Fin.ext (by show t.val = 5 * (t.val / 5) + 4; omega)⟩
  show (cfg2.win 11).cut (grid2.coords (lastPt q)) ((dat2 V c).after 11 (lastPt q)) = _
  rw [after2_11]
  have hi := idx_facts2' (lastPt q)
  have hq : (lastPt q).val / 5 = q.val := by show (5 * q.val + 4) / 5 = q.val; omega
  funext j
  obtain ⟨u, v, k, rfl⟩ : ∃ (u v : Fin 1) (k : Fin 64), j = ix3 u v k := ⟨j 0, j 1, j 2, eq_ix3 j⟩
  obtain rfl : u = 0 := Subsingleton.elim _ _
  obtain rfl : v = 0 := Subsingleton.elim _ _
  show (outsAt2 V c (lastPt q).val (lastPt q).isLt).2.1 (ix3 0 0 k) = out11 (rawA V c) (aggA V c) (degA V c) (sA V c) (tA V c) (w1A V c) (b1A V c) (w2A V c) (b2A V c) (((cfg2.win 11).blk (lastPt q)).view.emb (ix3 0 0 k))
  rw [last11 V c q k]
  have e0 : ((((cfg2.win 11).blk (lastPt q)).view.emb (ix3 0 0 k) : S2x1x64.Idx) 0) = q := Fin.ext (by
    show win2_11.index (lastPt q) (0 : Fin 3) * 1 + 1 * (0 : Fin 1).val = _; omega)

  have e2 : ((((cfg2.win 11).blk (lastPt q)).view.emb (ix3 0 0 k) : S2x1x64.Idx) 2) = k := Fin.ext (by
    show win2_11.index (lastPt q) (2 : Fin 3) * 64 + 1 * k.val = _; omega)
  unfold out11 sumOf
  rw [e0, e2]
  exact congrArg (Ideal.ofBits .f32 0x00000000#32 + ·) (Finset.sum_congr rfl fun i _ => add11_eq V c q i k)

theorem mem_blk11 (t : Fin cfg2.N) (i : S2x1x64.Idx) :
    i ∈ ((cfg2.win 11).blk t).view.set ↔ ∀ a : Fin 3, win2_11.index t a * S1x1x64.size a ≤ (i a).val ∧ (i a).val < win2_11.index t a * S1x1x64.size a + S1x1x64.size a := by
  show i ∈ ((View.whole (Pipeline.arrRef spec2 11)).slice (win2_11.rect t)).set ↔ _
  rw [View.set_slice_whole, Rect.mem_set_unit]
  exact Iff.rfl

/-- Every index of window 11's array is in the block its core's last point writes back. -/
theorem covered11 (i : S2x1x64.Idx) :
    ∃ t : Fin cfg2.N, (cfg2.win 11).flush t = true ∧ i ∈ ((cfg2.win 11).blk t).view.set := by
  have hi0 : (i 0).val < 2 := (i 0).isLt
  have hi1 : (i 1).val < 1 := (i 1).isLt
  have hi2 : (i 2).val < 64 := (i 2).isLt
  have hN : cfg2.N = 10 := N_2
  obtain ⟨t, ht⟩ : ∃ t : Fin cfg2.N, t.val = 5 * (i 0).val + 4 := ⟨⟨5 * (i 0).val + 4, by rw [hN]; omega⟩, rfl⟩
  have hi := idx_facts2' t
  refine ⟨t, (flush2_11 t).mpr (by omega), ?_⟩
  rw [mem_blk11]
  intro a
  match a with
  | ⟨0, _⟩ => show win2_11.index t (0 : Fin 3) * 1 ≤ (i 0).val ∧ (i 0).val < win2_11.index t (0 : Fin 3) * 1 + 1; omega
  | ⟨1, _⟩ => show win2_11.index t (1 : Fin 3) * 1 ≤ (i 1).val ∧ (i 1).val < win2_11.index t (1 : Fin 3) * 1 + 1; omega
  | ⟨2, _⟩ => show win2_11.index t (2 : Fin 3) * 64 ≤ (i 2).val ∧ (i 2).val < win2_11.index t (2 : Fin 3) * 64 + 64; omega

/-- Window 11's array after the region. -/
theorem final2_11 : (dat2 (F := Ideal) V c).arrAt 11 cfg2.N = out11 (rawA V c) (aggA V c) (degA V c) (sA V c) (tA V c) (w1A V c) (b1A V c) (w2A V c) (b2A V c) :=
  (dat2 V c).arrAt_eq_of_cover 11 (out11 (rawA V c) (aggA V c) (degA V c) (sA V c) (tA V c) (w1A V c) (b1A V c) (w2A V c) (b2A V c)) (flushed11_eq V c) covered11

/-- Window 12: what a core's last point writes back is the core's block of the closed form. -/
theorem flushed12_eq (t : Fin cfg2.N) (hf : (cfg2.win 12).flush t = true) :
    (dat2 V c).flushed 12 t = ((cfg2.win 12).blk t).view.read (Elt Ideal) (out12 (rawA V c) (aggA V c) (degA V c) (sA V c) (tA V c) (w1A V c) (b1A V c) (w2A V c) (b2A V c)) := by
  have hN : cfg2.N = 10 := N_2
  have h4 : t.val % 5 = 4 := (flush2_12 t).mp hf
  obtain ⟨q, rfl⟩ : ∃ q : Fin 2, t = lastPt q := ⟨⟨t.val / 5, by have := t.isLt; omega⟩, Fin.ext (by show t.val = 5 * (t.val / 5) + 4; omega)⟩
  show (cfg2.win 12).cut (grid2.coords (lastPt q)) ((dat2 V c).after 12 (lastPt q)) = _
  rw [after2_12]
  have hi := idx_facts2' (lastPt q)
  have hq : (lastPt q).val / 5 = q.val := by show (5 * q.val + 4) / 5 = q.val; omega
  funext j
  obtain ⟨u, v, k, rfl⟩ : ∃ (u v : Fin 1) (k : Fin 64), j = ix3 u v k := ⟨j 0, j 1, j 2, eq_ix3 j⟩
  obtain rfl : u = 0 := Subsingleton.elim _ _
  obtain rfl : v = 0 := Subsingleton.elim _ _
  show (outsAt2 V c (lastPt q).val (lastPt q).isLt).2.2.1 (ix3 0 0 k) = out12 (rawA V c) (aggA V c) (degA V c) (sA V c) (tA V c) (w1A V c) (b1A V c) (w2A V c) (b2A V c) (((cfg2.win 12).blk (lastPt q)).view.emb (ix3 0 0 k))
  rw [last12 V c q k]
  have e0 : ((((cfg2.win 12).blk (lastPt q)).view.emb (ix3 0 0 k) : S2x1x64.Idx) 0) = q := Fin.ext (by
    show win2_12.index (lastPt q) (0 : Fin 3) * 1 + 1 * (0 : Fin 1).val = _; omega)

  have e2 : ((((cfg2.win 12).blk (lastPt q)).view.emb (ix3 0 0 k) : S2x1x64.Idx) 2) = k := Fin.ext (by
    show win2_12.index (lastPt q) (2 : Fin 3) * 64 + 1 * k.val = _; omega)
  unfold out12 sumsqOf
  rw [e0, e2]
  exact congrArg (Ideal.ofBits .f32 0x00000000#32 + ·) (Finset.sum_congr rfl fun i _ => add12_eq V c q i k)

theorem mem_blk12 (t : Fin cfg2.N) (i : S2x1x64.Idx) :
    i ∈ ((cfg2.win 12).blk t).view.set ↔ ∀ a : Fin 3, win2_12.index t a * S1x1x64.size a ≤ (i a).val ∧ (i a).val < win2_12.index t a * S1x1x64.size a + S1x1x64.size a := by
  show i ∈ ((View.whole (Pipeline.arrRef spec2 12)).slice (win2_12.rect t)).set ↔ _
  rw [View.set_slice_whole, Rect.mem_set_unit]
  exact Iff.rfl

/-- Every index of window 12's array is in the block its core's last point writes back. -/
theorem covered12 (i : S2x1x64.Idx) :
    ∃ t : Fin cfg2.N, (cfg2.win 12).flush t = true ∧ i ∈ ((cfg2.win 12).blk t).view.set := by
  have hi0 : (i 0).val < 2 := (i 0).isLt
  have hi1 : (i 1).val < 1 := (i 1).isLt
  have hi2 : (i 2).val < 64 := (i 2).isLt
  have hN : cfg2.N = 10 := N_2
  obtain ⟨t, ht⟩ : ∃ t : Fin cfg2.N, t.val = 5 * (i 0).val + 4 := ⟨⟨5 * (i 0).val + 4, by rw [hN]; omega⟩, rfl⟩
  have hi := idx_facts2' t
  refine ⟨t, (flush2_12 t).mpr (by omega), ?_⟩
  rw [mem_blk12]
  intro a
  match a with
  | ⟨0, _⟩ => show win2_12.index t (0 : Fin 3) * 1 ≤ (i 0).val ∧ (i 0).val < win2_12.index t (0 : Fin 3) * 1 + 1; omega
  | ⟨1, _⟩ => show win2_12.index t (1 : Fin 3) * 1 ≤ (i 1).val ∧ (i 1).val < win2_12.index t (1 : Fin 3) * 1 + 1; omega
  | ⟨2, _⟩ => show win2_12.index t (2 : Fin 3) * 64 ≤ (i 2).val ∧ (i 2).val < win2_12.index t (2 : Fin 3) * 64 + 64; omega

/-- Window 12's array after the region. -/
theorem final2_12 : (dat2 (F := Ideal) V c).arrAt 12 cfg2.N = out12 (rawA V c) (aggA V c) (degA V c) (sA V c) (tA V c) (w1A V c) (b1A V c) (w2A V c) (b2A V c) :=
  (dat2 V c).arrAt_eq_of_cover 12 (out12 (rawA V c) (aggA V c) (degA V c) (sA V c) (tA V c) (w1A V c) (b1A V c) (w2A V c) (b2A V c)) (flushed12_eq V c) covered12

/-- Window 13: what a core's last point writes back is the core's block of the closed form. -/
theorem flushed13_eq (t : Fin cfg2.N) (hf : (cfg2.win 13).flush t = true) :
    (dat2 V c).flushed 13 t = ((cfg2.win 13).blk t).view.read (Elt Ideal) (out13 (rawA V c) (aggA V c) (degA V c) (sA V c) (tA V c) (batA V c) (w1A V c) (b1A V c) (w2A V c) (b2A V c)) := by
  have hN : cfg2.N = 10 := N_2
  have h4 : t.val % 5 = 4 := (flush2_13 t).mp hf
  obtain ⟨q, rfl⟩ : ∃ q : Fin 2, t = lastPt q := ⟨⟨t.val / 5, by have := t.isLt; omega⟩, Fin.ext (by show t.val = 5 * (t.val / 5) + 4; omega)⟩
  show (cfg2.win 13).cut (grid2.coords (lastPt q)) ((dat2 V c).after 13 (lastPt q)) = _
  rw [after2_13]
  have hi := idx_facts2' (lastPt q)
  have hq : (lastPt q).val / 5 = q.val := by show (5 * q.val + 4) / 5 = q.val; omega
  funext j
  obtain ⟨u, g, k, rfl⟩ : ∃ (u : Fin 1) (g : Fin 256) (k : Fin 64), j = ix3 u g k := ⟨j 0, j 1, j 2, eq_ix3 j⟩
  obtain rfl : u = 0 := Subsingleton.elim _ _
  show (outsAt2 V c (lastPt q).val (lastPt q).isLt).2.2.2.1 (ix3 0 g k) = out13 (rawA V c) (aggA V c) (degA V c) (sA V c) (tA V c) (batA V c) (w1A V c) (b1A V c) (w2A V c) (b2A V c) (((cfg2.win 13).blk (lastPt q)).view.emb (ix3 0 g k))
  rw [last13 V c q g k]
  have e0 : ((((cfg2.win 13).blk (lastPt q)).view.emb (ix3 0 g k) : S2x256x64.Idx) 0) = q := Fin.ext (by
    show win2_13.index (lastPt q) (0 : Fin 3) * 1 + 1 * (0 : Fin 1).val = _; omega)
  have e1 : ((((cfg2.win 13).blk (lastPt q)).view.emb (ix3 0 g k) : S2x256x64.Idx) 1) = g := Fin.ext (by
    show win2_13.index (lastPt q) (1 : Fin 3) * 256 + 1 * g.val = _; omega)
  have e2 : ((((cfg2.win 13).blk (lastPt q)).view.emb (ix3 0 g k) : S2x256x64.Idx) 2) = k := Fin.ext (by
    show win2_13.index (lastPt q) (2 : Fin 3) * 64 + 1 * k.val = _; omega)
  unfold out13 poolOf
  rw [e0, e1, e2]
  exact congrArg (Ideal.ofBits .f32 0x00000000#32 + ·) (Finset.sum_congr rfl fun i _ => add13_eq V c q i g k)

theorem mem_blk13 (t : Fin cfg2.N) (i : S2x256x64.Idx) :
    i ∈ ((cfg2.win 13).blk t).view.set ↔ ∀ a : Fin 3, win2_13.index t a * S1x256x64.size a ≤ (i a).val ∧ (i a).val < win2_13.index t a * S1x256x64.size a + S1x256x64.size a := by
  show i ∈ ((View.whole (Pipeline.arrRef spec2 13)).slice (win2_13.rect t)).set ↔ _
  rw [View.set_slice_whole, Rect.mem_set_unit]
  exact Iff.rfl

/-- Every index of window 13's array is in the block its core's last point writes back. -/
theorem covered13 (i : S2x256x64.Idx) :
    ∃ t : Fin cfg2.N, (cfg2.win 13).flush t = true ∧ i ∈ ((cfg2.win 13).blk t).view.set := by
  have hi0 : (i 0).val < 2 := (i 0).isLt
  have hi1 : (i 1).val < 256 := (i 1).isLt
  have hi2 : (i 2).val < 64 := (i 2).isLt
  have hN : cfg2.N = 10 := N_2
  obtain ⟨t, ht⟩ : ∃ t : Fin cfg2.N, t.val = 5 * (i 0).val + 4 := ⟨⟨5 * (i 0).val + 4, by rw [hN]; omega⟩, rfl⟩
  have hi := idx_facts2' t
  refine ⟨t, (flush2_13 t).mpr (by omega), ?_⟩
  rw [mem_blk13]
  intro a
  match a with
  | ⟨0, _⟩ => show win2_13.index t (0 : Fin 3) * 1 ≤ (i 0).val ∧ (i 0).val < win2_13.index t (0 : Fin 3) * 1 + 1; omega
  | ⟨1, _⟩ => show win2_13.index t (1 : Fin 3) * 256 ≤ (i 1).val ∧ (i 1).val < win2_13.index t (1 : Fin 3) * 256 + 256; omega
  | ⟨2, _⟩ => show win2_13.index t (2 : Fin 3) * 64 ≤ (i 2).val ∧ (i 2).val < win2_13.index t (2 : Fin 3) * 64 + 64; omega

/-- Window 13's array after the region. -/
theorem final2_13 : (dat2 (F := Ideal) V c).arrAt 13 cfg2.N = out13 (rawA V c) (aggA V c) (degA V c) (sA V c) (tA V c) (batA V c) (w1A V c) (b1A V c) (w2A V c) (b2A V c) :=
  (dat2 V c).arrAt_eq_of_cover 13 (out13 (rawA V c) (aggA V c) (degA V c) (sA V c) (tA V c) (batA V c) (w1A V c) (b1A V c) (w2A V c) (b2A V c)) (flushed13_eq V c) covered13

/-- Window 14: what a core's last point writes back is the core's block of the closed form. -/
theorem flushed14_eq (t : Fin cfg2.N) (hf : (cfg2.win 14).flush t = true) :
    (dat2 V c).flushed 14 t = ((cfg2.win 14).blk t).view.read (Elt Ideal) (out14 (batA V c)) := by
  have hN : cfg2.N = 10 := N_2
  have h4 : t.val % 5 = 4 := (flush2_14 t).mp hf
  obtain ⟨q, rfl⟩ : ∃ q : Fin 2, t = lastPt q := ⟨⟨t.val / 5, by have := t.isLt; omega⟩, Fin.ext (by show t.val = 5 * (t.val / 5) + 4; omega)⟩
  show (cfg2.win 14).cut (grid2.coords (lastPt q)) ((dat2 V c).after 14 (lastPt q)) = _
  rw [after2_14]
  have hi := idx_facts2' (lastPt q)
  have hq : (lastPt q).val / 5 = q.val := by show (5 * q.val + 4) / 5 = q.val; omega
  funext j
  obtain ⟨u, v, g, rfl⟩ : ∃ (u v : Fin 1) (g : Fin 256), j = ix3 u v g := ⟨j 0, j 1, j 2, eq_ix3 j⟩
  obtain rfl : u = 0 := Subsingleton.elim _ _
  obtain rfl : v = 0 := Subsingleton.elim _ _
  show (outsAt2 V c (lastPt q).val (lastPt q).isLt).2.2.2.2 (ix3 0 0 g) = out14 (batA V c) (((cfg2.win 14).blk (lastPt q)).view.emb (ix3 0 0 g))
  rw [last14 V c q g]
  have e0 : ((((cfg2.win 14).blk (lastPt q)).view.emb (ix3 0 0 g) : S2x1x256.Idx) 0) = q := Fin.ext (by
    show win2_14.index (lastPt q) (0 : Fin 3) * 1 + 1 * (0 : Fin 1).val = _; omega)

  have e2 : ((((cfg2.win 14).blk (lastPt q)).view.emb (ix3 0 0 g) : S2x1x256.Idx) 2) = g := Fin.ext (by
    show win2_14.index (lastPt q) (2 : Fin 3) * 256 + 1 * g.val = _; omega)
  unfold out14 cntOf
  rw [e0, e2]
  exact congrArg (Ideal.ofBits .f32 0x00000000#32 + ·) (Finset.sum_congr rfl fun i _ => add14_eq V c q i g)

theorem mem_blk14 (t : Fin cfg2.N) (i : S2x1x256.Idx) :
    i ∈ ((cfg2.win 14).blk t).view.set ↔ ∀ a : Fin 3, win2_14.index t a * S1x1x256.size a ≤ (i a).val ∧ (i a).val < win2_14.index t a * S1x1x256.size a + S1x1x256.size a := by
  show i ∈ ((View.whole (Pipeline.arrRef spec2 14)).slice (win2_14.rect t)).set ↔ _
  rw [View.set_slice_whole, Rect.mem_set_unit]
  exact Iff.rfl

/-- Every index of window 14's array is in the block its core's last point writes back. -/
theorem covered14 (i : S2x1x256.Idx) :
    ∃ t : Fin cfg2.N, (cfg2.win 14).flush t = true ∧ i ∈ ((cfg2.win 14).blk t).view.set := by
  have hi0 : (i 0).val < 2 := (i 0).isLt
  have hi1 : (i 1).val < 1 := (i 1).isLt
  have hi2 : (i 2).val < 256 := (i 2).isLt
  have hN : cfg2.N = 10 := N_2
  obtain ⟨t, ht⟩ : ∃ t : Fin cfg2.N, t.val = 5 * (i 0).val + 4 := ⟨⟨5 * (i 0).val + 4, by rw [hN]; omega⟩, rfl⟩
  have hi := idx_facts2' t
  refine ⟨t, (flush2_14 t).mpr (by omega), ?_⟩
  rw [mem_blk14]
  intro a
  match a with
  | ⟨0, _⟩ => show win2_14.index t (0 : Fin 3) * 1 ≤ (i 0).val ∧ (i 0).val < win2_14.index t (0 : Fin 3) * 1 + 1; omega
  | ⟨1, _⟩ => show win2_14.index t (1 : Fin 3) * 1 ≤ (i 1).val ∧ (i 1).val < win2_14.index t (1 : Fin 3) * 1 + 1; omega
  | ⟨2, _⟩ => show win2_14.index t (2 : Fin 3) * 256 ≤ (i 2).val ∧ (i 2).val < win2_14.index t (2 : Fin 3) * 256 + 256; omega

/-- Window 14's array after the region. -/
theorem final2_14 : (dat2 (F := Ideal) V c).arrAt 14 cfg2.N = out14 (batA V c) :=
  (dat2 V c).arrAt_eq_of_cover 14 (out14 (batA V c)) (flushed14_eq V c) covered14

end Value

end Cert.KernelIdeal.Fr.R2

end
-- ==== Proof.KChainL2.lean ====
/- Layer 2 of the kernel side in the terms of the mathematical statement: pallas_call 2's rows are the statement's
   `hK2`, and its four statistics arrays are the per-half tile sums of those rows, given the same of layer 1. The
   region's value over its ten input arrays, those arrays read entry by entry at the run's valuations, and the dense part
   as the statement's `mlp` of `xinK`. -/
import proofs.«429418_j73830487818378_3_alg».proof.Proof.KChain2
import proofs.«429418_j73830487818378_3_alg».proof.Proof.KLayer2
import proofs.«429418_j73830487818378_3_alg».proof.Proof.K2Value

set_option maxRecDepth 16384

noncomputable section

open scoped BigOperators

namespace Cert.KernelIdeal.Fr

open Cert.KernelIdeal Cert.KernelIdeal.Gen Cert.KernelIdeal.Glue
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD) (HP : ∀ n k, hpK1 m ρ c (ix2 n k) = Cert.GinMath.hK1 (𝔾r m c) (𝕡r m c) n k)
  (S : TileStats (𝔾r m c) (Cert.GinMath.hK1 (𝔾r m c) (𝕡r m c)) (smK1 m ρ c) (sqK1 m ρ c) (plK1 m ρ c) (ctK1 m ρ c))

include HP S in
/-- Region 2's dense part over its input arrays as the run finds them is the statement's layer-2 rows. -/
theorem layer2_hpost (n : Fin 50000) (k : Fin 64) :
    R2.hpost (R2.rawA (V5 m ρ) c) (R2.aggA (V5 m ρ) c) (R2.degA (V5 m ρ) c) (R2.sA (V5 m ρ) c) (R2.tA (V5 m ρ) c) (R2.w1A (V5 m ρ) c) (R2.b1A (V5 m ρ) c) (R2.w2A (V5 m ρ) c) (R2.b2A (V5 m ρ) c) n k = Cert.GinMath.hK2 (𝔾r m c) (𝕡r m c) n k := by
  rw [R2.hpost_eq (m ((c : Thread nD τ).loc main_arg1)) (m ((c : Thread nD τ).loc main_arg2)) (m ((c : Thread nD τ).loc main_arg3)) _ _ _ _ _ _ _ _ _ (Cert.GinMath.hK1 (𝔾r m c) (𝕡r m c)) (Cert.GinMath.sK (𝔾r m c) (Cert.GinMath.hK1 (𝔾r m c) (𝕡r m c)) (𝕡r m c).γ1) (Cert.GinMath.tK (𝔾r m c) (Cert.GinMath.hK1 (𝔾r m c) (𝕡r m c)) (𝕡r m c).γ1 (𝕡r m c).β1) (𝕡r m c).b1_2 (𝕡r m c).b2_2
    (in2_raw m ρ c HP) (in2_agg m ρ c HP) (in2_deg m ρ c) (in2_s m ρ c S) (in2_t m ρ c S) (in2_b1 m ρ c) (in2_b2 m ρ c) n k]
  rw [show R2.w1A (V5 m ρ) c = ((m ((c : Thread nD τ).loc main_arg16)) : Vec Ideal S64x64 .f32) from in2_6 m ρ c,
    show R2.w2A (V5 m ρ) c = ((m ((c : Thread nD τ).loc main_arg18)) : Vec Ideal S64x64 .f32) from in2_8 m ρ c]
  rfl

/-- Region 2's one-hot word over its graph-word column is the statement's membership indicator. -/
theorem layer2_oh (n : Fin 50000) (g : Fin 256) :
    R2.oh (R2.batA (V5 m ρ) c) n g = Cert.GinMath.oh (𝔾r m c) g n :=
  R2.oh_eq (m ((c : Thread nD τ).loc main_arg1)) (m ((c : Thread nD τ).loc main_arg2)) (m ((c : Thread nD τ).loc main_arg3)) _ (in2_batw m ρ c) n g

include HP S in
/-- Pallas_call 2's rows are the statement's layer-2 rows. -/
theorem hpK2_is (n : Fin 50000) (k : Fin 64) : hpK2 m ρ c (ix2 n k) = Cert.GinMath.hK2 (𝔾r m c) (𝕡r m c) n k :=
  calc hpK2 m ρ c (ix2 n k)
      = (dat2 (V5 m ρ) c).arrAt 10 cfg2.N (ix2 n k) := congrFun (hpK2_eq m ρ c) (ix2 n k)
    _ = R2.out10 (R2.rawA (V5 m ρ) c) (R2.aggA (V5 m ρ) c) (R2.degA (V5 m ρ) c) (R2.sA (V5 m ρ) c) (R2.tA (V5 m ρ) c) (R2.w1A (V5 m ρ) c) (R2.b1A (V5 m ρ) c) (R2.w2A (V5 m ρ) c) (R2.b2A (V5 m ρ) c) (ix2 n k) := congrFun (R2.final2_10 (V5 m ρ) c) (ix2 n k)
    _ = R2.hpost (R2.rawA (V5 m ρ) c) (R2.aggA (V5 m ρ) c) (R2.degA (V5 m ρ) c) (R2.sA (V5 m ρ) c) (R2.tA (V5 m ρ) c) (R2.w1A (V5 m ρ) c) (R2.b1A (V5 m ρ) c) (R2.w2A (V5 m ρ) c) (R2.b2A (V5 m ρ) c) n k := rfl
    _ = Cert.GinMath.hK2 (𝔾r m c) (𝕡r m c) n k := layer2_hpost m ρ c HP S n k

include HP S in
/-- Pallas_call 2's four statistics arrays are the per-half tile sums of the statement's layer-2 rows. -/
theorem statsK2 : TileStats (𝔾r m c) (Cert.GinMath.hK2 (𝔾r m c) (𝕡r m c)) (smK2 m ρ c) (sqK2 m ρ c) (plK2 m ρ c) (ctK2 m ρ c) where
  hsm q k := by
    have e : smK2 m ρ c (ix3 q 0 k) = R2.sumOf (R2.rawA (V5 m ρ) c) (R2.aggA (V5 m ρ) c) (R2.degA (V5 m ρ) c) (R2.sA (V5 m ρ) c) (R2.tA (V5 m ρ) c) (R2.w1A (V5 m ρ) c) (R2.b1A (V5 m ρ) c) (R2.w2A (V5 m ρ) c) (R2.b2A (V5 m ρ) c) q k :=
      (congrFun (smK2_eq m ρ c) (ix3 q 0 k)).trans (congrFun (R2.final2_11 (V5 m ρ) c) (ix3 q 0 k))
    rw [e]
    unfold R2.sumOf
    simp only [layer2_hpost m ρ c HP S, R2.rowOf_eq]
    rfl
  hsq q k := by
    have e : sqK2 m ρ c (ix3 q 0 k) = R2.sumsqOf (R2.rawA (V5 m ρ) c) (R2.aggA (V5 m ρ) c) (R2.degA (V5 m ρ) c) (R2.sA (V5 m ρ) c) (R2.tA (V5 m ρ) c) (R2.w1A (V5 m ρ) c) (R2.b1A (V5 m ρ) c) (R2.w2A (V5 m ρ) c) (R2.b2A (V5 m ρ) c) q k :=
      (congrFun (sqK2_eq m ρ c) (ix3 q 0 k)).trans (congrFun (R2.final2_12 (V5 m ρ) c) (ix3 q 0 k))
    rw [e]
    unfold R2.sumsqOf
    simp only [layer2_hpost m ρ c HP S, R2.rowOf_eq]
    rfl
  hpl q g k := by
    have e : plK2 m ρ c (ix3 q g k) = R2.poolOf (R2.rawA (V5 m ρ) c) (R2.aggA (V5 m ρ) c) (R2.degA (V5 m ρ) c) (R2.sA (V5 m ρ) c) (R2.tA (V5 m ρ) c) (R2.batA (V5 m ρ) c) (R2.w1A (V5 m ρ) c) (R2.b1A (V5 m ρ) c) (R2.w2A (V5 m ρ) c) (R2.b2A (V5 m ρ) c) q g k :=
      (congrFun (plK2_eq m ρ c) (ix3 q g k)).trans (congrFun (R2.final2_13 (V5 m ρ) c) (ix3 q g k))
    rw [e]
    unfold R2.poolOf
    simp only [layer2_hpost m ρ c HP S, layer2_oh m ρ c, R2.rowOf_eq]
    rfl
  hct q g := by
    have e : ctK2 m ρ c (ix3 q 0 g) = R2.cntOf (R2.batA (V5 m ρ) c) q g :=
      (congrFun (ctK2_eq m ρ c) (ix3 q 0 g)).trans (congrFun (R2.final2_14 (V5 m ρ) c) (ix3 q 0 g))
    rw [e]
    unfold R2.cntOf
    simp only [layer2_oh m ρ c, R2.rowOf_eq]
    rfl

end Cert.KernelIdeal.Fr

end
-- ==== Proof.RGlue0.lean ====
/-
  The reference's host operations of ONE message-passing layer, as functions of the layer's inputs, and each of them
  read at an index at the ideal instance. The layer: the aggregation of the input over the edges (read elsewhere) added to the input; two affine
  maps, each followed by the maximum with zero; the mean and the variance of every column over the rows; and the
  normalisation of every column, scaled and shifted. This file is the layer whose input has 128 columns.
-/
import proofs.«429418_j73830487818378_3_alg».proof.ReferenceIdeal
import proofs.«429418_j73830487818378_3_alg».proof.Proof.Gen.ReferenceIdeal
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.ReferenceIdeal.Glue.L0

open Cert.ReferenceIdeal Idealize.ShloMosaic Idealize.ShloMosaic.ValueIdx
open Facts₀ Facts

/-! ## The layer's operations composed, at any float instance -/

section Composed
variable {F : FTy → Type} [FloatOps F] [Facts]

/-- The input plus its aggregation. -/
def xin (hin agg : (⟨S50000x128, .f32⟩ : BufTy).Contents (Elt F)) : (⟨S50000x128, .f32⟩ : BufTy).Contents (Elt F) := addf hin agg

/-- A bias vector laid along every row. -/
def biasRows (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)

/-- The zero matrix the maximum is taken with. -/
def zeros64 : (⟨S50000x64, .f32⟩ : BufTy).Contents (Elt F) :=
  broadcastInDim S50000x64 ![] bcast_S_S50000x64 (constant S_ .f32 0x00000000#32)

/-- The first affine map and the maximum with zero. -/
def a1 (x : (⟨S50000x128, .f32⟩ : BufTy).Contents (Elt F)) (W1 : (⟨S128x64, .f32⟩ : BufTy).Contents (Elt F)) (b1 : (⟨S64, .f32⟩ : BufTy).Contents (Elt F)) : (⟨S50000x64, .f32⟩ : BufTy).Contents (Elt F) :=
  maximumf (addf (Host.dotGeneral dot_S50000x128_S128x64_S50000x64_1_0_0_1_n_n none x W1) (biasRows b1)) zeros64

/-- The second affine map and the maximum with zero. -/
def hpost (a : (⟨S50000x64, .f32⟩ : BufTy).Contents (Elt F)) (W2 : (⟨S64x64, .f32⟩ : BufTy).Contents (Elt F)) (b2 : (⟨S64, .f32⟩ : BufTy).Contents (Elt F)) : (⟨S50000x64, .f32⟩ : BufTy).Contents (Elt F) :=
  maximumf (addf (Host.dotGeneral dot_S50000x64_S64x64_S50000x64_1_0_0_1_n_n none a W2) (biasRows b2)) zeros64

/-- The sum of every column over the rows, from the zero constant. -/
def colSum (h : (⟨S50000x64, .f32⟩ : BufTy).Contents (Elt F)) : (⟨S64, .f32⟩ : BufTy).Contents (Elt F) :=
  Host.reduceAdd h (constant S_ .f32 0x00000000#32) reducesTo_S50000x64_S64_d0 h_S_

/-- The mean of every column: its sum divided by the row count's constant. -/
def mean (h : (⟨S50000x64, .f32⟩ : BufTy).Contents (Elt F)) : (⟨S64, .f32⟩ : BufTy).Contents (Elt F) :=
  Host.divf (colSum h) (broadcastInDim S64 ![] bcast_S_S64 (constant S_ .f32 0x47435000#32))

/-- The variance function's own column means, as one row. -/
def meanRow (h : (⟨S50000x64, .f32⟩ : BufTy).Contents (Elt F)) : (⟨S1x64, .f32⟩ : BufTy).Contents (Elt F) :=
  Host.divf (broadcastInDim S1x64 ![1] bcast_S64_S1x64_1 (colSum h)) (broadcastInDim S1x64 ![] bcast_S_S1x64 (constant S_ .f32 0x47435000#32))

/-- The squared deviations from the column means. -/
def sqDev (h : (⟨S50000x64, .f32⟩ : BufTy).Contents (Elt F)) : (⟨S50000x64, .f32⟩ : BufTy).Contents (Elt F) :=
  mulf (subf h (broadcastInDim S50000x64 ![0, 1] bcast_S1x64_S50000x64_0_1 (meanRow h)))
    (subf h (broadcastInDim S50000x64 ![0, 1] bcast_S1x64_S50000x64_0_1 (meanRow h)))

/-- The variance function's divisor: the row count's constant less the converted correction. -/
def varDen (ddof : (⟨S_, .i32⟩ : BufTy).Contents (Elt F)) : (⟨S_, .f32⟩ : BufTy).Contents (Elt F) :=
  subf (constant S_ .f32 0x47435000#32) (sitofp .f32 ddof)

/-- The variance of every column: the summed squared deviations over the divisor where the divisor is above zero, the
    not-a-number constant elsewhere. -/
def var (h : (⟨S50000x64, .f32⟩ : BufTy).Contents (Elt F)) (ddof : (⟨S_, .i32⟩ : BufTy).Contents (Elt F)) : (⟨S64, .f32⟩ : BufTy).Contents (Elt F) :=
  select (broadcastInDim S64 ![] bcast_S_S64 (cmpf .ogt (varDen ddof) (constant S_ .f32 0x00000000#32)))
    (Host.divf (colSum (sqDev h)) (broadcastInDim S64 ![] bcast_S_S64 (varDen ddof)))
    (broadcastInDim S64 ![] bcast_S_S64 (id (constant S_ .f32 0x7FC00000#32)))

/-- A vector of column statistics laid along every row. -/
def statRows (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- The normalisation: centred, scaled by the inverse square root of the variance plus epsilon, then the affine scale
    and shift. -/
def hbn (h : (⟨S50000x64, .f32⟩ : BufTy).Contents (Elt F)) (mu v gamma beta : (⟨S64, .f32⟩ : BufTy).Contents (Elt F)) : (⟨S50000x64, .f32⟩ : BufTy).Contents (Elt F) :=
  addf (mulf (mulf (subf h (statRows mu))
      (statRows (Host.rsqrt (addf v (broadcastInDim S64 ![] bcast_S_S64 (constant S_ .f32 0x3727C5AC#32))))))
    (statRows gamma)) (statRows beta)

/-- The whole layer after the aggregation: its output from its input, the aggregation of the input over the edges, and
    the six parameters. -/
def layer (hin agg : (⟨S50000x128, .f32⟩ : BufTy).Contents (Elt F))
    (W1 : (⟨S128x64, .f32⟩ : BufTy).Contents (Elt F)) (b1 : (⟨S64, .f32⟩ : BufTy).Contents (Elt F)) (W2 : (⟨S64x64, .f32⟩ : BufTy).Contents (Elt F)) (b2 gamma beta : (⟨S64, .f32⟩ : BufTy).Contents (Elt F)) :
    (⟨S50000x64, .f32⟩ : BufTy).Contents (Elt F) :=
  hbn (hpost (a1 (xin hin agg) W1 b1) W2 b2)
    (mean (hpost (a1 (xin hin agg) W1 b1) W2 b2))
    (var (hpost (a1 (xin hin agg) W1 b1) W2 b2) (constantI S_ 32 0#32))
    gamma beta

end Composed

/-! ## Read at an index, at the ideal instance -/

section Read
variable {F : FTy → Type} [FloatOps F]

/-- A vector as one row reads the vector at the column. -/
theorem vecRow_apply {α : Type} (v : S64.Idx → α) (k : Fin 64) :
    broadcastInDim S1x64 ![1] bcast_S64_S1x64_1 v (ix2 (0 : Fin 1) k) = v (ix1 k) := by
  refine broadcastInDim_apply ![1] bcast_S64_S1x64_1 v (ix2 (0 : Fin 1) k) (ix1 k) (fun a => ?_)
  match a with
  | ⟨0, _⟩ => exact (if_neg (show ¬(64 : ℕ) = 1 by decide)).symm

/-- A vector laid along every row reads the vector at the column. -/
theorem vecRows_apply {α : Type} (v : S64.Idx → α) (n : Fin 50000) (k : Fin 64) :
    broadcastInDim S50000x64 ![0, 1] bcast_S1x64_S50000x64_0_1 (broadcastInDim S1x64 ![1] bcast_S64_S1x64_1 v) (ix2 n k) = v (ix1 k) :=
  (broadcastInDim_oneRow_apply (m := 50000) (n := 64) bcast_S1x64_S50000x64_0_1 _ n k).trans (vecRow_apply v k)

/-- A scalar broadcast to a vector reads the scalar. -/
theorem scalarVec_apply {α : Type} (x : S_.Idx → α) (k : Fin 64) :
    broadcastInDim S64 ![] bcast_S_S64 x (ix1 k) = x ix0 :=
  broadcastInDim_scalar_apply bcast_S_S64 x (ix1 k)

/-- The operand indices of the first product at an output index and a contraction index, axis by axis. -/
theorem dotA_lhs_0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem dotA_lhs_1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem dotA_rhs_0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem dotA_rhs_1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The product read at a node and an output column: the sum over the 128 contracted columns. -/
theorem dotA_apply (x : FVec Ideal S50000x128 .f32) (W : FVec Ideal S128x64 .f32) (n : Fin 50000) (k : Fin 64) :
    Host.dotGeneral dot_S50000x128_S128x64_S50000x64_1_0_0_1_n_n none x W (ix2 n k) = ∑ j : Fin 128, x (ix2 n j) * W (ix2 j k) := by
  show FloatOps.dotGeneral dot_S50000x128_S128x64_S50000x64_1_0_0_1_n_n none _ x W (ix2 n k) = _
  rw [Ideal.dotGeneral_apply, ← Equiv.sum_comp (contrEquiv1 dot_S50000x128_S128x64_S50000x64_1_0_0_1_n_n 128 rfl rfl).symm]
  refine Finset.sum_congr rfl fun c _ => ?_
  have hc := contrEquiv1_symm_val dot_S50000x128_S128x64_S50000x64_1_0_0_1_n_n 128 rfl rfl c
  have el : dot_S50000x128_S128x64_S50000x64_1_0_0_1_n_n.lhsIdx (ix2 n k) ((contrEquiv1 dot_S50000x128_S128x64_S50000x64_1_0_0_1_n_n 128 rfl rfl).symm c) = ix2 n c := funext fun a => Fin.ext (by
    match a with
    | ⟨0, _⟩ => exact dotA_lhs_0 _ _
    | ⟨1, _⟩ => exact (dotA_lhs_1 _ _).trans hc)
  have er : dot_S50000x128_S128x64_S50000x64_1_0_0_1_n_n.rhsIdx (ix2 n k) ((contrEquiv1 dot_S50000x128_S128x64_S50000x64_1_0_0_1_n_n 128 rfl rfl).symm c) = ix2 c k := funext fun a => Fin.ext (by
    match a with
    | ⟨0, _⟩ => exact (dotA_rhs_0 _ _).trans hc
    | ⟨1, _⟩ => exact dotA_rhs_1 _ _)
  rw [el, er]

/-- The operand indices of the second product at an output index and a contraction index, axis by axis. -/
theorem dotB_lhs_0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dotB_lhs_1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem dotB_rhs_0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem dotB_rhs_1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The product read at a node and an output column: the sum over the 64 contracted columns. -/
theorem dotB_apply (x : FVec Ideal S50000x64 .f32) (W : FVec Ideal S64x64 .f32) (n : Fin 50000) (k : Fin 64) :
    Host.dotGeneral dot_S50000x64_S64x64_S50000x64_1_0_0_1_n_n none x W (ix2 n k) = ∑ j : Fin 64, x (ix2 n j) * W (ix2 j k) := by
  show FloatOps.dotGeneral dot_S50000x64_S64x64_S50000x64_1_0_0_1_n_n none _ x W (ix2 n k) = _
  rw [Ideal.dotGeneral_apply, ← Equiv.sum_comp (contrEquiv1 dot_S50000x64_S64x64_S50000x64_1_0_0_1_n_n 64 rfl rfl).symm]
  refine Finset.sum_congr rfl fun c _ => ?_
  have hc := contrEquiv1_symm_val dot_S50000x64_S64x64_S50000x64_1_0_0_1_n_n 64 rfl rfl c
  have el : dot_S50000x64_S64x64_S50000x64_1_0_0_1_n_n.lhsIdx (ix2 n k) ((contrEquiv1 dot_S50000x64_S64x64_S50000x64_1_0_0_1_n_n 64 rfl rfl).symm c) = ix2 n c := funext fun a => Fin.ext (by
    match a with
    | ⟨0, _⟩ => exact dotB_lhs_0 _ _
    | ⟨1, _⟩ => exact (dotB_lhs_1 _ _).trans hc)
  have er : dot_S50000x64_S64x64_S50000x64_1_0_0_1_n_n.rhsIdx (ix2 n k) ((contrEquiv1 dot_S50000x64_S64x64_S50000x64_1_0_0_1_n_n 64 rfl rfl).symm c) = ix2 c k := funext fun a => Fin.ext (by
    match a with
    | ⟨0, _⟩ => exact (dotB_rhs_0 _ _).trans hc
    | ⟨1, _⟩ => exact dotB_rhs_1 _ _)
  rw [el, er]

/-- The row count's constant, 5.0e4, denotes the real 50000. -/
theorem ofBits_rows : Ideal.ofBits .f32 0x47435000#32 = ((50000 : ℝ) : EReal) := by
  simp [Ideal.ofBits, Ideal.ieee, -EReal.coe_mul]; norm_num

/-- The input plus its aggregation, at a node and a column. -/
theorem xin_apply (hin agg : (⟨S50000x128, .f32⟩ : BufTy).Contents (Elt Ideal)) (n : Fin 50000) (j : Fin 128) :
    xin hin agg (ix2 n j) = hin (ix2 n j) + agg (ix2 n j) := rfl

/-- A bias laid along the rows reads the bias at the column. -/
theorem biasRows_apply (b : (⟨S64, .f32⟩ : BufTy).Contents (Elt F)) (n : Fin 50000) (k : Fin 64) :
    biasRows (F := F) b (ix2 n k) = b (ix1 k) := vecRows_apply b n k

/-- The first affine map and the maximum with zero, at a node and an output column: the row of the input against the
    column of the weights, plus the bias, against the zero constant. -/
theorem a1_apply (x : (⟨S50000x128, .f32⟩ : BufTy).Contents (Elt Ideal)) (W1 : (⟨S128x64, .f32⟩ : BufTy).Contents (Elt Ideal)) (b1 : (⟨S64, .f32⟩ : BufTy).Contents (Elt Ideal))
    (n : Fin 50000) (k : Fin 64) :
    a1 x W1 b1 (ix2 n k) = max ((∑ j : Fin 128, x (ix2 n j) * W1 (ix2 j k)) + b1 (ix1 k)) (Ideal.ofBits .f32 0x00000000#32) := by
  show max (Host.dotGeneral (F := Ideal) (φ₁ := .f32) (φ₂ := .f32) dot_S50000x128_S128x64_S50000x64_1_0_0_1_n_n none x W1 (ix2 n k) + biasRows b1 (ix2 n k)) (zeros64 (F := Ideal) (ix2 n k)) = _
  rw [dotA_apply, biasRows_apply]
  rfl

/-- The second affine map and the maximum with zero, likewise. -/
theorem hpost_apply (a : (⟨S50000x64, .f32⟩ : BufTy).Contents (Elt Ideal)) (W2 : (⟨S64x64, .f32⟩ : BufTy).Contents (Elt Ideal)) (b2 : (⟨S64, .f32⟩ : BufTy).Contents (Elt Ideal))
    (n : Fin 50000) (k : Fin 64) :
    hpost a W2 b2 (ix2 n k) = max ((∑ j : Fin 64, a (ix2 n j) * W2 (ix2 j k)) + b2 (ix1 k)) (Ideal.ofBits .f32 0x00000000#32) := by
  show max (Host.dotGeneral (F := Ideal) (φ₁ := .f32) (φ₂ := .f32) dot_S50000x64_S64x64_S50000x64_1_0_0_1_n_n none a W2 (ix2 n k) + biasRows b2 (ix2 n k)) (zeros64 (F := Ideal) (ix2 n k)) = _
  rw [dotB_apply, biasRows_apply]
  rfl

/-- A column's sum: the zero constant plus the sum over the 50000 rows. -/
theorem colSum_apply (h : (⟨S50000x64, .f32⟩ : BufTy).Contents (Elt Ideal)) (k : Fin 64) :
    colSum h (ix1 k) = Ideal.ofBits .f32 0x00000000#32 + ∑ n : Fin 50000, h (ix2 n k) := by
  show Ideal.hostReduceAdd reducesTo_S50000x64_S64_d0 h (Ideal.ofBits .f32 0x00000000#32) (ix1 k) = _
  rw [Ideal.hostReduceAdd_single reducesTo_S50000x64_S64_d0 (by decide)]
  refine congrArg (_ + ·) (Finset.sum_congr rfl fun n _ => ?_)
  exact congrArg h (funext fun a => Fin.ext (by match a with | ⟨0, _⟩ => rfl | ⟨1, _⟩ => rfl))

/-- A column's mean: its sum over the row count's constant. -/
theorem mean_apply (h : (⟨S50000x64, .f32⟩ : BufTy).Contents (Elt Ideal)) (k : Fin 64) :
    mean h (ix1 k) = Ideal.div (Ideal.ofBits .f32 0x00000000#32 + ∑ n : Fin 50000, h (ix2 n k)) (Ideal.ofBits .f32 0x47435000#32) := by
  show Ideal.div (colSum h (ix1 k)) (Ideal.ofBits .f32 0x47435000#32) = _
  rw [colSum_apply]

/-- The variance function's own mean of a column is the same quotient. -/
theorem meanRow_apply (h : (⟨S50000x64, .f32⟩ : BufTy).Contents (Elt Ideal)) (k : Fin 64) :
    meanRow h (ix2 (0 : Fin 1) k) = mean h (ix1 k) := by
  show Ideal.div (broadcastInDim S1x64 ![1] bcast_S64_S1x64_1 (colSum h) (ix2 (0 : Fin 1) k)) (Ideal.ofBits .f32 0x47435000#32) = Ideal.div (colSum h (ix1 k)) (Ideal.ofBits .f32 0x47435000#32)
  rw [vecRow_apply]

/-- The squared deviation of an entry from its column's mean. -/
theorem sqDev_apply (h : (⟨S50000x64, .f32⟩ : BufTy).Contents (Elt Ideal)) (n : Fin 50000) (k : Fin 64) :
    sqDev h (ix2 n k) = (h (ix2 n k) - mean h (ix1 k)) * (h (ix2 n k) - mean h (ix1 k)) := by
  show (h (ix2 n k) - broadcastInDim S50000x64 ![0, 1] bcast_S1x64_S50000x64_0_1 (meanRow h) (ix2 n k))
      * (h (ix2 n k) - broadcastInDim S50000x64 ![0, 1] bcast_S1x64_S50000x64_0_1 (meanRow h) (ix2 n k)) = _
  rw [broadcastInDim_oneRow_apply (m := 50000) (n := 64) bcast_S1x64_S50000x64_0_1 _ n k, meanRow_apply]

/-- The variance's divisor at the zero correction is the row count's constant: the integer zero converts to zero. -/
theorem varDen_zero : varDen (F := Ideal) (constantI S_ 32 0#32) ix0 = Ideal.ofBits .f32 0x47435000#32 := by
  show Ideal.ofBits .f32 0x47435000#32 - (((0#32 : BitVec 32).toInt : ℝ) : EReal) = _
  simp

/-- A column's variance as printed, at any correction: the guarded quotient. -/
theorem var_apply_guarded (h : (⟨S50000x64, .f32⟩ : BufTy).Contents (Elt Ideal)) (ddof : (⟨S_, .i32⟩ : BufTy).Contents (Elt Ideal)) (k : Fin 64) :
    var h ddof (ix1 k)
      = Scalar.select (Ideal.cmp .ogt (varDen ddof ix0) (Ideal.ofBits .f32 0x00000000#32))
          (Ideal.div (Ideal.ofBits .f32 0x00000000#32 + ∑ n : Fin 50000, (h (ix2 n k) - mean h (ix1 k)) * (h (ix2 n k) - mean h (ix1 k))) (varDen ddof ix0))
          (Ideal.ofBits .f32 0x7FC00000#32) := by
  show Scalar.select (broadcastInDim S64 ![] bcast_S_S64 (cmpf .ogt (varDen ddof) (constant S_ .f32 0x00000000#32)) (ix1 k))
      (Ideal.div (colSum (sqDev h) (ix1 k)) (broadcastInDim S64 ![] bcast_S_S64 (varDen ddof) (ix1 k)))
      (broadcastInDim S64 ![] bcast_S_S64 (id (constant (F := Ideal) S_ .f32 0x7FC00000#32)) (ix1 k)) = _
  rw [scalarVec_apply, scalarVec_apply, scalarVec_apply, colSum_apply]
  simp only [sqDev_apply]
  rfl

/-- A column's variance at the zero correction: the divisor 50000 is above zero, so the guard takes the quotient — the
    summed squared deviations from the column's mean over the row count's constant. -/
theorem var_apply (h : (⟨S50000x64, .f32⟩ : BufTy).Contents (Elt Ideal)) (k : Fin 64) :
    var h (constantI S_ 32 0#32) (ix1 k)
      = Ideal.div (Ideal.ofBits .f32 0x00000000#32 + ∑ n : Fin 50000, (h (ix2 n k) - mean h (ix1 k)) * (h (ix2 n k) - mean h (ix1 k))) (Ideal.ofBits .f32 0x47435000#32) := by
  have hpos : (0 : EReal) < ((50000 : ℝ) : EReal) := by exact_mod_cast (by norm_num : (0 : ℝ) < 50000)
  have hg : Ideal.cmp .ogt (Ideal.ofBits .f32 0x47435000#32) (Ideal.ofBits .f32 0x00000000#32) = 1#1 := by
    rw [ofBits_rows, Ideal.ofBits_zero_f32]
    show BitVec.ofBool (decide ((0 : EReal) < ((50000 : ℝ) : EReal))) = 1#1
    rw [decide_eq_true hpos]; rfl
  rw [var_apply_guarded, varDen_zero, hg, select_one]

/-- A vector of column statistics laid along the rows reads the vector at the column. -/
theorem statRows_apply (v : (⟨S64, .f32⟩ : BufTy).Contents (Elt F)) (n : Fin 50000) (k : Fin 64) :
    statRows (F := F) v (ix2 n k) = v (ix1 k) := vecRows_apply v n k

/-- The normalisation at a node and a column. -/
theorem hbn_apply (h : (⟨S50000x64, .f32⟩ : BufTy).Contents (Elt Ideal)) (mu v gamma beta : (⟨S64, .f32⟩ : BufTy).Contents (Elt Ideal)) (n : Fin 50000) (k : Fin 64) :
    hbn h mu v gamma beta (ix2 n k)
      = (((h (ix2 n k) - mu (ix1 k)) * Ideal.rsqrt (v (ix1 k) + Ideal.ofBits .f32 0x3727C5AC#32)) * gamma (ix1 k)) + beta (ix1 k) := by
  show (((h (ix2 n k) - statRows mu (ix2 n k))
      * statRows (Host.rsqrt (addf v (broadcastInDim S64 ![] bcast_S_S64 (constant S_ .f32 0x3727C5AC#32)))) (ix2 n k))
      * statRows gamma (ix2 n k)) + statRows beta (ix2 n k) = _
  simp only [statRows_apply]
  rfl

end Read

end Cert.ReferenceIdeal.Glue.L0

end
-- ==== Proof.RGlueRun0.lean ====
/-
  What one layer's stretch of the reference's host operations leaves in its result buffers, from any contents of the
  device's buffers before it: each result is the layer's function (the aggregation over the edges, the input plus it,
  the two affine maps with their maxima, the column means and variances, the normalisation) of what the stretch's
  input buffers held.
-/
import proofs.«429418_j73830487818378_3_alg».proof.Proof.RefRun0
import proofs.«429418_j73830487818378_3_alg».proof.Proof.RGlue0
import proofs.«429418_j73830487818378_3_alg».proof.Proof.AggChainR

noncomputable section

namespace Cert.ReferenceIdeal.Glue.L0

open Cert.ReferenceIdeal Cert.ReferenceIdeal.Hand Idealize.ShloMosaic Idealize.ShloMosaic.StableHlo

variable {F : FTy → Type} [FloatOps F] (W : Valuation τ sig (Elt F))

/-- The index stretch leaves the edge table's two rows where they were or puts them there: what it holds of them
    afterwards is what the aggregation reads. After the index stretch and the aggregation stretch, the aggregation's
    buffer holds the aggregation of the input over the edges. -/
theorem run_agg :
    StableHlo.after ops1 (StableHlo.after ops0 W) (Proc.devRef .tc main_v16)
      = Agg.agg128 (W (Proc.devRef .tc main_arg0)) (StableHlo.after ops0 W (Proc.devRef .tc main_v1)) (StableHlo.after ops0 W (Proc.devRef .tc main_v3)) (W (Proc.devRef .tc main_arg3)) := by
  after_results_simp
  rfl

/-- … and the next buffer the input plus it. -/
theorem run_xin :
    StableHlo.after ops1 (StableHlo.after ops0 W) (Proc.devRef .tc main_v17)
      = xin (W (Proc.devRef .tc main_arg0)) (Agg.agg128 (W (Proc.devRef .tc main_arg0)) (StableHlo.after ops0 W (Proc.devRef .tc main_v1)) (StableHlo.after ops0 W (Proc.devRef .tc main_v3)) (W (Proc.devRef .tc main_arg3))) := by
  after_results_simp
  rfl

/-- The affine stretch: the first map's maximum. -/
theorem run_a1 :
    StableHlo.after ops2 W (Proc.devRef .tc main_v22) = a1 (W (Proc.devRef .tc main_v17)) (W (Proc.devRef .tc main_arg4)) (W (Proc.devRef .tc main_arg5)) := by
  after_results_simp
  rfl

/-- The affine stretch: the second map's maximum. -/
theorem run_hpost :
    StableHlo.after ops2 W (Proc.devRef .tc main_v27)
      = hpost (a1 (W (Proc.devRef .tc main_v17)) (W (Proc.devRef .tc main_arg4)) (W (Proc.devRef .tc main_arg5))) (W (Proc.devRef .tc main_arg6)) (W (Proc.devRef .tc main_arg7)) := by
  after_results_simp
  rfl

/-- The mean stretch: the column means. -/
theorem run_mean :
    StableHlo.after ops3 W (Proc.devRef .tc main_v30) = mean (W (Proc.devRef .tc main_v27)) := by
  after_results_simp
  rfl

/-- The mean stretch also writes the variance's correction: the integer zero. -/
theorem run_ddof :
    StableHlo.after ops3 W (Proc.devRef .tc main_c_3) = constantI S_ 32 0#32 := by
  after_results_simp

/-- The variance stretch: the column variances at the correction it is handed. -/
theorem run_var :
    StableHlo.after ops4 W (Proc.devRef .tc main_v31) = var (W (Proc.devRef .tc main_v27)) (W (Proc.devRef .tc main_c_3)) := by
  after_results_simp
  rfl

/-- The normalisation stretch. -/
theorem run_hbn :
    StableHlo.after ops5 W (Proc.devRef .tc main_v46)
      = hbn (W (Proc.devRef .tc main_v27)) (W (Proc.devRef .tc main_v30)) (W (Proc.devRef .tc main_v31)) (W (Proc.devRef .tc main_arg8)) (W (Proc.devRef .tc main_arg9)) := by
  after_results_simp
  rfl

set_option maxHeartbeats 4000000 in
/-- The whole layer: after its six stretches in order, its output buffer holds the layer's function of its input, of
    the aggregation of the input over the edges, and of the six parameters. -/
theorem run_layer :
    StableHlo.after ops5 (StableHlo.after ops4 (StableHlo.after ops3 (StableHlo.after ops2 (StableHlo.after ops1 (StableHlo.after ops0 W))))) (Proc.devRef .tc main_v46)
      = layer (W (Proc.devRef .tc main_arg0))
          (Agg.agg128 (W (Proc.devRef .tc main_arg0)) (StableHlo.after ops0 W (Proc.devRef .tc main_v1)) (StableHlo.after ops0 W (Proc.devRef .tc main_v3)) (W (Proc.devRef .tc main_arg3)))
          (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  rfl

end Cert.ReferenceIdeal.Glue.L0

end
-- ==== Proof.RChainT.lean ====
/-
  The reference's buffers threaded through the stages.  `Wend m c` is the fold of the twenty stages over the launch
  contents; a buffer keeps what a stage left in it through every later stage that does not write it.  Read that way:
  the first layer's clamped rows and normalised rows are the layer's functions of the input rows, their aggregation
  over the edges and the layer's six parameters; each per-graph table is the per-graph sum of a layer's normalised
  rows; the second result is the three tables side by side.  All of it for any float values.  At the ideal instance:
  the graph and the parameters the statement is about, read off the argument buffers, and the edge table's two rows
  as the index stage leaves them.
-/
import proofs.«429418_j73830487818378_3_alg».proof.Proof.RefRun0
import proofs.«429418_j73830487818378_3_alg».proof.Proof.RGlueRun0
import proofs.«429418_j73830487818378_3_alg».proof.Proof.RGlueEnd
import proofs.«429418_j73830487818378_3_alg».proof.Proof.AggInst
import proofs.«429418_j73830487818378_3_alg».proof.Proof.GinMath
import proofs.«429418_j73830487818378_3_alg».proof.Proof.Inst

noncomputable section

namespace Cert.ReferenceIdeal.Hand

open Cert.ReferenceIdeal Cert.ReferenceIdeal.Gen Idealize.ShloMosaic Idealize.ShloMosaic.ValueIdx Idealize.SL.Sem
open Cert.ReferenceIdeal.Glue

-- a TensorCore reference as the device buffer it names
set_option quotPrecheck false in
local notation:max "𝔡" r:max => Proc.devRef .tc r

section Thread

variable {F : FTy → Type} [FloatOps F]

/-! ## A layer's six stages leave a reference they do not write as it was -/

theorem keepA (V : Valuation τ sig (Elt F)) (r : Ref sig .tc) (h : r ∉ ops1_W ++ ops2_W ++ ops3_W ++ ops4_W ++ ops5_W) :
    StableHlo.after ops5 (StableHlo.after ops4 (StableHlo.after ops3 (StableHlo.after ops2 (StableHlo.after ops1 V)))) (𝔡 r)
      = V (𝔡 r) := by
  have := keep_append (keep_append (keep_append (keep_append ops1_keep ops2_keep) ops3_keep) ops4_keep) ops5_keep V r h
  simpa only [StableHlo.after_append] using this

theorem keepB (V : Valuation τ sig (Elt F)) (r : Ref sig .tc)
    (h : r ∉ ops6_W ++ ops7_W ++ ops8_W ++ ops9_W ++ ops10_W ++ ops11_W) :
    StableHlo.after ops11 (StableHlo.after ops10 (StableHlo.after ops9 (StableHlo.after ops8 (StableHlo.after ops7
        (StableHlo.after ops6 V))))) (𝔡 r)
      = V (𝔡 r) := by
  have := keep_append (keep_append (keep_append (keep_append (keep_append ops6_keep ops7_keep) ops8_keep) ops9_keep)
    ops10_keep) ops11_keep V r h
  simpa only [StableHlo.after_append] using this

theorem keepC (V : Valuation τ sig (Elt F)) (r : Ref sig .tc)
    (h : r ∉ ops12_W ++ ops13_W ++ ops14_W ++ ops15_W ++ ops16_W ++ ops17_W) :
    StableHlo.after ops17 (StableHlo.after ops16 (StableHlo.after ops15 (StableHlo.after ops14 (StableHlo.after ops13
        (StableHlo.after ops12 V))))) (𝔡 r)
      = V (𝔡 r) := by
  have := keep_append (keep_append (keep_append (keep_append (keep_append ops12_keep ops13_keep) ops14_keep) ops15_keep)
    ops16_keep) ops17_keep V r h
  simpa only [StableHlo.after_append] using this

variable (m : (ℓ : Loc nD τ sig) → Buf (Elt F) ℓ) (c : Dev nD)

-- the launch contents of argument `r`'s buffer
set_option quotPrecheck false in
local notation:max "⟪" r "⟫" => m ((c.tc : Thread nD τ).loc r)

/-! ## The contents after the index stage, after each layer, and after the per-graph sums -/

/-- After the index stage. -/
abbrev stg0 : Valuation τ sig (Elt F) := StableHlo.after ops0 (fun b => m (c, b))
/-- After the first layer. -/
abbrev stgA : Valuation τ sig (Elt F) :=
  StableHlo.after ops5 (StableHlo.after ops4 (StableHlo.after ops3 (StableHlo.after ops2 (StableHlo.after ops1 (stg0 m c)))))
/-- After the second layer. -/
abbrev stgB : Valuation τ sig (Elt F) :=
  StableHlo.after ops11 (StableHlo.after ops10 (StableHlo.after ops9 (StableHlo.after ops8 (StableHlo.after ops7
    (StableHlo.after ops6 (stgA m c))))))
/-- After the third layer. -/
abbrev stgC : Valuation τ sig (Elt F) :=
  StableHlo.after ops17 (StableHlo.after ops16 (StableHlo.after ops15 (StableHlo.after ops14 (StableHlo.after ops13
    (StableHlo.after ops12 (stgB m c))))))
/-- After the per-graph sums. -/
abbrev stgP : Valuation τ sig (Elt F) := StableHlo.after ops18 (stgC m c)

/-- The end is one more stage. -/
theorem Wend_eq : Wend m c = StableHlo.after ops19 (stgP m c) := after_ops _

/-! ### What the end holds of a buffer the last stages do not write -/

theorem endP (r : Ref sig .tc) (h : r ∉ ops19_W) : Wend m c (𝔡 r) = stgP m c (𝔡 r) := by
  rw [Wend_eq]; exact ops19_keep _ r h
theorem endC (r : Ref sig .tc) (h18 : r ∉ ops18_W) (h19 : r ∉ ops19_W) : Wend m c (𝔡 r) = stgC m c (𝔡 r) :=
  (endP m c r h19).trans (ops18_keep _ r h18)
theorem endB (r : Ref sig .tc) (hC : r ∉ ops12_W ++ ops13_W ++ ops14_W ++ ops15_W ++ ops16_W ++ ops17_W)
    (h18 : r ∉ ops18_W) (h19 : r ∉ ops19_W) : Wend m c (𝔡 r) = stgB m c (𝔡 r) :=
  (endC m c r h18 h19).trans (keepC _ r hC)
theorem endA (r : Ref sig .tc) (hB : r ∉ ops6_W ++ ops7_W ++ ops8_W ++ ops9_W ++ ops10_W ++ ops11_W)
    (hC : r ∉ ops12_W ++ ops13_W ++ ops14_W ++ ops15_W ++ ops16_W ++ ops17_W)
    (h18 : r ∉ ops18_W) (h19 : r ∉ ops19_W) : Wend m c (𝔡 r) = stgA m c (𝔡 r) :=
  (endB m c r hC h18 h19).trans (keepB _ r hB)

/-! ### What a stage finds in a buffer nothing before it wrote -/

theorem in0 (r : Ref sig .tc) (h0 : r ∉ ops0_W) : stg0 m c (𝔡 r) = ⟪r⟫ := ops0_keep _ r h0
theorem inA (r : Ref sig .tc) (h0 : r ∉ ops0_W) (hA : r ∉ ops1_W ++ ops2_W ++ ops3_W ++ ops4_W ++ ops5_W) :
    stgA m c (𝔡 r) = ⟪r⟫ :=
  (keepA _ r hA).trans (in0 m c r h0)
theorem inB (r : Ref sig .tc) (h0 : r ∉ ops0_W) (hA : r ∉ ops1_W ++ ops2_W ++ ops3_W ++ ops4_W ++ ops5_W)
    (hB : r ∉ ops6_W ++ ops7_W ++ ops8_W ++ ops9_W ++ ops10_W ++ ops11_W) : stgB m c (𝔡 r) = ⟪r⟫ :=
  (keepB _ r hB).trans (inA m c r h0 hA)
theorem inC (r : Ref sig .tc) (h0 : r ∉ ops0_W) (hA : r ∉ ops1_W ++ ops2_W ++ ops3_W ++ ops4_W ++ ops5_W)
    (hB : r ∉ ops6_W ++ ops7_W ++ ops8_W ++ ops9_W ++ ops10_W ++ ops11_W)
    (hC : r ∉ ops12_W ++ ops13_W ++ ops14_W ++ ops15_W ++ ops16_W ++ ops17_W) : stgC m c (𝔡 r) = ⟪r⟫ :=
  (keepC _ r hC).trans (inB m c r h0 hA hB)

/-! ## The edge table's rows, and each layer's aggregation -/

/-- The edge table's first row (the sources) as the index stage leaves it. -/
abbrev srcW : IVec S800000 32 := stg0 m c (𝔡 main_v1)
/-- The edge table's second row (the targets) as the index stage leaves it. -/
abbrev dstW : IVec S800000 32 := stg0 m c (𝔡 main_v3)

/-- A later layer finds the two rows where the index stage left them. -/
theorem srcA_keep : stgA m c (𝔡 main_v1) = srcW m c := keepA _ _ (by decide)
theorem dstA_keep : stgA m c (𝔡 main_v3) = dstW m c := keepA _ _ (by decide)
theorem srcB_keep : stgB m c (𝔡 main_v1) = srcW m c := (keepB _ _ (by decide)).trans (srcA_keep m c)
theorem dstB_keep : stgB m c (𝔡 main_v3) = dstW m c := (keepB _ _ (by decide)).trans (dstA_keep m c)

/-- The first layer's aggregation: of the input rows. -/
abbrev A0 : FVec F S50000x128 .f32 := Agg.agg128 ⟪main_arg0⟫ (srcW m c) (dstW m c) ⟪main_arg3⟫
/-- The second layer's aggregation: of the first layer's normalised rows. -/
abbrev A1 : FVec F S50000x64 .f32 := Agg.agg64 (Wend m c (𝔡 main_v46)) (srcW m c) (dstW m c) ⟪main_arg3⟫
/-- The third layer's aggregation: of the second layer's normalised rows. -/
abbrev A2 : FVec F S50000x64 .f32 := Agg.agg64 (Wend m c (𝔡 main_v89)) (srcW m c) (dstW m c) ⟪main_arg3⟫

/-! ## The first layer -/

/-- The first layer's normalised rows where the layer leaves them. -/
theorem stgA_v46 :
    stgA m c (𝔡 main_v46)
      = L0.layer ⟪main_arg0⟫ (A0 m c) ⟪main_arg4⟫ ⟪main_arg5⟫ ⟪main_arg6⟫ ⟪main_arg7⟫ ⟪main_arg8⟫ ⟪main_arg9⟫ :=
  L0.run_layer (fun b => m (c, b))

/-- The end still holds them. -/
theorem Wend_v46 : Wend m c (𝔡 main_v46) = stgA m c (𝔡 main_v46) :=
  endA m c main_v46 (by decide) (by decide) (by decide) (by decide)

/-- The first layer's normalised rows at the end: the layer's function of the input rows, their aggregation and the
    six parameters. -/
theorem T0_v46 :
    Wend m c (𝔡 main_v46)
      = L0.layer ⟪main_arg0⟫ (A0 m c) ⟪main_arg4⟫ ⟪main_arg5⟫ ⟪main_arg6⟫ ⟪main_arg7⟫ ⟪main_arg8⟫ ⟪main_arg9⟫ :=
  (Wend_v46 m c).trans (stgA_v46 m c)

/-- The first layer's clamped rows at the end. -/
theorem T0_v27 :
    Wend m c (𝔡 main_v27)
      = L0.hpost (L0.a1 (L0.xin ⟪main_arg0⟫ (A0 m c)) ⟪main_arg4⟫ ⟪main_arg5⟫) ⟪main_arg6⟫ ⟪main_arg7⟫ := by
  have e4 : StableHlo.after ops1 (stg0 m c) (𝔡 main_arg4) = ⟪main_arg4⟫ :=
    (ops1_keep _ _ (by decide)).trans (in0 m c _ (by decide))
  have e5 : StableHlo.after ops1 (stg0 m c) (𝔡 main_arg5) = ⟪main_arg5⟫ :=
    (ops1_keep _ _ (by decide)).trans (in0 m c _ (by decide))
  have e6 : StableHlo.after ops1 (stg0 m c) (𝔡 main_arg6) = ⟪main_arg6⟫ :=
    (ops1_keep _ _ (by decide)).trans (in0 m c _ (by decide))
  have e7 : StableHlo.after ops1 (stg0 m c) (𝔡 main_arg7) = ⟪main_arg7⟫ :=
    (ops1_keep _ _ (by decide)).trans (in0 m c _ (by decide))
  have ex : StableHlo.after ops1 (stg0 m c) (𝔡 main_v17) = L0.xin ⟪main_arg0⟫ (A0 m c) := L0.run_xin (fun b => m (c, b))
  refine (endA m c main_v27 (by decide) (by decide) (by decide) (by decide)).trans ?_
  refine (ops5_keep _ _ (by decide)).trans ((ops4_keep _ _ (by decide)).trans ((ops3_keep _ _ (by decide)).trans ?_))
  refine (L0.run_hpost _).trans ?_
  rw [ex, e4, e5, e6, e7]

/-! ## The per-graph sums and the second result -/

/-- The end holds the second layer's normalised rows where that layer left them, and the third's. -/
theorem Wend_v89 : Wend m c (𝔡 main_v89) = stgB m c (𝔡 main_v89) := endB m c main_v89 (by decide) (by decide) (by decide)
theorem Wend_v132 : Wend m c (𝔡 main_v132) = stgC m c (𝔡 main_v132) := endC m c main_v132 (by decide) (by decide)

/-- The first per-graph table: the sum of the first layer's normalised rows. -/
theorem P0 : Wend m c (𝔡 main_v135) = poolChain (Wend m c (𝔡 main_v46)) ⟪main_arg2⟫ := by
  have e : stgC m c (𝔡 main_v46) = Wend m c (𝔡 main_v46) :=
    ((keepC _ _ (by decide)).trans (keepB _ _ (by decide))).trans (Wend_v46 m c).symm
  refine (endP m c main_v135 (by decide)).trans ((after_v135 (stgC m c)).trans ?_)
  rw [e, inC m c main_arg2 (by decide) (by decide) (by decide) (by decide)]

/-- The second per-graph table: of the second layer's. -/
theorem P1 : Wend m c (𝔡 main_v138) = poolChain (Wend m c (𝔡 main_v89)) ⟪main_arg2⟫ := by
  have e : stgC m c (𝔡 main_v89) = Wend m c (𝔡 main_v89) := (keepC _ _ (by decide)).trans (Wend_v89 m c).symm
  refine (endP m c main_v138 (by decide)).trans ((after_v138 (stgC m c)).trans ?_)
  rw [e, inC m c main_arg2 (by decide) (by decide) (by decide) (by decide)]

/-- The third per-graph table: of the third layer's. -/
theorem P2 : Wend m c (𝔡 main_v141) = poolChain (Wend m c (𝔡 main_v132)) ⟪main_arg2⟫ := by
  refine (endP m c main_v141 (by decide)).trans ((after_v141 (stgC m c)).trans ?_)
  rw [← Wend_v132 m c, inC m c main_arg2 (by decide) (by decide) (by decide) (by decide)]

/-- The second result: the three tables side by side. -/
theorem R_out1' :
    Wend m c (𝔡 main_v142)
      = outPool (α := F .f32) (Wend m c (𝔡 main_v135)) (Wend m c (𝔡 main_v138)) (Wend m c (𝔡 main_v141)) := by
  rw [Wend_eq]
  refine (after_v142 (stgP m c)).trans ?_
  rw [← Wend_eq, endP m c main_v135 (by decide), endP m c main_v138 (by decide), endP m c main_v141 (by decide)]

end Thread

/-! ## At the ideal instance: the graph, the parameters, the edge table's rows -/

section AtIdeal

variable (m : (ℓ : Loc nD τ sig) → Buf (Elt Ideal) ℓ) (c : Dev nD)

set_option quotPrecheck false in
local notation:max "⟪" r "⟫" => m ((c.tc : Thread nD τ).loc r)

/-- The graph the program's edge table, graph numbers and edge weights spell. -/
abbrev gOf : Cert.GinMath.Graph := Cert.Inst.graph ⟪main_arg1⟫ ⟪main_arg2⟫ ⟪main_arg3⟫

/-- The parameters: the input rows and the three layers' six arrays each, in the program's argument order. -/
abbrev pOf : Cert.GinMath.Params :=
  Cert.Inst.params ⟪main_arg0⟫ ⟪main_arg4⟫ ⟪main_arg5⟫ ⟪main_arg6⟫ ⟪main_arg7⟫ ⟪main_arg8⟫ ⟪main_arg9⟫
    ⟪main_arg10⟫ ⟪main_arg11⟫ ⟪main_arg12⟫ ⟪main_arg13⟫ ⟪main_arg14⟫ ⟪main_arg15⟫
    ⟪main_arg16⟫ ⟪main_arg17⟫ ⟪main_arg18⟫ ⟪main_arg19⟫ ⟪main_arg20⟫ ⟪main_arg21⟫

end AtIdeal

section Rows

variable {F : FTy → Type} [FloatOps F] (m : (ℓ : Loc nD τ sig) → Buf (Elt F) ℓ) (c : Dev nD)

/-- The sources' row the index stage cuts out of the edge table is the table's row 0. -/
theorem srcW_eq : srcW m c = Cert.Inst.srcA (m ((c.tc : Thread nD τ).loc main_arg1)) := by
  refine Eq.trans ?_ (Cert.Lib.AggInst.R_src_eq (m ((c.tc : Thread nD τ).loc main_arg1)))
  show StableHlo.after ops0 (fun b => m (c, b)) (𝔡 main_v1) = _
  after_results
  rfl

/-- The targets' row is the table's row 1. -/
theorem dstW_eq : dstW m c = Cert.Inst.dstA (m ((c.tc : Thread nD τ).loc main_arg1)) := by
  refine Eq.trans ?_ (Cert.Lib.AggInst.R_dst_eq (m ((c.tc : Thread nD τ).loc main_arg1)))
  show StableHlo.after ops0 (fun b => m (c, b)) (𝔡 main_v3) = _
  after_results
  rfl

end Rows

end Cert.ReferenceIdeal.Hand

end
-- ==== Proof.RGlue1.lean ====
/-
  The reference's host operations of ONE message-passing layer, as functions of the layer's inputs, and each of them
  read at an index at the ideal instance. The layer: the aggregation of the input over the edges (read elsewhere) added to the input; two affine
  maps, each followed by the maximum with zero; the mean and the variance of every column over the rows; and the
  normalisation of every column, scaled and shifted. This file is the layer whose input has 64 columns.
-/
import proofs.«429418_j73830487818378_3_alg».proof.ReferenceIdeal
import proofs.«429418_j73830487818378_3_alg».proof.Proof.Gen.ReferenceIdeal
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.ReferenceIdeal.Glue.L1

open Cert.ReferenceIdeal Idealize.ShloMosaic Idealize.ShloMosaic.ValueIdx
open Facts₀ Facts

/-! ## The layer's operations composed, at any float instance -/

section Composed
variable {F : FTy → Type} [FloatOps F] [Facts]

/-- The input plus its aggregation. -/
def xin (hin agg : (⟨S50000x64, .f32⟩ : BufTy).Contents (Elt F)) : (⟨S50000x64, .f32⟩ : BufTy).Contents (Elt F) := addf hin agg

/-- A bias vector laid along every row. -/
def biasRows (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)

/-- The zero matrix the maximum is taken with. -/
def zeros64 : (⟨S50000x64, .f32⟩ : BufTy).Contents (Elt F) :=
  broadcastInDim S50000x64 ![] bcast_S_S50000x64 (constant S_ .f32 0x00000000#32)

/-- The first affine map and the maximum with zero. -/
def a1 (x : (⟨S50000x64, .f32⟩ : BufTy).Contents (Elt F)) (W1 : (⟨S64x64, .f32⟩ : BufTy).Contents (Elt F)) (b1 : (⟨S64, .f32⟩ : BufTy).Contents (Elt F)) : (⟨S50000x64, .f32⟩ : BufTy).Contents (Elt F) :=
  maximumf (addf (Host.dotGeneral dot_S50000x64_S64x64_S50000x64_1_0_0_1_n_n none x W1) (biasRows b1)) zeros64

/-- The second affine map and the maximum with zero. -/
def hpost (a : (⟨S50000x64, .f32⟩ : BufTy).Contents (Elt F)) (W2 : (⟨S64x64, .f32⟩ : BufTy).Contents (Elt F)) (b2 : (⟨S64, .f32⟩ : BufTy).Contents (Elt F)) : (⟨S50000x64, .f32⟩ : BufTy).Contents (Elt F) :=
  maximumf (addf (Host.dotGeneral dot_S50000x64_S64x64_S50000x64_1_0_0_1_n_n none a W2) (biasRows b2)) zeros64

/-- The sum of every column over the rows, from the zero constant. -/
def colSum (h : (⟨S50000x64, .f32⟩ : BufTy).Contents (Elt F)) : (⟨S64, .f32⟩ : BufTy).Contents (Elt F) :=
  Host.reduceAdd h (constant S_ .f32 0x00000000#32) reducesTo_S50000x64_S64_d0 h_S_

/-- The mean of every column: its sum divided by the row count's constant. -/
def mean (h : (⟨S50000x64, .f32⟩ : BufTy).Contents (Elt F)) : (⟨S64, .f32⟩ : BufTy).Contents (Elt F) :=
  Host.divf (colSum h) (broadcastInDim S64 ![] bcast_S_S64 (constant S_ .f32 0x47435000#32))

/-- The variance function's own column means, as one row. -/
def meanRow (h : (⟨S50000x64, .f32⟩ : BufTy).Contents (Elt F)) : (⟨S1x64, .f32⟩ : BufTy).Contents (Elt F) :=
  Host.divf (broadcastInDim S1x64 ![1] bcast_S64_S1x64_1 (colSum h)) (broadcastInDim S1x64 ![] bcast_S_S1x64 (constant S_ .f32 0x47435000#32))

/-- The squared deviations from the column means. -/
def sqDev (h : (⟨S50000x64, .f32⟩ : BufTy).Contents (Elt F)) : (⟨S50000x64, .f32⟩ : BufTy).Contents (Elt F) :=
  mulf (subf h (broadcastInDim S50000x64 ![0, 1] bcast_S1x64_S50000x64_0_1 (meanRow h)))
    (subf h (broadcastInDim S50000x64 ![0, 1] bcast_S1x64_S50000x64_0_1 (meanRow h)))

/-- The variance function's divisor: the row count's constant less the converted correction. -/
def varDen (ddof : (⟨S_, .i32⟩ : BufTy).Contents (Elt F)) : (⟨S_, .f32⟩ : BufTy).Contents (Elt F) :=
  subf (constant S_ .f32 0x47435000#32) (sitofp .f32 ddof)

/-- The variance of every column: the summed squared deviations over the divisor where the divisor is above zero, the
    not-a-number constant elsewhere. -/
def var (h : (⟨S50000x64, .f32⟩ : BufTy).Contents (Elt F)) (ddof : (⟨S_, .i32⟩ : BufTy).Contents (Elt F)) : (⟨S64, .f32⟩ : BufTy).Contents (Elt F) :=
  select (broadcastInDim S64 ![] bcast_S_S64 (cmpf .ogt (varDen ddof) (constant S_ .f32 0x00000000#32)))
    (Host.divf (colSum (sqDev h)) (broadcastInDim S64 ![] bcast_S_S64 (varDen ddof)))
    (broadcastInDim S64 ![] bcast_S_S64 (id (constant S_ .f32 0x7FC00000#32)))

/-- A vector of column statistics laid along every row. -/
def statRows (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- The normalisation: centred, scaled by the inverse square root of the variance plus epsilon, then the affine scale
    and shift. -/
def hbn (h : (⟨S50000x64, .f32⟩ : BufTy).Contents (Elt F)) (mu v gamma beta : (⟨S64, .f32⟩ : BufTy).Contents (Elt F)) : (⟨S50000x64, .f32⟩ : BufTy).Contents (Elt F) :=
  addf (mulf (mulf (subf h (statRows mu))
      (statRows (Host.rsqrt (addf v (broadcastInDim S64 ![] bcast_S_S64 (constant S_ .f32 0x3727C5AC#32))))))
    (statRows gamma)) (statRows beta)

/-- The whole layer after the aggregation: its output from its input, the aggregation of the input over the edges, and
    the six parameters. -/
def layer (hin agg : (⟨S50000x64, .f32⟩ : BufTy).Contents (Elt F))
    (W1 : (⟨S64x64, .f32⟩ : BufTy).Contents (Elt F)) (b1 : (⟨S64, .f32⟩ : BufTy).Contents (Elt F)) (W2 : (⟨S64x64, .f32⟩ : BufTy).Contents (Elt F)) (b2 gamma beta : (⟨S64, .f32⟩ : BufTy).Contents (Elt F)) :
    (⟨S50000x64, .f32⟩ : BufTy).Contents (Elt F) :=
  hbn (hpost (a1 (xin hin agg) W1 b1) W2 b2)
    (mean (hpost (a1 (xin hin agg) W1 b1) W2 b2))
    (var (hpost (a1 (xin hin agg) W1 b1) W2 b2) (constantI S_ 32 0#32))
    gamma beta

end Composed

/-! ## Read at an index, at the ideal instance -/

section Read
variable {F : FTy → Type} [FloatOps F]

/-- A vector as one row reads the vector at the column. -/
theorem vecRow_apply {α : Type} (v : S64.Idx → α) (k : Fin 64) :
    broadcastInDim S1x64 ![1] bcast_S64_S1x64_1 v (ix2 (0 : Fin 1) k) = v (ix1 k) := by
  refine broadcastInDim_apply ![1] bcast_S64_S1x64_1 v (ix2 (0 : Fin 1) k) (ix1 k) (fun a => ?_)
  match a with
  | ⟨0, _⟩ => exact (if_neg (show ¬(64 : ℕ) = 1 by decide)).symm

/-- A vector laid along every row reads the vector at the column. -/
theorem vecRows_apply {α : Type} (v : S64.Idx → α) (n : Fin 50000) (k : Fin 64) :
    broadcastInDim S50000x64 ![0, 1] bcast_S1x64_S50000x64_0_1 (broadcastInDim S1x64 ![1] bcast_S64_S1x64_1 v) (ix2 n k) = v (ix1 k) :=
  (broadcastInDim_oneRow_apply (m := 50000) (n := 64) bcast_S1x64_S50000x64_0_1 _ n k).trans (vecRow_apply v k)

/-- A scalar broadcast to a vector reads the scalar. -/
theorem scalarVec_apply {α : Type} (x : S_.Idx → α) (k : Fin 64) :
    broadcastInDim S64 ![] bcast_S_S64 x (ix1 k) = x ix0 :=
  broadcastInDim_scalar_apply bcast_S_S64 x (ix1 k)

/-- The operand indices of the first product at an output index and a contraction index, axis by axis. -/
theorem dotA_lhs_0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dotA_lhs_1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem dotA_rhs_0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem dotA_rhs_1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The product read at a node and an output column: the sum over the 64 contracted columns. -/
theorem dotA_apply (x : FVec Ideal S50000x64 .f32) (W : FVec Ideal S64x64 .f32) (n : Fin 50000) (k : Fin 64) :
    Host.dotGeneral dot_S50000x64_S64x64_S50000x64_1_0_0_1_n_n none x W (ix2 n k) = ∑ j : Fin 64, x (ix2 n j) * W (ix2 j k) := by
  show FloatOps.dotGeneral dot_S50000x64_S64x64_S50000x64_1_0_0_1_n_n none _ x W (ix2 n k) = _
  rw [Ideal.dotGeneral_apply, ← Equiv.sum_comp (contrEquiv1 dot_S50000x64_S64x64_S50000x64_1_0_0_1_n_n 64 rfl rfl).symm]
  refine Finset.sum_congr rfl fun c _ => ?_
  have hc := contrEquiv1_symm_val dot_S50000x64_S64x64_S50000x64_1_0_0_1_n_n 64 rfl rfl c
  have el : dot_S50000x64_S64x64_S50000x64_1_0_0_1_n_n.lhsIdx (ix2 n k) ((contrEquiv1 dot_S50000x64_S64x64_S50000x64_1_0_0_1_n_n 64 rfl rfl).symm c) = ix2 n c := funext fun a => Fin.ext (by
    match a with
    | ⟨0, _⟩ => exact dotA_lhs_0 _ _
    | ⟨1, _⟩ => exact (dotA_lhs_1 _ _).trans hc)
  have er : dot_S50000x64_S64x64_S50000x64_1_0_0_1_n_n.rhsIdx (ix2 n k) ((contrEquiv1 dot_S50000x64_S64x64_S50000x64_1_0_0_1_n_n 64 rfl rfl).symm c) = ix2 c k := funext fun a => Fin.ext (by
    match a with
    | ⟨0, _⟩ => exact (dotA_rhs_0 _ _).trans hc
    | ⟨1, _⟩ => exact dotA_rhs_1 _ _)
  rw [el, er]

/-- The operand indices of the second product at an output index and a contraction index, axis by axis. -/
theorem dotB_lhs_0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dotB_lhs_1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem dotB_rhs_0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem dotB_rhs_1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The product read at a node and an output column: the sum over the 64 contracted columns. -/
theorem dotB_apply (x : FVec Ideal S50000x64 .f32) (W : FVec Ideal S64x64 .f32) (n : Fin 50000) (k : Fin 64) :
    Host.dotGeneral dot_S50000x64_S64x64_S50000x64_1_0_0_1_n_n none x W (ix2 n k) = ∑ j : Fin 64, x (ix2 n j) * W (ix2 j k) := by
  show FloatOps.dotGeneral dot_S50000x64_S64x64_S50000x64_1_0_0_1_n_n none _ x W (ix2 n k) = _
  rw [Ideal.dotGeneral_apply, ← Equiv.sum_comp (contrEquiv1 dot_S50000x64_S64x64_S50000x64_1_0_0_1_n_n 64 rfl rfl).symm]
  refine Finset.sum_congr rfl fun c _ => ?_
  have hc := contrEquiv1_symm_val dot_S50000x64_S64x64_S50000x64_1_0_0_1_n_n 64 rfl rfl c
  have el : dot_S50000x64_S64x64_S50000x64_1_0_0_1_n_n.lhsIdx (ix2 n k) ((contrEquiv1 dot_S50000x64_S64x64_S50000x64_1_0_0_1_n_n 64 rfl rfl).symm c) = ix2 n c := funext fun a => Fin.ext (by
    match a with
    | ⟨0, _⟩ => exact dotB_lhs_0 _ _
    | ⟨1, _⟩ => exact (dotB_lhs_1 _ _).trans hc)
  have er : dot_S50000x64_S64x64_S50000x64_1_0_0_1_n_n.rhsIdx (ix2 n k) ((contrEquiv1 dot_S50000x64_S64x64_S50000x64_1_0_0_1_n_n 64 rfl rfl).symm c) = ix2 c k := funext fun a => Fin.ext (by
    match a with
    | ⟨0, _⟩ => exact (dotB_rhs_0 _ _).trans hc
    | ⟨1, _⟩ => exact dotB_rhs_1 _ _)
  rw [el, er]

/-- The row count's constant, 5.0e4, denotes the real 50000. -/
theorem ofBits_rows : Ideal.ofBits .f32 0x47435000#32 = ((50000 : ℝ) : EReal) := by
  simp [Ideal.ofBits, Ideal.ieee, -EReal.coe_mul]; norm_num

/-- The input plus its aggregation, at a node and a column. -/
theorem xin_apply (hin agg : (⟨S50000x64, .f32⟩ : BufTy).Contents (Elt Ideal)) (n : Fin 50000) (j : Fin 64) :
    xin hin agg (ix2 n j) = hin (ix2 n j) + agg (ix2 n j) := rfl

/-- A bias laid along the rows reads the bias at the column. -/
theorem biasRows_apply (b : (⟨S64, .f32⟩ : BufTy).Contents (Elt F)) (n : Fin 50000) (k : Fin 64) :
    biasRows (F := F) b (ix2 n k) = b (ix1 k) := vecRows_apply b n k

/-- The first affine map and the maximum with zero, at a node and an output column: the row of the input against the
    column of the weights, plus the bias, against the zero constant. -/
theorem a1_apply (x : (⟨S50000x64, .f32⟩ : BufTy).Contents (Elt Ideal)) (W1 : (⟨S64x64, .f32⟩ : BufTy).Contents (Elt Ideal)) (b1 : (⟨S64, .f32⟩ : BufTy).Contents (Elt Ideal))
    (n : Fin 50000) (k : Fin 64) :
    a1 x W1 b1 (ix2 n k) = max ((∑ j : Fin 64, x (ix2 n j) * W1 (ix2 j k)) + b1 (ix1 k)) (Ideal.ofBits .f32 0x00000000#32) := by
  show max (Host.dotGeneral (F := Ideal) (φ₁ := .f32) (φ₂ := .f32) dot_S50000x64_S64x64_S50000x64_1_0_0_1_n_n none x W1 (ix2 n k) + biasRows b1 (ix2 n k)) (zeros64 (F := Ideal) (ix2 n k)) = _
  rw [dotA_apply, biasRows_apply]
  rfl

/-- The second affine map and the maximum with zero, likewise. -/
theorem hpost_apply (a : (⟨S50000x64, .f32⟩ : BufTy).Contents (Elt Ideal)) (W2 : (⟨S64x64, .f32⟩ : BufTy).Contents (Elt Ideal)) (b2 : (⟨S64, .f32⟩ : BufTy).Contents (Elt Ideal))
    (n : Fin 50000) (k : Fin 64) :
    hpost a W2 b2 (ix2 n k) = max ((∑ j : Fin 64, a (ix2 n j) * W2 (ix2 j k)) + b2 (ix1 k)) (Ideal.ofBits .f32 0x00000000#32) := by
  show max (Host.dotGeneral (F := Ideal) (φ₁ := .f32) (φ₂ := .f32) dot_S50000x64_S64x64_S50000x64_1_0_0_1_n_n none a W2 (ix2 n k) + biasRows b2 (ix2 n k)) (zeros64 (F := Ideal) (ix2 n k)) = _
  rw [dotB_apply, biasRows_apply]
  rfl

/-- A column's sum: the zero constant plus the sum over the 50000 rows. -/
theorem colSum_apply (h : (⟨S50000x64, .f32⟩ : BufTy).Contents (Elt Ideal)) (k : Fin 64) :
    colSum h (ix1 k) = Ideal.ofBits .f32 0x00000000#32 + ∑ n : Fin 50000, h (ix2 n k) := by
  show Ideal.hostReduceAdd reducesTo_S50000x64_S64_d0 h (Ideal.ofBits .f32 0x00000000#32) (ix1 k) = _
  rw [Ideal.hostReduceAdd_single reducesTo_S50000x64_S64_d0 (by decide)]
  refine congrArg (_ + ·) (Finset.sum_congr rfl fun n _ => ?_)
  exact congrArg h (funext fun a => Fin.ext (by match a with | ⟨0, _⟩ => rfl | ⟨1, _⟩ => rfl))

/-- A column's mean: its sum over the row count's constant. -/
theorem mean_apply (h : (⟨S50000x64, .f32⟩ : BufTy).Contents (Elt Ideal)) (k : Fin 64) :
    mean h (ix1 k) = Ideal.div (Ideal.ofBits .f32 0x00000000#32 + ∑ n : Fin 50000, h (ix2 n k)) (Ideal.ofBits .f32 0x47435000#32) := by
  show Ideal.div (colSum h (ix1 k)) (Ideal.ofBits .f32 0x47435000#32) = _
  rw [colSum_apply]

/-- The variance function's own mean of a column is the same quotient. -/
theorem meanRow_apply (h : (⟨S50000x64, .f32⟩ : BufTy).Contents (Elt Ideal)) (k : Fin 64) :
    meanRow h (ix2 (0 : Fin 1) k) = mean h (ix1 k) := by
  show Ideal.div (broadcastInDim S1x64 ![1] bcast_S64_S1x64_1 (colSum h) (ix2 (0 : Fin 1) k)) (Ideal.ofBits .f32 0x47435000#32) = Ideal.div (colSum h (ix1 k)) (Ideal.ofBits .f32 0x47435000#32)
  rw [vecRow_apply]

/-- The squared deviation of an entry from its column's mean. -/
theorem sqDev_apply (h : (⟨S50000x64, .f32⟩ : BufTy).Contents (Elt Ideal)) (n : Fin 50000) (k : Fin 64) :
    sqDev h (ix2 n k) = (h (ix2 n k) - mean h (ix1 k)) * (h (ix2 n k) - mean h (ix1 k)) := by
  show (h (ix2 n k) - broadcastInDim S50000x64 ![0, 1] bcast_S1x64_S50000x64_0_1 (meanRow h) (ix2 n k))
      * (h (ix2 n k) - broadcastInDim S50000x64 ![0, 1] bcast_S1x64_S50000x64_0_1 (meanRow h) (ix2 n k)) = _
  rw [broadcastInDim_oneRow_apply (m := 50000) (n := 64) bcast_S1x64_S50000x64_0_1 _ n k, meanRow_apply]

/-- The variance's divisor at the zero correction is the row count's constant: the integer zero converts to zero. -/
theorem varDen_zero : varDen (F := Ideal) (constantI S_ 32 0#32) ix0 = Ideal.ofBits .f32 0x47435000#32 := by
  show Ideal.ofBits .f32 0x47435000#32 - (((0#32 : BitVec 32).toInt : ℝ) : EReal) = _
  simp

/-- A column's variance as printed, at any correction: the guarded quotient. -/
theorem var_apply_guarded (h : (⟨S50000x64, .f32⟩ : BufTy).Contents (Elt Ideal)) (ddof : (⟨S_, .i32⟩ : BufTy).Contents (Elt Ideal)) (k : Fin 64) :
    var h ddof (ix1 k)
      = Scalar.select (Ideal.cmp .ogt (varDen ddof ix0) (Ideal.ofBits .f32 0x00000000#32))
          (Ideal.div (Ideal.ofBits .f32 0x00000000#32 + ∑ n : Fin 50000, (h (ix2 n k) - mean h (ix1 k)) * (h (ix2 n k) - mean h (ix1 k))) (varDen ddof ix0))
          (Ideal.ofBits .f32 0x7FC00000#32) := by
  show Scalar.select (broadcastInDim S64 ![] bcast_S_S64 (cmpf .ogt (varDen ddof) (constant S_ .f32 0x00000000#32)) (ix1 k))
      (Ideal.div (colSum (sqDev h) (ix1 k)) (broadcastInDim S64 ![] bcast_S_S64 (varDen ddof) (ix1 k)))
      (broadcastInDim S64 ![] bcast_S_S64 (id (constant (F := Ideal) S_ .f32 0x7FC00000#32)) (ix1 k)) = _
  rw [scalarVec_apply, scalarVec_apply, scalarVec_apply, colSum_apply]
  simp only [sqDev_apply]
  rfl

/-- A column's variance at the zero correction: the divisor 50000 is above zero, so the guard takes the quotient — the
    summed squared deviations from the column's mean over the row count's constant. -/
theorem var_apply (h : (⟨S50000x64, .f32⟩ : BufTy).Contents (Elt Ideal)) (k : Fin 64) :
    var h (constantI S_ 32 0#32) (ix1 k)
      = Ideal.div (Ideal.ofBits .f32 0x00000000#32 + ∑ n : Fin 50000, (h (ix2 n k) - mean h (ix1 k)) * (h (ix2 n k) - mean h (ix1 k))) (Ideal.ofBits .f32 0x47435000#32) := by
  have hpos : (0 : EReal) < ((50000 : ℝ) : EReal) := by exact_mod_cast (by norm_num : (0 : ℝ) < 50000)
  have hg : Ideal.cmp .ogt (Ideal.ofBits .f32 0x47435000#32) (Ideal.ofBits .f32 0x00000000#32) = 1#1 := by
    rw [ofBits_rows, Ideal.ofBits_zero_f32]
    show BitVec.ofBool (decide ((0 : EReal) < ((50000 : ℝ) : EReal))) = 1#1
    rw [decide_eq_true hpos]; rfl
  rw [var_apply_guarded, varDen_zero, hg, select_one]

/-- A vector of column statistics laid along the rows reads the vector at the column. -/
theorem statRows_apply (v : (⟨S64, .f32⟩ : BufTy).Contents (Elt F)) (n : Fin 50000) (k : Fin 64) :
    statRows (F := F) v (ix2 n k) = v (ix1 k) := vecRows_apply v n k

/-- The normalisation at a node and a column. -/
theorem hbn_apply (h : (⟨S50000x64, .f32⟩ : BufTy).Contents (Elt Ideal)) (mu v gamma beta : (⟨S64, .f32⟩ : BufTy).Contents (Elt Ideal)) (n : Fin 50000) (k : Fin 64) :
    hbn h mu v gamma beta (ix2 n k)
      = (((h (ix2 n k) - mu (ix1 k)) * Ideal.rsqrt (v (ix1 k) + Ideal.ofBits .f32 0x3727C5AC#32)) * gamma (ix1 k)) + beta (ix1 k) := by
  show (((h (ix2 n k) - statRows mu (ix2 n k))
      * statRows (Host.rsqrt (addf v (broadcastInDim S64 ![] bcast_S_S64 (constant S_ .f32 0x3727C5AC#32)))) (ix2 n k))
      * statRows gamma (ix2 n k)) + statRows beta (ix2 n k) = _
  simp only [statRows_apply]
  rfl

end Read

end Cert.ReferenceIdeal.Glue.L1

end
-- ==== Proof.RGlueRun1.lean ====
/-
  What one layer's stretch of the reference's host operations leaves in its result buffers, from any contents of the
  device's buffers before it: each result is the layer's function (the aggregation over the edges, the input plus it,
  the two affine maps with their maxima, the column means and variances, the normalisation) of what the stretch's
  input buffers held.
-/
import proofs.«429418_j73830487818378_3_alg».proof.Proof.RefRun0
import proofs.«429418_j73830487818378_3_alg».proof.Proof.RGlue1
import proofs.«429418_j73830487818378_3_alg».proof.Proof.AggChainR

noncomputable section

namespace Cert.ReferenceIdeal.Glue.L1

open Cert.ReferenceIdeal Cert.ReferenceIdeal.Hand Idealize.ShloMosaic Idealize.ShloMosaic.StableHlo

variable {F : FTy → Type} [FloatOps F] (W : Valuation τ sig (Elt F))

/-- The index stretch leaves the edge table's two rows where they were or puts them there: what it holds of them
    afterwards is what the aggregation reads. After the index stretch and the aggregation stretch, the aggregation's
    buffer holds the aggregation of the input over the edges. -/
theorem run_agg :
    StableHlo.after ops7 (StableHlo.after ops6 W) (Proc.devRef .tc main_v59)
      = Agg.agg64 (W (Proc.devRef .tc main_v46)) (StableHlo.after ops6 W (Proc.devRef .tc main_v1)) (StableHlo.after ops6 W (Proc.devRef .tc main_v3)) (W (Proc.devRef .tc main_arg3)) := by
  after_results_simp
  rfl

/-- … and the next buffer the input plus it. -/
theorem run_xin :
    StableHlo.after ops7 (StableHlo.after ops6 W) (Proc.devRef .tc main_v60)
      = xin (W (Proc.devRef .tc main_v46)) (Agg.agg64 (W (Proc.devRef .tc main_v46)) (StableHlo.after ops6 W (Proc.devRef .tc main_v1)) (StableHlo.after ops6 W (Proc.devRef .tc main_v3)) (W (Proc.devRef .tc main_arg3))) := by
  after_results_simp
  rfl

/-- The affine stretch: the first map's maximum. -/
theorem run_a1 :
    StableHlo.after ops8 W (Proc.devRef .tc main_v65) = a1 (W (Proc.devRef .tc main_v60)) (W (Proc.devRef .tc main_arg10)) (W (Proc.devRef .tc main_arg11)) := by
  after_results_simp
  rfl

/-- The affine stretch: the second map's maximum. -/
theorem run_hpost :
    StableHlo.after ops8 W (Proc.devRef .tc main_v70)
      = hpost (a1 (W (Proc.devRef .tc main_v60)) (W (Proc.devRef .tc main_arg10)) (W (Proc.devRef .tc main_arg11))) (W (Proc.devRef .tc main_arg12)) (W (Proc.devRef .tc main_arg13)) := by
  after_results_simp
  rfl

/-- The mean stretch: the column means. -/
theorem run_mean :
    StableHlo.after ops9 W (Proc.devRef .tc main_v73) = mean (W (Proc.devRef .tc main_v70)) := by
  after_results_simp
  rfl

/-- The mean stretch also writes the variance's correction: the integer zero. -/
theorem run_ddof :
    StableHlo.after ops9 W (Proc.devRef .tc main_c_10) = constantI S_ 32 0#32 := by
  after_results_simp

/-- The variance stretch: the column variances at the correction it is handed. -/
theorem run_var :
    StableHlo.after ops10 W (Proc.devRef .tc main_v74) = var (W (Proc.devRef .tc main_v70)) (W (Proc.devRef .tc main_c_10)) := by
  after_results_simp
  rfl

/-- The normalisation stretch. -/
theorem run_hbn :
    StableHlo.after ops11 W (Proc.devRef .tc main_v89)
      = hbn (W (Proc.devRef .tc main_v70)) (W (Proc.devRef .tc main_v73)) (W (Proc.devRef .tc main_v74)) (W (Proc.devRef .tc main_arg14)) (W (Proc.devRef .tc main_arg15)) := by
  after_results_simp
  rfl

set_option maxHeartbeats 4000000 in
/-- The whole layer: after its six stretches in order, its output buffer holds the layer's function of its input, of
    the aggregation of the input over the edges, and of the six parameters. -/
theorem run_layer :
    StableHlo.after ops11 (StableHlo.after ops10 (StableHlo.after ops9 (StableHlo.after ops8 (StableHlo.after ops7 (StableHlo.after ops6 W))))) (Proc.devRef .tc main_v89)
      = layer (W (Proc.devRef .tc main_v46))
          (Agg.agg64 (W (Proc.devRef .tc main_v46)) (StableHlo.after ops6 W (Proc.devRef .tc main_v1)) (StableHlo.after ops6 W (Proc.devRef .tc main_v3)) (W (Proc.devRef .tc main_arg3)))
          (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  rfl

end Cert.ReferenceIdeal.Glue.L1

end
-- ==== Proof.RChainT1.lean ====
/-
  The reference's second layer threaded to the end: the layer's clamped rows and normalised rows, where the end holds
  them, are the layer's functions of the first layer's normalised rows, their aggregation over the edges and the
  layer's six parameters. For any float values.
-/
import proofs.«429418_j73830487818378_3_alg».proof.Proof.RChainT
import proofs.«429418_j73830487818378_3_alg».proof.Proof.RGlueRun1

noncomputable section

namespace Cert.ReferenceIdeal.Hand

open Cert.ReferenceIdeal Cert.ReferenceIdeal.Gen Idealize.ShloMosaic Idealize.ShloMosaic.ValueIdx Idealize.SL.Sem
open Cert.ReferenceIdeal.Glue

variable {F : FTy → Type} [FloatOps F] (m : (ℓ : Loc nD τ sig) → Buf (Elt F) ℓ) (c : Dev nD)

/-! ## The second layer -/

/-- The index stage of the layer leaves the two rows of the edge table as it found them. -/
theorem src1_keep : StableHlo.after ops6 (stgA m c) (Proc.devRef .tc main_v1) = srcW m c :=
  (ops6_keep _ _ (by decide)).trans (srcA_keep m c)
theorem dst1_keep : StableHlo.after ops6 (stgA m c) (Proc.devRef .tc main_v3) = dstW m c :=
  (ops6_keep _ _ (by decide)).trans (dstA_keep m c)

/-- The layer's normalised rows at the end: the layer's function of the previous layer's normalised rows, their
    aggregation and the six parameters. -/
theorem T1_v89 :
    Wend m c (Proc.devRef .tc main_v89)
      = L1.layer (Wend m c (Proc.devRef .tc main_v46)) (A1 m c) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (Wend_v89 m c).trans ((L1.run_layer (stgA m c)).trans ?_)
  rw [src1_keep m c, dst1_keep m c, ← Wend_v46 m c, inA m c main_arg3 (by decide) (by decide),
    inA m c main_arg10 (by decide) (by decide),
    inA m c main_arg11 (by decide) (by decide),
    inA m c main_arg12 (by decide) (by decide),
    inA m c main_arg13 (by decide) (by decide),
    inA m c main_arg14 (by decide) (by decide),
    inA m c main_arg15 (by decide) (by decide)]

/-- The layer's clamped rows at the end. -/
theorem T1_v70 :
    Wend m c (Proc.devRef .tc main_v70)
      = L1.hpost (L1.a1 (L1.xin (Wend m c (Proc.devRef .tc main_v46)) (A1 m c)) (m ((c.tc : Thread nD τ).loc main_arg10)) (m ((c.tc : Thread nD τ).loc main_arg11))) (m ((c.tc : Thread nD τ).loc main_arg12)) (m ((c.tc : Thread nD τ).loc main_arg13)) := by
  have e10 : StableHlo.after ops7 (StableHlo.after ops6 (stgA m c)) (Proc.devRef .tc main_arg10) = (m ((c.tc : Thread nD τ).loc main_arg10)) :=
    (ops7_keep _ _ (by decide)).trans ((ops6_keep _ _ (by decide)).trans (inA m c _ (by decide) (by decide)))
  have e11 : StableHlo.after ops7 (StableHlo.after ops6 (stgA m c)) (Proc.devRef .tc main_arg11) = (m ((c.tc : Thread nD τ).loc main_arg11)) :=
    (ops7_keep _ _ (by decide)).trans ((ops6_keep _ _ (by decide)).trans (inA m c _ (by decide) (by decide)))
  have e12 : StableHlo.after ops7 (StableHlo.after ops6 (stgA m c)) (Proc.devRef .tc main_arg12) = (m ((c.tc : Thread nD τ).loc main_arg12)) :=
    (ops7_keep _ _ (by decide)).trans ((ops6_keep _ _ (by decide)).trans (inA m c _ (by decide) (by decide)))
  have e13 : StableHlo.after ops7 (StableHlo.after ops6 (stgA m c)) (Proc.devRef .tc main_arg13) = (m ((c.tc : Thread nD τ).loc main_arg13)) :=
    (ops7_keep _ _ (by decide)).trans ((ops6_keep _ _ (by decide)).trans (inA m c _ (by decide) (by decide)))
  have ex : StableHlo.after ops7 (StableHlo.after ops6 (stgA m c)) (Proc.devRef .tc main_v60)
      = L1.xin (Wend m c (Proc.devRef .tc main_v46)) (A1 m c) := by
    refine (L1.run_xin (stgA m c)).trans ?_
    rw [src1_keep m c, dst1_keep m c, ← Wend_v46 m c, inA m c main_arg3 (by decide) (by decide)]
  refine (endB m c main_v70 (by decide) (by decide) (by decide)).trans ?_
  refine (ops11_keep _ _ (by decide)).trans ((ops10_keep _ _ (by decide)).trans ((ops9_keep _ _ (by decide)).trans ?_))
  refine (L1.run_hpost _).trans ?_
  rw [ex, e10, e11, e12, e13]

end Cert.ReferenceIdeal.Hand

end
-- ==== Proof.RLayer1.lean ====
/-
  One layer of the reference, read at a node and a column, is the mathematical layer.  The layer's array operations —
  the input plus its aggregation, two dense maps each followed by the maximum with zero, every column's mean and
  variance over the nodes, and the normalisation scaled and shifted — read index by index are the curried functions
  of the same names: the dense maps are sums of products plus a bias against zero, the mean and the variance are the
  quotients of the column sums by the node count, the normalisation is the centred entry times the reciprocal square
  root of the variance plus epsilon, times the scale, plus the shift.  This file is the layer whose input has 64
  columns.
-/
import proofs.«429418_j73830487818378_3_alg».proof.Proof.RGlue1
import proofs.«429418_j73830487818378_3_alg».proof.Proof.GinMath
import proofs.«429418_j73830487818378_3_alg».proof.Proof.Inst

noncomputable section

open scoped BigOperators

namespace Cert.ReferenceIdeal.Glue.L1

open Cert.ReferenceIdeal Idealize.ShloMosaic Idealize.ShloMosaic.ValueIdx

variable (ei : IVec ⟨2, ![2, 800000]⟩ 32) (bt : IVec ⟨1, ![50000]⟩ 32) (ew : (⟨1, ![800000]⟩ : Shape).Idx → EReal)

local notation "𝔾" => Cert.Inst.graph ei bt ew

/-! ## The dense part -/

/-- The input plus its aggregation, the input given entry by entry. -/
theorem xin_eq (hin agg : (⟨S50000x64, .f32⟩ : BufTy).Contents (Elt Ideal)) (f : Fin 50000 → Fin 64 → EReal)
    (hhin : ∀ n j, hin (ix2 n j) = f n j) (hagg : ∀ n j, agg (ix2 n j) = Cert.GinMath.agg 𝔾 f n j)
    (n : Fin 50000) (j : Fin 64) : xin hin agg (ix2 n j) = Cert.GinMath.xinR 𝔾 f n j := by
  rw [xin_apply, hhin, hagg]; rfl

/-- The first dense map and the maximum with zero, its input given entry by entry. -/
theorem a1_eq (x : (⟨S50000x64, .f32⟩ : BufTy).Contents (Elt Ideal)) (W1 : (⟨S64x64, .f32⟩ : BufTy).Contents (Elt Ideal)) (b1 : (⟨S64, .f32⟩ : BufTy).Contents (Elt Ideal))
    (A : Fin 50000 → Fin 64 → EReal) (hx : ∀ n j, x (ix2 n j) = A n j) (n : Fin 50000) (k : Fin 64) :
    a1 x W1 b1 (ix2 n k) = Cert.GinMath.dense 𝔾 A (Cert.Inst.mat W1) (Cert.Inst.vec b1) n k := by
  rw [a1_apply]; simp only [hx]; rfl

/-- The second dense map and the maximum with zero, likewise. -/
theorem hpost_eq (a : (⟨S50000x64, .f32⟩ : BufTy).Contents (Elt Ideal)) (W2 : (⟨S64x64, .f32⟩ : BufTy).Contents (Elt Ideal)) (b2 : (⟨S64, .f32⟩ : BufTy).Contents (Elt Ideal))
    (A : Fin 50000 → Fin 64 → EReal) (ha : ∀ n j, a (ix2 n j) = A n j) (n : Fin 50000) (k : Fin 64) :
    hpost a W2 b2 (ix2 n k) = Cert.GinMath.dense 𝔾 A (Cert.Inst.mat W2) (Cert.Inst.vec b2) n k := by
  rw [hpost_apply]; simp only [ha]; rfl

/-- The layer's two dense maps over the input plus its aggregation, the input given entry by entry. -/
theorem mlp_eq_of (hin agg : (⟨S50000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) (f : Fin 50000 → Fin 64 → EReal)
    (hhin : ∀ n j, hin (ix2 n j) = f n j) (hagg : ∀ n j, agg (ix2 n j) = Cert.GinMath.agg 𝔾 f n j)
    (n : Fin 50000) (k : Fin 64) :
    hpost (a1 (xin hin agg) W1 b1) W2 b2 (ix2 n k)
      = Cert.GinMath.mlp 𝔾 (Cert.GinMath.xinR 𝔾 f) (Cert.Inst.mat W1) (Cert.Inst.vec b1) (Cert.Inst.mat W2)
          (Cert.Inst.vec b2) n k := by
  unfold Cert.GinMath.mlp
  exact hpost_eq ei bt ew _ W2 b2 _ (fun n j => a1_eq ei bt ew _ W1 b1 _ (xin_eq ei bt ew hin agg f hhin hagg) n j) n k

/-- The same with the input read off its own array. -/
theorem mlp_eq (hin agg : (⟨S50000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (hagg : ∀ n j, agg (ix2 n j) = Cert.GinMath.agg 𝔾 (Cert.Inst.mat hin) n j) (n : Fin 50000) (k : Fin 64) :
    hpost (a1 (xin hin agg) W1 b1) W2 b2 (ix2 n k)
      = Cert.GinMath.mlp 𝔾 (Cert.GinMath.xinR 𝔾 (Cert.Inst.mat hin)) (Cert.Inst.mat W1) (Cert.Inst.vec b1)
          (Cert.Inst.mat W2) (Cert.Inst.vec b2) n k :=
  mlp_eq_of ei bt ew hin agg W1 b1 W2 b2 (Cert.Inst.mat hin) (fun _ _ => rfl) hagg n k

/-! ## The normalisation -/

/-- A column's mean, the rows given entry by entry. -/
theorem mean_eq (h : (⟨S50000x64, .f32⟩ : BufTy).Contents (Elt Ideal)) (A : Fin 50000 → Fin 64 → EReal) (hA : ∀ n k, h (ix2 n k) = A n k)
    (k : Fin 64) : mean h (ix1 k) = Cert.GinMath.meanR 𝔾 A k := by
  rw [mean_apply]; simp only [hA]; rfl

/-- A column's variance at the zero correction, likewise. -/
theorem var_eq (h : (⟨S50000x64, .f32⟩ : BufTy).Contents (Elt Ideal)) (A : Fin 50000 → Fin 64 → EReal) (hA : ∀ n k, h (ix2 n k) = A n k)
    (k : Fin 64) : var h (constantI S_ 32 0#32) (ix1 k) = Cert.GinMath.varR 𝔾 A k := by
  rw [var_apply, mean_eq ei bt ew h A hA]; simp only [hA]; rfl

/-- The normalisation by the rows' own mean and variance, scaled and shifted. -/
theorem hbn_eq (h : (⟨S50000x64, .f32⟩ : BufTy).Contents (Elt Ideal)) (A : Fin 50000 → Fin 64 → EReal) (hA : ∀ n k, h (ix2 n k) = A n k)
    (gamma beta : (⟨S64, .f32⟩ : BufTy).Contents (Elt Ideal)) (n : Fin 50000) (k : Fin 64) :
    hbn h (mean h) (var h (constantI S_ 32 0#32)) gamma beta (ix2 n k)
      = Cert.GinMath.bnR 𝔾 A (Cert.Inst.vec gamma) (Cert.Inst.vec beta) n k := by
  rw [hbn_apply, mean_eq ei bt ew h A hA, var_eq ei bt ew h A hA, hA]; rfl

/-! ## The whole layer -/

/-- The layer after the aggregation, its input given entry by entry. -/
theorem layer_eq_of (hin agg : (⟨S50000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 gamma beta : (⟨S64, .f32⟩ : BufTy).Contents (Elt Ideal)) (f : Fin 50000 → Fin 64 → EReal)
    (hhin : ∀ n j, hin (ix2 n j) = f n j) (hagg : ∀ n j, agg (ix2 n j) = Cert.GinMath.agg 𝔾 f n j)
    (n : Fin 50000) (k : Fin 64) :
    layer hin agg W1 b1 W2 b2 gamma beta (ix2 n k)
      = Cert.GinMath.bnR 𝔾
          (Cert.GinMath.mlp 𝔾 (Cert.GinMath.xinR 𝔾 f) (Cert.Inst.mat W1) (Cert.Inst.vec b1) (Cert.Inst.mat W2)
            (Cert.Inst.vec b2))
          (Cert.Inst.vec gamma) (Cert.Inst.vec beta) n k := by
  unfold layer
  exact hbn_eq ei bt ew _ _ (mlp_eq_of ei bt ew hin agg W1 b1 W2 b2 f hhin hagg) gamma beta n k

/-- The same with the input read off its own array. -/
theorem layer_eq (hin agg : (⟨S50000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 gamma beta : (⟨S64, .f32⟩ : BufTy).Contents (Elt Ideal))
    (hagg : ∀ n j, agg (ix2 n j) = Cert.GinMath.agg 𝔾 (Cert.Inst.mat hin) n j) (n : Fin 50000) (k : Fin 64) :
    layer hin agg W1 b1 W2 b2 gamma beta (ix2 n k)
      = Cert.GinMath.bnR 𝔾
          (Cert.GinMath.mlp 𝔾 (Cert.GinMath.xinR 𝔾 (Cert.Inst.mat hin)) (Cert.Inst.mat W1) (Cert.Inst.vec b1)
            (Cert.Inst.mat W2) (Cert.Inst.vec b2))
          (Cert.Inst.vec gamma) (Cert.Inst.vec beta) n k :=
  layer_eq_of ei bt ew hin agg W1 b1 W2 b2 gamma beta (Cert.Inst.mat hin) (fun _ _ => rfl) hagg n k

end Cert.ReferenceIdeal.Glue.L1

end
-- ==== Proof.RChainL1.lean ====
/-
  The reference's second layer at the graph and the parameters read off its arguments: given the first layer's
  normalised rows entry by entry, the second layer's clamped rows and normalised rows are the mathematical layer's.
-/
import proofs.«429418_j73830487818378_3_alg».proof.Proof.RChainT1
import proofs.«429418_j73830487818378_3_alg».proof.Proof.RLayer1
import proofs.«429418_j73830487818378_3_alg».proof.Proof.AggInst

set_option maxRecDepth 16384

noncomputable section

namespace Cert.ReferenceIdeal.Hand

open Cert.ReferenceIdeal Cert.ReferenceIdeal.Gen Idealize.ShloMosaic Idealize.SL.Sem Idealize.ShloMosaic.ValueIdx

/-! ## Layer 1 of the reference at the graph and the parameters

Given the previous layer's normalised rows entry by entry, this layer's aggregation is the graph's weighted sum of
in-neighbour rows of them, so its clamped rows are the two dense maps of the rows plus their aggregation and its
normalised rows are those normalised by their own column means and variances, scaled and shifted. -/

section
variable (m : (ℓ : Loc nD τ sig) → Buf (Elt Ideal) ℓ) (c : Dev nD)

/-- The layer's aggregation buffer holds the graph's aggregation of the previous layer's rows. -/
theorem R_agg1
    (H : ∀ n k, Wend m c (Proc.devRef .tc main_v46) (ix2 n k) = Cert.GinMath.bR0 (gOf m c) (pOf m c) n k)
    (n : Fin 50000) (j : Fin 64) :
    A1 m c (ix2 n j) = Cert.GinMath.agg (gOf m c) (Cert.GinMath.bR0 (gOf m c) (pOf m c)) n j := by
  have hf : (fun n k => Wend m c (Proc.devRef .tc main_v46) (ix2 n k)) = Cert.GinMath.bR0 (gOf m c) (pOf m c) :=
    funext fun n => funext fun k => H n k
  have h := Cert.Lib.AggInst.R_agg64_graph (m ((c.tc : Thread nD τ).loc main_arg1)) (m ((c.tc : Thread nD τ).loc main_arg2)) (m ((c.tc : Thread nD τ).loc main_arg3)) (Wend m c (Proc.devRef .tc main_v46)) n j
  rw [← srcW_eq m c, ← dstW_eq m c, hf] at h
  exact h

/-- The layer's clamped rows. -/
theorem R_h1
    (H : ∀ n k, Wend m c (Proc.devRef .tc main_v46) (ix2 n k) = Cert.GinMath.bR0 (gOf m c) (pOf m c) n k)
    (n : Fin 50000) (k : Fin 64) :
    Wend m c (Proc.devRef .tc main_v70) (ix2 n k) = Cert.GinMath.hR1 (gOf m c) (pOf m c) n k := by
  rw [T1_v70]
  exact Glue.L1.mlp_eq_of (m ((c.tc : Thread nD τ).loc main_arg1)) (m ((c.tc : Thread nD τ).loc main_arg2)) (m ((c.tc : Thread nD τ).loc main_arg3)) (Wend m c (Proc.devRef .tc main_v46)) (A1 m c)
    (m ((c.tc : Thread nD τ).loc main_arg10)) (m ((c.tc : Thread nD τ).loc main_arg11)) (m ((c.tc : Thread nD τ).loc main_arg12)) (m ((c.tc : Thread nD τ).loc main_arg13)) (Cert.GinMath.bR0 (gOf m c) (pOf m c)) H (R_agg1 m c H) n k

/-- The layer's normalised rows. -/
theorem R_b1
    (H : ∀ n k, Wend m c (Proc.devRef .tc main_v46) (ix2 n k) = Cert.GinMath.bR0 (gOf m c) (pOf m c) n k)
    (n : Fin 50000) (k : Fin 64) :
    Wend m c (Proc.devRef .tc main_v89) (ix2 n k) = Cert.GinMath.bR1 (gOf m c) (pOf m c) n k := by
  rw [T1_v89]
  exact Glue.L1.layer_eq_of (m ((c.tc : Thread nD τ).loc main_arg1)) (m ((c.tc : Thread nD τ).loc main_arg2)) (m ((c.tc : Thread nD τ).loc main_arg3)) (Wend m c (Proc.devRef .tc main_v46)) (A1 m c)
    (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (Cert.GinMath.bR0 (gOf m c) (pOf m c)) H (R_agg1 m c H) n k

end

end Cert.ReferenceIdeal.Hand

end
-- ==== Proof.RGlue2.lean ====
/-
  The reference's host operations of ONE message-passing layer, as functions of the layer's inputs, and each of them
  read at an index at the ideal instance. The layer: the aggregation of the input over the edges (read elsewhere) added to the input; two affine
  maps, each followed by the maximum with zero; the mean and the variance of every column over the rows; and the
  normalisation of every column, scaled and shifted. This file is the layer whose input has 64 columns.
-/
import proofs.«429418_j73830487818378_3_alg».proof.ReferenceIdeal
import proofs.«429418_j73830487818378_3_alg».proof.Proof.Gen.ReferenceIdeal
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.ReferenceIdeal.Glue.L2

open Cert.ReferenceIdeal Idealize.ShloMosaic Idealize.ShloMosaic.ValueIdx
open Facts₀ Facts

/-! ## The layer's operations composed, at any float instance -/

section Composed
variable {F : FTy → Type} [FloatOps F] [Facts]

/-- The input plus its aggregation. -/
def xin (hin agg : (⟨S50000x64, .f32⟩ : BufTy).Contents (Elt F)) : (⟨S50000x64, .f32⟩ : BufTy).Contents (Elt F) := addf hin agg

/-- A bias vector laid along every row. -/
def biasRows (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)

/-- The zero matrix the maximum is taken with. -/
def zeros64 : (⟨S50000x64, .f32⟩ : BufTy).Contents (Elt F) :=
  broadcastInDim S50000x64 ![] bcast_S_S50000x64 (constant S_ .f32 0x00000000#32)

/-- The first affine map and the maximum with zero. -/
def a1 (x : (⟨S50000x64, .f32⟩ : BufTy).Contents (Elt F)) (W1 : (⟨S64x64, .f32⟩ : BufTy).Contents (Elt F)) (b1 : (⟨S64, .f32⟩ : BufTy).Contents (Elt F)) : (⟨S50000x64, .f32⟩ : BufTy).Contents (Elt F) :=
  maximumf (addf (Host.dotGeneral dot_S50000x64_S64x64_S50000x64_1_0_0_1_n_n none x W1) (biasRows b1)) zeros64

/-- The second affine map and the maximum with zero. -/
def hpost (a : (⟨S50000x64, .f32⟩ : BufTy).Contents (Elt F)) (W2 : (⟨S64x64, .f32⟩ : BufTy).Contents (Elt F)) (b2 : (⟨S64, .f32⟩ : BufTy).Contents (Elt F)) : (⟨S50000x64, .f32⟩ : BufTy).Contents (Elt F) :=
  maximumf (addf (Host.dotGeneral dot_S50000x64_S64x64_S50000x64_1_0_0_1_n_n none a W2) (biasRows b2)) zeros64

/-- The sum of every column over the rows, from the zero constant. -/
def colSum (h : (⟨S50000x64, .f32⟩ : BufTy).Contents (Elt F)) : (⟨S64, .f32⟩ : BufTy).Contents (Elt F) :=
  Host.reduceAdd h (constant S_ .f32 0x00000000#32) reducesTo_S50000x64_S64_d0 h_S_

/-- The mean of every column: its sum divided by the row count's constant. -/
def mean (h : (⟨S50000x64, .f32⟩ : BufTy).Contents (Elt F)) : (⟨S64, .f32⟩ : BufTy).Contents (Elt F) :=
  Host.divf (colSum h) (broadcastInDim S64 ![] bcast_S_S64 (constant S_ .f32 0x47435000#32))

/-- The variance function's own column means, as one row. -/
def meanRow (h : (⟨S50000x64, .f32⟩ : BufTy).Contents (Elt F)) : (⟨S1x64, .f32⟩ : BufTy).Contents (Elt F) :=
  Host.divf (broadcastInDim S1x64 ![1] bcast_S64_S1x64_1 (colSum h)) (broadcastInDim S1x64 ![] bcast_S_S1x64 (constant S_ .f32 0x47435000#32))

/-- The squared deviations from the column means. -/
def sqDev (h : (⟨S50000x64, .f32⟩ : BufTy).Contents (Elt F)) : (⟨S50000x64, .f32⟩ : BufTy).Contents (Elt F) :=
  mulf (subf h (broadcastInDim S50000x64 ![0, 1] bcast_S1x64_S50000x64_0_1 (meanRow h)))
    (subf h (broadcastInDim S50000x64 ![0, 1] bcast_S1x64_S50000x64_0_1 (meanRow h)))

/-- The variance function's divisor: the row count's constant less the converted correction. -/
def varDen (ddof : (⟨S_, .i32⟩ : BufTy).Contents (Elt F)) : (⟨S_, .f32⟩ : BufTy).Contents (Elt F) :=
  subf (constant S_ .f32 0x47435000#32) (sitofp .f32 ddof)

/-- The variance of every column: the summed squared deviations over the divisor where the divisor is above zero, the
    not-a-number constant elsewhere. -/
def var (h : (⟨S50000x64, .f32⟩ : BufTy).Contents (Elt F)) (ddof : (⟨S_, .i32⟩ : BufTy).Contents (Elt F)) : (⟨S64, .f32⟩ : BufTy).Contents (Elt F) :=
  select (broadcastInDim S64 ![] bcast_S_S64 (cmpf .ogt (varDen ddof) (constant S_ .f32 0x00000000#32)))
    (Host.divf (colSum (sqDev h)) (broadcastInDim S64 ![] bcast_S_S64 (varDen ddof)))
    (broadcastInDim S64 ![] bcast_S_S64 (id (constant S_ .f32 0x7FC00000#32)))

/-- A vector of column statistics laid along every row. -/
def statRows (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- The normalisation: centred, scaled by the inverse square root of the variance plus epsilon, then the affine scale
    and shift. -/
def hbn (h : (⟨S50000x64, .f32⟩ : BufTy).Contents (Elt F)) (mu v gamma beta : (⟨S64, .f32⟩ : BufTy).Contents (Elt F)) : (⟨S50000x64, .f32⟩ : BufTy).Contents (Elt F) :=
  addf (mulf (mulf (subf h (statRows mu))
      (statRows (Host.rsqrt (addf v (broadcastInDim S64 ![] bcast_S_S64 (constant S_ .f32 0x3727C5AC#32))))))
    (statRows gamma)) (statRows beta)

/-- The whole layer after the aggregation: its output from its input, the aggregation of the input over the edges, and
    the six parameters. -/
def layer (hin agg : (⟨S50000x64, .f32⟩ : BufTy).Contents (Elt F))
    (W1 : (⟨S64x64, .f32⟩ : BufTy).Contents (Elt F)) (b1 : (⟨S64, .f32⟩ : BufTy).Contents (Elt F)) (W2 : (⟨S64x64, .f32⟩ : BufTy).Contents (Elt F)) (b2 gamma beta : (⟨S64, .f32⟩ : BufTy).Contents (Elt F)) :
    (⟨S50000x64, .f32⟩ : BufTy).Contents (Elt F) :=
  hbn (hpost (a1 (xin hin agg) W1 b1) W2 b2)
    (mean (hpost (a1 (xin hin agg) W1 b1) W2 b2))
    (var (hpost (a1 (xin hin agg) W1 b1) W2 b2) (constantI S_ 32 0#32))
    gamma beta

end Composed

/-! ## Read at an index, at the ideal instance -/

section Read
variable {F : FTy → Type} [FloatOps F]

/-- A vector as one row reads the vector at the column. -/
theorem vecRow_apply {α : Type} (v : S64.Idx → α) (k : Fin 64) :
    broadcastInDim S1x64 ![1] bcast_S64_S1x64_1 v (ix2 (0 : Fin 1) k) = v (ix1 k) := by
  refine broadcastInDim_apply ![1] bcast_S64_S1x64_1 v (ix2 (0 : Fin 1) k) (ix1 k) (fun a => ?_)
  match a with
  | ⟨0, _⟩ => exact (if_neg (show ¬(64 : ℕ) = 1 by decide)).symm

/-- A vector laid along every row reads the vector at the column. -/
theorem vecRows_apply {α : Type} (v : S64.Idx → α) (n : Fin 50000) (k : Fin 64) :
    broadcastInDim S50000x64 ![0, 1] bcast_S1x64_S50000x64_0_1 (broadcastInDim S1x64 ![1] bcast_S64_S1x64_1 v) (ix2 n k) = v (ix1 k) :=
  (broadcastInDim_oneRow_apply (m := 50000) (n := 64) bcast_S1x64_S50000x64_0_1 _ n k).trans (vecRow_apply v k)

/-- A scalar broadcast to a vector reads the scalar. -/
theorem scalarVec_apply {α : Type} (x : S_.Idx → α) (k : Fin 64) :
    broadcastInDim S64 ![] bcast_S_S64 x (ix1 k) = x ix0 :=
  broadcastInDim_scalar_apply bcast_S_S64 x (ix1 k)

/-- The operand indices of the first product at an output index and a contraction index, axis by axis. -/
theorem dotA_lhs_0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dotA_lhs_1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem dotA_rhs_0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem dotA_rhs_1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The product read at a node and an output column: the sum over the 64 contracted columns. -/
theorem dotA_apply (x : FVec Ideal S50000x64 .f32) (W : FVec Ideal S64x64 .f32) (n : Fin 50000) (k : Fin 64) :
    Host.dotGeneral dot_S50000x64_S64x64_S50000x64_1_0_0_1_n_n none x W (ix2 n k) = ∑ j : Fin 64, x (ix2 n j) * W (ix2 j k) := by
  show FloatOps.dotGeneral dot_S50000x64_S64x64_S50000x64_1_0_0_1_n_n none _ x W (ix2 n k) = _
  rw [Ideal.dotGeneral_apply, ← Equiv.sum_comp (contrEquiv1 dot_S50000x64_S64x64_S50000x64_1_0_0_1_n_n 64 rfl rfl).symm]
  refine Finset.sum_congr rfl fun c _ => ?_
  have hc := contrEquiv1_symm_val dot_S50000x64_S64x64_S50000x64_1_0_0_1_n_n 64 rfl rfl c
  have el : dot_S50000x64_S64x64_S50000x64_1_0_0_1_n_n.lhsIdx (ix2 n k) ((contrEquiv1 dot_S50000x64_S64x64_S50000x64_1_0_0_1_n_n 64 rfl rfl).symm c) = ix2 n c := funext fun a => Fin.ext (by
    match a with
    | ⟨0, _⟩ => exact dotA_lhs_0 _ _
    | ⟨1, _⟩ => exact (dotA_lhs_1 _ _).trans hc)
  have er : dot_S50000x64_S64x64_S50000x64_1_0_0_1_n_n.rhsIdx (ix2 n k) ((contrEquiv1 dot_S50000x64_S64x64_S50000x64_1_0_0_1_n_n 64 rfl rfl).symm c) = ix2 c k := funext fun a => Fin.ext (by
    match a with
    | ⟨0, _⟩ => exact (dotA_rhs_0 _ _).trans hc
    | ⟨1, _⟩ => exact dotA_rhs_1 _ _)
  rw [el, er]

/-- The operand indices of the second product at an output index and a contraction index, axis by axis. -/
theorem dotB_lhs_0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dotB_lhs_1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem dotB_rhs_0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem dotB_rhs_1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The product read at a node and an output column: the sum over the 64 contracted columns. -/
theorem dotB_apply (x : FVec Ideal S50000x64 .f32) (W : FVec Ideal S64x64 .f32) (n : Fin 50000) (k : Fin 64) :
    Host.dotGeneral dot_S50000x64_S64x64_S50000x64_1_0_0_1_n_n none x W (ix2 n k) = ∑ j : Fin 64, x (ix2 n j) * W (ix2 j k) := by
  show FloatOps.dotGeneral dot_S50000x64_S64x64_S50000x64_1_0_0_1_n_n none _ x W (ix2 n k) = _
  rw [Ideal.dotGeneral_apply, ← Equiv.sum_comp (contrEquiv1 dot_S50000x64_S64x64_S50000x64_1_0_0_1_n_n 64 rfl rfl).symm]
  refine Finset.sum_congr rfl fun c _ => ?_
  have hc := contrEquiv1_symm_val dot_S50000x64_S64x64_S50000x64_1_0_0_1_n_n 64 rfl rfl c
  have el : dot_S50000x64_S64x64_S50000x64_1_0_0_1_n_n.lhsIdx (ix2 n k) ((contrEquiv1 dot_S50000x64_S64x64_S50000x64_1_0_0_1_n_n 64 rfl rfl).symm c) = ix2 n c := funext fun a => Fin.ext (by
    match a with
    | ⟨0, _⟩ => exact dotB_lhs_0 _ _
    | ⟨1, _⟩ => exact (dotB_lhs_1 _ _).trans hc)
  have er : dot_S50000x64_S64x64_S50000x64_1_0_0_1_n_n.rhsIdx (ix2 n k) ((contrEquiv1 dot_S50000x64_S64x64_S50000x64_1_0_0_1_n_n 64 rfl rfl).symm c) = ix2 c k := funext fun a => Fin.ext (by
    match a with
    | ⟨0, _⟩ => exact (dotB_rhs_0 _ _).trans hc
    | ⟨1, _⟩ => exact dotB_rhs_1 _ _)
  rw [el, er]

/-- The row count's constant, 5.0e4, denotes the real 50000. -/
theorem ofBits_rows : Ideal.ofBits .f32 0x47435000#32 = ((50000 : ℝ) : EReal) := by
  simp [Ideal.ofBits, Ideal.ieee, -EReal.coe_mul]; norm_num

/-- The input plus its aggregation, at a node and a column. -/
theorem xin_apply (hin agg : (⟨S50000x64, .f32⟩ : BufTy).Contents (Elt Ideal)) (n : Fin 50000) (j : Fin 64) :
    xin hin agg (ix2 n j) = hin (ix2 n j) + agg (ix2 n j) := rfl

/-- A bias laid along the rows reads the bias at the column. -/
theorem biasRows_apply (b : (⟨S64, .f32⟩ : BufTy).Contents (Elt F)) (n : Fin 50000) (k : Fin 64) :
    biasRows (F := F) b (ix2 n k) = b (ix1 k) := vecRows_apply b n k

/-- The first affine map and the maximum with zero, at a node and an output column: the row of the input against the
    column of the weights, plus the bias, against the zero constant. -/
theorem a1_apply (x : (⟨S50000x64, .f32⟩ : BufTy).Contents (Elt Ideal)) (W1 : (⟨S64x64, .f32⟩ : BufTy).Contents (Elt Ideal)) (b1 : (⟨S64, .f32⟩ : BufTy).Contents (Elt Ideal))
    (n : Fin 50000) (k : Fin 64) :
    a1 x W1 b1 (ix2 n k) = max ((∑ j : Fin 64, x (ix2 n j) * W1 (ix2 j k)) + b1 (ix1 k)) (Ideal.ofBits .f32 0x00000000#32) := by
  show max (Host.dotGeneral (F := Ideal) (φ₁ := .f32) (φ₂ := .f32) dot_S50000x64_S64x64_S50000x64_1_0_0_1_n_n none x W1 (ix2 n k) + biasRows b1 (ix2 n k)) (zeros64 (F := Ideal) (ix2 n k)) = _
  rw [dotA_apply, biasRows_apply]
  rfl

/-- The second affine map and the maximum with zero, likewise. -/
theorem hpost_apply (a : (⟨S50000x64, .f32⟩ : BufTy).Contents (Elt Ideal)) (W2 : (⟨S64x64, .f32⟩ : BufTy).Contents (Elt Ideal)) (b2 : (⟨S64, .f32⟩ : BufTy).Contents (Elt Ideal))
    (n : Fin 50000) (k : Fin 64) :
    hpost a W2 b2 (ix2 n k) = max ((∑ j : Fin 64, a (ix2 n j) * W2 (ix2 j k)) + b2 (ix1 k)) (Ideal.ofBits .f32 0x00000000#32) := by
  show max (Host.dotGeneral (F := Ideal) (φ₁ := .f32) (φ₂ := .f32) dot_S50000x64_S64x64_S50000x64_1_0_0_1_n_n none a W2 (ix2 n k) + biasRows b2 (ix2 n k)) (zeros64 (F := Ideal) (ix2 n k)) = _
  rw [dotB_apply, biasRows_apply]
  rfl

/-- A column's sum: the zero constant plus the sum over the 50000 rows. -/
theorem colSum_apply (h : (⟨S50000x64, .f32⟩ : BufTy).Contents (Elt Ideal)) (k : Fin 64) :
    colSum h (ix1 k) = Ideal.ofBits .f32 0x00000000#32 + ∑ n : Fin 50000, h (ix2 n k) := by
  show Ideal.hostReduceAdd reducesTo_S50000x64_S64_d0 h (Ideal.ofBits .f32 0x00000000#32) (ix1 k) = _
  rw [Ideal.hostReduceAdd_single reducesTo_S50000x64_S64_d0 (by decide)]
  refine congrArg (_ + ·) (Finset.sum_congr rfl fun n _ => ?_)
  exact congrArg h (funext fun a => Fin.ext (by match a with | ⟨0, _⟩ => rfl | ⟨1, _⟩ => rfl))

/-- A column's mean: its sum over the row count's constant. -/
theorem mean_apply (h : (⟨S50000x64, .f32⟩ : BufTy).Contents (Elt Ideal)) (k : Fin 64) :
    mean h (ix1 k) = Ideal.div (Ideal.ofBits .f32 0x00000000#32 + ∑ n : Fin 50000, h (ix2 n k)) (Ideal.ofBits .f32 0x47435000#32) := by
  show Ideal.div (colSum h (ix1 k)) (Ideal.ofBits .f32 0x47435000#32) = _
  rw [colSum_apply]

/-- The variance function's own mean of a column is the same quotient. -/
theorem meanRow_apply (h : (⟨S50000x64, .f32⟩ : BufTy).Contents (Elt Ideal)) (k : Fin 64) :
    meanRow h (ix2 (0 : Fin 1) k) = mean h (ix1 k) := by
  show Ideal.div (broadcastInDim S1x64 ![1] bcast_S64_S1x64_1 (colSum h) (ix2 (0 : Fin 1) k)) (Ideal.ofBits .f32 0x47435000#32) = Ideal.div (colSum h (ix1 k)) (Ideal.ofBits .f32 0x47435000#32)
  rw [vecRow_apply]

/-- The squared deviation of an entry from its column's mean. -/
theorem sqDev_apply (h : (⟨S50000x64, .f32⟩ : BufTy).Contents (Elt Ideal)) (n : Fin 50000) (k : Fin 64) :
    sqDev h (ix2 n k) = (h (ix2 n k) - mean h (ix1 k)) * (h (ix2 n k) - mean h (ix1 k)) := by
  show (h (ix2 n k) - broadcastInDim S50000x64 ![0, 1] bcast_S1x64_S50000x64_0_1 (meanRow h) (ix2 n k))
      * (h (ix2 n k) - broadcastInDim S50000x64 ![0, 1] bcast_S1x64_S50000x64_0_1 (meanRow h) (ix2 n k)) = _
  rw [broadcastInDim_oneRow_apply (m := 50000) (n := 64) bcast_S1x64_S50000x64_0_1 _ n k, meanRow_apply]

/-- The variance's divisor at the zero correction is the row count's constant: the integer zero converts to zero. -/
theorem varDen_zero : varDen (F := Ideal) (constantI S_ 32 0#32) ix0 = Ideal.ofBits .f32 0x47435000#32 := by
  show Ideal.ofBits .f32 0x47435000#32 - (((0#32 : BitVec 32).toInt : ℝ) : EReal) = _
  simp

/-- A column's variance as printed, at any correction: the guarded quotient. -/
theorem var_apply_guarded (h : (⟨S50000x64, .f32⟩ : BufTy).Contents (Elt Ideal)) (ddof : (⟨S_, .i32⟩ : BufTy).Contents (Elt Ideal)) (k : Fin 64) :
    var h ddof (ix1 k)
      = Scalar.select (Ideal.cmp .ogt (varDen ddof ix0) (Ideal.ofBits .f32 0x00000000#32))
          (Ideal.div (Ideal.ofBits .f32 0x00000000#32 + ∑ n : Fin 50000, (h (ix2 n k) - mean h (ix1 k)) * (h (ix2 n k) - mean h (ix1 k))) (varDen ddof ix0))
          (Ideal.ofBits .f32 0x7FC00000#32) := by
  show Scalar.select (broadcastInDim S64 ![] bcast_S_S64 (cmpf .ogt (varDen ddof) (constant S_ .f32 0x00000000#32)) (ix1 k))
      (Ideal.div (colSum (sqDev h) (ix1 k)) (broadcastInDim S64 ![] bcast_S_S64 (varDen ddof) (ix1 k)))
      (broadcastInDim S64 ![] bcast_S_S64 (id (constant (F := Ideal) S_ .f32 0x7FC00000#32)) (ix1 k)) = _
  rw [scalarVec_apply, scalarVec_apply, scalarVec_apply, colSum_apply]
  simp only [sqDev_apply]
  rfl

/-- A column's variance at the zero correction: the divisor 50000 is above zero, so the guard takes the quotient — the
    summed squared deviations from the column's mean over the row count's constant. -/
theorem var_apply (h : (⟨S50000x64, .f32⟩ : BufTy).Contents (Elt Ideal)) (k : Fin 64) :
    var h (constantI S_ 32 0#32) (ix1 k)
      = Ideal.div (Ideal.ofBits .f32 0x00000000#32 + ∑ n : Fin 50000, (h (ix2 n k) - mean h (ix1 k)) * (h (ix2 n k) - mean h (ix1 k))) (Ideal.ofBits .f32 0x47435000#32) := by
  have hpos : (0 : EReal) < ((50000 : ℝ) : EReal) := by exact_mod_cast (by norm_num : (0 : ℝ) < 50000)
  have hg : Ideal.cmp .ogt (Ideal.ofBits .f32 0x47435000#32) (Ideal.ofBits .f32 0x00000000#32) = 1#1 := by
    rw [ofBits_rows, Ideal.ofBits_zero_f32]
    show BitVec.ofBool (decide ((0 : EReal) < ((50000 : ℝ) : EReal))) = 1#1
    rw [decide_eq_true hpos]; rfl
  rw [var_apply_guarded, varDen_zero, hg, select_one]

/-- A vector of column statistics laid along the rows reads the vector at the column. -/
theorem statRows_apply (v : (⟨S64, .f32⟩ : BufTy).Contents (Elt F)) (n : Fin 50000) (k : Fin 64) :
    statRows (F := F) v (ix2 n k) = v (ix1 k) := vecRows_apply v n k

/-- The normalisation at a node and a column. -/
theorem hbn_apply (h : (⟨S50000x64, .f32⟩ : BufTy).Contents (Elt Ideal)) (mu v gamma beta : (⟨S64, .f32⟩ : BufTy).Contents (Elt Ideal)) (n : Fin 50000) (k : Fin 64) :
    hbn h mu v gamma beta (ix2 n k)
      = (((h (ix2 n k) - mu (ix1 k)) * Ideal.rsqrt (v (ix1 k) + Ideal.ofBits .f32 0x3727C5AC#32)) * gamma (ix1 k)) + beta (ix1 k) := by
  show (((h (ix2 n k) - statRows mu (ix2 n k))
      * statRows (Host.rsqrt (addf v (broadcastInDim S64 ![] bcast_S_S64 (constant S_ .f32 0x3727C5AC#32)))) (ix2 n k))
      * statRows gamma (ix2 n k)) + statRows beta (ix2 n k) = _
  simp only [statRows_apply]
  rfl

end Read

end Cert.ReferenceIdeal.Glue.L2

end
-- ==== Proof.RGlueRun2.lean ====
/-
  What one layer's stretch of the reference's host operations leaves in its result buffers, from any contents of the
  device's buffers before it: each result is the layer's function (the aggregation over the edges, the input plus it,
  the two affine maps with their maxima, the column means and variances, the normalisation) of what the stretch's
  input buffers held.
-/
import proofs.«429418_j73830487818378_3_alg».proof.Proof.RefRun0
import proofs.«429418_j73830487818378_3_alg».proof.Proof.RGlue2
import proofs.«429418_j73830487818378_3_alg».proof.Proof.AggChainR

noncomputable section

namespace Cert.ReferenceIdeal.Glue.L2

open Cert.ReferenceIdeal Cert.ReferenceIdeal.Hand Idealize.ShloMosaic Idealize.ShloMosaic.StableHlo

variable {F : FTy → Type} [FloatOps F] (W : Valuation τ sig (Elt F))

/-- The index stretch leaves the edge table's two rows where they were or puts them there: what it holds of them
    afterwards is what the aggregation reads. After the index stretch and the aggregation stretch, the aggregation's
    buffer holds the aggregation of the input over the edges. -/
theorem run_agg :
    StableHlo.after ops13 (StableHlo.after ops12 W) (Proc.devRef .tc main_v102)
      = Agg.agg64 (W (Proc.devRef .tc main_v89)) (StableHlo.after ops12 W (Proc.devRef .tc main_v1)) (StableHlo.after ops12 W (Proc.devRef .tc main_v3)) (W (Proc.devRef .tc main_arg3)) := by
  after_results_simp
  rfl

/-- … and the next buffer the input plus it. -/
theorem run_xin :
    StableHlo.after ops13 (StableHlo.after ops12 W) (Proc.devRef .tc main_v103)
      = xin (W (Proc.devRef .tc main_v89)) (Agg.agg64 (W (Proc.devRef .tc main_v89)) (StableHlo.after ops12 W (Proc.devRef .tc main_v1)) (StableHlo.after ops12 W (Proc.devRef .tc main_v3)) (W (Proc.devRef .tc main_arg3))) := by
  after_results_simp
  rfl

/-- The affine stretch: the first map's maximum. -/
theorem run_a1 :
    StableHlo.after ops14 W (Proc.devRef .tc main_v108) = a1 (W (Proc.devRef .tc main_v103)) (W (Proc.devRef .tc main_arg16)) (W (Proc.devRef .tc main_arg17)) := by
  after_results_simp
  rfl

/-- The affine stretch: the second map's maximum. -/
theorem run_hpost :
    StableHlo.after ops14 W (Proc.devRef .tc main_v113)
      = hpost (a1 (W (Proc.devRef .tc main_v103)) (W (Proc.devRef .tc main_arg16)) (W (Proc.devRef .tc main_arg17))) (W (Proc.devRef .tc main_arg18)) (W (Proc.devRef .tc main_arg19)) := by
  after_results_simp
  rfl

/-- The mean stretch: the column means. -/
theorem run_mean :
    StableHlo.after ops15 W (Proc.devRef .tc main_v116) = mean (W (Proc.devRef .tc main_v113)) := by
  after_results_simp
  rfl

/-- The mean stretch also writes the variance's correction: the integer zero. -/
theorem run_ddof :
    StableHlo.after ops15 W (Proc.devRef .tc main_c_17) = constantI S_ 32 0#32 := by
  after_results_simp

/-- The variance stretch: the column variances at the correction it is handed. -/
theorem run_var :
    StableHlo.after ops16 W (Proc.devRef .tc main_v117) = var (W (Proc.devRef .tc main_v113)) (W (Proc.devRef .tc main_c_17)) := by
  after_results_simp
  rfl

/-- The normalisation stretch. -/
theorem run_hbn :
    StableHlo.after ops17 W (Proc.devRef .tc main_v132)
      = hbn (W (Proc.devRef .tc main_v113)) (W (Proc.devRef .tc main_v116)) (W (Proc.devRef .tc main_v117)) (W (Proc.devRef .tc main_arg20)) (W (Proc.devRef .tc main_arg21)) := by
  after_results_simp
  rfl

set_option maxHeartbeats 4000000 in
/-- The whole layer: after its six stretches in order, its output buffer holds the layer's function of its input, of
    the aggregation of the input over the edges, and of the six parameters. -/
theorem run_layer :
    StableHlo.after ops17 (StableHlo.after ops16 (StableHlo.after ops15 (StableHlo.after ops14 (StableHlo.after ops13 (StableHlo.after ops12 W))))) (Proc.devRef .tc main_v132)
      = layer (W (Proc.devRef .tc main_v89))
          (Agg.agg64 (W (Proc.devRef .tc main_v89)) (StableHlo.after ops12 W (Proc.devRef .tc main_v1)) (StableHlo.after ops12 W (Proc.devRef .tc main_v3)) (W (Proc.devRef .tc main_arg3)))
          (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rfl

end Cert.ReferenceIdeal.Glue.L2

end
-- ==== Proof.RChainT2.lean ====
/-
  The reference's third layer threaded to the end: the layer's clamped rows and normalised rows, where the end holds
  them, are the layer's functions of the second layer's normalised rows, their aggregation over the edges and the
  layer's six parameters. For any float values.
-/
import proofs.«429418_j73830487818378_3_alg».proof.Proof.RChainT
import proofs.«429418_j73830487818378_3_alg».proof.Proof.RGlueRun2

noncomputable section

namespace Cert.ReferenceIdeal.Hand

open Cert.ReferenceIdeal Cert.ReferenceIdeal.Gen Idealize.ShloMosaic Idealize.ShloMosaic.ValueIdx Idealize.SL.Sem
open Cert.ReferenceIdeal.Glue

variable {F : FTy → Type} [FloatOps F] (m : (ℓ : Loc nD τ sig) → Buf (Elt F) ℓ) (c : Dev nD)

/-! ## The third layer -/

/-- The index stage of the layer leaves the two rows of the edge table as it found them. -/
theorem src2_keep : StableHlo.after ops12 (stgB m c) (Proc.devRef .tc main_v1) = srcW m c :=
  (ops12_keep _ _ (by decide)).trans (srcB_keep m c)
theorem dst2_keep : StableHlo.after ops12 (stgB m c) (Proc.devRef .tc main_v3) = dstW m c :=
  (ops12_keep _ _ (by decide)).trans (dstB_keep m c)

/-- The layer's normalised rows at the end: the layer's function of the previous layer's normalised rows, their
    aggregation and the six parameters. -/
theorem T2_v132 :
    Wend m c (Proc.devRef .tc main_v132)
      = L2.layer (Wend m c (Proc.devRef .tc main_v89)) (A2 m c) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  refine (Wend_v132 m c).trans ((L2.run_layer (stgB m c)).trans ?_)
  rw [src2_keep m c, dst2_keep m c, ← Wend_v89 m c, inB m c main_arg3 (by decide) (by decide) (by decide),
    inB m c main_arg16 (by decide) (by decide) (by decide),
    inB m c main_arg17 (by decide) (by decide) (by decide),
    inB m c main_arg18 (by decide) (by decide) (by decide),
    inB m c main_arg19 (by decide) (by decide) (by decide),
    inB m c main_arg20 (by decide) (by decide) (by decide),
    inB m c main_arg21 (by decide) (by decide) (by decide)]

/-- The layer's clamped rows at the end. -/
theorem T2_v113 :
    Wend m c (Proc.devRef .tc main_v113)
      = L2.hpost (L2.a1 (L2.xin (Wend m c (Proc.devRef .tc main_v89)) (A2 m c)) (m ((c.tc : Thread nD τ).loc main_arg16)) (m ((c.tc : Thread nD τ).loc main_arg17))) (m ((c.tc : Thread nD τ).loc main_arg18)) (m ((c.tc : Thread nD τ).loc main_arg19)) := by
  have e16 : StableHlo.after ops13 (StableHlo.after ops12 (stgB m c)) (Proc.devRef .tc main_arg16) = (m ((c.tc : Thread nD τ).loc main_arg16)) :=
    (ops13_keep _ _ (by decide)).trans ((ops12_keep _ _ (by decide)).trans (inB m c _ (by decide) (by decide) (by decide)))
  have e17 : StableHlo.after ops13 (StableHlo.after ops12 (stgB m c)) (Proc.devRef .tc main_arg17) = (m ((c.tc : Thread nD τ).loc main_arg17)) :=
    (ops13_keep _ _ (by decide)).trans ((ops12_keep _ _ (by decide)).trans (inB m c _ (by decide) (by decide) (by decide)))
  have e18 : StableHlo.after ops13 (StableHlo.after ops12 (stgB m c)) (Proc.devRef .tc main_arg18) = (m ((c.tc : Thread nD τ).loc main_arg18)) :=
    (ops13_keep _ _ (by decide)).trans ((ops12_keep _ _ (by decide)).trans (inB m c _ (by decide) (by decide) (by decide)))
  have e19 : StableHlo.after ops13 (StableHlo.after ops12 (stgB m c)) (Proc.devRef .tc main_arg19) = (m ((c.tc : Thread nD τ).loc main_arg19)) :=
    (ops13_keep _ _ (by decide)).trans ((ops12_keep _ _ (by decide)).trans (inB m c _ (by decide) (by decide) (by decide)))
  have ex : StableHlo.after ops13 (StableHlo.after ops12 (stgB m c)) (Proc.devRef .tc main_v103)
      = L2.xin (Wend m c (Proc.devRef .tc main_v89)) (A2 m c) := by
    refine (L2.run_xin (stgB m c)).trans ?_
    rw [src2_keep m c, dst2_keep m c, ← Wend_v89 m c, inB m c main_arg3 (by decide) (by decide) (by decide)]
  refine (endC m c main_v113 (by decide) (by decide)).trans ?_
  refine (ops17_keep _ _ (by decide)).trans ((ops16_keep _ _ (by decide)).trans ((ops15_keep _ _ (by decide)).trans ?_))
  refine (L2.run_hpost _).trans ?_
  rw [ex, e16, e17, e18, e19]

end Cert.ReferenceIdeal.Hand

end
-- ==== Proof.RLayer2.lean ====
/-
  One layer of the reference, read at a node and a column, is the mathematical layer.  The layer's array operations —
  the input plus its aggregation, two dense maps each followed by the maximum with zero, every column's mean and
  variance over the nodes, and the normalisation scaled and shifted — read index by index are the curried functions
  of the same names: the dense maps are sums of products plus a bias against zero, the mean and the variance are the
  quotients of the column sums by the node count, the normalisation is the centred entry times the reciprocal square
  root of the variance plus epsilon, times the scale, plus the shift.  This file is the layer whose input has 64
  columns.
-/
import proofs.«429418_j73830487818378_3_alg».proof.Proof.RGlue2
import proofs.«429418_j73830487818378_3_alg».proof.Proof.GinMath
import proofs.«429418_j73830487818378_3_alg».proof.Proof.Inst

noncomputable section

open scoped BigOperators

namespace Cert.ReferenceIdeal.Glue.L2

open Cert.ReferenceIdeal Idealize.ShloMosaic Idealize.ShloMosaic.ValueIdx

variable (ei : IVec ⟨2, ![2, 800000]⟩ 32) (bt : IVec ⟨1, ![50000]⟩ 32) (ew : (⟨1, ![800000]⟩ : Shape).Idx → EReal)

local notation "𝔾" => Cert.Inst.graph ei bt ew

/-! ## The dense part -/

/-- The input plus its aggregation, the input given entry by entry. -/
theorem xin_eq (hin agg : (⟨S50000x64, .f32⟩ : BufTy).Contents (Elt Ideal)) (f : Fin 50000 → Fin 64 → EReal)
    (hhin : ∀ n j, hin (ix2 n j) = f n j) (hagg : ∀ n j, agg (ix2 n j) = Cert.GinMath.agg 𝔾 f n j)
    (n : Fin 50000) (j : Fin 64) : xin hin agg (ix2 n j) = Cert.GinMath.xinR 𝔾 f n j := by
  rw [xin_apply, hhin, hagg]; rfl

/-- The first dense map and the maximum with zero, its input given entry by entry. -/
theorem a1_eq (x : (⟨S50000x64, .f32⟩ : BufTy).Contents (Elt Ideal)) (W1 : (⟨S64x64, .f32⟩ : BufTy).Contents (Elt Ideal)) (b1 : (⟨S64, .f32⟩ : BufTy).Contents (Elt Ideal))
    (A : Fin 50000 → Fin 64 → EReal) (hx : ∀ n j, x (ix2 n j) = A n j) (n : Fin 50000) (k : Fin 64) :
    a1 x W1 b1 (ix2 n k) = Cert.GinMath.dense 𝔾 A (Cert.Inst.mat W1) (Cert.Inst.vec b1) n k := by
  rw [a1_apply]; simp only [hx]; rfl

/-- The second dense map and the maximum with zero, likewise. -/
theorem hpost_eq (a : (⟨S50000x64, .f32⟩ : BufTy).Contents (Elt Ideal)) (W2 : (⟨S64x64, .f32⟩ : BufTy).Contents (Elt Ideal)) (b2 : (⟨S64, .f32⟩ : BufTy).Contents (Elt Ideal))
    (A : Fin 50000 → Fin 64 → EReal) (ha : ∀ n j, a (ix2 n j) = A n j) (n : Fin 50000) (k : Fin 64) :
    hpost a W2 b2 (ix2 n k) = Cert.GinMath.dense 𝔾 A (Cert.Inst.mat W2) (Cert.Inst.vec b2) n k := by
  rw [hpost_apply]; simp only [ha]; rfl

/-- The layer's two dense maps over the input plus its aggregation, the input given entry by entry. -/
theorem mlp_eq_of (hin agg : (⟨S50000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) (f : Fin 50000 → Fin 64 → EReal)
    (hhin : ∀ n j, hin (ix2 n j) = f n j) (hagg : ∀ n j, agg (ix2 n j) = Cert.GinMath.agg 𝔾 f n j)
    (n : Fin 50000) (k : Fin 64) :
    hpost (a1 (xin hin agg) W1 b1) W2 b2 (ix2 n k)
      = Cert.GinMath.mlp 𝔾 (Cert.GinMath.xinR 𝔾 f) (Cert.Inst.mat W1) (Cert.Inst.vec b1) (Cert.Inst.mat W2)
          (Cert.Inst.vec b2) n k := by
  unfold Cert.GinMath.mlp
  exact hpost_eq ei bt ew _ W2 b2 _ (fun n j => a1_eq ei bt ew _ W1 b1 _ (xin_eq ei bt ew hin agg f hhin hagg) n j) n k

/-- The same with the input read off its own array. -/
theorem mlp_eq (hin agg : (⟨S50000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (hagg : ∀ n j, agg (ix2 n j) = Cert.GinMath.agg 𝔾 (Cert.Inst.mat hin) n j) (n : Fin 50000) (k : Fin 64) :
    hpost (a1 (xin hin agg) W1 b1) W2 b2 (ix2 n k)
      = Cert.GinMath.mlp 𝔾 (Cert.GinMath.xinR 𝔾 (Cert.Inst.mat hin)) (Cert.Inst.mat W1) (Cert.Inst.vec b1)
          (Cert.Inst.mat W2) (Cert.Inst.vec b2) n k :=
  mlp_eq_of ei bt ew hin agg W1 b1 W2 b2 (Cert.Inst.mat hin) (fun _ _ => rfl) hagg n k

/-! ## The normalisation -/

/-- A column's mean, the rows given entry by entry. -/
theorem mean_eq (h : (⟨S50000x64, .f32⟩ : BufTy).Contents (Elt Ideal)) (A : Fin 50000 → Fin 64 → EReal) (hA : ∀ n k, h (ix2 n k) = A n k)
    (k : Fin 64) : mean h (ix1 k) = Cert.GinMath.meanR 𝔾 A k := by
  rw [mean_apply]; simp only [hA]; rfl

/-- A column's variance at the zero correction, likewise. -/
theorem var_eq (h : (⟨S50000x64, .f32⟩ : BufTy).Contents (Elt Ideal)) (A : Fin 50000 → Fin 64 → EReal) (hA : ∀ n k, h (ix2 n k) = A n k)
    (k : Fin 64) : var h (constantI S_ 32 0#32) (ix1 k) = Cert.GinMath.varR 𝔾 A k := by
  rw [var_apply, mean_eq ei bt ew h A hA]; simp only [hA]; rfl

/-- The normalisation by the rows' own mean and variance, scaled and shifted. -/
theorem hbn_eq (h : (⟨S50000x64, .f32⟩ : BufTy).Contents (Elt Ideal)) (A : Fin 50000 → Fin 64 → EReal) (hA : ∀ n k, h (ix2 n k) = A n k)
    (gamma beta : (⟨S64, .f32⟩ : BufTy).Contents (Elt Ideal)) (n : Fin 50000) (k : Fin 64) :
    hbn h (mean h) (var h (constantI S_ 32 0#32)) gamma beta (ix2 n k)
      = Cert.GinMath.bnR 𝔾 A (Cert.Inst.vec gamma) (Cert.Inst.vec beta) n k := by
  rw [hbn_apply, mean_eq ei bt ew h A hA, var_eq ei bt ew h A hA, hA]; rfl

/-! ## The whole layer -/

/-- The layer after the aggregation, its input given entry by entry. -/
theorem layer_eq_of (hin agg : (⟨S50000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 gamma beta : (⟨S64, .f32⟩ : BufTy).Contents (Elt Ideal)) (f : Fin 50000 → Fin 64 → EReal)
    (hhin : ∀ n j, hin (ix2 n j) = f n j) (hagg : ∀ n j, agg (ix2 n j) = Cert.GinMath.agg 𝔾 f n j)
    (n : Fin 50000) (k : Fin 64) :
    layer hin agg W1 b1 W2 b2 gamma beta (ix2 n k)
      = Cert.GinMath.bnR 𝔾
          (Cert.GinMath.mlp 𝔾 (Cert.GinMath.xinR 𝔾 f) (Cert.Inst.mat W1) (Cert.Inst.vec b1) (Cert.Inst.mat W2)
            (Cert.Inst.vec b2))
          (Cert.Inst.vec gamma) (Cert.Inst.vec beta) n k := by
  unfold layer
  exact hbn_eq ei bt ew _ _ (mlp_eq_of ei bt ew hin agg W1 b1 W2 b2 f hhin hagg) gamma beta n k

/-- The same with the input read off its own array. -/
theorem layer_eq (hin agg : (⟨S50000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 gamma beta : (⟨S64, .f32⟩ : BufTy).Contents (Elt Ideal))
    (hagg : ∀ n j, agg (ix2 n j) = Cert.GinMath.agg 𝔾 (Cert.Inst.mat hin) n j) (n : Fin 50000) (k : Fin 64) :
    layer hin agg W1 b1 W2 b2 gamma beta (ix2 n k)
      = Cert.GinMath.bnR 𝔾
          (Cert.GinMath.mlp 𝔾 (Cert.GinMath.xinR 𝔾 (Cert.Inst.mat hin)) (Cert.Inst.mat W1) (Cert.Inst.vec b1)
            (Cert.Inst.mat W2) (Cert.Inst.vec b2))
          (Cert.Inst.vec gamma) (Cert.Inst.vec beta) n k :=
  layer_eq_of ei bt ew hin agg W1 b1 W2 b2 gamma beta (Cert.Inst.mat hin) (fun _ _ => rfl) hagg n k

end Cert.ReferenceIdeal.Glue.L2

end
-- ==== Proof.RChainL2.lean ====
/-
  The reference's third layer at the graph and the parameters read off its arguments: given the second layer's
  normalised rows entry by entry, the third layer's clamped rows and normalised rows are the mathematical layer's.
-/
import proofs.«429418_j73830487818378_3_alg».proof.Proof.RChainT2
import proofs.«429418_j73830487818378_3_alg».proof.Proof.RLayer2
import proofs.«429418_j73830487818378_3_alg».proof.Proof.AggInst

set_option maxRecDepth 16384

noncomputable section

namespace Cert.ReferenceIdeal.Hand

open Cert.ReferenceIdeal Cert.ReferenceIdeal.Gen Idealize.ShloMosaic Idealize.SL.Sem Idealize.ShloMosaic.ValueIdx

/-! ## Layer 2 of the reference at the graph and the parameters

Given the previous layer's normalised rows entry by entry, this layer's aggregation is the graph's weighted sum of
in-neighbour rows of them, so its clamped rows are the two dense maps of the rows plus their aggregation and its
normalised rows are those normalised by their own column means and variances, scaled and shifted. -/

section
variable (m : (ℓ : Loc nD τ sig) → Buf (Elt Ideal) ℓ) (c : Dev nD)

/-- The layer's aggregation buffer holds the graph's aggregation of the previous layer's rows. -/
theorem R_agg2
    (H : ∀ n k, Wend m c (Proc.devRef .tc main_v89) (ix2 n k) = Cert.GinMath.bR1 (gOf m c) (pOf m c) n k)
    (n : Fin 50000) (j : Fin 64) :
    A2 m c (ix2 n j) = Cert.GinMath.agg (gOf m c) (Cert.GinMath.bR1 (gOf m c) (pOf m c)) n j := by
  have hf : (fun n k => Wend m c (Proc.devRef .tc main_v89) (ix2 n k)) = Cert.GinMath.bR1 (gOf m c) (pOf m c) :=
    funext fun n => funext fun k => H n k
  have h := Cert.Lib.AggInst.R_agg64_graph (m ((c.tc : Thread nD τ).loc main_arg1)) (m ((c.tc : Thread nD τ).loc main_arg2)) (m ((c.tc : Thread nD τ).loc main_arg3)) (Wend m c (Proc.devRef .tc main_v89)) n j
  rw [← srcW_eq m c, ← dstW_eq m c, hf] at h
  exact h

/-- The layer's clamped rows. -/
theorem R_h2
    (H : ∀ n k, Wend m c (Proc.devRef .tc main_v89) (ix2 n k) = Cert.GinMath.bR1 (gOf m c) (pOf m c) n k)
    (n : Fin 50000) (k : Fin 64) :
    Wend m c (Proc.devRef .tc main_v113) (ix2 n k) = Cert.GinMath.hR2 (gOf m c) (pOf m c) n k := by
  rw [T2_v113]
  exact Glue.L2.mlp_eq_of (m ((c.tc : Thread nD τ).loc main_arg1)) (m ((c.tc : Thread nD τ).loc main_arg2)) (m ((c.tc : Thread nD τ).loc main_arg3)) (Wend m c (Proc.devRef .tc main_v89)) (A2 m c)
    (m ((c.tc : Thread nD τ).loc main_arg16)) (m ((c.tc : Thread nD τ).loc main_arg17)) (m ((c.tc : Thread nD τ).loc main_arg18)) (m ((c.tc : Thread nD τ).loc main_arg19)) (Cert.GinMath.bR1 (gOf m c) (pOf m c)) H (R_agg2 m c H) n k

/-- The layer's normalised rows. -/
theorem R_b2
    (H : ∀ n k, Wend m c (Proc.devRef .tc main_v89) (ix2 n k) = Cert.GinMath.bR1 (gOf m c) (pOf m c) n k)
    (n : Fin 50000) (k : Fin 64) :
    Wend m c (Proc.devRef .tc main_v132) (ix2 n k) = Cert.GinMath.bR2 (gOf m c) (pOf m c) n k := by
  rw [T2_v132]
  exact Glue.L2.layer_eq_of (m ((c.tc : Thread nD τ).loc main_arg1)) (m ((c.tc : Thread nD τ).loc main_arg2)) (m ((c.tc : Thread nD τ).loc main_arg3)) (Wend m c (Proc.devRef .tc main_v89)) (A2 m c)
    (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (Cert.GinMath.bR1 (gOf m c) (pOf m c)) H (R_agg2 m c H) n k

end

end Cert.ReferenceIdeal.Hand

end
-- ==== Proof.RLayer0.lean ====
/-
  One layer of the reference, read at a node and a column, is the mathematical layer.  The layer's array operations —
  the input plus its aggregation, two dense maps each followed by the maximum with zero, every column's mean and
  variance over the nodes, and the normalisation scaled and shifted — read index by index are the curried functions
  of the same names: the dense maps are sums of products plus a bias against zero, the mean and the variance are the
  quotients of the column sums by the node count, the normalisation is the centred entry times the reciprocal square
  root of the variance plus epsilon, times the scale, plus the shift.  This file is the layer whose input has 128
  columns.
-/
import proofs.«429418_j73830487818378_3_alg».proof.Proof.RGlue0
import proofs.«429418_j73830487818378_3_alg».proof.Proof.GinMath
import proofs.«429418_j73830487818378_3_alg».proof.Proof.Inst

noncomputable section

open scoped BigOperators

namespace Cert.ReferenceIdeal.Glue.L0

open Cert.ReferenceIdeal Idealize.ShloMosaic Idealize.ShloMosaic.ValueIdx

variable (ei : IVec ⟨2, ![2, 800000]⟩ 32) (bt : IVec ⟨1, ![50000]⟩ 32) (ew : (⟨1, ![800000]⟩ : Shape).Idx → EReal)

local notation "𝔾" => Cert.Inst.graph ei bt ew

/-! ## The dense part -/

/-- The input plus its aggregation, the input given entry by entry. -/
theorem xin_eq (hin agg : (⟨S50000x128, .f32⟩ : BufTy).Contents (Elt Ideal)) (f : Fin 50000 → Fin 128 → EReal)
    (hhin : ∀ n j, hin (ix2 n j) = f n j) (hagg : ∀ n j, agg (ix2 n j) = Cert.GinMath.agg 𝔾 f n j)
    (n : Fin 50000) (j : Fin 128) : xin hin agg (ix2 n j) = Cert.GinMath.xinR 𝔾 f n j := by
  rw [xin_apply, hhin, hagg]; rfl

/-- The first dense map and the maximum with zero, its input given entry by entry. -/
theorem a1_eq (x : (⟨S50000x128, .f32⟩ : BufTy).Contents (Elt Ideal)) (W1 : (⟨S128x64, .f32⟩ : BufTy).Contents (Elt Ideal)) (b1 : (⟨S64, .f32⟩ : BufTy).Contents (Elt Ideal))
    (A : Fin 50000 → Fin 128 → EReal) (hx : ∀ n j, x (ix2 n j) = A n j) (n : Fin 50000) (k : Fin 64) :
    a1 x W1 b1 (ix2 n k) = Cert.GinMath.dense 𝔾 A (Cert.Inst.mat W1) (Cert.Inst.vec b1) n k := by
  rw [a1_apply]; simp only [hx]; rfl

/-- The second dense map and the maximum with zero, likewise. -/
theorem hpost_eq (a : (⟨S50000x64, .f32⟩ : BufTy).Contents (Elt Ideal)) (W2 : (⟨S64x64, .f32⟩ : BufTy).Contents (Elt Ideal)) (b2 : (⟨S64, .f32⟩ : BufTy).Contents (Elt Ideal))
    (A : Fin 50000 → Fin 64 → EReal) (ha : ∀ n j, a (ix2 n j) = A n j) (n : Fin 50000) (k : Fin 64) :
    hpost a W2 b2 (ix2 n k) = Cert.GinMath.dense 𝔾 A (Cert.Inst.mat W2) (Cert.Inst.vec b2) n k := by
  rw [hpost_apply]; simp only [ha]; rfl

/-- The layer's two dense maps over the input plus its aggregation, the input given entry by entry. -/
theorem mlp_eq_of (hin agg : (⟨S50000x128, .f32⟩ : BufTy).Contents (Elt Ideal)) (W1 : (⟨S128x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) (f : Fin 50000 → Fin 128 → EReal)
    (hhin : ∀ n j, hin (ix2 n j) = f n j) (hagg : ∀ n j, agg (ix2 n j) = Cert.GinMath.agg 𝔾 f n j)
    (n : Fin 50000) (k : Fin 64) :
    hpost (a1 (xin hin agg) W1 b1) W2 b2 (ix2 n k)
      = Cert.GinMath.mlp 𝔾 (Cert.GinMath.xinR 𝔾 f) (Cert.Inst.mat W1) (Cert.Inst.vec b1) (Cert.Inst.mat W2)
          (Cert.Inst.vec b2) n k := by
  unfold Cert.GinMath.mlp
  exact hpost_eq ei bt ew _ W2 b2 _ (fun n j => a1_eq ei bt ew _ W1 b1 _ (xin_eq ei bt ew hin agg f hhin hagg) n j) n k

/-- The same with the input read off its own array. -/
theorem mlp_eq (hin agg : (⟨S50000x128, .f32⟩ : BufTy).Contents (Elt Ideal)) (W1 : (⟨S128x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (hagg : ∀ n j, agg (ix2 n j) = Cert.GinMath.agg 𝔾 (Cert.Inst.mat hin) n j) (n : Fin 50000) (k : Fin 64) :
    hpost (a1 (xin hin agg) W1 b1) W2 b2 (ix2 n k)
      = Cert.GinMath.mlp 𝔾 (Cert.GinMath.xinR 𝔾 (Cert.Inst.mat hin)) (Cert.Inst.mat W1) (Cert.Inst.vec b1)
          (Cert.Inst.mat W2) (Cert.Inst.vec b2) n k :=
  mlp_eq_of ei bt ew hin agg W1 b1 W2 b2 (Cert.Inst.mat hin) (fun _ _ => rfl) hagg n k

/-! ## The normalisation -/

/-- A column's mean, the rows given entry by entry. -/
theorem mean_eq (h : (⟨S50000x64, .f32⟩ : BufTy).Contents (Elt Ideal)) (A : Fin 50000 → Fin 64 → EReal) (hA : ∀ n k, h (ix2 n k) = A n k)
    (k : Fin 64) : mean h (ix1 k) = Cert.GinMath.meanR 𝔾 A k := by
  rw [mean_apply]; simp only [hA]; rfl

/-- A column's variance at the zero correction, likewise. -/
theorem var_eq (h : (⟨S50000x64, .f32⟩ : BufTy).Contents (Elt Ideal)) (A : Fin 50000 → Fin 64 → EReal) (hA : ∀ n k, h (ix2 n k) = A n k)
    (k : Fin 64) : var h (constantI S_ 32 0#32) (ix1 k) = Cert.GinMath.varR 𝔾 A k := by
  rw [var_apply, mean_eq ei bt ew h A hA]; simp only [hA]; rfl

/-- The normalisation by the rows' own mean and variance, scaled and shifted. -/
theorem hbn_eq (h : (⟨S50000x64, .f32⟩ : BufTy).Contents (Elt Ideal)) (A : Fin 50000 → Fin 64 → EReal) (hA : ∀ n k, h (ix2 n k) = A n k)
    (gamma beta : (⟨S64, .f32⟩ : BufTy).Contents (Elt Ideal)) (n : Fin 50000) (k : Fin 64) :
    hbn h (mean h) (var h (constantI S_ 32 0#32)) gamma beta (ix2 n k)
      = Cert.GinMath.bnR 𝔾 A (Cert.Inst.vec gamma) (Cert.Inst.vec beta) n k := by
  rw [hbn_apply, mean_eq ei bt ew h A hA, var_eq ei bt ew h A hA, hA]; rfl

/-! ## The whole layer -/

/-- The layer after the aggregation, its input given entry by entry. -/
theorem layer_eq_of (hin agg : (⟨S50000x128, .f32⟩ : BufTy).Contents (Elt Ideal)) (W1 : (⟨S128x64, .f32⟩ : BufTy).Contents (Elt Ideal)) (b1 : (⟨S64, .f32⟩ : BufTy).Contents (Elt Ideal))
    (W2 : (⟨S64x64, .f32⟩ : BufTy).Contents (Elt Ideal)) (b2 gamma beta : (⟨S64, .f32⟩ : BufTy).Contents (Elt Ideal)) (f : Fin 50000 → Fin 128 → EReal)
    (hhin : ∀ n j, hin (ix2 n j) = f n j) (hagg : ∀ n j, agg (ix2 n j) = Cert.GinMath.agg 𝔾 f n j)
    (n : Fin 50000) (k : Fin 64) :
    layer hin agg W1 b1 W2 b2 gamma beta (ix2 n k)
      = Cert.GinMath.bnR 𝔾
          (Cert.GinMath.mlp 𝔾 (Cert.GinMath.xinR 𝔾 f) (Cert.Inst.mat W1) (Cert.Inst.vec b1) (Cert.Inst.mat W2)
            (Cert.Inst.vec b2))
          (Cert.Inst.vec gamma) (Cert.Inst.vec beta) n k := by
  unfold layer
  exact hbn_eq ei bt ew _ _ (mlp_eq_of ei bt ew hin agg W1 b1 W2 b2 f hhin hagg) gamma beta n k

/-- The same with the input read off its own array. -/
theorem layer_eq (hin agg : (⟨S50000x128, .f32⟩ : BufTy).Contents (Elt Ideal)) (W1 : (⟨S128x64, .f32⟩ : BufTy).Contents (Elt Ideal)) (b1 : (⟨S64, .f32⟩ : BufTy).Contents (Elt Ideal))
    (W2 : (⟨S64x64, .f32⟩ : BufTy).Contents (Elt Ideal)) (b2 gamma beta : (⟨S64, .f32⟩ : BufTy).Contents (Elt Ideal))
    (hagg : ∀ n j, agg (ix2 n j) = Cert.GinMath.agg 𝔾 (Cert.Inst.mat hin) n j) (n : Fin 50000) (k : Fin 64) :
    layer hin agg W1 b1 W2 b2 gamma beta (ix2 n k)
      = Cert.GinMath.bnR 𝔾
          (Cert.GinMath.mlp 𝔾 (Cert.GinMath.xinR 𝔾 (Cert.Inst.mat hin)) (Cert.Inst.mat W1) (Cert.Inst.vec b1)
            (Cert.Inst.mat W2) (Cert.Inst.vec b2))
          (Cert.Inst.vec gamma) (Cert.Inst.vec beta) n k :=
  layer_eq_of ei bt ew hin agg W1 b1 W2 b2 gamma beta (Cert.Inst.mat hin) (fun _ _ => rfl) hagg n k

end Cert.ReferenceIdeal.Glue.L0

end
-- ==== Proof.RPool.lean ====
/-
  The reference's per-graph sum is the mathematical pool.  Entry (g, k) of the table that adds every node's row to
  the row its graph word names is zero plus the sum, over the nodes whose signed graph word is g, of the layer's
  output at (n, k); those nodes are the members of graph g, so with the layer's output given entry by entry this is
  the pooled sum of that function.
-/
import proofs.«429418_j73830487818378_3_alg».proof.Proof.RGlueEnd
import proofs.«429418_j73830487818378_3_alg».proof.Proof.GinMath
import proofs.«429418_j73830487818378_3_alg».proof.Proof.Inst

noncomputable section

open scoped BigOperators

namespace Cert.ReferenceIdeal.Glue

open Cert.ReferenceIdeal Idealize.ShloMosaic Idealize.ShloMosaic.ValueIdx

/-- The nodes whose signed graph word is `g` are the members of graph `g` (the two index sets are one set, however
    membership is decided). -/
theorem members_eq (ei : IVec ⟨2, ![2, 800000]⟩ 32) (bt : IVec ⟨1, ![50000]⟩ 32)
    (ew : (⟨1, ![800000]⟩ : Shape).Idx → EReal) (g : Fin 256) :
    Finset.univ.filter (fun n : Fin 50000 => (bt (ix1 n)).toInt = (g.val : ℤ))
      = Finset.univ.filter (fun n : Fin 50000 => (Cert.Inst.graph ei bt ew).P g n) := by
  ext n
  simp only [Finset.mem_filter, Finset.mem_univ, true_and]
  rfl

/-- The per-graph sum of a layer's output, the output given entry by entry, is the pool of that function. -/
theorem pool_eq (ei : IVec ⟨2, ![2, 800000]⟩ 32) (bt : IVec ⟨1, ![50000]⟩ 32)
    (ew : (⟨1, ![800000]⟩ : Shape).Idx → EReal) (hbn : FVec Ideal S50000x64 .f32)
    (A : Fin 50000 → Fin 64 → EReal) (hA : ∀ n k, hbn (ix2 n k) = A n k) (g : Fin 256) (k : Fin 64) :
    poolChain (F := Ideal) hbn bt (ix2 g k) = Cert.GinMath.poolR (Cert.Inst.graph ei bt ew) A g k := by
  rw [poolChain_apply]
  exact congrArg (Ideal.ofBits .f32 0x00000000#32 + ·)
    (Finset.sum_congr (members_eq ei bt ew g) fun n _ => hA n k)

end Cert.ReferenceIdeal.Glue

end
-- ==== Proof.RChain.lean ====
/-
  The reference's two results as the mathematical network.  With the graph and the parameters read off the argument
  buffers: the first layer's aggregation is the graph's weighted sum of in-neighbour rows (the index stage's two rows
  are the edge table's), so its clamped rows and normalised rows are the network's `hR0` and `bR0`; each later layer
  takes the one before as its hypothesis; the per-graph tables are the network's pooled sums of the three layers'
  normalised rows.  The first result is the third layer's normalised rows; the second is the three tables side by side
  (stated with the threading).
-/
import proofs.«429418_j73830487818378_3_alg».proof.Proof.RChainT
import proofs.«429418_j73830487818378_3_alg».proof.Proof.RChainL1
import proofs.«429418_j73830487818378_3_alg».proof.Proof.RChainL2
import proofs.«429418_j73830487818378_3_alg».proof.Proof.RLayer0
import proofs.«429418_j73830487818378_3_alg».proof.Proof.RPool
import proofs.«429418_j73830487818378_3_alg».proof.Proof.AggInst

set_option maxRecDepth 16384

noncomputable section

namespace Cert.ReferenceIdeal.Hand

open Cert.ReferenceIdeal Cert.ReferenceIdeal.Gen Idealize.ShloMosaic Idealize.ShloMosaic.ValueIdx Idealize.SL.Sem
open Cert.ReferenceIdeal.Glue

variable (m : (ℓ : Loc nD τ sig) → Buf (Elt Ideal) ℓ) (c : Dev nD)

-- a TensorCore reference as the device buffer it names
set_option quotPrecheck false in
local notation:max "𝔡" r:max => Proc.devRef .tc r
-- the launch contents of argument `r`'s buffer
set_option quotPrecheck false in
local notation:max "⟪" r "⟫" => m ((c.tc : Thread nD τ).loc r)

/-! ## The first layer -/

/-- The first layer's aggregation reads the edge table's two rows. -/
theorem A0_rows (n : Fin 50000) (j : Fin 128) :
    Agg.agg128 (F := Ideal) ⟪main_arg0⟫ (srcW m c) (dstW m c) ⟪main_arg3⟫ (ix2 n j)
      = Agg.agg128 (F := Ideal) ⟪main_arg0⟫ (Cert.Inst.srcA ⟪main_arg1⟫) (Cert.Inst.dstA ⟪main_arg1⟫) ⟪main_arg3⟫ (ix2 n j) := by
  rw [srcW_eq, dstW_eq]

/-- Over those rows it is the graph's, of the input rows. -/
theorem A0_graph (n : Fin 50000) (j : Fin 128) :
    Agg.agg128 (F := Ideal) ⟪main_arg0⟫ (Cert.Inst.srcA ⟪main_arg1⟫) (Cert.Inst.dstA ⟪main_arg1⟫) ⟪main_arg3⟫ (ix2 n j)
      = Cert.GinMath.agg (gOf m c) (Cert.Inst.mat ⟪main_arg0⟫) n j :=
  Cert.Lib.AggInst.R_agg128_graph ⟪main_arg1⟫ ⟪main_arg2⟫ ⟪main_arg3⟫ ⟪main_arg0⟫ n j

/-- The first layer's aggregation is the graph's, of the input rows. -/
theorem R_agg0 (n : Fin 50000) (j : Fin 128) :
    A0 m c (ix2 n j) = Cert.GinMath.agg (gOf m c) (Cert.Inst.mat ⟪main_arg0⟫) n j :=
  (A0_rows m c n j).trans (A0_graph m c n j)

/-- The first layer's clamped rows. -/
theorem R_v27 (n : Fin 50000) (k : Fin 64) :
    Wend m c (𝔡 main_v27) (ix2 n k) = Cert.GinMath.hR0 (gOf m c) (pOf m c) n k := by
  rw [T0_v27]
  exact L0.mlp_eq ⟪main_arg1⟫ ⟪main_arg2⟫ ⟪main_arg3⟫ ⟪main_arg0⟫ (A0 m c) ⟪main_arg4⟫ ⟪main_arg5⟫ ⟪main_arg6⟫ ⟪main_arg7⟫
    (R_agg0 m c) n k

/-- The first layer's normalised rows. -/
theorem R_v46 (n : Fin 50000) (k : Fin 64) :
    Wend m c (𝔡 main_v46) (ix2 n k) = Cert.GinMath.bR0 (gOf m c) (pOf m c) n k := by
  rw [T0_v46]
  exact L0.layer_eq ⟪main_arg1⟫ ⟪main_arg2⟫ ⟪main_arg3⟫ ⟪main_arg0⟫ (A0 m c) ⟪main_arg4⟫ ⟪main_arg5⟫ ⟪main_arg6⟫ ⟪main_arg7⟫
    ⟪main_arg8⟫ ⟪main_arg9⟫ (R_agg0 m c) n k

/-! ## The second and third layers, each from the one before -/

theorem R_v70 (n : Fin 50000) (k : Fin 64) :
    Wend m c (𝔡 main_v70) (ix2 n k) = Cert.GinMath.hR1 (gOf m c) (pOf m c) n k := R_h1 m c (R_v46 m c) n k
theorem R_v89 (n : Fin 50000) (k : Fin 64) :
    Wend m c (𝔡 main_v89) (ix2 n k) = Cert.GinMath.bR1 (gOf m c) (pOf m c) n k := R_b1 m c (R_v46 m c) n k
theorem R_v113 (n : Fin 50000) (k : Fin 64) :
    Wend m c (𝔡 main_v113) (ix2 n k) = Cert.GinMath.hR2 (gOf m c) (pOf m c) n k := R_h2 m c (R_v89 m c) n k

/-- The first result: the third layer's normalised rows. -/
theorem R_out0 (n : Fin 50000) (k : Fin 64) :
    Wend m c (𝔡 main_v132) (ix2 n k) = Cert.GinMath.bR2 (gOf m c) (pOf m c) n k := R_b2 m c (R_v89 m c) n k

/-! ## The per-graph tables -/

theorem R_pool0 (g : Fin 256) (k : Fin 64) :
    Wend m c (𝔡 main_v135) (ix2 g k) = Cert.GinMath.poolR (gOf m c) (Cert.GinMath.bR0 (gOf m c) (pOf m c)) g k := by
  rw [P0]
  exact pool_eq ⟪main_arg1⟫ ⟪main_arg2⟫ ⟪main_arg3⟫ (Wend m c (𝔡 main_v46)) _ (R_v46 m c) g k

theorem R_pool1 (g : Fin 256) (k : Fin 64) :
    Wend m c (𝔡 main_v138) (ix2 g k) = Cert.GinMath.poolR (gOf m c) (Cert.GinMath.bR1 (gOf m c) (pOf m c)) g k := by
  rw [P1]
  exact pool_eq ⟪main_arg1⟫ ⟪main_arg2⟫ ⟪main_arg3⟫ (Wend m c (𝔡 main_v89)) _ (R_v89 m c) g k

theorem R_pool2 (g : Fin 256) (k : Fin 64) :
    Wend m c (𝔡 main_v141) (ix2 g k) = Cert.GinMath.poolR (gOf m c) (Cert.GinMath.bR2 (gOf m c) (pOf m c)) g k := by
  rw [P2]
  exact pool_eq ⟪main_arg1⟫ ⟪main_arg2⟫ ⟪main_arg3⟫ (Wend m c (𝔡 main_v132)) _ (R_out0 m c) g k

end Cert.ReferenceIdeal.Hand

end
-- ==== Proof.Bridge.lean ====
/-
  The assembly.  Both runs are read in the terms of one mathematical statement about a three-layer message-passing
  network with batch normalisation: the graph (edges, weights, graph numbers) and the parameters are read off the
  kernel's arguments; under the precondition every weight and parameter is finite; the reference's arguments agree
  with the kernel's, so they spell the same graph and parameters; the kernel's two results are the statement's
  tile-by-tile network, the reference's are the textbook network, and on finite data the two networks agree.
-/
import proofs.«429418_j73830487818378_3_alg».proof.Defs
import proofs.«429418_j73830487818378_3_alg».proof.Proof.KRun
import proofs.«429418_j73830487818378_3_alg».proof.Proof.RefRun
import proofs.«429418_j73830487818378_3_alg».proof.Proof.GinMathProof
import proofs.«429418_j73830487818378_3_alg».proof.Proof.PreFin
import proofs.«429418_j73830487818378_3_alg».proof.Proof.Inst
import proofs.«429418_j73830487818378_3_alg».proof.Proof.KGlueEnd
import proofs.«429418_j73830487818378_3_alg».proof.Proof.RGlueEnd
import proofs.«429418_j73830487818378_3_alg».proof.Proof.K3Value
import proofs.«429418_j73830487818378_3_alg».proof.Proof.KChain2
import proofs.«429418_j73830487818378_3_alg».proof.Proof.KChainL0
import proofs.«429418_j73830487818378_3_alg».proof.Proof.KChainL1
import proofs.«429418_j73830487818378_3_alg».proof.Proof.KChainL2
import proofs.«429418_j73830487818378_3_alg».proof.Proof.RChain

noncomputable section
open scoped BigOperators
namespace Cert.Bridge
open Idealize.ShloMosaic Idealize.ShloMosaic.ValueIdx Idealize.SL.Sem Cert.Lib.EFin

variable (m : (ℓ : Loc Cert.KernelIdeal.nD Cert.KernelIdeal.τ Cert.KernelIdeal.sig) → Buf (Elt Ideal) ℓ) (c : Dev Cert.KernelIdeal.nD)

abbrev 𝔾 : Cert.GinMath.Graph := Cert.Inst.graph (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
abbrev 𝕡 : Cert.GinMath.Params := Cert.Inst.params (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))

theorem graph_ok (hpre : Cert.Pre_KernelIdeal m) : (𝔾 m c).Ok :=
  Cert.Inst.graph_ok _ _ _ (Cert.PreFin.finite_of_pre m hpre c).fin3

theorem params_fin (hpre : Cert.Pre_KernelIdeal m) : (𝕡 m c).Fin :=
  let hf := Cert.PreFin.finite_of_pre m hpre c
  { x := fun n j => hf.fin0 (ix2 n j)
    W1_0 := fun i j => hf.fin4 (ix2 i j), b1_0 := fun j => hf.fin5 (ix1 j), W2_0 := fun i j => hf.fin6 (ix2 i j), b2_0 := fun j => hf.fin7 (ix1 j)
    γ0 := fun j => hf.fin8 (ix1 j), β0 := fun j => hf.fin9 (ix1 j)
    W1_1 := fun i j => hf.fin10 (ix2 i j), b1_1 := fun j => hf.fin11 (ix1 j), W2_1 := fun i j => hf.fin12 (ix2 i j), b2_1 := fun j => hf.fin13 (ix1 j)
    γ1 := fun j => hf.fin14 (ix1 j), β1 := fun j => hf.fin15 (ix1 j)
    W1_2 := fun i j => hf.fin16 (ix2 i j), b1_2 := fun j => hf.fin17 (ix1 j), W2_2 := fun i j => hf.fin18 (ix2 i j), b2_2 := fun j => hf.fin19 (ix1 j)
    γ2 := fun j => hf.fin20 (ix1 j), β2 := fun j => hf.fin21 (ix1 j) }

/-! ## The two results agree, given each side in the mathematical statement's terms

Both programs' results are read, entry by entry, as the mathematical statement's functions of ONE graph and ONE set of
parameters: the kernel's rows as the tile-by-tile normalisation of its last layer and its three per-graph blocks as the
pooled-then-normalised sums; the reference's rows as the textbook normalisation and its three per-graph tables as the
sums of the normalised rows.  The statement's two networks agree where the graph's weights and the parameters are
finite; so the rows agree, the blocks agree, and the side-by-side tables agree. -/

section Core

open Cert.GinMath Cert.ReferenceIdeal.Glue

/-- The two results, as arrays: equal rows, and equal side-by-side tables of the three per-graph blocks. -/
theorem results_core (𝔾 : Graph) (p : Params) (h𝔾 : 𝔾.Ok) (hp : p.Fin)
    {k189 r132 : (⟨2, ![50000, 64]⟩ : Shape).Idx → EReal}
    {k64 k121 k178 r135 r138 r141 : (⟨2, ![256, 64]⟩ : Shape).Idx → EReal}
    (KO : ∀ n k, k189 (ix2 n k) = bnK 𝔾 (hK2 𝔾 p) p.γ2 p.β2 n k)
    (RO : ∀ n k, r132 (ix2 n k) = bR2 𝔾 p n k)
    (KP0 : ∀ g k, k64 (ix2 g k) = poolK 𝔾 (hK0 𝔾 p) p.γ0 p.β0 g k)
    (KP1 : ∀ g k, k121 (ix2 g k) = poolK 𝔾 (hK1 𝔾 p) p.γ1 p.β1 g k)
    (KP2 : ∀ g k, k178 (ix2 g k) = poolK 𝔾 (hK2 𝔾 p) p.γ2 p.β2 g k)
    (RP0 : ∀ g k, r135 (ix2 g k) = poolR 𝔾 (bR0 𝔾 p) g k)
    (RP1 : ∀ g k, r138 (ix2 g k) = poolR 𝔾 (bR1 𝔾 p) g k)
    (RP2 : ∀ g k, r141 (ix2 g k) = poolR 𝔾 (bR2 𝔾 p) g k) :
    r132 = k189 ∧ outPool r135 r138 r141 = outPool k64 k121 k178 := by
  refine ⟨ext_ix2 fun n k => ?_, concat_congr (fun g k => ?_) (fun g k => ?_) (fun g k => ?_)⟩
  · rw [RO, KO, out_eq h𝔾 hp]
  · rw [RP0, KP0, pool0_eq h𝔾 hp]
  · rw [RP1, KP1, pool1_eq h𝔾 hp]
  · rw [RP2, KP2, pool2_eq h𝔾 hp]

end Core

/-! ## The two runs' results agree -/

section Results

open Cert.GinMath Cert.ReferenceIdeal.Glue Cert.KernelIdeal.Glue

variable (ρ : Dev Cert.KernelIdeal.nD → PrngReg)
  (m' : (ℓ : Loc Cert.ReferenceIdeal.nD Cert.ReferenceIdeal.τ Cert.ReferenceIdeal.sig) → Buf (Elt Ideal) ℓ)

/-- The graph the reference's own arguments spell. -/
abbrev 𝔾' : Cert.GinMath.Graph := Cert.Inst.graph (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
/-- The parameters the reference's own arguments spell. -/
abbrev 𝕡' : Cert.GinMath.Params := Cert.Inst.params (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21))

/-- Where the two programs' arguments agree, they spell one graph. -/
theorem graph_agree (hagree : (∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20) ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))) : 𝔾' c m' = 𝔾 m c := by
  obtain ⟨a0, a1, a2, a3, a4, a5, a6, a7, a8, a9, a10, a11, a12, a13, a14, a15, a16, a17, a18, a19, a20, a21⟩ := hagree c
  unfold 𝔾' 𝔾
  rw [a1, a2, a3]

/-- Where the two programs' arguments agree, they spell one set of parameters. -/
theorem params_agree (hagree : (∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20) ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))) : 𝕡' c m' = 𝕡 m c := by
  obtain ⟨a0, a1, a2, a3, a4, a5, a6, a7, a8, a9, a10, a11, a12, a13, a14, a15, a16, a17, a18, a19, a20, a21⟩ := hagree c
  unfold 𝕡' 𝕡
  rw [a0, a4, a5, a6, a7, a8, a9, a10, a11, a12, a13, a14, a15, a16, a17, a18, a19, a20, a21]

/-- The two results agree, given each program's chain in the statement's terms: the kernel's rows, three blocks and
    side-by-side table at the kernel's graph and parameters; the reference's rows, three per-graph tables and
    side-by-side table at the reference's. -/
theorem results_eq_of (hpre : Cert.Pre_KernelIdeal m) (hagree : (∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20) ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)))
    (KO : ∀ n k, (Cert.KernelIdeal.Fr.W9 m ρ c (Proc.devRef .tc Cert.KernelIdeal.main_v189) : (⟨2, ![50000, 64]⟩ : Shape).Idx → EReal) (ix2 n k)
      = bnK (𝔾 m c) (hK2 (𝔾 m c) (𝕡 m c)) (𝕡 m c).γ2 (𝕡 m c).β2 n k)
    (KP0 : ∀ g k, (Cert.KernelIdeal.Fr.W3 m ρ c (Proc.devRef .tc Cert.KernelIdeal.main_v64) : (⟨2, ![256, 64]⟩ : Shape).Idx → EReal) (ix2 g k)
      = poolK (𝔾 m c) (hK0 (𝔾 m c) (𝕡 m c)) (𝕡 m c).γ0 (𝕡 m c).β0 g k)
    (KP1 : ∀ g k, (Cert.KernelIdeal.Fr.W5 m ρ c (Proc.devRef .tc Cert.KernelIdeal.main_v121) : (⟨2, ![256, 64]⟩ : Shape).Idx → EReal) (ix2 g k)
      = poolK (𝔾 m c) (hK1 (𝔾 m c) (𝕡 m c)) (𝕡 m c).γ1 (𝕡 m c).β1 g k)
    (KP2 : ∀ g k, (Cert.KernelIdeal.Fr.W7 m ρ c (Proc.devRef .tc Cert.KernelIdeal.main_v178) : (⟨2, ![256, 64]⟩ : Shape).Idx → EReal) (ix2 g k)
      = poolK (𝔾 m c) (hK2 (𝔾 m c) (𝕡 m c)) (𝕡 m c).γ2 (𝕡 m c).β2 g k)
    (KO1 : (Cert.KernelIdeal.Fr.W9 m ρ c (Proc.devRef .tc Cert.KernelIdeal.main_v190) : FVec Ideal Cert.KernelIdeal.S256x192 .f32)
      = pool3 (F := Ideal) (Cert.KernelIdeal.Fr.W3 m ρ c (Proc.devRef .tc Cert.KernelIdeal.main_v64)) (Cert.KernelIdeal.Fr.W5 m ρ c (Proc.devRef .tc Cert.KernelIdeal.main_v121))
          (Cert.KernelIdeal.Fr.W7 m ρ c (Proc.devRef .tc Cert.KernelIdeal.main_v178)))
    (RO : ∀ n k, (Cert.ReferenceIdeal.Hand.Wend m' c (Proc.devRef .tc Cert.ReferenceIdeal.main_v132) : (⟨2, ![50000, 64]⟩ : Shape).Idx → EReal) (ix2 n k) = bR2 (𝔾' c m') (𝕡' c m') n k)
    (RQ0 : ∀ g k, (Cert.ReferenceIdeal.Hand.Wend m' c (Proc.devRef .tc Cert.ReferenceIdeal.main_v135) : (⟨2, ![256, 64]⟩ : Shape).Idx → EReal) (ix2 g k)
      = poolR (𝔾' c m') (bR0 (𝔾' c m') (𝕡' c m')) g k)
    (RQ1 : ∀ g k, (Cert.ReferenceIdeal.Hand.Wend m' c (Proc.devRef .tc Cert.ReferenceIdeal.main_v138) : (⟨2, ![256, 64]⟩ : Shape).Idx → EReal) (ix2 g k)
      = poolR (𝔾' c m') (bR1 (𝔾' c m') (𝕡' c m')) g k)
    (RQ2 : ∀ g k, (Cert.ReferenceIdeal.Hand.Wend m' c (Proc.devRef .tc Cert.ReferenceIdeal.main_v141) : (⟨2, ![256, 64]⟩ : Shape).Idx → EReal) (ix2 g k)
      = poolR (𝔾' c m') (bR2 (𝔾' c m') (𝕡' c m')) g k)
    (RO1 : (Cert.ReferenceIdeal.Hand.Wend m' c (Proc.devRef .tc Cert.ReferenceIdeal.main_v142) : (⟨2, ![256, 192]⟩ : Shape).Idx → EReal)
      = outPool (Cert.ReferenceIdeal.Hand.Wend m' c (Proc.devRef .tc Cert.ReferenceIdeal.main_v135)) (Cert.ReferenceIdeal.Hand.Wend m' c (Proc.devRef .tc Cert.ReferenceIdeal.main_v138)) (Cert.ReferenceIdeal.Hand.Wend m' c (Proc.devRef .tc Cert.ReferenceIdeal.main_v141))) :
    Cert.ReferenceIdeal.Hand.Wend m' c (Proc.devRef .tc Cert.ReferenceIdeal.main_v132) = Cert.KernelIdeal.Fr.W9 m ρ c (Proc.devRef .tc Cert.KernelIdeal.main_v189)
      ∧ Cert.ReferenceIdeal.Hand.Wend m' c (Proc.devRef .tc Cert.ReferenceIdeal.main_v142) = Cert.KernelIdeal.Fr.W9 m ρ c (Proc.devRef .tc Cert.KernelIdeal.main_v190) := by
  rw [graph_agree m c m' hagree, params_agree m c m' hagree] at RO RQ0 RQ1 RQ2
  obtain ⟨e1, e2⟩ := results_core (𝔾 m c) (𝕡 m c) (graph_ok m c hpre) (params_fin m c hpre) KO RO KP0 KP1 KP2 RQ0 RQ1 RQ2
  refine ⟨e1, ?_⟩
  rw [RO1, KO1, pool3_eq_outPool]
  exact e2

end Results
open Cert.KernelIdeal in
/-- The assembly, given the two equalities of results. -/
theorem algebraic_of
    (H0 : ∀ (m : (ℓ : Loc Cert.KernelIdeal.nD Cert.KernelIdeal.τ Cert.KernelIdeal.sig) → Buf (Elt Ideal) ℓ) (ρ : Dev Cert.KernelIdeal.nD → PrngReg)
      (m' : (ℓ : Loc Cert.ReferenceIdeal.nD Cert.ReferenceIdeal.τ Cert.ReferenceIdeal.sig) → Buf (Elt Ideal) ℓ), Cert.Pre_KernelIdeal m →
      (∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20) ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
      ∀ c : Dev Cert.KernelIdeal.nD, Cert.ReferenceIdeal.Hand.Wend m' c (Proc.devRef .tc Cert.ReferenceIdeal.main_v132) = Fr.W9 m ρ c (Proc.devRef .tc main_v189)
        ∧ Cert.ReferenceIdeal.Hand.Wend m' c (Proc.devRef .tc Cert.ReferenceIdeal.main_v142) = Fr.W9 m ρ c (Proc.devRef .tc main_v190)) :
    Cert.algebraic_KernelIdeal_ReferenceIdeal := by
  intro m ρ m' ρ' hpre hagree
  refine ⟨fun c => Fr.W9 m ρ c (Proc.devRef .tc main_v189), fun c => Fr.W9 m ρ c (Proc.devRef .tc main_v190), ?_, ?_⟩
  · exact (θ_run defs _ _).mono (fun r h c => ⟨h c _ (Fr.mem_uc main_v189 (by decide)), h c _ (Fr.mem_uc main_v190 (by decide)),
      (h c _ (Fr.mem_uc main_arg0 (by decide))).trans (Fr.W9_main_arg0 m ρ c),
      (h c _ (Fr.mem_uc main_arg1 (by decide))).trans (Fr.W9_main_arg1 m ρ c),
      (h c _ (Fr.mem_uc main_arg2 (by decide))).trans (Fr.W9_main_arg2 m ρ c),
      (h c _ (Fr.mem_uc main_arg3 (by decide))).trans (Fr.W9_main_arg3 m ρ c),
      (h c _ (Fr.mem_uc main_arg4 (by decide))).trans (Fr.W9_main_arg4 m ρ c),
      (h c _ (Fr.mem_uc main_arg5 (by decide))).trans (Fr.W9_main_arg5 m ρ c),
      (h c _ (Fr.mem_uc main_arg6 (by decide))).trans (Fr.W9_main_arg6 m ρ c),
      (h c _ (Fr.mem_uc main_arg7 (by decide))).trans (Fr.W9_main_arg7 m ρ c),
      (h c _ (Fr.mem_uc main_arg8 (by decide))).trans (Fr.W9_main_arg8 m ρ c),
      (h c _ (Fr.mem_uc main_arg9 (by decide))).trans (Fr.W9_main_arg9 m ρ c),
      (h c _ (Fr.mem_uc main_arg10 (by decide))).trans (Fr.W9_main_arg10 m ρ c),
      (h c _ (Fr.mem_uc main_arg11 (by decide))).trans (Fr.W9_main_arg11 m ρ c),
      (h c _ (Fr.mem_uc main_arg12 (by decide))).trans (Fr.W9_main_arg12 m ρ c),
      (h c _ (Fr.mem_uc main_arg13 (by decide))).trans (Fr.W9_main_arg13 m ρ c),
      (h c _ (Fr.mem_uc main_arg14 (by decide))).trans (Fr.W9_main_arg14 m ρ c),
      (h c _ (Fr.mem_uc main_arg15 (by decide))).trans (Fr.W9_main_arg15 m ρ c),
      (h c _ (Fr.mem_uc main_arg16 (by decide))).trans (Fr.W9_main_arg16 m ρ c),
      (h c _ (Fr.mem_uc main_arg17 (by decide))).trans (Fr.W9_main_arg17 m ρ c),
      (h c _ (Fr.mem_uc main_arg18 (by decide))).trans (Fr.W9_main_arg18 m ρ c),
      (h c _ (Fr.mem_uc main_arg19 (by decide))).trans (Fr.W9_main_arg19 m ρ c),
      (h c _ (Fr.mem_uc main_arg20 (by decide))).trans (Fr.W9_main_arg20 m ρ c),
      (h c _ (Fr.mem_uc main_arg21 (by decide))).trans (Fr.W9_main_arg21 m ρ c)⟩) (Fr.run_all m ρ)
  · exact (θ_run Cert.ReferenceIdeal.defs _ _).mono (fun r h c => ⟨(h c).1.trans (H0 m ρ m' hpre hagree c).1, (h c).2.1.trans (H0 m ρ m' hpre hagree c).2, (h c).2.2⟩)
      (Cert.ReferenceIdeal.Hand.run m' ρ')

/-! ## The claim -/

open Cert.KernelIdeal in
/-- The two results agree on every device: each program's chain, layer by layer, in the statement's terms. -/
theorem results_eq : ∀ (m : (ℓ : Loc Cert.KernelIdeal.nD Cert.KernelIdeal.τ Cert.KernelIdeal.sig) → Buf (Elt Ideal) ℓ) (ρ : Dev Cert.KernelIdeal.nD → PrngReg)
      (m' : (ℓ : Loc Cert.ReferenceIdeal.nD Cert.ReferenceIdeal.τ Cert.ReferenceIdeal.sig) → Buf (Elt Ideal) ℓ), Cert.Pre_KernelIdeal m →
      (∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20) ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
      ∀ c : Dev Cert.KernelIdeal.nD, Cert.ReferenceIdeal.Hand.Wend m' c (Proc.devRef .tc Cert.ReferenceIdeal.main_v132) = Cert.KernelIdeal.Fr.W9 m ρ c (Proc.devRef .tc Cert.KernelIdeal.main_v189)
        ∧ Cert.ReferenceIdeal.Hand.Wend m' c (Proc.devRef .tc Cert.ReferenceIdeal.main_v142) = Cert.KernelIdeal.Fr.W9 m ρ c (Proc.devRef .tc Cert.KernelIdeal.main_v190) := by
  intro m ρ m' hpre hagree c
  -- the kernel's chain: each layer's rows and statistics from the previous layer's
  have HP0 := Cert.KernelIdeal.Fr.hpK0_is m ρ c
  have S0 := Cert.KernelIdeal.Fr.statsK0 m ρ c
  have HP1 := Cert.KernelIdeal.Fr.hpK1_is m ρ c HP0 S0
  have S1 := Cert.KernelIdeal.Fr.statsK1 m ρ c HP0 S0
  have HP2 := Cert.KernelIdeal.Fr.hpK2_is m ρ c HP1 S1
  have S2 := Cert.KernelIdeal.Fr.statsK2 m ρ c HP1 S1
  exact results_eq_of m c ρ m' hpre hagree
    (Cert.KernelIdeal.Fr.K_out0 m ρ c HP2 S2 (fun r l => by
      -- the normalising region's output is the normalisation of its five input arrays, entry by entry
      have e := congrFun ((Cert.KernelIdeal.Fr.bnK_eq m ρ c).trans
        (Cert.KernelIdeal.Fr.final3_5 (Cert.KernelIdeal.Fr.V7 m ρ) c)) (ix2 r l)
      exact e))
    (Cert.KernelIdeal.Fr.K_pool0 m ρ c S0) (Cert.KernelIdeal.Fr.K_pool1 m ρ c S1) (Cert.KernelIdeal.Fr.K_pool2 m ρ c S2)
    (Cert.KernelIdeal.Fr.K_out1' m ρ c)
    (Cert.ReferenceIdeal.Hand.R_out0 m' c)
    (Cert.ReferenceIdeal.Hand.R_pool0 m' c) (Cert.ReferenceIdeal.Hand.R_pool1 m' c) (Cert.ReferenceIdeal.Hand.R_pool2 m' c)
    (Cert.ReferenceIdeal.Hand.R_out1' m' c)

/-- The idealized kernel and the idealized reference compute the same two results. -/
theorem algebraic : Cert.algebraic_KernelIdeal_ReferenceIdeal := algebraic_of results_eq

end Cert.Bridge
end
-- ==== Proof.lean ====
/-
  The certificate's claim.  Three frames — the printed kernel program at the bit-level instance, its idealization and
  the idealized reference each run to the end, fault nowhere and leave their arguments unchanged — the idealization's
  ledger (empty: the ideal pass rewrote nothing), and the algebraic equivalence of the idealized kernel and reference.

  The kernel program is four pipelined calls among stretches of host operations.  Each call's body is run once per
  control case (the first grid point of a core zero-fills the four accumulator outputs; the other points add to them),
  which gives the pipeline's proof data with every output block named; the program's run threads the buffers' contents
  through the nine items, so its last valuation names every buffer, the two results included.  The reference is a
  straight line of host operations whose composed value names its results.  Both results are then read down to an
  index and shown to be the two networks of Proof/GinMath.lean, equal on finite inputs.
-/
import proofs.«429418_j73830487818378_3_alg».proof.Defs
import proofs.«429418_j73830487818378_3_alg».proof.Proof.BRun
import proofs.«429418_j73830487818378_3_alg».proof.Proof.KRun
import proofs.«429418_j73830487818378_3_alg».proof.Proof.RefRun
import proofs.«429418_j73830487818378_3_alg».proof.Proof.Bridge
import proofs.«429418_j73830487818378_3_alg».proof.Proof.Gen.Kernel
import proofs.«429418_j73830487818378_3_alg».proof.Proof.Gen.KernelIdeal
import proofs.«429418_j73830487818378_3_alg».proof.Proof.Gen.ReferenceIdeal
import proofs.«429418_j73830487818378_3_alg».proof.Proof.Gen.Pre_finite_inputs

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    fun m ρ _ => Cert.ReferenceIdeal.Hand.frame m ρ,
    trivial,
    Cert.Bridge.algebraic⟩

end Cert.Proof

end
